-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v384)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v384) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v561) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x32 : Shape := ⟨2, ![100000, 32]⟩
abbrev S2x500000 : Shape := ⟨2, ![2, 500000]⟩
abbrev S128x64 : Shape := ⟨2, ![128, 64]⟩
abbrev S128 : Shape := ⟨1, ![128]⟩
abbrev S128x32 : Shape := ⟨2, ![128, 32]⟩
abbrev S3x128x128 : Shape := ⟨3, ![3, 128, 128]⟩
abbrev S3x128 : Shape := ⟨2, ![3, 128]⟩
abbrev S3x64x128 : Shape := ⟨3, ![3, 64, 128]⟩
abbrev S3x64 : Shape := ⟨2, ![3, 64]⟩
abbrev S2x128 : Shape := ⟨2, ![2, 128]⟩
abbrev S2x64 : Shape := ⟨2, ![2, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x64 : S_.BroadcastsInDim S3x64 (![] : Fin 0 → Fin S3x64.rank)
  reducesTo_S3x64_S_d0_1 : S3x64.ReducesTo [0, 1] S_
  bcast_S_S2x128 : S_.BroadcastsInDim S2x128 (![] : Fin 0 → Fin S2x128.rank)
  reducesTo_S2x128_S_d0_1 : S2x128.ReducesTo [0, 1] S_
  bcast_S_S2x64 : S_.BroadcastsInDim S2x64 (![] : Fin 0 → Fin S2x64.rank)
  reducesTo_S2x64_S_d0_1 : S2x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg24 : FVec F S64x64 .f32) (main_arg25 : FVec F S64 .f32) (main_arg26 : FVec F S1x64 .f32) (main_arg27 : FVec F S1 .f32) (main_v98 : IVec S_ 1) (main_v101 : IVec S2x64 1) (main_c_39 : IVec S_ 1) : IVec S_ 1 :=
  let main_v102 : IVec S_ 1 := (fun x v => Host.reduce IntOp.andi x v reducesTo_S2x64_S_d0_1 h_S_) main_v101 main_c_39
  let main_v103 : IVec S_ 1 := andi main_v98 main_v102
  let main_v104 : FVec F S64x64 .f32 := Host.absf main_arg24
  let main_cst_40 : FVec F S_ .f32 := constant S_ .f32 0x7F800000#32
  let main_v105 : FVec F S64x64 .f32 := broadcastInDim S64x64 ![] bcast_S_S64x64 main_cst_40
  let main_v106 : IVec S64x64 1 := cmpf .olt main_v104 main_v105
  let main_c_41 : IVec S_ 1 := constantI S_ 1 1#1
  let main_v107 : IVec S_ 1 := (fun x v => Host.reduce IntOp.andi x v reducesTo_S64x64_S_d0_1 h_S_) main_v106 main_c_41
  let main_v108 : IVec S_ 1 := andi main_v103 main_v107
  let main_v109 : FVec F S64 .f32 := Host.absf main_arg25
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S1x64 .f32 := Host.absf main_arg26
  let main_cst_44 : FVec F S_ .f32 := constant S_ .f32 0x7F800000#32
  let main_v115 : FVec F S1x64 .f32 := broadcastInDim S1x64 ![] bcast_S_S1x64 main_cst_44
  let main_v116 : IVec S1x64 1 := cmpf .olt main_v114 main_v115
  let main_c_45 : IVec S_ 1 := constantI S_ 1 1#1
  let main_v117 : IVec S_ 1 := (fun x v => Host.reduce IntOp.andi x v reducesTo_S1x64_S_d0_1 h_S_) main_v116 main_c_45
  let main_v118 : IVec S_ 1 := andi main_v113 main_v117
  let main_v119 : FVec F S1 .f32 := Host.absf main_arg27
  fn_part7 (F := F) main_v118 main_v119

def fn_part5 {F : FTy → Type} [FloatOps F] (main_arg21 : FVec F S2x128 .f32) (main_arg22 : FVec F S2x64 .f32) (main_arg23 : FVec F S2x64 .f32) (main_arg24 : FVec F S64x64 .f32) (main_arg25 : FVec F S64 .f32) (main_arg26 : FVec F S1x64 .f32) (main_arg27 : FVec F S1 .f32) (main_v83 : IVec S_ 1) (main_v84 : FVec F S2x128 .f32) (main_cst_32 : FVec F S_ .f32) : IVec S_ 1 :=
  let main_v85 : FVec F S2x128 .f32 := broadcastInDim S2x128 ![] bcast_S_S2x128 main_cst_32
  let main_v86 : IVec S2x128 1 := cmpf .olt main_v84 main_v85
  let main_c_33 : IVec S_ 1 := constantI S_ 1 1#1
  let main_v87 : IVec S_ 1 := (fun x v => Host.reduce IntOp.andi x v reducesTo_S2x128_S_d0_1 h_S_) main_v86 main_c_33
  let main_v88 : IVec S_ 1 := andi main_v83 main_v87
  let main_v89 : FVec F S2x128 .f32 := Host.absf main_arg21
  let main_cst_34 : FVec F S_ .f32 := constant S_ .f32 0x7F800000#32
  let main_v90 : FVec F S2x128 .f32 := broadcastInDim S2x128 ![] bcast_S_S2x128 main_cst_34
  let main_v91 : IVec S2x128 1 := cmpf .olt main_v89 main_v90
  let main_c_35 : IVec S_ 1 := constantI S_ 1 1#1
  let main_v92 : IVec S_ 1 := (fun x v => Host.reduce IntOp.andi x v reducesTo_S2x128_S_d0_1 h_S_) main_v91 main_c_35
  let main_v93 : IVec S_ 1 := andi main_v88 main_v92
  let main_v94 : FVec F S2x64 .f32 := Host.absf main_arg22
  let main_cst_36 : FVec F S_ .f32 := constant S_ .f32 0x7F800000#32
  let main_v95 : FVec F S2x64 .f32 := broadcastInDim S2x64 ![] bcast_S_S2x64 main_cst_36
  let main_v96 : IVec S2x64 1 := cmpf .olt main_v94 main_v95
  let main_c_37 : IVec S_ 1 := constantI S_ 1 1#1
  let main_v97 : IVec S_ 1 := (fun x v => Host.reduce IntOp.andi x v reducesTo_S2x64_S_d0_1 h_S_) main_v96 main_c_37
  let main_v98 : IVec S_ 1 := andi main_v93 main_v97
  let main_v99 : FVec F S2x64 .f32 := Host.absf main_arg23
  let main_cst_38 : FVec F S_ .f32 := constant S_ .f32 0x7F800000#32
  let main_v100 : FVec F S2x64 .f32 := broadcastInDim S2x64 ![] bcast_S_S2x64 main_cst_38
  let main_v101 : IVec S2x64 1 := cmpf .olt main_v99 main_v100
  let main_c_39 : IVec S_ 1 := constantI S_ 1 1#1
  fn_part6 (F := F) main_arg24 main_arg25 main_arg26 main_arg27 main_v98 main_v101 main_c_39

def fn_part4 {F : FTy → Type} [FloatOps F] (main_arg17 : FVec F S3x64x128 .f32) (main_arg18 : FVec F S2x128 .f32) (main_arg19 : FVec F S2x128 .f32) (main_arg20 : FVec F S2x128 .f32) (main_arg21 : FVec F S2x128 .f32) (main_arg22 : FVec F S2x64 .f32) (main_arg23 : FVec F S2x64 .f32) (main_arg24 : FVec F S64x64 .f32) (main_arg25 : FVec F S64 .f32) (main_arg26 : FVec F S1x64 .f32) (main_arg27 : FVec F S1 .f32) (main_v63 : IVec S_ 1) (main_v67 : IVec S_ 1) : IVec S_ 1 :=
  let main_v68 : IVec S_ 1 := andi main_v63 main_v67
  let main_v69 : FVec F S3x64x128 .f32 := Host.absf main_arg17
  let main_cst_26 : FVec F S_ .f32 := constant S_ .f32 0x7F800000#32
  let main_v70 : FVec F S3x64x128 .f32 := broadcastInDim S3x64x128 ![] bcast_S_S3x64x128 main_cst_26
  let main_v71 : IVec S3x64x128 1 := cmpf .olt main_v69 main_v70
  let main_c_27 : IVec S_ 1 := constantI S_ 1 1#1
  let main_v72 : IVec S_ 1 := (fun x v => Host.reduce IntOp.andi x v reducesTo_S3x64x128_S_d0_1_2 h_S_) main_v71 main_c_27
  let main_v73 : IVec S_ 1 := andi main_v68 main_v72
  let main_v74 : FVec F S2x128 .f32 := Host.absf main_arg18
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  let main_v79 : FVec F S2x128 .f32 := Host.absf main_arg19
  let main_cst_30 : FVec F S_ .f32 := constant S_ .f32 0x7F800000#32
  let main_v80 : FVec F S2x128 .f32 := broadcastInDim S2x128 ![] bcast_S_S2x128 main_cst_30
  let main_v81 : IVec S2x128 1 := cmpf .olt main_v79 main_v80
  let main_c_31 : IVec S_ 1 := constantI S_ 1 1#1
  let main_v82 : IVec S_ 1 := (fun x v => Host.reduce IntOp.andi x v reducesTo_S2x128_S_d0_1 h_S_) main_v81 main_c_31
  let main_v83 : IVec S_ 1 := andi main_v78 main_v82
  let main_v84 : FVec F S2x128 .f32 := Host.absf main_arg20
  let main_cst_32 : FVec F S_ .f32 := constant S_ .f32 0x7F800000#32
  fn_part5 (F := F) main_arg21 main_arg22 main_arg23 main_arg24 main_arg25 main_arg26 main_arg27 main_v83 main_v84 main_cst_32

def fn_part3 {F : FTy → Type} [FloatOps F] (main_arg14 : FVec F S3x128x128 .f32) (main_arg15 : FVec F S3x64x128 .f32) (main_arg16 : FVec F S3x64 .f32) (main_arg17 : FVec F S3x64x128 .f32) (main_arg18 : FVec F S2x128 .f32) (main_arg19 : FVec F S2x128 .f32) (main_arg20 : FVec F S2x128 .f32) (main_arg21 : FVec F S2x128 .f32) (main_arg22 : FVec F S2x64 .f32) (main_arg23 : FVec F S2x64 .f32) (main_arg24 : FVec F S64x64 .f32) (main_arg25 : FVec F S64 .f32) (main_arg26 : FVec F S1x64 .f32) (main_arg27 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128x128 .f32 := Host.absf main_arg14
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x64x128 .f32 := Host.absf main_arg15
  let main_cst_22 : FVec F S_ .f32 := constant S_ .f32 0x7F800000#32
  let main_v60 : FVec F S3x64x128 .f32 := broadcastInDim S3x64x128 ![] bcast_S_S3x64x128 main_cst_22
  let main_v61 : IVec S3x64x128 1 := cmpf .olt main_v59 main_v60
  let main_c_23 : IVec S_ 1 := constantI S_ 1 1#1
  let main_v62 : IVec S_ 1 := (fun x v => Host.reduce IntOp.andi x v reducesTo_S3x64x128_S_d0_1_2 h_S_) main_v61 main_c_23
  let main_v63 : IVec S_ 1 := andi main_v58 main_v62
  let main_v64 : FVec F S3x64 .f32 := Host.absf main_arg16
  let main_cst_24 : FVec F S_ .f32 := constant S_ .f32 0x7F800000#32
  let main_v65 : FVec F S3x64 .f32 := broadcastInDim S3x64 ![] bcast_S_S3x64 main_cst_24
  let main_v66 : IVec S3x64 1 := cmpf .olt main_v64 main_v65
  let main_c_25 : IVec S_ 1 := constantI S_ 1 1#1
  let main_v67 : IVec S_ 1 := (fun x v => Host.reduce IntOp.andi x v reducesTo_S3x64_S_d0_1 h_S_) main_v66 main_c_25
  fn_part4 (F := F) main_arg17 main_arg18 main_arg19 main_arg20 main_arg21 main_arg22 main_arg23 main_arg24 main_arg25 main_arg26 main_arg27 main_v63 main_v67

def fn_part2 {F : FTy → Type} [FloatOps F] (main_arg10 : FVec F S3x128 .f32) (main_arg11 : FVec F S3x128x128 .f32) (main_arg12 : FVec F S3x128x128 .f32) (main_arg13 : FVec F S3x128 .f32) (main_arg14 : FVec F S3x128x128 .f32) (main_arg15 : FVec F S3x64x128 .f32) (main_arg16 : FVec F S3x64 .f32) (main_arg17 : FVec F S3x64x128 .f32) (main_arg18 : FVec F S2x128 .f32) (main_arg19 : FVec F S2x128 .f32) (main_arg20 : FVec F S2x128 .f32) (main_arg21 : FVec F S2x128 .f32) (main_arg22 : FVec F S2x64 .f32) (main_arg23 : FVec F S2x64 .f32) (main_arg24 : FVec F S64x64 .f32) (main_arg25 : FVec F S64 .f32) (main_arg26 : FVec F S1x64 .f32) (main_arg27 : FVec F S1 .f32) (main_v33 : IVec S_ 1) : IVec S_ 1 :=
  let main_v34 : FVec F S3x128 .f32 := Host.absf main_arg10
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg11
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128x128 .f32 := Host.absf main_arg12
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg13
  let main_cst_18 : FVec F S_ .f32 := constant S_ .f32 0x7F800000#32
  let main_v50 : FVec F S3x128 .f32 := broadcastInDim S3x128 ![] bcast_S_S3x128 main_cst_18
  fn_part3 (F := F) main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg7 : FVec F S128x32 .f32) (main_arg8 : FVec F S128 .f32) (main_arg9 : FVec F S3x128x128 .f32) (main_arg10 : FVec F S3x128 .f32) (main_arg11 : FVec F S3x128x128 .f32) (main_arg12 : FVec F S3x128x128 .f32) (main_arg13 : FVec F S3x128 .f32) (main_arg14 : FVec F S3x128x128 .f32) (main_arg15 : FVec F S3x64x128 .f32) (main_arg16 : FVec F S3x64 .f32) (main_arg17 : FVec F S3x64x128 .f32) (main_arg18 : FVec F S2x128 .f32) (main_arg19 : FVec F S2x128 .f32) (main_arg20 : FVec F S2x128 .f32) (main_arg21 : FVec F S2x128 .f32) (main_arg22 : FVec F S2x64 .f32) (main_arg23 : FVec F S2x64 .f32) (main_arg24 : FVec F S64x64 .f32) (main_arg25 : FVec F S64 .f32) (main_arg26 : FVec F S1x64 .f32) (main_arg27 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg7
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg9
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S200000x64 .f32) (main_arg1 : FVec F S100000x32 .f32) (main_arg2 : IVec S2x500000 32) (main_arg3 : IVec S2x500000 32) (main_arg4 : IVec S2x500000 32) (main_arg5 : FVec F S128x64 .f32) (main_arg6 : FVec F S128 .f32) (main_arg7 : FVec F S128x32 .f32) (main_arg8 : FVec F S128 .f32) (main_arg9 : FVec F S3x128x128 .f32) (main_arg10 : FVec F S3x128 .f32) (main_arg11 : FVec F S3x128x128 .f32) (main_arg12 : FVec F S3x128x128 .f32) (main_arg13 : FVec F S3x128 .f32) (main_arg14 : FVec F S3x128x128 .f32) (main_arg15 : FVec F S3x64x128 .f32) (main_arg16 : FVec F S3x64 .f32) (main_arg17 : FVec F S3x64x128 .f32) (main_arg18 : FVec F S2x128 .f32) (main_arg19 : FVec F S2x128 .f32) (main_arg20 : FVec F S2x128 .f32) (main_arg21 : FVec F S2x128 .f32) (main_arg22 : FVec F S2x64 .f32) (main_arg23 : FVec F S2x64 .f32) (main_arg24 : FVec F S64x64 .f32) (main_arg25 : FVec F S64 .f32) (main_arg26 : FVec F S1x64 .f32) (main_arg27 : FVec F S1 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S200000x64 : Shape := ⟨2, ![200000, 64]⟩
abbrev S100000x32 : Shape := ⟨2, ![100000, 32]⟩
abbrev S2x500000 : Shape := ⟨2, ![2, 500000]⟩
abbrev S128x64 : Shape := ⟨2, ![128, 64]⟩
abbrev S128 : Shape := ⟨1, ![128]⟩
abbrev S128x32 : Shape := ⟨2, ![128, 32]⟩
abbrev S3x128x128 : Shape := ⟨3, ![3, 128, 128]⟩
abbrev S3x128 : Shape := ⟨2, ![3, 128]⟩
abbrev S3x64x128 : Shape := ⟨3, ![3, 64, 128]⟩
abbrev S3x64 : Shape := ⟨2, ![3, 64]⟩
abbrev S2x128 : Shape := ⟨2, ![2, 128]⟩
abbrev S2x64 : Shape := ⟨2, ![2, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x128 : Shape := ⟨2, ![1, 128]⟩
abbrev S200000x128 : Shape := ⟨2, ![200000, 128]⟩
abbrev S5000x64 : Shape := ⟨2, ![5000, 64]⟩
abbrev S5000x128 : Shape := ⟨2, ![5000, 128]⟩
abbrev S64x128 : Shape := ⟨2, ![64, 128]⟩
abbrev S100000x128 : Shape := ⟨2, ![100000, 128]⟩
abbrev S5000x32 : Shape := ⟨2, ![5000, 32]⟩
abbrev S32x128 : Shape := ⟨2, ![32, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S1x128x128 : Shape := ⟨3, ![1, 128, 128]⟩
abbrev S128x128 : Shape := ⟨2, ![128, 128]⟩
abbrev S5000 : Shape := ⟨1, ![5000]⟩
abbrev S5000x1 : Shape := ⟨2, ![5000, 1]⟩
abbrev S200000 : Shape := ⟨1, ![200000]⟩
abbrev S200000x1 : Shape := ⟨2, ![200000, 1]⟩
abbrev S1x64x128 : Shape := ⟨3, ![1, 64, 128]⟩
abbrev S100000x64 : Shape := ⟨2, ![100000, 64]⟩
abbrev S1x1 : Shape := ⟨2, ![1, 1]⟩
abbrev S64x1 : Shape := ⟨2, ![64, 1]⟩

abbrev nBuf : Space → Nat
  | .hbm => 611
  | .vmem => 149
  | .smem => 0
  | _ => 0

abbrev hbmTy0_0 (i : Nat) : BufTy := match i % 128 with
  | 0 => ⟨S200000x64, .f32⟩
  | 1 => ⟨S100000x32, .f32⟩
  | 2 => ⟨S2x500000, .i32⟩
  | 3 => ⟨S2x500000, .i32⟩
  | 4 => ⟨S2x500000, .i32⟩
  | 5 => ⟨S128x64, .f32⟩
  | 6 => ⟨S128, .f32⟩
  | 7 => ⟨S128x32, .f32⟩
  | 8 => ⟨S128, .f32⟩
  | 9 => ⟨S3x128x128, .f32⟩
  | 10 => ⟨S3x128, .f32⟩
  | 11 => ⟨S3x128x128, .f32⟩
  | 12 => ⟨S3x128x128, .f32⟩
  | 13 => ⟨S3x128, .f32⟩
  | 14 => ⟨S3x128x128, .f32⟩
  | 15 => ⟨S3x64x128, .f32⟩
  | 16 => ⟨S3x64, .f32⟩
  | 17 => ⟨S3x64x128, .f32⟩
  | 18 => ⟨S2x128, .f32⟩
  | 19 => ⟨S2x128, .f32⟩
  | 20 => ⟨S2x128, .f32⟩
  | 21 => ⟨S2x128, .f32⟩
  | 22 => ⟨S2x64, .f32⟩
  | 23 => ⟨S2x64, .f32⟩
  | 24 => ⟨S64x64, .f32⟩
  | 25 => ⟨S64, .f32⟩
  | 26 => ⟨S1x64, .f32⟩
  | 27 => ⟨S1, .f32⟩
  | 28 => ⟨S1x128, .f32⟩
  | 29 => ⟨S200000x128, .f32⟩
  | 30 => ⟨S1x128, .f32⟩
  | 31 => ⟨S100000x128, .f32⟩
  | 32 => ⟨S1x500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S1x500000, .i32⟩
  | 44 => ⟨S500000, .i32⟩
  | 45 => ⟨S_, .f32⟩
  | 46 => ⟨S100000x128, .f32⟩
  | 47 => ⟨S500000x1, .i32⟩
  | 48 => ⟨S100000x128, .f32⟩
  | 49 => ⟨S_, .f32⟩
  | 50 => ⟨S500000, .f32⟩
  | 51 => ⟨S1x500000, .i32⟩
  | 52 => ⟨S500000, .i32⟩
  | 53 => ⟨S_, .f32⟩
  | 54 => ⟨S100000, .f32⟩
  | 55 => ⟨S500000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S1x128x128, .f32⟩
  | 64 => ⟨S128x128, .f32⟩
  | 65 => ⟨S1x128, .f32⟩
  | 66 => ⟨S128, .f32⟩
  | 67 => ⟨S1x128x128, .f32⟩
  | 68 => ⟨S128x128, .f32⟩
  | 69 => ⟨S1x128, .f32⟩
  | 70 => ⟨S100000x128, .f32⟩
  | 71 => ⟨S1x500000, .i32⟩
  | 72 => ⟨S500000, .i32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S1x500000, .i32⟩
  | 83 => ⟨S500000, .i32⟩
  | 84 => ⟨S_, .f32⟩
  | 85 => ⟨S200000x128, .f32⟩
  | 86 => ⟨S500000x1, .i32⟩
  | 87 => ⟨S200000x128, .f32⟩
  | 88 => ⟨S_, .f32⟩
  | 89 => ⟨S500000, .f32⟩
  | 90 => ⟨S1x500000, .i32⟩
  | 91 => ⟨S500000, .i32⟩
  | 92 => ⟨S_, .f32⟩
  | 93 => ⟨S200000, .f32⟩
  | 94 => ⟨S500000x1, .i32⟩
  | 95 => ⟨S200000, .f32⟩
  | 96 => ⟨S_, .f32⟩
  | 97 => ⟨S200000, .f32⟩
  | 98 => ⟨S200000, .f32⟩
  | 99 => ⟨S200000x1, .f32⟩
  | 100 => ⟨S200000x128, .f32⟩
  | 101 => ⟨S200000x128, .f32⟩
  | 102 => ⟨S1x128x128, .f32⟩
  | 103 => ⟨S128x128, .f32⟩
  | 104 => ⟨S1x128, .f32⟩
  | 105 => ⟨S128, .f32⟩
  | 106 => ⟨S1x128x128, .f32⟩
  | 107 => ⟨S128x128, .f32⟩
  | 108 => ⟨S1x128, .f32⟩
  | 109 => ⟨S200000x128, .f32⟩
  | 110 => ⟨S1x500000, .i32⟩
  | 111 => ⟨S500000, .i32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x128, .f32⟩
  | 121 => ⟨S1x500000, .i32⟩
  | 122 => ⟨S500000, .i32⟩
  | 123 => ⟨S_, .f32⟩
  | 124 => ⟨S200000x128, .f32⟩
  | 125 => ⟨S500000x1, .i32⟩
  | 126 => ⟨S200000x128, .f32⟩
  | 127 => ⟨S_, .f32⟩
  | _ => ⟨S200000x64, .f32⟩

abbrev hbmTy0_1 (i : Nat) : BufTy := match i % 128 with
  | 0 => ⟨S500000, .f32⟩
  | 1 => ⟨S1x500000, .i32⟩
  | 2 => ⟨S500000, .i32⟩
  | 3 => ⟨S_, .f32⟩
  | 4 => ⟨S200000, .f32⟩
  | 5 => ⟨S500000x1, .i32⟩
  | 6 => ⟨S200000, .f32⟩
  | 7 => ⟨S_, .f32⟩
  | 8 => ⟨S200000, .f32⟩
  | 9 => ⟨S200000, .f32⟩
  | 10 => ⟨S200000x1, .f32⟩
  | 11 => ⟨S200000x128, .f32⟩
  | 12 => ⟨S200000x128, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S200000x128, .f32⟩
  | 21 => ⟨S200000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S200000x128, .f32⟩
  | 35 => ⟨S200000x128, .f32⟩
  | 36 => ⟨S200000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S1x128, .f32⟩
  | 84 => ⟨S1x128, .f32⟩
  | 85 => ⟨S1x128, .f32⟩
  | 86 => ⟨S200000x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S1x128, .f32⟩
  | 95 => ⟨S100000x128, .f32⟩
  | 96 => ⟨S1x500000, .i32⟩
  | 97 => ⟨S500000, .i32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S1x500000, .i32⟩
  | 108 => ⟨S500000, .i32⟩
  | 109 => ⟨S_, .f32⟩
  | 110 => ⟨S100000x128, .f32⟩
  | 111 => ⟨S500000x1, .i32⟩
  | 112 => ⟨S100000x128, .f32⟩
  | 113 => ⟨S_, .f32⟩
  | 114 => ⟨S500000, .f32⟩
  | 115 => ⟨S1x500000, .i32⟩
  | 116 => ⟨S500000, .i32⟩
  | 117 => ⟨S_, .f32⟩
  | 118 => ⟨S100000, .f32⟩
  | 119 => ⟨S500000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S1x128x128, .f32⟩
  | _ => ⟨S200000x64, .f32⟩

abbrev hbmTy0_2 (i : Nat) : BufTy := match i % 128 with
  | 0 => ⟨S128x128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S100000x128, .f32⟩
  | 7 => ⟨S1x500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x128, .f32⟩
  | 18 => ⟨S1x500000, .i32⟩
  | 19 => ⟨S500000, .i32⟩
  | 20 => ⟨S_, .f32⟩
  | 21 => ⟨S200000x128, .f32⟩
  | 22 => ⟨S500000x1, .i32⟩
  | 23 => ⟨S200000x128, .f32⟩
  | 24 => ⟨S_, .f32⟩
  | 25 => ⟨S500000, .f32⟩
  | 26 => ⟨S1x500000, .i32⟩
  | 27 => ⟨S500000, .i32⟩
  | 28 => ⟨S_, .f32⟩
  | 29 => ⟨S200000, .f32⟩
  | 30 => ⟨S500000x1, .i32⟩
  | 31 => ⟨S200000, .f32⟩
  | 32 => ⟨S_, .f32⟩
  | 33 => ⟨S200000, .f32⟩
  | 34 => ⟨S200000, .f32⟩
  | 35 => ⟨S200000x1, .f32⟩
  | 36 => ⟨S200000x128, .f32⟩
  | 37 => ⟨S200000x128, .f32⟩
  | 38 => ⟨S1x128x128, .f32⟩
  | 39 => ⟨S128x128, .f32⟩
  | 40 => ⟨S1x128, .f32⟩
  | 41 => ⟨S128, .f32⟩
  | 42 => ⟨S1x128x128, .f32⟩
  | 43 => ⟨S128x128, .f32⟩
  | 44 => ⟨S1x128, .f32⟩
  | 45 => ⟨S200000x128, .f32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S1x500000, .i32⟩
  | 58 => ⟨S500000, .i32⟩
  | 59 => ⟨S_, .f32⟩
  | 60 => ⟨S200000x128, .f32⟩
  | 61 => ⟨S500000x1, .i32⟩
  | 62 => ⟨S200000x128, .f32⟩
  | 63 => ⟨S_, .f32⟩
  | 64 => ⟨S500000, .f32⟩
  | 65 => ⟨S1x500000, .i32⟩
  | 66 => ⟨S500000, .i32⟩
  | 67 => ⟨S_, .f32⟩
  | 68 => ⟨S200000, .f32⟩
  | 69 => ⟨S500000x1, .i32⟩
  | 70 => ⟨S200000, .f32⟩
  | 71 => ⟨S_, .f32⟩
  | 72 => ⟨S200000, .f32⟩
  | 73 => ⟨S200000, .f32⟩
  | 74 => ⟨S200000x1, .f32⟩
  | 75 => ⟨S200000x128, .f32⟩
  | 76 => ⟨S200000x128, .f32⟩
  | 77 => ⟨S1x128x128, .f32⟩
  | 78 => ⟨S128x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S200000x128, .f32⟩
  | 85 => ⟨S200000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S200000x128, .f32⟩
  | 99 => ⟨S200000x128, .f32⟩
  | 100 => ⟨S200000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S100000x128, .f32⟩
  | 127 => ⟨S100000x128, .f32⟩
  | _ => ⟨S200000x64, .f32⟩

abbrev hbmTy0_3 (i : Nat) : BufTy := match i % 128 with
  | 0 => ⟨S100000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S1x128, .f32⟩
  | 20 => ⟨S1x128, .f32⟩
  | 21 => ⟨S1x128, .f32⟩
  | 22 => ⟨S200000x128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S100000x128, .f32⟩
  | 32 => ⟨S1x500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S1x500000, .i32⟩
  | 44 => ⟨S500000, .i32⟩
  | 45 => ⟨S_, .f32⟩
  | 46 => ⟨S100000x128, .f32⟩
  | 47 => ⟨S500000x1, .i32⟩
  | 48 => ⟨S100000x128, .f32⟩
  | 49 => ⟨S_, .f32⟩
  | 50 => ⟨S500000, .f32⟩
  | 51 => ⟨S1x500000, .i32⟩
  | 52 => ⟨S500000, .i32⟩
  | 53 => ⟨S_, .f32⟩
  | 54 => ⟨S100000, .f32⟩
  | 55 => ⟨S500000x1, .i32⟩
  | 56 => ⟨S100000, .f32⟩
  | 57 => ⟨S_, .f32⟩
  | 58 => ⟨S100000, .f32⟩
  | 59 => ⟨S100000, .f32⟩
  | 60 => ⟨S100000x1, .f32⟩
  | 61 => ⟨S100000x128, .f32⟩
  | 62 => ⟨S100000x128, .f32⟩
  | 63 => ⟨S1x64x128, .f32⟩
  | 64 => ⟨S64x128, .f32⟩
  | 65 => ⟨S1x64, .f32⟩
  | 66 => ⟨S64, .f32⟩
  | 67 => ⟨S1x64x128, .f32⟩
  | 68 => ⟨S64x128, .f32⟩
  | 69 => ⟨S1x64, .f32⟩
  | 70 => ⟨S100000x64, .f32⟩
  | 71 => ⟨S1x500000, .i32⟩
  | 72 => ⟨S500000, .i32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x128, .f32⟩
  | 82 => ⟨S1x500000, .i32⟩
  | 83 => ⟨S500000, .i32⟩
  | 84 => ⟨S_, .f32⟩
  | 85 => ⟨S200000x128, .f32⟩
  | 86 => ⟨S500000x1, .i32⟩
  | 87 => ⟨S200000x128, .f32⟩
  | 88 => ⟨S_, .f32⟩
  | 89 => ⟨S500000, .f32⟩
  | 90 => ⟨S1x500000, .i32⟩
  | 91 => ⟨S500000, .i32⟩
  | 92 => ⟨S_, .f32⟩
  | 93 => ⟨S200000, .f32⟩
  | 94 => ⟨S500000x1, .i32⟩
  | 95 => ⟨S200000, .f32⟩
  | 96 => ⟨S_, .f32⟩
  | 97 => ⟨S200000, .f32⟩
  | 98 => ⟨S200000, .f32⟩
  | 99 => ⟨S200000x1, .f32⟩
  | 100 => ⟨S200000x128, .f32⟩
  | 101 => ⟨S200000x128, .f32⟩
  | 102 => ⟨S1x64x128, .f32⟩
  | 103 => ⟨S64x128, .f32⟩
  | 104 => ⟨S1x64, .f32⟩
  | 105 => ⟨S64, .f32⟩
  | 106 => ⟨S1x64x128, .f32⟩
  | 107 => ⟨S64x128, .f32⟩
  | 108 => ⟨S1x64, .f32⟩
  | 109 => ⟨S200000x64, .f32⟩
  | 110 => ⟨S1x500000, .i32⟩
  | 111 => ⟨S500000, .i32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000x128, .f32⟩
  | 121 => ⟨S1x500000, .i32⟩
  | 122 => ⟨S500000, .i32⟩
  | 123 => ⟨S_, .f32⟩
  | 124 => ⟨S200000x128, .f32⟩
  | 125 => ⟨S500000x1, .i32⟩
  | 126 => ⟨S200000x128, .f32⟩
  | 127 => ⟨S_, .f32⟩
  | _ => ⟨S200000x64, .f32⟩

abbrev hbmTy0_4 (i : Nat) : BufTy := match i % 128 with
  | 0 => ⟨S500000, .f32⟩
  | 1 => ⟨S1x500000, .i32⟩
  | 2 => ⟨S500000, .i32⟩
  | 3 => ⟨S_, .f32⟩
  | 4 => ⟨S200000, .f32⟩
  | 5 => ⟨S500000x1, .i32⟩
  | 6 => ⟨S200000, .f32⟩
  | 7 => ⟨S_, .f32⟩
  | 8 => ⟨S200000, .f32⟩
  | 9 => ⟨S200000, .f32⟩
  | 10 => ⟨S200000x1, .f32⟩
  | 11 => ⟨S200000x128, .f32⟩
  | 12 => ⟨S200000x128, .f32⟩
  | 13 => ⟨S1x64x128, .f32⟩
  | 14 => ⟨S64x128, .f32⟩
  | 15 => ⟨S1x64, .f32⟩
  | 16 => ⟨S64, .f32⟩
  | 17 => ⟨S1x64x128, .f32⟩
  | 18 => ⟨S64x128, .f32⟩
  | 19 => ⟨S1x64, .f32⟩
  | 20 => ⟨S200000x64, .f32⟩
  | 21 => ⟨S200000x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S200000x64, .f32⟩
  | 35 => ⟨S200000x64, .f32⟩
  | 36 => ⟨S200000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S_, .f32⟩
  | 51 => ⟨S64, .f32⟩
  | 52 => ⟨S_, .f32⟩
  | 53 => ⟨S64, .f32⟩
  | 54 => ⟨S64, .f32⟩
  | 55 => ⟨S_, .i32⟩
  | 56 => ⟨S_, .f32⟩
  | 57 => ⟨S64, .f32⟩
  | 58 => ⟨S1x64, .f32⟩
  | 59 => ⟨S_, .f32⟩
  | 60 => ⟨S1x64, .f32⟩
  | 61 => ⟨S1x64, .f32⟩
  | 62 => ⟨S100000x64, .f32⟩
  | 63 => ⟨S100000x64, .f32⟩
  | 64 => ⟨S100000x64, .f32⟩
  | 65 => ⟨S_, .f32⟩
  | 66 => ⟨S_, .f32⟩
  | 67 => ⟨S_, .f32⟩
  | 68 => ⟨S_, .f32⟩
  | 69 => ⟨S64, .f32⟩
  | 70 => ⟨S64, .f32⟩
  | 71 => ⟨S64, .f32⟩
  | 72 => ⟨S_, .f32⟩
  | 73 => ⟨S_, .i1⟩
  | 74 => ⟨S_, .f32⟩
  | 75 => ⟨S_, .f32⟩
  | 76 => ⟨S64, .f32⟩
  | 77 => ⟨S64, .f32⟩
  | 78 => ⟨S1x64, .f32⟩
  | 79 => ⟨S64, .f32⟩
  | 80 => ⟨S1x64, .f32⟩
  | 81 => ⟨S64, .f32⟩
  | 82 => ⟨S1x64, .f32⟩
  | 83 => ⟨S1x64, .f32⟩
  | 84 => ⟨S1x64, .f32⟩
  | 85 => ⟨S1x64, .f32⟩
  | 86 => ⟨S200000x64, .f32⟩
  | 87 => ⟨S1x64, .f32⟩
  | 88 => ⟨S64, .f32⟩
  | 89 => ⟨S1x64, .f32⟩
  | 90 => ⟨S64, .f32⟩
  | 91 => ⟨S1x64, .f32⟩
  | 92 => ⟨S1x64, .f32⟩
  | 93 => ⟨S1x64, .f32⟩
  | 94 => ⟨S1x64, .f32⟩
  | 95 => ⟨S100000x64, .f32⟩
  | 96 => ⟨S1x64, .f32⟩
  | 97 => ⟨S1x1, .f32⟩
  | 98 => ⟨S200000x1, .f32⟩
  | _ => ⟨S200000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S200000x64, .f32⟩

abbrev vmemTy0_0 (i : Nat) : BufTy := match i % 128 with
  | 0 => ⟨S5000x64, .f32⟩
  | 1 => ⟨S5000x64, .f32⟩
  | 2 => ⟨S128x64, .f32⟩
  | 3 => ⟨S1x128, .f32⟩
  | 4 => ⟨S5000x128, .f32⟩
  | 5 => ⟨S5000x128, .f32⟩
  | 6 => ⟨S5000x32, .f32⟩
  | 7 => ⟨S5000x32, .f32⟩
  | 8 => ⟨S128x32, .f32⟩
  | 9 => ⟨S1x128, .f32⟩
  | 10 => ⟨S5000x128, .f32⟩
  | 11 => ⟨S5000x128, .f32⟩
  | 12 => ⟨S5000x128, .f32⟩
  | 13 => ⟨S5000x128, .f32⟩
  | 14 => ⟨S5000x128, .f32⟩
  | 15 => ⟨S5000x128, .f32⟩
  | 16 => ⟨S128x128, .f32⟩
  | 17 => ⟨S1x128, .f32⟩
  | 18 => ⟨S128x128, .f32⟩
  | 19 => ⟨S5000x128, .f32⟩
  | 20 => ⟨S5000x128, .f32⟩
  | 21 => ⟨S5000x128, .f32⟩
  | 22 => ⟨S5000x128, .f32⟩
  | 23 => ⟨S5000x128, .f32⟩
  | 24 => ⟨S5000x128, .f32⟩
  | 25 => ⟨S128x128, .f32⟩
  | 26 => ⟨S1x128, .f32⟩
  | 27 => ⟨S128x128, .f32⟩
  | 28 => ⟨S5000x128, .f32⟩
  | 29 => ⟨S5000x128, .f32⟩
  | 30 => ⟨S5000x128, .f32⟩
  | 31 => ⟨S5000x128, .f32⟩
  | 32 => ⟨S5000x128, .f32⟩
  | 33 => ⟨S5000x128, .f32⟩
  | 34 => ⟨S128x128, .f32⟩
  | 35 => ⟨S1x128, .f32⟩
  | 36 => ⟨S128x128, .f32⟩
  | 37 => ⟨S5000x128, .f32⟩
  | 38 => ⟨S5000x128, .f32⟩
  | 39 => ⟨S5000x128, .f32⟩
  | 40 => ⟨S5000x128, .f32⟩
  | 41 => ⟨S1x128, .f32⟩
  | 42 => ⟨S1x128, .f32⟩
  | 43 => ⟨S1x128, .f32⟩
  | 44 => ⟨S1x128, .f32⟩
  | 45 => ⟨S5000x128, .f32⟩
  | 46 => ⟨S5000x128, .f32⟩
  | 47 => ⟨S5000x128, .f32⟩
  | 48 => ⟨S5000x128, .f32⟩
  | 49 => ⟨S1x128, .f32⟩
  | 50 => ⟨S1x128, .f32⟩
  | 51 => ⟨S1x128, .f32⟩
  | 52 => ⟨S1x128, .f32⟩
  | 53 => ⟨S5000x128, .f32⟩
  | 54 => ⟨S5000x128, .f32⟩
  | 55 => ⟨S5000x128, .f32⟩
  | 56 => ⟨S5000x128, .f32⟩
  | 57 => ⟨S5000x128, .f32⟩
  | 58 => ⟨S5000x128, .f32⟩
  | 59 => ⟨S128x128, .f32⟩
  | 60 => ⟨S1x128, .f32⟩
  | 61 => ⟨S128x128, .f32⟩
  | 62 => ⟨S5000x128, .f32⟩
  | 63 => ⟨S5000x128, .f32⟩
  | 64 => ⟨S5000x128, .f32⟩
  | 65 => ⟨S5000x128, .f32⟩
  | 66 => ⟨S5000x128, .f32⟩
  | 67 => ⟨S5000x128, .f32⟩
  | 68 => ⟨S128x128, .f32⟩
  | 69 => ⟨S1x128, .f32⟩
  | 70 => ⟨S128x128, .f32⟩
  | 71 => ⟨S5000x128, .f32⟩
  | 72 => ⟨S5000x128, .f32⟩
  | 73 => ⟨S5000x128, .f32⟩
  | 74 => ⟨S5000x128, .f32⟩
  | 75 => ⟨S5000x128, .f32⟩
  | 76 => ⟨S5000x128, .f32⟩
  | 77 => ⟨S128x128, .f32⟩
  | 78 => ⟨S1x128, .f32⟩
  | 79 => ⟨S128x128, .f32⟩
  | 80 => ⟨S5000x128, .f32⟩
  | 81 => ⟨S5000x128, .f32⟩
  | 82 => ⟨S5000x128, .f32⟩
  | 83 => ⟨S5000x128, .f32⟩
  | 84 => ⟨S1x128, .f32⟩
  | 85 => ⟨S1x128, .f32⟩
  | 86 => ⟨S1x128, .f32⟩
  | 87 => ⟨S1x128, .f32⟩
  | 88 => ⟨S5000x128, .f32⟩
  | 89 => ⟨S5000x128, .f32⟩
  | 90 => ⟨S5000x128, .f32⟩
  | 91 => ⟨S5000x128, .f32⟩
  | 92 => ⟨S1x128, .f32⟩
  | 93 => ⟨S1x128, .f32⟩
  | 94 => ⟨S1x128, .f32⟩
  | 95 => ⟨S1x128, .f32⟩
  | 96 => ⟨S5000x128, .f32⟩
  | 97 => ⟨S5000x128, .f32⟩
  | 98 => ⟨S5000x128, .f32⟩
  | 99 => ⟨S5000x128, .f32⟩
  | 100 => ⟨S5000x128, .f32⟩
  | 101 => ⟨S5000x128, .f32⟩
  | 102 => ⟨S64x128, .f32⟩
  | 103 => ⟨S1x64, .f32⟩
  | 104 => ⟨S64x128, .f32⟩
  | 105 => ⟨S5000x64, .f32⟩
  | 106 => ⟨S5000x64, .f32⟩
  | 107 => ⟨S5000x128, .f32⟩
  | 108 => ⟨S5000x128, .f32⟩
  | 109 => ⟨S5000x128, .f32⟩
  | 110 => ⟨S5000x128, .f32⟩
  | 111 => ⟨S64x128, .f32⟩
  | 112 => ⟨S1x64, .f32⟩
  | 113 => ⟨S64x128, .f32⟩
  | 114 => ⟨S5000x64, .f32⟩
  | 115 => ⟨S5000x64, .f32⟩
  | 116 => ⟨S5000x128, .f32⟩
  | 117 => ⟨S5000x128, .f32⟩
  | 118 => ⟨S5000x128, .f32⟩
  | 119 => ⟨S5000x128, .f32⟩
  | 120 => ⟨S64x128, .f32⟩
  | 121 => ⟨S1x64, .f32⟩
  | 122 => ⟨S64x128, .f32⟩
  | 123 => ⟨S5000x64, .f32⟩
  | 124 => ⟨S5000x64, .f32⟩
  | 125 => ⟨S5000x64, .f32⟩
  | 126 => ⟨S5000x64, .f32⟩
  | 127 => ⟨S1x64, .f32⟩
  | _ => ⟨S200000x64, .f32⟩

abbrev vmemTy0_1 (i : Nat) : BufTy := match i % 128 with
  | 0 => ⟨S1x64, .f32⟩
  | 1 => ⟨S1x64, .f32⟩
  | 2 => ⟨S1x64, .f32⟩
  | 3 => ⟨S5000x64, .f32⟩
  | 4 => ⟨S5000x64, .f32⟩
  | 5 => ⟨S5000x64, .f32⟩
  | 6 => ⟨S5000x64, .f32⟩
  | 7 => ⟨S1x64, .f32⟩
  | 8 => ⟨S1x64, .f32⟩
  | 9 => ⟨S1x64, .f32⟩
  | 10 => ⟨S1x64, .f32⟩
  | 11 => ⟨S5000x64, .f32⟩
  | 12 => ⟨S5000x64, .f32⟩
  | 13 => ⟨S5000x64, .f32⟩
  | 14 => ⟨S5000x64, .f32⟩
  | 15 => ⟨S64x64, .f32⟩
  | 16 => ⟨S1x64, .f32⟩
  | 17 => ⟨S1x64, .f32⟩
  | 18 => ⟨S1x1, .f32⟩
  | 19 => ⟨S5000x1, .f32⟩
  | 20 => ⟨S5000x1, .f32⟩
  | _ => ⟨S200000x64, .f32⟩

abbrev vmemTy (i : Nat) : BufTy := match i / 128 with
  | 0 => vmemTy0_0 i
  | 1 => vmemTy0_1 i
  | _ => ⟨S200000x64, .f32⟩

abbrev bufTy : (tb : Table) → Fin (tcTables nBuf tb) → BufTy
  | .hbm, ⟨i, _⟩ => hbmTy i
  | .local _ .vmem, ⟨i, _⟩ => vmemTy i
  | _, _ => ⟨S200000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 149 → Bool
  | ⟨i, _⟩ => dmaSemScopedAt i

abbrev sig : RefSig :=
  ofTc nBuf bufTy 0 149 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_v7 : Ref sig .tc := ⟨.hbm, 36, rfl⟩
abbrev main_c_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_1 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst_3 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_4 : Ref sig .tc := ⟨.hbm, 73, rfl⟩
abbrev main_v39 : Ref sig .tc := ⟨.hbm, 74, rfl⟩
abbrev main_v40 : Ref sig .tc := ⟨.hbm, 75, rfl⟩
abbrev main_c_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_6 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_7 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_8 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_10 : Ref sig .tc := ⟨.hbm, 112, rfl⟩
abbrev main_v72 : Ref sig .tc := ⟨.hbm, 113, rfl⟩
abbrev main_v73 : Ref sig .tc := ⟨.hbm, 114, rfl⟩
abbrev main_c_11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_13 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_14 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_15 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_16 : Ref sig .tc := ⟨.hbm, 150, rfl⟩
abbrev main_v104 : Ref sig .tc := ⟨.hbm, 151, rfl⟩
abbrev main_cst_17 : Ref sig .tc := ⟨.hbm, 152, rfl⟩
abbrev main_v105 : Ref sig .tc := ⟨.hbm, 153, rfl⟩
abbrev main_v106 : Ref sig .tc := ⟨.hbm, 154, rfl⟩
abbrev main_c_18 : Ref sig .tc := ⟨.hbm, 155, rfl⟩
abbrev main_call0_cst : Ref sig .tc := ⟨.hbm, 156, rfl⟩
abbrev main_call0_v0 : Ref sig .tc := ⟨.hbm, 157, rfl⟩
abbrev main_call0_v1 : Ref sig .tc := ⟨.hbm, 158, rfl⟩
abbrev main_call0_cst_0 : Ref sig .tc := ⟨.hbm, 159, rfl⟩
abbrev main_call0_v2 : Ref sig .tc := ⟨.hbm, 160, rfl⟩
abbrev main_call0_v3 : Ref sig .tc := ⟨.hbm, 161, rfl⟩
abbrev main_call0_v4 : Ref sig .tc := ⟨.hbm, 162, rfl⟩
abbrev main_call0_v5 : Ref sig .tc := ⟨.hbm, 163, rfl⟩
abbrev main_call0_v6 : Ref sig .tc := ⟨.hbm, 164, rfl⟩
abbrev main_call0_v7 : Ref sig .tc := ⟨.hbm, 165, rfl⟩
abbrev main_call0_cst_1 : Ref sig .tc := ⟨.hbm, 166, rfl⟩
abbrev main_call0_v8 : Ref sig .tc := ⟨.hbm, 167, rfl⟩
abbrev main_call0_cst_2 : Ref sig .tc := ⟨.hbm, 168, rfl⟩
abbrev main_call0_v9 : Ref sig .tc := ⟨.hbm, 169, rfl⟩
abbrev main_call0_v10 : Ref sig .tc := ⟨.hbm, 170, rfl⟩
abbrev main_call0_v11 : Ref sig .tc := ⟨.hbm, 171, rfl⟩
abbrev main_call0_cst_3 : Ref sig .tc := ⟨.hbm, 172, rfl⟩
abbrev main_call0_v12 : Ref sig .tc := ⟨.hbm, 173, rfl⟩
abbrev main_call0_cst_4 : Ref sig .tc := ⟨.hbm, 174, rfl⟩
abbrev main_call0_call0_v0 : Ref sig .tc := ⟨.hbm, 175, rfl⟩
abbrev main_call0_call0_v1 : Ref sig .tc := ⟨.hbm, 176, rfl⟩
abbrev main_v107 : Ref sig .tc := ⟨.hbm, 177, rfl⟩
abbrev main_cst_19 : Ref sig .tc := ⟨.hbm, 178, rfl⟩
abbrev main_v108 : Ref sig .tc := ⟨.hbm, 179, rfl⟩
abbrev main_cst_20 : Ref sig .tc := ⟨.hbm, 180, rfl⟩
abbrev main_v109 : Ref sig .tc := ⟨.hbm, 181, rfl⟩
abbrev main_v110 : Ref sig .tc := ⟨.hbm, 182, rfl⟩
abbrev main_c_21 : Ref sig .tc := ⟨.hbm, 183, rfl⟩
abbrev main_call1_cst : Ref sig .tc := ⟨.hbm, 184, rfl⟩
abbrev main_call1_v0 : Ref sig .tc := ⟨.hbm, 185, rfl⟩
abbrev main_call1_v1 : Ref sig .tc := ⟨.hbm, 186, rfl⟩
abbrev main_call1_cst_0 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_v5 : Ref sig .tc := ⟨.hbm, 191, rfl⟩
abbrev main_call1_v6 : Ref sig .tc := ⟨.hbm, 192, rfl⟩
abbrev main_call1_v7 : Ref sig .tc := ⟨.hbm, 193, rfl⟩
abbrev main_call1_cst_1 : Ref sig .tc := ⟨.hbm, 194, rfl⟩
abbrev main_call1_v8 : Ref sig .tc := ⟨.hbm, 195, rfl⟩
abbrev main_call1_cst_2 : Ref sig .tc := ⟨.hbm, 196, rfl⟩
abbrev main_call1_v9 : Ref sig .tc := ⟨.hbm, 197, rfl⟩
abbrev main_call1_v10 : Ref sig .tc := ⟨.hbm, 198, rfl⟩
abbrev main_call1_v11 : Ref sig .tc := ⟨.hbm, 199, rfl⟩
abbrev main_call1_cst_3 : Ref sig .tc := ⟨.hbm, 200, rfl⟩
abbrev main_call1_v12 : Ref sig .tc := ⟨.hbm, 201, rfl⟩
abbrev main_call1_cst_4 : Ref sig .tc := ⟨.hbm, 202, rfl⟩
abbrev main_call1_call0_v0 : Ref sig .tc := ⟨.hbm, 203, rfl⟩
abbrev main_call1_call0_v1 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_c_22 : Ref sig .tc := ⟨.hbm, 226, rfl⟩
abbrev main_v132 : Ref sig .tc := ⟨.hbm, 227, rfl⟩
abbrev main_v133 : Ref sig .tc := ⟨.hbm, 228, rfl⟩
abbrev main_c_23 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_cst_24 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_cst_25 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_cst_26 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_cst_27 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_c_28 : Ref sig .tc := ⟨.hbm, 265, rfl⟩
abbrev main_v165 : Ref sig .tc := ⟨.hbm, 266, rfl⟩
abbrev main_v166 : Ref sig .tc := ⟨.hbm, 267, rfl⟩
abbrev main_c_29 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_cst_30 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_cst_31 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_cst_32 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_cst_33 : Ref sig .tc := ⟨.hbm, 288, rfl⟩
abbrev main_v183 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_c_34 : Ref sig .tc := ⟨.hbm, 304, rfl⟩
abbrev main_v198 : Ref sig .tc := ⟨.hbm, 305, rfl⟩
abbrev main_v199 : Ref sig .tc := ⟨.hbm, 306, rfl⟩
abbrev main_c_35 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_cst_36 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_cst_37 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_cst_38 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_cst_39 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_v228 : Ref sig .tc := ⟨.hbm, 340, rfl⟩
abbrev main_v229 : Ref sig .tc := ⟨.hbm, 341, rfl⟩
abbrev main_cst_40 : Ref sig .tc := ⟨.hbm, 342, rfl⟩
abbrev main_v230 : Ref sig .tc := ⟨.hbm, 343, rfl⟩
abbrev main_cst_41 : Ref sig .tc := ⟨.hbm, 344, rfl⟩
abbrev main_v231 : Ref sig .tc := ⟨.hbm, 345, rfl⟩
abbrev main_v232 : Ref sig .tc := ⟨.hbm, 346, rfl⟩
abbrev main_c_42 : Ref sig .tc := ⟨.hbm, 347, rfl⟩
abbrev main_call2_cst : Ref sig .tc := ⟨.hbm, 348, rfl⟩
abbrev main_call2_v0 : Ref sig .tc := ⟨.hbm, 349, rfl⟩
abbrev main_call2_v1 : Ref sig .tc := ⟨.hbm, 350, rfl⟩
abbrev main_call2_cst_0 : Ref sig .tc := ⟨.hbm, 351, rfl⟩
abbrev main_call2_v2 : Ref sig .tc := ⟨.hbm, 352, rfl⟩
abbrev main_call2_v3 : Ref sig .tc := ⟨.hbm, 353, rfl⟩
abbrev main_call2_v4 : Ref sig .tc := ⟨.hbm, 354, rfl⟩
abbrev main_call2_v5 : Ref sig .tc := ⟨.hbm, 355, rfl⟩
abbrev main_call2_v6 : Ref sig .tc := ⟨.hbm, 356, rfl⟩
abbrev main_call2_v7 : Ref sig .tc := ⟨.hbm, 357, rfl⟩
abbrev main_call2_cst_1 : Ref sig .tc := ⟨.hbm, 358, rfl⟩
abbrev main_call2_v8 : Ref sig .tc := ⟨.hbm, 359, rfl⟩
abbrev main_call2_cst_2 : Ref sig .tc := ⟨.hbm, 360, rfl⟩
abbrev main_call2_v9 : Ref sig .tc := ⟨.hbm, 361, rfl⟩
abbrev main_call2_v10 : Ref sig .tc := ⟨.hbm, 362, rfl⟩
abbrev main_call2_v11 : Ref sig .tc := ⟨.hbm, 363, rfl⟩
abbrev main_call2_cst_3 : Ref sig .tc := ⟨.hbm, 364, rfl⟩
abbrev main_call2_v12 : Ref sig .tc := ⟨.hbm, 365, rfl⟩
abbrev main_call2_cst_4 : Ref sig .tc := ⟨.hbm, 366, rfl⟩
abbrev main_call2_call0_v0 : Ref sig .tc := ⟨.hbm, 367, rfl⟩
abbrev main_call2_call0_v1 : Ref sig .tc := ⟨.hbm, 368, rfl⟩
abbrev main_v233 : Ref sig .tc := ⟨.hbm, 369, rfl⟩
abbrev main_cst_43 : Ref sig .tc := ⟨.hbm, 370, rfl⟩
abbrev main_v234 : Ref sig .tc := ⟨.hbm, 371, rfl⟩
abbrev main_cst_44 : Ref sig .tc := ⟨.hbm, 372, rfl⟩
abbrev main_v235 : Ref sig .tc := ⟨.hbm, 373, rfl⟩
abbrev main_v236 : Ref sig .tc := ⟨.hbm, 374, rfl⟩
abbrev main_c_45 : Ref sig .tc := ⟨.hbm, 375, rfl⟩
abbrev main_call3_cst : Ref sig .tc := ⟨.hbm, 376, rfl⟩
abbrev main_call3_v0 : Ref sig .tc := ⟨.hbm, 377, rfl⟩
abbrev main_call3_v1 : Ref sig .tc := ⟨.hbm, 378, rfl⟩
abbrev main_call3_cst_0 : Ref sig .tc := ⟨.hbm, 379, rfl⟩
abbrev main_call3_v2 : Ref sig .tc := ⟨.hbm, 380, rfl⟩
abbrev main_call3_v3 : Ref sig .tc := ⟨.hbm, 381, rfl⟩
abbrev main_call3_v4 : Ref sig .tc := ⟨.hbm, 382, rfl⟩
abbrev main_call3_v5 : Ref sig .tc := ⟨.hbm, 383, rfl⟩
abbrev main_call3_v6 : Ref sig .tc := ⟨.hbm, 384, rfl⟩
abbrev main_call3_v7 : Ref sig .tc := ⟨.hbm, 385, rfl⟩
abbrev main_call3_cst_1 : Ref sig .tc := ⟨.hbm, 386, rfl⟩
abbrev main_call3_v8 : Ref sig .tc := ⟨.hbm, 387, rfl⟩
abbrev main_call3_cst_2 : Ref sig .tc := ⟨.hbm, 388, rfl⟩
abbrev main_call3_v9 : Ref sig .tc := ⟨.hbm, 389, rfl⟩
abbrev main_call3_v10 : Ref sig .tc := ⟨.hbm, 390, rfl⟩
abbrev main_call3_v11 : Ref sig .tc := ⟨.hbm, 391, rfl⟩
abbrev main_call3_cst_3 : Ref sig .tc := ⟨.hbm, 392, rfl⟩
abbrev main_call3_v12 : Ref sig .tc := ⟨.hbm, 393, rfl⟩
abbrev main_call3_cst_4 : Ref sig .tc := ⟨.hbm, 394, rfl⟩
abbrev main_call3_call0_v0 : Ref sig .tc := ⟨.hbm, 395, rfl⟩
abbrev main_call3_call0_v1 : Ref sig .tc := ⟨.hbm, 396, rfl⟩
abbrev main_v237 : Ref sig .tc := ⟨.hbm, 397, rfl⟩
abbrev main_v238 : Ref sig .tc := ⟨.hbm, 398, rfl⟩
abbrev main_v239 : Ref sig .tc := ⟨.hbm, 399, rfl⟩
abbrev main_v240 : Ref sig .tc := ⟨.hbm, 400, rfl⟩
abbrev main_v241 : Ref sig .tc := ⟨.hbm, 401, rfl⟩
abbrev main_v242 : Ref sig .tc := ⟨.hbm, 402, rfl⟩
abbrev main_v243 : Ref sig .tc := ⟨.hbm, 403, rfl⟩
abbrev main_v244 : Ref sig .tc := ⟨.hbm, 404, rfl⟩
abbrev main_v245 : Ref sig .tc := ⟨.hbm, 405, rfl⟩
abbrev main_v246 : Ref sig .tc := ⟨.hbm, 406, rfl⟩
abbrev main_v247 : Ref sig .tc := ⟨.hbm, 407, rfl⟩
abbrev main_v248 : Ref sig .tc := ⟨.hbm, 408, rfl⟩
abbrev main_v249 : Ref sig .tc := ⟨.hbm, 409, rfl⟩
abbrev main_v250 : Ref sig .tc := ⟨.hbm, 410, rfl⟩
abbrev main_v251 : Ref sig .tc := ⟨.hbm, 411, rfl⟩
abbrev main_v252 : Ref sig .tc := ⟨.hbm, 412, rfl⟩
abbrev main_v253 : Ref sig .tc := ⟨.hbm, 413, rfl⟩
abbrev main_v254 : Ref sig .tc := ⟨.hbm, 414, rfl⟩
abbrev main_v255 : Ref sig .tc := ⟨.hbm, 415, rfl⟩
abbrev main_v256 : Ref sig .tc := ⟨.hbm, 416, rfl⟩
abbrev main_v257 : Ref sig .tc := ⟨.hbm, 417, rfl⟩
abbrev main_c_46 : Ref sig .tc := ⟨.hbm, 418, rfl⟩
abbrev main_v258 : Ref sig .tc := ⟨.hbm, 419, rfl⟩
abbrev main_v259 : Ref sig .tc := ⟨.hbm, 420, rfl⟩
abbrev main_c_47 : Ref sig .tc := ⟨.hbm, 421, rfl⟩
abbrev main_v260 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_v266 : Ref sig .tc := ⟨.hbm, 428, rfl⟩
abbrev main_cst_48 : Ref sig .tc := ⟨.hbm, 429, rfl⟩
abbrev main_v267 : Ref sig .tc := ⟨.hbm, 430, rfl⟩
abbrev main_v268 : Ref sig .tc := ⟨.hbm, 431, rfl⟩
abbrev main_v269 : Ref sig .tc := ⟨.hbm, 432, rfl⟩
abbrev main_cst_49 : Ref sig .tc := ⟨.hbm, 433, rfl⟩
abbrev main_v270 : Ref sig .tc := ⟨.hbm, 434, rfl⟩
abbrev main_v271 : Ref sig .tc := ⟨.hbm, 435, rfl⟩
abbrev main_v272 : Ref sig .tc := ⟨.hbm, 436, rfl⟩
abbrev main_cst_50 : Ref sig .tc := ⟨.hbm, 437, rfl⟩
abbrev main_v273 : Ref sig .tc := ⟨.hbm, 438, rfl⟩
abbrev main_v274 : Ref sig .tc := ⟨.hbm, 439, rfl⟩
abbrev main_v275 : Ref sig .tc := ⟨.hbm, 440, rfl⟩
abbrev main_cst_51 : Ref sig .tc := ⟨.hbm, 441, rfl⟩
abbrev main_v276 : Ref sig .tc := ⟨.hbm, 442, rfl⟩
abbrev main_v277 : Ref sig .tc := ⟨.hbm, 443, rfl⟩
abbrev main_v278 : Ref sig .tc := ⟨.hbm, 444, rfl⟩
abbrev main_v279 : Ref sig .tc := ⟨.hbm, 445, rfl⟩
abbrev main_v280 : Ref sig .tc := ⟨.hbm, 446, rfl⟩
abbrev main_v281 : Ref sig .tc := ⟨.hbm, 447, rfl⟩
abbrev main_v282 : Ref sig .tc := ⟨.hbm, 448, rfl⟩
abbrev main_v283 : Ref sig .tc := ⟨.hbm, 449, rfl⟩
abbrev main_v284 : Ref sig .tc := ⟨.hbm, 450, rfl⟩
abbrev main_v285 : Ref sig .tc := ⟨.hbm, 451, rfl⟩
abbrev main_v286 : Ref sig .tc := ⟨.hbm, 452, rfl⟩
abbrev main_v287 : Ref sig .tc := ⟨.hbm, 453, rfl⟩
abbrev main_v288 : Ref sig .tc := ⟨.hbm, 454, rfl⟩
abbrev main_v289 : Ref sig .tc := ⟨.hbm, 455, rfl⟩
abbrev main_v290 : Ref sig .tc := ⟨.hbm, 456, rfl⟩
abbrev main_c_52 : Ref sig .tc := ⟨.hbm, 457, rfl⟩
abbrev main_v291 : Ref sig .tc := ⟨.hbm, 458, rfl⟩
abbrev main_v292 : Ref sig .tc := ⟨.hbm, 459, rfl⟩
abbrev main_c_53 : Ref sig .tc := ⟨.hbm, 460, rfl⟩
abbrev main_v293 : Ref sig .tc := ⟨.hbm, 461, rfl⟩
abbrev main_v294 : Ref sig .tc := ⟨.hbm, 462, rfl⟩
abbrev main_v295 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_v299 : Ref sig .tc := ⟨.hbm, 467, rfl⟩
abbrev main_cst_54 : Ref sig .tc := ⟨.hbm, 468, rfl⟩
abbrev main_v300 : Ref sig .tc := ⟨.hbm, 469, rfl⟩
abbrev main_v301 : Ref sig .tc := ⟨.hbm, 470, rfl⟩
abbrev main_v302 : Ref sig .tc := ⟨.hbm, 471, rfl⟩
abbrev main_cst_55 : Ref sig .tc := ⟨.hbm, 472, rfl⟩
abbrev main_v303 : Ref sig .tc := ⟨.hbm, 473, rfl⟩
abbrev main_v304 : Ref sig .tc := ⟨.hbm, 474, rfl⟩
abbrev main_v305 : Ref sig .tc := ⟨.hbm, 475, rfl⟩
abbrev main_cst_56 : Ref sig .tc := ⟨.hbm, 476, rfl⟩
abbrev main_v306 : Ref sig .tc := ⟨.hbm, 477, rfl⟩
abbrev main_v307 : Ref sig .tc := ⟨.hbm, 478, rfl⟩
abbrev main_v308 : Ref sig .tc := ⟨.hbm, 479, rfl⟩
abbrev main_cst_57 : Ref sig .tc := ⟨.hbm, 480, rfl⟩
abbrev main_v309 : Ref sig .tc := ⟨.hbm, 481, rfl⟩
abbrev main_v310 : Ref sig .tc := ⟨.hbm, 482, rfl⟩
abbrev main_v311 : Ref sig .tc := ⟨.hbm, 483, rfl⟩
abbrev main_v312 : Ref sig .tc := ⟨.hbm, 484, rfl⟩
abbrev main_v313 : Ref sig .tc := ⟨.hbm, 485, rfl⟩
abbrev main_v314 : Ref sig .tc := ⟨.hbm, 486, rfl⟩
abbrev main_v315 : Ref sig .tc := ⟨.hbm, 487, rfl⟩
abbrev main_v316 : Ref sig .tc := ⟨.hbm, 488, rfl⟩
abbrev main_v317 : Ref sig .tc := ⟨.hbm, 489, rfl⟩
abbrev main_v318 : Ref sig .tc := ⟨.hbm, 490, rfl⟩
abbrev main_v319 : Ref sig .tc := ⟨.hbm, 491, rfl⟩
abbrev main_v320 : Ref sig .tc := ⟨.hbm, 492, rfl⟩
abbrev main_v321 : Ref sig .tc := ⟨.hbm, 493, rfl⟩
abbrev main_v322 : Ref sig .tc := ⟨.hbm, 494, rfl⟩
abbrev main_v323 : Ref sig .tc := ⟨.hbm, 495, rfl⟩
abbrev main_c_58 : Ref sig .tc := ⟨.hbm, 496, rfl⟩
abbrev main_v324 : Ref sig .tc := ⟨.hbm, 497, rfl⟩
abbrev main_v325 : Ref sig .tc := ⟨.hbm, 498, rfl⟩
abbrev main_c_59 : Ref sig .tc := ⟨.hbm, 499, rfl⟩
abbrev main_v326 : Ref sig .tc := ⟨.hbm, 500, rfl⟩
abbrev main_v327 : Ref sig .tc := ⟨.hbm, 501, rfl⟩
abbrev main_v328 : Ref sig .tc := ⟨.hbm, 502, rfl⟩
abbrev main_v329 : Ref sig .tc := ⟨.hbm, 503, rfl⟩
abbrev main_v330 : Ref sig .tc := ⟨.hbm, 504, rfl⟩
abbrev main_v331 : Ref sig .tc := ⟨.hbm, 505, rfl⟩
abbrev main_v332 : Ref sig .tc := ⟨.hbm, 506, rfl⟩
abbrev main_cst_60 : Ref sig .tc := ⟨.hbm, 507, rfl⟩
abbrev main_v333 : Ref sig .tc := ⟨.hbm, 508, rfl⟩
abbrev main_v334 : Ref sig .tc := ⟨.hbm, 509, rfl⟩
abbrev main_v335 : Ref sig .tc := ⟨.hbm, 510, rfl⟩
abbrev main_cst_61 : Ref sig .tc := ⟨.hbm, 511, rfl⟩
abbrev main_v336 : Ref sig .tc := ⟨.hbm, 512, rfl⟩
abbrev main_v337 : Ref sig .tc := ⟨.hbm, 513, rfl⟩
abbrev main_v338 : Ref sig .tc := ⟨.hbm, 514, rfl⟩
abbrev main_cst_62 : Ref sig .tc := ⟨.hbm, 515, rfl⟩
abbrev main_v339 : Ref sig .tc := ⟨.hbm, 516, rfl⟩
abbrev main_v340 : Ref sig .tc := ⟨.hbm, 517, rfl⟩
abbrev main_v341 : Ref sig .tc := ⟨.hbm, 518, rfl⟩
abbrev main_cst_63 : Ref sig .tc := ⟨.hbm, 519, rfl⟩
abbrev main_v342 : Ref sig .tc := ⟨.hbm, 520, rfl⟩
abbrev main_v343 : Ref sig .tc := ⟨.hbm, 521, rfl⟩
abbrev main_v344 : Ref sig .tc := ⟨.hbm, 522, rfl⟩
abbrev main_v345 : Ref sig .tc := ⟨.hbm, 523, rfl⟩
abbrev main_v346 : Ref sig .tc := ⟨.hbm, 524, rfl⟩
abbrev main_v347 : Ref sig .tc := ⟨.hbm, 525, rfl⟩
abbrev main_v348 : Ref sig .tc := ⟨.hbm, 526, rfl⟩
abbrev main_v349 : Ref sig .tc := ⟨.hbm, 527, rfl⟩
abbrev main_v350 : Ref sig .tc := ⟨.hbm, 528, rfl⟩
abbrev main_v351 : Ref sig .tc := ⟨.hbm, 529, rfl⟩
abbrev main_v352 : Ref sig .tc := ⟨.hbm, 530, rfl⟩
abbrev main_v353 : Ref sig .tc := ⟨.hbm, 531, rfl⟩
abbrev main_v354 : Ref sig .tc := ⟨.hbm, 532, rfl⟩
abbrev main_v355 : Ref sig .tc := ⟨.hbm, 533, rfl⟩
abbrev main_cst_64 : Ref sig .tc := ⟨.hbm, 534, rfl⟩
abbrev main_v356 : Ref sig .tc := ⟨.hbm, 535, rfl⟩
abbrev main_cst_65 : Ref sig .tc := ⟨.hbm, 536, rfl⟩
abbrev main_v357 : Ref sig .tc := ⟨.hbm, 537, rfl⟩
abbrev main_v358 : Ref sig .tc := ⟨.hbm, 538, rfl⟩
abbrev main_c_66 : Ref sig .tc := ⟨.hbm, 539, rfl⟩
abbrev main_call4_cst : Ref sig .tc := ⟨.hbm, 540, rfl⟩
abbrev main_call4_v0 : Ref sig .tc := ⟨.hbm, 541, rfl⟩
abbrev main_call4_v1 : Ref sig .tc := ⟨.hbm, 542, rfl⟩
abbrev main_call4_cst_0 : Ref sig .tc := ⟨.hbm, 543, rfl⟩
abbrev main_call4_v2 : Ref sig .tc := ⟨.hbm, 544, rfl⟩
abbrev main_call4_v3 : Ref sig .tc := ⟨.hbm, 545, rfl⟩
abbrev main_call4_v4 : Ref sig .tc := ⟨.hbm, 546, rfl⟩
abbrev main_call4_v5 : Ref sig .tc := ⟨.hbm, 547, rfl⟩
abbrev main_call4_v6 : Ref sig .tc := ⟨.hbm, 548, rfl⟩
abbrev main_call4_v7 : Ref sig .tc := ⟨.hbm, 549, rfl⟩
abbrev main_call4_cst_1 : Ref sig .tc := ⟨.hbm, 550, rfl⟩
abbrev main_call4_v8 : Ref sig .tc := ⟨.hbm, 551, rfl⟩
abbrev main_call4_cst_2 : Ref sig .tc := ⟨.hbm, 552, rfl⟩
abbrev main_call4_v9 : Ref sig .tc := ⟨.hbm, 553, rfl⟩
abbrev main_call4_v10 : Ref sig .tc := ⟨.hbm, 554, rfl⟩
abbrev main_call4_v11 : Ref sig .tc := ⟨.hbm, 555, rfl⟩
abbrev main_call4_cst_3 : Ref sig .tc := ⟨.hbm, 556, rfl⟩
abbrev main_call4_v12 : Ref sig .tc := ⟨.hbm, 557, rfl⟩
abbrev main_call4_cst_4 : Ref sig .tc := ⟨.hbm, 558, rfl⟩
abbrev main_call4_call0_v0 : Ref sig .tc := ⟨.hbm, 559, rfl⟩
abbrev main_call4_call0_v1 : Ref sig .tc := ⟨.hbm, 560, rfl⟩
abbrev main_v359 : Ref sig .tc := ⟨.hbm, 561, rfl⟩
abbrev main_cst_67 : Ref sig .tc := ⟨.hbm, 562, rfl⟩
abbrev main_v360 : Ref sig .tc := ⟨.hbm, 563, rfl⟩
abbrev main_cst_68 : Ref sig .tc := ⟨.hbm, 564, rfl⟩
abbrev main_v361 : Ref sig .tc := ⟨.hbm, 565, rfl⟩
abbrev main_v362 : Ref sig .tc := ⟨.hbm, 566, rfl⟩
abbrev main_c_69 : Ref sig .tc := ⟨.hbm, 567, rfl⟩
abbrev main_call5_cst : Ref sig .tc := ⟨.hbm, 568, rfl⟩
abbrev main_call5_v0 : Ref sig .tc := ⟨.hbm, 569, rfl⟩
abbrev main_call5_v1 : Ref sig .tc := ⟨.hbm, 570, rfl⟩
abbrev main_call5_cst_0 : Ref sig .tc := ⟨.hbm, 571, rfl⟩
abbrev main_call5_v2 : Ref sig .tc := ⟨.hbm, 572, rfl⟩
abbrev main_call5_v3 : Ref sig .tc := ⟨.hbm, 573, rfl⟩
abbrev main_call5_v4 : Ref sig .tc := ⟨.hbm, 574, rfl⟩
abbrev main_call5_v5 : Ref sig .tc := ⟨.hbm, 575, rfl⟩
abbrev main_call5_v6 : Ref sig .tc := ⟨.hbm, 576, rfl⟩
abbrev main_call5_v7 : Ref sig .tc := ⟨.hbm, 577, rfl⟩
abbrev main_call5_cst_1 : Ref sig .tc := ⟨.hbm, 578, rfl⟩
abbrev main_call5_v8 : Ref sig .tc := ⟨.hbm, 579, rfl⟩
abbrev main_call5_cst_2 : Ref sig .tc := ⟨.hbm, 580, rfl⟩
abbrev main_call5_v9 : Ref sig .tc := ⟨.hbm, 581, rfl⟩
abbrev main_call5_v10 : Ref sig .tc := ⟨.hbm, 582, rfl⟩
abbrev main_call5_v11 : Ref sig .tc := ⟨.hbm, 583, rfl⟩
abbrev main_call5_cst_3 : Ref sig .tc := ⟨.hbm, 584, rfl⟩
abbrev main_call5_v12 : Ref sig .tc := ⟨.hbm, 585, rfl⟩
abbrev main_call5_cst_4 : Ref sig .tc := ⟨.hbm, 586, rfl⟩
abbrev main_call5_call0_v0 : Ref sig .tc := ⟨.hbm, 587, rfl⟩
abbrev main_call5_call0_v1 : Ref sig .tc := ⟨.hbm, 588, rfl⟩
abbrev main_v363 : Ref sig .tc := ⟨.hbm, 589, rfl⟩
abbrev main_v364 : Ref sig .tc := ⟨.hbm, 590, rfl⟩
abbrev main_v365 : Ref sig .tc := ⟨.hbm, 591, rfl⟩
abbrev main_v366 : Ref sig .tc := ⟨.hbm, 592, rfl⟩
abbrev main_v367 : Ref sig .tc := ⟨.hbm, 593, rfl⟩
abbrev main_v368 : Ref sig .tc := ⟨.hbm, 594, rfl⟩
abbrev main_v369 : Ref sig .tc := ⟨.hbm, 595, rfl⟩
abbrev main_v370 : Ref sig .tc := ⟨.hbm, 596, rfl⟩
abbrev main_v371 : Ref sig .tc := ⟨.hbm, 597, rfl⟩
abbrev main_v372 : Ref sig .tc := ⟨.hbm, 598, rfl⟩
abbrev main_v373 : Ref sig .tc := ⟨.hbm, 599, rfl⟩
abbrev main_v374 : Ref sig .tc := ⟨.hbm, 600, rfl⟩
abbrev main_v375 : Ref sig .tc := ⟨.hbm, 601, rfl⟩
abbrev main_v376 : Ref sig .tc := ⟨.hbm, 602, rfl⟩
abbrev main_v377 : Ref sig .tc := ⟨.hbm, 603, rfl⟩
abbrev main_v378 : Ref sig .tc := ⟨.hbm, 604, rfl⟩
abbrev main_v379 : Ref sig .tc := ⟨.hbm, 605, rfl⟩
abbrev main_v380 : Ref sig .tc := ⟨.hbm, 606, rfl⟩
abbrev main_v381 : Ref sig .tc := ⟨.hbm, 607, rfl⟩
abbrev main_v382 : Ref sig .tc := ⟨.hbm, 608, rfl⟩
abbrev main_v383 : Ref sig .tc := ⟨.hbm, 609, rfl⟩
abbrev main_v384 : Ref sig .tc := ⟨.hbm, 610, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg5_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg5_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg5_0 : Ref sig .tc := ⟨.vmem, 71, rfl⟩
abbrev cc8_stg5_1 : Ref sig .tc := ⟨.vmem, 72, rfl⟩
abbrev cc9_stg0_0 : Ref sig .tc := ⟨.vmem, 73, rfl⟩
abbrev cc9_stg0_1 : Ref sig .tc := ⟨.vmem, 74, rfl⟩
abbrev cc9_stg1_0 : Ref sig .tc := ⟨.vmem, 75, rfl⟩
abbrev cc9_stg1_1 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg4_0 : Ref sig .tc := ⟨.vmem, 79, rfl⟩
abbrev cc9_stg5_0 : Ref sig .tc := ⟨.vmem, 80, rfl⟩
abbrev cc9_stg5_1 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg2_0 : Ref sig .tc := ⟨.vmem, 85, rfl⟩
abbrev cc10_stg3_0 : Ref sig .tc := ⟨.vmem, 86, rfl⟩
abbrev cc10_stg4_0 : Ref sig .tc := ⟨.vmem, 87, rfl⟩
abbrev cc10_stg5_0 : Ref sig .tc := ⟨.vmem, 88, rfl⟩
abbrev cc10_stg5_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg2_0 : Ref sig .tc := ⟨.vmem, 93, rfl⟩
abbrev cc11_stg3_0 : Ref sig .tc := ⟨.vmem, 94, rfl⟩
abbrev cc11_stg4_0 : Ref sig .tc := ⟨.vmem, 95, rfl⟩
abbrev cc11_stg5_0 : Ref sig .tc := ⟨.vmem, 96, rfl⟩
abbrev cc11_stg5_1 : Ref sig .tc := ⟨.vmem, 97, rfl⟩
abbrev cc12_stg0_0 : Ref sig .tc := ⟨.vmem, 98, rfl⟩
abbrev cc12_stg0_1 : Ref sig .tc := ⟨.vmem, 99, rfl⟩
abbrev cc12_stg1_0 : Ref sig .tc := ⟨.vmem, 100, rfl⟩
abbrev cc12_stg1_1 : Ref sig .tc := ⟨.vmem, 101, rfl⟩
abbrev cc12_stg2_0 : Ref sig .tc := ⟨.vmem, 102, rfl⟩
abbrev cc12_stg3_0 : Ref sig .tc := ⟨.vmem, 103, rfl⟩
abbrev cc12_stg4_0 : Ref sig .tc := ⟨.vmem, 104, rfl⟩
abbrev cc12_stg5_0 : Ref sig .tc := ⟨.vmem, 105, rfl⟩
abbrev cc12_stg5_1 : Ref sig .tc := ⟨.vmem, 106, rfl⟩
abbrev cc13_stg0_0 : Ref sig .tc := ⟨.vmem, 107, rfl⟩
abbrev cc13_stg0_1 : Ref sig .tc := ⟨.vmem, 108, rfl⟩
abbrev cc13_stg1_0 : Ref sig .tc := ⟨.vmem, 109, rfl⟩
abbrev cc13_stg1_1 : Ref sig .tc := ⟨.vmem, 110, rfl⟩
abbrev cc13_stg2_0 : Ref sig .tc := ⟨.vmem, 111, rfl⟩
abbrev cc13_stg3_0 : Ref sig .tc := ⟨.vmem, 112, rfl⟩
abbrev cc13_stg4_0 : Ref sig .tc := ⟨.vmem, 113, rfl⟩
abbrev cc13_stg5_0 : Ref sig .tc := ⟨.vmem, 114, rfl⟩
abbrev cc13_stg5_1 : Ref sig .tc := ⟨.vmem, 115, rfl⟩
abbrev cc14_stg0_0 : Ref sig .tc := ⟨.vmem, 116, rfl⟩
abbrev cc14_stg0_1 : Ref sig .tc := ⟨.vmem, 117, rfl⟩
abbrev cc14_stg1_0 : Ref sig .tc := ⟨.vmem, 118, rfl⟩
abbrev cc14_stg1_1 : Ref sig .tc := ⟨.vmem, 119, rfl⟩
abbrev cc14_stg2_0 : Ref sig .tc := ⟨.vmem, 120, rfl⟩
abbrev cc14_stg3_0 : Ref sig .tc := ⟨.vmem, 121, rfl⟩
abbrev cc14_stg4_0 : Ref sig .tc := ⟨.vmem, 122, rfl⟩
abbrev cc14_stg5_0 : Ref sig .tc := ⟨.vmem, 123, rfl⟩
abbrev cc14_stg5_1 : Ref sig .tc := ⟨.vmem, 124, rfl⟩
abbrev cc15_stg0_0 : Ref sig .tc := ⟨.vmem, 125, rfl⟩
abbrev cc15_stg0_1 : Ref sig .tc := ⟨.vmem, 126, rfl⟩
abbrev cc15_stg1_0 : Ref sig .tc := ⟨.vmem, 127, rfl⟩
abbrev cc15_stg2_0 : Ref sig .tc := ⟨.vmem, 128, rfl⟩
abbrev cc15_stg3_0 : Ref sig .tc := ⟨.vmem, 129, rfl⟩
abbrev cc15_stg4_0 : Ref sig .tc := ⟨.vmem, 130, rfl⟩
abbrev cc15_stg5_0 : Ref sig .tc := ⟨.vmem, 131, rfl⟩
abbrev cc15_stg5_1 : Ref sig .tc := ⟨.vmem, 132, rfl⟩
abbrev cc16_stg0_0 : Ref sig .tc := ⟨.vmem, 133, rfl⟩
abbrev cc16_stg0_1 : Ref sig .tc := ⟨.vmem, 134, rfl⟩
abbrev cc16_stg1_0 : Ref sig .tc := ⟨.vmem, 135, rfl⟩
abbrev cc16_stg2_0 : Ref sig .tc := ⟨.vmem, 136, rfl⟩
abbrev cc16_stg3_0 : Ref sig .tc := ⟨.vmem, 137, rfl⟩
abbrev cc16_stg4_0 : Ref sig .tc := ⟨.vmem, 138, rfl⟩
abbrev cc16_stg5_0 : Ref sig .tc := ⟨.vmem, 139, rfl⟩
abbrev cc16_stg5_1 : Ref sig .tc := ⟨.vmem, 140, rfl⟩
abbrev cc17_stg0_0 : Ref sig .tc := ⟨.vmem, 141, rfl⟩
abbrev cc17_stg0_1 : Ref sig .tc := ⟨.vmem, 142, rfl⟩
abbrev cc17_stg1_0 : Ref sig .tc := ⟨.vmem, 143, rfl⟩
abbrev cc17_stg2_0 : Ref sig .tc := ⟨.vmem, 144, rfl⟩
abbrev cc17_stg3_0 : Ref sig .tc := ⟨.vmem, 145, rfl⟩
abbrev cc17_stg4_0 : Ref sig .tc := ⟨.vmem, 146, rfl⟩
abbrev cc17_stg5_0 : Ref sig .tc := ⟨.vmem, 147, rfl⟩
abbrev cc17_stg5_1 : Ref sig .tc := ⟨.vmem, 148, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem5_1 : DmaSem sig := 46
abbrev cc6_sem0_0 : DmaSem sig := 47
abbrev cc6_sem0_1 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem5_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem4_0 : DmaSem sig := 70
abbrev cc8_sem5_0 : DmaSem sig := 71
abbrev cc8_sem5_1 : DmaSem sig := 72
abbrev cc9_sem0_0 : DmaSem sig := 73
abbrev cc9_sem0_1 : DmaSem sig := 74
abbrev cc9_sem1_0 : DmaSem sig := 75
abbrev cc9_sem1_1 : DmaSem sig := 76
abbrev cc9_sem2_0 : DmaSem sig := 77
abbrev cc9_sem3_0 : DmaSem sig := 78
abbrev cc9_sem4_0 : DmaSem sig := 79
abbrev cc9_sem5_0 : DmaSem sig := 80
abbrev cc9_sem5_1 : DmaSem sig := 81
abbrev cc10_sem0_0 : DmaSem sig := 82
abbrev cc10_sem0_1 : DmaSem sig := 83
abbrev cc10_sem1_0 : DmaSem sig := 84
abbrev cc10_sem2_0 : DmaSem sig := 85
abbrev cc10_sem3_0 : DmaSem sig := 86
abbrev cc10_sem4_0 : DmaSem sig := 87
abbrev cc10_sem5_0 : DmaSem sig := 88
abbrev cc10_sem5_1 : DmaSem sig := 89
abbrev cc11_sem0_0 : DmaSem sig := 90
abbrev cc11_sem0_1 : DmaSem sig := 91
abbrev cc11_sem1_0 : DmaSem sig := 92
abbrev cc11_sem2_0 : DmaSem sig := 93
abbrev cc11_sem3_0 : DmaSem sig := 94
abbrev cc11_sem4_0 : DmaSem sig := 95
abbrev cc11_sem5_0 : DmaSem sig := 96
abbrev cc11_sem5_1 : DmaSem sig := 97
abbrev cc12_sem0_0 : DmaSem sig := 98
abbrev cc12_sem0_1 : DmaSem sig := 99
abbrev cc12_sem1_0 : DmaSem sig := 100
abbrev cc12_sem1_1 : DmaSem sig := 101
abbrev cc12_sem2_0 : DmaSem sig := 102
abbrev cc12_sem3_0 : DmaSem sig := 103
abbrev cc12_sem4_0 : DmaSem sig := 104
abbrev cc12_sem5_0 : DmaSem sig := 105
abbrev cc12_sem5_1 : DmaSem sig := 106
abbrev cc13_sem0_0 : DmaSem sig := 107
abbrev cc13_sem0_1 : DmaSem sig := 108
abbrev cc13_sem1_0 : DmaSem sig := 109
abbrev cc13_sem1_1 : DmaSem sig := 110
abbrev cc13_sem2_0 : DmaSem sig := 111
abbrev cc13_sem3_0 : DmaSem sig := 112
abbrev cc13_sem4_0 : DmaSem sig := 113
abbrev cc13_sem5_0 : DmaSem sig := 114
abbrev cc13_sem5_1 : DmaSem sig := 115
abbrev cc14_sem0_0 : DmaSem sig := 116
abbrev cc14_sem0_1 : DmaSem sig := 117
abbrev cc14_sem1_0 : DmaSem sig := 118
abbrev cc14_sem1_1 : DmaSem sig := 119
abbrev cc14_sem2_0 : DmaSem sig := 120
abbrev cc14_sem3_0 : DmaSem sig := 121
abbrev cc14_sem4_0 : DmaSem sig := 122
abbrev cc14_sem5_0 : DmaSem sig := 123
abbrev cc14_sem5_1 : DmaSem sig := 124
abbrev cc15_sem0_0 : DmaSem sig := 125
abbrev cc15_sem0_1 : DmaSem sig := 126
abbrev cc15_sem1_0 : DmaSem sig := 127
abbrev cc15_sem2_0 : DmaSem sig := 128
abbrev cc15_sem3_0 : DmaSem sig := 129
abbrev cc15_sem4_0 : DmaSem sig := 130
abbrev cc15_sem5_0 : DmaSem sig := 131
abbrev cc15_sem5_1 : DmaSem sig := 132
abbrev cc16_sem0_0 : DmaSem sig := 133
abbrev cc16_sem0_1 : DmaSem sig := 134
abbrev cc16_sem1_0 : DmaSem sig := 135
abbrev cc16_sem2_0 : DmaSem sig := 136
abbrev cc16_sem3_0 : DmaSem sig := 137
abbrev cc16_sem4_0 : DmaSem sig := 138
abbrev cc16_sem5_0 : DmaSem sig := 139
abbrev cc16_sem5_1 : DmaSem sig := 140
abbrev cc17_sem0_0 : DmaSem sig := 141
abbrev cc17_sem0_1 : DmaSem sig := 142
abbrev cc17_sem1_0 : DmaSem sig := 143
abbrev cc17_sem2_0 : DmaSem sig := 144
abbrev cc17_sem3_0 : DmaSem sig := 145
abbrev cc17_sem4_0 : DmaSem sig := 146
abbrev cc17_sem5_0 : DmaSem sig := 147
abbrev cc17_sem5_1 : DmaSem sig := 148

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![40], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S64x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![40], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S64x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x64 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![40], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S64x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S64x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![40], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x64 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![20], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x64 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x64 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![40], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x64 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x64 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x1 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S5000x1 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

class Facts₀ : Prop where
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S5000x32_S5000x32_0_0 : ∀ a, (![0, 0] : Fin 2 → Nat) a + S5000x32.size a ≤ S5000x32.size a
  h_S5000x32 : 0 < S5000x32.numel
  inb_S128x32_S128x32_0_0 : ∀ a, (![0, 0] : Fin 2 → Nat) a + S128x32.size a ≤ S128x32.size a
  h_S128x32 : 0 < S128x32.numel
  transposes_S128x32_p1_0_S32x128 : S128x32.Transposes [1, 0] S32x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  reduces_S5000x128_S5000 : S5000x128.Reduces [1] S5000
  shapeCasts_S5000_S5000x1 : S5000.ShapeCasts S5000x1
  broadcasts_S5000x1_S5000x128 : S5000x1.Broadcasts S5000x128
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  reducesTo_S200000x128_S128_d0 : S200000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S200000x128_0_1 : S1x128.BroadcastsInDim S200000x128 (![0, 1] : Fin 2 → Fin S200000x128.rank)
  reducesTo_S100000x128_S128_d0 : S100000x128.ReducesTo [0] S128
  bcast_S1x128_S100000x128_0_1 : S1x128.BroadcastsInDim S100000x128 (![0, 1] : Fin 2 → Fin S100000x128.rank)
  slices_S2x128_S1x128_0_0 : S2x128.Slices ![0, 0] S1x128
  slices_S2x128_S1x128_1_0 : S2x128.Slices ![1, 0] S1x128
  slices_S3x64x128_S1x64x128_0_0_0 : S3x64x128.Slices ![0, 0, 0] S1x64x128
  shapeCasts_S1x64x128_S64x128 : S1x64x128.ShapeCasts S64x128
  slices_S3x64_S1x64_0_0 : S3x64.Slices ![0, 0] S1x64
  shapeCasts_S1x64_S64 : S1x64.ShapeCasts S64
  shapeCasts_S64_S1x64 : S64.ShapeCasts S1x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  broadcasts_S5000x1_S5000x64 : S5000x1.Broadcasts S5000x64
  slices_S3x64x128_S1x64x128_1_0_0 : S3x64x128.Slices ![1, 0, 0] S1x64x128
  slices_S3x64_S1x64_1_0 : S3x64.Slices ![1, 0] S1x64
  slices_S3x64x128_S1x64x128_2_0_0 : S3x64x128.Slices ![2, 0, 0] S1x64x128
  slices_S3x64_S1x64_2_0 : S3x64.Slices ![2, 0] S1x64
  reducesTo_S200000x64_S64_d0 : S200000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S200000x64_0_1 : S1x64.BroadcastsInDim S200000x64 (![0, 1] : Fin 2 → Fin S200000x64.rank)
  reducesTo_S100000x64_S64_d0 : S100000x64.ReducesTo [0] S64
  bcast_S1x64_S100000x64_0_1 : S1x64.BroadcastsInDim S100000x64 (![0, 1] : Fin 2 → Fin S100000x64.rank)
  slices_S2x64_S1x64_0_0 : S2x64.Slices ![0, 0] S1x64
  shapeCasts_S5000x64_S5000x64 : S5000x64.ShapeCasts S5000x64
  slices_S2x64_S1x64_1_0 : S2x64.Slices ![1, 0] S1x64
  shapeCasts_S1_S1x1 : S1.ShapeCasts S1x1
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S5000x64_S64x128_S5000x128_1_0_0_1_n_n_wf : DotDims.WF S5000x64 S64x128 S5000x128 [1] [0] [0] [1] [] []
  dot_S5000x32_S32x128_S5000x128_1_0_0_1_n_n_wf : DotDims.WF S5000x32 S32x128 S5000x128 [1] [0] [0] [1] [] []
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S200000x128.size a
  hwx0_3 : ∀ i : grid0.Coords, EltTy.bits .f32 = 32 ∨ (Rect.block (s := S200000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x32.size a ≤ S128x32.size a
  hwx1_1 : ∀ i : grid1.Coords, EltTy.bits .f32 = 32 ∨ (Rect.block (s := S128x32) S128x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S200000x128.size a
  hwx3_1 : ∀ i : grid3.Coords, EltTy.bits .f32 = 32 ∨ (Rect.block (s := S200000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S200000x128.size a
  hwx3_5 : ∀ i : grid3.Coords, EltTy.bits .f32 = 32 ∨ (Rect.block (s := S200000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S200000x128.size a
  hwx4_0 : ∀ i : grid4.Coords, EltTy.bits .f32 = 32 ∨ (Rect.block (s := S200000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S200000x128.size a
  hwx4_1 : ∀ i : grid4.Coords, EltTy.bits .f32 = 32 ∨ (Rect.block (s := S200000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S200000x128.size a
  hwx4_5 : ∀ i : grid4.Coords, EltTy.bits .f32 = 32 ∨ (Rect.block (s := S200000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S200000x128.size a
  hwx5_0 : ∀ i : grid5.Coords, EltTy.bits .f32 = 32 ∨ (Rect.block (s := S200000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S200000x128.size a
  hwx5_5 : ∀ i : grid5.Coords, EltTy.bits .f32 = 32 ∨ (Rect.block (s := S200000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S200000x128.size a
  hwx8_0 : ∀ i : grid8.Coords, EltTy.bits .f32 = 32 ∨ (Rect.block (s := S200000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S200000x128.size a
  hwx8_1 : ∀ i : grid8.Coords, EltTy.bits .f32 = 32 ∨ (Rect.block (s := S200000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S200000x128.size a
  hwx8_5 : ∀ i : grid8.Coords, EltTy.bits .f32 = 32 ∨ (Rect.block (s := S200000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S200000x128.size a
  hwx9_0 : ∀ i : grid9.Coords, EltTy.bits .f32 = 32 ∨ (Rect.block (s := S200000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S200000x128.size a
  hwx9_1 : ∀ i : grid9.Coords, EltTy.bits .f32 = 32 ∨ (Rect.block (s := S200000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128x128.size a ≤ S128x128.size a
  hwx9_4 : ∀ i : grid9.Coords, EltTy.bits .f32 = 32 ∨ (Rect.block (s := S128x128) S128x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S200000x128.size a
  hwx9_5 : ∀ i : grid9.Coords, EltTy.bits .f32 = 32 ∨ (Rect.block (s := S200000x128) S5000x128.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S200000x128.size a
  hwx10_0 : ∀ i : grid10.Coords, EltTy.bits .f32 = 32 ∨ (Rect.block (s := S200000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x128.size a ≤ S1x128.size a
  hwx10_3 : ∀ i : grid10.Coords, EltTy.bits .f32 = 32 ∨ (Rect.block (s := S1x128) S1x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S200000x128.size a
  hwx10_5 : ∀ i : grid10.Coords, EltTy.bits .f32 = 32 ∨ (Rect.block (s := S200000x128) S5000x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S100000x128.size a
  hwx11_5 : ∀ i : grid11.Coords, EltTy.bits .f32 = 32 ∨ (Rect.block (s := S100000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S100000x128.size a
  hwx12_1 : ∀ i : grid12.Coords, EltTy.bits .f32 = 32 ∨ (Rect.block (s := S100000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x128.size a ≤ S64x128.size a
  hwx12_2 : ∀ i : grid12.Coords, EltTy.bits .f32 = 32 ∨ (Rect.block (s := S64x128) S64x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S64x128.size a ≤ S64x128.size a
  hwx12_4 : ∀ i : grid12.Coords, EltTy.bits .f32 = 32 ∨ (Rect.block (s := S64x128) S64x128.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S100000x64.size a
  hwx12_5 : ∀ i : grid12.Coords, EltTy.bits .f32 = 32 ∨ (Rect.block (s := S100000x64) S5000x64.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S200000x128.size a
  hwx13_0 : ∀ i : grid13.Coords, EltTy.bits .f32 = 32 ∨ (Rect.block (s := S200000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x128.size a ≤ S200000x128.size a
  hwx13_1 : ∀ i : grid13.Coords, EltTy.bits .f32 = 32 ∨ (Rect.block (s := S200000x128) S5000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x128.size a ≤ S64x128.size a
  hwx13_2 : ∀ i : grid13.Coords, EltTy.bits .f32 = 32 ∨ (Rect.block (s := S64x128) S64x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S64x128.size a ≤ S64x128.size a
  hwx13_4 : ∀ i : grid13.Coords, EltTy.bits .f32 = 32 ∨ (Rect.block (s := S64x128) S64x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x64.size a ≤ S200000x64.size a
  hwx13_5 : ∀ i : grid13.Coords, EltTy.bits .f32 = 32 ∨ (Rect.block (s := S200000x64) S5000x64.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S200000x128.size a
  hwx14_0 : ∀ i : grid14.Coords, EltTy.bits .f32 = 32 ∨ (Rect.block (s := S200000x128) S5000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x128.size a ≤ S200000x128.size a
  hwx14_1 : ∀ i : grid14.Coords, EltTy.bits .f32 = 32 ∨ (Rect.block (s := S200000x128) S5000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64x128.size a ≤ S64x128.size a
  hwx14_2 : ∀ i : grid14.Coords, EltTy.bits .f32 = 32 ∨ (Rect.block (s := S64x128) S64x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S64x128.size a ≤ S64x128.size a
  hwx14_4 : ∀ i : grid14.Coords, EltTy.bits .f32 = 32 ∨ (Rect.block (s := S64x128) S64x128.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x64.size a ≤ S200000x64.size a
  hwx14_5 : ∀ i : grid14.Coords, EltTy.bits .f32 = 32 ∨ (Rect.block (s := S200000x64) S5000x64.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S200000x64.size a
  hwx15_0 : ∀ i : grid15.Coords, EltTy.bits .f32 = 32 ∨ (Rect.block (s := S200000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x64.size a ≤ S200000x64.size a
  hwx15_5 : ∀ i : grid15.Coords, EltTy.bits .f32 = 32 ∨ (Rect.block (s := S200000x64) S5000x64.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S100000x64.size a
  hwx16_0 : ∀ i : grid16.Coords, EltTy.bits .f32 = 32 ∨ (Rect.block (s := S100000x64) S5000x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S1x64.size a ≤ S1x64.size a
  hwx16_1 : ∀ i : grid16.Coords, EltTy.bits .f32 = 32 ∨ (Rect.block (s := S1x64) S1x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x64.size a ≤ S1x64.size a
  hwx16_4 : ∀ i : grid16.Coords, EltTy.bits .f32 = 32 ∨ (Rect.block (s := S1x64) S1x64.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x64.size a ≤ S100000x64.size a
  hwx16_5 : ∀ i : grid16.Coords, EltTy.bits .f32 = 32 ∨ (Rect.block (s := S100000x64) S5000x64.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S200000x64.size a
  hwx17_0 : ∀ i : grid17.Coords, EltTy.bits .f32 = 32 ∨ (Rect.block (s := S200000x64) S5000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x64.size a ≤ S1x64.size a
  hwx17_2 : ∀ i : grid17.Coords, EltTy.bits .f32 = 32 ∨ (Rect.block (s := S1x64) S1x64.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x64.size a ≤ S1x64.size a
  hwx17_3 : ∀ i : grid17.Coords, EltTy.bits .f32 = 32 ∨ (Rect.block (s := S1x64) S1x64.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x1.size a ≤ S1x1.size a
  hwx17_4 : ∀ i : grid17.Coords, EltTy.bits .f32 = 32 ∨ (Rect.block (s := S1x1) S1x1.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S5000x1.size a ≤ S200000x1.size a
  hwx17_5 : ∀ i : grid17.Coords, EltTy.bits .f32 = 32 ∨ (Rect.block (s := S200000x1) S5000x1.size (cc17_transform_5 i) (hinb17_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v94) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v96) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v103) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v117) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v118) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v36) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v128) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v129) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v154) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v129) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v156) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v161) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v160) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v162) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v187) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v120) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v189) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v194) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v193) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v195) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v220) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v120) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v222) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v227) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v226) S128x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v228) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v229) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v242) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v243) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v244) S1x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v245) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v246) S5000x128.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v162) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v251) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v252) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v253) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v254) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v255) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v280) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v255) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v282) S64x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v287) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v286) S64x128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v288) S5000x64.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v313) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v246) S5000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v315) S64x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v320) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v319) S64x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v321) S5000x64.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v346) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v246) S5000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v348) S64x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v353) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v352) S64x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v354) S5000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v355) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v368) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v369) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v370) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v371) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v372) S5000x64.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v288) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v377) S1x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v378) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v379) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v380) S1x64.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v381) S5000x64.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v372) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_arg24) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v382) S1x64.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_arg26) S1x64.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v383) S1x1.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v384) S5000x1.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

class Facts : Prop extends Facts₀ where

variable [Facts]
-- ==== ReferenceIdeal.lean ====
abbrev S200000x64 : Shape := ⟨2, ![200000, 64]⟩
abbrev S100000x32 : Shape := ⟨2, ![100000, 32]⟩
abbrev S2x500000 : Shape := ⟨2, ![2, 500000]⟩
abbrev S128x64 : Shape := ⟨2, ![128, 64]⟩
abbrev S128 : Shape := ⟨1, ![128]⟩
abbrev S128x32 : Shape := ⟨2, ![128, 32]⟩
abbrev S3x128x128 : Shape := ⟨3, ![3, 128, 128]⟩
abbrev S3x128 : Shape := ⟨2, ![3, 128]⟩
abbrev S3x64x128 : Shape := ⟨3, ![3, 64, 128]⟩
abbrev S3x64 : Shape := ⟨2, ![3, 64]⟩
abbrev S2x128 : Shape := ⟨2, ![2, 128]⟩
abbrev S2x64 : Shape := ⟨2, ![2, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S64x128 : Shape := ⟨2, ![64, 128]⟩
abbrev S200000x128 : Shape := ⟨2, ![200000, 128]⟩
abbrev S1x128 : Shape := ⟨2, ![1, 128]⟩
abbrev S32x128 : Shape := ⟨2, ![32, 128]⟩
abbrev S100000x128 : Shape := ⟨2, ![100000, 128]⟩
abbrev S1x128x128 : Shape := ⟨3, ![1, 128, 128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S200000 : Shape := ⟨1, ![200000]⟩
abbrev S200000x1 : Shape := ⟨2, ![200000, 1]⟩
abbrev S1x64x128 : Shape := ⟨3, ![1, 64, 128]⟩
abbrev S100000x64 : Shape := ⟨2, ![100000, 64]⟩
abbrev S64x1 : Shape := ⟨2, ![64, 1]⟩
abbrev S1x1 : Shape := ⟨2, ![1, 1]⟩

abbrev nBuf : Space → Nat
  | .hbm => 849
  | .vmem => 0
  | .smem => 0
  | _ => 0

abbrev hbmTy0_0 (i : Nat) : BufTy := match i % 128 with
  | 0 => ⟨S200000x64, .f32⟩
  | 1 => ⟨S100000x32, .f32⟩
  | 2 => ⟨S2x500000, .i32⟩
  | 3 => ⟨S2x500000, .i32⟩
  | 4 => ⟨S2x500000, .i32⟩
  | 5 => ⟨S128x64, .f32⟩
  | 6 => ⟨S128, .f32⟩
  | 7 => ⟨S128x32, .f32⟩
  | 8 => ⟨S128, .f32⟩
  | 9 => ⟨S3x128x128, .f32⟩
  | 10 => ⟨S3x128, .f32⟩
  | 11 => ⟨S3x128x128, .f32⟩
  | 12 => ⟨S3x128x128, .f32⟩
  | 13 => ⟨S3x128, .f32⟩
  | 14 => ⟨S3x128x128, .f32⟩
  | 15 => ⟨S3x64x128, .f32⟩
  | 16 => ⟨S3x64, .f32⟩
  | 17 => ⟨S3x64x128, .f32⟩
  | 18 => ⟨S2x128, .f32⟩
  | 19 => ⟨S2x128, .f32⟩
  | 20 => ⟨S2x128, .f32⟩
  | 21 => ⟨S2x128, .f32⟩
  | 22 => ⟨S2x64, .f32⟩
  | 23 => ⟨S2x64, .f32⟩
  | 24 => ⟨S64x64, .f32⟩
  | 25 => ⟨S64, .f32⟩
  | 26 => ⟨S1x64, .f32⟩
  | 27 => ⟨S1, .f32⟩
  | 28 => ⟨S64x128, .f32⟩
  | 29 => ⟨S200000x128, .f32⟩
  | 30 => ⟨S1x128, .f32⟩
  | 31 => ⟨S200000x128, .f32⟩
  | 32 => ⟨S200000x128, .f32⟩
  | 33 => ⟨S32x128, .f32⟩
  | 34 => ⟨S100000x128, .f32⟩
  | 35 => ⟨S1x128, .f32⟩
  | 36 => ⟨S100000x128, .f32⟩
  | 37 => ⟨S100000x128, .f32⟩
  | 38 => ⟨S1x128x128, .f32⟩
  | 39 => ⟨S128x128, .f32⟩
  | 40 => ⟨S1x128, .f32⟩
  | 41 => ⟨S128, .f32⟩
  | 42 => ⟨S1x128x128, .f32⟩
  | 43 => ⟨S128x128, .f32⟩
  | 44 => ⟨S1x500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S1x500000, .i32⟩
  | 56 => ⟨S500000, .i32⟩
  | 57 => ⟨S_, .f32⟩
  | 58 => ⟨S100000x128, .f32⟩
  | 59 => ⟨S500000x1, .i32⟩
  | 60 => ⟨S100000x128, .f32⟩
  | 61 => ⟨S_, .f32⟩
  | 62 => ⟨S500000, .f32⟩
  | 63 => ⟨S1x500000, .i32⟩
  | 64 => ⟨S500000, .i32⟩
  | 65 => ⟨S_, .f32⟩
  | 66 => ⟨S100000, .f32⟩
  | 67 => ⟨S500000x1, .i32⟩
  | 68 => ⟨S100000, .f32⟩
  | 69 => ⟨S_, .f32⟩
  | 70 => ⟨S100000, .f32⟩
  | 71 => ⟨S100000, .f32⟩
  | 72 => ⟨S100000x1, .f32⟩
  | 73 => ⟨S100000x128, .f32⟩
  | 74 => ⟨S100000x128, .f32⟩
  | 75 => ⟨S128x128, .f32⟩
  | 76 => ⟨S100000x128, .f32⟩
  | 77 => ⟨S1x128, .f32⟩
  | 78 => ⟨S100000x128, .f32⟩
  | 79 => ⟨S100000x128, .f32⟩
  | 80 => ⟨S128x128, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S100000x1, .f32⟩
  | 87 => ⟨S100000x1, .f32⟩
  | 88 => ⟨S_, .f32⟩
  | 89 => ⟨S100000x1, .f32⟩
  | 90 => ⟨S100000x1, .f32⟩
  | 91 => ⟨S100000x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x500000, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S1x500000, .i32⟩
  | 111 => ⟨S500000, .i32⟩
  | 112 => ⟨S_, .f32⟩
  | 113 => ⟨S200000x128, .f32⟩
  | 114 => ⟨S500000x1, .i32⟩
  | 115 => ⟨S200000x128, .f32⟩
  | 116 => ⟨S_, .f32⟩
  | 117 => ⟨S500000, .f32⟩
  | 118 => ⟨S1x500000, .i32⟩
  | 119 => ⟨S500000, .i32⟩
  | 120 => ⟨S_, .f32⟩
  | 121 => ⟨S200000, .f32⟩
  | 122 => ⟨S500000x1, .i32⟩
  | 123 => ⟨S200000, .f32⟩
  | 124 => ⟨S_, .f32⟩
  | 125 => ⟨S200000, .f32⟩
  | 126 => ⟨S200000, .f32⟩
  | 127 => ⟨S200000x1, .f32⟩
  | _ => ⟨S200000x64, .f32⟩

abbrev hbmTy0_1 (i : Nat) : BufTy := match i % 128 with
  | 0 => ⟨S200000x128, .f32⟩
  | 1 => ⟨S200000x128, .f32⟩
  | 2 => ⟨S128x128, .f32⟩
  | 3 => ⟨S200000x128, .f32⟩
  | 4 => ⟨S1x128, .f32⟩
  | 5 => ⟨S200000x128, .f32⟩
  | 6 => ⟨S200000x128, .f32⟩
  | 7 => ⟨S128x128, .f32⟩
  | 8 => ⟨S200000x128, .f32⟩
  | 9 => ⟨S200000x128, .f32⟩
  | 10 => ⟨S200000x128, .f32⟩
  | 11 => ⟨S_, .f32⟩
  | 12 => ⟨S200000, .f32⟩
  | 13 => ⟨S200000x1, .f32⟩
  | 14 => ⟨S200000x1, .f32⟩
  | 15 => ⟨S_, .f32⟩
  | 16 => ⟨S200000x1, .f32⟩
  | 17 => ⟨S200000x1, .f32⟩
  | 18 => ⟨S200000x128, .f32⟩
  | 19 => ⟨S200000x128, .f32⟩
  | 20 => ⟨S1x128x128, .f32⟩
  | 21 => ⟨S128x128, .f32⟩
  | 22 => ⟨S1x128, .f32⟩
  | 23 => ⟨S128, .f32⟩
  | 24 => ⟨S1x128x128, .f32⟩
  | 25 => ⟨S128x128, .f32⟩
  | 26 => ⟨S1x500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x128, .f32⟩
  | 37 => ⟨S1x500000, .i32⟩
  | 38 => ⟨S500000, .i32⟩
  | 39 => ⟨S_, .f32⟩
  | 40 => ⟨S200000x128, .f32⟩
  | 41 => ⟨S500000x1, .i32⟩
  | 42 => ⟨S200000x128, .f32⟩
  | 43 => ⟨S_, .f32⟩
  | 44 => ⟨S500000, .f32⟩
  | 45 => ⟨S1x500000, .i32⟩
  | 46 => ⟨S500000, .i32⟩
  | 47 => ⟨S_, .f32⟩
  | 48 => ⟨S200000, .f32⟩
  | 49 => ⟨S500000x1, .i32⟩
  | 50 => ⟨S200000, .f32⟩
  | 51 => ⟨S_, .f32⟩
  | 52 => ⟨S200000, .f32⟩
  | 53 => ⟨S200000, .f32⟩
  | 54 => ⟨S200000x1, .f32⟩
  | 55 => ⟨S200000x128, .f32⟩
  | 56 => ⟨S200000x128, .f32⟩
  | 57 => ⟨S128x128, .f32⟩
  | 58 => ⟨S200000x128, .f32⟩
  | 59 => ⟨S1x128, .f32⟩
  | 60 => ⟨S200000x128, .f32⟩
  | 61 => ⟨S200000x128, .f32⟩
  | 62 => ⟨S128x128, .f32⟩
  | 63 => ⟨S200000x128, .f32⟩
  | 64 => ⟨S200000x128, .f32⟩
  | 65 => ⟨S200000x128, .f32⟩
  | 66 => ⟨S_, .f32⟩
  | 67 => ⟨S200000, .f32⟩
  | 68 => ⟨S200000x1, .f32⟩
  | 69 => ⟨S200000x1, .f32⟩
  | 70 => ⟨S_, .f32⟩
  | 71 => ⟨S200000x1, .f32⟩
  | 72 => ⟨S200000x1, .f32⟩
  | 73 => ⟨S200000x128, .f32⟩
  | 74 => ⟨S200000x128, .f32⟩
  | 75 => ⟨S200000x128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S200000x128, .f32⟩
  | 93 => ⟨S200000x128, .f32⟩
  | 94 => ⟨S200000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S200000x128, .f32⟩
  | 110 => ⟨S200000x128, .f32⟩
  | 111 => ⟨S_, .f32⟩
  | 112 => ⟨S128, .f32⟩
  | 113 => ⟨S128, .f32⟩
  | 114 => ⟨S128, .f32⟩
  | 115 => ⟨S1x128, .f32⟩
  | 116 => ⟨S200000x128, .f32⟩
  | 117 => ⟨S200000x128, .f32⟩
  | 118 => ⟨S1x128, .f32⟩
  | 119 => ⟨S200000x128, .f32⟩
  | 120 => ⟨S200000x128, .f32⟩
  | 121 => ⟨S1x128, .f32⟩
  | 122 => ⟨S200000x128, .f32⟩
  | 123 => ⟨S200000x128, .f32⟩
  | 124 => ⟨S1x128, .f32⟩
  | 125 => ⟨S128, .f32⟩
  | 126 => ⟨S1x128, .f32⟩
  | 127 => ⟨S128, .f32⟩
  | _ => ⟨S200000x64, .f32⟩

abbrev hbmTy0_2 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S100000x128, .f32⟩
  | 13 => ⟨S100000x128, .f32⟩
  | 14 => ⟨S100000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S_, .f32⟩
  | 32 => ⟨S128, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S200000x128, .f32⟩
  | 46 => ⟨S200000x128, .f32⟩
  | 47 => ⟨S_, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x500000, .i32⟩
  | 57 => ⟨S500000, .i32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S500000x1, .i32⟩
  | 66 => ⟨S500000x128, .f32⟩
  | 67 => ⟨S1x500000, .i32⟩
  | 68 => ⟨S500000, .i32⟩
  | 69 => ⟨S_, .f32⟩
  | 70 => ⟨S100000x128, .f32⟩
  | 71 => ⟨S500000x1, .i32⟩
  | 72 => ⟨S100000x128, .f32⟩
  | 73 => ⟨S_, .f32⟩
  | 74 => ⟨S500000, .f32⟩
  | 75 => ⟨S1x500000, .i32⟩
  | 76 => ⟨S500000, .i32⟩
  | 77 => ⟨S_, .f32⟩
  | 78 => ⟨S100000, .f32⟩
  | 79 => ⟨S500000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S128x128, .f32⟩
  | 88 => ⟨S100000x128, .f32⟩
  | 89 => ⟨S1x128, .f32⟩
  | 90 => ⟨S100000x128, .f32⟩
  | 91 => ⟨S100000x128, .f32⟩
  | 92 => ⟨S128x128, .f32⟩
  | 93 => ⟨S100000x128, .f32⟩
  | 94 => ⟨S100000x128, .f32⟩
  | 95 => ⟨S100000x128, .f32⟩
  | 96 => ⟨S_, .f32⟩
  | 97 => ⟨S100000, .f32⟩
  | 98 => ⟨S100000x1, .f32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x500000, .i32⟩
  | 112 => ⟨S500000, .i32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S1x500000, .i32⟩
  | 123 => ⟨S500000, .i32⟩
  | 124 => ⟨S_, .f32⟩
  | 125 => ⟨S200000x128, .f32⟩
  | 126 => ⟨S500000x1, .i32⟩
  | 127 => ⟨S200000x128, .f32⟩
  | _ => ⟨S200000x64, .f32⟩

abbrev hbmTy0_3 (i : Nat) : BufTy := match i % 128 with
  | 0 => ⟨S_, .f32⟩
  | 1 => ⟨S500000, .f32⟩
  | 2 => ⟨S1x500000, .i32⟩
  | 3 => ⟨S500000, .i32⟩
  | 4 => ⟨S_, .f32⟩
  | 5 => ⟨S200000, .f32⟩
  | 6 => ⟨S500000x1, .i32⟩
  | 7 => ⟨S200000, .f32⟩
  | 8 => ⟨S_, .f32⟩
  | 9 => ⟨S200000, .f32⟩
  | 10 => ⟨S200000, .f32⟩
  | 11 => ⟨S200000x1, .f32⟩
  | 12 => ⟨S200000x128, .f32⟩
  | 13 => ⟨S200000x128, .f32⟩
  | 14 => ⟨S128x128, .f32⟩
  | 15 => ⟨S200000x128, .f32⟩
  | 16 => ⟨S1x128, .f32⟩
  | 17 => ⟨S200000x128, .f32⟩
  | 18 => ⟨S200000x128, .f32⟩
  | 19 => ⟨S128x128, .f32⟩
  | 20 => ⟨S200000x128, .f32⟩
  | 21 => ⟨S200000x128, .f32⟩
  | 22 => ⟨S200000x128, .f32⟩
  | 23 => ⟨S_, .f32⟩
  | 24 => ⟨S200000, .f32⟩
  | 25 => ⟨S200000x1, .f32⟩
  | 26 => ⟨S200000x1, .f32⟩
  | 27 => ⟨S_, .f32⟩
  | 28 => ⟨S200000x1, .f32⟩
  | 29 => ⟨S200000x1, .f32⟩
  | 30 => ⟨S200000x128, .f32⟩
  | 31 => ⟨S200000x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S1x500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S500000x1, .i32⟩
  | 48 => ⟨S500000x128, .f32⟩
  | 49 => ⟨S1x500000, .i32⟩
  | 50 => ⟨S500000, .i32⟩
  | 51 => ⟨S_, .f32⟩
  | 52 => ⟨S200000x128, .f32⟩
  | 53 => ⟨S500000x1, .i32⟩
  | 54 => ⟨S200000x128, .f32⟩
  | 55 => ⟨S_, .f32⟩
  | 56 => ⟨S500000, .f32⟩
  | 57 => ⟨S1x500000, .i32⟩
  | 58 => ⟨S500000, .i32⟩
  | 59 => ⟨S_, .f32⟩
  | 60 => ⟨S200000, .f32⟩
  | 61 => ⟨S500000x1, .i32⟩
  | 62 => ⟨S200000, .f32⟩
  | 63 => ⟨S_, .f32⟩
  | 64 => ⟨S200000, .f32⟩
  | 65 => ⟨S200000, .f32⟩
  | 66 => ⟨S200000x1, .f32⟩
  | 67 => ⟨S200000x128, .f32⟩
  | 68 => ⟨S200000x128, .f32⟩
  | 69 => ⟨S128x128, .f32⟩
  | 70 => ⟨S200000x128, .f32⟩
  | 71 => ⟨S1x128, .f32⟩
  | 72 => ⟨S200000x128, .f32⟩
  | 73 => ⟨S200000x128, .f32⟩
  | 74 => ⟨S128x128, .f32⟩
  | 75 => ⟨S200000x128, .f32⟩
  | 76 => ⟨S200000x128, .f32⟩
  | 77 => ⟨S200000x128, .f32⟩
  | 78 => ⟨S_, .f32⟩
  | 79 => ⟨S200000, .f32⟩
  | 80 => ⟨S200000x1, .f32⟩
  | 81 => ⟨S200000x1, .f32⟩
  | 82 => ⟨S_, .f32⟩
  | 83 => ⟨S200000x1, .f32⟩
  | 84 => ⟨S200000x1, .f32⟩
  | 85 => ⟨S200000x128, .f32⟩
  | 86 => ⟨S200000x128, .f32⟩
  | 87 => ⟨S200000x128, .f32⟩
  | 88 => ⟨S1x128, .f32⟩
  | 89 => ⟨S128, .f32⟩
  | 90 => ⟨S1x128, .f32⟩
  | 91 => ⟨S128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S200000x128, .f32⟩
  | 105 => ⟨S200000x128, .f32⟩
  | 106 => ⟨S200000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S200000x128, .f32⟩
  | 122 => ⟨S200000x128, .f32⟩
  | 123 => ⟨S_, .f32⟩
  | 124 => ⟨S128, .f32⟩
  | 125 => ⟨S128, .f32⟩
  | 126 => ⟨S128, .f32⟩
  | 127 => ⟨S1x128, .f32⟩
  | _ => ⟨S200000x64, .f32⟩

abbrev hbmTy0_4 (i : Nat) : BufTy := match i % 128 with
  | 0 => ⟨S200000x128, .f32⟩
  | 1 => ⟨S200000x128, .f32⟩
  | 2 => ⟨S1x128, .f32⟩
  | 3 => ⟨S200000x128, .f32⟩
  | 4 => ⟨S200000x128, .f32⟩
  | 5 => ⟨S1x128, .f32⟩
  | 6 => ⟨S200000x128, .f32⟩
  | 7 => ⟨S200000x128, .f32⟩
  | 8 => ⟨S1x128, .f32⟩
  | 9 => ⟨S128, .f32⟩
  | 10 => ⟨S1x128, .f32⟩
  | 11 => ⟨S128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S200000x128, .f32⟩
  | 58 => ⟨S200000x128, .f32⟩
  | 59 => ⟨S_, .f32⟩
  | 60 => ⟨S100000x128, .f32⟩
  | 61 => ⟨S100000x128, .f32⟩
  | 62 => ⟨S1x64x128, .f32⟩
  | 63 => ⟨S64x128, .f32⟩
  | 64 => ⟨S1x64, .f32⟩
  | 65 => ⟨S64, .f32⟩
  | 66 => ⟨S1x64x128, .f32⟩
  | 67 => ⟨S64x128, .f32⟩
  | 68 => ⟨S1x500000, .i32⟩
  | 69 => ⟨S500000, .i32⟩
  | 70 => ⟨S_, .i32⟩
  | 71 => ⟨S500000, .i32⟩
  | 72 => ⟨S500000, .i1⟩
  | 73 => ⟨S_, .i32⟩
  | 74 => ⟨S500000, .i32⟩
  | 75 => ⟨S500000, .i32⟩
  | 76 => ⟨S500000, .i32⟩
  | 77 => ⟨S500000x1, .i32⟩
  | 78 => ⟨S500000x128, .f32⟩
  | 79 => ⟨S1x500000, .i32⟩
  | 80 => ⟨S500000, .i32⟩
  | 81 => ⟨S_, .f32⟩
  | 82 => ⟨S100000x128, .f32⟩
  | 83 => ⟨S500000x1, .i32⟩
  | 84 => ⟨S100000x128, .f32⟩
  | 85 => ⟨S_, .f32⟩
  | 86 => ⟨S500000, .f32⟩
  | 87 => ⟨S1x500000, .i32⟩
  | 88 => ⟨S500000, .i32⟩
  | 89 => ⟨S_, .f32⟩
  | 90 => ⟨S100000, .f32⟩
  | 91 => ⟨S500000x1, .i32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x128, .f32⟩
  | 98 => ⟨S100000x128, .f32⟩
  | 99 => ⟨S128x64, .f32⟩
  | 100 => ⟨S100000x64, .f32⟩
  | 101 => ⟨S1x64, .f32⟩
  | 102 => ⟨S100000x64, .f32⟩
  | 103 => ⟨S100000x64, .f32⟩
  | 104 => ⟨S128x64, .f32⟩
  | 105 => ⟨S100000x64, .f32⟩
  | 106 => ⟨S100000x64, .f32⟩
  | 107 => ⟨S100000x64, .f32⟩
  | 108 => ⟨S_, .f32⟩
  | 109 => ⟨S100000, .f32⟩
  | 110 => ⟨S100000x1, .f32⟩
  | 111 => ⟨S100000x1, .f32⟩
  | 112 => ⟨S_, .f32⟩
  | 113 => ⟨S100000x1, .f32⟩
  | 114 => ⟨S100000x1, .f32⟩
  | 115 => ⟨S100000x64, .f32⟩
  | 116 => ⟨S100000x64, .f32⟩
  | 117 => ⟨S1x64x128, .f32⟩
  | 118 => ⟨S64x128, .f32⟩
  | 119 => ⟨S1x64, .f32⟩
  | 120 => ⟨S64, .f32⟩
  | 121 => ⟨S1x64x128, .f32⟩
  | 122 => ⟨S64x128, .f32⟩
  | 123 => ⟨S1x500000, .i32⟩
  | 124 => ⟨S500000, .i32⟩
  | 125 => ⟨S_, .i32⟩
  | 126 => ⟨S500000, .i32⟩
  | 127 => ⟨S500000, .i1⟩
  | _ => ⟨S200000x64, .f32⟩

abbrev hbmTy0_5 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S1x500000, .i32⟩
  | 7 => ⟨S500000, .i32⟩
  | 8 => ⟨S_, .f32⟩
  | 9 => ⟨S200000x128, .f32⟩
  | 10 => ⟨S500000x1, .i32⟩
  | 11 => ⟨S200000x128, .f32⟩
  | 12 => ⟨S_, .f32⟩
  | 13 => ⟨S500000, .f32⟩
  | 14 => ⟨S1x500000, .i32⟩
  | 15 => ⟨S500000, .i32⟩
  | 16 => ⟨S_, .f32⟩
  | 17 => ⟨S200000, .f32⟩
  | 18 => ⟨S500000x1, .i32⟩
  | 19 => ⟨S200000, .f32⟩
  | 20 => ⟨S_, .f32⟩
  | 21 => ⟨S200000, .f32⟩
  | 22 => ⟨S200000, .f32⟩
  | 23 => ⟨S200000x1, .f32⟩
  | 24 => ⟨S200000x128, .f32⟩
  | 25 => ⟨S200000x128, .f32⟩
  | 26 => ⟨S128x64, .f32⟩
  | 27 => ⟨S200000x64, .f32⟩
  | 28 => ⟨S1x64, .f32⟩
  | 29 => ⟨S200000x64, .f32⟩
  | 30 => ⟨S200000x64, .f32⟩
  | 31 => ⟨S128x64, .f32⟩
  | 32 => ⟨S200000x64, .f32⟩
  | 33 => ⟨S200000x64, .f32⟩
  | 34 => ⟨S200000x64, .f32⟩
  | 35 => ⟨S_, .f32⟩
  | 36 => ⟨S200000, .f32⟩
  | 37 => ⟨S200000x1, .f32⟩
  | 38 => ⟨S200000x1, .f32⟩
  | 39 => ⟨S_, .f32⟩
  | 40 => ⟨S200000x1, .f32⟩
  | 41 => ⟨S200000x1, .f32⟩
  | 42 => ⟨S200000x64, .f32⟩
  | 43 => ⟨S200000x64, .f32⟩
  | 44 => ⟨S1x64x128, .f32⟩
  | 45 => ⟨S64x128, .f32⟩
  | 46 => ⟨S1x64, .f32⟩
  | 47 => ⟨S64, .f32⟩
  | 48 => ⟨S1x64x128, .f32⟩
  | 49 => ⟨S64x128, .f32⟩
  | 50 => ⟨S1x500000, .i32⟩
  | 51 => ⟨S500000, .i32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S1x500000, .i32⟩
  | 62 => ⟨S500000, .i32⟩
  | 63 => ⟨S_, .f32⟩
  | 64 => ⟨S200000x128, .f32⟩
  | 65 => ⟨S500000x1, .i32⟩
  | 66 => ⟨S200000x128, .f32⟩
  | 67 => ⟨S_, .f32⟩
  | 68 => ⟨S500000, .f32⟩
  | 69 => ⟨S1x500000, .i32⟩
  | 70 => ⟨S500000, .i32⟩
  | 71 => ⟨S_, .f32⟩
  | 72 => ⟨S200000, .f32⟩
  | 73 => ⟨S500000x1, .i32⟩
  | 74 => ⟨S200000, .f32⟩
  | 75 => ⟨S_, .f32⟩
  | 76 => ⟨S200000, .f32⟩
  | 77 => ⟨S200000, .f32⟩
  | 78 => ⟨S200000x1, .f32⟩
  | 79 => ⟨S200000x128, .f32⟩
  | 80 => ⟨S200000x128, .f32⟩
  | 81 => ⟨S128x64, .f32⟩
  | 82 => ⟨S200000x64, .f32⟩
  | 83 => ⟨S1x64, .f32⟩
  | 84 => ⟨S200000x64, .f32⟩
  | 85 => ⟨S200000x64, .f32⟩
  | 86 => ⟨S128x64, .f32⟩
  | 87 => ⟨S200000x64, .f32⟩
  | 88 => ⟨S200000x64, .f32⟩
  | 89 => ⟨S200000x64, .f32⟩
  | 90 => ⟨S_, .f32⟩
  | 91 => ⟨S200000, .f32⟩
  | 92 => ⟨S200000x1, .f32⟩
  | 93 => ⟨S200000x1, .f32⟩
  | 94 => ⟨S_, .f32⟩
  | 95 => ⟨S200000x1, .f32⟩
  | 96 => ⟨S200000x1, .f32⟩
  | 97 => ⟨S200000x64, .f32⟩
  | 98 => ⟨S200000x64, .f32⟩
  | 99 => ⟨S200000x64, .f32⟩
  | 100 => ⟨S1x64, .f32⟩
  | 101 => ⟨S64, .f32⟩
  | 102 => ⟨S1x64, .f32⟩
  | 103 => ⟨S64, .f32⟩
  | 104 => ⟨S_, .f32⟩
  | 105 => ⟨S64, .f32⟩
  | 106 => ⟨S_, .f32⟩
  | 107 => ⟨S64, .f32⟩
  | 108 => ⟨S64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S200000x64, .f32⟩
  | 117 => ⟨S200000x64, .f32⟩
  | 118 => ⟨S200000x64, .f32⟩
  | 119 => ⟨S_, .f32⟩
  | 120 => ⟨S_, .f32⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S_, .i1⟩
  | _ => ⟨S200000x64, .f32⟩

abbrev hbmTy0_6 (i : Nat) : BufTy := match i % 128 with
  | 0 => ⟨S_, .f32⟩
  | 1 => ⟨S_, .f32⟩
  | 2 => ⟨S64, .f32⟩
  | 3 => ⟨S64, .f32⟩
  | 4 => ⟨S1x64, .f32⟩
  | 5 => ⟨S200000x64, .f32⟩
  | 6 => ⟨S200000x64, .f32⟩
  | 7 => ⟨S_, .f32⟩
  | 8 => ⟨S64, .f32⟩
  | 9 => ⟨S64, .f32⟩
  | 10 => ⟨S64, .f32⟩
  | 11 => ⟨S1x64, .f32⟩
  | 12 => ⟨S200000x64, .f32⟩
  | 13 => ⟨S200000x64, .f32⟩
  | 14 => ⟨S1x64, .f32⟩
  | 15 => ⟨S200000x64, .f32⟩
  | 16 => ⟨S200000x64, .f32⟩
  | 17 => ⟨S1x64, .f32⟩
  | 18 => ⟨S200000x64, .f32⟩
  | 19 => ⟨S200000x64, .f32⟩
  | 20 => ⟨S1x64, .f32⟩
  | 21 => ⟨S64, .f32⟩
  | 22 => ⟨S1x64, .f32⟩
  | 23 => ⟨S64, .f32⟩
  | 24 => ⟨S_, .f32⟩
  | 25 => ⟨S64, .f32⟩
  | 26 => ⟨S_, .f32⟩
  | 27 => ⟨S64, .f32⟩
  | 28 => ⟨S64, .f32⟩
  | 29 => ⟨S_, .i32⟩
  | 30 => ⟨S_, .f32⟩
  | 31 => ⟨S64, .f32⟩
  | 32 => ⟨S1x64, .f32⟩
  | 33 => ⟨S_, .f32⟩
  | 34 => ⟨S1x64, .f32⟩
  | 35 => ⟨S1x64, .f32⟩
  | 36 => ⟨S100000x64, .f32⟩
  | 37 => ⟨S100000x64, .f32⟩
  | 38 => ⟨S100000x64, .f32⟩
  | 39 => ⟨S_, .f32⟩
  | 40 => ⟨S_, .f32⟩
  | 41 => ⟨S_, .f32⟩
  | 42 => ⟨S_, .f32⟩
  | 43 => ⟨S64, .f32⟩
  | 44 => ⟨S64, .f32⟩
  | 45 => ⟨S64, .f32⟩
  | 46 => ⟨S_, .f32⟩
  | 47 => ⟨S_, .i1⟩
  | 48 => ⟨S_, .f32⟩
  | 49 => ⟨S_, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S64, .f32⟩
  | 58 => ⟨S64, .f32⟩
  | 59 => ⟨S1x64, .f32⟩
  | 60 => ⟨S100000x64, .f32⟩
  | 61 => ⟨S100000x64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S64x64, .f32⟩
  | 69 => ⟨S200000x64, .f32⟩
  | 70 => ⟨S1x64, .f32⟩
  | 71 => ⟨S200000x64, .f32⟩
  | 72 => ⟨S200000x64, .f32⟩
  | 73 => ⟨S_, .f32⟩
  | 74 => ⟨S200000x64, .f32⟩
  | 75 => ⟨S200000x64, .f32⟩
  | 76 => ⟨S64x1, .f32⟩
  | 77 => ⟨S200000x1, .f32⟩
  | 78 => ⟨S1x1, .f32⟩
  | 79 => ⟨S200000x1, .f32⟩
  | 80 => ⟨S200000x1, .f32⟩
  | _ => ⟨S200000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c : Ref sig .tc := ⟨.hbm, 46, rfl⟩
abbrev main_v18 : Ref sig .tc := ⟨.hbm, 47, rfl⟩
abbrev main_v19 : Ref sig .tc := ⟨.hbm, 48, rfl⟩
abbrev main_c_0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_1 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_2 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_3 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call0_v0 : Ref sig .tc := ⟨.hbm, 83, rfl⟩
abbrev main_call0_cst : Ref sig .tc := ⟨.hbm, 84, rfl⟩
abbrev main_call0_v1 : Ref sig .tc := ⟨.hbm, 85, rfl⟩
abbrev main_call0_v2 : Ref sig .tc := ⟨.hbm, 86, rfl⟩
abbrev main_v49 : Ref sig .tc := ⟨.hbm, 87, rfl⟩
abbrev main_cst_4 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c_5 : Ref sig .tc := ⟨.hbm, 101, rfl⟩
abbrev main_v62 : Ref sig .tc := ⟨.hbm, 102, rfl⟩
abbrev main_v63 : Ref sig .tc := ⟨.hbm, 103, rfl⟩
abbrev main_c_6 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_7 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_8 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_9 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_10 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_call1_v0 : Ref sig .tc := ⟨.hbm, 138, rfl⟩
abbrev main_call1_cst : Ref sig .tc := ⟨.hbm, 139, rfl⟩
abbrev main_call1_v1 : Ref sig .tc := ⟨.hbm, 140, rfl⟩
abbrev main_call1_v2 : Ref sig .tc := ⟨.hbm, 141, rfl⟩
abbrev main_v93 : Ref sig .tc := ⟨.hbm, 142, rfl⟩
abbrev main_cst_11 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_12 : Ref sig .tc := ⟨.hbm, 156, rfl⟩
abbrev main_v106 : Ref sig .tc := ⟨.hbm, 157, rfl⟩
abbrev main_v107 : Ref sig .tc := ⟨.hbm, 158, rfl⟩
abbrev main_c_13 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_14 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_15 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_16 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_17 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_call2_v0 : Ref sig .tc := ⟨.hbm, 193, rfl⟩
abbrev main_call2_cst : Ref sig .tc := ⟨.hbm, 194, rfl⟩
abbrev main_call2_v1 : Ref sig .tc := ⟨.hbm, 195, rfl⟩
abbrev main_call2_v2 : Ref sig .tc := ⟨.hbm, 196, rfl⟩
abbrev main_v137 : Ref sig .tc := ⟨.hbm, 197, rfl⟩
abbrev main_cst_18 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_cst_19 : Ref sig .tc := ⟨.hbm, 208, rfl⟩
abbrev main_v147 : Ref sig .tc := ⟨.hbm, 209, rfl⟩
abbrev main_cst_20 : Ref sig .tc := ⟨.hbm, 210, rfl⟩
abbrev main_v148 : Ref sig .tc := ⟨.hbm, 211, rfl⟩
abbrev main_v149 : Ref sig .tc := ⟨.hbm, 212, rfl⟩
abbrev main_c_21 : Ref sig .tc := ⟨.hbm, 213, rfl⟩
abbrev main_call3_cst : Ref sig .tc := ⟨.hbm, 214, rfl⟩
abbrev main_call3_v0 : Ref sig .tc := ⟨.hbm, 215, rfl⟩
abbrev main_call3_v1 : Ref sig .tc := ⟨.hbm, 216, rfl⟩
abbrev main_call3_cst_0 : Ref sig .tc := ⟨.hbm, 217, rfl⟩
abbrev main_call3_v2 : Ref sig .tc := ⟨.hbm, 218, rfl⟩
abbrev main_call3_v3 : Ref sig .tc := ⟨.hbm, 219, rfl⟩
abbrev main_call3_v4 : Ref sig .tc := ⟨.hbm, 220, rfl⟩
abbrev main_call3_v5 : Ref sig .tc := ⟨.hbm, 221, rfl⟩
abbrev main_call3_v6 : Ref sig .tc := ⟨.hbm, 222, rfl⟩
abbrev main_call3_v7 : Ref sig .tc := ⟨.hbm, 223, rfl⟩
abbrev main_call3_cst_1 : Ref sig .tc := ⟨.hbm, 224, rfl⟩
abbrev main_call3_v8 : Ref sig .tc := ⟨.hbm, 225, rfl⟩
abbrev main_call3_cst_2 : Ref sig .tc := ⟨.hbm, 226, rfl⟩
abbrev main_call3_v9 : Ref sig .tc := ⟨.hbm, 227, rfl⟩
abbrev main_call3_v10 : Ref sig .tc := ⟨.hbm, 228, rfl⟩
abbrev main_call3_v11 : Ref sig .tc := ⟨.hbm, 229, rfl⟩
abbrev main_call3_cst_3 : Ref sig .tc := ⟨.hbm, 230, rfl⟩
abbrev main_call3_v12 : Ref sig .tc := ⟨.hbm, 231, rfl⟩
abbrev main_call3_cst_4 : Ref sig .tc := ⟨.hbm, 232, rfl⟩
abbrev main_call3_call0_v0 : Ref sig .tc := ⟨.hbm, 233, rfl⟩
abbrev main_call3_call0_v1 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_cst_22 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_cst_23 : Ref sig .tc := ⟨.hbm, 256, rfl⟩
abbrev main_v170 : Ref sig .tc := ⟨.hbm, 257, rfl⟩
abbrev main_cst_24 : Ref sig .tc := ⟨.hbm, 258, rfl⟩
abbrev main_v171 : Ref sig .tc := ⟨.hbm, 259, rfl⟩
abbrev main_v172 : Ref sig .tc := ⟨.hbm, 260, rfl⟩
abbrev main_c_25 : Ref sig .tc := ⟨.hbm, 261, rfl⟩
abbrev main_call4_cst : Ref sig .tc := ⟨.hbm, 262, rfl⟩
abbrev main_call4_v0 : Ref sig .tc := ⟨.hbm, 263, rfl⟩
abbrev main_call4_v1 : Ref sig .tc := ⟨.hbm, 264, rfl⟩
abbrev main_call4_cst_0 : Ref sig .tc := ⟨.hbm, 265, rfl⟩
abbrev main_call4_v2 : Ref sig .tc := ⟨.hbm, 266, rfl⟩
abbrev main_call4_v3 : Ref sig .tc := ⟨.hbm, 267, rfl⟩
abbrev main_call4_v4 : Ref sig .tc := ⟨.hbm, 268, rfl⟩
abbrev main_call4_v5 : Ref sig .tc := ⟨.hbm, 269, rfl⟩
abbrev main_call4_v6 : Ref sig .tc := ⟨.hbm, 270, rfl⟩
abbrev main_call4_v7 : Ref sig .tc := ⟨.hbm, 271, rfl⟩
abbrev main_call4_cst_1 : Ref sig .tc := ⟨.hbm, 272, rfl⟩
abbrev main_call4_v8 : Ref sig .tc := ⟨.hbm, 273, rfl⟩
abbrev main_call4_cst_2 : Ref sig .tc := ⟨.hbm, 274, rfl⟩
abbrev main_call4_v9 : Ref sig .tc := ⟨.hbm, 275, rfl⟩
abbrev main_call4_v10 : Ref sig .tc := ⟨.hbm, 276, rfl⟩
abbrev main_call4_v11 : Ref sig .tc := ⟨.hbm, 277, rfl⟩
abbrev main_call4_cst_3 : Ref sig .tc := ⟨.hbm, 278, rfl⟩
abbrev main_call4_v12 : Ref sig .tc := ⟨.hbm, 279, rfl⟩
abbrev main_call4_cst_4 : Ref sig .tc := ⟨.hbm, 280, rfl⟩
abbrev main_call4_call0_v0 : Ref sig .tc := ⟨.hbm, 281, rfl⟩
abbrev main_call4_call0_v1 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_cst_26 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_call5_cst : Ref sig .tc := ⟨.hbm, 300, rfl⟩
abbrev main_call5_v0 : Ref sig .tc := ⟨.hbm, 301, rfl⟩
abbrev main_v189 : Ref sig .tc := ⟨.hbm, 302, rfl⟩
abbrev main_call6_cst : Ref sig .tc := ⟨.hbm, 303, rfl⟩
abbrev main_call6_v0 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_v195 : Ref sig .tc := ⟨.hbm, 310, rfl⟩
abbrev main_v196 : Ref sig .tc := ⟨.hbm, 311, rfl⟩
abbrev main_v197 : Ref sig .tc := ⟨.hbm, 312, rfl⟩
abbrev main_v198 : Ref sig .tc := ⟨.hbm, 313, rfl⟩
abbrev main_c_27 : Ref sig .tc := ⟨.hbm, 314, rfl⟩
abbrev main_v199 : Ref sig .tc := ⟨.hbm, 315, rfl⟩
abbrev main_v200 : Ref sig .tc := ⟨.hbm, 316, rfl⟩
abbrev main_c_28 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_cst_29 : Ref sig .tc := ⟨.hbm, 325, rfl⟩
abbrev main_v208 : Ref sig .tc := ⟨.hbm, 326, rfl⟩
abbrev main_v209 : Ref sig .tc := ⟨.hbm, 327, rfl⟩
abbrev main_v210 : Ref sig .tc := ⟨.hbm, 328, rfl⟩
abbrev main_cst_30 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_cst_31 : Ref sig .tc := ⟨.hbm, 333, rfl⟩
abbrev main_v214 : Ref sig .tc := ⟨.hbm, 334, rfl⟩
abbrev main_v215 : Ref sig .tc := ⟨.hbm, 335, rfl⟩
abbrev main_v216 : Ref sig .tc := ⟨.hbm, 336, rfl⟩
abbrev main_cst_32 : Ref sig .tc := ⟨.hbm, 337, rfl⟩
abbrev main_v217 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩
abbrev main_v228 : Ref sig .tc := ⟨.hbm, 349, rfl⟩
abbrev main_v229 : Ref sig .tc := ⟨.hbm, 350, rfl⟩
abbrev main_call7_v0 : Ref sig .tc := ⟨.hbm, 351, rfl⟩
abbrev main_call7_cst : Ref sig .tc := ⟨.hbm, 352, rfl⟩
abbrev main_call7_v1 : Ref sig .tc := ⟨.hbm, 353, rfl⟩
abbrev main_call7_v2 : Ref sig .tc := ⟨.hbm, 354, rfl⟩
abbrev main_v230 : Ref sig .tc := ⟨.hbm, 355, rfl⟩
abbrev main_cst_33 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_c_34 : Ref sig .tc := ⟨.hbm, 369, rfl⟩
abbrev main_v243 : Ref sig .tc := ⟨.hbm, 370, rfl⟩
abbrev main_v244 : Ref sig .tc := ⟨.hbm, 371, rfl⟩
abbrev main_c_35 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_cst_36 : Ref sig .tc := ⟨.hbm, 380, rfl⟩
abbrev main_v252 : Ref sig .tc := ⟨.hbm, 381, rfl⟩
abbrev main_v253 : Ref sig .tc := ⟨.hbm, 382, rfl⟩
abbrev main_v254 : Ref sig .tc := ⟨.hbm, 383, rfl⟩
abbrev main_cst_37 : Ref sig .tc := ⟨.hbm, 384, rfl⟩
abbrev main_v255 : Ref sig .tc := ⟨.hbm, 385, rfl⟩
abbrev main_v256 : Ref sig .tc := ⟨.hbm, 386, rfl⟩
abbrev main_v257 : Ref sig .tc := ⟨.hbm, 387, rfl⟩
abbrev main_cst_38 : Ref sig .tc := ⟨.hbm, 388, rfl⟩
abbrev main_v258 : Ref sig .tc := ⟨.hbm, 389, rfl⟩
abbrev main_v259 : Ref sig .tc := ⟨.hbm, 390, rfl⟩
abbrev main_v260 : Ref sig .tc := ⟨.hbm, 391, rfl⟩
abbrev main_cst_39 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_v273 : Ref sig .tc := ⟨.hbm, 405, rfl⟩
abbrev main_call8_v0 : Ref sig .tc := ⟨.hbm, 406, rfl⟩
abbrev main_call8_cst : Ref sig .tc := ⟨.hbm, 407, rfl⟩
abbrev main_call8_v1 : Ref sig .tc := ⟨.hbm, 408, rfl⟩
abbrev main_call8_v2 : Ref sig .tc := ⟨.hbm, 409, rfl⟩
abbrev main_v274 : Ref sig .tc := ⟨.hbm, 410, rfl⟩
abbrev main_cst_40 : Ref sig .tc := ⟨.hbm, 411, rfl⟩
abbrev main_v275 : Ref sig .tc := ⟨.hbm, 412, rfl⟩
abbrev main_v276 : Ref sig .tc := ⟨.hbm, 413, rfl⟩
abbrev main_v277 : Ref sig .tc := ⟨.hbm, 414, rfl⟩
abbrev main_v278 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_v282 : Ref sig .tc := ⟨.hbm, 419, rfl⟩
abbrev main_v283 : Ref sig .tc := ⟨.hbm, 420, rfl⟩
abbrev main_v284 : Ref sig .tc := ⟨.hbm, 421, rfl⟩
abbrev main_v285 : Ref sig .tc := ⟨.hbm, 422, rfl⟩
abbrev main_v286 : Ref sig .tc := ⟨.hbm, 423, rfl⟩
abbrev main_c_41 : Ref sig .tc := ⟨.hbm, 424, rfl⟩
abbrev main_v287 : Ref sig .tc := ⟨.hbm, 425, rfl⟩
abbrev main_v288 : Ref sig .tc := ⟨.hbm, 426, rfl⟩
abbrev main_c_42 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_v295 : Ref sig .tc := ⟨.hbm, 434, rfl⟩
abbrev main_cst_43 : Ref sig .tc := ⟨.hbm, 435, rfl⟩
abbrev main_v296 : Ref sig .tc := ⟨.hbm, 436, rfl⟩
abbrev main_v297 : Ref sig .tc := ⟨.hbm, 437, rfl⟩
abbrev main_v298 : Ref sig .tc := ⟨.hbm, 438, rfl⟩
abbrev main_cst_44 : Ref sig .tc := ⟨.hbm, 439, rfl⟩
abbrev main_v299 : Ref sig .tc := ⟨.hbm, 440, rfl⟩
abbrev main_v300 : Ref sig .tc := ⟨.hbm, 441, rfl⟩
abbrev main_v301 : Ref sig .tc := ⟨.hbm, 442, rfl⟩
abbrev main_cst_45 : Ref sig .tc := ⟨.hbm, 443, rfl⟩
abbrev main_v302 : Ref sig .tc := ⟨.hbm, 444, rfl⟩
abbrev main_v303 : Ref sig .tc := ⟨.hbm, 445, rfl⟩
abbrev main_v304 : Ref sig .tc := ⟨.hbm, 446, rfl⟩
abbrev main_cst_46 : Ref sig .tc := ⟨.hbm, 447, rfl⟩
abbrev main_v305 : Ref sig .tc := ⟨.hbm, 448, rfl⟩
abbrev main_v306 : Ref sig .tc := ⟨.hbm, 449, rfl⟩
abbrev main_v307 : Ref sig .tc := ⟨.hbm, 450, rfl⟩
abbrev main_v308 : Ref sig .tc := ⟨.hbm, 451, rfl⟩
abbrev main_v309 : Ref sig .tc := ⟨.hbm, 452, rfl⟩
abbrev main_v310 : Ref sig .tc := ⟨.hbm, 453, rfl⟩
abbrev main_v311 : Ref sig .tc := ⟨.hbm, 454, rfl⟩
abbrev main_v312 : Ref sig .tc := ⟨.hbm, 455, rfl⟩
abbrev main_v313 : Ref sig .tc := ⟨.hbm, 456, rfl⟩
abbrev main_v314 : Ref sig .tc := ⟨.hbm, 457, rfl⟩
abbrev main_v315 : Ref sig .tc := ⟨.hbm, 458, rfl⟩
abbrev main_v316 : Ref sig .tc := ⟨.hbm, 459, rfl⟩
abbrev main_v317 : Ref sig .tc := ⟨.hbm, 460, rfl⟩
abbrev main_call9_v0 : Ref sig .tc := ⟨.hbm, 461, rfl⟩
abbrev main_call9_cst : Ref sig .tc := ⟨.hbm, 462, rfl⟩
abbrev main_call9_v1 : Ref sig .tc := ⟨.hbm, 463, rfl⟩
abbrev main_call9_v2 : Ref sig .tc := ⟨.hbm, 464, rfl⟩
abbrev main_v318 : Ref sig .tc := ⟨.hbm, 465, rfl⟩
abbrev main_cst_47 : Ref sig .tc := ⟨.hbm, 466, rfl⟩
abbrev main_v319 : Ref sig .tc := ⟨.hbm, 467, rfl⟩
abbrev main_v320 : Ref sig .tc := ⟨.hbm, 468, rfl⟩
abbrev main_v321 : Ref sig .tc := ⟨.hbm, 469, rfl⟩
abbrev main_v322 : Ref sig .tc := ⟨.hbm, 470, rfl⟩
abbrev main_v323 : Ref sig .tc := ⟨.hbm, 471, rfl⟩
abbrev main_v324 : Ref sig .tc := ⟨.hbm, 472, rfl⟩
abbrev main_v325 : Ref sig .tc := ⟨.hbm, 473, rfl⟩
abbrev main_v326 : Ref sig .tc := ⟨.hbm, 474, rfl⟩
abbrev main_v327 : Ref sig .tc := ⟨.hbm, 475, rfl⟩
abbrev main_cst_48 : Ref sig .tc := ⟨.hbm, 476, rfl⟩
abbrev main_v328 : Ref sig .tc := ⟨.hbm, 477, rfl⟩
abbrev main_cst_49 : Ref sig .tc := ⟨.hbm, 478, rfl⟩
abbrev main_v329 : Ref sig .tc := ⟨.hbm, 479, rfl⟩
abbrev main_v330 : Ref sig .tc := ⟨.hbm, 480, rfl⟩
abbrev main_c_50 : Ref sig .tc := ⟨.hbm, 481, rfl⟩
abbrev main_call10_cst : Ref sig .tc := ⟨.hbm, 482, rfl⟩
abbrev main_call10_v0 : Ref sig .tc := ⟨.hbm, 483, rfl⟩
abbrev main_call10_v1 : Ref sig .tc := ⟨.hbm, 484, rfl⟩
abbrev main_call10_cst_0 : Ref sig .tc := ⟨.hbm, 485, rfl⟩
abbrev main_call10_v2 : Ref sig .tc := ⟨.hbm, 486, rfl⟩
abbrev main_call10_v3 : Ref sig .tc := ⟨.hbm, 487, rfl⟩
abbrev main_call10_v4 : Ref sig .tc := ⟨.hbm, 488, rfl⟩
abbrev main_call10_v5 : Ref sig .tc := ⟨.hbm, 489, rfl⟩
abbrev main_call10_v6 : Ref sig .tc := ⟨.hbm, 490, rfl⟩
abbrev main_call10_v7 : Ref sig .tc := ⟨.hbm, 491, rfl⟩
abbrev main_call10_cst_1 : Ref sig .tc := ⟨.hbm, 492, rfl⟩
abbrev main_call10_v8 : Ref sig .tc := ⟨.hbm, 493, rfl⟩
abbrev main_call10_cst_2 : Ref sig .tc := ⟨.hbm, 494, rfl⟩
abbrev main_call10_v9 : Ref sig .tc := ⟨.hbm, 495, rfl⟩
abbrev main_call10_v10 : Ref sig .tc := ⟨.hbm, 496, rfl⟩
abbrev main_call10_v11 : Ref sig .tc := ⟨.hbm, 497, rfl⟩
abbrev main_call10_cst_3 : Ref sig .tc := ⟨.hbm, 498, rfl⟩
abbrev main_call10_v12 : Ref sig .tc := ⟨.hbm, 499, rfl⟩
abbrev main_call10_cst_4 : Ref sig .tc := ⟨.hbm, 500, rfl⟩
abbrev main_call10_call0_v0 : Ref sig .tc := ⟨.hbm, 501, rfl⟩
abbrev main_call10_call0_v1 : Ref sig .tc := ⟨.hbm, 502, rfl⟩
abbrev main_v331 : Ref sig .tc := ⟨.hbm, 503, rfl⟩
abbrev main_v332 : Ref sig .tc := ⟨.hbm, 504, rfl⟩
abbrev main_v333 : Ref sig .tc := ⟨.hbm, 505, rfl⟩
abbrev main_v334 : Ref sig .tc := ⟨.hbm, 506, rfl⟩
abbrev main_cst_51 : Ref sig .tc := ⟨.hbm, 507, rfl⟩
abbrev main_v335 : Ref sig .tc := ⟨.hbm, 508, rfl⟩
abbrev main_v336 : Ref sig .tc := ⟨.hbm, 509, rfl⟩
abbrev main_v337 : Ref sig .tc := ⟨.hbm, 510, rfl⟩
abbrev main_v338 : Ref sig .tc := ⟨.hbm, 511, rfl⟩
abbrev main_v339 : Ref sig .tc := ⟨.hbm, 512, rfl⟩
abbrev main_v340 : Ref sig .tc := ⟨.hbm, 513, rfl⟩
abbrev main_v341 : Ref sig .tc := ⟨.hbm, 514, rfl⟩
abbrev main_v342 : Ref sig .tc := ⟨.hbm, 515, rfl⟩
abbrev main_v343 : Ref sig .tc := ⟨.hbm, 516, rfl⟩
abbrev main_v344 : Ref sig .tc := ⟨.hbm, 517, rfl⟩
abbrev main_v345 : Ref sig .tc := ⟨.hbm, 518, rfl⟩
abbrev main_v346 : Ref sig .tc := ⟨.hbm, 519, rfl⟩
abbrev main_v347 : Ref sig .tc := ⟨.hbm, 520, rfl⟩
abbrev main_v348 : Ref sig .tc := ⟨.hbm, 521, rfl⟩
abbrev main_v349 : Ref sig .tc := ⟨.hbm, 522, rfl⟩
abbrev main_v350 : Ref sig .tc := ⟨.hbm, 523, rfl⟩
abbrev main_cst_52 : Ref sig .tc := ⟨.hbm, 524, rfl⟩
abbrev main_v351 : Ref sig .tc := ⟨.hbm, 525, rfl⟩
abbrev main_cst_53 : Ref sig .tc := ⟨.hbm, 526, rfl⟩
abbrev main_v352 : Ref sig .tc := ⟨.hbm, 527, rfl⟩
abbrev main_v353 : Ref sig .tc := ⟨.hbm, 528, rfl⟩
abbrev main_c_54 : Ref sig .tc := ⟨.hbm, 529, rfl⟩
abbrev main_call11_cst : Ref sig .tc := ⟨.hbm, 530, rfl⟩
abbrev main_call11_v0 : Ref sig .tc := ⟨.hbm, 531, rfl⟩
abbrev main_call11_v1 : Ref sig .tc := ⟨.hbm, 532, rfl⟩
abbrev main_call11_cst_0 : Ref sig .tc := ⟨.hbm, 533, rfl⟩
abbrev main_call11_v2 : Ref sig .tc := ⟨.hbm, 534, rfl⟩
abbrev main_call11_v3 : Ref sig .tc := ⟨.hbm, 535, rfl⟩
abbrev main_call11_v4 : Ref sig .tc := ⟨.hbm, 536, rfl⟩
abbrev main_call11_v5 : Ref sig .tc := ⟨.hbm, 537, rfl⟩
abbrev main_call11_v6 : Ref sig .tc := ⟨.hbm, 538, rfl⟩
abbrev main_call11_v7 : Ref sig .tc := ⟨.hbm, 539, rfl⟩
abbrev main_call11_cst_1 : Ref sig .tc := ⟨.hbm, 540, rfl⟩
abbrev main_call11_v8 : Ref sig .tc := ⟨.hbm, 541, rfl⟩
abbrev main_call11_cst_2 : Ref sig .tc := ⟨.hbm, 542, rfl⟩
abbrev main_call11_v9 : Ref sig .tc := ⟨.hbm, 543, rfl⟩
abbrev main_call11_v10 : Ref sig .tc := ⟨.hbm, 544, rfl⟩
abbrev main_call11_v11 : Ref sig .tc := ⟨.hbm, 545, rfl⟩
abbrev main_call11_cst_3 : Ref sig .tc := ⟨.hbm, 546, rfl⟩
abbrev main_call11_v12 : Ref sig .tc := ⟨.hbm, 547, rfl⟩
abbrev main_call11_cst_4 : Ref sig .tc := ⟨.hbm, 548, rfl⟩
abbrev main_call11_call0_v0 : Ref sig .tc := ⟨.hbm, 549, rfl⟩
abbrev main_call11_call0_v1 : Ref sig .tc := ⟨.hbm, 550, rfl⟩
abbrev main_v354 : Ref sig .tc := ⟨.hbm, 551, rfl⟩
abbrev main_v355 : Ref sig .tc := ⟨.hbm, 552, rfl⟩
abbrev main_v356 : Ref sig .tc := ⟨.hbm, 553, rfl⟩
abbrev main_v357 : Ref sig .tc := ⟨.hbm, 554, rfl⟩
abbrev main_cst_55 : Ref sig .tc := ⟨.hbm, 555, rfl⟩
abbrev main_v358 : Ref sig .tc := ⟨.hbm, 556, rfl⟩
abbrev main_v359 : Ref sig .tc := ⟨.hbm, 557, rfl⟩
abbrev main_v360 : Ref sig .tc := ⟨.hbm, 558, rfl⟩
abbrev main_v361 : Ref sig .tc := ⟨.hbm, 559, rfl⟩
abbrev main_v362 : Ref sig .tc := ⟨.hbm, 560, rfl⟩
abbrev main_v363 : Ref sig .tc := ⟨.hbm, 561, rfl⟩
abbrev main_v364 : Ref sig .tc := ⟨.hbm, 562, rfl⟩
abbrev main_v365 : Ref sig .tc := ⟨.hbm, 563, rfl⟩
abbrev main_v366 : Ref sig .tc := ⟨.hbm, 564, rfl⟩
abbrev main_v367 : Ref sig .tc := ⟨.hbm, 565, rfl⟩
abbrev main_v368 : Ref sig .tc := ⟨.hbm, 566, rfl⟩
abbrev main_v369 : Ref sig .tc := ⟨.hbm, 567, rfl⟩
abbrev main_call12_cst : Ref sig .tc := ⟨.hbm, 568, rfl⟩
abbrev main_call12_v0 : Ref sig .tc := ⟨.hbm, 569, rfl⟩
abbrev main_v370 : Ref sig .tc := ⟨.hbm, 570, rfl⟩
abbrev main_call13_cst : Ref sig .tc := ⟨.hbm, 571, rfl⟩
abbrev main_call13_v0 : Ref sig .tc := ⟨.hbm, 572, rfl⟩
abbrev main_v371 : Ref sig .tc := ⟨.hbm, 573, rfl⟩
abbrev main_v372 : Ref sig .tc := ⟨.hbm, 574, rfl⟩
abbrev main_v373 : Ref sig .tc := ⟨.hbm, 575, rfl⟩
abbrev main_v374 : Ref sig .tc := ⟨.hbm, 576, rfl⟩
abbrev main_v375 : Ref sig .tc := ⟨.hbm, 577, rfl⟩
abbrev main_v376 : Ref sig .tc := ⟨.hbm, 578, rfl⟩
abbrev main_v377 : Ref sig .tc := ⟨.hbm, 579, rfl⟩
abbrev main_v378 : Ref sig .tc := ⟨.hbm, 580, rfl⟩
abbrev main_v379 : Ref sig .tc := ⟨.hbm, 581, rfl⟩
abbrev main_c_56 : Ref sig .tc := ⟨.hbm, 582, rfl⟩
abbrev main_v380 : Ref sig .tc := ⟨.hbm, 583, rfl⟩
abbrev main_v381 : Ref sig .tc := ⟨.hbm, 584, rfl⟩
abbrev main_c_57 : Ref sig .tc := ⟨.hbm, 585, rfl⟩
abbrev main_v382 : Ref sig .tc := ⟨.hbm, 586, rfl⟩
abbrev main_v383 : Ref sig .tc := ⟨.hbm, 587, rfl⟩
abbrev main_v384 : Ref sig .tc := ⟨.hbm, 588, rfl⟩
abbrev main_v385 : Ref sig .tc := ⟨.hbm, 589, rfl⟩
abbrev main_v386 : Ref sig .tc := ⟨.hbm, 590, rfl⟩
abbrev main_v387 : Ref sig .tc := ⟨.hbm, 591, rfl⟩
abbrev main_v388 : Ref sig .tc := ⟨.hbm, 592, rfl⟩
abbrev main_cst_58 : Ref sig .tc := ⟨.hbm, 593, rfl⟩
abbrev main_v389 : Ref sig .tc := ⟨.hbm, 594, rfl⟩
abbrev main_v390 : Ref sig .tc := ⟨.hbm, 595, rfl⟩
abbrev main_v391 : Ref sig .tc := ⟨.hbm, 596, rfl⟩
abbrev main_cst_59 : Ref sig .tc := ⟨.hbm, 597, rfl⟩
abbrev main_v392 : Ref sig .tc := ⟨.hbm, 598, rfl⟩
abbrev main_v393 : Ref sig .tc := ⟨.hbm, 599, rfl⟩
abbrev main_v394 : Ref sig .tc := ⟨.hbm, 600, rfl⟩
abbrev main_cst_60 : Ref sig .tc := ⟨.hbm, 601, rfl⟩
abbrev main_v395 : Ref sig .tc := ⟨.hbm, 602, rfl⟩
abbrev main_v396 : Ref sig .tc := ⟨.hbm, 603, rfl⟩
abbrev main_v397 : Ref sig .tc := ⟨.hbm, 604, rfl⟩
abbrev main_cst_61 : Ref sig .tc := ⟨.hbm, 605, rfl⟩
abbrev main_v398 : Ref sig .tc := ⟨.hbm, 606, rfl⟩
abbrev main_v399 : Ref sig .tc := ⟨.hbm, 607, rfl⟩
abbrev main_v400 : Ref sig .tc := ⟨.hbm, 608, rfl⟩
abbrev main_v401 : Ref sig .tc := ⟨.hbm, 609, rfl⟩
abbrev main_v402 : Ref sig .tc := ⟨.hbm, 610, rfl⟩
abbrev main_v403 : Ref sig .tc := ⟨.hbm, 611, rfl⟩
abbrev main_v404 : Ref sig .tc := ⟨.hbm, 612, rfl⟩
abbrev main_v405 : Ref sig .tc := ⟨.hbm, 613, rfl⟩
abbrev main_v406 : Ref sig .tc := ⟨.hbm, 614, rfl⟩
abbrev main_v407 : Ref sig .tc := ⟨.hbm, 615, rfl⟩
abbrev main_v408 : Ref sig .tc := ⟨.hbm, 616, rfl⟩
abbrev main_v409 : Ref sig .tc := ⟨.hbm, 617, rfl⟩
abbrev main_v410 : Ref sig .tc := ⟨.hbm, 618, rfl⟩
abbrev main_call14_v0 : Ref sig .tc := ⟨.hbm, 619, rfl⟩
abbrev main_call14_cst : Ref sig .tc := ⟨.hbm, 620, rfl⟩
abbrev main_call14_v1 : Ref sig .tc := ⟨.hbm, 621, rfl⟩
abbrev main_call14_v2 : Ref sig .tc := ⟨.hbm, 622, rfl⟩
abbrev main_v411 : Ref sig .tc := ⟨.hbm, 623, rfl⟩
abbrev main_cst_62 : Ref sig .tc := ⟨.hbm, 624, rfl⟩
abbrev main_v412 : Ref sig .tc := ⟨.hbm, 625, rfl⟩
abbrev main_v413 : Ref sig .tc := ⟨.hbm, 626, rfl⟩
abbrev main_v414 : Ref sig .tc := ⟨.hbm, 627, rfl⟩
abbrev main_v415 : Ref sig .tc := ⟨.hbm, 628, rfl⟩
abbrev main_v416 : Ref sig .tc := ⟨.hbm, 629, rfl⟩
abbrev main_v417 : Ref sig .tc := ⟨.hbm, 630, rfl⟩
abbrev main_v418 : Ref sig .tc := ⟨.hbm, 631, rfl⟩
abbrev main_v419 : Ref sig .tc := ⟨.hbm, 632, rfl⟩
abbrev main_v420 : Ref sig .tc := ⟨.hbm, 633, rfl⟩
abbrev main_v421 : Ref sig .tc := ⟨.hbm, 634, rfl⟩
abbrev main_v422 : Ref sig .tc := ⟨.hbm, 635, rfl⟩
abbrev main_v423 : Ref sig .tc := ⟨.hbm, 636, rfl⟩
abbrev main_c_63 : Ref sig .tc := ⟨.hbm, 637, rfl⟩
abbrev main_v424 : Ref sig .tc := ⟨.hbm, 638, rfl⟩
abbrev main_v425 : Ref sig .tc := ⟨.hbm, 639, rfl⟩
abbrev main_c_64 : Ref sig .tc := ⟨.hbm, 640, rfl⟩
abbrev main_v426 : Ref sig .tc := ⟨.hbm, 641, rfl⟩
abbrev main_v427 : Ref sig .tc := ⟨.hbm, 642, rfl⟩
abbrev main_v428 : Ref sig .tc := ⟨.hbm, 643, rfl⟩
abbrev main_v429 : Ref sig .tc := ⟨.hbm, 644, rfl⟩
abbrev main_v430 : Ref sig .tc := ⟨.hbm, 645, rfl⟩
abbrev main_v431 : Ref sig .tc := ⟨.hbm, 646, rfl⟩
abbrev main_v432 : Ref sig .tc := ⟨.hbm, 647, rfl⟩
abbrev main_cst_65 : Ref sig .tc := ⟨.hbm, 648, rfl⟩
abbrev main_v433 : Ref sig .tc := ⟨.hbm, 649, rfl⟩
abbrev main_v434 : Ref sig .tc := ⟨.hbm, 650, rfl⟩
abbrev main_v435 : Ref sig .tc := ⟨.hbm, 651, rfl⟩
abbrev main_cst_66 : Ref sig .tc := ⟨.hbm, 652, rfl⟩
abbrev main_v436 : Ref sig .tc := ⟨.hbm, 653, rfl⟩
abbrev main_v437 : Ref sig .tc := ⟨.hbm, 654, rfl⟩
abbrev main_v438 : Ref sig .tc := ⟨.hbm, 655, rfl⟩
abbrev main_cst_67 : Ref sig .tc := ⟨.hbm, 656, rfl⟩
abbrev main_v439 : Ref sig .tc := ⟨.hbm, 657, rfl⟩
abbrev main_v440 : Ref sig .tc := ⟨.hbm, 658, rfl⟩
abbrev main_v441 : Ref sig .tc := ⟨.hbm, 659, rfl⟩
abbrev main_cst_68 : Ref sig .tc := ⟨.hbm, 660, rfl⟩
abbrev main_v442 : Ref sig .tc := ⟨.hbm, 661, rfl⟩
abbrev main_v443 : Ref sig .tc := ⟨.hbm, 662, rfl⟩
abbrev main_v444 : Ref sig .tc := ⟨.hbm, 663, rfl⟩
abbrev main_v445 : Ref sig .tc := ⟨.hbm, 664, rfl⟩
abbrev main_v446 : Ref sig .tc := ⟨.hbm, 665, rfl⟩
abbrev main_v447 : Ref sig .tc := ⟨.hbm, 666, rfl⟩
abbrev main_v448 : Ref sig .tc := ⟨.hbm, 667, rfl⟩
abbrev main_v449 : Ref sig .tc := ⟨.hbm, 668, rfl⟩
abbrev main_v450 : Ref sig .tc := ⟨.hbm, 669, rfl⟩
abbrev main_v451 : Ref sig .tc := ⟨.hbm, 670, rfl⟩
abbrev main_v452 : Ref sig .tc := ⟨.hbm, 671, rfl⟩
abbrev main_v453 : Ref sig .tc := ⟨.hbm, 672, rfl⟩
abbrev main_v454 : Ref sig .tc := ⟨.hbm, 673, rfl⟩
abbrev main_call15_v0 : Ref sig .tc := ⟨.hbm, 674, rfl⟩
abbrev main_call15_cst : Ref sig .tc := ⟨.hbm, 675, rfl⟩
abbrev main_call15_v1 : Ref sig .tc := ⟨.hbm, 676, rfl⟩
abbrev main_call15_v2 : Ref sig .tc := ⟨.hbm, 677, rfl⟩
abbrev main_v455 : Ref sig .tc := ⟨.hbm, 678, rfl⟩
abbrev main_cst_69 : Ref sig .tc := ⟨.hbm, 679, rfl⟩
abbrev main_v456 : Ref sig .tc := ⟨.hbm, 680, rfl⟩
abbrev main_v457 : Ref sig .tc := ⟨.hbm, 681, rfl⟩
abbrev main_v458 : Ref sig .tc := ⟨.hbm, 682, rfl⟩
abbrev main_v459 : Ref sig .tc := ⟨.hbm, 683, rfl⟩
abbrev main_v460 : Ref sig .tc := ⟨.hbm, 684, rfl⟩
abbrev main_v461 : Ref sig .tc := ⟨.hbm, 685, rfl⟩
abbrev main_v462 : Ref sig .tc := ⟨.hbm, 686, rfl⟩
abbrev main_v463 : Ref sig .tc := ⟨.hbm, 687, rfl⟩
abbrev main_v464 : Ref sig .tc := ⟨.hbm, 688, rfl⟩
abbrev main_v465 : Ref sig .tc := ⟨.hbm, 689, rfl⟩
abbrev main_v466 : Ref sig .tc := ⟨.hbm, 690, rfl⟩
abbrev main_v467 : Ref sig .tc := ⟨.hbm, 691, rfl⟩
abbrev main_c_70 : Ref sig .tc := ⟨.hbm, 692, rfl⟩
abbrev main_v468 : Ref sig .tc := ⟨.hbm, 693, rfl⟩
abbrev main_v469 : Ref sig .tc := ⟨.hbm, 694, rfl⟩
abbrev main_c_71 : Ref sig .tc := ⟨.hbm, 695, rfl⟩
abbrev main_v470 : Ref sig .tc := ⟨.hbm, 696, rfl⟩
abbrev main_v471 : Ref sig .tc := ⟨.hbm, 697, rfl⟩
abbrev main_v472 : Ref sig .tc := ⟨.hbm, 698, rfl⟩
abbrev main_v473 : Ref sig .tc := ⟨.hbm, 699, rfl⟩
abbrev main_v474 : Ref sig .tc := ⟨.hbm, 700, rfl⟩
abbrev main_v475 : Ref sig .tc := ⟨.hbm, 701, rfl⟩
abbrev main_v476 : Ref sig .tc := ⟨.hbm, 702, rfl⟩
abbrev main_cst_72 : Ref sig .tc := ⟨.hbm, 703, rfl⟩
abbrev main_v477 : Ref sig .tc := ⟨.hbm, 704, rfl⟩
abbrev main_v478 : Ref sig .tc := ⟨.hbm, 705, rfl⟩
abbrev main_v479 : Ref sig .tc := ⟨.hbm, 706, rfl⟩
abbrev main_cst_73 : Ref sig .tc := ⟨.hbm, 707, rfl⟩
abbrev main_v480 : Ref sig .tc := ⟨.hbm, 708, rfl⟩
abbrev main_v481 : Ref sig .tc := ⟨.hbm, 709, rfl⟩
abbrev main_v482 : Ref sig .tc := ⟨.hbm, 710, rfl⟩
abbrev main_cst_74 : Ref sig .tc := ⟨.hbm, 711, rfl⟩
abbrev main_v483 : Ref sig .tc := ⟨.hbm, 712, rfl⟩
abbrev main_v484 : Ref sig .tc := ⟨.hbm, 713, rfl⟩
abbrev main_v485 : Ref sig .tc := ⟨.hbm, 714, rfl⟩
abbrev main_cst_75 : Ref sig .tc := ⟨.hbm, 715, rfl⟩
abbrev main_v486 : Ref sig .tc := ⟨.hbm, 716, rfl⟩
abbrev main_v487 : Ref sig .tc := ⟨.hbm, 717, rfl⟩
abbrev main_v488 : Ref sig .tc := ⟨.hbm, 718, rfl⟩
abbrev main_v489 : Ref sig .tc := ⟨.hbm, 719, rfl⟩
abbrev main_v490 : Ref sig .tc := ⟨.hbm, 720, rfl⟩
abbrev main_v491 : Ref sig .tc := ⟨.hbm, 721, rfl⟩
abbrev main_v492 : Ref sig .tc := ⟨.hbm, 722, rfl⟩
abbrev main_v493 : Ref sig .tc := ⟨.hbm, 723, rfl⟩
abbrev main_v494 : Ref sig .tc := ⟨.hbm, 724, rfl⟩
abbrev main_v495 : Ref sig .tc := ⟨.hbm, 725, rfl⟩
abbrev main_v496 : Ref sig .tc := ⟨.hbm, 726, rfl⟩
abbrev main_v497 : Ref sig .tc := ⟨.hbm, 727, rfl⟩
abbrev main_v498 : Ref sig .tc := ⟨.hbm, 728, rfl⟩
abbrev main_call16_v0 : Ref sig .tc := ⟨.hbm, 729, rfl⟩
abbrev main_call16_cst : Ref sig .tc := ⟨.hbm, 730, rfl⟩
abbrev main_call16_v1 : Ref sig .tc := ⟨.hbm, 731, rfl⟩
abbrev main_call16_v2 : Ref sig .tc := ⟨.hbm, 732, rfl⟩
abbrev main_v499 : Ref sig .tc := ⟨.hbm, 733, rfl⟩
abbrev main_cst_76 : Ref sig .tc := ⟨.hbm, 734, rfl⟩
abbrev main_v500 : Ref sig .tc := ⟨.hbm, 735, rfl⟩
abbrev main_v501 : Ref sig .tc := ⟨.hbm, 736, rfl⟩
abbrev main_v502 : Ref sig .tc := ⟨.hbm, 737, rfl⟩
abbrev main_v503 : Ref sig .tc := ⟨.hbm, 738, rfl⟩
abbrev main_v504 : Ref sig .tc := ⟨.hbm, 739, rfl⟩
abbrev main_v505 : Ref sig .tc := ⟨.hbm, 740, rfl⟩
abbrev main_v506 : Ref sig .tc := ⟨.hbm, 741, rfl⟩
abbrev main_v507 : Ref sig .tc := ⟨.hbm, 742, rfl⟩
abbrev main_v508 : Ref sig .tc := ⟨.hbm, 743, rfl⟩
abbrev main_cst_77 : Ref sig .tc := ⟨.hbm, 744, rfl⟩
abbrev main_v509 : Ref sig .tc := ⟨.hbm, 745, rfl⟩
abbrev main_cst_78 : Ref sig .tc := ⟨.hbm, 746, rfl⟩
abbrev main_v510 : Ref sig .tc := ⟨.hbm, 747, rfl⟩
abbrev main_v511 : Ref sig .tc := ⟨.hbm, 748, rfl⟩
abbrev main_c_79 : Ref sig .tc := ⟨.hbm, 749, rfl⟩
abbrev main_call17_cst : Ref sig .tc := ⟨.hbm, 750, rfl⟩
abbrev main_call17_v0 : Ref sig .tc := ⟨.hbm, 751, rfl⟩
abbrev main_call17_v1 : Ref sig .tc := ⟨.hbm, 752, rfl⟩
abbrev main_call17_cst_0 : Ref sig .tc := ⟨.hbm, 753, rfl⟩
abbrev main_call17_v2 : Ref sig .tc := ⟨.hbm, 754, rfl⟩
abbrev main_call17_v3 : Ref sig .tc := ⟨.hbm, 755, rfl⟩
abbrev main_call17_v4 : Ref sig .tc := ⟨.hbm, 756, rfl⟩
abbrev main_call17_v5 : Ref sig .tc := ⟨.hbm, 757, rfl⟩
abbrev main_call17_v6 : Ref sig .tc := ⟨.hbm, 758, rfl⟩
abbrev main_call17_v7 : Ref sig .tc := ⟨.hbm, 759, rfl⟩
abbrev main_call17_cst_1 : Ref sig .tc := ⟨.hbm, 760, rfl⟩
abbrev main_call17_v8 : Ref sig .tc := ⟨.hbm, 761, rfl⟩
abbrev main_call17_cst_2 : Ref sig .tc := ⟨.hbm, 762, rfl⟩
abbrev main_call17_v9 : Ref sig .tc := ⟨.hbm, 763, rfl⟩
abbrev main_call17_v10 : Ref sig .tc := ⟨.hbm, 764, rfl⟩
abbrev main_call17_v11 : Ref sig .tc := ⟨.hbm, 765, rfl⟩
abbrev main_call17_cst_3 : Ref sig .tc := ⟨.hbm, 766, rfl⟩
abbrev main_call17_v12 : Ref sig .tc := ⟨.hbm, 767, rfl⟩
abbrev main_call17_cst_4 : Ref sig .tc := ⟨.hbm, 768, rfl⟩
abbrev main_call17_call0_v0 : Ref sig .tc := ⟨.hbm, 769, rfl⟩
abbrev main_call17_call0_v1 : Ref sig .tc := ⟨.hbm, 770, rfl⟩
abbrev main_v512 : Ref sig .tc := ⟨.hbm, 771, rfl⟩
abbrev main_v513 : Ref sig .tc := ⟨.hbm, 772, rfl⟩
abbrev main_v514 : Ref sig .tc := ⟨.hbm, 773, rfl⟩
abbrev main_v515 : Ref sig .tc := ⟨.hbm, 774, rfl⟩
abbrev main_cst_80 : Ref sig .tc := ⟨.hbm, 775, rfl⟩
abbrev main_v516 : Ref sig .tc := ⟨.hbm, 776, rfl⟩
abbrev main_v517 : Ref sig .tc := ⟨.hbm, 777, rfl⟩
abbrev main_v518 : Ref sig .tc := ⟨.hbm, 778, rfl⟩
abbrev main_v519 : Ref sig .tc := ⟨.hbm, 779, rfl⟩
abbrev main_v520 : Ref sig .tc := ⟨.hbm, 780, rfl⟩
abbrev main_v521 : Ref sig .tc := ⟨.hbm, 781, rfl⟩
abbrev main_v522 : Ref sig .tc := ⟨.hbm, 782, rfl⟩
abbrev main_v523 : Ref sig .tc := ⟨.hbm, 783, rfl⟩
abbrev main_v524 : Ref sig .tc := ⟨.hbm, 784, rfl⟩
abbrev main_v525 : Ref sig .tc := ⟨.hbm, 785, rfl⟩
abbrev main_v526 : Ref sig .tc := ⟨.hbm, 786, rfl⟩
abbrev main_v527 : Ref sig .tc := ⟨.hbm, 787, rfl⟩
abbrev main_v528 : Ref sig .tc := ⟨.hbm, 788, rfl⟩
abbrev main_v529 : Ref sig .tc := ⟨.hbm, 789, rfl⟩
abbrev main_v530 : Ref sig .tc := ⟨.hbm, 790, rfl⟩
abbrev main_v531 : Ref sig .tc := ⟨.hbm, 791, rfl⟩
abbrev main_cst_81 : Ref sig .tc := ⟨.hbm, 792, rfl⟩
abbrev main_v532 : Ref sig .tc := ⟨.hbm, 793, rfl⟩
abbrev main_cst_82 : Ref sig .tc := ⟨.hbm, 794, rfl⟩
abbrev main_v533 : Ref sig .tc := ⟨.hbm, 795, rfl⟩
abbrev main_v534 : Ref sig .tc := ⟨.hbm, 796, rfl⟩
abbrev main_c_83 : Ref sig .tc := ⟨.hbm, 797, rfl⟩
abbrev main_call18_cst : Ref sig .tc := ⟨.hbm, 798, rfl⟩
abbrev main_call18_v0 : Ref sig .tc := ⟨.hbm, 799, rfl⟩
abbrev main_call18_v1 : Ref sig .tc := ⟨.hbm, 800, rfl⟩
abbrev main_call18_cst_0 : Ref sig .tc := ⟨.hbm, 801, rfl⟩
abbrev main_call18_v2 : Ref sig .tc := ⟨.hbm, 802, rfl⟩
abbrev main_call18_v3 : Ref sig .tc := ⟨.hbm, 803, rfl⟩
abbrev main_call18_v4 : Ref sig .tc := ⟨.hbm, 804, rfl⟩
abbrev main_call18_v5 : Ref sig .tc := ⟨.hbm, 805, rfl⟩
abbrev main_call18_v6 : Ref sig .tc := ⟨.hbm, 806, rfl⟩
abbrev main_call18_v7 : Ref sig .tc := ⟨.hbm, 807, rfl⟩
abbrev main_call18_cst_1 : Ref sig .tc := ⟨.hbm, 808, rfl⟩
abbrev main_call18_v8 : Ref sig .tc := ⟨.hbm, 809, rfl⟩
abbrev main_call18_cst_2 : Ref sig .tc := ⟨.hbm, 810, rfl⟩
abbrev main_call18_v9 : Ref sig .tc := ⟨.hbm, 811, rfl⟩
abbrev main_call18_v10 : Ref sig .tc := ⟨.hbm, 812, rfl⟩
abbrev main_call18_v11 : Ref sig .tc := ⟨.hbm, 813, rfl⟩
abbrev main_call18_cst_3 : Ref sig .tc := ⟨.hbm, 814, rfl⟩
abbrev main_call18_v12 : Ref sig .tc := ⟨.hbm, 815, rfl⟩
abbrev main_call18_cst_4 : Ref sig .tc := ⟨.hbm, 816, rfl⟩
abbrev main_call18_call0_v0 : Ref sig .tc := ⟨.hbm, 817, rfl⟩
abbrev main_call18_call0_v1 : Ref sig .tc := ⟨.hbm, 818, rfl⟩
abbrev main_v535 : Ref sig .tc := ⟨.hbm, 819, rfl⟩
abbrev main_v536 : Ref sig .tc := ⟨.hbm, 820, rfl⟩
abbrev main_v537 : Ref sig .tc := ⟨.hbm, 821, rfl⟩
abbrev main_v538 : Ref sig .tc := ⟨.hbm, 822, rfl⟩
abbrev main_cst_84 : Ref sig .tc := ⟨.hbm, 823, rfl⟩
abbrev main_v539 : Ref sig .tc := ⟨.hbm, 824, rfl⟩
abbrev main_v540 : Ref sig .tc := ⟨.hbm, 825, rfl⟩
abbrev main_v541 : Ref sig .tc := ⟨.hbm, 826, rfl⟩
abbrev main_v542 : Ref sig .tc := ⟨.hbm, 827, rfl⟩
abbrev main_v543 : Ref sig .tc := ⟨.hbm, 828, rfl⟩
abbrev main_v544 : Ref sig .tc := ⟨.hbm, 829, rfl⟩
abbrev main_v545 : Ref sig .tc := ⟨.hbm, 830, rfl⟩
abbrev main_v546 : Ref sig .tc := ⟨.hbm, 831, rfl⟩
abbrev main_v547 : Ref sig .tc := ⟨.hbm, 832, rfl⟩
abbrev main_v548 : Ref sig .tc := ⟨.hbm, 833, rfl⟩
abbrev main_v549 : Ref sig .tc := ⟨.hbm, 834, rfl⟩
abbrev main_v550 : Ref sig .tc := ⟨.hbm, 835, rfl⟩
abbrev main_v551 : Ref sig .tc := ⟨.hbm, 836, rfl⟩
abbrev main_v552 : Ref sig .tc := ⟨.hbm, 837, rfl⟩
abbrev main_v553 : Ref sig .tc := ⟨.hbm, 838, rfl⟩
abbrev main_v554 : Ref sig .tc := ⟨.hbm, 839, rfl⟩
abbrev main_v555 : Ref sig .tc := ⟨.hbm, 840, rfl⟩
abbrev main_call19_cst : Ref sig .tc := ⟨.hbm, 841, rfl⟩
abbrev main_call19_v0 : Ref sig .tc := ⟨.hbm, 842, rfl⟩
abbrev main_v556 : Ref sig .tc := ⟨.hbm, 843, rfl⟩
abbrev main_v557 : Ref sig .tc := ⟨.hbm, 844, rfl⟩
abbrev main_v558 : Ref sig .tc := ⟨.hbm, 845, rfl⟩
abbrev main_v559 : Ref sig .tc := ⟨.hbm, 846, rfl⟩
abbrev main_v560 : Ref sig .tc := ⟨.hbm, 847, rfl⟩
abbrev main_v561 : Ref sig .tc := ⟨.hbm, 848, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  transposes_S128x32_S32x128_1_0 : S128x32.Transposes [1, 0] S32x128
  bcast_S1x128_S100000x128_0_1 : S1x128.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  reducesTo_S100000x128_S100000_d1 : S100000x128.ReducesTo [1] S100000
  h_S_ : 0 < S_.numel
  bcast_S_S100000x1 : S_.BroadcastsInDim S100000x1 (![] : Fin 0 → Fin S100000x1.rank)
  slices_S3x128x128_S1x128x128_1_0_0 : S3x128x128.Slices ![1, 0, 0] S1x128x128
  slices_S3x128_S1x128_1_0 : S3x128.Slices ![1, 0] S1x128
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  reducesTo_S200000x128_S200000_d1 : S200000x128.ReducesTo [1] S200000
  bcast_S_S200000x1 : S_.BroadcastsInDim S200000x1 (![] : Fin 0 → Fin S200000x1.rank)
  slices_S3x128x128_S1x128x128_2_0_0 : S3x128x128.Slices ![2, 0, 0] S1x128x128
  slices_S3x128_S1x128_2_0 : S3x128.Slices ![2, 0] S1x128
  slices_S2x128_S1x128_0_0 : S2x128.Slices ![0, 0] S1x128
  reducesTo_S200000x128_S128_d0 : S200000x128.ReducesTo [0] S128
  bcast_S_S128 : S_.BroadcastsInDim S128 (![] : Fin 0 → Fin S128.rank)
  bcast_S_S1x128 : S_.BroadcastsInDim S1x128 (![] : Fin 0 → Fin S1x128.rank)
  slices_S2x128_S1x128_1_0 : S2x128.Slices ![1, 0] S1x128
  reducesTo_S100000x128_S128_d0 : S100000x128.ReducesTo [0] S128
  slices_S3x64x128_S1x64x128_0_0_0 : S3x64x128.Slices ![0, 0, 0] S1x64x128
  shapeCasts_S1x64x128_S64x128 : S1x64x128.ShapeCasts S64x128
  slices_S3x64_S1x64_0_0 : S3x64.Slices ![0, 0] S1x64
  shapeCasts_S1x64_S64 : S1x64.ShapeCasts S64
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S100000x1_S100000x64_0_1 : S100000x1.BroadcastsInDim S100000x64 (![0, 1] : Fin 2 → Fin S100000x64.rank)
  slices_S3x64x128_S1x64x128_1_0_0 : S3x64x128.Slices ![1, 0, 0] S1x64x128
  slices_S3x64_S1x64_1_0 : S3x64.Slices ![1, 0] S1x64
  bcast_S1x64_S200000x64_0_1 : S1x64.BroadcastsInDim S200000x64 (![0, 1] : Fin 2 → Fin S200000x64.rank)
  reducesTo_S200000x64_S200000_d1 : S200000x64.ReducesTo [1] S200000
  bcast_S200000x1_S200000x64_0_1 : S200000x1.BroadcastsInDim S200000x64 (![0, 1] : Fin 2 → Fin S200000x64.rank)
  slices_S3x64x128_S1x64x128_2_0_0 : S3x64x128.Slices ![2, 0, 0] S1x64x128
  slices_S3x64_S1x64_2_0 : S3x64.Slices ![2, 0] S1x64
  slices_S2x64_S1x64_0_0 : S2x64.Slices ![0, 0] S1x64
  reducesTo_S200000x64_S64_d0 : S200000x64.ReducesTo [0] S64
  bcast_S_S64 : S_.BroadcastsInDim S64 (![] : Fin 0 → Fin S64.rank)
  bcast_S_S1x64 : S_.BroadcastsInDim S1x64 (![] : Fin 0 → Fin S1x64.rank)
  slices_S2x64_S1x64_1_0 : S2x64.Slices ![1, 0] S1x64
  reducesTo_S100000x64_S64_d0 : S100000x64.ReducesTo [0] S64
  transposes_S64x64_S64x64_1_0 : S64x64.Transposes [1, 0] S64x64
  bcast_S_S200000x64 : S_.BroadcastsInDim S200000x64 (![] : Fin 0 → Fin S200000x64.rank)
  transposes_S1x64_S64x1_1_0 : S1x64.Transposes [1, 0] S64x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x64_S64x128_S200000x128_1_0_0_1_n_n_wf : DotDims.WF S200000x64 S64x128 S200000x128 [1] [0] [0] [1] [] []
  dot_S100000x32_S32x128_S100000x128_1_0_0_1_n_n_wf : DotDims.WF S100000x32 S32x128 S100000x128 [1] [0] [0] [1] [] []
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  dot_S200000x128_S128x128_S200000x128_1_0_0_1_n_n_wf : DotDims.WF S200000x128 S128x128 S200000x128 [1] [0] [0] [1] [] []
  dot_S100000x128_S128x64_S100000x64_1_0_0_1_n_n_wf : DotDims.WF S100000x128 S128x64 S100000x64 [1] [0] [0] [1] [] []
  dot_S200000x128_S128x64_S200000x64_1_0_0_1_n_n_wf : DotDims.WF S200000x128 S128x64 S200000x64 [1] [0] [0] [1] [] []
  dot_S200000x64_S64x64_S200000x64_1_0_0_1_n_n_wf : DotDims.WF S200000x64 S64x64 S200000x64 [1] [0] [0] [1] [] []
  dot_S200000x64_S64x1_S200000x1_1_0_0_1_n_n_wf : DotDims.WF S200000x64 S64x1 S200000x1 [1] [0] [0] [1] [] []

variable [Facts₀]

def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.RefOps.lean ====
import proofs.«143223_j29772713296000_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Window 0 of @main: 64 operations, in order. -/
abbrev ops0 : List (HloOp τ sig (Elt F)) :=
  [ StableHlo.unary main_arg5 main_v0 ((transpose S64x128 [1, 0] · transposes_S128x64_S64x128_1_0) : (⟨S128x64, .f32⟩ : BufTy).Contents (Elt F) → (⟨S64x128, .f32⟩ : BufTy).Contents (Elt F)),
    StableHlo.binary main_arg0 main_v0 main_v1 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    StableHlo.unary main_arg6 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S200000x128 ![0, 1] bcast_S1x128_S200000x128_0_1 : (⟨S1x128, .f32⟩ : BufTy).Contents (Elt F) → (⟨S200000x128, .f32⟩ : BufTy).Contents (Elt F)),
    StableHlo.binary main_v1 main_v3 main_v4 (addf : (⟨S200000x128, .f32⟩ : BufTy).Contents (Elt F) → (⟨S200000x128, .f32⟩ : BufTy).Contents (Elt F) → (⟨S200000x128, .f32⟩ : BufTy).Contents (Elt F)),
    StableHlo.unary main_arg7 main_v5 ((transpose S32x128 [1, 0] · transposes_S128x32_S32x128_1_0) : (⟨S128x32, .f32⟩ : BufTy).Contents (Elt F) → (⟨S32x128, .f32⟩ : BufTy).Contents (Elt F)),
    StableHlo.binary main_arg1 main_v5 main_v6 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg8 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S100000x128 ![0, 1] bcast_S1x128_S100000x128_0_1 : (⟨S1x128, .f32⟩ : BufTy).Contents (Elt F) → (⟨S100000x128, .f32⟩ : BufTy).Contents (Elt F)),
    StableHlo.binary main_v6 main_v8 main_v9 (addf : (⟨S100000x128, .f32⟩ : BufTy).Contents (Elt F) → (⟨S100000x128, .f32⟩ : BufTy).Contents (Elt F) → (⟨S100000x128, .f32⟩ : BufTy).Contents (Elt F)),
    StableHlo.unary main_arg9 main_v10 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v10 main_v11 rfl shapeCasts_S1x128x128_S128x128,
    StableHlo.unary main_arg10 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128,
    StableHlo.unary main_arg11 main_v14 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v14 main_v15 rfl shapeCasts_S1x128x128_S128x128,
    StableHlo.unary main_arg2 main_v16 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v16 main_v17 rfl shapeCasts_S1x500000_S500000,
    StableHlo.nullary main_c (constantI S_ 32 0#32),
    StableHlo.unary main_c main_v18 (broadcastInDim S500000 ![] bcast_S_S500000 : (⟨S_, .i32⟩ : BufTy).Contents (Elt F) → (⟨S500000, .i32⟩ : BufTy).Contents (Elt F)),
    StableHlo.binary main_v17 main_v18 main_v19 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 200000#32),
    StableHlo.unary main_c_0 main_v20 (broadcastInDim S500000 ![] bcast_S_S500000 : (⟨S_, .i32⟩ : BufTy).Contents (Elt F) → (⟨S500000, .i32⟩ : BufTy).Contents (Elt F)),
    StableHlo.binary main_v17 main_v20 main_v21 (addi : (⟨S500000, .i32⟩ : BufTy).Contents (Elt F) → (⟨S500000, .i32⟩ : BufTy).Contents (Elt F) → (⟨S500000, .i32⟩ : BufTy).Contents (Elt F)),
    StableHlo.ternary main_v19 main_v21 main_v17 main_v22 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v22 main_v23 (broadcastInDim S500000x1 ![0] bcast_S500000_S500000x1_0 : (⟨S500000, .i32⟩ : BufTy).Contents (Elt F) → (⟨S500000x1, .i32⟩ : BufTy).Contents (Elt F)),
    StableHlo.binary main_v4 main_v23 main_v24 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg2 main_v25 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v25 main_v26 rfl shapeCasts_S1x500000_S500000,
    StableHlo.nullary main_cst (constant S_ .f32 0x00000000#32),
    StableHlo.unary main_cst main_v27 (broadcastInDim S100000x128 ![] bcast_S_S100000x128 : (⟨S_, .f32⟩ : BufTy).Contents (Elt F) → (⟨S100000x128, .f32⟩ : BufTy).Contents (Elt F)),
    StableHlo.unary main_v26 main_v28 (broadcastInDim S500000x1 ![0] bcast_S500000_S500000x1_0 : (⟨S500000, .i32⟩ : BufTy).Contents (Elt F) → (⟨S500000x1, .i32⟩ : BufTy).Contents (Elt F)),
    StableHlo.ternary main_v27 main_v28 main_v24 main_v29 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_1 (constant S_ .f32 0x3F800000#32),
    StableHlo.unary main_cst_1 main_v30 (broadcastInDim S500000 ![] bcast_S_S500000 : (⟨S_, .f32⟩ : BufTy).Contents (Elt F) → (⟨S500000, .f32⟩ : BufTy).Contents (Elt F)),
    StableHlo.unary main_arg2 main_v31 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v31 main_v32 rfl shapeCasts_S1x500000_S500000,
    StableHlo.nullary main_cst_2 (constant S_ .f32 0x00000000#32),
    StableHlo.unary main_cst_2 main_v33 (broadcastInDim S100000 ![] bcast_S_S100000 : (⟨S_, .f32⟩ : BufTy).Contents (Elt F) → (⟨S100000, .f32⟩ : BufTy).Contents (Elt F)),
    StableHlo.unary main_v32 main_v34 (broadcastInDim S500000x1 ![0] bcast_S500000_S500000x1_0 : (⟨S500000, .i32⟩ : BufTy).Contents (Elt F) → (⟨S500000x1, .i32⟩ : BufTy).Contents (Elt F)),
    StableHlo.ternary main_v33 main_v34 main_v30 main_v35 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_3 (constant S_ .f32 0x3F800000#32),
    StableHlo.unary main_cst_3 main_v36 (broadcastInDim S100000 ![] bcast_S_S100000 : (⟨S_, .f32⟩ : BufTy).Contents (Elt F) → (⟨S100000, .f32⟩ : BufTy).Contents (Elt F)),
    StableHlo.binary main_v35 main_v36 main_v37 (maximumf : (⟨S100000, .f32⟩ : BufTy).Contents (Elt F) → (⟨S100000, .f32⟩ : BufTy).Contents (Elt F) → (⟨S100000, .f32⟩ : BufTy).Contents (Elt F)),
    StableHlo.unary main_v37 main_v38 (broadcastInDim S100000x1 ![0] bcast_S100000_S100000x1_0 : (⟨S100000, .f32⟩ : BufTy).Contents (Elt F) → (⟨S100000x1, .f32⟩ : BufTy).Contents (Elt F)),
    StableHlo.unary main_v38 main_v39 (broadcastInDim S100000x128 ![0, 1] bcast_S100000x1_S100000x128_0_1 : (⟨S100000x1, .f32⟩ : BufTy).Contents (Elt F) → (⟨S100000x128, .f32⟩ : BufTy).Contents (Elt F)),
    StableHlo.binary main_v29 main_v39 main_v40 (Host.divf : (⟨S100000x128, .f32⟩ : BufTy).Contents (Elt F) → (⟨S100000x128, .f32⟩ : BufTy).Contents (Elt F) → (⟨S100000x128, .f32⟩ : BufTy).Contents (Elt F)),
    StableHlo.unary main_v11 main_v41 ((transpose S128x128 [1, 0] · transposes_S128x128_S128x128_1_0) : (⟨S128x128, .f32⟩ : BufTy).Contents (Elt F) → (⟨S128x128, .f32⟩ : BufTy).Contents (Elt F)),
    StableHlo.binary main_v40 main_v41 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v13 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_v15 main_v46 ((transpose S128x128 [1, 0] · transposes_S128x128_S128x128_1_0) : (⟨S128x128, .f32⟩ : BufTy).Contents (Elt F) → (⟨S128x128, .f32⟩ : BufTy).Contents (Elt F)),
    StableHlo.binary main_v9 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.binary (.of main_v48) (.of main_v48) main_call0.v0 mulf,
    StableHlo.TRef.nullary main_call0.cst (constant S_ .f32 0x00000000#32),
    StableHlo.TRef.binary main_call0.v0 main_call0.cst main_call0.v1 (fun x v => Host.reduceAdd x v reducesTo_S100000x128_S100000_d1 h_S_),
    StableHlo.TRef.unary main_call0.v1 main_call0.v2 (broadcastInDim S100000x1 ![0] bcast_S100000_S100000x1_0),
    StableHlo.TRef.unary main_call0.v2 main_call0.v3 Host.sqrt,
    StableHlo.nullary main_cst_4 (constant S_ .f32 0x2B8CBCCC#32),
    StableHlo.unary main_cst_4 main_v50 (broadcastInDim S100000x1 ![] bcast_S_S100000x1 : (⟨S_, .f32⟩ : BufTy).Contents (Elt F) → (⟨S100000x1, .f32⟩ : BufTy).Contents (Elt F)),
    StableHlo.binary main_v49 main_v50 main_v51 (maximumf : (⟨S100000x1, .f32⟩ : BufTy).Contents (Elt F) → (⟨S100000x1, .f32⟩ : BufTy).Contents (Elt F) → (⟨S100000x1, .f32⟩ : BufTy).Contents (Elt F)),
    StableHlo.unary main_v51 main_v52 (broadcastInDim S100000x128 ![0, 1] bcast_S100000x1_S100000x128_0_1 : (⟨S100000x1, .f32⟩ : BufTy).Contents (Elt F) → (⟨S100000x128, .f32⟩ : BufTy).Contents (Elt F)) ]

set_option maxRecDepth 8192 in
theorem part0_eq (c : Dev nD) : main_part0 (F := F) c = seq ops0 := by
  simp only [main_part0, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops0_sub : (ops0 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub ..⟩

/-- Window 1 of @main: 64 operations, in order. -/
abbrev ops1 : List (HloOp τ sig (Elt F)) :=
  [ StableHlo.binary main_v48 main_v52 main_v53 (Host.divf : (⟨S100000x128, .f32⟩ : BufTy).Contents (Elt F) → (⟨S100000x128, .f32⟩ : BufTy).Contents (Elt F) → (⟨S100000x128, .f32⟩ : BufTy).Contents (Elt F)),
    StableHlo.unary main_arg9 main_v54 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v54 main_v55 rfl shapeCasts_S1x128x128_S128x128,
    StableHlo.unary main_arg10 main_v56 ((extractStridedSlice S1x128 ![1, 0] · slices_S3x128_S1x128_1_0) : (⟨S3x128, .f32⟩ : BufTy).Contents (Elt F) → (⟨S1x128, .f32⟩ : BufTy).Contents (Elt F)),
    StableHlo.reshape main_v56 main_v57 rfl shapeCasts_S1x128_S128,
    StableHlo.unary main_arg11 main_v58 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v58 main_v59 rfl shapeCasts_S1x128x128_S128x128,
    StableHlo.unary main_arg3 main_v60 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v60 main_v61 rfl shapeCasts_S1x500000_S500000,
    StableHlo.nullary main_c_5 (constantI S_ 32 0#32),
    StableHlo.unary main_c_5 main_v62 (broadcastInDim S500000 ![] bcast_S_S500000 : (⟨S_, .i32⟩ : BufTy).Contents (Elt F) → (⟨S500000, .i32⟩ : BufTy).Contents (Elt F)),
    StableHlo.binary main_v61 main_v62 main_v63 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 100000#32),
    StableHlo.unary main_c_6 main_v64 (broadcastInDim S500000 ![] bcast_S_S500000 : (⟨S_, .i32⟩ : BufTy).Contents (Elt F) → (⟨S500000, .i32⟩ : BufTy).Contents (Elt F)),
    StableHlo.binary main_v61 main_v64 main_v65 (addi : (⟨S500000, .i32⟩ : BufTy).Contents (Elt F) → (⟨S500000, .i32⟩ : BufTy).Contents (Elt F) → (⟨S500000, .i32⟩ : BufTy).Contents (Elt F)),
    StableHlo.ternary main_v63 main_v65 main_v61 main_v66 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v66 main_v67 (broadcastInDim S500000x1 ![0] bcast_S500000_S500000x1_0 : (⟨S500000, .i32⟩ : BufTy).Contents (Elt F) → (⟨S500000x1, .i32⟩ : BufTy).Contents (Elt F)),
    StableHlo.binary main_v9 main_v67 main_v68 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_arg3 main_v69 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v69 main_v70 rfl shapeCasts_S1x500000_S500000,
    StableHlo.nullary main_cst_7 (constant S_ .f32 0x00000000#32),
    StableHlo.unary main_cst_7 main_v71 (broadcastInDim S200000x128 ![] bcast_S_S200000x128 : (⟨S_, .f32⟩ : BufTy).Contents (Elt F) → (⟨S200000x128, .f32⟩ : BufTy).Contents (Elt F)),
    StableHlo.unary main_v70 main_v72 (broadcastInDim S500000x1 ![0] bcast_S500000_S500000x1_0 : (⟨S500000, .i32⟩ : BufTy).Contents (Elt F) → (⟨S500000x1, .i32⟩ : BufTy).Contents (Elt F)),
    StableHlo.ternary main_v71 main_v72 main_v68 main_v73 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_8 (constant S_ .f32 0x3F800000#32),
    StableHlo.unary main_cst_8 main_v74 (broadcastInDim S500000 ![] bcast_S_S500000 : (⟨S_, .f32⟩ : BufTy).Contents (Elt F) → (⟨S500000, .f32⟩ : BufTy).Contents (Elt F)),
    StableHlo.unary main_arg3 main_v75 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v75 main_v76 rfl shapeCasts_S1x500000_S500000,
    StableHlo.nullary main_cst_9 (constant S_ .f32 0x00000000#32),
    StableHlo.unary main_cst_9 main_v77 (broadcastInDim S200000 ![] bcast_S_S200000 : (⟨S_, .f32⟩ : BufTy).Contents (Elt F) → (⟨S200000, .f32⟩ : BufTy).Contents (Elt F)),
    StableHlo.unary main_v76 main_v78 (broadcastInDim S500000x1 ![0] bcast_S500000_S500000x1_0 : (⟨S500000, .i32⟩ : BufTy).Contents (Elt F) → (⟨S500000x1, .i32⟩ : BufTy).Contents (Elt F)),
    StableHlo.ternary main_v77 main_v78 main_v74 main_v79 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_10 (constant S_ .f32 0x3F800000#32),
    StableHlo.unary main_cst_10 main_v80 (broadcastInDim S200000 ![] bcast_S_S200000 : (⟨S_, .f32⟩ : BufTy).Contents (Elt F) → (⟨S200000, .f32⟩ : BufTy).Contents (Elt F)),
    StableHlo.binary main_v79 main_v80 main_v81 (maximumf : (⟨S200000, .f32⟩ : BufTy).Contents (Elt F) → (⟨S200000, .f32⟩ : BufTy).Contents (Elt F) → (⟨S200000, .f32⟩ : BufTy).Contents (Elt F)),
    StableHlo.unary main_v81 main_v82 (broadcastInDim S200000x1 ![0] bcast_S200000_S200000x1_0 : (⟨S200000, .f32⟩ : BufTy).Contents (Elt F) → (⟨S200000x1, .f32⟩ : BufTy).Contents (Elt F)),
    StableHlo.unary main_v82 main_v83 (broadcastInDim S200000x128 ![0, 1] bcast_S200000x1_S200000x128_0_1 : (⟨S200000x1, .f32⟩ : BufTy).Contents (Elt F) → (⟨S200000x128, .f32⟩ : BufTy).Contents (Elt F)),
    StableHlo.binary main_v73 main_v83 main_v84 (Host.divf : (⟨S200000x128, .f32⟩ : BufTy).Contents (Elt F) → (⟨S200000x128, .f32⟩ : BufTy).Contents (Elt F) → (⟨S200000x128, .f32⟩ : BufTy).Contents (Elt F)),
    StableHlo.unary main_v55 main_v85 ((transpose S128x128 [1, 0] · transposes_S128x128_S128x128_1_0) : (⟨S128x128, .f32⟩ : BufTy).Contents (Elt F) → (⟨S128x128, .f32⟩ : BufTy).Contents (Elt F)),
    StableHlo.binary main_v84 main_v85 main_v86 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v57 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S200000x128 ![0, 1] bcast_S1x128_S200000x128_0_1 : (⟨S1x128, .f32⟩ : BufTy).Contents (Elt F) → (⟨S200000x128, .f32⟩ : BufTy).Contents (Elt F)),
    StableHlo.binary main_v86 main_v88 main_v89 (addf : (⟨S200000x128, .f32⟩ : BufTy).Contents (Elt F) → (⟨S200000x128, .f32⟩ : BufTy).Contents (Elt F) → (⟨S200000x128, .f32⟩ : BufTy).Contents (Elt F)),
    StableHlo.unary main_v59 main_v90 ((transpose S128x128 [1, 0] · transposes_S128x128_S128x128_1_0) : (⟨S128x128, .f32⟩ : BufTy).Contents (Elt F) → (⟨S128x128, .f32⟩ : BufTy).Contents (Elt F)),
    StableHlo.binary main_v4 main_v90 main_v91 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v89 main_v91 main_v92 (addf : (⟨S200000x128, .f32⟩ : BufTy).Contents (Elt F) → (⟨S200000x128, .f32⟩ : BufTy).Contents (Elt F) → (⟨S200000x128, .f32⟩ : BufTy).Contents (Elt F)),
    StableHlo.TRef.binary (.of main_v92) (.of main_v92) main_call1.v0 mulf,
    StableHlo.TRef.nullary main_call1.cst (constant S_ .f32 0x00000000#32),
    StableHlo.TRef.binary main_call1.v0 main_call1.cst main_call1.v1 (fun x v => Host.reduceAdd x v reducesTo_S200000x128_S200000_d1 h_S_),
    StableHlo.TRef.unary main_call1.v1 main_call1.v2 (broadcastInDim S200000x1 ![0] bcast_S200000_S200000x1_0),
    StableHlo.TRef.unary main_call1.v2 main_call1.v3 Host.sqrt,
    StableHlo.nullary main_cst_11 (constant S_ .f32 0x2B8CBCCC#32),
    StableHlo.unary main_cst_11 main_v94 (broadcastInDim S200000x1 ![] bcast_S_S200000x1 : (⟨S_, .f32⟩ : BufTy).Contents (Elt F) → (⟨S200000x1, .f32⟩ : BufTy).Contents (Elt F)),
    StableHlo.binary main_v93 main_v94 main_v95 (maximumf : (⟨S200000x1, .f32⟩ : BufTy).Contents (Elt F) → (⟨S200000x1, .f32⟩ : BufTy).Contents (Elt F) → (⟨S200000x1, .f32⟩ : BufTy).Contents (Elt F)),
    StableHlo.unary main_v95 main_v96 (broadcastInDim S200000x128 ![0, 1] bcast_S200000x1_S200000x128_0_1 : (⟨S200000x1, .f32⟩ : BufTy).Contents (Elt F) → (⟨S200000x128, .f32⟩ : BufTy).Contents (Elt F)),
    StableHlo.binary main_v92 main_v96 main_v97 (Host.divf : (⟨S200000x128, .f32⟩ : BufTy).Contents (Elt F) → (⟨S200000x128, .f32⟩ : BufTy).Contents (Elt F) → (⟨S200000x128, .f32⟩ : BufTy).Contents (Elt F)),
    StableHlo.unary main_arg9 main_v98 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v98 main_v99 rfl shapeCasts_S1x128x128_S128x128,
    StableHlo.unary main_arg10 main_v100 ((extractStridedSlice S1x128 ![2, 0] · slices_S3x128_S1x128_2_0) : (⟨S3x128, .f32⟩ : BufTy).Contents (Elt F) → (⟨S1x128, .f32⟩ : BufTy).Contents (Elt F)),
    StableHlo.reshape main_v100 main_v101 rfl shapeCasts_S1x128_S128,
    StableHlo.unary main_arg11 main_v102 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v102 main_v103 rfl shapeCasts_S1x128x128_S128x128,
    StableHlo.unary main_arg4 main_v104 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v104 main_v105 rfl shapeCasts_S1x500000_S500000 ]

set_option maxRecDepth 8192 in
theorem part1_eq (c : Dev nD) : main_part1 (F := F) c = seq ops1 := by
  simp only [main_part1, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops1_sub : (ops1 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩

/-- Window 2 of @main: 85 operations, in order. -/
abbrev ops2 : List (HloOp τ sig (Elt F)) :=
  [ StableHlo.nullary main_c_12 (constantI S_ 32 0#32),
    StableHlo.unary main_c_12 main_v106 (broadcastInDim S500000 ![] bcast_S_S500000 : (⟨S_, .i32⟩ : BufTy).Contents (Elt F) → (⟨S500000, .i32⟩ : BufTy).Contents (Elt F)),
    StableHlo.binary main_v105 main_v106 main_v107 (cmpi .slt : (⟨S500000, .i32⟩ : BufTy).Contents (Elt F) → (⟨S500000, .i32⟩ : BufTy).Contents (Elt F) → (⟨S500000, .i1⟩ : BufTy).Contents (Elt F)),
    StableHlo.nullary main_c_13 (constantI S_ 32 200000#32),
    StableHlo.unary main_c_13 main_v108 (broadcastInDim S500000 ![] bcast_S_S500000 : (⟨S_, .i32⟩ : BufTy).Contents (Elt F) → (⟨S500000, .i32⟩ : BufTy).Contents (Elt F)),
    StableHlo.binary main_v105 main_v108 main_v109 (addi : (⟨S500000, .i32⟩ : BufTy).Contents (Elt F) → (⟨S500000, .i32⟩ : BufTy).Contents (Elt F) → (⟨S500000, .i32⟩ : BufTy).Contents (Elt F)),
    StableHlo.ternary main_v107 main_v109 main_v105 main_v110 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v110 main_v111 (broadcastInDim S500000x1 ![0] bcast_S500000_S500000x1_0 : (⟨S500000, .i32⟩ : BufTy).Contents (Elt F) → (⟨S500000x1, .i32⟩ : BufTy).Contents (Elt F)),
    StableHlo.binary main_v4 main_v111 main_v112 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg4 main_v113 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v113 main_v114 rfl shapeCasts_S1x500000_S500000,
    StableHlo.nullary main_cst_14 (constant S_ .f32 0x00000000#32),
    StableHlo.unary main_cst_14 main_v115 (broadcastInDim S200000x128 ![] bcast_S_S200000x128 : (⟨S_, .f32⟩ : BufTy).Contents (Elt F) → (⟨S200000x128, .f32⟩ : BufTy).Contents (Elt F)),
    StableHlo.unary main_v114 main_v116 (broadcastInDim S500000x1 ![0] bcast_S500000_S500000x1_0 : (⟨S500000, .i32⟩ : BufTy).Contents (Elt F) → (⟨S500000x1, .i32⟩ : BufTy).Contents (Elt F)),
    StableHlo.ternary main_v115 main_v116 main_v112 main_v117 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_15 (constant S_ .f32 0x3F800000#32),
    StableHlo.unary main_cst_15 main_v118 (broadcastInDim S500000 ![] bcast_S_S500000 : (⟨S_, .f32⟩ : BufTy).Contents (Elt F) → (⟨S500000, .f32⟩ : BufTy).Contents (Elt F)),
    StableHlo.unary main_arg4 main_v119 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v119 main_v120 rfl shapeCasts_S1x500000_S500000,
    StableHlo.nullary main_cst_16 (constant S_ .f32 0x00000000#32),
    StableHlo.unary main_cst_16 main_v121 (broadcastInDim S200000 ![] bcast_S_S200000 : (⟨S_, .f32⟩ : BufTy).Contents (Elt F) → (⟨S200000, .f32⟩ : BufTy).Contents (Elt F)),
    StableHlo.unary main_v120 main_v122 (broadcastInDim S500000x1 ![0] bcast_S500000_S500000x1_0 : (⟨S500000, .i32⟩ : BufTy).Contents (Elt F) → (⟨S500000x1, .i32⟩ : BufTy).Contents (Elt F)),
    StableHlo.ternary main_v121 main_v122 main_v118 main_v123 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_17 (constant S_ .f32 0x3F800000#32),
    StableHlo.unary main_cst_17 main_v124 (broadcastInDim S200000 ![] bcast_S_S200000 : (⟨S_, .f32⟩ : BufTy).Contents (Elt F) → (⟨S200000, .f32⟩ : BufTy).Contents (Elt F)),
    StableHlo.binary main_v123 main_v124 main_v125 (maximumf : (⟨S200000, .f32⟩ : BufTy).Contents (Elt F) → (⟨S200000, .f32⟩ : BufTy).Contents (Elt F) → (⟨S200000, .f32⟩ : BufTy).Contents (Elt F)),
    StableHlo.unary main_v125 main_v126 (broadcastInDim S200000x1 ![0] bcast_S200000_S200000x1_0 : (⟨S200000, .f32⟩ : BufTy).Contents (Elt F) → (⟨S200000x1, .f32⟩ : BufTy).Contents (Elt F)),
    StableHlo.unary main_v126 main_v127 (broadcastInDim S200000x128 ![0, 1] bcast_S200000x1_S200000x128_0_1 : (⟨S200000x1, .f32⟩ : BufTy).Contents (Elt F) → (⟨S200000x128, .f32⟩ : BufTy).Contents (Elt F)),
    StableHlo.binary main_v117 main_v127 main_v128 (Host.divf : (⟨S200000x128, .f32⟩ : BufTy).Contents (Elt F) → (⟨S200000x128, .f32⟩ : BufTy).Contents (Elt F) → (⟨S200000x128, .f32⟩ : BufTy).Contents (Elt F)),
    StableHlo.unary main_v99 main_v129 ((transpose S128x128 [1, 0] · transposes_S128x128_S128x128_1_0) : (⟨S128x128, .f32⟩ : BufTy).Contents (Elt F) → (⟨S128x128, .f32⟩ : BufTy).Contents (Elt F)),
    StableHlo.binary main_v128 main_v129 main_v130 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v101 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S200000x128 ![0, 1] bcast_S1x128_S200000x128_0_1 : (⟨S1x128, .f32⟩ : BufTy).Contents (Elt F) → (⟨S200000x128, .f32⟩ : BufTy).Contents (Elt F)),
    StableHlo.binary main_v130 main_v132 main_v133 (addf : (⟨S200000x128, .f32⟩ : BufTy).Contents (Elt F) → (⟨S200000x128, .f32⟩ : BufTy).Contents (Elt F) → (⟨S200000x128, .f32⟩ : BufTy).Contents (Elt F)),
    StableHlo.unary main_v103 main_v134 ((transpose S128x128 [1, 0] · transposes_S128x128_S128x128_1_0) : (⟨S128x128, .f32⟩ : BufTy).Contents (Elt F) → (⟨S128x128, .f32⟩ : BufTy).Contents (Elt F)),
    StableHlo.binary main_v4 main_v134 main_v135 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v133 main_v135 main_v136 (addf : (⟨S200000x128, .f32⟩ : BufTy).Contents (Elt F) → (⟨S200000x128, .f32⟩ : BufTy).Contents (Elt F) → (⟨S200000x128, .f32⟩ : BufTy).Contents (Elt F)),
    StableHlo.TRef.binary (.of main_v136) (.of main_v136) main_call2.v0 mulf,
    StableHlo.TRef.nullary main_call2.cst (constant S_ .f32 0x00000000#32),
    StableHlo.TRef.binary main_call2.v0 main_call2.cst main_call2.v1 (fun x v => Host.reduceAdd x v reducesTo_S200000x128_S200000_d1 h_S_),
    StableHlo.TRef.unary main_call2.v1 main_call2.v2 (broadcastInDim S200000x1 ![0] bcast_S200000_S200000x1_0),
    StableHlo.TRef.unary main_call2.v2 main_call2.v3 Host.sqrt,
    StableHlo.nullary main_cst_18 (constant S_ .f32 0x2B8CBCCC#32),
    StableHlo.unary main_cst_18 main_v138 (broadcastInDim S200000x1 ![] bcast_S_S200000x1 : (⟨S_, .f32⟩ : BufTy).Contents (Elt F) → (⟨S200000x1, .f32⟩ : BufTy).Contents (Elt F)),
    StableHlo.binary main_v137 main_v138 main_v139 (maximumf : (⟨S200000x1, .f32⟩ : BufTy).Contents (Elt F) → (⟨S200000x1, .f32⟩ : BufTy).Contents (Elt F) → (⟨S200000x1, .f32⟩ : BufTy).Contents (Elt F)),
    StableHlo.unary main_v139 main_v140 (broadcastInDim S200000x128 ![0, 1] bcast_S200000x1_S200000x128_0_1 : (⟨S200000x1, .f32⟩ : BufTy).Contents (Elt F) → (⟨S200000x128, .f32⟩ : BufTy).Contents (Elt F)),
    StableHlo.binary main_v136 main_v140 main_v141 (Host.divf : (⟨S200000x128, .f32⟩ : BufTy).Contents (Elt F) → (⟨S200000x128, .f32⟩ : BufTy).Contents (Elt F) → (⟨S200000x128, .f32⟩ : BufTy).Contents (Elt F)),
    StableHlo.binary main_v97 main_v141 main_v142 (addf : (⟨S200000x128, .f32⟩ : BufTy).Contents (Elt F) → (⟨S200000x128, .f32⟩ : BufTy).Contents (Elt F) → (⟨S200000x128, .f32⟩ : BufTy).Contents (Elt F)),
    StableHlo.unary main_arg18 main_v143 ((extractStridedSlice S1x128 ![0, 0] · slices_S2x128_S1x128_0_0) : (⟨S2x128, .f32⟩ : BufTy).Contents (Elt F) → (⟨S1x128, .f32⟩ : BufTy).Contents (Elt F)),
    StableHlo.reshape main_v143 main_v144 rfl shapeCasts_S1x128_S128,
    StableHlo.unary main_arg19 main_v145 ((extractStridedSlice S1x128 ![0, 0] · slices_S2x128_S1x128_0_0) : (⟨S2x128, .f32⟩ : BufTy).Contents (Elt F) → (⟨S1x128, .f32⟩ : BufTy).Contents (Elt F)),
    StableHlo.reshape main_v145 main_v146 rfl shapeCasts_S1x128_S128,
    StableHlo.nullary main_cst_19 (constant S_ .f32 0x00000000#32),
    StableHlo.binary main_v142 main_cst_19 main_v147 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_20 (constant S_ .f32 0x48435000#32),
    StableHlo.unary main_cst_20 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call3.cst (constant S_ .f32 0x00000000#32),
    StableHlo.TRef.binary (.of main_v142) main_call3.cst main_call3.v0 (fun x v => Host.reduceAdd x v reducesTo_S200000x128_S128_d0 h_S_),
    StableHlo.TRef.unary main_call3.v0 main_call3.v1 (broadcastInDim S1x128 ![1] bcast_S128_S1x128_1),
    StableHlo.TRef.nullary main_call3.cst_0 (constant S_ .f32 0x48435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S200000x128 ![0, 1] bcast_S1x128_S200000x128_0_1),
    StableHlo.TRef.binary (.of main_v142) main_call3.v4 main_call3.v5 subf,
    StableHlo.TRef.binary main_call3.v5 main_call3.v5 main_call3.v6 mulf,
    StableHlo.TRef.unary (.of main_c_21) main_call3.v7 (sitofp .f32),
    StableHlo.TRef.nullary main_call3.cst_1 (constant S_ .f32 0x48435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S200000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v149 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S200000x128 ![0, 1] bcast_S1x128_S200000x128_0_1 : (⟨S1x128, .f32⟩ : BufTy).Contents (Elt F) → (⟨S200000x128, .f32⟩ : BufTy).Contents (Elt F)),
    StableHlo.binary main_v142 main_v152 main_v153 (subf : (⟨S200000x128, .f32⟩ : BufTy).Contents (Elt F) → (⟨S200000x128, .f32⟩ : BufTy).Contents (Elt F) → (⟨S200000x128, .f32⟩ : BufTy).Contents (Elt F)),
    StableHlo.nullary main_cst_22 (constant S_ .f32 0x3727C5AC#32),
    StableHlo.unary main_cst_22 main_v154 (broadcastInDim S128 ![] bcast_S_S128 : (⟨S_, .f32⟩ : BufTy).Contents (Elt F) → (⟨S128, .f32⟩ : BufTy).Contents (Elt F)) ]

set_option maxRecDepth 8192 in
theorem part2_eq (c : Dev nD) : main_part2 (F := F) c = seq ops2 := by
  simp only [main_part2, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

/-- Window 3 of @main: 85 operations, in order. -/
abbrev ops3 : List (HloOp τ sig (Elt F)) :=
  [ StableHlo.binary main_v150 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.sqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S200000x128 ![0, 1] bcast_S1x128_S200000x128_0_1 : (⟨S1x128, .f32⟩ : BufTy).Contents (Elt F) → (⟨S200000x128, .f32⟩ : BufTy).Contents (Elt F)),
    StableHlo.binary main_v153 main_v158 main_v159 (Host.divf : (⟨S200000x128, .f32⟩ : BufTy).Contents (Elt F) → (⟨S200000x128, .f32⟩ : BufTy).Contents (Elt F) → (⟨S200000x128, .f32⟩ : BufTy).Contents (Elt F)),
    StableHlo.unary main_v144 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S200000x128 ![0, 1] bcast_S1x128_S200000x128_0_1 : (⟨S1x128, .f32⟩ : BufTy).Contents (Elt F) → (⟨S200000x128, .f32⟩ : BufTy).Contents (Elt F)),
    StableHlo.binary main_v159 main_v161 main_v162 (mulf : (⟨S200000x128, .f32⟩ : BufTy).Contents (Elt F) → (⟨S200000x128, .f32⟩ : BufTy).Contents (Elt F) → (⟨S200000x128, .f32⟩ : BufTy).Contents (Elt F)),
    StableHlo.unary main_v146 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S200000x128 ![0, 1] bcast_S1x128_S200000x128_0_1 : (⟨S1x128, .f32⟩ : BufTy).Contents (Elt F) → (⟨S200000x128, .f32⟩ : BufTy).Contents (Elt F)),
    StableHlo.binary main_v162 main_v164 main_v165 (addf : (⟨S200000x128, .f32⟩ : BufTy).Contents (Elt F) → (⟨S200000x128, .f32⟩ : BufTy).Contents (Elt F) → (⟨S200000x128, .f32⟩ : BufTy).Contents (Elt F)),
    StableHlo.unary main_arg18 main_v166 ((extractStridedSlice S1x128 ![1, 0] · slices_S2x128_S1x128_1_0) : (⟨S2x128, .f32⟩ : BufTy).Contents (Elt F) → (⟨S1x128, .f32⟩ : BufTy).Contents (Elt F)),
    StableHlo.reshape main_v166 main_v167 rfl shapeCasts_S1x128_S128,
    StableHlo.unary main_arg19 main_v168 ((extractStridedSlice S1x128 ![1, 0] · slices_S2x128_S1x128_1_0) : (⟨S2x128, .f32⟩ : BufTy).Contents (Elt F) → (⟨S1x128, .f32⟩ : BufTy).Contents (Elt F)),
    StableHlo.reshape main_v168 main_v169 rfl shapeCasts_S1x128_S128,
    StableHlo.nullary main_cst_23 (constant S_ .f32 0x00000000#32),
    StableHlo.binary main_v53 main_cst_23 main_v170 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v171 (broadcastInDim S128 ![] bcast_S_S128 : (⟨S_, .f32⟩ : BufTy).Contents (Elt F) → (⟨S128, .f32⟩ : BufTy).Contents (Elt F)),
    StableHlo.binary main_v170 main_v171 main_v172 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call4.cst (constant S_ .f32 0x00000000#32),
    StableHlo.TRef.binary (.of main_v53) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v53) main_call4.v4 main_call4.v5 subf,
    StableHlo.TRef.binary main_call4.v5 main_call4.v5 main_call4.v6 mulf,
    StableHlo.TRef.unary (.of main_c_25) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v172 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v175 main_v176 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v177 (broadcastInDim S128 ![] bcast_S_S128 : (⟨S_, .f32⟩ : BufTy).Contents (Elt F) → (⟨S128, .f32⟩ : BufTy).Contents (Elt F)),
    StableHlo.binary main_v173 main_v177 main_v178 (addf : (⟨S128, .f32⟩ : BufTy).Contents (Elt F) → (⟨S128, .f32⟩ : BufTy).Contents (Elt F) → (⟨S128, .f32⟩ : BufTy).Contents (Elt F)),
    StableHlo.unary main_v178 main_v179 (Host.sqrt : (⟨S128, .f32⟩ : BufTy).Contents (Elt F) → (⟨S128, .f32⟩ : BufTy).Contents (Elt F)),
    StableHlo.unary main_v179 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S100000x128 ![0, 1] bcast_S1x128_S100000x128_0_1 : (⟨S1x128, .f32⟩ : BufTy).Contents (Elt F) → (⟨S100000x128, .f32⟩ : BufTy).Contents (Elt F)),
    StableHlo.binary main_v176 main_v181 main_v182 (Host.divf : (⟨S100000x128, .f32⟩ : BufTy).Contents (Elt F) → (⟨S100000x128, .f32⟩ : BufTy).Contents (Elt F) → (⟨S100000x128, .f32⟩ : BufTy).Contents (Elt F)),
    StableHlo.unary main_v167 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S100000x128 ![0, 1] bcast_S1x128_S100000x128_0_1 : (⟨S1x128, .f32⟩ : BufTy).Contents (Elt F) → (⟨S100000x128, .f32⟩ : BufTy).Contents (Elt F)),
    StableHlo.binary main_v182 main_v184 main_v185 (mulf : (⟨S100000x128, .f32⟩ : BufTy).Contents (Elt F) → (⟨S100000x128, .f32⟩ : BufTy).Contents (Elt F) → (⟨S100000x128, .f32⟩ : BufTy).Contents (Elt F)),
    StableHlo.unary main_v169 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S100000x128 ![0, 1] bcast_S1x128_S100000x128_0_1 : (⟨S1x128, .f32⟩ : BufTy).Contents (Elt F) → (⟨S100000x128, .f32⟩ : BufTy).Contents (Elt F)),
    StableHlo.binary main_v185 main_v187 main_v188 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S200000x128 ![] bcast_S_S200000x128),
    StableHlo.TRef.binary (.of main_v165) main_call5.v0 main_call5.v1 maximumf,
    StableHlo.TRef.nullary main_call6.cst (constant S_ .f32 0x00000000#32),
    StableHlo.TRef.unary main_call6.cst main_call6.v0 (broadcastInDim S100000x128 ![] bcast_S_S100000x128),
    StableHlo.TRef.binary (.of main_v188) main_call6.v0 main_call6.v1 maximumf,
    StableHlo.unary main_arg12 main_v191 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v191 main_v192 rfl shapeCasts_S1x128x128_S128x128,
    StableHlo.unary main_arg13 main_v193 ((extractStridedSlice S1x128 ![0, 0] · slices_S3x128_S1x128_0_0) : (⟨S3x128, .f32⟩ : BufTy).Contents (Elt F) → (⟨S1x128, .f32⟩ : BufTy).Contents (Elt F)),
    StableHlo.reshape main_v193 main_v194 rfl shapeCasts_S1x128_S128,
    StableHlo.unary main_arg14 main_v195 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v195 main_v196 rfl shapeCasts_S1x128x128_S128x128,
    StableHlo.unary main_arg2 main_v197 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v197 main_v198 rfl shapeCasts_S1x500000_S500000,
    StableHlo.nullary main_c_27 (constantI S_ 32 0#32),
    StableHlo.unary main_c_27 main_v199 (broadcastInDim S500000 ![] bcast_S_S500000 : (⟨S_, .i32⟩ : BufTy).Contents (Elt F) → (⟨S500000, .i32⟩ : BufTy).Contents (Elt F)),
    StableHlo.binary main_v198 main_v199 main_v200 (cmpi .slt : (⟨S500000, .i32⟩ : BufTy).Contents (Elt F) → (⟨S500000, .i32⟩ : BufTy).Contents (Elt F) → (⟨S500000, .i1⟩ : BufTy).Contents (Elt F)),
    StableHlo.nullary main_c_28 (constantI S_ 32 200000#32),
    StableHlo.unary main_c_28 main_v201 (broadcastInDim S500000 ![] bcast_S_S500000 : (⟨S_, .i32⟩ : BufTy).Contents (Elt F) → (⟨S500000, .i32⟩ : BufTy).Contents (Elt F)),
    StableHlo.binary main_v198 main_v201 main_v202 (addi : (⟨S500000, .i32⟩ : BufTy).Contents (Elt F) → (⟨S500000, .i32⟩ : BufTy).Contents (Elt F) → (⟨S500000, .i32⟩ : BufTy).Contents (Elt F)),
    StableHlo.ternary main_v200 main_v202 main_v198 main_v203 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v203 main_v204 (broadcastInDim S500000x1 ![0] bcast_S500000_S500000x1_0 : (⟨S500000, .i32⟩ : BufTy).Contents (Elt F) → (⟨S500000x1, .i32⟩ : BufTy).Contents (Elt F)),
    StableHlo.binary main_v189 main_v204 main_v205 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg2 main_v206 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v206 main_v207 rfl shapeCasts_S1x500000_S500000,
    StableHlo.nullary main_cst_29 (constant S_ .f32 0x00000000#32) ]

set_option maxRecDepth 8192 in
theorem part3_eq (c : Dev nD) : main_part3 (F := F) c = seq ops3 := by
  simp only [main_part3, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops3_sub : (ops3 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub ..⟩

/-- Window 4 of @main: 64 operations, in order. -/
abbrev ops4 : List (HloOp τ sig (Elt F)) :=
  [ StableHlo.unary main_cst_29 main_v208 (broadcastInDim S100000x128 ![] bcast_S_S100000x128 : (⟨S_, .f32⟩ : BufTy).Contents (Elt F) → (⟨S100000x128, .f32⟩ : BufTy).Contents (Elt F)),
    StableHlo.unary main_v207 main_v209 (broadcastInDim S500000x1 ![0] bcast_S500000_S500000x1_0 : (⟨S500000, .i32⟩ : BufTy).Contents (Elt F) → (⟨S500000x1, .i32⟩ : BufTy).Contents (Elt F)),
    StableHlo.ternary main_v208 main_v209 main_v205 main_v210 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_30 (constant S_ .f32 0x3F800000#32),
    StableHlo.unary main_cst_30 main_v211 (broadcastInDim S500000 ![] bcast_S_S500000 : (⟨S_, .f32⟩ : BufTy).Contents (Elt F) → (⟨S500000, .f32⟩ : BufTy).Contents (Elt F)),
    StableHlo.unary main_arg2 main_v212 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v212 main_v213 rfl shapeCasts_S1x500000_S500000,
    StableHlo.nullary main_cst_31 (constant S_ .f32 0x00000000#32),
    StableHlo.unary main_cst_31 main_v214 (broadcastInDim S100000 ![] bcast_S_S100000 : (⟨S_, .f32⟩ : BufTy).Contents (Elt F) → (⟨S100000, .f32⟩ : BufTy).Contents (Elt F)),
    StableHlo.unary main_v213 main_v215 (broadcastInDim S500000x1 ![0] bcast_S500000_S500000x1_0 : (⟨S500000, .i32⟩ : BufTy).Contents (Elt F) → (⟨S500000x1, .i32⟩ : BufTy).Contents (Elt F)),
    StableHlo.ternary main_v214 main_v215 main_v211 main_v216 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_32 (constant S_ .f32 0x3F800000#32),
    StableHlo.unary main_cst_32 main_v217 (broadcastInDim S100000 ![] bcast_S_S100000 : (⟨S_, .f32⟩ : BufTy).Contents (Elt F) → (⟨S100000, .f32⟩ : BufTy).Contents (Elt F)),
    StableHlo.binary main_v216 main_v217 main_v218 (maximumf : (⟨S100000, .f32⟩ : BufTy).Contents (Elt F) → (⟨S100000, .f32⟩ : BufTy).Contents (Elt F) → (⟨S100000, .f32⟩ : BufTy).Contents (Elt F)),
    StableHlo.unary main_v218 main_v219 (broadcastInDim S100000x1 ![0] bcast_S100000_S100000x1_0 : (⟨S100000, .f32⟩ : BufTy).Contents (Elt F) → (⟨S100000x1, .f32⟩ : BufTy).Contents (Elt F)),
    StableHlo.unary main_v219 main_v220 (broadcastInDim S100000x128 ![0, 1] bcast_S100000x1_S100000x128_0_1 : (⟨S100000x1, .f32⟩ : BufTy).Contents (Elt F) → (⟨S100000x128, .f32⟩ : BufTy).Contents (Elt F)),
    StableHlo.binary main_v210 main_v220 main_v221 (Host.divf : (⟨S100000x128, .f32⟩ : BufTy).Contents (Elt F) → (⟨S100000x128, .f32⟩ : BufTy).Contents (Elt F) → (⟨S100000x128, .f32⟩ : BufTy).Contents (Elt F)),
    StableHlo.unary main_v192 main_v222 ((transpose S128x128 [1, 0] · transposes_S128x128_S128x128_1_0) : (⟨S128x128, .f32⟩ : BufTy).Contents (Elt F) → (⟨S128x128, .f32⟩ : BufTy).Contents (Elt F)),
    StableHlo.binary main_v221 main_v222 main_v223 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v194 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v223 main_v225 main_v226 (addf : (⟨S100000x128, .f32⟩ : BufTy).Contents (Elt F) → (⟨S100000x128, .f32⟩ : BufTy).Contents (Elt F) → (⟨S100000x128, .f32⟩ : BufTy).Contents (Elt F)),
    StableHlo.unary main_v196 main_v227 ((transpose S128x128 [1, 0] · transposes_S128x128_S128x128_1_0) : (⟨S128x128, .f32⟩ : BufTy).Contents (Elt F) → (⟨S128x128, .f32⟩ : BufTy).Contents (Elt F)),
    StableHlo.binary main_v190 main_v227 main_v228 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v226 main_v228 main_v229 (addf : (⟨S100000x128, .f32⟩ : BufTy).Contents (Elt F) → (⟨S100000x128, .f32⟩ : BufTy).Contents (Elt F) → (⟨S100000x128, .f32⟩ : BufTy).Contents (Elt F)),
    StableHlo.TRef.binary (.of main_v229) (.of main_v229) main_call7.v0 mulf,
    StableHlo.TRef.nullary main_call7.cst (constant S_ .f32 0x00000000#32),
    StableHlo.TRef.binary main_call7.v0 main_call7.cst main_call7.v1 (fun x v => Host.reduceAdd x v reducesTo_S100000x128_S100000_d1 h_S_),
    StableHlo.TRef.unary main_call7.v1 main_call7.v2 (broadcastInDim S100000x1 ![0] bcast_S100000_S100000x1_0),
    StableHlo.TRef.unary main_call7.v2 main_call7.v3 Host.sqrt,
    StableHlo.nullary main_cst_33 (constant S_ .f32 0x2B8CBCCC#32),
    StableHlo.unary main_cst_33 main_v231 (broadcastInDim S100000x1 ![] bcast_S_S100000x1 : (⟨S_, .f32⟩ : BufTy).Contents (Elt F) → (⟨S100000x1, .f32⟩ : BufTy).Contents (Elt F)),
    StableHlo.binary main_v230 main_v231 main_v232 (maximumf : (⟨S100000x1, .f32⟩ : BufTy).Contents (Elt F) → (⟨S100000x1, .f32⟩ : BufTy).Contents (Elt F) → (⟨S100000x1, .f32⟩ : BufTy).Contents (Elt F)),
    StableHlo.unary main_v232 main_v233 (broadcastInDim S100000x128 ![0, 1] bcast_S100000x1_S100000x128_0_1 : (⟨S100000x1, .f32⟩ : BufTy).Contents (Elt F) → (⟨S100000x128, .f32⟩ : BufTy).Contents (Elt F)),
    StableHlo.binary main_v229 main_v233 main_v234 (Host.divf : (⟨S100000x128, .f32⟩ : BufTy).Contents (Elt F) → (⟨S100000x128, .f32⟩ : BufTy).Contents (Elt F) → (⟨S100000x128, .f32⟩ : BufTy).Contents (Elt F)),
    StableHlo.unary main_arg12 main_v235 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v235 main_v236 rfl shapeCasts_S1x128x128_S128x128,
    StableHlo.unary main_arg13 main_v237 ((extractStridedSlice S1x128 ![1, 0] · slices_S3x128_S1x128_1_0) : (⟨S3x128, .f32⟩ : BufTy).Contents (Elt F) → (⟨S1x128, .f32⟩ : BufTy).Contents (Elt F)),
    StableHlo.reshape main_v237 main_v238 rfl shapeCasts_S1x128_S128,
    StableHlo.unary main_arg14 main_v239 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v239 main_v240 rfl shapeCasts_S1x128x128_S128x128,
    StableHlo.unary main_arg3 main_v241 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v241 main_v242 rfl shapeCasts_S1x500000_S500000,
    StableHlo.nullary main_c_34 (constantI S_ 32 0#32),
    StableHlo.unary main_c_34 main_v243 (broadcastInDim S500000 ![] bcast_S_S500000 : (⟨S_, .i32⟩ : BufTy).Contents (Elt F) → (⟨S500000, .i32⟩ : BufTy).Contents (Elt F)),
    StableHlo.binary main_v242 main_v243 main_v244 (cmpi .slt : (⟨S500000, .i32⟩ : BufTy).Contents (Elt F) → (⟨S500000, .i32⟩ : BufTy).Contents (Elt F) → (⟨S500000, .i1⟩ : BufTy).Contents (Elt F)),
    StableHlo.nullary main_c_35 (constantI S_ 32 100000#32),
    StableHlo.unary main_c_35 main_v245 (broadcastInDim S500000 ![] bcast_S_S500000 : (⟨S_, .i32⟩ : BufTy).Contents (Elt F) → (⟨S500000, .i32⟩ : BufTy).Contents (Elt F)),
    StableHlo.binary main_v242 main_v245 main_v246 (addi : (⟨S500000, .i32⟩ : BufTy).Contents (Elt F) → (⟨S500000, .i32⟩ : BufTy).Contents (Elt F) → (⟨S500000, .i32⟩ : BufTy).Contents (Elt F)),
    StableHlo.ternary main_v244 main_v246 main_v242 main_v247 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v247 main_v248 (broadcastInDim S500000x1 ![0] bcast_S500000_S500000x1_0 : (⟨S500000, .i32⟩ : BufTy).Contents (Elt F) → (⟨S500000x1, .i32⟩ : BufTy).Contents (Elt F)),
    StableHlo.binary main_v190 main_v248 main_v249 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_arg3 main_v250 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v250 main_v251 rfl shapeCasts_S1x500000_S500000,
    StableHlo.nullary main_cst_36 (constant S_ .f32 0x00000000#32),
    StableHlo.unary main_cst_36 main_v252 (broadcastInDim S200000x128 ![] bcast_S_S200000x128 : (⟨S_, .f32⟩ : BufTy).Contents (Elt F) → (⟨S200000x128, .f32⟩ : BufTy).Contents (Elt F)),
    StableHlo.unary main_v251 main_v253 (broadcastInDim S500000x1 ![0] bcast_S500000_S500000x1_0 : (⟨S500000, .i32⟩ : BufTy).Contents (Elt F) → (⟨S500000x1, .i32⟩ : BufTy).Contents (Elt F)),
    StableHlo.ternary main_v252 main_v253 main_v249 main_v254 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_37 (constant S_ .f32 0x3F800000#32),
    StableHlo.unary main_cst_37 main_v255 (broadcastInDim S500000 ![] bcast_S_S500000 : (⟨S_, .f32⟩ : BufTy).Contents (Elt F) → (⟨S500000, .f32⟩ : BufTy).Contents (Elt F)),
    StableHlo.unary main_arg3 main_v256 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v256 main_v257 rfl shapeCasts_S1x500000_S500000,
    StableHlo.nullary main_cst_38 (constant S_ .f32 0x00000000#32),
    StableHlo.unary main_cst_38 main_v258 (broadcastInDim S200000 ![] bcast_S_S200000 : (⟨S_, .f32⟩ : BufTy).Contents (Elt F) → (⟨S200000, .f32⟩ : BufTy).Contents (Elt F)) ]

set_option maxRecDepth 8192 in
theorem part4_eq (c : Dev nD) : main_part4 (F := F) c = seq ops4 := by
  simp only [main_part4, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops4_sub : (ops4 : List (HloOp τ sig (Elt F))).Forall fun op => op.bufs ⊆ tcRefs τ sig :=
  ⟨unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub ..⟩

/-- Window 5 of @main: 64 operations, in order. -/
abbrev ops5 : List (HloOp τ sig (Elt F)) :=
  [ StableHlo.unary main_v257 main_v259 (broadcastInDim S500000x1 ![0] bcast_S500000_S500000x1_0 : (⟨S500000, .i32⟩ : BufTy).Contents (Elt F) → (⟨S500000x1, .i32⟩ : BufTy).Contents (Elt F)),
    StableHlo.ternary main_v258 main_v259 main_v255 main_v260 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_39 (constant S_ .f32 0x3F800000#32),
    StableHlo.unary main_cst_39 main_v261 (broadcastInDim S200000 ![] bcast_S_S200000 : (⟨S_, .f32⟩ : BufTy).Contents (Elt F) → (⟨S200000, .f32⟩ : BufTy).Contents (Elt F)),
    StableHlo.binary main_v260 main_v261 main_v262 (maximumf : (⟨S200000, .f32⟩ : BufTy).Contents (Elt F) → (⟨S200000, .f32⟩ : BufTy).Contents (Elt F) → (⟨S200000, .f32⟩ : BufTy).Contents (Elt F)),
    StableHlo.unary main_v262 main_v263 (broadcastInDim S200000x1 ![0] bcast_S200000_S200000x1_0 : (⟨S200000, .f32⟩ : BufTy).Contents (Elt F) → (⟨S200000x1, .f32⟩ : BufTy).Contents (Elt F)),
    StableHlo.unary main_v263 main_v264 (broadcastInDim S200000x128 ![0, 1] bcast_S200000x1_S200000x128_0_1 : (⟨S200000x1, .f32⟩ : BufTy).Contents (Elt F) → (⟨S200000x128, .f32⟩ : BufTy).Contents (Elt F)),
    StableHlo.binary main_v254 main_v264 main_v265 (Host.divf : (⟨S200000x128, .f32⟩ : BufTy).Contents (Elt F) → (⟨S200000x128, .f32⟩ : BufTy).Contents (Elt F) → (⟨S200000x128, .f32⟩ : BufTy).Contents (Elt F)),
    StableHlo.unary main_v236 main_v266 ((transpose S128x128 [1, 0] · transposes_S128x128_S128x128_1_0) : (⟨S128x128, .f32⟩ : BufTy).Contents (Elt F) → (⟨S128x128, .f32⟩ : BufTy).Contents (Elt F)),
    StableHlo.binary main_v265 main_v266 main_v267 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v238 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S200000x128 ![0, 1] bcast_S1x128_S200000x128_0_1 : (⟨S1x128, .f32⟩ : BufTy).Contents (Elt F) → (⟨S200000x128, .f32⟩ : BufTy).Contents (Elt F)),
    StableHlo.binary main_v267 main_v269 main_v270 (addf : (⟨S200000x128, .f32⟩ : BufTy).Contents (Elt F) → (⟨S200000x128, .f32⟩ : BufTy).Contents (Elt F) → (⟨S200000x128, .f32⟩ : BufTy).Contents (Elt F)),
    StableHlo.unary main_v240 main_v271 ((transpose S128x128 [1, 0] · transposes_S128x128_S128x128_1_0) : (⟨S128x128, .f32⟩ : BufTy).Contents (Elt F) → (⟨S128x128, .f32⟩ : BufTy).Contents (Elt F)),
    StableHlo.binary main_v189 main_v271 main_v272 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v270 main_v272 main_v273 (addf : (⟨S200000x128, .f32⟩ : BufTy).Contents (Elt F) → (⟨S200000x128, .f32⟩ : BufTy).Contents (Elt F) → (⟨S200000x128, .f32⟩ : BufTy).Contents (Elt F)),
    StableHlo.TRef.binary (.of main_v273) (.of main_v273) main_call8.v0 mulf,
    StableHlo.TRef.nullary main_call8.cst (constant S_ .f32 0x00000000#32),
    StableHlo.TRef.binary main_call8.v0 main_call8.cst main_call8.v1 (fun x v => Host.reduceAdd x v reducesTo_S200000x128_S200000_d1 h_S_),
    StableHlo.TRef.unary main_call8.v1 main_call8.v2 (broadcastInDim S200000x1 ![0] bcast_S200000_S200000x1_0),
    StableHlo.TRef.unary main_call8.v2 main_call8.v3 Host.sqrt,
    StableHlo.nullary main_cst_40 (constant S_ .f32 0x2B8CBCCC#32),
    StableHlo.unary main_cst_40 main_v275 (broadcastInDim S200000x1 ![] bcast_S_S200000x1 : (⟨S_, .f32⟩ : BufTy).Contents (Elt F) → (⟨S200000x1, .f32⟩ : BufTy).Contents (Elt F)),
    StableHlo.binary main_v274 main_v275 main_v276 (maximumf : (⟨S200000x1, .f32⟩ : BufTy).Contents (Elt F) → (⟨S200000x1, .f32⟩ : BufTy).Contents (Elt F) → (⟨S200000x1, .f32⟩ : BufTy).Contents (Elt F)),
    StableHlo.unary main_v276 main_v277 (broadcastInDim S200000x128 ![0, 1] bcast_S200000x1_S200000x128_0_1 : (⟨S200000x1, .f32⟩ : BufTy).Contents (Elt F) → (⟨S200000x128, .f32⟩ : BufTy).Contents (Elt F)),
    StableHlo.binary main_v273 main_v277 main_v278 (Host.divf : (⟨S200000x128, .f32⟩ : BufTy).Contents (Elt F) → (⟨S200000x128, .f32⟩ : BufTy).Contents (Elt F) → (⟨S200000x128, .f32⟩ : BufTy).Contents (Elt F)),
    StableHlo.unary main_arg12 main_v279 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v279 main_v280 rfl shapeCasts_S1x128x128_S128x128,
    StableHlo.unary main_arg13 main_v281 ((extractStridedSlice S1x128 ![2, 0] · slices_S3x128_S1x128_2_0) : (⟨S3x128, .f32⟩ : BufTy).Contents (Elt F) → (⟨S1x128, .f32⟩ : BufTy).Contents (Elt F)),
    StableHlo.reshape main_v281 main_v282 rfl shapeCasts_S1x128_S128,
    StableHlo.unary main_arg14 main_v283 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v283 main_v284 rfl shapeCasts_S1x128x128_S128x128,
    StableHlo.unary main_arg4 main_v285 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v285 main_v286 rfl shapeCasts_S1x500000_S500000,
    StableHlo.nullary main_c_41 (constantI S_ 32 0#32),
    StableHlo.unary main_c_41 main_v287 (broadcastInDim S500000 ![] bcast_S_S500000 : (⟨S_, .i32⟩ : BufTy).Contents (Elt F) → (⟨S500000, .i32⟩ : BufTy).Contents (Elt F)),
    StableHlo.binary main_v286 main_v287 main_v288 (cmpi .slt : (⟨S500000, .i32⟩ : BufTy).Contents (Elt F) → (⟨S500000, .i32⟩ : BufTy).Contents (Elt F) → (⟨S500000, .i1⟩ : BufTy).Contents (Elt F)),
    StableHlo.nullary main_c_42 (constantI S_ 32 200000#32),
    StableHlo.unary main_c_42 main_v289 (broadcastInDim S500000 ![] bcast_S_S500000 : (⟨S_, .i32⟩ : BufTy).Contents (Elt F) → (⟨S500000, .i32⟩ : BufTy).Contents (Elt F)),
    StableHlo.binary main_v286 main_v289 main_v290 (addi : (⟨S500000, .i32⟩ : BufTy).Contents (Elt F) → (⟨S500000, .i32⟩ : BufTy).Contents (Elt F) → (⟨S500000, .i32⟩ : BufTy).Contents (Elt F)),
    StableHlo.ternary main_v288 main_v290 main_v286 main_v291 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v291 main_v292 (broadcastInDim S500000x1 ![0] bcast_S500000_S500000x1_0 : (⟨S500000, .i32⟩ : BufTy).Contents (Elt F) → (⟨S500000x1, .i32⟩ : BufTy).Contents (Elt F)),
    StableHlo.binary main_v189 main_v292 main_v293 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg4 main_v294 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v294 main_v295 rfl shapeCasts_S1x500000_S500000,
    StableHlo.nullary main_cst_43 (constant S_ .f32 0x00000000#32),
    StableHlo.unary main_cst_43 main_v296 (broadcastInDim S200000x128 ![] bcast_S_S200000x128 : (⟨S_, .f32⟩ : BufTy).Contents (Elt F) → (⟨S200000x128, .f32⟩ : BufTy).Contents (Elt F)),
    StableHlo.unary main_v295 main_v297 (broadcastInDim S500000x1 ![0] bcast_S500000_S500000x1_0 : (⟨S500000, .i32⟩ : BufTy).Contents (Elt F) → (⟨S500000x1, .i32⟩ : BufTy).Contents (Elt F)),
    StableHlo.ternary main_v296 main_v297 main_v293 main_v298 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_44 (constant S_ .f32 0x3F800000#32),
    StableHlo.unary main_cst_44 main_v299 (broadcastInDim S500000 ![] bcast_S_S500000 : (⟨S_, .f32⟩ : BufTy).Contents (Elt F) → (⟨S500000, .f32⟩ : BufTy).Contents (Elt F)),
    StableHlo.unary main_arg4 main_v300 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v300 main_v301 rfl shapeCasts_S1x500000_S500000,
    StableHlo.nullary main_cst_45 (constant S_ .f32 0x00000000#32),
    StableHlo.unary main_cst_45 main_v302 (broadcastInDim S200000 ![] bcast_S_S200000 : (⟨S_, .f32⟩ : BufTy).Contents (Elt F) → (⟨S200000, .f32⟩ : BufTy).Contents (Elt F)),
    StableHlo.unary main_v301 main_v303 (broadcastInDim S500000x1 ![0] bcast_S500000_S500000x1_0 : (⟨S500000, .i32⟩ : BufTy).Contents (Elt F) → (⟨S500000x1, .i32⟩ : BufTy).Contents (Elt F)),
    StableHlo.ternary main_v302 main_v303 main_v299 main_v304 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_46 (constant S_ .f32 0x3F800000#32),
    StableHlo.unary main_cst_46 main_v305 (broadcastInDim S200000 ![] bcast_S_S200000 : (⟨S_, .f32⟩ : BufTy).Contents (Elt F) → (⟨S200000, .f32⟩ : BufTy).Contents (Elt F)),
    StableHlo.binary main_v304 main_v305 main_v306 (maximumf : (⟨S200000, .f32⟩ : BufTy).Contents (Elt F) → (⟨S200000, .f32⟩ : BufTy).Contents (Elt F) → (⟨S200000, .f32⟩ : BufTy).Contents (Elt F)),
    StableHlo.unary main_v306 main_v307 (broadcastInDim S200000x1 ![0] bcast_S200000_S200000x1_0 : (⟨S200000, .f32⟩ : BufTy).Contents (Elt F) → (⟨S200000x1, .f32⟩ : BufTy).Contents (Elt F)),
    StableHlo.unary main_v307 main_v308 (broadcastInDim S200000x128 ![0, 1] bcast_S200000x1_S200000x128_0_1 : (⟨S200000x1, .f32⟩ : BufTy).Contents (Elt F) → (⟨S200000x128, .f32⟩ : BufTy).Contents (Elt F)),
    StableHlo.binary main_v298 main_v308 main_v309 (Host.divf : (⟨S200000x128, .f32⟩ : BufTy).Contents (Elt F) → (⟨S200000x128, .f32⟩ : BufTy).Contents (Elt F) → (⟨S200000x128, .f32⟩ : BufTy).Contents (Elt F)),
    StableHlo.unary main_v280 main_v310 ((transpose S128x128 [1, 0] · transposes_S128x128_S128x128_1_0) : (⟨S128x128, .f32⟩ : BufTy).Contents (Elt F) → (⟨S128x128, .f32⟩ : BufTy).Contents (Elt F)) ]

set_option maxRecDepth 8192 in
theorem part5_eq (c : Dev nD) : main_part5 (F := F) c = seq ops5 := by
  simp only [main_part5, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops5_sub : (ops5 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub ..⟩

/-- Window 6 of @main: 106 operations, in order. -/
abbrev ops6 : List (HloOp τ sig (Elt F)) :=
  [ StableHlo.binary main_v309 main_v310 main_v311 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v282 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S200000x128 ![0, 1] bcast_S1x128_S200000x128_0_1 : (⟨S1x128, .f32⟩ : BufTy).Contents (Elt F) → (⟨S200000x128, .f32⟩ : BufTy).Contents (Elt F)),
    StableHlo.binary main_v311 main_v313 main_v314 (addf : (⟨S200000x128, .f32⟩ : BufTy).Contents (Elt F) → (⟨S200000x128, .f32⟩ : BufTy).Contents (Elt F) → (⟨S200000x128, .f32⟩ : BufTy).Contents (Elt F)),
    StableHlo.unary main_v284 main_v315 ((transpose S128x128 [1, 0] · transposes_S128x128_S128x128_1_0) : (⟨S128x128, .f32⟩ : BufTy).Contents (Elt F) → (⟨S128x128, .f32⟩ : BufTy).Contents (Elt F)),
    StableHlo.binary main_v189 main_v315 main_v316 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v314 main_v316 main_v317 (addf : (⟨S200000x128, .f32⟩ : BufTy).Contents (Elt F) → (⟨S200000x128, .f32⟩ : BufTy).Contents (Elt F) → (⟨S200000x128, .f32⟩ : BufTy).Contents (Elt F)),
    StableHlo.TRef.binary (.of main_v317) (.of main_v317) main_call9.v0 mulf,
    StableHlo.TRef.nullary main_call9.cst (constant S_ .f32 0x00000000#32),
    StableHlo.TRef.binary main_call9.v0 main_call9.cst main_call9.v1 (fun x v => Host.reduceAdd x v reducesTo_S200000x128_S200000_d1 h_S_),
    StableHlo.TRef.unary main_call9.v1 main_call9.v2 (broadcastInDim S200000x1 ![0] bcast_S200000_S200000x1_0),
    StableHlo.TRef.unary main_call9.v2 main_call9.v3 Host.sqrt,
    StableHlo.nullary main_cst_47 (constant S_ .f32 0x2B8CBCCC#32),
    StableHlo.unary main_cst_47 main_v319 (broadcastInDim S200000x1 ![] bcast_S_S200000x1 : (⟨S_, .f32⟩ : BufTy).Contents (Elt F) → (⟨S200000x1, .f32⟩ : BufTy).Contents (Elt F)),
    StableHlo.binary main_v318 main_v319 main_v320 (maximumf : (⟨S200000x1, .f32⟩ : BufTy).Contents (Elt F) → (⟨S200000x1, .f32⟩ : BufTy).Contents (Elt F) → (⟨S200000x1, .f32⟩ : BufTy).Contents (Elt F)),
    StableHlo.unary main_v320 main_v321 (broadcastInDim S200000x128 ![0, 1] bcast_S200000x1_S200000x128_0_1 : (⟨S200000x1, .f32⟩ : BufTy).Contents (Elt F) → (⟨S200000x128, .f32⟩ : BufTy).Contents (Elt F)),
    StableHlo.binary main_v317 main_v321 main_v322 (Host.divf : (⟨S200000x128, .f32⟩ : BufTy).Contents (Elt F) → (⟨S200000x128, .f32⟩ : BufTy).Contents (Elt F) → (⟨S200000x128, .f32⟩ : BufTy).Contents (Elt F)),
    StableHlo.binary main_v278 main_v322 main_v323 (addf : (⟨S200000x128, .f32⟩ : BufTy).Contents (Elt F) → (⟨S200000x128, .f32⟩ : BufTy).Contents (Elt F) → (⟨S200000x128, .f32⟩ : BufTy).Contents (Elt F)),
    StableHlo.unary main_arg20 main_v324 ((extractStridedSlice S1x128 ![0, 0] · slices_S2x128_S1x128_0_0) : (⟨S2x128, .f32⟩ : BufTy).Contents (Elt F) → (⟨S1x128, .f32⟩ : BufTy).Contents (Elt F)),
    StableHlo.reshape main_v324 main_v325 rfl shapeCasts_S1x128_S128,
    StableHlo.unary main_arg21 main_v326 ((extractStridedSlice S1x128 ![0, 0] · slices_S2x128_S1x128_0_0) : (⟨S2x128, .f32⟩ : BufTy).Contents (Elt F) → (⟨S1x128, .f32⟩ : BufTy).Contents (Elt F)),
    StableHlo.reshape main_v326 main_v327 rfl shapeCasts_S1x128_S128,
    StableHlo.nullary main_cst_48 (constant S_ .f32 0x00000000#32),
    StableHlo.binary main_v323 main_cst_48 main_v328 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_49 (constant S_ .f32 0x48435000#32),
    StableHlo.unary main_cst_49 main_v329 (broadcastInDim S128 ![] bcast_S_S128 : (⟨S_, .f32⟩ : BufTy).Contents (Elt F) → (⟨S128, .f32⟩ : BufTy).Contents (Elt F)),
    StableHlo.binary main_v328 main_v329 main_v330 (Host.divf : (⟨S128, .f32⟩ : BufTy).Contents (Elt F) → (⟨S128, .f32⟩ : BufTy).Contents (Elt F) → (⟨S128, .f32⟩ : BufTy).Contents (Elt F)),
    StableHlo.nullary main_c_50 (constantI S_ 32 0#32),
    StableHlo.TRef.nullary main_call10.cst (constant S_ .f32 0x00000000#32),
    StableHlo.TRef.binary (.of main_v323) main_call10.cst main_call10.v0 (fun x v => Host.reduceAdd x v reducesTo_S200000x128_S128_d0 h_S_),
    StableHlo.TRef.unary main_call10.v0 main_call10.v1 (broadcastInDim S1x128 ![1] bcast_S128_S1x128_1),
    StableHlo.TRef.nullary main_call10.cst_0 (constant S_ .f32 0x48435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S200000x128 ![0, 1] bcast_S1x128_S200000x128_0_1),
    StableHlo.TRef.binary (.of main_v323) main_call10.v4 main_call10.v5 subf,
    StableHlo.TRef.binary main_call10.v5 main_call10.v5 main_call10.v6 mulf,
    StableHlo.TRef.unary (.of main_c_50) main_call10.v7 (sitofp .f32),
    StableHlo.TRef.nullary main_call10.cst_1 (constant S_ .f32 0x48435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S200000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v330 main_v332 (broadcastInDim S1x128 ![1] bcast_S128_S1x128_1 : (⟨S128, .f32⟩ : BufTy).Contents (Elt F) → (⟨S1x128, .f32⟩ : BufTy).Contents (Elt F)),
    StableHlo.unary main_v332 main_v333 (broadcastInDim S200000x128 ![0, 1] bcast_S1x128_S200000x128_0_1 : (⟨S1x128, .f32⟩ : BufTy).Contents (Elt F) → (⟨S200000x128, .f32⟩ : BufTy).Contents (Elt F)),
    StableHlo.binary main_v323 main_v333 main_v334 (subf : (⟨S200000x128, .f32⟩ : BufTy).Contents (Elt F) → (⟨S200000x128, .f32⟩ : BufTy).Contents (Elt F) → (⟨S200000x128, .f32⟩ : BufTy).Contents (Elt F)),
    StableHlo.nullary main_cst_51 (constant S_ .f32 0x3727C5AC#32),
    StableHlo.unary main_cst_51 main_v335 (broadcastInDim S128 ![] bcast_S_S128 : (⟨S_, .f32⟩ : BufTy).Contents (Elt F) → (⟨S128, .f32⟩ : BufTy).Contents (Elt F)),
    StableHlo.binary main_v331 main_v335 main_v336 (addf : (⟨S128, .f32⟩ : BufTy).Contents (Elt F) → (⟨S128, .f32⟩ : BufTy).Contents (Elt F) → (⟨S128, .f32⟩ : BufTy).Contents (Elt F)),
    StableHlo.unary main_v336 main_v337 (Host.sqrt : (⟨S128, .f32⟩ : BufTy).Contents (Elt F) → (⟨S128, .f32⟩ : BufTy).Contents (Elt F)),
    StableHlo.unary main_v337 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S200000x128 ![0, 1] bcast_S1x128_S200000x128_0_1 : (⟨S1x128, .f32⟩ : BufTy).Contents (Elt F) → (⟨S200000x128, .f32⟩ : BufTy).Contents (Elt F)),
    StableHlo.binary main_v334 main_v339 main_v340 (Host.divf : (⟨S200000x128, .f32⟩ : BufTy).Contents (Elt F) → (⟨S200000x128, .f32⟩ : BufTy).Contents (Elt F) → (⟨S200000x128, .f32⟩ : BufTy).Contents (Elt F)),
    StableHlo.unary main_v325 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S200000x128 ![0, 1] bcast_S1x128_S200000x128_0_1 : (⟨S1x128, .f32⟩ : BufTy).Contents (Elt F) → (⟨S200000x128, .f32⟩ : BufTy).Contents (Elt F)),
    StableHlo.binary main_v340 main_v342 main_v343 (mulf : (⟨S200000x128, .f32⟩ : BufTy).Contents (Elt F) → (⟨S200000x128, .f32⟩ : BufTy).Contents (Elt F) → (⟨S200000x128, .f32⟩ : BufTy).Contents (Elt F)),
    StableHlo.unary main_v327 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S200000x128 ![0, 1] bcast_S1x128_S200000x128_0_1 : (⟨S1x128, .f32⟩ : BufTy).Contents (Elt F) → (⟨S200000x128, .f32⟩ : BufTy).Contents (Elt F)),
    StableHlo.binary main_v343 main_v345 main_v346 (addf : (⟨S200000x128, .f32⟩ : BufTy).Contents (Elt F) → (⟨S200000x128, .f32⟩ : BufTy).Contents (Elt F) → (⟨S200000x128, .f32⟩ : BufTy).Contents (Elt F)),
    StableHlo.unary main_arg20 main_v347 ((extractStridedSlice S1x128 ![1, 0] · slices_S2x128_S1x128_1_0) : (⟨S2x128, .f32⟩ : BufTy).Contents (Elt F) → (⟨S1x128, .f32⟩ : BufTy).Contents (Elt F)),
    StableHlo.reshape main_v347 main_v348 rfl shapeCasts_S1x128_S128,
    StableHlo.unary main_arg21 main_v349 ((extractStridedSlice S1x128 ![1, 0] · slices_S2x128_S1x128_1_0) : (⟨S2x128, .f32⟩ : BufTy).Contents (Elt F) → (⟨S1x128, .f32⟩ : BufTy).Contents (Elt F)),
    StableHlo.reshape main_v349 main_v350 rfl shapeCasts_S1x128_S128,
    StableHlo.nullary main_cst_52 (constant S_ .f32 0x00000000#32),
    StableHlo.binary main_v234 main_cst_52 main_v351 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_53 (constant S_ .f32 0x47C35000#32),
    StableHlo.unary main_cst_53 main_v352 (broadcastInDim S128 ![] bcast_S_S128 : (⟨S_, .f32⟩ : BufTy).Contents (Elt F) → (⟨S128, .f32⟩ : BufTy).Contents (Elt F)),
    StableHlo.binary main_v351 main_v352 main_v353 (Host.divf : (⟨S128, .f32⟩ : BufTy).Contents (Elt F) → (⟨S128, .f32⟩ : BufTy).Contents (Elt F) → (⟨S128, .f32⟩ : BufTy).Contents (Elt F)),
    StableHlo.nullary main_c_54 (constantI S_ 32 0#32),
    StableHlo.TRef.nullary main_call11.cst (constant S_ .f32 0x00000000#32),
    StableHlo.TRef.binary (.of main_v234) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v234) main_call11.v4 main_call11.v5 subf,
    StableHlo.TRef.binary main_call11.v5 main_call11.v5 main_call11.v6 mulf,
    StableHlo.TRef.unary (.of main_c_54) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b),
    StableHlo.unary main_v353 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S100000x128 ![0, 1] bcast_S1x128_S100000x128_0_1 : (⟨S1x128, .f32⟩ : BufTy).Contents (Elt F) → (⟨S100000x128, .f32⟩ : BufTy).Contents (Elt F)),
    StableHlo.binary main_v234 main_v356 main_v357 (subf : (⟨S100000x128, .f32⟩ : BufTy).Contents (Elt F) → (⟨S100000x128, .f32⟩ : BufTy).Contents (Elt F) → (⟨S100000x128, .f32⟩ : BufTy).Contents (Elt F)),
    StableHlo.nullary main_cst_55 (constant S_ .f32 0x3727C5AC#32),
    StableHlo.unary main_cst_55 main_v358 (broadcastInDim S128 ![] bcast_S_S128 : (⟨S_, .f32⟩ : BufTy).Contents (Elt F) → (⟨S128, .f32⟩ : BufTy).Contents (Elt F)),
    StableHlo.binary main_v354 main_v358 main_v359 (addf : (⟨S128, .f32⟩ : BufTy).Contents (Elt F) → (⟨S128, .f32⟩ : BufTy).Contents (Elt F) → (⟨S128, .f32⟩ : BufTy).Contents (Elt F)),
    StableHlo.unary main_v359 main_v360 (Host.sqrt : (⟨S128, .f32⟩ : BufTy).Contents (Elt F) → (⟨S128, .f32⟩ : BufTy).Contents (Elt F)),
    StableHlo.unary main_v360 main_v361 (broadcastInDim S1x128 ![1] bcast_S128_S1x128_1 : (⟨S128, .f32⟩ : BufTy).Contents (Elt F) → (⟨S1x128, .f32⟩ : BufTy).Contents (Elt F)) ]

set_option maxRecDepth 8192 in
theorem part6_eq (c : Dev nD) : main_part6 (F := F) c = seq ops6 := by
  simp only [main_part6, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops6_sub : (ops6 : List (HloOp τ sig (Elt F))).Forall fun op => op.bufs ⊆ tcRefs τ sig :=
  ⟨binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

/-- Window 7 of @main: 68 operations, in order. -/
abbrev ops7 : List (HloOp τ sig (Elt F)) :=
  [ StableHlo.unary main_v361 main_v362 (broadcastInDim S100000x128 ![0, 1] bcast_S1x128_S100000x128_0_1 : (⟨S1x128, .f32⟩ : BufTy).Contents (Elt F) → (⟨S100000x128, .f32⟩ : BufTy).Contents (Elt F)),
    StableHlo.binary main_v357 main_v362 main_v363 (Host.divf : (⟨S100000x128, .f32⟩ : BufTy).Contents (Elt F) → (⟨S100000x128, .f32⟩ : BufTy).Contents (Elt F) → (⟨S100000x128, .f32⟩ : BufTy).Contents (Elt F)),
    StableHlo.unary main_v348 main_v364 (broadcastInDim S1x128 ![1] bcast_S128_S1x128_1 : (⟨S128, .f32⟩ : BufTy).Contents (Elt F) → (⟨S1x128, .f32⟩ : BufTy).Contents (Elt F)),
    StableHlo.unary main_v364 main_v365 (broadcastInDim S100000x128 ![0, 1] bcast_S1x128_S100000x128_0_1 : (⟨S1x128, .f32⟩ : BufTy).Contents (Elt F) → (⟨S100000x128, .f32⟩ : BufTy).Contents (Elt F)),
    StableHlo.binary main_v363 main_v365 main_v366 (mulf : (⟨S100000x128, .f32⟩ : BufTy).Contents (Elt F) → (⟨S100000x128, .f32⟩ : BufTy).Contents (Elt F) → (⟨S100000x128, .f32⟩ : BufTy).Contents (Elt F)),
    StableHlo.unary main_v350 main_v367 (broadcastInDim S1x128 ![1] bcast_S128_S1x128_1 : (⟨S128, .f32⟩ : BufTy).Contents (Elt F) → (⟨S1x128, .f32⟩ : BufTy).Contents (Elt F)),
    StableHlo.unary main_v367 main_v368 (broadcastInDim S100000x128 ![0, 1] bcast_S1x128_S100000x128_0_1 : (⟨S1x128, .f32⟩ : BufTy).Contents (Elt F) → (⟨S100000x128, .f32⟩ : BufTy).Contents (Elt F)),
    StableHlo.binary main_v366 main_v368 main_v369 (addf : (⟨S100000x128, .f32⟩ : BufTy).Contents (Elt F) → (⟨S100000x128, .f32⟩ : BufTy).Contents (Elt F) → (⟨S100000x128, .f32⟩ : BufTy).Contents (Elt F)),
    StableHlo.TRef.nullary main_call12.cst (constant S_ .f32 0x00000000#32),
    StableHlo.TRef.unary main_call12.cst main_call12.v0 (broadcastInDim S200000x128 ![] bcast_S_S200000x128),
    StableHlo.TRef.binary (.of main_v346) main_call12.v0 main_call12.v1 maximumf,
    StableHlo.TRef.nullary main_call13.cst (constant S_ .f32 0x00000000#32),
    StableHlo.TRef.unary main_call13.cst main_call13.v0 (broadcastInDim S100000x128 ![] bcast_S_S100000x128),
    StableHlo.TRef.binary (.of main_v369) main_call13.v0 main_call13.v1 maximumf,
    StableHlo.unary main_arg15 main_v372 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v372 main_v373 rfl shapeCasts_S1x64x128_S64x128,
    StableHlo.unary main_arg16 main_v374 ((extractStridedSlice S1x64 ![0, 0] · slices_S3x64_S1x64_0_0) : (⟨S3x64, .f32⟩ : BufTy).Contents (Elt F) → (⟨S1x64, .f32⟩ : BufTy).Contents (Elt F)),
    StableHlo.reshape main_v374 main_v375 rfl shapeCasts_S1x64_S64,
    StableHlo.unary main_arg17 main_v376 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v376 main_v377 rfl shapeCasts_S1x64x128_S64x128,
    StableHlo.unary main_arg2 main_v378 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v378 main_v379 rfl shapeCasts_S1x500000_S500000,
    StableHlo.nullary main_c_56 (constantI S_ 32 0#32),
    StableHlo.unary main_c_56 main_v380 (broadcastInDim S500000 ![] bcast_S_S500000 : (⟨S_, .i32⟩ : BufTy).Contents (Elt F) → (⟨S500000, .i32⟩ : BufTy).Contents (Elt F)),
    StableHlo.binary main_v379 main_v380 main_v381 (cmpi .slt : (⟨S500000, .i32⟩ : BufTy).Contents (Elt F) → (⟨S500000, .i32⟩ : BufTy).Contents (Elt F) → (⟨S500000, .i1⟩ : BufTy).Contents (Elt F)),
    StableHlo.nullary main_c_57 (constantI S_ 32 200000#32),
    StableHlo.unary main_c_57 main_v382 (broadcastInDim S500000 ![] bcast_S_S500000 : (⟨S_, .i32⟩ : BufTy).Contents (Elt F) → (⟨S500000, .i32⟩ : BufTy).Contents (Elt F)),
    StableHlo.binary main_v379 main_v382 main_v383 (addi : (⟨S500000, .i32⟩ : BufTy).Contents (Elt F) → (⟨S500000, .i32⟩ : BufTy).Contents (Elt F) → (⟨S500000, .i32⟩ : BufTy).Contents (Elt F)),
    StableHlo.ternary main_v381 main_v383 main_v379 main_v384 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v384 main_v385 (broadcastInDim S500000x1 ![0] bcast_S500000_S500000x1_0 : (⟨S500000, .i32⟩ : BufTy).Contents (Elt F) → (⟨S500000x1, .i32⟩ : BufTy).Contents (Elt F)),
    StableHlo.binary main_v370 main_v385 main_v386 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg2 main_v387 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v387 main_v388 rfl shapeCasts_S1x500000_S500000,
    StableHlo.nullary main_cst_58 (constant S_ .f32 0x00000000#32),
    StableHlo.unary main_cst_58 main_v389 (broadcastInDim S100000x128 ![] bcast_S_S100000x128 : (⟨S_, .f32⟩ : BufTy).Contents (Elt F) → (⟨S100000x128, .f32⟩ : BufTy).Contents (Elt F)),
    StableHlo.unary main_v388 main_v390 (broadcastInDim S500000x1 ![0] bcast_S500000_S500000x1_0 : (⟨S500000, .i32⟩ : BufTy).Contents (Elt F) → (⟨S500000x1, .i32⟩ : BufTy).Contents (Elt F)),
    StableHlo.ternary main_v389 main_v390 main_v386 main_v391 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_59 (constant S_ .f32 0x3F800000#32),
    StableHlo.unary main_cst_59 main_v392 (broadcastInDim S500000 ![] bcast_S_S500000 : (⟨S_, .f32⟩ : BufTy).Contents (Elt F) → (⟨S500000, .f32⟩ : BufTy).Contents (Elt F)),
    StableHlo.unary main_arg2 main_v393 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v393 main_v394 rfl shapeCasts_S1x500000_S500000,
    StableHlo.nullary main_cst_60 (constant S_ .f32 0x00000000#32),
    StableHlo.unary main_cst_60 main_v395 (broadcastInDim S100000 ![] bcast_S_S100000 : (⟨S_, .f32⟩ : BufTy).Contents (Elt F) → (⟨S100000, .f32⟩ : BufTy).Contents (Elt F)),
    StableHlo.unary main_v394 main_v396 (broadcastInDim S500000x1 ![0] bcast_S500000_S500000x1_0 : (⟨S500000, .i32⟩ : BufTy).Contents (Elt F) → (⟨S500000x1, .i32⟩ : BufTy).Contents (Elt F)),
    StableHlo.ternary main_v395 main_v396 main_v392 main_v397 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_61 (constant S_ .f32 0x3F800000#32),
    StableHlo.unary main_cst_61 main_v398 (broadcastInDim S100000 ![] bcast_S_S100000 : (⟨S_, .f32⟩ : BufTy).Contents (Elt F) → (⟨S100000, .f32⟩ : BufTy).Contents (Elt F)),
    StableHlo.binary main_v397 main_v398 main_v399 (maximumf : (⟨S100000, .f32⟩ : BufTy).Contents (Elt F) → (⟨S100000, .f32⟩ : BufTy).Contents (Elt F) → (⟨S100000, .f32⟩ : BufTy).Contents (Elt F)),
    StableHlo.unary main_v399 main_v400 (broadcastInDim S100000x1 ![0] bcast_S100000_S100000x1_0 : (⟨S100000, .f32⟩ : BufTy).Contents (Elt F) → (⟨S100000x1, .f32⟩ : BufTy).Contents (Elt F)),
    StableHlo.unary main_v400 main_v401 (broadcastInDim S100000x128 ![0, 1] bcast_S100000x1_S100000x128_0_1 : (⟨S100000x1, .f32⟩ : BufTy).Contents (Elt F) → (⟨S100000x128, .f32⟩ : BufTy).Contents (Elt F)),
    StableHlo.binary main_v391 main_v401 main_v402 (Host.divf : (⟨S100000x128, .f32⟩ : BufTy).Contents (Elt F) → (⟨S100000x128, .f32⟩ : BufTy).Contents (Elt F) → (⟨S100000x128, .f32⟩ : BufTy).Contents (Elt F)),
    StableHlo.unary main_v373 main_v403 ((transpose S128x64 [1, 0] · transposes_S64x128_S128x64_1_0) : (⟨S64x128, .f32⟩ : BufTy).Contents (Elt F) → (⟨S128x64, .f32⟩ : BufTy).Contents (Elt F)),
    StableHlo.binary main_v402 main_v403 main_v404 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v375 main_v405 (broadcastInDim S1x64 ![1] bcast_S64_S1x64_1 : (⟨S64, .f32⟩ : BufTy).Contents (Elt F) → (⟨S1x64, .f32⟩ : BufTy).Contents (Elt F)),
    StableHlo.unary main_v405 main_v406 (broadcastInDim S100000x64 ![0, 1] bcast_S1x64_S100000x64_0_1 : (⟨S1x64, .f32⟩ : BufTy).Contents (Elt F) → (⟨S100000x64, .f32⟩ : BufTy).Contents (Elt F)),
    StableHlo.binary main_v404 main_v406 main_v407 (addf : (⟨S100000x64, .f32⟩ : BufTy).Contents (Elt F) → (⟨S100000x64, .f32⟩ : BufTy).Contents (Elt F) → (⟨S100000x64, .f32⟩ : BufTy).Contents (Elt F)),
    StableHlo.unary main_v377 main_v408 ((transpose S128x64 [1, 0] · transposes_S64x128_S128x64_1_0) : (⟨S64x128, .f32⟩ : BufTy).Contents (Elt F) → (⟨S128x64, .f32⟩ : BufTy).Contents (Elt F)),
    StableHlo.binary main_v371 main_v408 main_v409 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v407 main_v409 main_v410 (addf : (⟨S100000x64, .f32⟩ : BufTy).Contents (Elt F) → (⟨S100000x64, .f32⟩ : BufTy).Contents (Elt F) → (⟨S100000x64, .f32⟩ : BufTy).Contents (Elt F)),
    StableHlo.TRef.binary (.of main_v410) (.of main_v410) main_call14.v0 mulf,
    StableHlo.TRef.nullary main_call14.cst (constant S_ .f32 0x00000000#32),
    StableHlo.TRef.binary main_call14.v0 main_call14.cst main_call14.v1 (fun x v => Host.reduceAdd x v reducesTo_S100000x64_S100000_d1 h_S_),
    StableHlo.TRef.unary main_call14.v1 main_call14.v2 (broadcastInDim S100000x1 ![0] bcast_S100000_S100000x1_0),
    StableHlo.TRef.unary main_call14.v2 main_call14.v3 Host.sqrt,
    StableHlo.nullary main_cst_62 (constant S_ .f32 0x2B8CBCCC#32),
    StableHlo.unary main_cst_62 main_v412 (broadcastInDim S100000x1 ![] bcast_S_S100000x1 : (⟨S_, .f32⟩ : BufTy).Contents (Elt F) → (⟨S100000x1, .f32⟩ : BufTy).Contents (Elt F)),
    StableHlo.binary main_v411 main_v412 main_v413 (maximumf : (⟨S100000x1, .f32⟩ : BufTy).Contents (Elt F) → (⟨S100000x1, .f32⟩ : BufTy).Contents (Elt F) → (⟨S100000x1, .f32⟩ : BufTy).Contents (Elt F)),
    StableHlo.unary main_v413 main_v414 (broadcastInDim S100000x64 ![0, 1] bcast_S100000x1_S100000x64_0_1 : (⟨S100000x1, .f32⟩ : BufTy).Contents (Elt F) → (⟨S100000x64, .f32⟩ : BufTy).Contents (Elt F)) ]

set_option maxRecDepth 8192 in
theorem part7_eq (c : Dev nD) : main_part7 (F := F) c = seq ops7 := by
  simp only [main_part7, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops7_sub : (ops7 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub ..⟩

/-- Window 8 of @main: 64 operations, in order. -/
abbrev ops8 : List (HloOp τ sig (Elt F)) :=
  [ StableHlo.binary main_v410 main_v414 main_v415 (Host.divf : (⟨S100000x64, .f32⟩ : BufTy).Contents (Elt F) → (⟨S100000x64, .f32⟩ : BufTy).Contents (Elt F) → (⟨S100000x64, .f32⟩ : BufTy).Contents (Elt F)),
    StableHlo.unary main_arg15 main_v416 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v416 main_v417 rfl shapeCasts_S1x64x128_S64x128,
    StableHlo.unary main_arg16 main_v418 ((extractStridedSlice S1x64 ![1, 0] · slices_S3x64_S1x64_1_0) : (⟨S3x64, .f32⟩ : BufTy).Contents (Elt F) → (⟨S1x64, .f32⟩ : BufTy).Contents (Elt F)),
    StableHlo.reshape main_v418 main_v419 rfl shapeCasts_S1x64_S64,
    StableHlo.unary main_arg17 main_v420 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v420 main_v421 rfl shapeCasts_S1x64x128_S64x128,
    StableHlo.unary main_arg3 main_v422 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v422 main_v423 rfl shapeCasts_S1x500000_S500000,
    StableHlo.nullary main_c_63 (constantI S_ 32 0#32),
    StableHlo.unary main_c_63 main_v424 (broadcastInDim S500000 ![] bcast_S_S500000 : (⟨S_, .i32⟩ : BufTy).Contents (Elt F) → (⟨S500000, .i32⟩ : BufTy).Contents (Elt F)),
    StableHlo.binary main_v423 main_v424 main_v425 (cmpi .slt : (⟨S500000, .i32⟩ : BufTy).Contents (Elt F) → (⟨S500000, .i32⟩ : BufTy).Contents (Elt F) → (⟨S500000, .i1⟩ : BufTy).Contents (Elt F)),
    StableHlo.nullary main_c_64 (constantI S_ 32 100000#32),
    StableHlo.unary main_c_64 main_v426 (broadcastInDim S500000 ![] bcast_S_S500000 : (⟨S_, .i32⟩ : BufTy).Contents (Elt F) → (⟨S500000, .i32⟩ : BufTy).Contents (Elt F)),
    StableHlo.binary main_v423 main_v426 main_v427 (addi : (⟨S500000, .i32⟩ : BufTy).Contents (Elt F) → (⟨S500000, .i32⟩ : BufTy).Contents (Elt F) → (⟨S500000, .i32⟩ : BufTy).Contents (Elt F)),
    StableHlo.ternary main_v425 main_v427 main_v423 main_v428 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v428 main_v429 (broadcastInDim S500000x1 ![0] bcast_S500000_S500000x1_0 : (⟨S500000, .i32⟩ : BufTy).Contents (Elt F) → (⟨S500000x1, .i32⟩ : BufTy).Contents (Elt F)),
    StableHlo.binary main_v371 main_v429 main_v430 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_arg3 main_v431 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v431 main_v432 rfl shapeCasts_S1x500000_S500000,
    StableHlo.nullary main_cst_65 (constant S_ .f32 0x00000000#32),
    StableHlo.unary main_cst_65 main_v433 (broadcastInDim S200000x128 ![] bcast_S_S200000x128 : (⟨S_, .f32⟩ : BufTy).Contents (Elt F) → (⟨S200000x128, .f32⟩ : BufTy).Contents (Elt F)),
    StableHlo.unary main_v432 main_v434 (broadcastInDim S500000x1 ![0] bcast_S500000_S500000x1_0 : (⟨S500000, .i32⟩ : BufTy).Contents (Elt F) → (⟨S500000x1, .i32⟩ : BufTy).Contents (Elt F)),
    StableHlo.ternary main_v433 main_v434 main_v430 main_v435 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_66 (constant S_ .f32 0x3F800000#32),
    StableHlo.unary main_cst_66 main_v436 (broadcastInDim S500000 ![] bcast_S_S500000 : (⟨S_, .f32⟩ : BufTy).Contents (Elt F) → (⟨S500000, .f32⟩ : BufTy).Contents (Elt F)),
    StableHlo.unary main_arg3 main_v437 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v437 main_v438 rfl shapeCasts_S1x500000_S500000,
    StableHlo.nullary main_cst_67 (constant S_ .f32 0x00000000#32),
    StableHlo.unary main_cst_67 main_v439 (broadcastInDim S200000 ![] bcast_S_S200000 : (⟨S_, .f32⟩ : BufTy).Contents (Elt F) → (⟨S200000, .f32⟩ : BufTy).Contents (Elt F)),
    StableHlo.unary main_v438 main_v440 (broadcastInDim S500000x1 ![0] bcast_S500000_S500000x1_0 : (⟨S500000, .i32⟩ : BufTy).Contents (Elt F) → (⟨S500000x1, .i32⟩ : BufTy).Contents (Elt F)),
    StableHlo.ternary main_v439 main_v440 main_v436 main_v441 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_68 (constant S_ .f32 0x3F800000#32),
    StableHlo.unary main_cst_68 main_v442 (broadcastInDim S200000 ![] bcast_S_S200000 : (⟨S_, .f32⟩ : BufTy).Contents (Elt F) → (⟨S200000, .f32⟩ : BufTy).Contents (Elt F)),
    StableHlo.binary main_v441 main_v442 main_v443 (maximumf : (⟨S200000, .f32⟩ : BufTy).Contents (Elt F) → (⟨S200000, .f32⟩ : BufTy).Contents (Elt F) → (⟨S200000, .f32⟩ : BufTy).Contents (Elt F)),
    StableHlo.unary main_v443 main_v444 (broadcastInDim S200000x1 ![0] bcast_S200000_S200000x1_0 : (⟨S200000, .f32⟩ : BufTy).Contents (Elt F) → (⟨S200000x1, .f32⟩ : BufTy).Contents (Elt F)),
    StableHlo.unary main_v444 main_v445 (broadcastInDim S200000x128 ![0, 1] bcast_S200000x1_S200000x128_0_1 : (⟨S200000x1, .f32⟩ : BufTy).Contents (Elt F) → (⟨S200000x128, .f32⟩ : BufTy).Contents (Elt F)),
    StableHlo.binary main_v435 main_v445 main_v446 (Host.divf : (⟨S200000x128, .f32⟩ : BufTy).Contents (Elt F) → (⟨S200000x128, .f32⟩ : BufTy).Contents (Elt F) → (⟨S200000x128, .f32⟩ : BufTy).Contents (Elt F)),
    StableHlo.unary main_v417 main_v447 ((transpose S128x64 [1, 0] · transposes_S64x128_S128x64_1_0) : (⟨S64x128, .f32⟩ : BufTy).Contents (Elt F) → (⟨S128x64, .f32⟩ : BufTy).Contents (Elt F)),
    StableHlo.binary main_v446 main_v447 main_v448 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.unary main_v419 main_v449 (broadcastInDim S1x64 ![1] bcast_S64_S1x64_1 : (⟨S64, .f32⟩ : BufTy).Contents (Elt F) → (⟨S1x64, .f32⟩ : BufTy).Contents (Elt F)),
    StableHlo.unary main_v449 main_v450 (broadcastInDim S200000x64 ![0, 1] bcast_S1x64_S200000x64_0_1 : (⟨S1x64, .f32⟩ : BufTy).Contents (Elt F) → (⟨S200000x64, .f32⟩ : BufTy).Contents (Elt F)),
    StableHlo.binary main_v448 main_v450 main_v451 (addf : (⟨S200000x64, .f32⟩ : BufTy).Contents (Elt F) → (⟨S200000x64, .f32⟩ : BufTy).Contents (Elt F) → (⟨S200000x64, .f32⟩ : BufTy).Contents (Elt F)),
    StableHlo.unary main_v421 main_v452 ((transpose S128x64 [1, 0] · transposes_S64x128_S128x64_1_0) : (⟨S64x128, .f32⟩ : BufTy).Contents (Elt F) → (⟨S128x64, .f32⟩ : BufTy).Contents (Elt F)),
    StableHlo.binary main_v370 main_v452 main_v453 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.binary main_v451 main_v453 main_v454 (addf : (⟨S200000x64, .f32⟩ : BufTy).Contents (Elt F) → (⟨S200000x64, .f32⟩ : BufTy).Contents (Elt F) → (⟨S200000x64, .f32⟩ : BufTy).Contents (Elt F)),
    StableHlo.TRef.binary (.of main_v454) (.of main_v454) main_call15.v0 mulf,
    StableHlo.TRef.nullary main_call15.cst (constant S_ .f32 0x00000000#32),
    StableHlo.TRef.binary main_call15.v0 main_call15.cst main_call15.v1 (fun x v => Host.reduceAdd x v reducesTo_S200000x64_S200000_d1 h_S_),
    StableHlo.TRef.unary main_call15.v1 main_call15.v2 (broadcastInDim S200000x1 ![0] bcast_S200000_S200000x1_0),
    StableHlo.TRef.unary main_call15.v2 main_call15.v3 Host.sqrt,
    StableHlo.nullary main_cst_69 (constant S_ .f32 0x2B8CBCCC#32),
    StableHlo.unary main_cst_69 main_v456 (broadcastInDim S200000x1 ![] bcast_S_S200000x1 : (⟨S_, .f32⟩ : BufTy).Contents (Elt F) → (⟨S200000x1, .f32⟩ : BufTy).Contents (Elt F)),
    StableHlo.binary main_v455 main_v456 main_v457 (maximumf : (⟨S200000x1, .f32⟩ : BufTy).Contents (Elt F) → (⟨S200000x1, .f32⟩ : BufTy).Contents (Elt F) → (⟨S200000x1, .f32⟩ : BufTy).Contents (Elt F)),
    StableHlo.unary main_v457 main_v458 (broadcastInDim S200000x64 ![0, 1] bcast_S200000x1_S200000x64_0_1 : (⟨S200000x1, .f32⟩ : BufTy).Contents (Elt F) → (⟨S200000x64, .f32⟩ : BufTy).Contents (Elt F)),
    StableHlo.binary main_v454 main_v458 main_v459 (Host.divf : (⟨S200000x64, .f32⟩ : BufTy).Contents (Elt F) → (⟨S200000x64, .f32⟩ : BufTy).Contents (Elt F) → (⟨S200000x64, .f32⟩ : BufTy).Contents (Elt F)),
    StableHlo.unary main_arg15 main_v460 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v460 main_v461 rfl shapeCasts_S1x64x128_S64x128,
    StableHlo.unary main_arg16 main_v462 ((extractStridedSlice S1x64 ![2, 0] · slices_S3x64_S1x64_2_0) : (⟨S3x64, .f32⟩ : BufTy).Contents (Elt F) → (⟨S1x64, .f32⟩ : BufTy).Contents (Elt F)),
    StableHlo.reshape main_v462 main_v463 rfl shapeCasts_S1x64_S64,
    StableHlo.unary main_arg17 main_v464 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v464 main_v465 rfl shapeCasts_S1x64x128_S64x128,
    StableHlo.unary main_arg4 main_v466 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v466 main_v467 rfl shapeCasts_S1x500000_S500000 ]

set_option maxRecDepth 8192 in
theorem part8_eq (c : Dev nD) : main_part8 (F := F) c = seq ops8 := by
  simp only [main_part8, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops8_sub : (ops8 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩

/-- Window 9 of @main: 85 operations, in order. -/
abbrev ops9 : List (HloOp τ sig (Elt F)) :=
  [ StableHlo.nullary main_c_70 (constantI S_ 32 0#32),
    StableHlo.unary main_c_70 main_v468 (broadcastInDim S500000 ![] bcast_S_S500000 : (⟨S_, .i32⟩ : BufTy).Contents (Elt F) → (⟨S500000, .i32⟩ : BufTy).Contents (Elt F)),
    StableHlo.binary main_v467 main_v468 main_v469 (cmpi .slt : (⟨S500000, .i32⟩ : BufTy).Contents (Elt F) → (⟨S500000, .i32⟩ : BufTy).Contents (Elt F) → (⟨S500000, .i1⟩ : BufTy).Contents (Elt F)),
    StableHlo.nullary main_c_71 (constantI S_ 32 200000#32),
    StableHlo.unary main_c_71 main_v470 (broadcastInDim S500000 ![] bcast_S_S500000 : (⟨S_, .i32⟩ : BufTy).Contents (Elt F) → (⟨S500000, .i32⟩ : BufTy).Contents (Elt F)),
    StableHlo.binary main_v467 main_v470 main_v471 (addi : (⟨S500000, .i32⟩ : BufTy).Contents (Elt F) → (⟨S500000, .i32⟩ : BufTy).Contents (Elt F) → (⟨S500000, .i32⟩ : BufTy).Contents (Elt F)),
    StableHlo.ternary main_v469 main_v471 main_v467 main_v472 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v472 main_v473 (broadcastInDim S500000x1 ![0] bcast_S500000_S500000x1_0 : (⟨S500000, .i32⟩ : BufTy).Contents (Elt F) → (⟨S500000x1, .i32⟩ : BufTy).Contents (Elt F)),
    StableHlo.binary main_v370 main_v473 main_v474 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg4 main_v475 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v475 main_v476 rfl shapeCasts_S1x500000_S500000,
    StableHlo.nullary main_cst_72 (constant S_ .f32 0x00000000#32),
    StableHlo.unary main_cst_72 main_v477 (broadcastInDim S200000x128 ![] bcast_S_S200000x128 : (⟨S_, .f32⟩ : BufTy).Contents (Elt F) → (⟨S200000x128, .f32⟩ : BufTy).Contents (Elt F)),
    StableHlo.unary main_v476 main_v478 (broadcastInDim S500000x1 ![0] bcast_S500000_S500000x1_0 : (⟨S500000, .i32⟩ : BufTy).Contents (Elt F) → (⟨S500000x1, .i32⟩ : BufTy).Contents (Elt F)),
    StableHlo.ternary main_v477 main_v478 main_v474 main_v479 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_73 (constant S_ .f32 0x3F800000#32),
    StableHlo.unary main_cst_73 main_v480 (broadcastInDim S500000 ![] bcast_S_S500000 : (⟨S_, .f32⟩ : BufTy).Contents (Elt F) → (⟨S500000, .f32⟩ : BufTy).Contents (Elt F)),
    StableHlo.unary main_arg4 main_v481 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v481 main_v482 rfl shapeCasts_S1x500000_S500000,
    StableHlo.nullary main_cst_74 (constant S_ .f32 0x00000000#32),
    StableHlo.unary main_cst_74 main_v483 (broadcastInDim S200000 ![] bcast_S_S200000 : (⟨S_, .f32⟩ : BufTy).Contents (Elt F) → (⟨S200000, .f32⟩ : BufTy).Contents (Elt F)),
    StableHlo.unary main_v482 main_v484 (broadcastInDim S500000x1 ![0] bcast_S500000_S500000x1_0 : (⟨S500000, .i32⟩ : BufTy).Contents (Elt F) → (⟨S500000x1, .i32⟩ : BufTy).Contents (Elt F)),
    StableHlo.ternary main_v483 main_v484 main_v480 main_v485 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_75 (constant S_ .f32 0x3F800000#32),
    StableHlo.unary main_cst_75 main_v486 (broadcastInDim S200000 ![] bcast_S_S200000 : (⟨S_, .f32⟩ : BufTy).Contents (Elt F) → (⟨S200000, .f32⟩ : BufTy).Contents (Elt F)),
    StableHlo.binary main_v485 main_v486 main_v487 (maximumf : (⟨S200000, .f32⟩ : BufTy).Contents (Elt F) → (⟨S200000, .f32⟩ : BufTy).Contents (Elt F) → (⟨S200000, .f32⟩ : BufTy).Contents (Elt F)),
    StableHlo.unary main_v487 main_v488 (broadcastInDim S200000x1 ![0] bcast_S200000_S200000x1_0 : (⟨S200000, .f32⟩ : BufTy).Contents (Elt F) → (⟨S200000x1, .f32⟩ : BufTy).Contents (Elt F)),
    StableHlo.unary main_v488 main_v489 (broadcastInDim S200000x128 ![0, 1] bcast_S200000x1_S200000x128_0_1 : (⟨S200000x1, .f32⟩ : BufTy).Contents (Elt F) → (⟨S200000x128, .f32⟩ : BufTy).Contents (Elt F)),
    StableHlo.binary main_v479 main_v489 main_v490 (Host.divf : (⟨S200000x128, .f32⟩ : BufTy).Contents (Elt F) → (⟨S200000x128, .f32⟩ : BufTy).Contents (Elt F) → (⟨S200000x128, .f32⟩ : BufTy).Contents (Elt F)),
    StableHlo.unary main_v461 main_v491 ((transpose S128x64 [1, 0] · transposes_S64x128_S128x64_1_0) : (⟨S64x128, .f32⟩ : BufTy).Contents (Elt F) → (⟨S128x64, .f32⟩ : BufTy).Contents (Elt F)),
    StableHlo.binary main_v490 main_v491 main_v492 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.unary main_v463 main_v493 (broadcastInDim S1x64 ![1] bcast_S64_S1x64_1 : (⟨S64, .f32⟩ : BufTy).Contents (Elt F) → (⟨S1x64, .f32⟩ : BufTy).Contents (Elt F)),
    StableHlo.unary main_v493 main_v494 (broadcastInDim S200000x64 ![0, 1] bcast_S1x64_S200000x64_0_1 : (⟨S1x64, .f32⟩ : BufTy).Contents (Elt F) → (⟨S200000x64, .f32⟩ : BufTy).Contents (Elt F)),
    StableHlo.binary main_v492 main_v494 main_v495 (addf : (⟨S200000x64, .f32⟩ : BufTy).Contents (Elt F) → (⟨S200000x64, .f32⟩ : BufTy).Contents (Elt F) → (⟨S200000x64, .f32⟩ : BufTy).Contents (Elt F)),
    StableHlo.unary main_v465 main_v496 ((transpose S128x64 [1, 0] · transposes_S64x128_S128x64_1_0) : (⟨S64x128, .f32⟩ : BufTy).Contents (Elt F) → (⟨S128x64, .f32⟩ : BufTy).Contents (Elt F)),
    StableHlo.binary main_v370 main_v496 main_v497 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.binary main_v495 main_v497 main_v498 (addf : (⟨S200000x64, .f32⟩ : BufTy).Contents (Elt F) → (⟨S200000x64, .f32⟩ : BufTy).Contents (Elt F) → (⟨S200000x64, .f32⟩ : BufTy).Contents (Elt F)),
    StableHlo.TRef.binary (.of main_v498) (.of main_v498) main_call16.v0 mulf,
    StableHlo.TRef.nullary main_call16.cst (constant S_ .f32 0x00000000#32),
    StableHlo.TRef.binary main_call16.v0 main_call16.cst main_call16.v1 (fun x v => Host.reduceAdd x v reducesTo_S200000x64_S200000_d1 h_S_),
    StableHlo.TRef.unary main_call16.v1 main_call16.v2 (broadcastInDim S200000x1 ![0] bcast_S200000_S200000x1_0),
    StableHlo.TRef.unary main_call16.v2 main_call16.v3 Host.sqrt,
    StableHlo.nullary main_cst_76 (constant S_ .f32 0x2B8CBCCC#32),
    StableHlo.unary main_cst_76 main_v500 (broadcastInDim S200000x1 ![] bcast_S_S200000x1 : (⟨S_, .f32⟩ : BufTy).Contents (Elt F) → (⟨S200000x1, .f32⟩ : BufTy).Contents (Elt F)),
    StableHlo.binary main_v499 main_v500 main_v501 (maximumf : (⟨S200000x1, .f32⟩ : BufTy).Contents (Elt F) → (⟨S200000x1, .f32⟩ : BufTy).Contents (Elt F) → (⟨S200000x1, .f32⟩ : BufTy).Contents (Elt F)),
    StableHlo.unary main_v501 main_v502 (broadcastInDim S200000x64 ![0, 1] bcast_S200000x1_S200000x64_0_1 : (⟨S200000x1, .f32⟩ : BufTy).Contents (Elt F) → (⟨S200000x64, .f32⟩ : BufTy).Contents (Elt F)),
    StableHlo.binary main_v498 main_v502 main_v503 (Host.divf : (⟨S200000x64, .f32⟩ : BufTy).Contents (Elt F) → (⟨S200000x64, .f32⟩ : BufTy).Contents (Elt F) → (⟨S200000x64, .f32⟩ : BufTy).Contents (Elt F)),
    StableHlo.binary main_v459 main_v503 main_v504 (addf : (⟨S200000x64, .f32⟩ : BufTy).Contents (Elt F) → (⟨S200000x64, .f32⟩ : BufTy).Contents (Elt F) → (⟨S200000x64, .f32⟩ : BufTy).Contents (Elt F)),
    StableHlo.unary main_arg22 main_v505 ((extractStridedSlice S1x64 ![0, 0] · slices_S2x64_S1x64_0_0) : (⟨S2x64, .f32⟩ : BufTy).Contents (Elt F) → (⟨S1x64, .f32⟩ : BufTy).Contents (Elt F)),
    StableHlo.reshape main_v505 main_v506 rfl shapeCasts_S1x64_S64,
    StableHlo.unary main_arg23 main_v507 ((extractStridedSlice S1x64 ![0, 0] · slices_S2x64_S1x64_0_0) : (⟨S2x64, .f32⟩ : BufTy).Contents (Elt F) → (⟨S1x64, .f32⟩ : BufTy).Contents (Elt F)),
    StableHlo.reshape main_v507 main_v508 rfl shapeCasts_S1x64_S64,
    StableHlo.nullary main_cst_77 (constant S_ .f32 0x00000000#32),
    StableHlo.binary main_v504 main_cst_77 main_v509 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_78 (constant S_ .f32 0x48435000#32),
    StableHlo.unary main_cst_78 main_v510 (broadcastInDim S64 ![] bcast_S_S64 : (⟨S_, .f32⟩ : BufTy).Contents (Elt F) → (⟨S64, .f32⟩ : BufTy).Contents (Elt F)),
    StableHlo.binary main_v509 main_v510 main_v511 (Host.divf : (⟨S64, .f32⟩ : BufTy).Contents (Elt F) → (⟨S64, .f32⟩ : BufTy).Contents (Elt F) → (⟨S64, .f32⟩ : BufTy).Contents (Elt F)),
    StableHlo.nullary main_c_79 (constantI S_ 32 0#32),
    StableHlo.TRef.nullary main_call17.cst (constant S_ .f32 0x00000000#32),
    StableHlo.TRef.binary (.of main_v504) main_call17.cst main_call17.v0 (fun x v => Host.reduceAdd x v reducesTo_S200000x64_S64_d0 h_S_),
    StableHlo.TRef.unary main_call17.v0 main_call17.v1 (broadcastInDim S1x64 ![1] bcast_S64_S1x64_1),
    StableHlo.TRef.nullary main_call17.cst_0 (constant S_ .f32 0x48435000#32),
    StableHlo.TRef.unary main_call17.cst_0 main_call17.v2 (broadcastInDim S1x64 ![] bcast_S_S1x64),
    StableHlo.TRef.binary main_call17.v1 main_call17.v2 main_call17.v3 Host.divf,
    StableHlo.TRef.unary main_call17.v3 main_call17.v4 (broadcastInDim S200000x64 ![0, 1] bcast_S1x64_S200000x64_0_1),
    StableHlo.TRef.binary (.of main_v504) main_call17.v4 main_call17.v5 subf,
    StableHlo.TRef.binary main_call17.v5 main_call17.v5 main_call17.v6 mulf,
    StableHlo.TRef.unary (.of main_c_79) main_call17.v7 (sitofp .f32),
    StableHlo.TRef.nullary main_call17.cst_1 (constant S_ .f32 0x48435000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S200000x64_S64_d0 h_S_),
    StableHlo.TRef.unary main_call17.v8 main_call17.v10 (broadcastInDim S64 ![] bcast_S_S64),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S64 ![] bcast_S_S64),
    StableHlo.TRef.ternary main_call17.v12 main_call17.v11 main_call17.call0.v1 main_call17.call0.v2 (fun p a b => select (broadcastInDim S64 ![] bcast_S_S64 p) a b),
    StableHlo.unary main_v511 main_v513 (broadcastInDim S1x64 ![1] bcast_S64_S1x64_1 : (⟨S64, .f32⟩ : BufTy).Contents (Elt F) → (⟨S1x64, .f32⟩ : BufTy).Contents (Elt F)),
    StableHlo.unary main_v513 main_v514 (broadcastInDim S200000x64 ![0, 1] bcast_S1x64_S200000x64_0_1 : (⟨S1x64, .f32⟩ : BufTy).Contents (Elt F) → (⟨S200000x64, .f32⟩ : BufTy).Contents (Elt F)),
    StableHlo.binary main_v504 main_v514 main_v515 (subf : (⟨S200000x64, .f32⟩ : BufTy).Contents (Elt F) → (⟨S200000x64, .f32⟩ : BufTy).Contents (Elt F) → (⟨S200000x64, .f32⟩ : BufTy).Contents (Elt F)),
    StableHlo.nullary main_cst_80 (constant S_ .f32 0x3727C5AC#32),
    StableHlo.unary main_cst_80 main_v516 (broadcastInDim S64 ![] bcast_S_S64 : (⟨S_, .f32⟩ : BufTy).Contents (Elt F) → (⟨S64, .f32⟩ : BufTy).Contents (Elt F)) ]

set_option maxRecDepth 8192 in
theorem part9_eq (c : Dev nD) : main_part9 (F := F) c = seq ops9 := by
  simp only [main_part9, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops9_sub : (ops9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., ternary_bufs_sub .., nullary_bufs_sub .., unary_bufs_sub .., unary_bufs_sub .., reshape_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

/-- Window 10 of @main: 72 operations, in order. -/
abbrev ops10 : List (HloOp τ sig (Elt F)) :=
  [ StableHlo.binary main_v512 main_v516 main_v517 (addf : (⟨S64, .f32⟩ : BufTy).Contents (Elt F) → (⟨S64, .f32⟩ : BufTy).Contents (Elt F) → (⟨S64, .f32⟩ : BufTy).Contents (Elt F)),
    StableHlo.unary main_v517 main_v518 (Host.sqrt : (⟨S64, .f32⟩ : BufTy).Contents (Elt F) → (⟨S64, .f32⟩ : BufTy).Contents (Elt F)),
    StableHlo.unary main_v518 main_v519 (broadcastInDim S1x64 ![1] bcast_S64_S1x64_1 : (⟨S64, .f32⟩ : BufTy).Contents (Elt F) → (⟨S1x64, .f32⟩ : BufTy).Contents (Elt F)),
    StableHlo.unary main_v519 main_v520 (broadcastInDim S200000x64 ![0, 1] bcast_S1x64_S200000x64_0_1 : (⟨S1x64, .f32⟩ : BufTy).Contents (Elt F) → (⟨S200000x64, .f32⟩ : BufTy).Contents (Elt F)),
    StableHlo.binary main_v515 main_v520 main_v521 (Host.divf : (⟨S200000x64, .f32⟩ : BufTy).Contents (Elt F) → (⟨S200000x64, .f32⟩ : BufTy).Contents (Elt F) → (⟨S200000x64, .f32⟩ : BufTy).Contents (Elt F)),
    StableHlo.unary main_v506 main_v522 (broadcastInDim S1x64 ![1] bcast_S64_S1x64_1 : (⟨S64, .f32⟩ : BufTy).Contents (Elt F) → (⟨S1x64, .f32⟩ : BufTy).Contents (Elt F)),
    StableHlo.unary main_v522 main_v523 (broadcastInDim S200000x64 ![0, 1] bcast_S1x64_S200000x64_0_1 : (⟨S1x64, .f32⟩ : BufTy).Contents (Elt F) → (⟨S200000x64, .f32⟩ : BufTy).Contents (Elt F)),
    StableHlo.binary main_v521 main_v523 main_v524 (mulf : (⟨S200000x64, .f32⟩ : BufTy).Contents (Elt F) → (⟨S200000x64, .f32⟩ : BufTy).Contents (Elt F) → (⟨S200000x64, .f32⟩ : BufTy).Contents (Elt F)),
    StableHlo.unary main_v508 main_v525 (broadcastInDim S1x64 ![1] bcast_S64_S1x64_1 : (⟨S64, .f32⟩ : BufTy).Contents (Elt F) → (⟨S1x64, .f32⟩ : BufTy).Contents (Elt F)),
    StableHlo.unary main_v525 main_v526 (broadcastInDim S200000x64 ![0, 1] bcast_S1x64_S200000x64_0_1 : (⟨S1x64, .f32⟩ : BufTy).Contents (Elt F) → (⟨S200000x64, .f32⟩ : BufTy).Contents (Elt F)),
    StableHlo.binary main_v524 main_v526 main_v527 (addf : (⟨S200000x64, .f32⟩ : BufTy).Contents (Elt F) → (⟨S200000x64, .f32⟩ : BufTy).Contents (Elt F) → (⟨S200000x64, .f32⟩ : BufTy).Contents (Elt F)),
    StableHlo.unary main_arg22 main_v528 ((extractStridedSlice S1x64 ![1, 0] · slices_S2x64_S1x64_1_0) : (⟨S2x64, .f32⟩ : BufTy).Contents (Elt F) → (⟨S1x64, .f32⟩ : BufTy).Contents (Elt F)),
    StableHlo.reshape main_v528 main_v529 rfl shapeCasts_S1x64_S64,
    StableHlo.unary main_arg23 main_v530 ((extractStridedSlice S1x64 ![1, 0] · slices_S2x64_S1x64_1_0) : (⟨S2x64, .f32⟩ : BufTy).Contents (Elt F) → (⟨S1x64, .f32⟩ : BufTy).Contents (Elt F)),
    StableHlo.reshape main_v530 main_v531 rfl shapeCasts_S1x64_S64,
    StableHlo.nullary main_cst_81 (constant S_ .f32 0x00000000#32),
    StableHlo.binary main_v415 main_cst_81 main_v532 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_82 (constant S_ .f32 0x47C35000#32),
    StableHlo.unary main_cst_82 main_v533 (broadcastInDim S64 ![] bcast_S_S64 : (⟨S_, .f32⟩ : BufTy).Contents (Elt F) → (⟨S64, .f32⟩ : BufTy).Contents (Elt F)),
    StableHlo.binary main_v532 main_v533 main_v534 (Host.divf : (⟨S64, .f32⟩ : BufTy).Contents (Elt F) → (⟨S64, .f32⟩ : BufTy).Contents (Elt F) → (⟨S64, .f32⟩ : BufTy).Contents (Elt F)),
    StableHlo.nullary main_c_83 (constantI S_ 32 0#32),
    StableHlo.TRef.nullary main_call18.cst (constant S_ .f32 0x00000000#32),
    StableHlo.TRef.binary (.of main_v415) main_call18.cst main_call18.v0 (fun x v => Host.reduceAdd x v reducesTo_S100000x64_S64_d0 h_S_),
    StableHlo.TRef.unary main_call18.v0 main_call18.v1 (broadcastInDim S1x64 ![1] bcast_S64_S1x64_1),
    StableHlo.TRef.nullary main_call18.cst_0 (constant S_ .f32 0x47C35000#32),
    StableHlo.TRef.unary main_call18.cst_0 main_call18.v2 (broadcastInDim S1x64 ![] bcast_S_S1x64),
    StableHlo.TRef.binary main_call18.v1 main_call18.v2 main_call18.v3 Host.divf,
    StableHlo.TRef.unary main_call18.v3 main_call18.v4 (broadcastInDim S100000x64 ![0, 1] bcast_S1x64_S100000x64_0_1),
    StableHlo.TRef.binary (.of main_v415) main_call18.v4 main_call18.v5 subf,
    StableHlo.TRef.binary main_call18.v5 main_call18.v5 main_call18.v6 mulf,
    StableHlo.TRef.unary (.of main_c_83) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x64_S64_d0 h_S_),
    StableHlo.TRef.unary main_call18.v8 main_call18.v10 (broadcastInDim S64 ![] bcast_S_S64),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S64 ![] bcast_S_S64),
    StableHlo.TRef.ternary main_call18.v12 main_call18.v11 main_call18.call0.v1 main_call18.call0.v2 (fun p a b => select (broadcastInDim S64 ![] bcast_S_S64 p) a b),
    StableHlo.unary main_v534 main_v536 (broadcastInDim S1x64 ![1] bcast_S64_S1x64_1 : (⟨S64, .f32⟩ : BufTy).Contents (Elt F) → (⟨S1x64, .f32⟩ : BufTy).Contents (Elt F)),
    StableHlo.unary main_v536 main_v537 (broadcastInDim S100000x64 ![0, 1] bcast_S1x64_S100000x64_0_1 : (⟨S1x64, .f32⟩ : BufTy).Contents (Elt F) → (⟨S100000x64, .f32⟩ : BufTy).Contents (Elt F)),
    StableHlo.binary main_v415 main_v537 main_v538 (subf : (⟨S100000x64, .f32⟩ : BufTy).Contents (Elt F) → (⟨S100000x64, .f32⟩ : BufTy).Contents (Elt F) → (⟨S100000x64, .f32⟩ : BufTy).Contents (Elt F)),
    StableHlo.nullary main_cst_84 (constant S_ .f32 0x3727C5AC#32),
    StableHlo.unary main_cst_84 main_v539 (broadcastInDim S64 ![] bcast_S_S64 : (⟨S_, .f32⟩ : BufTy).Contents (Elt F) → (⟨S64, .f32⟩ : BufTy).Contents (Elt F)),
    StableHlo.binary main_v535 main_v539 main_v540 (addf : (⟨S64, .f32⟩ : BufTy).Contents (Elt F) → (⟨S64, .f32⟩ : BufTy).Contents (Elt F) → (⟨S64, .f32⟩ : BufTy).Contents (Elt F)),
    StableHlo.unary main_v540 main_v541 (Host.sqrt : (⟨S64, .f32⟩ : BufTy).Contents (Elt F) → (⟨S64, .f32⟩ : BufTy).Contents (Elt F)),
    StableHlo.unary main_v541 main_v542 (broadcastInDim S1x64 ![1] bcast_S64_S1x64_1 : (⟨S64, .f32⟩ : BufTy).Contents (Elt F) → (⟨S1x64, .f32⟩ : BufTy).Contents (Elt F)),
    StableHlo.unary main_v542 main_v543 (broadcastInDim S100000x64 ![0, 1] bcast_S1x64_S100000x64_0_1 : (⟨S1x64, .f32⟩ : BufTy).Contents (Elt F) → (⟨S100000x64, .f32⟩ : BufTy).Contents (Elt F)),
    StableHlo.binary main_v538 main_v543 main_v544 (Host.divf : (⟨S100000x64, .f32⟩ : BufTy).Contents (Elt F) → (⟨S100000x64, .f32⟩ : BufTy).Contents (Elt F) → (⟨S100000x64, .f32⟩ : BufTy).Contents (Elt F)),
    StableHlo.unary main_v529 main_v545 (broadcastInDim S1x64 ![1] bcast_S64_S1x64_1 : (⟨S64, .f32⟩ : BufTy).Contents (Elt F) → (⟨S1x64, .f32⟩ : BufTy).Contents (Elt F)),
    StableHlo.unary main_v545 main_v546 (broadcastInDim S100000x64 ![0, 1] bcast_S1x64_S100000x64_0_1 : (⟨S1x64, .f32⟩ : BufTy).Contents (Elt F) → (⟨S100000x64, .f32⟩ : BufTy).Contents (Elt F)),
    StableHlo.binary main_v544 main_v546 main_v547 (mulf : (⟨S100000x64, .f32⟩ : BufTy).Contents (Elt F) → (⟨S100000x64, .f32⟩ : BufTy).Contents (Elt F) → (⟨S100000x64, .f32⟩ : BufTy).Contents (Elt F)),
    StableHlo.unary main_v531 main_v548 (broadcastInDim S1x64 ![1] bcast_S64_S1x64_1 : (⟨S64, .f32⟩ : BufTy).Contents (Elt F) → (⟨S1x64, .f32⟩ : BufTy).Contents (Elt F)),
    StableHlo.unary main_v548 main_v549 (broadcastInDim S100000x64 ![0, 1] bcast_S1x64_S100000x64_0_1 : (⟨S1x64, .f32⟩ : BufTy).Contents (Elt F) → (⟨S100000x64, .f32⟩ : BufTy).Contents (Elt F)),
    StableHlo.binary main_v547 main_v549 main_v550 (addf : (⟨S100000x64, .f32⟩ : BufTy).Contents (Elt F) → (⟨S100000x64, .f32⟩ : BufTy).Contents (Elt F) → (⟨S100000x64, .f32⟩ : BufTy).Contents (Elt F)),
    StableHlo.unary main_arg24 main_v551 ((transpose S64x64 [1, 0] · transposes_S64x64_S64x64_1_0) : (⟨S64x64, .f32⟩ : BufTy).Contents (Elt F) → (⟨S64x64, .f32⟩ : BufTy).Contents (Elt F)),
    StableHlo.binary main_v527 main_v551 main_v552 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg25 main_v553 (broadcastInDim S1x64 ![1] bcast_S64_S1x64_1 : (⟨S64, .f32⟩ : BufTy).Contents (Elt F) → (⟨S1x64, .f32⟩ : BufTy).Contents (Elt F)),
    StableHlo.unary main_v553 main_v554 (broadcastInDim S200000x64 ![0, 1] bcast_S1x64_S200000x64_0_1 : (⟨S1x64, .f32⟩ : BufTy).Contents (Elt F) → (⟨S200000x64, .f32⟩ : BufTy).Contents (Elt F)),
    StableHlo.binary main_v552 main_v554 main_v555 (addf : (⟨S200000x64, .f32⟩ : BufTy).Contents (Elt F) → (⟨S200000x64, .f32⟩ : BufTy).Contents (Elt F) → (⟨S200000x64, .f32⟩ : BufTy).Contents (Elt F)),
    StableHlo.TRef.nullary main_call19.cst (constant S_ .f32 0x00000000#32),
    StableHlo.TRef.unary main_call19.cst main_call19.v0 (broadcastInDim S200000x64 ![] bcast_S_S200000x64),
    StableHlo.TRef.binary (.of main_v555) main_call19.v0 main_call19.v1 maximumf,
    StableHlo.unary main_arg26 main_v557 ((transpose S64x1 [1, 0] · transposes_S1x64_S64x1_1_0) : (⟨S1x64, .f32⟩ : BufTy).Contents (Elt F) → (⟨S64x1, .f32⟩ : BufTy).Contents (Elt F)),
    StableHlo.binary main_v556 main_v557 main_v558 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    StableHlo.unary main_arg27 main_v559 (broadcastInDim S1x1 ![1] bcast_S1_S1x1_1 : (⟨S1, .f32⟩ : BufTy).Contents (Elt F) → (⟨S1x1, .f32⟩ : BufTy).Contents (Elt F)),
    StableHlo.unary main_v559 main_v560 (broadcastInDim S200000x1 ![0, 1] bcast_S1x1_S200000x1_0_1 : (⟨S1x1, .f32⟩ : BufTy).Contents (Elt F) → (⟨S200000x1, .f32⟩ : BufTy).Contents (Elt F)),
    StableHlo.binary main_v558 main_v560 main_v561 (addf : (⟨S200000x1, .f32⟩ : BufTy).Contents (Elt F) → (⟨S200000x1, .f32⟩ : BufTy).Contents (Elt F) → (⟨S200000x1, .f32⟩ : BufTy).Contents (Elt F)) ]

set_option maxRecDepth 8192 in
theorem part10_eq (c : Dev nD) : main_part10 (F := F) c = seq ops10 := by
  simp only [main_part10, fn_norm.body, fn_norm_0.body, fn_norm_3.body, fn_norm_4.body, fn_relu.body, fn_relu_2.body, fn_relu_8.body, fn_var.body, fn_var_1.body, fn_var_5.body, fn_var_7.body, fn_where.body, fn_where_6.body, seq, bind_assoc, pure_bind]
  all_goals rfl

theorem ops10_sub : (ops10 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- @main's operations: the windows' lists in order. -/
abbrev ops : List (HloOp τ sig (Elt F)) := ops0 ++ ops1 ++ ops2 ++ ops3 ++ ops4 ++ ops5 ++ ops6 ++ ops7 ++ ops8 ++ ops9 ++ ops10

/-- Stage 0 of @main: 5 operations, in order. -/
abbrev seg0 : List (HloOp τ sig (Elt F)) :=
  [ StableHlo.unary main_arg5 main_v0 ((transpose S64x128 [1, 0] · transposes_S128x64_S64x128_1_0) : (⟨S128x64, .f32⟩ : BufTy).Contents (Elt F) → (⟨S64x128, .f32⟩ : BufTy).Contents (Elt F)),
    StableHlo.binary main_arg0 main_v0 main_v1 ((fun l r => Host.dotGeneral dot_S200000x64_S64x128_S200000x128_1_0_0_1_n_n none l r) : (⟨S200000x64, .f32⟩ : BufTy).Contents (Elt F) → (⟨S64x128, .f32⟩ : BufTy).Contents (Elt F) → (⟨S200000x128, .f32⟩ : BufTy).Contents (Elt F)),
    StableHlo.unary main_arg6 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S200000x128 ![0, 1] bcast_S1x128_S200000x128_0_1 : (⟨S1x128, .f32⟩ : BufTy).Contents (Elt F) → (⟨S200000x128, .f32⟩ : BufTy).Contents (Elt F)),
    StableHlo.binary main_v1 main_v3 main_v4 (addf : (⟨S200000x128, .f32⟩ : BufTy).Contents (Elt F) → (⟨S200000x128, .f32⟩ : BufTy).Contents (Elt F) → (⟨S200000x128, .f32⟩ : BufTy).Contents (Elt F)) ]

/-- Stage 1 of @main: 5 operations, in order. -/
abbrev seg1 : List (HloOp τ sig (Elt F)) :=
  [ StableHlo.unary main_arg7 main_v5 ((transpose S32x128 [1, 0] · transposes_S128x32_S32x128_1_0) : (⟨S128x32, .f32⟩ : BufTy).Contents (Elt F) → (⟨S32x128, .f32⟩ : BufTy).Contents (Elt F)),
    StableHlo.binary main_arg1 main_v5 main_v6 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg8 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S100000x128 ![0, 1] bcast_S1x128_S100000x128_0_1 : (⟨S1x128, .f32⟩ : BufTy).Contents (Elt F) → (⟨S100000x128, .f32⟩ : BufTy).Contents (Elt F)),
    StableHlo.binary main_v6 main_v8 main_v9 (addf : (⟨S100000x128, .f32⟩ : BufTy).Contents (Elt F) → (⟨S100000x128, .f32⟩ : BufTy).Contents (Elt F) → (⟨S100000x128, .f32⟩ : BufTy).Contents (Elt F)) ]

/-- Stage 2 of @main: 37 operations, in order. -/
abbrev seg2 : List (HloOp τ sig (Elt F)) :=
  [ StableHlo.unary main_arg9 main_v10 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v10 main_v11 rfl shapeCasts_S1x128x128_S128x128,
    StableHlo.unary main_arg10 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128,
    StableHlo.unary main_arg11 main_v14 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v14 main_v15 rfl shapeCasts_S1x128x128_S128x128,
    StableHlo.unary main_arg2 main_v16 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v16 main_v17 rfl shapeCasts_S1x500000_S500000,
    StableHlo.nullary main_c (constantI S_ 32 0#32),
    StableHlo.unary main_c main_v18 (broadcastInDim S500000 ![] bcast_S_S500000 : (⟨S_, .i32⟩ : BufTy).Contents (Elt F) → (⟨S500000, .i32⟩ : BufTy).Contents (Elt F)),
    StableHlo.binary main_v17 main_v18 main_v19 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 200000#32),
    StableHlo.unary main_c_0 main_v20 (broadcastInDim S500000 ![] bcast_S_S500000 : (⟨S_, .i32⟩ : BufTy).Contents (Elt F) → (⟨S500000, .i32⟩ : BufTy).Contents (Elt F)),
    StableHlo.binary main_v17 main_v20 main_v21 (addi : (⟨S500000, .i32⟩ : BufTy).Contents (Elt F) → (⟨S500000, .i32⟩ : BufTy).Contents (Elt F) → (⟨S500000, .i32⟩ : BufTy).Contents (Elt F)),
    StableHlo.ternary main_v19 main_v21 main_v17 main_v22 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v22 main_v23 (broadcastInDim S500000x1 ![0] bcast_S500000_S500000x1_0 : (⟨S500000, .i32⟩ : BufTy).Contents (Elt F) → (⟨S500000x1, .i32⟩ : BufTy).Contents (Elt F)),
    StableHlo.binary main_v4 main_v23 main_v24 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg2 main_v25 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v25 main_v26 rfl shapeCasts_S1x500000_S500000,
    StableHlo.nullary main_cst (constant S_ .f32 0x00000000#32),
    StableHlo.unary main_cst main_v27 (broadcastInDim S100000x128 ![] bcast_S_S100000x128 : (⟨S_, .f32⟩ : BufTy).Contents (Elt F) → (⟨S100000x128, .f32⟩ : BufTy).Contents (Elt F)),
    StableHlo.unary main_v26 main_v28 (broadcastInDim S500000x1 ![0] bcast_S500000_S500000x1_0 : (⟨S500000, .i32⟩ : BufTy).Contents (Elt F) → (⟨S500000x1, .i32⟩ : BufTy).Contents (Elt F)),
    StableHlo.ternary main_v27 main_v28 main_v24 main_v29 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_1 (constant S_ .f32 0x3F800000#32),
    StableHlo.unary main_cst_1 main_v30 (broadcastInDim S500000 ![] bcast_S_S500000 : (⟨S_, .f32⟩ : BufTy).Contents (Elt F) → (⟨S500000, .f32⟩ : BufTy).Contents (Elt F)),
    StableHlo.unary main_arg2 main_v31 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v31 main_v32 rfl shapeCasts_S1x500000_S500000,
    StableHlo.nullary main_cst_2 (constant S_ .f32 0x00000000#32),
    StableHlo.unary main_cst_2 main_v33 (broadcastInDim S100000 ![] bcast_S_S100000 : (⟨S_, .f32⟩ : BufTy).Contents (Elt F) → (⟨S100000, .f32⟩ : BufTy).Contents (Elt F)),
    StableHlo.unary main_v32 main_v34 (broadcastInDim S500000x1 ![0] bcast_S500000_S500000x1_0 : (⟨S500000, .i32⟩ : BufTy).Contents (Elt F) → (⟨S500000x1, .i32⟩ : BufTy).Contents (Elt F)),
    StableHlo.ternary main_v33 main_v34 main_v30 main_v35 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_3 (constant S_ .f32 0x3F800000#32),
    StableHlo.unary main_cst_3 main_v36 (broadcastInDim S100000 ![] bcast_S_S100000 : (⟨S_, .f32⟩ : BufTy).Contents (Elt F) → (⟨S100000, .f32⟩ : BufTy).Contents (Elt F)),
    StableHlo.binary main_v35 main_v36 main_v37 (maximumf : (⟨S100000, .f32⟩ : BufTy).Contents (Elt F) → (⟨S100000, .f32⟩ : BufTy).Contents (Elt F) → (⟨S100000, .f32⟩ : BufTy).Contents (Elt F)),
    StableHlo.unary main_v37 main_v38 (broadcastInDim S100000x1 ![0] bcast_S100000_S100000x1_0 : (⟨S100000, .f32⟩ : BufTy).Contents (Elt F) → (⟨S100000x1, .f32⟩ : BufTy).Contents (Elt F)),
    StableHlo.unary main_v38 main_v39 (broadcastInDim S100000x128 ![0, 1] bcast_S100000x1_S100000x128_0_1 : (⟨S100000x1, .f32⟩ : BufTy).Contents (Elt F) → (⟨S100000x128, .f32⟩ : BufTy).Contents (Elt F)),
    StableHlo.binary main_v29 main_v39 main_v40 (Host.divf : (⟨S100000x128, .f32⟩ : BufTy).Contents (Elt F) → (⟨S100000x128, .f32⟩ : BufTy).Contents (Elt F) → (⟨S100000x128, .f32⟩ : BufTy).Contents (Elt F)) ]

/-- Stage 3 of @main: 18 operations, in order. -/
abbrev seg3 : List (HloOp τ sig (Elt F)) :=
  [ StableHlo.unary main_v11 main_v41 ((transpose S128x128 [1, 0] · transposes_S128x128_S128x128_1_0) : (⟨S128x128, .f32⟩ : BufTy).Contents (Elt F) → (⟨S128x128, .f32⟩ : BufTy).Contents (Elt F)),
    StableHlo.binary main_v40 main_v41 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v13 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_v15 main_v46 ((transpose S128x128 [1, 0] · transposes_S128x128_S128x128_1_0) : (⟨S128x128, .f32⟩ : BufTy).Contents (Elt F) → (⟨S128x128, .f32⟩ : BufTy).Contents (Elt F)),
    StableHlo.binary main_v9 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.binary (.of main_v48) (.of main_v48) main_call0.v0 mulf,
    StableHlo.TRef.nullary main_call0.cst (constant S_ .f32 0x00000000#32),
    StableHlo.TRef.binary main_call0.v0 main_call0.cst main_call0.v1 (fun x v => Host.reduceAdd x v reducesTo_S100000x128_S100000_d1 h_S_),
    StableHlo.TRef.unary main_call0.v1 main_call0.v2 (broadcastInDim S100000x1 ![0] bcast_S100000_S100000x1_0),
    StableHlo.TRef.unary main_call0.v2 main_call0.v3 Host.sqrt,
    StableHlo.nullary main_cst_4 (constant S_ .f32 0x2B8CBCCC#32),
    StableHlo.unary main_cst_4 main_v50 (broadcastInDim S100000x1 ![] bcast_S_S100000x1 : (⟨S_, .f32⟩ : BufTy).Contents (Elt F) → (⟨S100000x1, .f32⟩ : BufTy).Contents (Elt F)),
    StableHlo.binary main_v49 main_v50 main_v51 (maximumf : (⟨S100000x1, .f32⟩ : BufTy).Contents (Elt F) → (⟨S100000x1, .f32⟩ : BufTy).Contents (Elt F) → (⟨S100000x1, .f32⟩ : BufTy).Contents (Elt F)),
    StableHlo.unary main_v51 main_v52 (broadcastInDim S100000x128 ![0, 1] bcast_S100000x1_S100000x128_0_1 : (⟨S100000x1, .f32⟩ : BufTy).Contents (Elt F) → (⟨S100000x128, .f32⟩ : BufTy).Contents (Elt F)),
    StableHlo.binary main_v48 main_v52 main_v53 (Host.divf : (⟨S100000x128, .f32⟩ : BufTy).Contents (Elt F) → (⟨S100000x128, .f32⟩ : BufTy).Contents (Elt F) → (⟨S100000x128, .f32⟩ : BufTy).Contents (Elt F)) ]

/-- Stage 4 of @main: 37 operations, in order. -/
abbrev seg4 : List (HloOp τ sig (Elt F)) :=
  [ StableHlo.unary main_arg9 main_v54 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v54 main_v55 rfl shapeCasts_S1x128x128_S128x128,
    StableHlo.unary main_arg10 main_v56 ((extractStridedSlice S1x128 ![1, 0] · slices_S3x128_S1x128_1_0) : (⟨S3x128, .f32⟩ : BufTy).Contents (Elt F) → (⟨S1x128, .f32⟩ : BufTy).Contents (Elt F)),
    StableHlo.reshape main_v56 main_v57 rfl shapeCasts_S1x128_S128,
    StableHlo.unary main_arg11 main_v58 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v58 main_v59 rfl shapeCasts_S1x128x128_S128x128,
    StableHlo.unary main_arg3 main_v60 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v60 main_v61 rfl shapeCasts_S1x500000_S500000,
    StableHlo.nullary main_c_5 (constantI S_ 32 0#32),
    StableHlo.unary main_c_5 main_v62 (broadcastInDim S500000 ![] bcast_S_S500000 : (⟨S_, .i32⟩ : BufTy).Contents (Elt F) → (⟨S500000, .i32⟩ : BufTy).Contents (Elt F)),
    StableHlo.binary main_v61 main_v62 main_v63 (cmpi .slt : (⟨S500000, .i32⟩ : BufTy).Contents (Elt F) → (⟨S500000, .i32⟩ : BufTy).Contents (Elt F) → (⟨S500000, .i1⟩ : BufTy).Contents (Elt F)),
    StableHlo.nullary main_c_6 (constantI S_ 32 100000#32),
    StableHlo.unary main_c_6 main_v64 (broadcastInDim S500000 ![] bcast_S_S500000 : (⟨S_, .i32⟩ : BufTy).Contents (Elt F) → (⟨S500000, .i32⟩ : BufTy).Contents (Elt F)),
    StableHlo.binary main_v61 main_v64 main_v65 (addi : (⟨S500000, .i32⟩ : BufTy).Contents (Elt F) → (⟨S500000, .i32⟩ : BufTy).Contents (Elt F) → (⟨S500000, .i32⟩ : BufTy).Contents (Elt F)),
    StableHlo.ternary main_v63 main_v65 main_v61 main_v66 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v66 main_v67 (broadcastInDim S500000x1 ![0] bcast_S500000_S500000x1_0 : (⟨S500000, .i32⟩ : BufTy).Contents (Elt F) → (⟨S500000x1, .i32⟩ : BufTy).Contents (Elt F)),
    StableHlo.binary main_v9 main_v67 main_v68 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_arg3 main_v69 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v69 main_v70 rfl shapeCasts_S1x500000_S500000,
    StableHlo.nullary main_cst_7 (constant S_ .f32 0x00000000#32),
    StableHlo.unary main_cst_7 main_v71 (broadcastInDim S200000x128 ![] bcast_S_S200000x128 : (⟨S_, .f32⟩ : BufTy).Contents (Elt F) → (⟨S200000x128, .f32⟩ : BufTy).Contents (Elt F)),
    StableHlo.unary main_v70 main_v72 (broadcastInDim S500000x1 ![0] bcast_S500000_S500000x1_0 : (⟨S500000, .i32⟩ : BufTy).Contents (Elt F) → (⟨S500000x1, .i32⟩ : BufTy).Contents (Elt F)),
    StableHlo.ternary main_v71 main_v72 main_v68 main_v73 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_8 (constant S_ .f32 0x3F800000#32),
    StableHlo.unary main_cst_8 main_v74 (broadcastInDim S500000 ![] bcast_S_S500000 : (⟨S_, .f32⟩ : BufTy).Contents (Elt F) → (⟨S500000, .f32⟩ : BufTy).Contents (Elt F)),
    StableHlo.unary main_arg3 main_v75 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v75 main_v76 rfl shapeCasts_S1x500000_S500000,
    StableHlo.nullary main_cst_9 (constant S_ .f32 0x00000000#32),
    StableHlo.unary main_cst_9 main_v77 (broadcastInDim S200000 ![] bcast_S_S200000 : (⟨S_, .f32⟩ : BufTy).Contents (Elt F) → (⟨S200000, .f32⟩ : BufTy).Contents (Elt F)),
    StableHlo.unary main_v76 main_v78 (broadcastInDim S500000x1 ![0] bcast_S500000_S500000x1_0 : (⟨S500000, .i32⟩ : BufTy).Contents (Elt F) → (⟨S500000x1, .i32⟩ : BufTy).Contents (Elt F)),
    StableHlo.ternary main_v77 main_v78 main_v74 main_v79 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_10 (constant S_ .f32 0x3F800000#32),
    StableHlo.unary main_cst_10 main_v80 (broadcastInDim S200000 ![] bcast_S_S200000 : (⟨S_, .f32⟩ : BufTy).Contents (Elt F) → (⟨S200000, .f32⟩ : BufTy).Contents (Elt F)),
    StableHlo.binary main_v79 main_v80 main_v81 (maximumf : (⟨S200000, .f32⟩ : BufTy).Contents (Elt F) → (⟨S200000, .f32⟩ : BufTy).Contents (Elt F) → (⟨S200000, .f32⟩ : BufTy).Contents (Elt F)),
    StableHlo.unary main_v81 main_v82 (broadcastInDim S200000x1 ![0] bcast_S200000_S200000x1_0 : (⟨S200000, .f32⟩ : BufTy).Contents (Elt F) → (⟨S200000x1, .f32⟩ : BufTy).Contents (Elt F)),
    StableHlo.unary main_v82 main_v83 (broadcastInDim S200000x128 ![0, 1] bcast_S200000x1_S200000x128_0_1 : (⟨S200000x1, .f32⟩ : BufTy).Contents (Elt F) → (⟨S200000x128, .f32⟩ : BufTy).Contents (Elt F)),
    StableHlo.binary main_v73 main_v83 main_v84 (Host.divf : (⟨S200000x128, .f32⟩ : BufTy).Contents (Elt F) → (⟨S200000x128, .f32⟩ : BufTy).Contents (Elt F) → (⟨S200000x128, .f32⟩ : BufTy).Contents (Elt F)) ]

/-- Stage 5 of @main: 18 operations, in order. -/
abbrev seg5 : List (HloOp τ sig (Elt F)) :=
  [ StableHlo.unary main_v55 main_v85 ((transpose S128x128 [1, 0] · transposes_S128x128_S128x128_1_0) : (⟨S128x128, .f32⟩ : BufTy).Contents (Elt F) → (⟨S128x128, .f32⟩ : BufTy).Contents (Elt F)),
    StableHlo.binary main_v84 main_v85 main_v86 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v57 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S200000x128 ![0, 1] bcast_S1x128_S200000x128_0_1 : (⟨S1x128, .f32⟩ : BufTy).Contents (Elt F) → (⟨S200000x128, .f32⟩ : BufTy).Contents (Elt F)),
    StableHlo.binary main_v86 main_v88 main_v89 (addf : (⟨S200000x128, .f32⟩ : BufTy).Contents (Elt F) → (⟨S200000x128, .f32⟩ : BufTy).Contents (Elt F) → (⟨S200000x128, .f32⟩ : BufTy).Contents (Elt F)),
    StableHlo.unary main_v59 main_v90 ((transpose S128x128 [1, 0] · transposes_S128x128_S128x128_1_0) : (⟨S128x128, .f32⟩ : BufTy).Contents (Elt F) → (⟨S128x128, .f32⟩ : BufTy).Contents (Elt F)),
    StableHlo.binary main_v4 main_v90 main_v91 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v89 main_v91 main_v92 (addf : (⟨S200000x128, .f32⟩ : BufTy).Contents (Elt F) → (⟨S200000x128, .f32⟩ : BufTy).Contents (Elt F) → (⟨S200000x128, .f32⟩ : BufTy).Contents (Elt F)),
    StableHlo.TRef.binary (.of main_v92) (.of main_v92) main_call1.v0 mulf,
    StableHlo.TRef.nullary main_call1.cst (constant S_ .f32 0x00000000#32),
    StableHlo.TRef.binary main_call1.v0 main_call1.cst main_call1.v1 (fun x v => Host.reduceAdd x v reducesTo_S200000x128_S200000_d1 h_S_),
    StableHlo.TRef.unary main_call1.v1 main_call1.v2 (broadcastInDim S200000x1 ![0] bcast_S200000_S200000x1_0),
    StableHlo.TRef.unary main_call1.v2 main_call1.v3 Host.sqrt,
    StableHlo.nullary main_cst_11 (constant S_ .f32 0x2B8CBCCC#32),
    StableHlo.unary main_cst_11 main_v94 (broadcastInDim S200000x1 ![] bcast_S_S200000x1 : (⟨S_, .f32⟩ : BufTy).Contents (Elt F) → (⟨S200000x1, .f32⟩ : BufTy).Contents (Elt F)),
    StableHlo.binary main_v93 main_v94 main_v95 (maximumf : (⟨S200000x1, .f32⟩ : BufTy).Contents (Elt F) → (⟨S200000x1, .f32⟩ : BufTy).Contents (Elt F) → (⟨S200000x1, .f32⟩ : BufTy).Contents (Elt F)),
    StableHlo.unary main_v95 main_v96 (broadcastInDim S200000x128 ![0, 1] bcast_S200000x1_S200000x128_0_1 : (⟨S200000x1, .f32⟩ : BufTy).Contents (Elt F) → (⟨S200000x128, .f32⟩ : BufTy).Contents (Elt F)),
    StableHlo.binary main_v92 main_v96 main_v97 (Host.divf : (⟨S200000x128, .f32⟩ : BufTy).Contents (Elt F) → (⟨S200000x128, .f32⟩ : BufTy).Contents (Elt F) → (⟨S200000x128, .f32⟩ : BufTy).Contents (Elt F)) ]

/-- Stage 6 of @main: 37 operations, in order. -/
abbrev seg6 : List (HloOp τ sig (Elt F)) :=
  [ StableHlo.unary main_arg9 main_v98 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v98 main_v99 rfl shapeCasts_S1x128x128_S128x128,
    StableHlo.unary main_arg10 main_v100 ((extractStridedSlice S1x128 ![2, 0] · slices_S3x128_S1x128_2_0) : (⟨S3x128, .f32⟩ : BufTy).Contents (Elt F) → (⟨S1x128, .f32⟩ : BufTy).Contents (Elt F)),
    StableHlo.reshape main_v100 main_v101 rfl shapeCasts_S1x128_S128,
    StableHlo.unary main_arg11 main_v102 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v102 main_v103 rfl shapeCasts_S1x128x128_S128x128,
    StableHlo.unary main_arg4 main_v104 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v104 main_v105 rfl shapeCasts_S1x500000_S500000,
    StableHlo.nullary main_c_12 (constantI S_ 32 0#32),
    StableHlo.unary main_c_12 main_v106 (broadcastInDim S500000 ![] bcast_S_S500000 : (⟨S_, .i32⟩ : BufTy).Contents (Elt F) → (⟨S500000, .i32⟩ : BufTy).Contents (Elt F)),
    StableHlo.binary main_v105 main_v106 main_v107 (cmpi .slt : (⟨S500000, .i32⟩ : BufTy).Contents (Elt F) → (⟨S500000, .i32⟩ : BufTy).Contents (Elt F) → (⟨S500000, .i1⟩ : BufTy).Contents (Elt F)),
    StableHlo.nullary main_c_13 (constantI S_ 32 200000#32),
    StableHlo.unary main_c_13 main_v108 (broadcastInDim S500000 ![] bcast_S_S500000 : (⟨S_, .i32⟩ : BufTy).Contents (Elt F) → (⟨S500000, .i32⟩ : BufTy).Contents (Elt F)),
    StableHlo.binary main_v105 main_v108 main_v109 (addi : (⟨S500000, .i32⟩ : BufTy).Contents (Elt F) → (⟨S500000, .i32⟩ : BufTy).Contents (Elt F) → (⟨S500000, .i32⟩ : BufTy).Contents (Elt F)),
    StableHlo.ternary main_v107 main_v109 main_v105 main_v110 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v110 main_v111 (broadcastInDim S500000x1 ![0] bcast_S500000_S500000x1_0 : (⟨S500000, .i32⟩ : BufTy).Contents (Elt F) → (⟨S500000x1, .i32⟩ : BufTy).Contents (Elt F)),
    StableHlo.binary main_v4 main_v111 main_v112 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg4 main_v113 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v113 main_v114 rfl shapeCasts_S1x500000_S500000,
    StableHlo.nullary main_cst_14 (constant S_ .f32 0x00000000#32),
    StableHlo.unary main_cst_14 main_v115 (broadcastInDim S200000x128 ![] bcast_S_S200000x128 : (⟨S_, .f32⟩ : BufTy).Contents (Elt F) → (⟨S200000x128, .f32⟩ : BufTy).Contents (Elt F)),
    StableHlo.unary main_v114 main_v116 (broadcastInDim S500000x1 ![0] bcast_S500000_S500000x1_0 : (⟨S500000, .i32⟩ : BufTy).Contents (Elt F) → (⟨S500000x1, .i32⟩ : BufTy).Contents (Elt F)),
    StableHlo.ternary main_v115 main_v116 main_v112 main_v117 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_15 (constant S_ .f32 0x3F800000#32),
    StableHlo.unary main_cst_15 main_v118 (broadcastInDim S500000 ![] bcast_S_S500000 : (⟨S_, .f32⟩ : BufTy).Contents (Elt F) → (⟨S500000, .f32⟩ : BufTy).Contents (Elt F)),
    StableHlo.unary main_arg4 main_v119 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v119 main_v120 rfl shapeCasts_S1x500000_S500000,
    StableHlo.nullary main_cst_16 (constant S_ .f32 0x00000000#32),
    StableHlo.unary main_cst_16 main_v121 (broadcastInDim S200000 ![] bcast_S_S200000 : (⟨S_, .f32⟩ : BufTy).Contents (Elt F) → (⟨S200000, .f32⟩ : BufTy).Contents (Elt F)),
    StableHlo.unary main_v120 main_v122 (broadcastInDim S500000x1 ![0] bcast_S500000_S500000x1_0 : (⟨S500000, .i32⟩ : BufTy).Contents (Elt F) → (⟨S500000x1, .i32⟩ : BufTy).Contents (Elt F)),
    StableHlo.ternary main_v121 main_v122 main_v118 main_v123 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_17 (constant S_ .f32 0x3F800000#32),
    StableHlo.unary main_cst_17 main_v124 (broadcastInDim S200000 ![] bcast_S_S200000 : (⟨S_, .f32⟩ : BufTy).Contents (Elt F) → (⟨S200000, .f32⟩ : BufTy).Contents (Elt F)),
    StableHlo.binary main_v123 main_v124 main_v125 (maximumf : (⟨S200000, .f32⟩ : BufTy).Contents (Elt F) → (⟨S200000, .f32⟩ : BufTy).Contents (Elt F) → (⟨S200000, .f32⟩ : BufTy).Contents (Elt F)),
    StableHlo.unary main_v125 main_v126 (broadcastInDim S200000x1 ![0] bcast_S200000_S200000x1_0 : (⟨S200000, .f32⟩ : BufTy).Contents (Elt F) → (⟨S200000x1, .f32⟩ : BufTy).Contents (Elt F)),
    StableHlo.unary main_v126 main_v127 (broadcastInDim S200000x128 ![0, 1] bcast_S200000x1_S200000x128_0_1 : (⟨S200000x1, .f32⟩ : BufTy).Contents (Elt F) → (⟨S200000x128, .f32⟩ : BufTy).Contents (Elt F)),
    StableHlo.binary main_v117 main_v127 main_v128 (Host.divf : (⟨S200000x128, .f32⟩ : BufTy).Contents (Elt F) → (⟨S200000x128, .f32⟩ : BufTy).Contents (Elt F) → (⟨S200000x128, .f32⟩ : BufTy).Contents (Elt F)) ]

/-- Stage 7 of @main: 18 operations, in order. -/
abbrev seg7 : List (HloOp τ sig (Elt F)) :=
  [ StableHlo.unary main_v99 main_v129 ((transpose S128x128 [1, 0] · transposes_S128x128_S128x128_1_0) : (⟨S128x128, .f32⟩ : BufTy).Contents (Elt F) → (⟨S128x128, .f32⟩ : BufTy).Contents (Elt F)),
    StableHlo.binary main_v128 main_v129 main_v130 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v101 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S200000x128 ![0, 1] bcast_S1x128_S200000x128_0_1 : (⟨S1x128, .f32⟩ : BufTy).Contents (Elt F) → (⟨S200000x128, .f32⟩ : BufTy).Contents (Elt F)),
    StableHlo.binary main_v130 main_v132 main_v133 (addf : (⟨S200000x128, .f32⟩ : BufTy).Contents (Elt F) → (⟨S200000x128, .f32⟩ : BufTy).Contents (Elt F) → (⟨S200000x128, .f32⟩ : BufTy).Contents (Elt F)),
    StableHlo.unary main_v103 main_v134 ((transpose S128x128 [1, 0] · transposes_S128x128_S128x128_1_0) : (⟨S128x128, .f32⟩ : BufTy).Contents (Elt F) → (⟨S128x128, .f32⟩ : BufTy).Contents (Elt F)),
    StableHlo.binary main_v4 main_v134 main_v135 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v133 main_v135 main_v136 (addf : (⟨S200000x128, .f32⟩ : BufTy).Contents (Elt F) → (⟨S200000x128, .f32⟩ : BufTy).Contents (Elt F) → (⟨S200000x128, .f32⟩ : BufTy).Contents (Elt F)),
    StableHlo.TRef.binary (.of main_v136) (.of main_v136) main_call2.v0 mulf,
    StableHlo.TRef.nullary main_call2.cst (constant S_ .f32 0x00000000#32),
    StableHlo.TRef.binary main_call2.v0 main_call2.cst main_call2.v1 (fun x v => Host.reduceAdd x v reducesTo_S200000x128_S200000_d1 h_S_),
    StableHlo.TRef.unary main_call2.v1 main_call2.v2 (broadcastInDim S200000x1 ![0] bcast_S200000_S200000x1_0),
    StableHlo.TRef.unary main_call2.v2 main_call2.v3 Host.sqrt,
    StableHlo.nullary main_cst_18 (constant S_ .f32 0x2B8CBCCC#32),
    StableHlo.unary main_cst_18 main_v138 (broadcastInDim S200000x1 ![] bcast_S_S200000x1 : (⟨S_, .f32⟩ : BufTy).Contents (Elt F) → (⟨S200000x1, .f32⟩ : BufTy).Contents (Elt F)),
    StableHlo.binary main_v137 main_v138 main_v139 (maximumf : (⟨S200000x1, .f32⟩ : BufTy).Contents (Elt F) → (⟨S200000x1, .f32⟩ : BufTy).Contents (Elt F) → (⟨S200000x1, .f32⟩ : BufTy).Contents (Elt F)),
    StableHlo.unary main_v139 main_v140 (broadcastInDim S200000x128 ![0, 1] bcast_S200000x1_S200000x128_0_1 : (⟨S200000x1, .f32⟩ : BufTy).Contents (Elt F) → (⟨S200000x128, .f32⟩ : BufTy).Contents (Elt F)),
    StableHlo.binary main_v136 main_v140 main_v141 (Host.divf : (⟨S200000x128, .f32⟩ : BufTy).Contents (Elt F) → (⟨S200000x128, .f32⟩ : BufTy).Contents (Elt F) → (⟨S200000x128, .f32⟩ : BufTy).Contents (Elt F)) ]

/-- Stage 8 of @main: 33 operations, in order. -/
abbrev seg8 : List (HloOp τ sig (Elt F)) :=
  [ StableHlo.binary main_v97 main_v141 main_v142 (addf : (⟨S200000x128, .f32⟩ : BufTy).Contents (Elt F) → (⟨S200000x128, .f32⟩ : BufTy).Contents (Elt F) → (⟨S200000x128, .f32⟩ : BufTy).Contents (Elt F)),
    StableHlo.unary main_arg18 main_v143 ((extractStridedSlice S1x128 ![0, 0] · slices_S2x128_S1x128_0_0) : (⟨S2x128, .f32⟩ : BufTy).Contents (Elt F) → (⟨S1x128, .f32⟩ : BufTy).Contents (Elt F)),
    StableHlo.reshape main_v143 main_v144 rfl shapeCasts_S1x128_S128,
    StableHlo.unary main_arg19 main_v145 ((extractStridedSlice S1x128 ![0, 0] · slices_S2x128_S1x128_0_0) : (⟨S2x128, .f32⟩ : BufTy).Contents (Elt F) → (⟨S1x128, .f32⟩ : BufTy).Contents (Elt F)),
    StableHlo.reshape main_v145 main_v146 rfl shapeCasts_S1x128_S128,
    StableHlo.nullary main_cst_19 (constant S_ .f32 0x00000000#32),
    StableHlo.binary main_v142 main_cst_19 main_v147 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_20 (constant S_ .f32 0x48435000#32),
    StableHlo.unary main_cst_20 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call3.cst (constant S_ .f32 0x00000000#32),
    StableHlo.TRef.binary (.of main_v142) main_call3.cst main_call3.v0 (fun x v => Host.reduceAdd x v reducesTo_S200000x128_S128_d0 h_S_),
    StableHlo.TRef.unary main_call3.v0 main_call3.v1 (broadcastInDim S1x128 ![1] bcast_S128_S1x128_1),
    StableHlo.TRef.nullary main_call3.cst_0 (constant S_ .f32 0x48435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S200000x128 ![0, 1] bcast_S1x128_S200000x128_0_1),
    StableHlo.TRef.binary (.of main_v142) main_call3.v4 main_call3.v5 subf,
    StableHlo.TRef.binary main_call3.v5 main_call3.v5 main_call3.v6 mulf,
    StableHlo.TRef.unary (.of main_c_21) main_call3.v7 (sitofp .f32),
    StableHlo.TRef.nullary main_call3.cst_1 (constant S_ .f32 0x48435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S200000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]

/-- Stage 9 of @main: 16 operations, in order. -/
abbrev seg9 : List (HloOp τ sig (Elt F)) :=
  [ StableHlo.unary main_v149 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S200000x128 ![0, 1] bcast_S1x128_S200000x128_0_1 : (⟨S1x128, .f32⟩ : BufTy).Contents (Elt F) → (⟨S200000x128, .f32⟩ : BufTy).Contents (Elt F)),
    StableHlo.binary main_v142 main_v152 main_v153 (subf : (⟨S200000x128, .f32⟩ : BufTy).Contents (Elt F) → (⟨S200000x128, .f32⟩ : BufTy).Contents (Elt F) → (⟨S200000x128, .f32⟩ : BufTy).Contents (Elt F)),
    StableHlo.nullary main_cst_22 (constant S_ .f32 0x3727C5AC#32),
    StableHlo.unary main_cst_22 main_v154 (broadcastInDim S128 ![] bcast_S_S128 : (⟨S_, .f32⟩ : BufTy).Contents (Elt F) → (⟨S128, .f32⟩ : BufTy).Contents (Elt F)),
    StableHlo.binary main_v150 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.sqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S200000x128 ![0, 1] bcast_S1x128_S200000x128_0_1 : (⟨S1x128, .f32⟩ : BufTy).Contents (Elt F) → (⟨S200000x128, .f32⟩ : BufTy).Contents (Elt F)),
    StableHlo.binary main_v153 main_v158 main_v159 (Host.divf : (⟨S200000x128, .f32⟩ : BufTy).Contents (Elt F) → (⟨S200000x128, .f32⟩ : BufTy).Contents (Elt F) → (⟨S200000x128, .f32⟩ : BufTy).Contents (Elt F)),
    StableHlo.unary main_v144 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S200000x128 ![0, 1] bcast_S1x128_S200000x128_0_1 : (⟨S1x128, .f32⟩ : BufTy).Contents (Elt F) → (⟨S200000x128, .f32⟩ : BufTy).Contents (Elt F)),
    StableHlo.binary main_v159 main_v161 main_v162 (mulf : (⟨S200000x128, .f32⟩ : BufTy).Contents (Elt F) → (⟨S200000x128, .f32⟩ : BufTy).Contents (Elt F) → (⟨S200000x128, .f32⟩ : BufTy).Contents (Elt F)),
    StableHlo.unary main_v146 main_v163 (broadcastInDim S1x128 ![1] bcast_S128_S1x128_1 : (⟨S128, .f32⟩ : BufTy).Contents (Elt F) → (⟨S1x128, .f32⟩ : BufTy).Contents (Elt F)),
    StableHlo.unary main_v163 main_v164 (broadcastInDim S200000x128 ![0, 1] bcast_S1x128_S200000x128_0_1 : (⟨S1x128, .f32⟩ : BufTy).Contents (Elt F) → (⟨S200000x128, .f32⟩ : BufTy).Contents (Elt F)),
    StableHlo.binary main_v162 main_v164 main_v165 (addf : (⟨S200000x128, .f32⟩ : BufTy).Contents (Elt F) → (⟨S200000x128, .f32⟩ : BufTy).Contents (Elt F) → (⟨S200000x128, .f32⟩ : BufTy).Contents (Elt F)) ]

/-- Stage 10 of @main: 32 operations, in order. -/
abbrev seg10 : List (HloOp τ sig (Elt F)) :=
  [ StableHlo.unary main_arg18 main_v166 ((extractStridedSlice S1x128 ![1, 0] · slices_S2x128_S1x128_1_0) : (⟨S2x128, .f32⟩ : BufTy).Contents (Elt F) → (⟨S1x128, .f32⟩ : BufTy).Contents (Elt F)),
    StableHlo.reshape main_v166 main_v167 rfl shapeCasts_S1x128_S128,
    StableHlo.unary main_arg19 main_v168 ((extractStridedSlice S1x128 ![1, 0] · slices_S2x128_S1x128_1_0) : (⟨S2x128, .f32⟩ : BufTy).Contents (Elt F) → (⟨S1x128, .f32⟩ : BufTy).Contents (Elt F)),
    StableHlo.reshape main_v168 main_v169 rfl shapeCasts_S1x128_S128,
    StableHlo.nullary main_cst_23 (constant S_ .f32 0x00000000#32),
    StableHlo.binary main_v53 main_cst_23 main_v170 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_24 (constant S_ .f32 0x47C35000#32),
    StableHlo.unary main_cst_24 main_v171 (broadcastInDim S128 ![] bcast_S_S128 : (⟨S_, .f32⟩ : BufTy).Contents (Elt F) → (⟨S128, .f32⟩ : BufTy).Contents (Elt F)),
    StableHlo.binary main_v170 main_v171 main_v172 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call4.cst (constant S_ .f32 0x00000000#32),
    StableHlo.TRef.binary (.of main_v53) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v53) main_call4.v4 main_call4.v5 subf,
    StableHlo.TRef.binary main_call4.v5 main_call4.v5 main_call4.v6 mulf,
    StableHlo.TRef.unary (.of main_c_25) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- Stage 11 of @main: 16 operations, in order. -/
abbrev seg11 : List (HloOp τ sig (Elt F)) :=
  [ StableHlo.unary main_v172 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v175 main_v176 (subf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x3727C5AC#32),
    StableHlo.unary main_cst_26 main_v177 (broadcastInDim S128 ![] bcast_S_S128 : (⟨S_, .f32⟩ : BufTy).Contents (Elt F) → (⟨S128, .f32⟩ : BufTy).Contents (Elt F)),
    StableHlo.binary main_v173 main_v177 main_v178 (addf : (⟨S128, .f32⟩ : BufTy).Contents (Elt F) → (⟨S128, .f32⟩ : BufTy).Contents (Elt F) → (⟨S128, .f32⟩ : BufTy).Contents (Elt F)),
    StableHlo.unary main_v178 main_v179 (Host.sqrt : (⟨S128, .f32⟩ : BufTy).Contents (Elt F) → (⟨S128, .f32⟩ : BufTy).Contents (Elt F)),
    StableHlo.unary main_v179 main_v180 (broadcastInDim S1x128 ![1] bcast_S128_S1x128_1 : (⟨S128, .f32⟩ : BufTy).Contents (Elt F) → (⟨S1x128, .f32⟩ : BufTy).Contents (Elt F)),
    StableHlo.unary main_v180 main_v181 (broadcastInDim S100000x128 ![0, 1] bcast_S1x128_S100000x128_0_1 : (⟨S1x128, .f32⟩ : BufTy).Contents (Elt F) → (⟨S100000x128, .f32⟩ : BufTy).Contents (Elt F)),
    StableHlo.binary main_v176 main_v181 main_v182 (Host.divf : (⟨S100000x128, .f32⟩ : BufTy).Contents (Elt F) → (⟨S100000x128, .f32⟩ : BufTy).Contents (Elt F) → (⟨S100000x128, .f32⟩ : BufTy).Contents (Elt F)),
    StableHlo.unary main_v167 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S100000x128 ![0, 1] bcast_S1x128_S100000x128_0_1 : (⟨S1x128, .f32⟩ : BufTy).Contents (Elt F) → (⟨S100000x128, .f32⟩ : BufTy).Contents (Elt F)),
    StableHlo.binary main_v182 main_v184 main_v185 (mulf : (⟨S100000x128, .f32⟩ : BufTy).Contents (Elt F) → (⟨S100000x128, .f32⟩ : BufTy).Contents (Elt F) → (⟨S100000x128, .f32⟩ : BufTy).Contents (Elt F)),
    StableHlo.unary main_v169 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S100000x128 ![0, 1] bcast_S1x128_S100000x128_0_1 : (⟨S1x128, .f32⟩ : BufTy).Contents (Elt F) → (⟨S100000x128, .f32⟩ : BufTy).Contents (Elt F)),
    StableHlo.binary main_v185 main_v187 main_v188 (addf : (⟨S100000x128, .f32⟩ : BufTy).Contents (Elt F) → (⟨S100000x128, .f32⟩ : BufTy).Contents (Elt F) → (⟨S100000x128, .f32⟩ : BufTy).Contents (Elt F)) ]

/-- Stage 12 of @main: 3 operations, in order. -/
abbrev seg12 : List (HloOp τ sig (Elt F)) :=
  [ StableHlo.TRef.nullary main_call5.cst (constant S_ .f32 0x00000000#32),
    StableHlo.TRef.unary main_call5.cst main_call5.v0 (broadcastInDim S200000x128 ![] bcast_S_S200000x128),
    StableHlo.TRef.binary (.of main_v165) main_call5.v0 main_call5.v1 maximumf ]

/-- Stage 13 of @main: 3 operations, in order. -/
abbrev seg13 : List (HloOp τ sig (Elt F)) :=
  [ StableHlo.TRef.nullary main_call6.cst (constant S_ .f32 0x00000000#32),
    StableHlo.TRef.unary main_call6.cst main_call6.v0 (broadcastInDim S100000x128 ![] bcast_S_S100000x128),
    StableHlo.TRef.binary (.of main_v188) main_call6.v0 main_call6.v1 maximumf ]

/-- Stage 14 of @main: 37 operations, in order. -/
abbrev seg14 : List (HloOp τ sig (Elt F)) :=
  [ StableHlo.unary main_arg12 main_v191 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v191 main_v192 rfl shapeCasts_S1x128x128_S128x128,
    StableHlo.unary main_arg13 main_v193 ((extractStridedSlice S1x128 ![0, 0] · slices_S3x128_S1x128_0_0) : (⟨S3x128, .f32⟩ : BufTy).Contents (Elt F) → (⟨S1x128, .f32⟩ : BufTy).Contents (Elt F)),
    StableHlo.reshape main_v193 main_v194 rfl shapeCasts_S1x128_S128,
    StableHlo.unary main_arg14 main_v195 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v195 main_v196 rfl shapeCasts_S1x128x128_S128x128,
    StableHlo.unary main_arg2 main_v197 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v197 main_v198 rfl shapeCasts_S1x500000_S500000,
    StableHlo.nullary main_c_27 (constantI S_ 32 0#32),
    StableHlo.unary main_c_27 main_v199 (broadcastInDim S500000 ![] bcast_S_S500000 : (⟨S_, .i32⟩ : BufTy).Contents (Elt F) → (⟨S500000, .i32⟩ : BufTy).Contents (Elt F)),
    StableHlo.binary main_v198 main_v199 main_v200 (cmpi .slt : (⟨S500000, .i32⟩ : BufTy).Contents (Elt F) → (⟨S500000, .i32⟩ : BufTy).Contents (Elt F) → (⟨S500000, .i1⟩ : BufTy).Contents (Elt F)),
    StableHlo.nullary main_c_28 (constantI S_ 32 200000#32),
    StableHlo.unary main_c_28 main_v201 (broadcastInDim S500000 ![] bcast_S_S500000 : (⟨S_, .i32⟩ : BufTy).Contents (Elt F) → (⟨S500000, .i32⟩ : BufTy).Contents (Elt F)),
    StableHlo.binary main_v198 main_v201 main_v202 (addi : (⟨S500000, .i32⟩ : BufTy).Contents (Elt F) → (⟨S500000, .i32⟩ : BufTy).Contents (Elt F) → (⟨S500000, .i32⟩ : BufTy).Contents (Elt F)),
    StableHlo.ternary main_v200 main_v202 main_v198 main_v203 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v203 main_v204 (broadcastInDim S500000x1 ![0] bcast_S500000_S500000x1_0 : (⟨S500000, .i32⟩ : BufTy).Contents (Elt F) → (⟨S500000x1, .i32⟩ : BufTy).Contents (Elt F)),
    StableHlo.binary main_v189 main_v204 main_v205 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg2 main_v206 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v206 main_v207 rfl shapeCasts_S1x500000_S500000,
    StableHlo.nullary main_cst_29 (constant S_ .f32 0x00000000#32),
    StableHlo.unary main_cst_29 main_v208 (broadcastInDim S100000x128 ![] bcast_S_S100000x128 : (⟨S_, .f32⟩ : BufTy).Contents (Elt F) → (⟨S100000x128, .f32⟩ : BufTy).Contents (Elt F)),
    StableHlo.unary main_v207 main_v209 (broadcastInDim S500000x1 ![0] bcast_S500000_S500000x1_0 : (⟨S500000, .i32⟩ : BufTy).Contents (Elt F) → (⟨S500000x1, .i32⟩ : BufTy).Contents (Elt F)),
    StableHlo.ternary main_v208 main_v209 main_v205 main_v210 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_30 (constant S_ .f32 0x3F800000#32),
    StableHlo.unary main_cst_30 main_v211 (broadcastInDim S500000 ![] bcast_S_S500000 : (⟨S_, .f32⟩ : BufTy).Contents (Elt F) → (⟨S500000, .f32⟩ : BufTy).Contents (Elt F)),
    StableHlo.unary main_arg2 main_v212 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v212 main_v213 rfl shapeCasts_S1x500000_S500000,
    StableHlo.nullary main_cst_31 (constant S_ .f32 0x00000000#32),
    StableHlo.unary main_cst_31 main_v214 (broadcastInDim S100000 ![] bcast_S_S100000 : (⟨S_, .f32⟩ : BufTy).Contents (Elt F) → (⟨S100000, .f32⟩ : BufTy).Contents (Elt F)),
    StableHlo.unary main_v213 main_v215 (broadcastInDim S500000x1 ![0] bcast_S500000_S500000x1_0 : (⟨S500000, .i32⟩ : BufTy).Contents (Elt F) → (⟨S500000x1, .i32⟩ : BufTy).Contents (Elt F)),
    StableHlo.ternary main_v214 main_v215 main_v211 main_v216 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_32 (constant S_ .f32 0x3F800000#32),
    StableHlo.unary main_cst_32 main_v217 (broadcastInDim S100000 ![] bcast_S_S100000 : (⟨S_, .f32⟩ : BufTy).Contents (Elt F) → (⟨S100000, .f32⟩ : BufTy).Contents (Elt F)),
    StableHlo.binary main_v216 main_v217 main_v218 (maximumf : (⟨S100000, .f32⟩ : BufTy).Contents (Elt F) → (⟨S100000, .f32⟩ : BufTy).Contents (Elt F) → (⟨S100000, .f32⟩ : BufTy).Contents (Elt F)),
    StableHlo.unary main_v218 main_v219 (broadcastInDim S100000x1 ![0] bcast_S100000_S100000x1_0 : (⟨S100000, .f32⟩ : BufTy).Contents (Elt F) → (⟨S100000x1, .f32⟩ : BufTy).Contents (Elt F)),
    StableHlo.unary main_v219 main_v220 (broadcastInDim S100000x128 ![0, 1] bcast_S100000x1_S100000x128_0_1 : (⟨S100000x1, .f32⟩ : BufTy).Contents (Elt F) → (⟨S100000x128, .f32⟩ : BufTy).Contents (Elt F)),
    StableHlo.binary main_v210 main_v220 main_v221 (Host.divf : (⟨S100000x128, .f32⟩ : BufTy).Contents (Elt F) → (⟨S100000x128, .f32⟩ : BufTy).Contents (Elt F) → (⟨S100000x128, .f32⟩ : BufTy).Contents (Elt F)) ]

/-- Stage 15 of @main: 18 operations, in order. -/
abbrev seg15 : List (HloOp τ sig (Elt F)) :=
  [ StableHlo.unary main_v192 main_v222 ((transpose S128x128 [1, 0] · transposes_S128x128_S128x128_1_0) : (⟨S128x128, .f32⟩ : BufTy).Contents (Elt F) → (⟨S128x128, .f32⟩ : BufTy).Contents (Elt F)),
    StableHlo.binary main_v221 main_v222 main_v223 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v194 main_v224 (broadcastInDim S1x128 ![1] bcast_S128_S1x128_1 : (⟨S128, .f32⟩ : BufTy).Contents (Elt F) → (⟨S1x128, .f32⟩ : BufTy).Contents (Elt F)),
    StableHlo.unary main_v224 main_v225 (broadcastInDim S100000x128 ![0, 1] bcast_S1x128_S100000x128_0_1 : (⟨S1x128, .f32⟩ : BufTy).Contents (Elt F) → (⟨S100000x128, .f32⟩ : BufTy).Contents (Elt F)),
    StableHlo.binary main_v223 main_v225 main_v226 (addf : (⟨S100000x128, .f32⟩ : BufTy).Contents (Elt F) → (⟨S100000x128, .f32⟩ : BufTy).Contents (Elt F) → (⟨S100000x128, .f32⟩ : BufTy).Contents (Elt F)),
    StableHlo.unary main_v196 main_v227 ((transpose S128x128 [1, 0] · transposes_S128x128_S128x128_1_0) : (⟨S128x128, .f32⟩ : BufTy).Contents (Elt F) → (⟨S128x128, .f32⟩ : BufTy).Contents (Elt F)),
    StableHlo.binary main_v190 main_v227 main_v228 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v226 main_v228 main_v229 (addf : (⟨S100000x128, .f32⟩ : BufTy).Contents (Elt F) → (⟨S100000x128, .f32⟩ : BufTy).Contents (Elt F) → (⟨S100000x128, .f32⟩ : BufTy).Contents (Elt F)),
    StableHlo.TRef.binary (.of main_v229) (.of main_v229) main_call7.v0 mulf,
    StableHlo.TRef.nullary main_call7.cst (constant S_ .f32 0x00000000#32),
    StableHlo.TRef.binary main_call7.v0 main_call7.cst main_call7.v1 (fun x v => Host.reduceAdd x v reducesTo_S100000x128_S100000_d1 h_S_),
    StableHlo.TRef.unary main_call7.v1 main_call7.v2 (broadcastInDim S100000x1 ![0] bcast_S100000_S100000x1_0),
    StableHlo.TRef.unary main_call7.v2 main_call7.v3 Host.sqrt,
    StableHlo.nullary main_cst_33 (constant S_ .f32 0x2B8CBCCC#32),
    StableHlo.unary main_cst_33 main_v231 (broadcastInDim S100000x1 ![] bcast_S_S100000x1 : (⟨S_, .f32⟩ : BufTy).Contents (Elt F) → (⟨S100000x1, .f32⟩ : BufTy).Contents (Elt F)),
    StableHlo.binary main_v230 main_v231 main_v232 (maximumf : (⟨S100000x1, .f32⟩ : BufTy).Contents (Elt F) → (⟨S100000x1, .f32⟩ : BufTy).Contents (Elt F) → (⟨S100000x1, .f32⟩ : BufTy).Contents (Elt F)),
    StableHlo.unary main_v232 main_v233 (broadcastInDim S100000x128 ![0, 1] bcast_S100000x1_S100000x128_0_1 : (⟨S100000x1, .f32⟩ : BufTy).Contents (Elt F) → (⟨S100000x128, .f32⟩ : BufTy).Contents (Elt F)),
    StableHlo.binary main_v229 main_v233 main_v234 (Host.divf : (⟨S100000x128, .f32⟩ : BufTy).Contents (Elt F) → (⟨S100000x128, .f32⟩ : BufTy).Contents (Elt F) → (⟨S100000x128, .f32⟩ : BufTy).Contents (Elt F)) ]

/-- Stage 16 of @main: 37 operations, in order. -/
abbrev seg16 : List (HloOp τ sig (Elt F)) :=
  [ StableHlo.unary main_arg12 main_v235 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v235 main_v236 rfl shapeCasts_S1x128x128_S128x128,
    StableHlo.unary main_arg13 main_v237 ((extractStridedSlice S1x128 ![1, 0] · slices_S3x128_S1x128_1_0) : (⟨S3x128, .f32⟩ : BufTy).Contents (Elt F) → (⟨S1x128, .f32⟩ : BufTy).Contents (Elt F)),
    StableHlo.reshape main_v237 main_v238 rfl shapeCasts_S1x128_S128,
    StableHlo.unary main_arg14 main_v239 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v239 main_v240 rfl shapeCasts_S1x128x128_S128x128,
    StableHlo.unary main_arg3 main_v241 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v241 main_v242 rfl shapeCasts_S1x500000_S500000,
    StableHlo.nullary main_c_34 (constantI S_ 32 0#32),
    StableHlo.unary main_c_34 main_v243 (broadcastInDim S500000 ![] bcast_S_S500000 : (⟨S_, .i32⟩ : BufTy).Contents (Elt F) → (⟨S500000, .i32⟩ : BufTy).Contents (Elt F)),
    StableHlo.binary main_v242 main_v243 main_v244 (cmpi .slt : (⟨S500000, .i32⟩ : BufTy).Contents (Elt F) → (⟨S500000, .i32⟩ : BufTy).Contents (Elt F) → (⟨S500000, .i1⟩ : BufTy).Contents (Elt F)),
    StableHlo.nullary main_c_35 (constantI S_ 32 100000#32),
    StableHlo.unary main_c_35 main_v245 (broadcastInDim S500000 ![] bcast_S_S500000 : (⟨S_, .i32⟩ : BufTy).Contents (Elt F) → (⟨S500000, .i32⟩ : BufTy).Contents (Elt F)),
    StableHlo.binary main_v242 main_v245 main_v246 (addi : (⟨S500000, .i32⟩ : BufTy).Contents (Elt F) → (⟨S500000, .i32⟩ : BufTy).Contents (Elt F) → (⟨S500000, .i32⟩ : BufTy).Contents (Elt F)),
    StableHlo.ternary main_v244 main_v246 main_v242 main_v247 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v247 main_v248 (broadcastInDim S500000x1 ![0] bcast_S500000_S500000x1_0 : (⟨S500000, .i32⟩ : BufTy).Contents (Elt F) → (⟨S500000x1, .i32⟩ : BufTy).Contents (Elt F)),
    StableHlo.binary main_v190 main_v248 main_v249 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_arg3 main_v250 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v250 main_v251 rfl shapeCasts_S1x500000_S500000,
    StableHlo.nullary main_cst_36 (constant S_ .f32 0x00000000#32),
    StableHlo.unary main_cst_36 main_v252 (broadcastInDim S200000x128 ![] bcast_S_S200000x128 : (⟨S_, .f32⟩ : BufTy).Contents (Elt F) → (⟨S200000x128, .f32⟩ : BufTy).Contents (Elt F)),
    StableHlo.unary main_v251 main_v253 (broadcastInDim S500000x1 ![0] bcast_S500000_S500000x1_0 : (⟨S500000, .i32⟩ : BufTy).Contents (Elt F) → (⟨S500000x1, .i32⟩ : BufTy).Contents (Elt F)),
    StableHlo.ternary main_v252 main_v253 main_v249 main_v254 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_37 (constant S_ .f32 0x3F800000#32),
    StableHlo.unary main_cst_37 main_v255 (broadcastInDim S500000 ![] bcast_S_S500000 : (⟨S_, .f32⟩ : BufTy).Contents (Elt F) → (⟨S500000, .f32⟩ : BufTy).Contents (Elt F)),
    StableHlo.unary main_arg3 main_v256 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v256 main_v257 rfl shapeCasts_S1x500000_S500000,
    StableHlo.nullary main_cst_38 (constant S_ .f32 0x00000000#32),
    StableHlo.unary main_cst_38 main_v258 (broadcastInDim S200000 ![] bcast_S_S200000 : (⟨S_, .f32⟩ : BufTy).Contents (Elt F) → (⟨S200000, .f32⟩ : BufTy).Contents (Elt F)),
    StableHlo.unary main_v257 main_v259 (broadcastInDim S500000x1 ![0] bcast_S500000_S500000x1_0 : (⟨S500000, .i32⟩ : BufTy).Contents (Elt F) → (⟨S500000x1, .i32⟩ : BufTy).Contents (Elt F)),
    StableHlo.ternary main_v258 main_v259 main_v255 main_v260 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_39 (constant S_ .f32 0x3F800000#32),
    StableHlo.unary main_cst_39 main_v261 (broadcastInDim S200000 ![] bcast_S_S200000 : (⟨S_, .f32⟩ : BufTy).Contents (Elt F) → (⟨S200000, .f32⟩ : BufTy).Contents (Elt F)),
    StableHlo.binary main_v260 main_v261 main_v262 (maximumf : (⟨S200000, .f32⟩ : BufTy).Contents (Elt F) → (⟨S200000, .f32⟩ : BufTy).Contents (Elt F) → (⟨S200000, .f32⟩ : BufTy).Contents (Elt F)),
    StableHlo.unary main_v262 main_v263 (broadcastInDim S200000x1 ![0] bcast_S200000_S200000x1_0 : (⟨S200000, .f32⟩ : BufTy).Contents (Elt F) → (⟨S200000x1, .f32⟩ : BufTy).Contents (Elt F)),
    StableHlo.unary main_v263 main_v264 (broadcastInDim S200000x128 ![0, 1] bcast_S200000x1_S200000x128_0_1 : (⟨S200000x1, .f32⟩ : BufTy).Contents (Elt F) → (⟨S200000x128, .f32⟩ : BufTy).Contents (Elt F)),
    StableHlo.binary main_v254 main_v264 main_v265 (Host.divf : (⟨S200000x128, .f32⟩ : BufTy).Contents (Elt F) → (⟨S200000x128, .f32⟩ : BufTy).Contents (Elt F) → (⟨S200000x128, .f32⟩ : BufTy).Contents (Elt F)) ]

/-- Stage 17 of @main: 18 operations, in order. -/
abbrev seg17 : List (HloOp τ sig (Elt F)) :=
  [ StableHlo.unary main_v236 main_v266 ((transpose S128x128 [1, 0] · transposes_S128x128_S128x128_1_0) : (⟨S128x128, .f32⟩ : BufTy).Contents (Elt F) → (⟨S128x128, .f32⟩ : BufTy).Contents (Elt F)),
    StableHlo.binary main_v265 main_v266 main_v267 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v238 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S200000x128 ![0, 1] bcast_S1x128_S200000x128_0_1 : (⟨S1x128, .f32⟩ : BufTy).Contents (Elt F) → (⟨S200000x128, .f32⟩ : BufTy).Contents (Elt F)),
    StableHlo.binary main_v267 main_v269 main_v270 (addf : (⟨S200000x128, .f32⟩ : BufTy).Contents (Elt F) → (⟨S200000x128, .f32⟩ : BufTy).Contents (Elt F) → (⟨S200000x128, .f32⟩ : BufTy).Contents (Elt F)),
    StableHlo.unary main_v240 main_v271 ((transpose S128x128 [1, 0] · transposes_S128x128_S128x128_1_0) : (⟨S128x128, .f32⟩ : BufTy).Contents (Elt F) → (⟨S128x128, .f32⟩ : BufTy).Contents (Elt F)),
    StableHlo.binary main_v189 main_v271 main_v272 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v270 main_v272 main_v273 (addf : (⟨S200000x128, .f32⟩ : BufTy).Contents (Elt F) → (⟨S200000x128, .f32⟩ : BufTy).Contents (Elt F) → (⟨S200000x128, .f32⟩ : BufTy).Contents (Elt F)),
    StableHlo.TRef.binary (.of main_v273) (.of main_v273) main_call8.v0 mulf,
    StableHlo.TRef.nullary main_call8.cst (constant S_ .f32 0x00000000#32),
    StableHlo.TRef.binary main_call8.v0 main_call8.cst main_call8.v1 (fun x v => Host.reduceAdd x v reducesTo_S200000x128_S200000_d1 h_S_),
    StableHlo.TRef.unary main_call8.v1 main_call8.v2 (broadcastInDim S200000x1 ![0] bcast_S200000_S200000x1_0),
    StableHlo.TRef.unary main_call8.v2 main_call8.v3 Host.sqrt,
    StableHlo.nullary main_cst_40 (constant S_ .f32 0x2B8CBCCC#32),
    StableHlo.unary main_cst_40 main_v275 (broadcastInDim S200000x1 ![] bcast_S_S200000x1 : (⟨S_, .f32⟩ : BufTy).Contents (Elt F) → (⟨S200000x1, .f32⟩ : BufTy).Contents (Elt F)),
    StableHlo.binary main_v274 main_v275 main_v276 (maximumf : (⟨S200000x1, .f32⟩ : BufTy).Contents (Elt F) → (⟨S200000x1, .f32⟩ : BufTy).Contents (Elt F) → (⟨S200000x1, .f32⟩ : BufTy).Contents (Elt F)),
    StableHlo.unary main_v276 main_v277 (broadcastInDim S200000x128 ![0, 1] bcast_S200000x1_S200000x128_0_1 : (⟨S200000x1, .f32⟩ : BufTy).Contents (Elt F) → (⟨S200000x128, .f32⟩ : BufTy).Contents (Elt F)),
    StableHlo.binary main_v273 main_v277 main_v278 (Host.divf : (⟨S200000x128, .f32⟩ : BufTy).Contents (Elt F) → (⟨S200000x128, .f32⟩ : BufTy).Contents (Elt F) → (⟨S200000x128, .f32⟩ : BufTy).Contents (Elt F)) ]

/-- Stage 18 of @main: 37 operations, in order. -/
abbrev seg18 : List (HloOp τ sig (Elt F)) :=
  [ StableHlo.unary main_arg12 main_v279 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v279 main_v280 rfl shapeCasts_S1x128x128_S128x128,
    StableHlo.unary main_arg13 main_v281 ((extractStridedSlice S1x128 ![2, 0] · slices_S3x128_S1x128_2_0) : (⟨S3x128, .f32⟩ : BufTy).Contents (Elt F) → (⟨S1x128, .f32⟩ : BufTy).Contents (Elt F)),
    StableHlo.reshape main_v281 main_v282 rfl shapeCasts_S1x128_S128,
    StableHlo.unary main_arg14 main_v283 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v283 main_v284 rfl shapeCasts_S1x128x128_S128x128,
    StableHlo.unary main_arg4 main_v285 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v285 main_v286 rfl shapeCasts_S1x500000_S500000,
    StableHlo.nullary main_c_41 (constantI S_ 32 0#32),
    StableHlo.unary main_c_41 main_v287 (broadcastInDim S500000 ![] bcast_S_S500000 : (⟨S_, .i32⟩ : BufTy).Contents (Elt F) → (⟨S500000, .i32⟩ : BufTy).Contents (Elt F)),
    StableHlo.binary main_v286 main_v287 main_v288 (cmpi .slt : (⟨S500000, .i32⟩ : BufTy).Contents (Elt F) → (⟨S500000, .i32⟩ : BufTy).Contents (Elt F) → (⟨S500000, .i1⟩ : BufTy).Contents (Elt F)),
    StableHlo.nullary main_c_42 (constantI S_ 32 200000#32),
    StableHlo.unary main_c_42 main_v289 (broadcastInDim S500000 ![] bcast_S_S500000 : (⟨S_, .i32⟩ : BufTy).Contents (Elt F) → (⟨S500000, .i32⟩ : BufTy).Contents (Elt F)),
    StableHlo.binary main_v286 main_v289 main_v290 (addi : (⟨S500000, .i32⟩ : BufTy).Contents (Elt F) → (⟨S500000, .i32⟩ : BufTy).Contents (Elt F) → (⟨S500000, .i32⟩ : BufTy).Contents (Elt F)),
    StableHlo.ternary main_v288 main_v290 main_v286 main_v291 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v291 main_v292 (broadcastInDim S500000x1 ![0] bcast_S500000_S500000x1_0 : (⟨S500000, .i32⟩ : BufTy).Contents (Elt F) → (⟨S500000x1, .i32⟩ : BufTy).Contents (Elt F)),
    StableHlo.binary main_v189 main_v292 main_v293 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg4 main_v294 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v294 main_v295 rfl shapeCasts_S1x500000_S500000,
    StableHlo.nullary main_cst_43 (constant S_ .f32 0x00000000#32),
    StableHlo.unary main_cst_43 main_v296 (broadcastInDim S200000x128 ![] bcast_S_S200000x128 : (⟨S_, .f32⟩ : BufTy).Contents (Elt F) → (⟨S200000x128, .f32⟩ : BufTy).Contents (Elt F)),
    StableHlo.unary main_v295 main_v297 (broadcastInDim S500000x1 ![0] bcast_S500000_S500000x1_0 : (⟨S500000, .i32⟩ : BufTy).Contents (Elt F) → (⟨S500000x1, .i32⟩ : BufTy).Contents (Elt F)),
    StableHlo.ternary main_v296 main_v297 main_v293 main_v298 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_44 (constant S_ .f32 0x3F800000#32),
    StableHlo.unary main_cst_44 main_v299 (broadcastInDim S500000 ![] bcast_S_S500000 : (⟨S_, .f32⟩ : BufTy).Contents (Elt F) → (⟨S500000, .f32⟩ : BufTy).Contents (Elt F)),
    StableHlo.unary main_arg4 main_v300 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v300 main_v301 rfl shapeCasts_S1x500000_S500000,
    StableHlo.nullary main_cst_45 (constant S_ .f32 0x00000000#32),
    StableHlo.unary main_cst_45 main_v302 (broadcastInDim S200000 ![] bcast_S_S200000 : (⟨S_, .f32⟩ : BufTy).Contents (Elt F) → (⟨S200000, .f32⟩ : BufTy).Contents (Elt F)),
    StableHlo.unary main_v301 main_v303 (broadcastInDim S500000x1 ![0] bcast_S500000_S500000x1_0 : (⟨S500000, .i32⟩ : BufTy).Contents (Elt F) → (⟨S500000x1, .i32⟩ : BufTy).Contents (Elt F)),
    StableHlo.ternary main_v302 main_v303 main_v299 main_v304 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_46 (constant S_ .f32 0x3F800000#32),
    StableHlo.unary main_cst_46 main_v305 (broadcastInDim S200000 ![] bcast_S_S200000 : (⟨S_, .f32⟩ : BufTy).Contents (Elt F) → (⟨S200000, .f32⟩ : BufTy).Contents (Elt F)),
    StableHlo.binary main_v304 main_v305 main_v306 (maximumf : (⟨S200000, .f32⟩ : BufTy).Contents (Elt F) → (⟨S200000, .f32⟩ : BufTy).Contents (Elt F) → (⟨S200000, .f32⟩ : BufTy).Contents (Elt F)),
    StableHlo.unary main_v306 main_v307 (broadcastInDim S200000x1 ![0] bcast_S200000_S200000x1_0 : (⟨S200000, .f32⟩ : BufTy).Contents (Elt F) → (⟨S200000x1, .f32⟩ : BufTy).Contents (Elt F)),
    StableHlo.unary main_v307 main_v308 (broadcastInDim S200000x128 ![0, 1] bcast_S200000x1_S200000x128_0_1 : (⟨S200000x1, .f32⟩ : BufTy).Contents (Elt F) → (⟨S200000x128, .f32⟩ : BufTy).Contents (Elt F)),
    StableHlo.binary main_v298 main_v308 main_v309 (Host.divf : (⟨S200000x128, .f32⟩ : BufTy).Contents (Elt F) → (⟨S200000x128, .f32⟩ : BufTy).Contents (Elt F) → (⟨S200000x128, .f32⟩ : BufTy).Contents (Elt F)) ]

/-- Stage 19 of @main: 18 operations, in order. -/
abbrev seg19 : List (HloOp τ sig (Elt F)) :=
  [ StableHlo.unary main_v280 main_v310 ((transpose S128x128 [1, 0] · transposes_S128x128_S128x128_1_0) : (⟨S128x128, .f32⟩ : BufTy).Contents (Elt F) → (⟨S128x128, .f32⟩ : BufTy).Contents (Elt F)),
    StableHlo.binary main_v309 main_v310 main_v311 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_v282 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S200000x128 ![0, 1] bcast_S1x128_S200000x128_0_1 : (⟨S1x128, .f32⟩ : BufTy).Contents (Elt F) → (⟨S200000x128, .f32⟩ : BufTy).Contents (Elt F)),
    StableHlo.binary main_v311 main_v313 main_v314 (addf : (⟨S200000x128, .f32⟩ : BufTy).Contents (Elt F) → (⟨S200000x128, .f32⟩ : BufTy).Contents (Elt F) → (⟨S200000x128, .f32⟩ : BufTy).Contents (Elt F)),
    StableHlo.unary main_v284 main_v315 ((transpose S128x128 [1, 0] · transposes_S128x128_S128x128_1_0) : (⟨S128x128, .f32⟩ : BufTy).Contents (Elt F) → (⟨S128x128, .f32⟩ : BufTy).Contents (Elt F)),
    StableHlo.binary main_v189 main_v315 main_v316 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.binary main_v314 main_v316 main_v317 (addf : (⟨S200000x128, .f32⟩ : BufTy).Contents (Elt F) → (⟨S200000x128, .f32⟩ : BufTy).Contents (Elt F) → (⟨S200000x128, .f32⟩ : BufTy).Contents (Elt F)),
    StableHlo.TRef.binary (.of main_v317) (.of main_v317) main_call9.v0 mulf,
    StableHlo.TRef.nullary main_call9.cst (constant S_ .f32 0x00000000#32),
    StableHlo.TRef.binary main_call9.v0 main_call9.cst main_call9.v1 (fun x v => Host.reduceAdd x v reducesTo_S200000x128_S200000_d1 h_S_),
    StableHlo.TRef.unary main_call9.v1 main_call9.v2 (broadcastInDim S200000x1 ![0] bcast_S200000_S200000x1_0),
    StableHlo.TRef.unary main_call9.v2 main_call9.v3 Host.sqrt,
    StableHlo.nullary main_cst_47 (constant S_ .f32 0x2B8CBCCC#32),
    StableHlo.unary main_cst_47 main_v319 (broadcastInDim S200000x1 ![] bcast_S_S200000x1 : (⟨S_, .f32⟩ : BufTy).Contents (Elt F) → (⟨S200000x1, .f32⟩ : BufTy).Contents (Elt F)),
    StableHlo.binary main_v318 main_v319 main_v320 (maximumf : (⟨S200000x1, .f32⟩ : BufTy).Contents (Elt F) → (⟨S200000x1, .f32⟩ : BufTy).Contents (Elt F) → (⟨S200000x1, .f32⟩ : BufTy).Contents (Elt F)),
    StableHlo.unary main_v320 main_v321 (broadcastInDim S200000x128 ![0, 1] bcast_S200000x1_S200000x128_0_1 : (⟨S200000x1, .f32⟩ : BufTy).Contents (Elt F) → (⟨S200000x128, .f32⟩ : BufTy).Contents (Elt F)),
    StableHlo.binary main_v317 main_v321 main_v322 (Host.divf : (⟨S200000x128, .f32⟩ : BufTy).Contents (Elt F) → (⟨S200000x128, .f32⟩ : BufTy).Contents (Elt F) → (⟨S200000x128, .f32⟩ : BufTy).Contents (Elt F)) ]

/-- Stage 20 of @main: 33 operations, in order. -/
abbrev seg20 : List (HloOp τ sig (Elt F)) :=
  [ StableHlo.binary main_v278 main_v322 main_v323 (addf : (⟨S200000x128, .f32⟩ : BufTy).Contents (Elt F) → (⟨S200000x128, .f32⟩ : BufTy).Contents (Elt F) → (⟨S200000x128, .f32⟩ : BufTy).Contents (Elt F)),
    StableHlo.unary main_arg20 main_v324 ((extractStridedSlice S1x128 ![0, 0] · slices_S2x128_S1x128_0_0) : (⟨S2x128, .f32⟩ : BufTy).Contents (Elt F) → (⟨S1x128, .f32⟩ : BufTy).Contents (Elt F)),
    StableHlo.reshape main_v324 main_v325 rfl shapeCasts_S1x128_S128,
    StableHlo.unary main_arg21 main_v326 ((extractStridedSlice S1x128 ![0, 0] · slices_S2x128_S1x128_0_0) : (⟨S2x128, .f32⟩ : BufTy).Contents (Elt F) → (⟨S1x128, .f32⟩ : BufTy).Contents (Elt F)),
    StableHlo.reshape main_v326 main_v327 rfl shapeCasts_S1x128_S128,
    StableHlo.nullary main_cst_48 (constant S_ .f32 0x00000000#32),
    StableHlo.binary main_v323 main_cst_48 main_v328 ((fun x v => Host.reduceAdd x v reducesTo_S200000x128_S128_d0 h_S_) : (⟨S200000x128, .f32⟩ : BufTy).Contents (Elt F) → (⟨S_, .f32⟩ : BufTy).Contents (Elt F) → (⟨S128, .f32⟩ : BufTy).Contents (Elt F)),
    StableHlo.nullary main_cst_49 (constant S_ .f32 0x48435000#32),
    StableHlo.unary main_cst_49 main_v329 (broadcastInDim S128 ![] bcast_S_S128 : (⟨S_, .f32⟩ : BufTy).Contents (Elt F) → (⟨S128, .f32⟩ : BufTy).Contents (Elt F)),
    StableHlo.binary main_v328 main_v329 main_v330 (Host.divf : (⟨S128, .f32⟩ : BufTy).Contents (Elt F) → (⟨S128, .f32⟩ : BufTy).Contents (Elt F) → (⟨S128, .f32⟩ : BufTy).Contents (Elt F)),
    StableHlo.nullary main_c_50 (constantI S_ 32 0#32),
    StableHlo.TRef.nullary main_call10.cst (constant S_ .f32 0x00000000#32),
    StableHlo.TRef.binary (.of main_v323) main_call10.cst main_call10.v0 (fun x v => Host.reduceAdd x v reducesTo_S200000x128_S128_d0 h_S_),
    StableHlo.TRef.unary main_call10.v0 main_call10.v1 (broadcastInDim S1x128 ![1] bcast_S128_S1x128_1),
    StableHlo.TRef.nullary main_call10.cst_0 (constant S_ .f32 0x48435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S200000x128 ![0, 1] bcast_S1x128_S200000x128_0_1),
    StableHlo.TRef.binary (.of main_v323) main_call10.v4 main_call10.v5 subf,
    StableHlo.TRef.binary main_call10.v5 main_call10.v5 main_call10.v6 mulf,
    StableHlo.TRef.unary (.of main_c_50) main_call10.v7 (sitofp .f32),
    StableHlo.TRef.nullary main_call10.cst_1 (constant S_ .f32 0x48435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S200000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b) ]

/-- Stage 21 of @main: 16 operations, in order. -/
abbrev seg21 : List (HloOp τ sig (Elt F)) :=
  [ StableHlo.unary main_v330 main_v332 (broadcastInDim S1x128 ![1] bcast_S128_S1x128_1 : (⟨S128, .f32⟩ : BufTy).Contents (Elt F) → (⟨S1x128, .f32⟩ : BufTy).Contents (Elt F)),
    StableHlo.unary main_v332 main_v333 (broadcastInDim S200000x128 ![0, 1] bcast_S1x128_S200000x128_0_1 : (⟨S1x128, .f32⟩ : BufTy).Contents (Elt F) → (⟨S200000x128, .f32⟩ : BufTy).Contents (Elt F)),
    StableHlo.binary main_v323 main_v333 main_v334 (subf : (⟨S200000x128, .f32⟩ : BufTy).Contents (Elt F) → (⟨S200000x128, .f32⟩ : BufTy).Contents (Elt F) → (⟨S200000x128, .f32⟩ : BufTy).Contents (Elt F)),
    StableHlo.nullary main_cst_51 (constant S_ .f32 0x3727C5AC#32),
    StableHlo.unary main_cst_51 main_v335 (broadcastInDim S128 ![] bcast_S_S128 : (⟨S_, .f32⟩ : BufTy).Contents (Elt F) → (⟨S128, .f32⟩ : BufTy).Contents (Elt F)),
    StableHlo.binary main_v331 main_v335 main_v336 (addf : (⟨S128, .f32⟩ : BufTy).Contents (Elt F) → (⟨S128, .f32⟩ : BufTy).Contents (Elt F) → (⟨S128, .f32⟩ : BufTy).Contents (Elt F)),
    StableHlo.unary main_v336 main_v337 (Host.sqrt : (⟨S128, .f32⟩ : BufTy).Contents (Elt F) → (⟨S128, .f32⟩ : BufTy).Contents (Elt F)),
    StableHlo.unary main_v337 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S200000x128 ![0, 1] bcast_S1x128_S200000x128_0_1 : (⟨S1x128, .f32⟩ : BufTy).Contents (Elt F) → (⟨S200000x128, .f32⟩ : BufTy).Contents (Elt F)),
    StableHlo.binary main_v334 main_v339 main_v340 (Host.divf : (⟨S200000x128, .f32⟩ : BufTy).Contents (Elt F) → (⟨S200000x128, .f32⟩ : BufTy).Contents (Elt F) → (⟨S200000x128, .f32⟩ : BufTy).Contents (Elt F)),
    StableHlo.unary main_v325 main_v341 (broadcastInDim S1x128 ![1] bcast_S128_S1x128_1 : (⟨S128, .f32⟩ : BufTy).Contents (Elt F) → (⟨S1x128, .f32⟩ : BufTy).Contents (Elt F)),
    StableHlo.unary main_v341 main_v342 (broadcastInDim S200000x128 ![0, 1] bcast_S1x128_S200000x128_0_1 : (⟨S1x128, .f32⟩ : BufTy).Contents (Elt F) → (⟨S200000x128, .f32⟩ : BufTy).Contents (Elt F)),
    StableHlo.binary main_v340 main_v342 main_v343 (mulf : (⟨S200000x128, .f32⟩ : BufTy).Contents (Elt F) → (⟨S200000x128, .f32⟩ : BufTy).Contents (Elt F) → (⟨S200000x128, .f32⟩ : BufTy).Contents (Elt F)),
    StableHlo.unary main_v327 main_v344 (broadcastInDim S1x128 ![1] bcast_S128_S1x128_1 : (⟨S128, .f32⟩ : BufTy).Contents (Elt F) → (⟨S1x128, .f32⟩ : BufTy).Contents (Elt F)),
    StableHlo.unary main_v344 main_v345 (broadcastInDim S200000x128 ![0, 1] bcast_S1x128_S200000x128_0_1 : (⟨S1x128, .f32⟩ : BufTy).Contents (Elt F) → (⟨S200000x128, .f32⟩ : BufTy).Contents (Elt F)),
    StableHlo.binary main_v343 main_v345 main_v346 (addf : (⟨S200000x128, .f32⟩ : BufTy).Contents (Elt F) → (⟨S200000x128, .f32⟩ : BufTy).Contents (Elt F) → (⟨S200000x128, .f32⟩ : BufTy).Contents (Elt F)) ]

/-- Stage 22 of @main: 32 operations, in order. -/
abbrev seg22 : List (HloOp τ sig (Elt F)) :=
  [ StableHlo.unary main_arg20 main_v347 ((extractStridedSlice S1x128 ![1, 0] · slices_S2x128_S1x128_1_0) : (⟨S2x128, .f32⟩ : BufTy).Contents (Elt F) → (⟨S1x128, .f32⟩ : BufTy).Contents (Elt F)),
    StableHlo.reshape main_v347 main_v348 rfl shapeCasts_S1x128_S128,
    StableHlo.unary main_arg21 main_v349 ((extractStridedSlice S1x128 ![1, 0] · slices_S2x128_S1x128_1_0) : (⟨S2x128, .f32⟩ : BufTy).Contents (Elt F) → (⟨S1x128, .f32⟩ : BufTy).Contents (Elt F)),
    StableHlo.reshape main_v349 main_v350 rfl shapeCasts_S1x128_S128,
    StableHlo.nullary main_cst_52 (constant S_ .f32 0x00000000#32),
    StableHlo.binary main_v234 main_cst_52 main_v351 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_53 (constant S_ .f32 0x47C35000#32),
    StableHlo.unary main_cst_53 main_v352 (broadcastInDim S128 ![] bcast_S_S128 : (⟨S_, .f32⟩ : BufTy).Contents (Elt F) → (⟨S128, .f32⟩ : BufTy).Contents (Elt F)),
    StableHlo.binary main_v351 main_v352 main_v353 (Host.divf : (⟨S128, .f32⟩ : BufTy).Contents (Elt F) → (⟨S128, .f32⟩ : BufTy).Contents (Elt F) → (⟨S128, .f32⟩ : BufTy).Contents (Elt F)),
    StableHlo.nullary main_c_54 (constantI S_ 32 0#32),
    StableHlo.TRef.nullary main_call11.cst (constant S_ .f32 0x00000000#32),
    StableHlo.TRef.binary (.of main_v234) main_call11.cst main_call11.v0 (fun x v => Host.reduceAdd x v reducesTo_S100000x128_S128_d0 h_S_),
    StableHlo.TRef.unary main_call11.v0 main_call11.v1 (broadcastInDim S1x128 ![1] bcast_S128_S1x128_1),
    StableHlo.TRef.nullary main_call11.cst_0 (constant S_ .f32 0x47C35000#32),
    StableHlo.TRef.unary main_call11.cst_0 main_call11.v2 (broadcastInDim S1x128 ![] bcast_S_S1x128),
    StableHlo.TRef.binary main_call11.v1 main_call11.v2 main_call11.v3 Host.divf,
    StableHlo.TRef.unary main_call11.v3 main_call11.v4 (broadcastInDim S100000x128 ![0, 1] bcast_S1x128_S100000x128_0_1),
    StableHlo.TRef.binary (.of main_v234) main_call11.v4 main_call11.v5 subf,
    StableHlo.TRef.binary main_call11.v5 main_call11.v5 main_call11.v6 mulf,
    StableHlo.TRef.unary (.of main_c_54) main_call11.v7 (sitofp .f32),
    StableHlo.TRef.nullary main_call11.cst_1 (constant S_ .f32 0x47C35000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S100000x128_S128_d0 h_S_),
    StableHlo.TRef.unary main_call11.v8 main_call11.v10 (broadcastInDim S128 ![] bcast_S_S128),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S128 ![] bcast_S_S128),
    StableHlo.TRef.ternary main_call11.v12 main_call11.v11 main_call11.call0.v1 main_call11.call0.v2 (fun p a b => select (broadcastInDim S128 ![] bcast_S_S128 p) a b) ]

/-- Stage 23 of @main: 16 operations, in order. -/
abbrev seg23 : List (HloOp τ sig (Elt F)) :=
  [ StableHlo.unary main_v353 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S100000x128 ![0, 1] bcast_S1x128_S100000x128_0_1 : (⟨S1x128, .f32⟩ : BufTy).Contents (Elt F) → (⟨S100000x128, .f32⟩ : BufTy).Contents (Elt F)),
    StableHlo.binary main_v234 main_v356 main_v357 (subf : (⟨S100000x128, .f32⟩ : BufTy).Contents (Elt F) → (⟨S100000x128, .f32⟩ : BufTy).Contents (Elt F) → (⟨S100000x128, .f32⟩ : BufTy).Contents (Elt F)),
    StableHlo.nullary main_cst_55 (constant S_ .f32 0x3727C5AC#32),
    StableHlo.unary main_cst_55 main_v358 (broadcastInDim S128 ![] bcast_S_S128 : (⟨S_, .f32⟩ : BufTy).Contents (Elt F) → (⟨S128, .f32⟩ : BufTy).Contents (Elt F)),
    StableHlo.binary main_v354 main_v358 main_v359 (addf : (⟨S128, .f32⟩ : BufTy).Contents (Elt F) → (⟨S128, .f32⟩ : BufTy).Contents (Elt F) → (⟨S128, .f32⟩ : BufTy).Contents (Elt F)),
    StableHlo.unary main_v359 main_v360 (Host.sqrt : (⟨S128, .f32⟩ : BufTy).Contents (Elt F) → (⟨S128, .f32⟩ : BufTy).Contents (Elt F)),
    StableHlo.unary main_v360 main_v361 (broadcastInDim S1x128 ![1] bcast_S128_S1x128_1 : (⟨S128, .f32⟩ : BufTy).Contents (Elt F) → (⟨S1x128, .f32⟩ : BufTy).Contents (Elt F)),
    StableHlo.unary main_v361 main_v362 (broadcastInDim S100000x128 ![0, 1] bcast_S1x128_S100000x128_0_1 : (⟨S1x128, .f32⟩ : BufTy).Contents (Elt F) → (⟨S100000x128, .f32⟩ : BufTy).Contents (Elt F)),
    StableHlo.binary main_v357 main_v362 main_v363 (Host.divf : (⟨S100000x128, .f32⟩ : BufTy).Contents (Elt F) → (⟨S100000x128, .f32⟩ : BufTy).Contents (Elt F) → (⟨S100000x128, .f32⟩ : BufTy).Contents (Elt F)),
    StableHlo.unary main_v348 main_v364 (broadcastInDim S1x128 ![1] bcast_S128_S1x128_1 : (⟨S128, .f32⟩ : BufTy).Contents (Elt F) → (⟨S1x128, .f32⟩ : BufTy).Contents (Elt F)),
    StableHlo.unary main_v364 main_v365 (broadcastInDim S100000x128 ![0, 1] bcast_S1x128_S100000x128_0_1 : (⟨S1x128, .f32⟩ : BufTy).Contents (Elt F) → (⟨S100000x128, .f32⟩ : BufTy).Contents (Elt F)),
    StableHlo.binary main_v363 main_v365 main_v366 (mulf : (⟨S100000x128, .f32⟩ : BufTy).Contents (Elt F) → (⟨S100000x128, .f32⟩ : BufTy).Contents (Elt F) → (⟨S100000x128, .f32⟩ : BufTy).Contents (Elt F)),
    StableHlo.unary main_v350 main_v367 (broadcastInDim S1x128 ![1] bcast_S128_S1x128_1 : (⟨S128, .f32⟩ : BufTy).Contents (Elt F) → (⟨S1x128, .f32⟩ : BufTy).Contents (Elt F)),
    StableHlo.unary main_v367 main_v368 (broadcastInDim S100000x128 ![0, 1] bcast_S1x128_S100000x128_0_1 : (⟨S1x128, .f32⟩ : BufTy).Contents (Elt F) → (⟨S100000x128, .f32⟩ : BufTy).Contents (Elt F)),
    StableHlo.binary main_v366 main_v368 main_v369 (addf : (⟨S100000x128, .f32⟩ : BufTy).Contents (Elt F) → (⟨S100000x128, .f32⟩ : BufTy).Contents (Elt F) → (⟨S100000x128, .f32⟩ : BufTy).Contents (Elt F)) ]

/-- Stage 24 of @main: 3 operations, in order. -/
abbrev seg24 : List (HloOp τ sig (Elt F)) :=
  [ StableHlo.TRef.nullary main_call12.cst (constant S_ .f32 0x00000000#32),
    StableHlo.TRef.unary main_call12.cst main_call12.v0 (broadcastInDim S200000x128 ![] bcast_S_S200000x128),
    StableHlo.TRef.binary (.of main_v346) main_call12.v0 main_call12.v1 maximumf ]

/-- Stage 25 of @main: 3 operations, in order. -/
abbrev seg25 : List (HloOp τ sig (Elt F)) :=
  [ StableHlo.TRef.nullary main_call13.cst (constant S_ .f32 0x00000000#32),
    StableHlo.TRef.unary main_call13.cst main_call13.v0 (broadcastInDim S100000x128 ![] bcast_S_S100000x128),
    StableHlo.TRef.binary (.of main_v369) main_call13.v0 main_call13.v1 maximumf ]

/-- Stage 26 of @main: 37 operations, in order. -/
abbrev seg26 : List (HloOp τ sig (Elt F)) :=
  [ StableHlo.unary main_arg15 main_v372 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v372 main_v373 rfl shapeCasts_S1x64x128_S64x128,
    StableHlo.unary main_arg16 main_v374 ((extractStridedSlice S1x64 ![0, 0] · slices_S3x64_S1x64_0_0) : (⟨S3x64, .f32⟩ : BufTy).Contents (Elt F) → (⟨S1x64, .f32⟩ : BufTy).Contents (Elt F)),
    StableHlo.reshape main_v374 main_v375 rfl shapeCasts_S1x64_S64,
    StableHlo.unary main_arg17 main_v376 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v376 main_v377 rfl shapeCasts_S1x64x128_S64x128,
    StableHlo.unary main_arg2 main_v378 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v378 main_v379 rfl shapeCasts_S1x500000_S500000,
    StableHlo.nullary main_c_56 (constantI S_ 32 0#32),
    StableHlo.unary main_c_56 main_v380 (broadcastInDim S500000 ![] bcast_S_S500000 : (⟨S_, .i32⟩ : BufTy).Contents (Elt F) → (⟨S500000, .i32⟩ : BufTy).Contents (Elt F)),
    StableHlo.binary main_v379 main_v380 main_v381 (cmpi .slt : (⟨S500000, .i32⟩ : BufTy).Contents (Elt F) → (⟨S500000, .i32⟩ : BufTy).Contents (Elt F) → (⟨S500000, .i1⟩ : BufTy).Contents (Elt F)),
    StableHlo.nullary main_c_57 (constantI S_ 32 200000#32),
    StableHlo.unary main_c_57 main_v382 (broadcastInDim S500000 ![] bcast_S_S500000 : (⟨S_, .i32⟩ : BufTy).Contents (Elt F) → (⟨S500000, .i32⟩ : BufTy).Contents (Elt F)),
    StableHlo.binary main_v379 main_v382 main_v383 (addi : (⟨S500000, .i32⟩ : BufTy).Contents (Elt F) → (⟨S500000, .i32⟩ : BufTy).Contents (Elt F) → (⟨S500000, .i32⟩ : BufTy).Contents (Elt F)),
    StableHlo.ternary main_v381 main_v383 main_v379 main_v384 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v384 main_v385 (broadcastInDim S500000x1 ![0] bcast_S500000_S500000x1_0 : (⟨S500000, .i32⟩ : BufTy).Contents (Elt F) → (⟨S500000x1, .i32⟩ : BufTy).Contents (Elt F)),
    StableHlo.binary main_v370 main_v385 main_v386 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg2 main_v387 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v387 main_v388 rfl shapeCasts_S1x500000_S500000,
    StableHlo.nullary main_cst_58 (constant S_ .f32 0x00000000#32),
    StableHlo.unary main_cst_58 main_v389 (broadcastInDim S100000x128 ![] bcast_S_S100000x128 : (⟨S_, .f32⟩ : BufTy).Contents (Elt F) → (⟨S100000x128, .f32⟩ : BufTy).Contents (Elt F)),
    StableHlo.unary main_v388 main_v390 (broadcastInDim S500000x1 ![0] bcast_S500000_S500000x1_0 : (⟨S500000, .i32⟩ : BufTy).Contents (Elt F) → (⟨S500000x1, .i32⟩ : BufTy).Contents (Elt F)),
    StableHlo.ternary main_v389 main_v390 main_v386 main_v391 ((fun x i u => Host.scatterAdd scatter_S100000x128_S500000x1_S500000x128_1_0_0_1 x i u) : (⟨S100000x128, .f32⟩ : BufTy).Contents (Elt F) → (⟨S500000x1, .i32⟩ : BufTy).Contents (Elt F) → (⟨S500000x128, .f32⟩ : BufTy).Contents (Elt F) → (⟨S100000x128, .f32⟩ : BufTy).Contents (Elt F)),
    StableHlo.nullary main_cst_59 (constant S_ .f32 0x3F800000#32),
    StableHlo.unary main_cst_59 main_v392 (broadcastInDim S500000 ![] bcast_S_S500000 : (⟨S_, .f32⟩ : BufTy).Contents (Elt F) → (⟨S500000, .f32⟩ : BufTy).Contents (Elt F)),
    StableHlo.unary main_arg2 main_v393 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v393 main_v394 rfl shapeCasts_S1x500000_S500000,
    StableHlo.nullary main_cst_60 (constant S_ .f32 0x00000000#32),
    StableHlo.unary main_cst_60 main_v395 (broadcastInDim S100000 ![] bcast_S_S100000 : (⟨S_, .f32⟩ : BufTy).Contents (Elt F) → (⟨S100000, .f32⟩ : BufTy).Contents (Elt F)),
    StableHlo.unary main_v394 main_v396 (broadcastInDim S500000x1 ![0] bcast_S500000_S500000x1_0 : (⟨S500000, .i32⟩ : BufTy).Contents (Elt F) → (⟨S500000x1, .i32⟩ : BufTy).Contents (Elt F)),
    StableHlo.ternary main_v395 main_v396 main_v392 main_v397 ((fun x i u => Host.scatterAdd scatter_S100000_S500000x1_S500000_n_0_0_1 x i u) : (⟨S100000, .f32⟩ : BufTy).Contents (Elt F) → (⟨S500000x1, .i32⟩ : BufTy).Contents (Elt F) → (⟨S500000, .f32⟩ : BufTy).Contents (Elt F) → (⟨S100000, .f32⟩ : BufTy).Contents (Elt F)),
    StableHlo.nullary main_cst_61 (constant S_ .f32 0x3F800000#32),
    StableHlo.unary main_cst_61 main_v398 (broadcastInDim S100000 ![] bcast_S_S100000 : (⟨S_, .f32⟩ : BufTy).Contents (Elt F) → (⟨S100000, .f32⟩ : BufTy).Contents (Elt F)),
    StableHlo.binary main_v397 main_v398 main_v399 (maximumf : (⟨S100000, .f32⟩ : BufTy).Contents (Elt F) → (⟨S100000, .f32⟩ : BufTy).Contents (Elt F) → (⟨S100000, .f32⟩ : BufTy).Contents (Elt F)),
    StableHlo.unary main_v399 main_v400 (broadcastInDim S100000x1 ![0] bcast_S100000_S100000x1_0 : (⟨S100000, .f32⟩ : BufTy).Contents (Elt F) → (⟨S100000x1, .f32⟩ : BufTy).Contents (Elt F)),
    StableHlo.unary main_v400 main_v401 (broadcastInDim S100000x128 ![0, 1] bcast_S100000x1_S100000x128_0_1 : (⟨S100000x1, .f32⟩ : BufTy).Contents (Elt F) → (⟨S100000x128, .f32⟩ : BufTy).Contents (Elt F)),
    StableHlo.binary main_v391 main_v401 main_v402 (Host.divf : (⟨S100000x128, .f32⟩ : BufTy).Contents (Elt F) → (⟨S100000x128, .f32⟩ : BufTy).Contents (Elt F) → (⟨S100000x128, .f32⟩ : BufTy).Contents (Elt F)) ]

/-- Stage 27 of @main: 18 operations, in order. -/
abbrev seg27 : List (HloOp τ sig (Elt F)) :=
  [ StableHlo.unary main_v373 main_v403 ((transpose S128x64 [1, 0] · transposes_S64x128_S128x64_1_0) : (⟨S64x128, .f32⟩ : BufTy).Contents (Elt F) → (⟨S128x64, .f32⟩ : BufTy).Contents (Elt F)),
    StableHlo.binary main_v402 main_v403 main_v404 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v375 main_v405 (broadcastInDim S1x64 ![1] bcast_S64_S1x64_1 : (⟨S64, .f32⟩ : BufTy).Contents (Elt F) → (⟨S1x64, .f32⟩ : BufTy).Contents (Elt F)),
    StableHlo.unary main_v405 main_v406 (broadcastInDim S100000x64 ![0, 1] bcast_S1x64_S100000x64_0_1 : (⟨S1x64, .f32⟩ : BufTy).Contents (Elt F) → (⟨S100000x64, .f32⟩ : BufTy).Contents (Elt F)),
    StableHlo.binary main_v404 main_v406 main_v407 (addf : (⟨S100000x64, .f32⟩ : BufTy).Contents (Elt F) → (⟨S100000x64, .f32⟩ : BufTy).Contents (Elt F) → (⟨S100000x64, .f32⟩ : BufTy).Contents (Elt F)),
    StableHlo.unary main_v377 main_v408 ((transpose S128x64 [1, 0] · transposes_S64x128_S128x64_1_0) : (⟨S64x128, .f32⟩ : BufTy).Contents (Elt F) → (⟨S128x64, .f32⟩ : BufTy).Contents (Elt F)),
    StableHlo.binary main_v371 main_v408 main_v409 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.binary main_v407 main_v409 main_v410 (addf : (⟨S100000x64, .f32⟩ : BufTy).Contents (Elt F) → (⟨S100000x64, .f32⟩ : BufTy).Contents (Elt F) → (⟨S100000x64, .f32⟩ : BufTy).Contents (Elt F)),
    StableHlo.TRef.binary (.of main_v410) (.of main_v410) main_call14.v0 mulf,
    StableHlo.TRef.nullary main_call14.cst (constant S_ .f32 0x00000000#32),
    StableHlo.TRef.binary main_call14.v0 main_call14.cst main_call14.v1 (fun x v => Host.reduceAdd x v reducesTo_S100000x64_S100000_d1 h_S_),
    StableHlo.TRef.unary main_call14.v1 main_call14.v2 (broadcastInDim S100000x1 ![0] bcast_S100000_S100000x1_0),
    StableHlo.TRef.unary main_call14.v2 main_call14.v3 Host.sqrt,
    StableHlo.nullary main_cst_62 (constant S_ .f32 0x2B8CBCCC#32),
    StableHlo.unary main_cst_62 main_v412 (broadcastInDim S100000x1 ![] bcast_S_S100000x1 : (⟨S_, .f32⟩ : BufTy).Contents (Elt F) → (⟨S100000x1, .f32⟩ : BufTy).Contents (Elt F)),
    StableHlo.binary main_v411 main_v412 main_v413 (maximumf : (⟨S100000x1, .f32⟩ : BufTy).Contents (Elt F) → (⟨S100000x1, .f32⟩ : BufTy).Contents (Elt F) → (⟨S100000x1, .f32⟩ : BufTy).Contents (Elt F)),
    StableHlo.unary main_v413 main_v414 (broadcastInDim S100000x64 ![0, 1] bcast_S100000x1_S100000x64_0_1 : (⟨S100000x1, .f32⟩ : BufTy).Contents (Elt F) → (⟨S100000x64, .f32⟩ : BufTy).Contents (Elt F)),
    StableHlo.binary main_v410 main_v414 main_v415 (Host.divf : (⟨S100000x64, .f32⟩ : BufTy).Contents (Elt F) → (⟨S100000x64, .f32⟩ : BufTy).Contents (Elt F) → (⟨S100000x64, .f32⟩ : BufTy).Contents (Elt F)) ]

/-- Stage 28 of @main: 37 operations, in order. -/
abbrev seg28 : List (HloOp τ sig (Elt F)) :=
  [ StableHlo.unary main_arg15 main_v416 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v416 main_v417 rfl shapeCasts_S1x64x128_S64x128,
    StableHlo.unary main_arg16 main_v418 ((extractStridedSlice S1x64 ![1, 0] · slices_S3x64_S1x64_1_0) : (⟨S3x64, .f32⟩ : BufTy).Contents (Elt F) → (⟨S1x64, .f32⟩ : BufTy).Contents (Elt F)),
    StableHlo.reshape main_v418 main_v419 rfl shapeCasts_S1x64_S64,
    StableHlo.unary main_arg17 main_v420 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v420 main_v421 rfl shapeCasts_S1x64x128_S64x128,
    StableHlo.unary main_arg3 main_v422 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v422 main_v423 rfl shapeCasts_S1x500000_S500000,
    StableHlo.nullary main_c_63 (constantI S_ 32 0#32),
    StableHlo.unary main_c_63 main_v424 (broadcastInDim S500000 ![] bcast_S_S500000 : (⟨S_, .i32⟩ : BufTy).Contents (Elt F) → (⟨S500000, .i32⟩ : BufTy).Contents (Elt F)),
    StableHlo.binary main_v423 main_v424 main_v425 (cmpi .slt : (⟨S500000, .i32⟩ : BufTy).Contents (Elt F) → (⟨S500000, .i32⟩ : BufTy).Contents (Elt F) → (⟨S500000, .i1⟩ : BufTy).Contents (Elt F)),
    StableHlo.nullary main_c_64 (constantI S_ 32 100000#32),
    StableHlo.unary main_c_64 main_v426 (broadcastInDim S500000 ![] bcast_S_S500000 : (⟨S_, .i32⟩ : BufTy).Contents (Elt F) → (⟨S500000, .i32⟩ : BufTy).Contents (Elt F)),
    StableHlo.binary main_v423 main_v426 main_v427 (addi : (⟨S500000, .i32⟩ : BufTy).Contents (Elt F) → (⟨S500000, .i32⟩ : BufTy).Contents (Elt F) → (⟨S500000, .i32⟩ : BufTy).Contents (Elt F)),
    StableHlo.ternary main_v425 main_v427 main_v423 main_v428 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v428 main_v429 (broadcastInDim S500000x1 ![0] bcast_S500000_S500000x1_0 : (⟨S500000, .i32⟩ : BufTy).Contents (Elt F) → (⟨S500000x1, .i32⟩ : BufTy).Contents (Elt F)),
    StableHlo.binary main_v371 main_v429 main_v430 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    StableHlo.unary main_arg3 main_v431 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v431 main_v432 rfl shapeCasts_S1x500000_S500000,
    StableHlo.nullary main_cst_65 (constant S_ .f32 0x00000000#32),
    StableHlo.unary main_cst_65 main_v433 (broadcastInDim S200000x128 ![] bcast_S_S200000x128 : (⟨S_, .f32⟩ : BufTy).Contents (Elt F) → (⟨S200000x128, .f32⟩ : BufTy).Contents (Elt F)),
    StableHlo.unary main_v432 main_v434 (broadcastInDim S500000x1 ![0] bcast_S500000_S500000x1_0 : (⟨S500000, .i32⟩ : BufTy).Contents (Elt F) → (⟨S500000x1, .i32⟩ : BufTy).Contents (Elt F)),
    StableHlo.ternary main_v433 main_v434 main_v430 main_v435 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_66 (constant S_ .f32 0x3F800000#32),
    StableHlo.unary main_cst_66 main_v436 (broadcastInDim S500000 ![] bcast_S_S500000 : (⟨S_, .f32⟩ : BufTy).Contents (Elt F) → (⟨S500000, .f32⟩ : BufTy).Contents (Elt F)),
    StableHlo.unary main_arg3 main_v437 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v437 main_v438 rfl shapeCasts_S1x500000_S500000,
    StableHlo.nullary main_cst_67 (constant S_ .f32 0x00000000#32),
    StableHlo.unary main_cst_67 main_v439 (broadcastInDim S200000 ![] bcast_S_S200000 : (⟨S_, .f32⟩ : BufTy).Contents (Elt F) → (⟨S200000, .f32⟩ : BufTy).Contents (Elt F)),
    StableHlo.unary main_v438 main_v440 (broadcastInDim S500000x1 ![0] bcast_S500000_S500000x1_0 : (⟨S500000, .i32⟩ : BufTy).Contents (Elt F) → (⟨S500000x1, .i32⟩ : BufTy).Contents (Elt F)),
    StableHlo.ternary main_v439 main_v440 main_v436 main_v441 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_68 (constant S_ .f32 0x3F800000#32),
    StableHlo.unary main_cst_68 main_v442 (broadcastInDim S200000 ![] bcast_S_S200000 : (⟨S_, .f32⟩ : BufTy).Contents (Elt F) → (⟨S200000, .f32⟩ : BufTy).Contents (Elt F)),
    StableHlo.binary main_v441 main_v442 main_v443 (maximumf : (⟨S200000, .f32⟩ : BufTy).Contents (Elt F) → (⟨S200000, .f32⟩ : BufTy).Contents (Elt F) → (⟨S200000, .f32⟩ : BufTy).Contents (Elt F)),
    StableHlo.unary main_v443 main_v444 (broadcastInDim S200000x1 ![0] bcast_S200000_S200000x1_0 : (⟨S200000, .f32⟩ : BufTy).Contents (Elt F) → (⟨S200000x1, .f32⟩ : BufTy).Contents (Elt F)),
    StableHlo.unary main_v444 main_v445 (broadcastInDim S200000x128 ![0, 1] bcast_S200000x1_S200000x128_0_1 : (⟨S200000x1, .f32⟩ : BufTy).Contents (Elt F) → (⟨S200000x128, .f32⟩ : BufTy).Contents (Elt F)),
    StableHlo.binary main_v435 main_v445 main_v446 (Host.divf : (⟨S200000x128, .f32⟩ : BufTy).Contents (Elt F) → (⟨S200000x128, .f32⟩ : BufTy).Contents (Elt F) → (⟨S200000x128, .f32⟩ : BufTy).Contents (Elt F)) ]

/-- Stage 29 of @main: 18 operations, in order. -/
abbrev seg29 : List (HloOp τ sig (Elt F)) :=
  [ StableHlo.unary main_v417 main_v447 ((transpose S128x64 [1, 0] · transposes_S64x128_S128x64_1_0) : (⟨S64x128, .f32⟩ : BufTy).Contents (Elt F) → (⟨S128x64, .f32⟩ : BufTy).Contents (Elt F)),
    StableHlo.binary main_v446 main_v447 main_v448 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.unary main_v419 main_v449 (broadcastInDim S1x64 ![1] bcast_S64_S1x64_1 : (⟨S64, .f32⟩ : BufTy).Contents (Elt F) → (⟨S1x64, .f32⟩ : BufTy).Contents (Elt F)),
    StableHlo.unary main_v449 main_v450 (broadcastInDim S200000x64 ![0, 1] bcast_S1x64_S200000x64_0_1 : (⟨S1x64, .f32⟩ : BufTy).Contents (Elt F) → (⟨S200000x64, .f32⟩ : BufTy).Contents (Elt F)),
    StableHlo.binary main_v448 main_v450 main_v451 (addf : (⟨S200000x64, .f32⟩ : BufTy).Contents (Elt F) → (⟨S200000x64, .f32⟩ : BufTy).Contents (Elt F) → (⟨S200000x64, .f32⟩ : BufTy).Contents (Elt F)),
    StableHlo.unary main_v421 main_v452 ((transpose S128x64 [1, 0] · transposes_S64x128_S128x64_1_0) : (⟨S64x128, .f32⟩ : BufTy).Contents (Elt F) → (⟨S128x64, .f32⟩ : BufTy).Contents (Elt F)),
    StableHlo.binary main_v370 main_v452 main_v453 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.binary main_v451 main_v453 main_v454 (addf : (⟨S200000x64, .f32⟩ : BufTy).Contents (Elt F) → (⟨S200000x64, .f32⟩ : BufTy).Contents (Elt F) → (⟨S200000x64, .f32⟩ : BufTy).Contents (Elt F)),
    StableHlo.TRef.binary (.of main_v454) (.of main_v454) main_call15.v0 mulf,
    StableHlo.TRef.nullary main_call15.cst (constant S_ .f32 0x00000000#32),
    StableHlo.TRef.binary main_call15.v0 main_call15.cst main_call15.v1 (fun x v => Host.reduceAdd x v reducesTo_S200000x64_S200000_d1 h_S_),
    StableHlo.TRef.unary main_call15.v1 main_call15.v2 (broadcastInDim S200000x1 ![0] bcast_S200000_S200000x1_0),
    StableHlo.TRef.unary main_call15.v2 main_call15.v3 Host.sqrt,
    StableHlo.nullary main_cst_69 (constant S_ .f32 0x2B8CBCCC#32),
    StableHlo.unary main_cst_69 main_v456 (broadcastInDim S200000x1 ![] bcast_S_S200000x1 : (⟨S_, .f32⟩ : BufTy).Contents (Elt F) → (⟨S200000x1, .f32⟩ : BufTy).Contents (Elt F)),
    StableHlo.binary main_v455 main_v456 main_v457 (maximumf : (⟨S200000x1, .f32⟩ : BufTy).Contents (Elt F) → (⟨S200000x1, .f32⟩ : BufTy).Contents (Elt F) → (⟨S200000x1, .f32⟩ : BufTy).Contents (Elt F)),
    StableHlo.unary main_v457 main_v458 (broadcastInDim S200000x64 ![0, 1] bcast_S200000x1_S200000x64_0_1 : (⟨S200000x1, .f32⟩ : BufTy).Contents (Elt F) → (⟨S200000x64, .f32⟩ : BufTy).Contents (Elt F)),
    StableHlo.binary main_v454 main_v458 main_v459 (Host.divf : (⟨S200000x64, .f32⟩ : BufTy).Contents (Elt F) → (⟨S200000x64, .f32⟩ : BufTy).Contents (Elt F) → (⟨S200000x64, .f32⟩ : BufTy).Contents (Elt F)) ]

/-- Stage 30 of @main: 37 operations, in order. -/
abbrev seg30 : List (HloOp τ sig (Elt F)) :=
  [ StableHlo.unary main_arg15 main_v460 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v460 main_v461 rfl shapeCasts_S1x64x128_S64x128,
    StableHlo.unary main_arg16 main_v462 ((extractStridedSlice S1x64 ![2, 0] · slices_S3x64_S1x64_2_0) : (⟨S3x64, .f32⟩ : BufTy).Contents (Elt F) → (⟨S1x64, .f32⟩ : BufTy).Contents (Elt F)),
    StableHlo.reshape main_v462 main_v463 rfl shapeCasts_S1x64_S64,
    StableHlo.unary main_arg17 main_v464 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v464 main_v465 rfl shapeCasts_S1x64x128_S64x128,
    StableHlo.unary main_arg4 main_v466 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v466 main_v467 rfl shapeCasts_S1x500000_S500000,
    StableHlo.nullary main_c_70 (constantI S_ 32 0#32),
    StableHlo.unary main_c_70 main_v468 (broadcastInDim S500000 ![] bcast_S_S500000 : (⟨S_, .i32⟩ : BufTy).Contents (Elt F) → (⟨S500000, .i32⟩ : BufTy).Contents (Elt F)),
    StableHlo.binary main_v467 main_v468 main_v469 (cmpi .slt : (⟨S500000, .i32⟩ : BufTy).Contents (Elt F) → (⟨S500000, .i32⟩ : BufTy).Contents (Elt F) → (⟨S500000, .i1⟩ : BufTy).Contents (Elt F)),
    StableHlo.nullary main_c_71 (constantI S_ 32 200000#32),
    StableHlo.unary main_c_71 main_v470 (broadcastInDim S500000 ![] bcast_S_S500000 : (⟨S_, .i32⟩ : BufTy).Contents (Elt F) → (⟨S500000, .i32⟩ : BufTy).Contents (Elt F)),
    StableHlo.binary main_v467 main_v470 main_v471 (addi : (⟨S500000, .i32⟩ : BufTy).Contents (Elt F) → (⟨S500000, .i32⟩ : BufTy).Contents (Elt F) → (⟨S500000, .i32⟩ : BufTy).Contents (Elt F)),
    StableHlo.ternary main_v469 main_v471 main_v467 main_v472 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v472 main_v473 (broadcastInDim S500000x1 ![0] bcast_S500000_S500000x1_0 : (⟨S500000, .i32⟩ : BufTy).Contents (Elt F) → (⟨S500000x1, .i32⟩ : BufTy).Contents (Elt F)),
    StableHlo.binary main_v370 main_v473 main_v474 ((fun x i => Host.gather gather_S200000x128_S500000x1_S500000x128_1_0_n_n_0_1_1128 x i) : (⟨S200000x128, .f32⟩ : BufTy).Contents (Elt F) → (⟨S500000x1, .i32⟩ : BufTy).Contents (Elt F) → (⟨S500000x128, .f32⟩ : BufTy).Contents (Elt F)),
    StableHlo.unary main_arg4 main_v475 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v475 main_v476 rfl shapeCasts_S1x500000_S500000,
    StableHlo.nullary main_cst_72 (constant S_ .f32 0x00000000#32),
    StableHlo.unary main_cst_72 main_v477 (broadcastInDim S200000x128 ![] bcast_S_S200000x128 : (⟨S_, .f32⟩ : BufTy).Contents (Elt F) → (⟨S200000x128, .f32⟩ : BufTy).Contents (Elt F)),
    StableHlo.unary main_v476 main_v478 (broadcastInDim S500000x1 ![0] bcast_S500000_S500000x1_0 : (⟨S500000, .i32⟩ : BufTy).Contents (Elt F) → (⟨S500000x1, .i32⟩ : BufTy).Contents (Elt F)),
    StableHlo.ternary main_v477 main_v478 main_v474 main_v479 ((fun x i u => Host.scatterAdd scatter_S200000x128_S500000x1_S500000x128_1_0_0_1 x i u) : (⟨S200000x128, .f32⟩ : BufTy).Contents (Elt F) → (⟨S500000x1, .i32⟩ : BufTy).Contents (Elt F) → (⟨S500000x128, .f32⟩ : BufTy).Contents (Elt F) → (⟨S200000x128, .f32⟩ : BufTy).Contents (Elt F)),
    StableHlo.nullary main_cst_73 (constant S_ .f32 0x3F800000#32),
    StableHlo.unary main_cst_73 main_v480 (broadcastInDim S500000 ![] bcast_S_S500000 : (⟨S_, .f32⟩ : BufTy).Contents (Elt F) → (⟨S500000, .f32⟩ : BufTy).Contents (Elt F)),
    StableHlo.unary main_arg4 main_v481 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v481 main_v482 rfl shapeCasts_S1x500000_S500000,
    StableHlo.nullary main_cst_74 (constant S_ .f32 0x00000000#32),
    StableHlo.unary main_cst_74 main_v483 (broadcastInDim S200000 ![] bcast_S_S200000 : (⟨S_, .f32⟩ : BufTy).Contents (Elt F) → (⟨S200000, .f32⟩ : BufTy).Contents (Elt F)),
    StableHlo.unary main_v482 main_v484 (broadcastInDim S500000x1 ![0] bcast_S500000_S500000x1_0 : (⟨S500000, .i32⟩ : BufTy).Contents (Elt F) → (⟨S500000x1, .i32⟩ : BufTy).Contents (Elt F)),
    StableHlo.ternary main_v483 main_v484 main_v480 main_v485 ((fun x i u => Host.scatterAdd scatter_S200000_S500000x1_S500000_n_0_0_1 x i u) : (⟨S200000, .f32⟩ : BufTy).Contents (Elt F) → (⟨S500000x1, .i32⟩ : BufTy).Contents (Elt F) → (⟨S500000, .f32⟩ : BufTy).Contents (Elt F) → (⟨S200000, .f32⟩ : BufTy).Contents (Elt F)),
    StableHlo.nullary main_cst_75 (constant S_ .f32 0x3F800000#32),
    StableHlo.unary main_cst_75 main_v486 (broadcastInDim S200000 ![] bcast_S_S200000 : (⟨S_, .f32⟩ : BufTy).Contents (Elt F) → (⟨S200000, .f32⟩ : BufTy).Contents (Elt F)),
    StableHlo.binary main_v485 main_v486 main_v487 (maximumf : (⟨S200000, .f32⟩ : BufTy).Contents (Elt F) → (⟨S200000, .f32⟩ : BufTy).Contents (Elt F) → (⟨S200000, .f32⟩ : BufTy).Contents (Elt F)),
    StableHlo.unary main_v487 main_v488 (broadcastInDim S200000x1 ![0] bcast_S200000_S200000x1_0 : (⟨S200000, .f32⟩ : BufTy).Contents (Elt F) → (⟨S200000x1, .f32⟩ : BufTy).Contents (Elt F)),
    StableHlo.unary main_v488 main_v489 (broadcastInDim S200000x128 ![0, 1] bcast_S200000x1_S200000x128_0_1 : (⟨S200000x1, .f32⟩ : BufTy).Contents (Elt F) → (⟨S200000x128, .f32⟩ : BufTy).Contents (Elt F)),
    StableHlo.binary main_v479 main_v489 main_v490 (Host.divf : (⟨S200000x128, .f32⟩ : BufTy).Contents (Elt F) → (⟨S200000x128, .f32⟩ : BufTy).Contents (Elt F) → (⟨S200000x128, .f32⟩ : BufTy).Contents (Elt F)) ]

/-- Stage 31 of @main: 18 operations, in order. -/
abbrev seg31 : List (HloOp τ sig (Elt F)) :=
  [ StableHlo.unary main_v461 main_v491 ((transpose S128x64 [1, 0] · transposes_S64x128_S128x64_1_0) : (⟨S64x128, .f32⟩ : BufTy).Contents (Elt F) → (⟨S128x64, .f32⟩ : BufTy).Contents (Elt F)),
    StableHlo.binary main_v490 main_v491 main_v492 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.unary main_v463 main_v493 (broadcastInDim S1x64 ![1] bcast_S64_S1x64_1 : (⟨S64, .f32⟩ : BufTy).Contents (Elt F) → (⟨S1x64, .f32⟩ : BufTy).Contents (Elt F)),
    StableHlo.unary main_v493 main_v494 (broadcastInDim S200000x64 ![0, 1] bcast_S1x64_S200000x64_0_1 : (⟨S1x64, .f32⟩ : BufTy).Contents (Elt F) → (⟨S200000x64, .f32⟩ : BufTy).Contents (Elt F)),
    StableHlo.binary main_v492 main_v494 main_v495 (addf : (⟨S200000x64, .f32⟩ : BufTy).Contents (Elt F) → (⟨S200000x64, .f32⟩ : BufTy).Contents (Elt F) → (⟨S200000x64, .f32⟩ : BufTy).Contents (Elt F)),
    StableHlo.unary main_v465 main_v496 ((transpose S128x64 [1, 0] · transposes_S64x128_S128x64_1_0) : (⟨S64x128, .f32⟩ : BufTy).Contents (Elt F) → (⟨S128x64, .f32⟩ : BufTy).Contents (Elt F)),
    StableHlo.binary main_v370 main_v496 main_v497 ((fun l r => Host.dotGeneral dot_S200000x128_S128x64_S200000x64_1_0_0_1_n_n none l r) : (⟨S200000x128, .f32⟩ : BufTy).Contents (Elt F) → (⟨S128x64, .f32⟩ : BufTy).Contents (Elt F) → (⟨S200000x64, .f32⟩ : BufTy).Contents (Elt F)),
    StableHlo.binary main_v495 main_v497 main_v498 (addf : (⟨S200000x64, .f32⟩ : BufTy).Contents (Elt F) → (⟨S200000x64, .f32⟩ : BufTy).Contents (Elt F) → (⟨S200000x64, .f32⟩ : BufTy).Contents (Elt F)),
    StableHlo.TRef.binary (.of main_v498) (.of main_v498) main_call16.v0 mulf,
    StableHlo.TRef.nullary main_call16.cst (constant S_ .f32 0x00000000#32),
    StableHlo.TRef.binary main_call16.v0 main_call16.cst main_call16.v1 (fun x v => Host.reduceAdd x v reducesTo_S200000x64_S200000_d1 h_S_),
    StableHlo.TRef.unary main_call16.v1 main_call16.v2 (broadcastInDim S200000x1 ![0] bcast_S200000_S200000x1_0),
    StableHlo.TRef.unary main_call16.v2 main_call16.v3 Host.sqrt,
    StableHlo.nullary main_cst_76 (constant S_ .f32 0x2B8CBCCC#32),
    StableHlo.unary main_cst_76 main_v500 (broadcastInDim S200000x1 ![] bcast_S_S200000x1 : (⟨S_, .f32⟩ : BufTy).Contents (Elt F) → (⟨S200000x1, .f32⟩ : BufTy).Contents (Elt F)),
    StableHlo.binary main_v499 main_v500 main_v501 (maximumf : (⟨S200000x1, .f32⟩ : BufTy).Contents (Elt F) → (⟨S200000x1, .f32⟩ : BufTy).Contents (Elt F) → (⟨S200000x1, .f32⟩ : BufTy).Contents (Elt F)),
    StableHlo.unary main_v501 main_v502 (broadcastInDim S200000x64 ![0, 1] bcast_S200000x1_S200000x64_0_1 : (⟨S200000x1, .f32⟩ : BufTy).Contents (Elt F) → (⟨S200000x64, .f32⟩ : BufTy).Contents (Elt F)),
    StableHlo.binary main_v498 main_v502 main_v503 (Host.divf : (⟨S200000x64, .f32⟩ : BufTy).Contents (Elt F) → (⟨S200000x64, .f32⟩ : BufTy).Contents (Elt F) → (⟨S200000x64, .f32⟩ : BufTy).Contents (Elt F)) ]

/-- Stage 32 of @main: 33 operations, in order. -/
abbrev seg32 : List (HloOp τ sig (Elt F)) :=
  [ StableHlo.binary main_v459 main_v503 main_v504 (addf : (⟨S200000x64, .f32⟩ : BufTy).Contents (Elt F) → (⟨S200000x64, .f32⟩ : BufTy).Contents (Elt F) → (⟨S200000x64, .f32⟩ : BufTy).Contents (Elt F)),
    StableHlo.unary main_arg22 main_v505 ((extractStridedSlice S1x64 ![0, 0] · slices_S2x64_S1x64_0_0) : (⟨S2x64, .f32⟩ : BufTy).Contents (Elt F) → (⟨S1x64, .f32⟩ : BufTy).Contents (Elt F)),
    StableHlo.reshape main_v505 main_v506 rfl shapeCasts_S1x64_S64,
    StableHlo.unary main_arg23 main_v507 ((extractStridedSlice S1x64 ![0, 0] · slices_S2x64_S1x64_0_0) : (⟨S2x64, .f32⟩ : BufTy).Contents (Elt F) → (⟨S1x64, .f32⟩ : BufTy).Contents (Elt F)),
    StableHlo.reshape main_v507 main_v508 rfl shapeCasts_S1x64_S64,
    StableHlo.nullary main_cst_77 (constant S_ .f32 0x00000000#32),
    StableHlo.binary main_v504 main_cst_77 main_v509 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    StableHlo.nullary main_cst_78 (constant S_ .f32 0x48435000#32),
    StableHlo.unary main_cst_78 main_v510 (broadcastInDim S64 ![] bcast_S_S64 : (⟨S_, .f32⟩ : BufTy).Contents (Elt F) → (⟨S64, .f32⟩ : BufTy).Contents (Elt F)),
    StableHlo.binary main_v509 main_v510 main_v511 (Host.divf : (⟨S64, .f32⟩ : BufTy).Contents (Elt F) → (⟨S64, .f32⟩ : BufTy).Contents (Elt F) → (⟨S64, .f32⟩ : BufTy).Contents (Elt F)),
    StableHlo.nullary main_c_79 (constantI S_ 32 0#32),
    StableHlo.TRef.nullary main_call17.cst (constant S_ .f32 0x00000000#32),
    StableHlo.TRef.binary (.of main_v504) main_call17.cst main_call17.v0 (fun x v => Host.reduceAdd x v reducesTo_S200000x64_S64_d0 h_S_),
    StableHlo.TRef.unary main_call17.v0 main_call17.v1 (broadcastInDim S1x64 ![1] bcast_S64_S1x64_1),
    StableHlo.TRef.nullary main_call17.cst_0 (constant S_ .f32 0x48435000#32),
    StableHlo.TRef.unary main_call17.cst_0 main_call17.v2 (broadcastInDim S1x64 ![] bcast_S_S1x64),
    StableHlo.TRef.binary main_call17.v1 main_call17.v2 main_call17.v3 Host.divf,
    StableHlo.TRef.unary main_call17.v3 main_call17.v4 (broadcastInDim S200000x64 ![0, 1] bcast_S1x64_S200000x64_0_1),
    StableHlo.TRef.binary (.of main_v504) main_call17.v4 main_call17.v5 subf,
    StableHlo.TRef.binary main_call17.v5 main_call17.v5 main_call17.v6 mulf,
    StableHlo.TRef.unary (.of main_c_79) main_call17.v7 (sitofp .f32),
    StableHlo.TRef.nullary main_call17.cst_1 (constant S_ .f32 0x48435000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S200000x64_S64_d0 h_S_),
    StableHlo.TRef.unary main_call17.v8 main_call17.v10 (broadcastInDim S64 ![] bcast_S_S64),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S64 ![] bcast_S_S64),
    StableHlo.TRef.ternary main_call17.v12 main_call17.v11 main_call17.call0.v1 main_call17.call0.v2 (fun p a b => select (broadcastInDim S64 ![] bcast_S_S64 p) a b) ]

/-- Stage 33 of @main: 16 operations, in order. -/
abbrev seg33 : List (HloOp τ sig (Elt F)) :=
  [ StableHlo.unary main_v511 main_v513 (broadcastInDim S1x64 ![1] bcast_S64_S1x64_1 : (⟨S64, .f32⟩ : BufTy).Contents (Elt F) → (⟨S1x64, .f32⟩ : BufTy).Contents (Elt F)),
    StableHlo.unary main_v513 main_v514 (broadcastInDim S200000x64 ![0, 1] bcast_S1x64_S200000x64_0_1 : (⟨S1x64, .f32⟩ : BufTy).Contents (Elt F) → (⟨S200000x64, .f32⟩ : BufTy).Contents (Elt F)),
    StableHlo.binary main_v504 main_v514 main_v515 (subf : (⟨S200000x64, .f32⟩ : BufTy).Contents (Elt F) → (⟨S200000x64, .f32⟩ : BufTy).Contents (Elt F) → (⟨S200000x64, .f32⟩ : BufTy).Contents (Elt F)),
    StableHlo.nullary main_cst_80 (constant S_ .f32 0x3727C5AC#32),
    StableHlo.unary main_cst_80 main_v516 (broadcastInDim S64 ![] bcast_S_S64 : (⟨S_, .f32⟩ : BufTy).Contents (Elt F) → (⟨S64, .f32⟩ : BufTy).Contents (Elt F)),
    StableHlo.binary main_v512 main_v516 main_v517 (addf : (⟨S64, .f32⟩ : BufTy).Contents (Elt F) → (⟨S64, .f32⟩ : BufTy).Contents (Elt F) → (⟨S64, .f32⟩ : BufTy).Contents (Elt F)),
    StableHlo.unary main_v517 main_v518 (Host.sqrt : (⟨S64, .f32⟩ : BufTy).Contents (Elt F) → (⟨S64, .f32⟩ : BufTy).Contents (Elt F)),
    StableHlo.unary main_v518 main_v519 (broadcastInDim S1x64 ![1] bcast_S64_S1x64_1 : (⟨S64, .f32⟩ : BufTy).Contents (Elt F) → (⟨S1x64, .f32⟩ : BufTy).Contents (Elt F)),
    StableHlo.unary main_v519 main_v520 (broadcastInDim S200000x64 ![0, 1] bcast_S1x64_S200000x64_0_1 : (⟨S1x64, .f32⟩ : BufTy).Contents (Elt F) → (⟨S200000x64, .f32⟩ : BufTy).Contents (Elt F)),
    StableHlo.binary main_v515 main_v520 main_v521 (Host.divf : (⟨S200000x64, .f32⟩ : BufTy).Contents (Elt F) → (⟨S200000x64, .f32⟩ : BufTy).Contents (Elt F) → (⟨S200000x64, .f32⟩ : BufTy).Contents (Elt F)),
    StableHlo.unary main_v506 main_v522 (broadcastInDim S1x64 ![1] bcast_S64_S1x64_1 : (⟨S64, .f32⟩ : BufTy).Contents (Elt F) → (⟨S1x64, .f32⟩ : BufTy).Contents (Elt F)),
    StableHlo.unary main_v522 main_v523 (broadcastInDim S200000x64 ![0, 1] bcast_S1x64_S200000x64_0_1 : (⟨S1x64, .f32⟩ : BufTy).Contents (Elt F) → (⟨S200000x64, .f32⟩ : BufTy).Contents (Elt F)),
    StableHlo.binary main_v521 main_v523 main_v524 (mulf : (⟨S200000x64, .f32⟩ : BufTy).Contents (Elt F) → (⟨S200000x64, .f32⟩ : BufTy).Contents (Elt F) → (⟨S200000x64, .f32⟩ : BufTy).Contents (Elt F)),
    StableHlo.unary main_v508 main_v525 (broadcastInDim S1x64 ![1] bcast_S64_S1x64_1 : (⟨S64, .f32⟩ : BufTy).Contents (Elt F) → (⟨S1x64, .f32⟩ : BufTy).Contents (Elt F)),
    StableHlo.unary main_v525 main_v526 (broadcastInDim S200000x64 ![0, 1] bcast_S1x64_S200000x64_0_1 : (⟨S1x64, .f32⟩ : BufTy).Contents (Elt F) → (⟨S200000x64, .f32⟩ : BufTy).Contents (Elt F)),
    StableHlo.binary main_v524 main_v526 main_v527 (addf : (⟨S200000x64, .f32⟩ : BufTy).Contents (Elt F) → (⟨S200000x64, .f32⟩ : BufTy).Contents (Elt F) → (⟨S200000x64, .f32⟩ : BufTy).Contents (Elt F)) ]

/-- Stage 34 of @main: 32 operations, in order. -/
abbrev seg34 : List (HloOp τ sig (Elt F)) :=
  [ StableHlo.unary main_arg22 main_v528 ((extractStridedSlice S1x64 ![1, 0] · slices_S2x64_S1x64_1_0) : (⟨S2x64, .f32⟩ : BufTy).Contents (Elt F) → (⟨S1x64, .f32⟩ : BufTy).Contents (Elt F)),
    StableHlo.reshape main_v528 main_v529 rfl shapeCasts_S1x64_S64,
    StableHlo.unary main_arg23 main_v530 ((extractStridedSlice S1x64 ![1, 0] · slices_S2x64_S1x64_1_0) : (⟨S2x64, .f32⟩ : BufTy).Contents (Elt F) → (⟨S1x64, .f32⟩ : BufTy).Contents (Elt F)),
    StableHlo.reshape main_v530 main_v531 rfl shapeCasts_S1x64_S64,
    StableHlo.nullary main_cst_81 (constant S_ .f32 0x00000000#32),
    StableHlo.binary main_v415 main_cst_81 main_v532 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_82 (constant S_ .f32 0x47C35000#32),
    StableHlo.unary main_cst_82 main_v533 (broadcastInDim S64 ![] bcast_S_S64 : (⟨S_, .f32⟩ : BufTy).Contents (Elt F) → (⟨S64, .f32⟩ : BufTy).Contents (Elt F)),
    StableHlo.binary main_v532 main_v533 main_v534 (Host.divf : (⟨S64, .f32⟩ : BufTy).Contents (Elt F) → (⟨S64, .f32⟩ : BufTy).Contents (Elt F) → (⟨S64, .f32⟩ : BufTy).Contents (Elt F)),
    StableHlo.nullary main_c_83 (constantI S_ 32 0#32),
    StableHlo.TRef.nullary main_call18.cst (constant S_ .f32 0x00000000#32),
    StableHlo.TRef.binary (.of main_v415) main_call18.cst main_call18.v0 (fun x v => Host.reduceAdd x v reducesTo_S100000x64_S64_d0 h_S_),
    StableHlo.TRef.unary main_call18.v0 main_call18.v1 (broadcastInDim S1x64 ![1] bcast_S64_S1x64_1),
    StableHlo.TRef.nullary main_call18.cst_0 (constant S_ .f32 0x47C35000#32),
    StableHlo.TRef.unary main_call18.cst_0 main_call18.v2 (broadcastInDim S1x64 ![] bcast_S_S1x64),
    StableHlo.TRef.binary main_call18.v1 main_call18.v2 main_call18.v3 Host.divf,
    StableHlo.TRef.unary main_call18.v3 main_call18.v4 (broadcastInDim S100000x64 ![0, 1] bcast_S1x64_S100000x64_0_1),
    StableHlo.TRef.binary (.of main_v415) main_call18.v4 main_call18.v5 subf,
    StableHlo.TRef.binary main_call18.v5 main_call18.v5 main_call18.v6 mulf,
    StableHlo.TRef.unary (.of main_c_83) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x64_S64_d0 h_S_),
    StableHlo.TRef.unary main_call18.v8 main_call18.v10 (broadcastInDim S64 ![] bcast_S_S64),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S64 ![] bcast_S_S64),
    StableHlo.TRef.ternary main_call18.v12 main_call18.v11 main_call18.call0.v1 main_call18.call0.v2 (fun p a b => select (broadcastInDim S64 ![] bcast_S_S64 p) a b) ]

/-- Stage 35 of @main: 16 operations, in order. -/
abbrev seg35 : List (HloOp τ sig (Elt F)) :=
  [ StableHlo.unary main_v534 main_v536 (broadcastInDim S1x64 ![1] bcast_S64_S1x64_1 : (⟨S64, .f32⟩ : BufTy).Contents (Elt F) → (⟨S1x64, .f32⟩ : BufTy).Contents (Elt F)),
    StableHlo.unary main_v536 main_v537 (broadcastInDim S100000x64 ![0, 1] bcast_S1x64_S100000x64_0_1 : (⟨S1x64, .f32⟩ : BufTy).Contents (Elt F) → (⟨S100000x64, .f32⟩ : BufTy).Contents (Elt F)),
    StableHlo.binary main_v415 main_v537 main_v538 (subf : (⟨S100000x64, .f32⟩ : BufTy).Contents (Elt F) → (⟨S100000x64, .f32⟩ : BufTy).Contents (Elt F) → (⟨S100000x64, .f32⟩ : BufTy).Contents (Elt F)),
    StableHlo.nullary main_cst_84 (constant S_ .f32 0x3727C5AC#32),
    StableHlo.unary main_cst_84 main_v539 (broadcastInDim S64 ![] bcast_S_S64 : (⟨S_, .f32⟩ : BufTy).Contents (Elt F) → (⟨S64, .f32⟩ : BufTy).Contents (Elt F)),
    StableHlo.binary main_v535 main_v539 main_v540 (addf : (⟨S64, .f32⟩ : BufTy).Contents (Elt F) → (⟨S64, .f32⟩ : BufTy).Contents (Elt F) → (⟨S64, .f32⟩ : BufTy).Contents (Elt F)),
    StableHlo.unary main_v540 main_v541 (Host.sqrt : (⟨S64, .f32⟩ : BufTy).Contents (Elt F) → (⟨S64, .f32⟩ : BufTy).Contents (Elt F)),
    StableHlo.unary main_v541 main_v542 (broadcastInDim S1x64 ![1] bcast_S64_S1x64_1 : (⟨S64, .f32⟩ : BufTy).Contents (Elt F) → (⟨S1x64, .f32⟩ : BufTy).Contents (Elt F)),
    StableHlo.unary main_v542 main_v543 (broadcastInDim S100000x64 ![0, 1] bcast_S1x64_S100000x64_0_1 : (⟨S1x64, .f32⟩ : BufTy).Contents (Elt F) → (⟨S100000x64, .f32⟩ : BufTy).Contents (Elt F)),
    StableHlo.binary main_v538 main_v543 main_v544 (Host.divf : (⟨S100000x64, .f32⟩ : BufTy).Contents (Elt F) → (⟨S100000x64, .f32⟩ : BufTy).Contents (Elt F) → (⟨S100000x64, .f32⟩ : BufTy).Contents (Elt F)),
    StableHlo.unary main_v529 main_v545 (broadcastInDim S1x64 ![1] bcast_S64_S1x64_1 : (⟨S64, .f32⟩ : BufTy).Contents (Elt F) → (⟨S1x64, .f32⟩ : BufTy).Contents (Elt F)),
    StableHlo.unary main_v545 main_v546 (broadcastInDim S100000x64 ![0, 1] bcast_S1x64_S100000x64_0_1 : (⟨S1x64, .f32⟩ : BufTy).Contents (Elt F) → (⟨S100000x64, .f32⟩ : BufTy).Contents (Elt F)),
    StableHlo.binary main_v544 main_v546 main_v547 (mulf : (⟨S100000x64, .f32⟩ : BufTy).Contents (Elt F) → (⟨S100000x64, .f32⟩ : BufTy).Contents (Elt F) → (⟨S100000x64, .f32⟩ : BufTy).Contents (Elt F)),
    StableHlo.unary main_v531 main_v548 (broadcastInDim S1x64 ![1] bcast_S64_S1x64_1 : (⟨S64, .f32⟩ : BufTy).Contents (Elt F) → (⟨S1x64, .f32⟩ : BufTy).Contents (Elt F)),
    StableHlo.unary main_v548 main_v549 (broadcastInDim S100000x64 ![0, 1] bcast_S1x64_S100000x64_0_1 : (⟨S1x64, .f32⟩ : BufTy).Contents (Elt F) → (⟨S100000x64, .f32⟩ : BufTy).Contents (Elt F)),
    StableHlo.binary main_v547 main_v549 main_v550 (addf : (⟨S100000x64, .f32⟩ : BufTy).Contents (Elt F) → (⟨S100000x64, .f32⟩ : BufTy).Contents (Elt F) → (⟨S100000x64, .f32⟩ : BufTy).Contents (Elt F)) ]

/-- Stage 36 of @main: 13 operations, in order. -/
abbrev seg36 : List (HloOp τ sig (Elt F)) :=
  [ StableHlo.unary main_arg24 main_v551 ((transpose S64x64 [1, 0] · transposes_S64x64_S64x64_1_0) : (⟨S64x64, .f32⟩ : BufTy).Contents (Elt F) → (⟨S64x64, .f32⟩ : BufTy).Contents (Elt F)),
    StableHlo.binary main_v527 main_v551 main_v552 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    StableHlo.unary main_arg25 main_v553 (broadcastInDim S1x64 ![1] bcast_S64_S1x64_1 : (⟨S64, .f32⟩ : BufTy).Contents (Elt F) → (⟨S1x64, .f32⟩ : BufTy).Contents (Elt F)),
    StableHlo.unary main_v553 main_v554 (broadcastInDim S200000x64 ![0, 1] bcast_S1x64_S200000x64_0_1 : (⟨S1x64, .f32⟩ : BufTy).Contents (Elt F) → (⟨S200000x64, .f32⟩ : BufTy).Contents (Elt F)),
    StableHlo.binary main_v552 main_v554 main_v555 (addf : (⟨S200000x64, .f32⟩ : BufTy).Contents (Elt F) → (⟨S200000x64, .f32⟩ : BufTy).Contents (Elt F) → (⟨S200000x64, .f32⟩ : BufTy).Contents (Elt F)),
    StableHlo.TRef.nullary main_call19.cst (constant S_ .f32 0x00000000#32),
    StableHlo.TRef.unary main_call19.cst main_call19.v0 (broadcastInDim S200000x64 ![] bcast_S_S200000x64),
    StableHlo.TRef.binary (.of main_v555) main_call19.v0 main_call19.v1 maximumf,
    StableHlo.unary main_arg26 main_v557 ((transpose S64x1 [1, 0] · transposes_S1x64_S64x1_1_0) : (⟨S1x64, .f32⟩ : BufTy).Contents (Elt F) → (⟨S64x1, .f32⟩ : BufTy).Contents (Elt F)),
    StableHlo.binary main_v556 main_v557 main_v558 ((fun l r => Host.dotGeneral dot_S200000x64_S64x1_S200000x1_1_0_0_1_n_n none l r) : (⟨S200000x64, .f32⟩ : BufTy).Contents (Elt F) → (⟨S64x1, .f32⟩ : BufTy).Contents (Elt F) → (⟨S200000x1, .f32⟩ : BufTy).Contents (Elt F)),
    StableHlo.unary main_arg27 main_v559 (broadcastInDim S1x1 ![1] bcast_S1_S1x1_1 : (⟨S1, .f32⟩ : BufTy).Contents (Elt F) → (⟨S1x1, .f32⟩ : BufTy).Contents (Elt F)),
    StableHlo.unary main_v559 main_v560 (broadcastInDim S200000x1 ![0, 1] bcast_S1x1_S200000x1_0_1 : (⟨S1x1, .f32⟩ : BufTy).Contents (Elt F) → (⟨S200000x1, .f32⟩ : BufTy).Contents (Elt F)),
    StableHlo.binary main_v558 main_v560 main_v561 (addf : (⟨S200000x1, .f32⟩ : BufTy).Contents (Elt F) → (⟨S200000x1, .f32⟩ : BufTy).Contents (Elt F) → (⟨S200000x1, .f32⟩ : BufTy).Contents (Elt F)) ]

set_option maxRecDepth 65536 in
/-- The stages in order are the windows in order: one list of operations, cut twice. -/
theorem ops_eq_segs : (ops : List (HloOp τ sig (Elt F))) = seg0 ++ seg1 ++ seg2 ++ seg3 ++ seg4 ++ seg5 ++ seg6 ++ seg7 ++ seg8 ++ seg9 ++ seg10 ++ seg11 ++ seg12 ++ seg13 ++ seg14 ++ seg15 ++ seg16 ++ seg17 ++ seg18 ++ seg19 ++ seg20 ++ seg21 ++ seg22 ++ seg23 ++ seg24 ++ seg25 ++ seg26 ++ seg27 ++ seg28 ++ seg29 ++ seg30 ++ seg31 ++ seg32 ++ seg33 ++ seg34 ++ seg35 ++ seg36 := by
  simp only [List.cons_append, List.nil_append, List.append_nil, List.append_assoc]

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The buffer contents at each stage boundary: a fold from contents V. -/
abbrev R0 (V : Valuation τ sig (Elt F)) : Valuation τ sig (Elt F) := V
abbrev R1 (V : Valuation τ sig (Elt F)) : Valuation τ sig (Elt F) := after seg0 (R0 V)
abbrev R2 (V : Valuation τ sig (Elt F)) : Valuation τ sig (Elt F) := after seg1 (R1 V)
abbrev R3 (V : Valuation τ sig (Elt F)) : Valuation τ sig (Elt F) := after seg2 (R2 V)
abbrev R4 (V : Valuation τ sig (Elt F)) : Valuation τ sig (Elt F) := after seg3 (R3 V)
abbrev R5 (V : Valuation τ sig (Elt F)) : Valuation τ sig (Elt F) := after seg4 (R4 V)
abbrev R6 (V : Valuation τ sig (Elt F)) : Valuation τ sig (Elt F) := after seg5 (R5 V)
abbrev R7 (V : Valuation τ sig (Elt F)) : Valuation τ sig (Elt F) := after seg6 (R6 V)
abbrev R8 (V : Valuation τ sig (Elt F)) : Valuation τ sig (Elt F) := after seg7 (R7 V)
abbrev R9 (V : Valuation τ sig (Elt F)) : Valuation τ sig (Elt F) := after seg8 (R8 V)
abbrev R10 (V : Valuation τ sig (Elt F)) : Valuation τ sig (Elt F) := after seg9 (R9 V)
abbrev R11 (V : Valuation τ sig (Elt F)) : Valuation τ sig (Elt F) := after seg10 (R10 V)
abbrev R12 (V : Valuation τ sig (Elt F)) : Valuation τ sig (Elt F) := after seg11 (R11 V)
abbrev R13 (V : Valuation τ sig (Elt F)) : Valuation τ sig (Elt F) := after seg12 (R12 V)
abbrev R14 (V : Valuation τ sig (Elt F)) : Valuation τ sig (Elt F) := after seg13 (R13 V)
abbrev R15 (V : Valuation τ sig (Elt F)) : Valuation τ sig (Elt F) := after seg14 (R14 V)
abbrev R16 (V : Valuation τ sig (Elt F)) : Valuation τ sig (Elt F) := after seg15 (R15 V)
abbrev R17 (V : Valuation τ sig (Elt F)) : Valuation τ sig (Elt F) := after seg16 (R16 V)
abbrev R18 (V : Valuation τ sig (Elt F)) : Valuation τ sig (Elt F) := after seg17 (R17 V)
abbrev R19 (V : Valuation τ sig (Elt F)) : Valuation τ sig (Elt F) := after seg18 (R18 V)
abbrev R20 (V : Valuation τ sig (Elt F)) : Valuation τ sig (Elt F) := after seg19 (R19 V)
abbrev R21 (V : Valuation τ sig (Elt F)) : Valuation τ sig (Elt F) := after seg20 (R20 V)
abbrev R22 (V : Valuation τ sig (Elt F)) : Valuation τ sig (Elt F) := after seg21 (R21 V)
abbrev R23 (V : Valuation τ sig (Elt F)) : Valuation τ sig (Elt F) := after seg22 (R22 V)
abbrev R24 (V : Valuation τ sig (Elt F)) : Valuation τ sig (Elt F) := after seg23 (R23 V)
abbrev R25 (V : Valuation τ sig (Elt F)) : Valuation τ sig (Elt F) := after seg24 (R24 V)
abbrev R26 (V : Valuation τ sig (Elt F)) : Valuation τ sig (Elt F) := after seg25 (R25 V)
abbrev R27 (V : Valuation τ sig (Elt F)) : Valuation τ sig (Elt F) := after seg26 (R26 V)
abbrev R28 (V : Valuation τ sig (Elt F)) : Valuation τ sig (Elt F) := after seg27 (R27 V)
abbrev R29 (V : Valuation τ sig (Elt F)) : Valuation τ sig (Elt F) := after seg28 (R28 V)
abbrev R30 (V : Valuation τ sig (Elt F)) : Valuation τ sig (Elt F) := after seg29 (R29 V)
abbrev R31 (V : Valuation τ sig (Elt F)) : Valuation τ sig (Elt F) := after seg30 (R30 V)
abbrev R32 (V : Valuation τ sig (Elt F)) : Valuation τ sig (Elt F) := after seg31 (R31 V)
abbrev R33 (V : Valuation τ sig (Elt F)) : Valuation τ sig (Elt F) := after seg32 (R32 V)
abbrev R34 (V : Valuation τ sig (Elt F)) : Valuation τ sig (Elt F) := after seg33 (R33 V)
abbrev R35 (V : Valuation τ sig (Elt F)) : Valuation τ sig (Elt F) := after seg34 (R34 V)
abbrev R36 (V : Valuation τ sig (Elt F)) : Valuation τ sig (Elt F) := after seg35 (R35 V)
abbrev R37 (V : Valuation τ sig (Elt F)) : Valuation τ sig (Elt F) := after seg36 (R36 V)

/-- The fold over all of @main's operations is the last boundary's contents. -/
theorem after_ops (V : Valuation τ sig (Elt F)) : after ops V = R37 V := by
  rw [ops_eq_segs]; simp only [after_append]

end Cert.ReferenceIdeal.Run

end
-- ==== Proof.RefRun.lean ====
/- The reference's run. @main is its eleven windows in sequence; each window is the run of its list of host
   operations, so @main is the run of the lists' concatenation. From any memory with zero counters every weakly fair
   execution of it terminates, and each TensorCore buffer then holds the fold of the operations over the launch
   contents: the last stage boundary's contents. -/
import proofs.«143223_j29772713296000_1_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A property of every entry of two lists holds of every entry of their concatenation. -/
private theorem forall_app {α : Type} {p : α → Prop} {l₁ l₂ : List α} (h₁ : l₁.Forall p) (h₂ : l₂.Forall p) :
    (l₁ ++ l₂).Forall p :=
  List.forall_append.mpr ⟨h₁, h₂⟩

/-- @main is the run of its operations: it is its eleven windows in sequence, each window is the run of its own
    list, and the run of a concatenation is the runs one after the other (sequencing re-associated). -/
theorem main_eq (c : Dev nD) : main (F := F) c = seq ops := by
  simp only [main, part0_eq, part1_eq, part2_eq, part3_eq, part4_eq, part5_eq, part6_eq, part7_eq, part8_eq, part9_eq, part10_eq,
    ops, seq_append, bind_assoc]

/-- Every operation of @main touches TensorCore references only: window by window. -/
theorem ops_sub : (ops : List (HloOp τ sig (Elt F))).Forall fun op => op.bufs ⊆ tcRefs τ sig :=
  forall_app (forall_app (forall_app (forall_app (forall_app (forall_app (forall_app (forall_app (forall_app (forall_app (ops0_sub) ops1_sub) ops2_sub) ops3_sub) ops4_sub) ops5_sub) ops6_sub) ops7_sub) ops8_sub) ops9_sub) ops10_sub

/-- An operation built from a pure function leaves no buffer undetermined: its set of such buffers is empty by
    definition, entry by entry of a literal list. -/
local macro "fresh_entries" : tactic => `(tactic| ((repeat (refine ⟨rfl, ?_⟩)); exact rfl))

theorem ops0_fresh : (ops0 : List (HloOp τ sig (Elt F))).Forall fun op => op.fresh = ∅ := by fresh_entries
theorem ops1_fresh : (ops1 : List (HloOp τ sig (Elt F))).Forall fun op => op.fresh = ∅ := by fresh_entries
theorem ops2_fresh : (ops2 : List (HloOp τ sig (Elt F))).Forall fun op => op.fresh = ∅ := by fresh_entries
theorem ops3_fresh : (ops3 : List (HloOp τ sig (Elt F))).Forall fun op => op.fresh = ∅ := by fresh_entries
theorem ops4_fresh : (ops4 : List (HloOp τ sig (Elt F))).Forall fun op => op.fresh = ∅ := by fresh_entries
theorem ops5_fresh : (ops5 : List (HloOp τ sig (Elt F))).Forall fun op => op.fresh = ∅ := by fresh_entries
theorem ops6_fresh : (ops6 : List (HloOp τ sig (Elt F))).Forall fun op => op.fresh = ∅ := by fresh_entries
theorem ops7_fresh : (ops7 : List (HloOp τ sig (Elt F))).Forall fun op => op.fresh = ∅ := by fresh_entries
theorem ops8_fresh : (ops8 : List (HloOp τ sig (Elt F))).Forall fun op => op.fresh = ∅ := by fresh_entries
theorem ops9_fresh : (ops9 : List (HloOp τ sig (Elt F))).Forall fun op => op.fresh = ∅ := by fresh_entries
theorem ops10_fresh : (ops10 : List (HloOp τ sig (Elt F))).Forall fun op => op.fresh = ∅ := by fresh_entries

/-- No operation of @main leaves a buffer undetermined: window by window. -/
theorem ops_fresh : (ops : List (HloOp τ sig (Elt F))).Forall fun op => op.fresh = ∅ :=
  forall_app (forall_app (forall_app (forall_app (forall_app (forall_app (forall_app (forall_app (forall_app (forall_app (ops0_fresh) ops1_fresh) ops2_fresh) ops3_fresh) ops4_fresh) ops5_fresh) ops6_fresh) ops7_fresh) ops8_fresh) ops9_fresh) ops10_fresh

/-- The signature scopes no TensorCore buffer and no semaphore: every value of the program is a whole tensor. -/
theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the last stage
    boundary's contents over the launch contents (the fold of all the operations, cut at the stage boundaries). -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R37 (launchContents m c) (b : DevRef τ sig) :=
  (θ_run defs _ _).mono (fun _ h c b => (h c b).trans (congrFun (after_ops (launchContents m c)) _))
    (run_seq scopedRefs_eq scopedSems_eq defs main (fun _ => ops) main_eq (fun _ => ops_sub) m ρ
      (fun _ op hop => List.forall_iff_forall_mem.mp ops_fresh op hop))

end Cert.ReferenceIdeal.Run

end
-- ==== Proof.ListAll.lean ====
import Mathlib.Data.List.Basic

/-! A property of every element of a literal list, from the property of each element in turn. -/

namespace Cert.Carry

theorem allc {α : Type} {p : α → Prop} {a : α} {l : List α} (h : p a) (t : ∀ x ∈ l, p x) : ∀ x ∈ a :: l, p x :=
  List.forall_mem_cons.mpr ⟨h, t⟩

theorem alln {α : Type} {p : α → Prop} : ∀ x ∈ ([] : List α), p x := fun _ h => absurd h List.not_mem_nil

end Cert.Carry
-- ==== Proof.RKeep1.lean ====
import proofs.«143223_j29772713296000_1_alg».proof.Proof.RefOps

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- What stage 0 writes, in order. -/
def ws0 : List (Ref sig .tc) := [main_v0, main_v1, main_v2, main_v3, main_v4]
/-- A buffer that is none of them is left as it was. -/
theorem keepS0 (b : Ref sig .tc) (hb : ∀ y ∈ ws0, b ≠ y) (V : Valuation τ sig (Elt F)) :
    StableHlo.after (seg0 (F := F)) V (Proc.devRef .tc b) = V (Proc.devRef .tc b) :=
  StableHlo.after_of_forall_not_mem (b := Proc.devRef .tc b) _ _ (List.forall_iff_forall_mem.mp (by
    simp only [seg0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))))

/-- What stage 1 writes, in order. -/
def ws1 : List (Ref sig .tc) := [main_v5, main_v6, main_v7, main_v8, main_v9]
/-- A buffer that is none of them is left as it was. -/
theorem keepS1 (b : Ref sig .tc) (hb : ∀ y ∈ ws1, b ≠ y) (V : Valuation τ sig (Elt F)) :
    StableHlo.after (seg1 (F := F)) V (Proc.devRef .tc b) = V (Proc.devRef .tc b) :=
  StableHlo.after_of_forall_not_mem (b := Proc.devRef .tc b) _ _ (List.forall_iff_forall_mem.mp (by
    simp only [seg1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))))

/-- What stage 2 writes, in order. -/
def ws2 : List (Ref sig .tc) := [main_v10, main_v11, main_v12, main_v13, main_v14, main_v15, main_v16, main_v17, main_c, main_v18, main_v19, main_c_0, main_v20, main_v21, main_v22, main_v23, main_v24, main_v25, main_v26, main_cst, main_v27, main_v28, main_v29, main_cst_1, main_v30, main_v31, main_v32, main_cst_2, main_v33, main_v34, main_v35, main_cst_3, main_v36, main_v37, main_v38, main_v39, main_v40]
/-- A buffer that is none of them is left as it was. -/
theorem keepS2 (b : Ref sig .tc) (hb : ∀ y ∈ ws2, b ≠ y) (V : Valuation τ sig (Elt F)) :
    StableHlo.after (seg2 (F := F)) V (Proc.devRef .tc b) = V (Proc.devRef .tc b) :=
  StableHlo.after_of_forall_not_mem (b := Proc.devRef .tc b) _ _ (List.forall_iff_forall_mem.mp (by
    simp only [seg2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 3 writes, in order. -/
def ws3 : List (Ref sig .tc) := [main_v41, main_v42, main_v43, main_v44, main_v45, main_v46, main_v47, main_v48, main_call0_v0, main_call0_cst, main_call0_v1, main_call0_v2, main_v49, main_cst_4, main_v50, main_v51, main_v52, main_v53]
/-- A buffer that is none of them is left as it was. -/
theorem keepS3 (b : Ref sig .tc) (hb : ∀ y ∈ ws3, b ≠ y) (V : Valuation τ sig (Elt F)) :
    StableHlo.after (seg3 (F := F)) V (Proc.devRef .tc b) = V (Proc.devRef .tc b) :=
  StableHlo.after_of_forall_not_mem (b := Proc.devRef .tc b) _ _ (List.forall_iff_forall_mem.mp (by
    simp only [seg3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 4 writes, in order. -/
def ws4 : List (Ref sig .tc) := [main_v54, main_v55, main_v56, main_v57, main_v58, main_v59, main_v60, main_v61, main_c_5, main_v62, main_v63, main_c_6, main_v64, main_v65, main_v66, main_v67, main_v68, main_v69, main_v70, main_cst_7, main_v71, main_v72, main_v73, main_cst_8, main_v74, main_v75, main_v76, main_cst_9, main_v77, main_v78, main_v79, main_cst_10, main_v80, main_v81, main_v82, main_v83, main_v84]
/-- A buffer that is none of them is left as it was. -/
theorem keepS4 (b : Ref sig .tc) (hb : ∀ y ∈ ws4, b ≠ y) (V : Valuation τ sig (Elt F)) :
    StableHlo.after (seg4 (F := F)) V (Proc.devRef .tc b) = V (Proc.devRef .tc b) :=
  StableHlo.after_of_forall_not_mem (b := Proc.devRef .tc b) _ _ (List.forall_iff_forall_mem.mp (by
    simp only [seg4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 5 writes, in order. -/
def ws5 : List (Ref sig .tc) := [main_v85, main_v86, main_v87, main_v88, main_v89, main_v90, main_v91, main_v92, main_call1_v0, main_call1_cst, main_call1_v1, main_call1_v2, main_v93, main_cst_11, main_v94, main_v95, main_v96, main_v97]
/-- A buffer that is none of them is left as it was. -/
theorem keepS5 (b : Ref sig .tc) (hb : ∀ y ∈ ws5, b ≠ y) (V : Valuation τ sig (Elt F)) :
    StableHlo.after (seg5 (F := F)) V (Proc.devRef .tc b) = V (Proc.devRef .tc b) :=
  StableHlo.after_of_forall_not_mem (b := Proc.devRef .tc b) _ _ (List.forall_iff_forall_mem.mp (by
    simp only [seg5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 6 writes, in order. -/
def ws6 : List (Ref sig .tc) := [main_v98, main_v99, main_v100, main_v101, main_v102, main_v103, main_v104, main_v105, main_c_12, main_v106, main_v107, main_c_13, main_v108, main_v109, main_v110, main_v111, main_v112, main_v113, main_v114, main_cst_14, main_v115, main_v116, main_v117, main_cst_15, main_v118, main_v119, main_v120, main_cst_16, main_v121, main_v122, main_v123, main_cst_17, main_v124, main_v125, main_v126, main_v127, main_v128]
/-- A buffer that is none of them is left as it was. -/
theorem keepS6 (b : Ref sig .tc) (hb : ∀ y ∈ ws6, b ≠ y) (V : Valuation τ sig (Elt F)) :
    StableHlo.after (seg6 (F := F)) V (Proc.devRef .tc b) = V (Proc.devRef .tc b) :=
  StableHlo.after_of_forall_not_mem (b := Proc.devRef .tc b) _ _ (List.forall_iff_forall_mem.mp (by
    simp only [seg6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 7 writes, in order. -/
def ws7 : List (Ref sig .tc) := [main_v129, main_v130, main_v131, main_v132, main_v133, main_v134, main_v135, main_v136, main_call2_v0, main_call2_cst, main_call2_v1, main_call2_v2, main_v137, main_cst_18, main_v138, main_v139, main_v140, main_v141]
/-- A buffer that is none of them is left as it was. -/
theorem keepS7 (b : Ref sig .tc) (hb : ∀ y ∈ ws7, b ≠ y) (V : Valuation τ sig (Elt F)) :
    StableHlo.after (seg7 (F := F)) V (Proc.devRef .tc b) = V (Proc.devRef .tc b) :=
  StableHlo.after_of_forall_not_mem (b := Proc.devRef .tc b) _ _ (List.forall_iff_forall_mem.mp (by
    simp only [seg7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 8 writes, in order. -/
def ws8 : List (Ref sig .tc) := [main_v142, main_v143, main_v144, main_v145, main_v146, main_cst_19, main_v147, main_cst_20, main_v148, main_v149, main_c_21, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v150]
/-- A buffer that is none of them is left as it was. -/
theorem keepS8 (b : Ref sig .tc) (hb : ∀ y ∈ ws8, b ≠ y) (V : Valuation τ sig (Elt F)) :
    StableHlo.after (seg8 (F := F)) V (Proc.devRef .tc b) = V (Proc.devRef .tc b) :=
  StableHlo.after_of_forall_not_mem (b := Proc.devRef .tc b) _ _ (List.forall_iff_forall_mem.mp (by
    simp only [seg8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

/-- What stage 9 writes, in order. -/
def ws9 : List (Ref sig .tc) := [main_v151, main_v152, main_v153, main_cst_22, main_v154, main_v155, main_v156, main_v157, main_v158, main_v159, main_v160, main_v161, main_v162, main_v163, main_v164, main_v165]
/-- A buffer that is none of them is left as it was. -/
theorem keepS9 (b : Ref sig .tc) (hb : ∀ y ∈ ws9, b ≠ y) (V : Valuation τ sig (Elt F)) :
    StableHlo.after (seg9 (F := F)) V (Proc.devRef .tc b) = V (Proc.devRef .tc b) :=
  StableHlo.after_of_forall_not_mem (b := Proc.devRef .tc b) _ _ (List.forall_iff_forall_mem.mp (by
    simp only [seg9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))))

end Cert.ReferenceIdeal.Run

end
-- ==== Proof.RKeep2.lean ====
import proofs.«143223_j29772713296000_1_alg».proof.Proof.RefOps

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- What stage 10 writes, in order. -/
def ws10 : List (Ref sig .tc) := [main_v166, main_v167, main_v168, main_v169, main_cst_23, main_v170, main_cst_24, main_v171, main_v172, main_c_25, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v173]
/-- A buffer that is none of them is left as it was. -/
theorem keepS10 (b : Ref sig .tc) (hb : ∀ y ∈ ws10, b ≠ y) (V : Valuation τ sig (Elt F)) :
    StableHlo.after (seg10 (F := F)) V (Proc.devRef .tc b) = V (Proc.devRef .tc b) :=
  StableHlo.after_of_forall_not_mem (b := Proc.devRef .tc b) _ _ (List.forall_iff_forall_mem.mp (by
    simp only [seg10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

/-- What stage 11 writes, in order. -/
def ws11 : List (Ref sig .tc) := [main_v174, main_v175, main_v176, main_cst_26, main_v177, main_v178, main_v179, main_v180, main_v181, main_v182, main_v183, main_v184, main_v185, main_v186, main_v187, main_v188]
/-- A buffer that is none of them is left as it was. -/
theorem keepS11 (b : Ref sig .tc) (hb : ∀ y ∈ ws11, b ≠ y) (V : Valuation τ sig (Elt F)) :
    StableHlo.after (seg11 (F := F)) V (Proc.devRef .tc b) = V (Proc.devRef .tc b) :=
  StableHlo.after_of_forall_not_mem (b := Proc.devRef .tc b) _ _ (List.forall_iff_forall_mem.mp (by
    simp only [seg11, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))))

/-- What stage 12 writes, in order. -/
def ws12 : List (Ref sig .tc) := [main_call5_cst, main_call5_v0, main_v189]
/-- A buffer that is none of them is left as it was. -/
theorem keepS12 (b : Ref sig .tc) (hb : ∀ y ∈ ws12, b ≠ y) (V : Valuation τ sig (Elt F)) :
    StableHlo.after (seg12 (F := F)) V (Proc.devRef .tc b) = V (Proc.devRef .tc b) :=
  StableHlo.after_of_forall_not_mem (b := Proc.devRef .tc b) _ _ (List.forall_iff_forall_mem.mp (by
    simp only [seg12, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))))

/-- What stage 13 writes, in order. -/
def ws13 : List (Ref sig .tc) := [main_call6_cst, main_call6_v0, main_v190]
/-- A buffer that is none of them is left as it was. -/
theorem keepS13 (b : Ref sig .tc) (hb : ∀ y ∈ ws13, b ≠ y) (V : Valuation τ sig (Elt F)) :
    StableHlo.after (seg13 (F := F)) V (Proc.devRef .tc b) = V (Proc.devRef .tc b) :=
  StableHlo.after_of_forall_not_mem (b := Proc.devRef .tc b) _ _ (List.forall_iff_forall_mem.mp (by
    simp only [seg13, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))))

/-- What stage 14 writes, in order. -/
def ws14 : List (Ref sig .tc) := [main_v191, main_v192, main_v193, main_v194, main_v195, main_v196, main_v197, main_v198, main_c_27, main_v199, main_v200, main_c_28, main_v201, main_v202, main_v203, main_v204, main_v205, main_v206, main_v207, main_cst_29, main_v208, main_v209, main_v210, main_cst_30, main_v211, main_v212, main_v213, main_cst_31, main_v214, main_v215, main_v216, main_cst_32, main_v217, main_v218, main_v219, main_v220, main_v221]
/-- A buffer that is none of them is left as it was. -/
theorem keepS14 (b : Ref sig .tc) (hb : ∀ y ∈ ws14, b ≠ y) (V : Valuation τ sig (Elt F)) :
    StableHlo.after (seg14 (F := F)) V (Proc.devRef .tc b) = V (Proc.devRef .tc b) :=
  StableHlo.after_of_forall_not_mem (b := Proc.devRef .tc b) _ _ (List.forall_iff_forall_mem.mp (by
    simp only [seg14, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 15 writes, in order. -/
def ws15 : List (Ref sig .tc) := [main_v222, main_v223, main_v224, main_v225, main_v226, main_v227, main_v228, main_v229, main_call7_v0, main_call7_cst, main_call7_v1, main_call7_v2, main_v230, main_cst_33, main_v231, main_v232, main_v233, main_v234]
/-- A buffer that is none of them is left as it was. -/
theorem keepS15 (b : Ref sig .tc) (hb : ∀ y ∈ ws15, b ≠ y) (V : Valuation τ sig (Elt F)) :
    StableHlo.after (seg15 (F := F)) V (Proc.devRef .tc b) = V (Proc.devRef .tc b) :=
  StableHlo.after_of_forall_not_mem (b := Proc.devRef .tc b) _ _ (List.forall_iff_forall_mem.mp (by
    simp only [seg15, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 16 writes, in order. -/
def ws16 : List (Ref sig .tc) := [main_v235, main_v236, main_v237, main_v238, main_v239, main_v240, main_v241, main_v242, main_c_34, main_v243, main_v244, main_c_35, main_v245, main_v246, main_v247, main_v248, main_v249, main_v250, main_v251, main_cst_36, main_v252, main_v253, main_v254, main_cst_37, main_v255, main_v256, main_v257, main_cst_38, main_v258, main_v259, main_v260, main_cst_39, main_v261, main_v262, main_v263, main_v264, main_v265]
/-- A buffer that is none of them is left as it was. -/
theorem keepS16 (b : Ref sig .tc) (hb : ∀ y ∈ ws16, b ≠ y) (V : Valuation τ sig (Elt F)) :
    StableHlo.after (seg16 (F := F)) V (Proc.devRef .tc b) = V (Proc.devRef .tc b) :=
  StableHlo.after_of_forall_not_mem (b := Proc.devRef .tc b) _ _ (List.forall_iff_forall_mem.mp (by
    simp only [seg16, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 17 writes, in order. -/
def ws17 : List (Ref sig .tc) := [main_v266, main_v267, main_v268, main_v269, main_v270, main_v271, main_v272, main_v273, main_call8_v0, main_call8_cst, main_call8_v1, main_call8_v2, main_v274, main_cst_40, main_v275, main_v276, main_v277, main_v278]
/-- A buffer that is none of them is left as it was. -/
theorem keepS17 (b : Ref sig .tc) (hb : ∀ y ∈ ws17, b ≠ y) (V : Valuation τ sig (Elt F)) :
    StableHlo.after (seg17 (F := F)) V (Proc.devRef .tc b) = V (Proc.devRef .tc b) :=
  StableHlo.after_of_forall_not_mem (b := Proc.devRef .tc b) _ _ (List.forall_iff_forall_mem.mp (by
    simp only [seg17, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 18 writes, in order. -/
def ws18 : List (Ref sig .tc) := [main_v279, main_v280, main_v281, main_v282, main_v283, main_v284, main_v285, main_v286, main_c_41, main_v287, main_v288, main_c_42, main_v289, main_v290, main_v291, main_v292, main_v293, main_v294, main_v295, main_cst_43, main_v296, main_v297, main_v298, main_cst_44, main_v299, main_v300, main_v301, main_cst_45, main_v302, main_v303, main_v304, main_cst_46, main_v305, main_v306, main_v307, main_v308, main_v309]
/-- A buffer that is none of them is left as it was. -/
theorem keepS18 (b : Ref sig .tc) (hb : ∀ y ∈ ws18, b ≠ y) (V : Valuation τ sig (Elt F)) :
    StableHlo.after (seg18 (F := F)) V (Proc.devRef .tc b) = V (Proc.devRef .tc b) :=
  StableHlo.after_of_forall_not_mem (b := Proc.devRef .tc b) _ _ (List.forall_iff_forall_mem.mp (by
    simp only [seg18, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

end Cert.ReferenceIdeal.Run

end
-- ==== Proof.RKeep3.lean ====
import proofs.«143223_j29772713296000_1_alg».proof.Proof.RefOps

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- What stage 19 writes, in order. -/
def ws19 : List (Ref sig .tc) := [main_v310, main_v311, main_v312, main_v313, main_v314, main_v315, main_v316, main_v317, main_call9_v0, main_call9_cst, main_call9_v1, main_call9_v2, main_v318, main_cst_47, main_v319, main_v320, main_v321, main_v322]
/-- A buffer that is none of them is left as it was. -/
theorem keepS19 (b : Ref sig .tc) (hb : ∀ y ∈ ws19, b ≠ y) (V : Valuation τ sig (Elt F)) :
    StableHlo.after (seg19 (F := F)) V (Proc.devRef .tc b) = V (Proc.devRef .tc b) :=
  StableHlo.after_of_forall_not_mem (b := Proc.devRef .tc b) _ _ (List.forall_iff_forall_mem.mp (by
    simp only [seg19, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 20 writes, in order. -/
def ws20 : List (Ref sig .tc) := [main_v323, main_v324, main_v325, main_v326, main_v327, main_cst_48, main_v328, main_cst_49, main_v329, main_v330, main_c_50, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v331]
/-- A buffer that is none of them is left as it was. -/
theorem keepS20 (b : Ref sig .tc) (hb : ∀ y ∈ ws20, b ≠ y) (V : Valuation τ sig (Elt F)) :
    StableHlo.after (seg20 (F := F)) V (Proc.devRef .tc b) = V (Proc.devRef .tc b) :=
  StableHlo.after_of_forall_not_mem (b := Proc.devRef .tc b) _ _ (List.forall_iff_forall_mem.mp (by
    simp only [seg20, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

/-- What stage 21 writes, in order. -/
def ws21 : List (Ref sig .tc) := [main_v332, main_v333, main_v334, main_cst_51, main_v335, main_v336, main_v337, main_v338, main_v339, main_v340, main_v341, main_v342, main_v343, main_v344, main_v345, main_v346]
/-- A buffer that is none of them is left as it was. -/
theorem keepS21 (b : Ref sig .tc) (hb : ∀ y ∈ ws21, b ≠ y) (V : Valuation τ sig (Elt F)) :
    StableHlo.after (seg21 (F := F)) V (Proc.devRef .tc b) = V (Proc.devRef .tc b) :=
  StableHlo.after_of_forall_not_mem (b := Proc.devRef .tc b) _ _ (List.forall_iff_forall_mem.mp (by
    simp only [seg21, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))))

/-- What stage 22 writes, in order. -/
def ws22 : List (Ref sig .tc) := [main_v347, main_v348, main_v349, main_v350, main_cst_52, main_v351, main_cst_53, main_v352, main_v353, main_c_54, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v354]
/-- A buffer that is none of them is left as it was. -/
theorem keepS22 (b : Ref sig .tc) (hb : ∀ y ∈ ws22, b ≠ y) (V : Valuation τ sig (Elt F)) :
    StableHlo.after (seg22 (F := F)) V (Proc.devRef .tc b) = V (Proc.devRef .tc b) :=
  StableHlo.after_of_forall_not_mem (b := Proc.devRef .tc b) _ _ (List.forall_iff_forall_mem.mp (by
    simp only [seg22, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

/-- What stage 23 writes, in order. -/
def ws23 : List (Ref sig .tc) := [main_v355, main_v356, main_v357, main_cst_55, main_v358, main_v359, main_v360, main_v361, main_v362, main_v363, main_v364, main_v365, main_v366, main_v367, main_v368, main_v369]
/-- A buffer that is none of them is left as it was. -/
theorem keepS23 (b : Ref sig .tc) (hb : ∀ y ∈ ws23, b ≠ y) (V : Valuation τ sig (Elt F)) :
    StableHlo.after (seg23 (F := F)) V (Proc.devRef .tc b) = V (Proc.devRef .tc b) :=
  StableHlo.after_of_forall_not_mem (b := Proc.devRef .tc b) _ _ (List.forall_iff_forall_mem.mp (by
    simp only [seg23, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))))

/-- What stage 24 writes, in order. -/
def ws24 : List (Ref sig .tc) := [main_call12_cst, main_call12_v0, main_v370]
/-- A buffer that is none of them is left as it was. -/
theorem keepS24 (b : Ref sig .tc) (hb : ∀ y ∈ ws24, b ≠ y) (V : Valuation τ sig (Elt F)) :
    StableHlo.after (seg24 (F := F)) V (Proc.devRef .tc b) = V (Proc.devRef .tc b) :=
  StableHlo.after_of_forall_not_mem (b := Proc.devRef .tc b) _ _ (List.forall_iff_forall_mem.mp (by
    simp only [seg24, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))))

/-- What stage 25 writes, in order. -/
def ws25 : List (Ref sig .tc) := [main_call13_cst, main_call13_v0, main_v371]
/-- A buffer that is none of them is left as it was. -/
theorem keepS25 (b : Ref sig .tc) (hb : ∀ y ∈ ws25, b ≠ y) (V : Valuation τ sig (Elt F)) :
    StableHlo.after (seg25 (F := F)) V (Proc.devRef .tc b) = V (Proc.devRef .tc b) :=
  StableHlo.after_of_forall_not_mem (b := Proc.devRef .tc b) _ _ (List.forall_iff_forall_mem.mp (by
    simp only [seg25, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))))

/-- What stage 26 writes, in order. -/
def ws26 : List (Ref sig .tc) := [main_v372, main_v373, main_v374, main_v375, main_v376, main_v377, main_v378, main_v379, main_c_56, main_v380, main_v381, main_c_57, main_v382, main_v383, main_v384, main_v385, main_v386, main_v387, main_v388, main_cst_58, main_v389, main_v390, main_v391, main_cst_59, main_v392, main_v393, main_v394, main_cst_60, main_v395, main_v396, main_v397, main_cst_61, main_v398, main_v399, main_v400, main_v401, main_v402]
/-- A buffer that is none of them is left as it was. -/
theorem keepS26 (b : Ref sig .tc) (hb : ∀ y ∈ ws26, b ≠ y) (V : Valuation τ sig (Elt F)) :
    StableHlo.after (seg26 (F := F)) V (Proc.devRef .tc b) = V (Proc.devRef .tc b) :=
  StableHlo.after_of_forall_not_mem (b := Proc.devRef .tc b) _ _ (List.forall_iff_forall_mem.mp (by
    simp only [seg26, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 27 writes, in order. -/
def ws27 : List (Ref sig .tc) := [main_v403, main_v404, main_v405, main_v406, main_v407, main_v408, main_v409, main_v410, main_call14_v0, main_call14_cst, main_call14_v1, main_call14_v2, main_v411, main_cst_62, main_v412, main_v413, main_v414, main_v415]
/-- A buffer that is none of them is left as it was. -/
theorem keepS27 (b : Ref sig .tc) (hb : ∀ y ∈ ws27, b ≠ y) (V : Valuation τ sig (Elt F)) :
    StableHlo.after (seg27 (F := F)) V (Proc.devRef .tc b) = V (Proc.devRef .tc b) :=
  StableHlo.after_of_forall_not_mem (b := Proc.devRef .tc b) _ _ (List.forall_iff_forall_mem.mp (by
    simp only [seg27, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

end Cert.ReferenceIdeal.Run

end
-- ==== Proof.RKeep4.lean ====
import proofs.«143223_j29772713296000_1_alg».proof.Proof.RefOps

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- What stage 28 writes, in order. -/
def ws28 : List (Ref sig .tc) := [main_v416, main_v417, main_v418, main_v419, main_v420, main_v421, main_v422, main_v423, main_c_63, main_v424, main_v425, main_c_64, main_v426, main_v427, main_v428, main_v429, main_v430, main_v431, main_v432, main_cst_65, main_v433, main_v434, main_v435, main_cst_66, main_v436, main_v437, main_v438, main_cst_67, main_v439, main_v440, main_v441, main_cst_68, main_v442, main_v443, main_v444, main_v445, main_v446]
/-- A buffer that is none of them is left as it was. -/
theorem keepS28 (b : Ref sig .tc) (hb : ∀ y ∈ ws28, b ≠ y) (V : Valuation τ sig (Elt F)) :
    StableHlo.after (seg28 (F := F)) V (Proc.devRef .tc b) = V (Proc.devRef .tc b) :=
  StableHlo.after_of_forall_not_mem (b := Proc.devRef .tc b) _ _ (List.forall_iff_forall_mem.mp (by
    simp only [seg28, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 29 writes, in order. -/
def ws29 : List (Ref sig .tc) := [main_v447, main_v448, main_v449, main_v450, main_v451, main_v452, main_v453, main_v454, main_call15_v0, main_call15_cst, main_call15_v1, main_call15_v2, main_v455, main_cst_69, main_v456, main_v457, main_v458, main_v459]
/-- A buffer that is none of them is left as it was. -/
theorem keepS29 (b : Ref sig .tc) (hb : ∀ y ∈ ws29, b ≠ y) (V : Valuation τ sig (Elt F)) :
    StableHlo.after (seg29 (F := F)) V (Proc.devRef .tc b) = V (Proc.devRef .tc b) :=
  StableHlo.after_of_forall_not_mem (b := Proc.devRef .tc b) _ _ (List.forall_iff_forall_mem.mp (by
    simp only [seg29, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 30 writes, in order. -/
def ws30 : List (Ref sig .tc) := [main_v460, main_v461, main_v462, main_v463, main_v464, main_v465, main_v466, main_v467, main_c_70, main_v468, main_v469, main_c_71, main_v470, main_v471, main_v472, main_v473, main_v474, main_v475, main_v476, main_cst_72, main_v477, main_v478, main_v479, main_cst_73, main_v480, main_v481, main_v482, main_cst_74, main_v483, main_v484, main_v485, main_cst_75, main_v486, main_v487, main_v488, main_v489, main_v490]
/-- A buffer that is none of them is left as it was. -/
theorem keepS30 (b : Ref sig .tc) (hb : ∀ y ∈ ws30, b ≠ y) (V : Valuation τ sig (Elt F)) :
    StableHlo.after (seg30 (F := F)) V (Proc.devRef .tc b) = V (Proc.devRef .tc b) :=
  StableHlo.after_of_forall_not_mem (b := Proc.devRef .tc b) _ _ (List.forall_iff_forall_mem.mp (by
    simp only [seg30, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))))

/-- What stage 31 writes, in order. -/
def ws31 : List (Ref sig .tc) := [main_v491, main_v492, main_v493, main_v494, main_v495, main_v496, main_v497, main_v498, main_call16_v0, main_call16_cst, main_call16_v1, main_call16_v2, main_v499, main_cst_76, main_v500, main_v501, main_v502, main_v503]
/-- A buffer that is none of them is left as it was. -/
theorem keepS31 (b : Ref sig .tc) (hb : ∀ y ∈ ws31, b ≠ y) (V : Valuation τ sig (Elt F)) :
    StableHlo.after (seg31 (F := F)) V (Proc.devRef .tc b) = V (Proc.devRef .tc b) :=
  StableHlo.after_of_forall_not_mem (b := Proc.devRef .tc b) _ _ (List.forall_iff_forall_mem.mp (by
    simp only [seg31, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))))

/-- What stage 32 writes, in order. -/
def ws32 : List (Ref sig .tc) := [main_v504, main_v505, main_v506, main_v507, main_v508, main_cst_77, main_v509, main_cst_78, main_v510, main_v511, main_c_79, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v512]
/-- A buffer that is none of them is left as it was. -/
theorem keepS32 (b : Ref sig .tc) (hb : ∀ y ∈ ws32, b ≠ y) (V : Valuation τ sig (Elt F)) :
    StableHlo.after (seg32 (F := F)) V (Proc.devRef .tc b) = V (Proc.devRef .tc b) :=
  StableHlo.after_of_forall_not_mem (b := Proc.devRef .tc b) _ _ (List.forall_iff_forall_mem.mp (by
    simp only [seg32, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))

/-- What stage 33 writes, in order. -/
def ws33 : List (Ref sig .tc) := [main_v513, main_v514, main_v515, main_cst_80, main_v516, main_v517, main_v518, main_v519, main_v520, main_v521, main_v522, main_v523, main_v524, main_v525, main_v526, main_v527]
/-- A buffer that is none of them is left as it was. -/
theorem keepS33 (b : Ref sig .tc) (hb : ∀ y ∈ ws33, b ≠ y) (V : Valuation τ sig (Elt F)) :
    StableHlo.after (seg33 (F := F)) V (Proc.devRef .tc b) = V (Proc.devRef .tc b) :=
  StableHlo.after_of_forall_not_mem (b := Proc.devRef .tc b) _ _ (List.forall_iff_forall_mem.mp (by
    simp only [seg33, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))))

/-- What stage 34 writes, in order. -/
def ws34 : List (Ref sig .tc) := [main_v528, main_v529, main_v530, main_v531, main_cst_81, main_v532, main_cst_82, main_v533, main_v534, main_c_83, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v535]
/-- A buffer that is none of them is left as it was. -/
theorem keepS34 (b : Ref sig .tc) (hb : ∀ y ∈ ws34, b ≠ y) (V : Valuation τ sig (Elt F)) :
    StableHlo.after (seg34 (F := F)) V (Proc.devRef .tc b) = V (Proc.devRef .tc b) :=
  StableHlo.after_of_forall_not_mem (b := Proc.devRef .tc b) _ _ (List.forall_iff_forall_mem.mp (by
    simp only [seg34, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))

/-- What stage 35 writes, in order. -/
def ws35 : List (Ref sig .tc) := [main_v536, main_v537, main_v538, main_cst_84, main_v539, main_v540, main_v541, main_v542, main_v543, main_v544, main_v545, main_v546, main_v547, main_v548, main_v549, main_v550]
/-- A buffer that is none of them is left as it was. -/
theorem keepS35 (b : Ref sig .tc) (hb : ∀ y ∈ ws35, b ≠ y) (V : Valuation τ sig (Elt F)) :
    StableHlo.after (seg35 (F := F)) V (Proc.devRef .tc b) = V (Proc.devRef .tc b) :=
  StableHlo.after_of_forall_not_mem (b := Proc.devRef .tc b) _ _ (List.forall_iff_forall_mem.mp (by
    simp only [seg35, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))))

/-- What stage 36 writes, in order. -/
def ws36 : List (Ref sig .tc) := [main_v551, main_v552, main_v553, main_v554, main_v555, main_call19_cst, main_call19_v0, main_v556, main_v557, main_v558, main_v559, main_v560, main_v561]
/-- A buffer that is none of them is left as it was. -/
theorem keepS36 (b : Ref sig .tc) (hb : ∀ y ∈ ws36, b ≠ y) (V : Valuation τ sig (Elt F)) :
    StableHlo.after (seg36 (F := F)) V (Proc.devRef .tc b) = V (Proc.devRef .tc b) :=
  StableHlo.after_of_forall_not_mem (b := Proc.devRef .tc b) _ _ (List.forall_iff_forall_mem.mp (by
    simp only [seg36, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))))

end Cert.ReferenceIdeal.Run

end
-- ==== Proof.RArgs1.lean ====
import proofs.«143223_j29772713296000_1_alg».proof.Proof.RefOps
import proofs.«143223_j29772713296000_1_alg».proof.Proof.ListAll
import proofs.«143223_j29772713296000_1_alg».proof.Proof.RKeep1
import proofs.«143223_j29772713296000_1_alg».proof.Proof.RKeep2
import proofs.«143223_j29772713296000_1_alg».proof.Proof.RKeep3
import proofs.«143223_j29772713296000_1_alg».proof.Proof.RKeep4

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

variable (V : Valuation τ sig (Elt F))

theorem rc_arg0_0_1 : R1 V (Proc.devRef .tc main_arg0) = R0 V (Proc.devRef .tc main_arg0) :=
  (keepS0 main_arg0 (Cert.Carry.allc (by decide) (Cert.Carry.allc (by decide) (Cert.Carry.allc (by decide) (Cert.Carry.allc (by decide) (Cert.Carry.allc (by decide) (Cert.Carry.alln)))))) _).trans (rfl)
theorem rc_arg0_0_2 : R2 V (Proc.devRef .tc main_arg0) = R0 V (Proc.devRef .tc main_arg0) :=
  (keepS1 main_arg0 (Cert.Carry.allc (by decide) (Cert.Carry.allc (by decide) (Cert.Carry.allc (by decide) (Cert.Carry.allc (by decide) (Cert.Carry.allc (by decide) (Cert.Carry.alln)))))) _).trans (rc_arg0_0_1 V)
theorem rc_arg0_0_3 : R3 V (Proc.devRef .tc main_arg0) = R0 V (Proc.devRef .tc main_arg0) :=
  (keepS2 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_2 V)
theorem rc_arg0_0_4 : R4 V (Proc.devRef .tc main_arg0) = R0 V (Proc.devRef .tc main_arg0) :=
  (keepS3 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_3 V)
theorem rc_arg0_0_5 : R5 V (Proc.devRef .tc main_arg0) = R0 V (Proc.devRef .tc main_arg0) :=
  (keepS4 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_4 V)
theorem rc_arg0_0_6 : R6 V (Proc.devRef .tc main_arg0) = R0 V (Proc.devRef .tc main_arg0) :=
  (keepS5 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_5 V)
theorem rc_arg0_0_7 : R7 V (Proc.devRef .tc main_arg0) = R0 V (Proc.devRef .tc main_arg0) :=
  (keepS6 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_6 V)
theorem rc_arg0_0_8 : R8 V (Proc.devRef .tc main_arg0) = R0 V (Proc.devRef .tc main_arg0) :=
  (keepS7 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_7 V)
theorem rc_arg0_0_9 : R9 V (Proc.devRef .tc main_arg0) = R0 V (Proc.devRef .tc main_arg0) :=
  (keepS8 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg0_0_8 V)
theorem rc_arg0_0_10 : R10 V (Proc.devRef .tc main_arg0) = R0 V (Proc.devRef .tc main_arg0) :=
  (keepS9 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg0_0_9 V)
theorem rc_arg0_0_11 : R11 V (Proc.devRef .tc main_arg0) = R0 V (Proc.devRef .tc main_arg0) :=
  (keepS10 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg0_0_10 V)
theorem rc_arg0_0_12 : R12 V (Proc.devRef .tc main_arg0) = R0 V (Proc.devRef .tc main_arg0) :=
  (keepS11 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg0_0_11 V)
theorem rc_arg0_0_13 : R13 V (Proc.devRef .tc main_arg0) = R0 V (Proc.devRef .tc main_arg0) :=
  (keepS12 main_arg0 (Cert.Carry.allc (by decide) (Cert.Carry.allc (by decide) (Cert.Carry.allc (by decide) (Cert.Carry.alln)))) _).trans (rc_arg0_0_12 V)
theorem rc_arg0_0_14 : R14 V (Proc.devRef .tc main_arg0) = R0 V (Proc.devRef .tc main_arg0) :=
  (keepS13 main_arg0 (Cert.Carry.allc (by decide) (Cert.Carry.allc (by decide) (Cert.Carry.allc (by decide) (Cert.Carry.alln)))) _).trans (rc_arg0_0_13 V)
theorem rc_arg0_0_15 : R15 V (Proc.devRef .tc main_arg0) = R0 V (Proc.devRef .tc main_arg0) :=
  (keepS14 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_14 V)
theorem rc_arg0_0_16 : R16 V (Proc.devRef .tc main_arg0) = R0 V (Proc.devRef .tc main_arg0) :=
  (keepS15 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_15 V)
theorem rc_arg0_0_17 : R17 V (Proc.devRef .tc main_arg0) = R0 V (Proc.devRef .tc main_arg0) :=
  (keepS16 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_16 V)
theorem rc_arg0_0_18 : R18 V (Proc.devRef .tc main_arg0) = R0 V (Proc.devRef .tc main_arg0) :=
  (keepS17 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_17 V)
theorem rc_arg0_0_19 : R19 V (Proc.devRef .tc main_arg0) = R0 V (Proc.devRef .tc main_arg0) :=
  (keepS18 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_18 V)
theorem rc_arg0_0_20 : R20 V (Proc.devRef .tc main_arg0) = R0 V (Proc.devRef .tc main_arg0) :=
  (keepS19 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_19 V)
theorem rc_arg0_0_21 : R21 V (Proc.devRef .tc main_arg0) = R0 V (Proc.devRef .tc main_arg0) :=
  (keepS20 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg0_0_20 V)
theorem rc_arg0_0_22 : R22 V (Proc.devRef .tc main_arg0) = R0 V (Proc.devRef .tc main_arg0) :=
  (keepS21 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg0_0_21 V)
theorem rc_arg0_0_23 : R23 V (Proc.devRef .tc main_arg0) = R0 V (Proc.devRef .tc main_arg0) :=
  (keepS22 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg0_0_22 V)
theorem rc_arg0_0_24 : R24 V (Proc.devRef .tc main_arg0) = R0 V (Proc.devRef .tc main_arg0) :=
  (keepS23 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg0_0_23 V)
theorem rc_arg0_0_25 : R25 V (Proc.devRef .tc main_arg0) = R0 V (Proc.devRef .tc main_arg0) :=
  (keepS24 main_arg0 (Cert.Carry.allc (by decide) (Cert.Carry.allc (by decide) (Cert.Carry.allc (by decide) (Cert.Carry.alln)))) _).trans (rc_arg0_0_24 V)
theorem rc_arg0_0_26 : R26 V (Proc.devRef .tc main_arg0) = R0 V (Proc.devRef .tc main_arg0) :=
  (keepS25 main_arg0 (Cert.Carry.allc (by decide) (Cert.Carry.allc (by decide) (Cert.Carry.allc (by decide) (Cert.Carry.alln)))) _).trans (rc_arg0_0_25 V)
theorem rc_arg0_0_27 : R27 V (Proc.devRef .tc main_arg0) = R0 V (Proc.devRef .tc main_arg0) :=
  (keepS26 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_26 V)
theorem rc_arg0_0_28 : R28 V (Proc.devRef .tc main_arg0) = R0 V (Proc.devRef .tc main_arg0) :=
  (keepS27 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_27 V)
theorem rc_arg0_0_29 : R29 V (Proc.devRef .tc main_arg0) = R0 V (Proc.devRef .tc main_arg0) :=
  (keepS28 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_28 V)
theorem rc_arg0_0_30 : R30 V (Proc.devRef .tc main_arg0) = R0 V (Proc.devRef .tc main_arg0) :=
  (keepS29 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_29 V)
theorem rc_arg0_0_31 : R31 V (Proc.devRef .tc main_arg0) = R0 V (Proc.devRef .tc main_arg0) :=
  (keepS30 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg0_0_30 V)
theorem rc_arg0_0_32 : R32 V (Proc.devRef .tc main_arg0) = R0 V (Proc.devRef .tc main_arg0) :=
  (keepS31 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg0_0_31 V)
theorem rc_arg0_0_33 : R33 V (Proc.devRef .tc main_arg0) = R0 V (Proc.devRef .tc main_arg0) :=
  (keepS32 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg0_0_32 V)
theorem rc_arg0_0_34 : R34 V (Proc.devRef .tc main_arg0) = R0 V (Proc.devRef .tc main_arg0) :=
  (keepS33 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg0_0_33 V)
theorem rc_arg0_0_35 : R35 V (Proc.devRef .tc main_arg0) = R0 V (Proc.devRef .tc main_arg0) :=
  (keepS34 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg0_0_34 V)
theorem rc_arg0_0_36 : R36 V (Proc.devRef .tc main_arg0) = R0 V (Proc.devRef .tc main_arg0) :=
  (keepS35 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg0_0_35 V)
theorem rc_arg0_0_37 : R37 V (Proc.devRef .tc main_arg0) = R0 V (Proc.devRef .tc main_arg0) :=
  (keepS36 main_arg0 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg0_0_36 V)

theorem rc_arg1_0_1 : R1 V (Proc.devRef .tc main_arg1) = R0 V (Proc.devRef .tc main_arg1) :=
  (keepS0 main_arg1 (Cert.Carry.allc (by decide) (Cert.Carry.allc (by decide) (Cert.Carry.allc (by decide) (Cert.Carry.allc (by decide) (Cert.Carry.allc (by decide) (Cert.Carry.alln)))))) _).trans (rfl)
theorem rc_arg1_0_2 : R2 V (Proc.devRef .tc main_arg1) = R0 V (Proc.devRef .tc main_arg1) :=
  (keepS1 main_arg1 (Cert.Carry.allc (by decide) (Cert.Carry.allc (by decide) (Cert.Carry.allc (by decide) (Cert.Carry.allc (by decide) (Cert.Carry.allc (by decide) (Cert.Carry.alln)))))) _).trans (rc_arg1_0_1 V)
theorem rc_arg1_0_3 : R3 V (Proc.devRef .tc main_arg1) = R0 V (Proc.devRef .tc main_arg1) :=
  (keepS2 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_2 V)
theorem rc_arg1_0_4 : R4 V (Proc.devRef .tc main_arg1) = R0 V (Proc.devRef .tc main_arg1) :=
  (keepS3 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_3 V)
theorem rc_arg1_0_5 : R5 V (Proc.devRef .tc main_arg1) = R0 V (Proc.devRef .tc main_arg1) :=
  (keepS4 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_4 V)
theorem rc_arg1_0_6 : R6 V (Proc.devRef .tc main_arg1) = R0 V (Proc.devRef .tc main_arg1) :=
  (keepS5 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_5 V)
theorem rc_arg1_0_7 : R7 V (Proc.devRef .tc main_arg1) = R0 V (Proc.devRef .tc main_arg1) :=
  (keepS6 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_6 V)
theorem rc_arg1_0_8 : R8 V (Proc.devRef .tc main_arg1) = R0 V (Proc.devRef .tc main_arg1) :=
  (keepS7 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_7 V)
theorem rc_arg1_0_9 : R9 V (Proc.devRef .tc main_arg1) = R0 V (Proc.devRef .tc main_arg1) :=
  (keepS8 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg1_0_8 V)
theorem rc_arg1_0_10 : R10 V (Proc.devRef .tc main_arg1) = R0 V (Proc.devRef .tc main_arg1) :=
  (keepS9 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg1_0_9 V)
theorem rc_arg1_0_11 : R11 V (Proc.devRef .tc main_arg1) = R0 V (Proc.devRef .tc main_arg1) :=
  (keepS10 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg1_0_10 V)
theorem rc_arg1_0_12 : R12 V (Proc.devRef .tc main_arg1) = R0 V (Proc.devRef .tc main_arg1) :=
  (keepS11 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg1_0_11 V)
theorem rc_arg1_0_13 : R13 V (Proc.devRef .tc main_arg1) = R0 V (Proc.devRef .tc main_arg1) :=
  (keepS12 main_arg1 (Cert.Carry.allc (by decide) (Cert.Carry.allc (by decide) (Cert.Carry.allc (by decide) (Cert.Carry.alln)))) _).trans (rc_arg1_0_12 V)
theorem rc_arg1_0_14 : R14 V (Proc.devRef .tc main_arg1) = R0 V (Proc.devRef .tc main_arg1) :=
  (keepS13 main_arg1 (Cert.Carry.allc (by decide) (Cert.Carry.allc (by decide) (Cert.Carry.allc (by decide) (Cert.Carry.alln)))) _).trans (rc_arg1_0_13 V)
theorem rc_arg1_0_15 : R15 V (Proc.devRef .tc main_arg1) = R0 V (Proc.devRef .tc main_arg1) :=
  (keepS14 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_14 V)
theorem rc_arg1_0_16 : R16 V (Proc.devRef .tc main_arg1) = R0 V (Proc.devRef .tc main_arg1) :=
  (keepS15 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_15 V)
theorem rc_arg1_0_17 : R17 V (Proc.devRef .tc main_arg1) = R0 V (Proc.devRef .tc main_arg1) :=
  (keepS16 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_16 V)
theorem rc_arg1_0_18 : R18 V (Proc.devRef .tc main_arg1) = R0 V (Proc.devRef .tc main_arg1) :=
  (keepS17 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_17 V)
theorem rc_arg1_0_19 : R19 V (Proc.devRef .tc main_arg1) = R0 V (Proc.devRef .tc main_arg1) :=
  (keepS18 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_18 V)
theorem rc_arg1_0_20 : R20 V (Proc.devRef .tc main_arg1) = R0 V (Proc.devRef .tc main_arg1) :=
  (keepS19 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_19 V)
theorem rc_arg1_0_21 : R21 V (Proc.devRef .tc main_arg1) = R0 V (Proc.devRef .tc main_arg1) :=
  (keepS20 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg1_0_20 V)
theorem rc_arg1_0_22 : R22 V (Proc.devRef .tc main_arg1) = R0 V (Proc.devRef .tc main_arg1) :=
  (keepS21 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg1_0_21 V)
theorem rc_arg1_0_23 : R23 V (Proc.devRef .tc main_arg1) = R0 V (Proc.devRef .tc main_arg1) :=
  (keepS22 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg1_0_22 V)
theorem rc_arg1_0_24 : R24 V (Proc.devRef .tc main_arg1) = R0 V (Proc.devRef .tc main_arg1) :=
  (keepS23 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg1_0_23 V)
theorem rc_arg1_0_25 : R25 V (Proc.devRef .tc main_arg1) = R0 V (Proc.devRef .tc main_arg1) :=
  (keepS24 main_arg1 (Cert.Carry.allc (by decide) (Cert.Carry.allc (by decide) (Cert.Carry.allc (by decide) (Cert.Carry.alln)))) _).trans (rc_arg1_0_24 V)
theorem rc_arg1_0_26 : R26 V (Proc.devRef .tc main_arg1) = R0 V (Proc.devRef .tc main_arg1) :=
  (keepS25 main_arg1 (Cert.Carry.allc (by decide) (Cert.Carry.allc (by decide) (Cert.Carry.allc (by decide) (Cert.Carry.alln)))) _).trans (rc_arg1_0_25 V)
theorem rc_arg1_0_27 : R27 V (Proc.devRef .tc main_arg1) = R0 V (Proc.devRef .tc main_arg1) :=
  (keepS26 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_26 V)
theorem rc_arg1_0_28 : R28 V (Proc.devRef .tc main_arg1) = R0 V (Proc.devRef .tc main_arg1) :=
  (keepS27 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_27 V)
theorem rc_arg1_0_29 : R29 V (Proc.devRef .tc main_arg1) = R0 V (Proc.devRef .tc main_arg1) :=
  (keepS28 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_28 V)
theorem rc_arg1_0_30 : R30 V (Proc.devRef .tc main_arg1) = R0 V (Proc.devRef .tc main_arg1) :=
  (keepS29 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_29 V)
theorem rc_arg1_0_31 : R31 V (Proc.devRef .tc main_arg1) = R0 V (Proc.devRef .tc main_arg1) :=
  (keepS30 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg1_0_30 V)
theorem rc_arg1_0_32 : R32 V (Proc.devRef .tc main_arg1) = R0 V (Proc.devRef .tc main_arg1) :=
  (keepS31 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg1_0_31 V)
theorem rc_arg1_0_33 : R33 V (Proc.devRef .tc main_arg1) = R0 V (Proc.devRef .tc main_arg1) :=
  (keepS32 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg1_0_32 V)
theorem rc_arg1_0_34 : R34 V (Proc.devRef .tc main_arg1) = R0 V (Proc.devRef .tc main_arg1) :=
  (keepS33 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg1_0_33 V)
theorem rc_arg1_0_35 : R35 V (Proc.devRef .tc main_arg1) = R0 V (Proc.devRef .tc main_arg1) :=
  (keepS34 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg1_0_34 V)
theorem rc_arg1_0_36 : R36 V (Proc.devRef .tc main_arg1) = R0 V (Proc.devRef .tc main_arg1) :=
  (keepS35 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg1_0_35 V)
theorem rc_arg1_0_37 : R37 V (Proc.devRef .tc main_arg1) = R0 V (Proc.devRef .tc main_arg1) :=
  (keepS36 main_arg1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg1_0_36 V)

theorem rc_arg2_0_1 : R1 V (Proc.devRef .tc main_arg2) = R0 V (Proc.devRef .tc main_arg2) :=
  (keepS0 main_arg2 (Cert.Carry.allc (by decide) (Cert.Carry.allc (by decide) (Cert.Carry.allc (by decide) (Cert.Carry.allc (by decide) (Cert.Carry.allc (by decide) (Cert.Carry.alln)))))) _).trans (rfl)
theorem rc_arg2_0_2 : R2 V (Proc.devRef .tc main_arg2) = R0 V (Proc.devRef .tc main_arg2) :=
  (keepS1 main_arg2 (Cert.Carry.allc (by decide) (Cert.Carry.allc (by decide) (Cert.Carry.allc (by decide) (Cert.Carry.allc (by decide) (Cert.Carry.allc (by decide) (Cert.Carry.alln)))))) _).trans (rc_arg2_0_1 V)
theorem rc_arg2_0_3 : R3 V (Proc.devRef .tc main_arg2) = R0 V (Proc.devRef .tc main_arg2) :=
  (keepS2 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_2 V)
theorem rc_arg2_0_4 : R4 V (Proc.devRef .tc main_arg2) = R0 V (Proc.devRef .tc main_arg2) :=
  (keepS3 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_3 V)
theorem rc_arg2_0_5 : R5 V (Proc.devRef .tc main_arg2) = R0 V (Proc.devRef .tc main_arg2) :=
  (keepS4 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_4 V)
theorem rc_arg2_0_6 : R6 V (Proc.devRef .tc main_arg2) = R0 V (Proc.devRef .tc main_arg2) :=
  (keepS5 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_5 V)
theorem rc_arg2_0_7 : R7 V (Proc.devRef .tc main_arg2) = R0 V (Proc.devRef .tc main_arg2) :=
  (keepS6 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_6 V)
theorem rc_arg2_0_8 : R8 V (Proc.devRef .tc main_arg2) = R0 V (Proc.devRef .tc main_arg2) :=
  (keepS7 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_7 V)
theorem rc_arg2_0_9 : R9 V (Proc.devRef .tc main_arg2) = R0 V (Proc.devRef .tc main_arg2) :=
  (keepS8 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg2_0_8 V)
theorem rc_arg2_0_10 : R10 V (Proc.devRef .tc main_arg2) = R0 V (Proc.devRef .tc main_arg2) :=
  (keepS9 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg2_0_9 V)
theorem rc_arg2_0_11 : R11 V (Proc.devRef .tc main_arg2) = R0 V (Proc.devRef .tc main_arg2) :=
  (keepS10 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg2_0_10 V)
theorem rc_arg2_0_12 : R12 V (Proc.devRef .tc main_arg2) = R0 V (Proc.devRef .tc main_arg2) :=
  (keepS11 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg2_0_11 V)
theorem rc_arg2_0_13 : R13 V (Proc.devRef .tc main_arg2) = R0 V (Proc.devRef .tc main_arg2) :=
  (keepS12 main_arg2 (Cert.Carry.allc (by decide) (Cert.Carry.allc (by decide) (Cert.Carry.allc (by decide) (Cert.Carry.alln)))) _).trans (rc_arg2_0_12 V)
theorem rc_arg2_0_14 : R14 V (Proc.devRef .tc main_arg2) = R0 V (Proc.devRef .tc main_arg2) :=
  (keepS13 main_arg2 (Cert.Carry.allc (by decide) (Cert.Carry.allc (by decide) (Cert.Carry.allc (by decide) (Cert.Carry.alln)))) _).trans (rc_arg2_0_13 V)
theorem rc_arg2_0_15 : R15 V (Proc.devRef .tc main_arg2) = R0 V (Proc.devRef .tc main_arg2) :=
  (keepS14 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_14 V)
theorem rc_arg2_0_16 : R16 V (Proc.devRef .tc main_arg2) = R0 V (Proc.devRef .tc main_arg2) :=
  (keepS15 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_15 V)
theorem rc_arg2_0_17 : R17 V (Proc.devRef .tc main_arg2) = R0 V (Proc.devRef .tc main_arg2) :=
  (keepS16 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_16 V)
theorem rc_arg2_0_18 : R18 V (Proc.devRef .tc main_arg2) = R0 V (Proc.devRef .tc main_arg2) :=
  (keepS17 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_17 V)
theorem rc_arg2_0_19 : R19 V (Proc.devRef .tc main_arg2) = R0 V (Proc.devRef .tc main_arg2) :=
  (keepS18 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_18 V)
theorem rc_arg2_0_20 : R20 V (Proc.devRef .tc main_arg2) = R0 V (Proc.devRef .tc main_arg2) :=
  (keepS19 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_19 V)
theorem rc_arg2_0_21 : R21 V (Proc.devRef .tc main_arg2) = R0 V (Proc.devRef .tc main_arg2) :=
  (keepS20 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg2_0_20 V)
theorem rc_arg2_0_22 : R22 V (Proc.devRef .tc main_arg2) = R0 V (Proc.devRef .tc main_arg2) :=
  (keepS21 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg2_0_21 V)
theorem rc_arg2_0_23 : R23 V (Proc.devRef .tc main_arg2) = R0 V (Proc.devRef .tc main_arg2) :=
  (keepS22 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg2_0_22 V)
theorem rc_arg2_0_24 : R24 V (Proc.devRef .tc main_arg2) = R0 V (Proc.devRef .tc main_arg2) :=
  (keepS23 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg2_0_23 V)
theorem rc_arg2_0_25 : R25 V (Proc.devRef .tc main_arg2) = R0 V (Proc.devRef .tc main_arg2) :=
  (keepS24 main_arg2 (Cert.Carry.allc (by decide) (Cert.Carry.allc (by decide) (Cert.Carry.allc (by decide) (Cert.Carry.alln)))) _).trans (rc_arg2_0_24 V)
theorem rc_arg2_0_26 : R26 V (Proc.devRef .tc main_arg2) = R0 V (Proc.devRef .tc main_arg2) :=
  (keepS25 main_arg2 (Cert.Carry.allc (by decide) (Cert.Carry.allc (by decide) (Cert.Carry.allc (by decide) (Cert.Carry.alln)))) _).trans (rc_arg2_0_25 V)
theorem rc_arg2_0_27 : R27 V (Proc.devRef .tc main_arg2) = R0 V (Proc.devRef .tc main_arg2) :=
  (keepS26 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_26 V)
theorem rc_arg2_0_28 : R28 V (Proc.devRef .tc main_arg2) = R0 V (Proc.devRef .tc main_arg2) :=
  (keepS27 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_27 V)
theorem rc_arg2_0_29 : R29 V (Proc.devRef .tc main_arg2) = R0 V (Proc.devRef .tc main_arg2) :=
  (keepS28 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_28 V)
theorem rc_arg2_0_30 : R30 V (Proc.devRef .tc main_arg2) = R0 V (Proc.devRef .tc main_arg2) :=
  (keepS29 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_29 V)
theorem rc_arg2_0_31 : R31 V (Proc.devRef .tc main_arg2) = R0 V (Proc.devRef .tc main_arg2) :=
  (keepS30 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg2_0_30 V)
theorem rc_arg2_0_32 : R32 V (Proc.devRef .tc main_arg2) = R0 V (Proc.devRef .tc main_arg2) :=
  (keepS31 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg2_0_31 V)
theorem rc_arg2_0_33 : R33 V (Proc.devRef .tc main_arg2) = R0 V (Proc.devRef .tc main_arg2) :=
  (keepS32 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg2_0_32 V)
theorem rc_arg2_0_34 : R34 V (Proc.devRef .tc main_arg2) = R0 V (Proc.devRef .tc main_arg2) :=
  (keepS33 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg2_0_33 V)
theorem rc_arg2_0_35 : R35 V (Proc.devRef .tc main_arg2) = R0 V (Proc.devRef .tc main_arg2) :=
  (keepS34 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg2_0_34 V)
theorem rc_arg2_0_36 : R36 V (Proc.devRef .tc main_arg2) = R0 V (Proc.devRef .tc main_arg2) :=
  (keepS35 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg2_0_35 V)
theorem rc_arg2_0_37 : R37 V (Proc.devRef .tc main_arg2) = R0 V (Proc.devRef .tc main_arg2) :=
  (keepS36 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg2_0_36 V)

theorem rc_arg3_0_1 : R1 V (Proc.devRef .tc main_arg3) = R0 V (Proc.devRef .tc main_arg3) :=
  (keepS0 main_arg3 (Cert.Carry.allc (by decide) (Cert.Carry.allc (by decide) (Cert.Carry.allc (by decide) (Cert.Carry.allc (by decide) (Cert.Carry.allc (by decide) (Cert.Carry.alln)))))) _).trans (rfl)
theorem rc_arg3_0_2 : R2 V (Proc.devRef .tc main_arg3) = R0 V (Proc.devRef .tc main_arg3) :=
  (keepS1 main_arg3 (Cert.Carry.allc (by decide) (Cert.Carry.allc (by decide) (Cert.Carry.allc (by decide) (Cert.Carry.allc (by decide) (Cert.Carry.allc (by decide) (Cert.Carry.alln)))))) _).trans (rc_arg3_0_1 V)
theorem rc_arg3_0_3 : R3 V (Proc.devRef .tc main_arg3) = R0 V (Proc.devRef .tc main_arg3) :=
  (keepS2 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_2 V)
theorem rc_arg3_0_4 : R4 V (Proc.devRef .tc main_arg3) = R0 V (Proc.devRef .tc main_arg3) :=
  (keepS3 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_3 V)
theorem rc_arg3_0_5 : R5 V (Proc.devRef .tc main_arg3) = R0 V (Proc.devRef .tc main_arg3) :=
  (keepS4 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_4 V)
theorem rc_arg3_0_6 : R6 V (Proc.devRef .tc main_arg3) = R0 V (Proc.devRef .tc main_arg3) :=
  (keepS5 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_5 V)
theorem rc_arg3_0_7 : R7 V (Proc.devRef .tc main_arg3) = R0 V (Proc.devRef .tc main_arg3) :=
  (keepS6 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_6 V)
theorem rc_arg3_0_8 : R8 V (Proc.devRef .tc main_arg3) = R0 V (Proc.devRef .tc main_arg3) :=
  (keepS7 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_7 V)
theorem rc_arg3_0_9 : R9 V (Proc.devRef .tc main_arg3) = R0 V (Proc.devRef .tc main_arg3) :=
  (keepS8 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg3_0_8 V)
theorem rc_arg3_0_10 : R10 V (Proc.devRef .tc main_arg3) = R0 V (Proc.devRef .tc main_arg3) :=
  (keepS9 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg3_0_9 V)
theorem rc_arg3_0_11 : R11 V (Proc.devRef .tc main_arg3) = R0 V (Proc.devRef .tc main_arg3) :=
  (keepS10 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg3_0_10 V)
theorem rc_arg3_0_12 : R12 V (Proc.devRef .tc main_arg3) = R0 V (Proc.devRef .tc main_arg3) :=
  (keepS11 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg3_0_11 V)
theorem rc_arg3_0_13 : R13 V (Proc.devRef .tc main_arg3) = R0 V (Proc.devRef .tc main_arg3) :=
  (keepS12 main_arg3 (Cert.Carry.allc (by decide) (Cert.Carry.allc (by decide) (Cert.Carry.allc (by decide) (Cert.Carry.alln)))) _).trans (rc_arg3_0_12 V)
theorem rc_arg3_0_14 : R14 V (Proc.devRef .tc main_arg3) = R0 V (Proc.devRef .tc main_arg3) :=
  (keepS13 main_arg3 (Cert.Carry.allc (by decide) (Cert.Carry.allc (by decide) (Cert.Carry.allc (by decide) (Cert.Carry.alln)))) _).trans (rc_arg3_0_13 V)
theorem rc_arg3_0_15 : R15 V (Proc.devRef .tc main_arg3) = R0 V (Proc.devRef .tc main_arg3) :=
  (keepS14 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_14 V)
theorem rc_arg3_0_16 : R16 V (Proc.devRef .tc main_arg3) = R0 V (Proc.devRef .tc main_arg3) :=
  (keepS15 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_15 V)
theorem rc_arg3_0_17 : R17 V (Proc.devRef .tc main_arg3) = R0 V (Proc.devRef .tc main_arg3) :=
  (keepS16 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_16 V)
theorem rc_arg3_0_18 : R18 V (Proc.devRef .tc main_arg3) = R0 V (Proc.devRef .tc main_arg3) :=
  (keepS17 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_17 V)
theorem rc_arg3_0_19 : R19 V (Proc.devRef .tc main_arg3) = R0 V (Proc.devRef .tc main_arg3) :=
  (keepS18 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_18 V)
theorem rc_arg3_0_20 : R20 V (Proc.devRef .tc main_arg3) = R0 V (Proc.devRef .tc main_arg3) :=
  (keepS19 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_19 V)
theorem rc_arg3_0_21 : R21 V (Proc.devRef .tc main_arg3) = R0 V (Proc.devRef .tc main_arg3) :=
  (keepS20 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg3_0_20 V)
theorem rc_arg3_0_22 : R22 V (Proc.devRef .tc main_arg3) = R0 V (Proc.devRef .tc main_arg3) :=
  (keepS21 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg3_0_21 V)
theorem rc_arg3_0_23 : R23 V (Proc.devRef .tc main_arg3) = R0 V (Proc.devRef .tc main_arg3) :=
  (keepS22 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg3_0_22 V)
theorem rc_arg3_0_24 : R24 V (Proc.devRef .tc main_arg3) = R0 V (Proc.devRef .tc main_arg3) :=
  (keepS23 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg3_0_23 V)
theorem rc_arg3_0_25 : R25 V (Proc.devRef .tc main_arg3) = R0 V (Proc.devRef .tc main_arg3) :=
  (keepS24 main_arg3 (Cert.Carry.allc (by decide) (Cert.Carry.allc (by decide) (Cert.Carry.allc (by decide) (Cert.Carry.alln)))) _).trans (rc_arg3_0_24 V)
theorem rc_arg3_0_26 : R26 V (Proc.devRef .tc main_arg3) = R0 V (Proc.devRef .tc main_arg3) :=
  (keepS25 main_arg3 (Cert.Carry.allc (by decide) (Cert.Carry.allc (by decide) (Cert.Carry.allc (by decide) (Cert.Carry.alln)))) _).trans (rc_arg3_0_25 V)
theorem rc_arg3_0_27 : R27 V (Proc.devRef .tc main_arg3) = R0 V (Proc.devRef .tc main_arg3) :=
  (keepS26 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_26 V)
theorem rc_arg3_0_28 : R28 V (Proc.devRef .tc main_arg3) = R0 V (Proc.devRef .tc main_arg3) :=
  (keepS27 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_27 V)
theorem rc_arg3_0_29 : R29 V (Proc.devRef .tc main_arg3) = R0 V (Proc.devRef .tc main_arg3) :=
  (keepS28 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_28 V)
theorem rc_arg3_0_30 : R30 V (Proc.devRef .tc main_arg3) = R0 V (Proc.devRef .tc main_arg3) :=
  (keepS29 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_29 V)
theorem rc_arg3_0_31 : R31 V (Proc.devRef .tc main_arg3) = R0 V (Proc.devRef .tc main_arg3) :=
  (keepS30 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg3_0_30 V)
theorem rc_arg3_0_32 : R32 V (Proc.devRef .tc main_arg3) = R0 V (Proc.devRef .tc main_arg3) :=
  (keepS31 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg3_0_31 V)
theorem rc_arg3_0_33 : R33 V (Proc.devRef .tc main_arg3) = R0 V (Proc.devRef .tc main_arg3) :=
  (keepS32 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg3_0_32 V)
theorem rc_arg3_0_34 : R34 V (Proc.devRef .tc main_arg3) = R0 V (Proc.devRef .tc main_arg3) :=
  (keepS33 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg3_0_33 V)
theorem rc_arg3_0_35 : R35 V (Proc.devRef .tc main_arg3) = R0 V (Proc.devRef .tc main_arg3) :=
  (keepS34 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg3_0_34 V)
theorem rc_arg3_0_36 : R36 V (Proc.devRef .tc main_arg3) = R0 V (Proc.devRef .tc main_arg3) :=
  (keepS35 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg3_0_35 V)
theorem rc_arg3_0_37 : R37 V (Proc.devRef .tc main_arg3) = R0 V (Proc.devRef .tc main_arg3) :=
  (keepS36 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg3_0_36 V)

theorem rc_arg4_0_1 : R1 V (Proc.devRef .tc main_arg4) = R0 V (Proc.devRef .tc main_arg4) :=
  (keepS0 main_arg4 (Cert.Carry.allc (by decide) (Cert.Carry.allc (by decide) (Cert.Carry.allc (by decide) (Cert.Carry.allc (by decide) (Cert.Carry.allc (by decide) (Cert.Carry.alln)))))) _).trans (rfl)
theorem rc_arg4_0_2 : R2 V (Proc.devRef .tc main_arg4) = R0 V (Proc.devRef .tc main_arg4) :=
  (keepS1 main_arg4 (Cert.Carry.allc (by decide) (Cert.Carry.allc (by decide) (Cert.Carry.allc (by decide) (Cert.Carry.allc (by decide) (Cert.Carry.allc (by decide) (Cert.Carry.alln)))))) _).trans (rc_arg4_0_1 V)
theorem rc_arg4_0_3 : R3 V (Proc.devRef .tc main_arg4) = R0 V (Proc.devRef .tc main_arg4) :=
  (keepS2 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_2 V)
theorem rc_arg4_0_4 : R4 V (Proc.devRef .tc main_arg4) = R0 V (Proc.devRef .tc main_arg4) :=
  (keepS3 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_3 V)
theorem rc_arg4_0_5 : R5 V (Proc.devRef .tc main_arg4) = R0 V (Proc.devRef .tc main_arg4) :=
  (keepS4 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_4 V)
theorem rc_arg4_0_6 : R6 V (Proc.devRef .tc main_arg4) = R0 V (Proc.devRef .tc main_arg4) :=
  (keepS5 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_5 V)
theorem rc_arg4_0_7 : R7 V (Proc.devRef .tc main_arg4) = R0 V (Proc.devRef .tc main_arg4) :=
  (keepS6 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_6 V)
theorem rc_arg4_0_8 : R8 V (Proc.devRef .tc main_arg4) = R0 V (Proc.devRef .tc main_arg4) :=
  (keepS7 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_7 V)
theorem rc_arg4_0_9 : R9 V (Proc.devRef .tc main_arg4) = R0 V (Proc.devRef .tc main_arg4) :=
  (keepS8 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg4_0_8 V)
theorem rc_arg4_0_10 : R10 V (Proc.devRef .tc main_arg4) = R0 V (Proc.devRef .tc main_arg4) :=
  (keepS9 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg4_0_9 V)
theorem rc_arg4_0_11 : R11 V (Proc.devRef .tc main_arg4) = R0 V (Proc.devRef .tc main_arg4) :=
  (keepS10 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg4_0_10 V)
theorem rc_arg4_0_12 : R12 V (Proc.devRef .tc main_arg4) = R0 V (Proc.devRef .tc main_arg4) :=
  (keepS11 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg4_0_11 V)
theorem rc_arg4_0_13 : R13 V (Proc.devRef .tc main_arg4) = R0 V (Proc.devRef .tc main_arg4) :=
  (keepS12 main_arg4 (Cert.Carry.allc (by decide) (Cert.Carry.allc (by decide) (Cert.Carry.allc (by decide) (Cert.Carry.alln)))) _).trans (rc_arg4_0_12 V)
theorem rc_arg4_0_14 : R14 V (Proc.devRef .tc main_arg4) = R0 V (Proc.devRef .tc main_arg4) :=
  (keepS13 main_arg4 (Cert.Carry.allc (by decide) (Cert.Carry.allc (by decide) (Cert.Carry.allc (by decide) (Cert.Carry.alln)))) _).trans (rc_arg4_0_13 V)
theorem rc_arg4_0_15 : R15 V (Proc.devRef .tc main_arg4) = R0 V (Proc.devRef .tc main_arg4) :=
  (keepS14 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_14 V)
theorem rc_arg4_0_16 : R16 V (Proc.devRef .tc main_arg4) = R0 V (Proc.devRef .tc main_arg4) :=
  (keepS15 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_15 V)
theorem rc_arg4_0_17 : R17 V (Proc.devRef .tc main_arg4) = R0 V (Proc.devRef .tc main_arg4) :=
  (keepS16 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_16 V)
theorem rc_arg4_0_18 : R18 V (Proc.devRef .tc main_arg4) = R0 V (Proc.devRef .tc main_arg4) :=
  (keepS17 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_17 V)
theorem rc_arg4_0_19 : R19 V (Proc.devRef .tc main_arg4) = R0 V (Proc.devRef .tc main_arg4) :=
  (keepS18 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_18 V)
theorem rc_arg4_0_20 : R20 V (Proc.devRef .tc main_arg4) = R0 V (Proc.devRef .tc main_arg4) :=
  (keepS19 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_19 V)
theorem rc_arg4_0_21 : R21 V (Proc.devRef .tc main_arg4) = R0 V (Proc.devRef .tc main_arg4) :=
  (keepS20 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg4_0_20 V)
theorem rc_arg4_0_22 : R22 V (Proc.devRef .tc main_arg4) = R0 V (Proc.devRef .tc main_arg4) :=
  (keepS21 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg4_0_21 V)
theorem rc_arg4_0_23 : R23 V (Proc.devRef .tc main_arg4) = R0 V (Proc.devRef .tc main_arg4) :=
  (keepS22 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg4_0_22 V)
theorem rc_arg4_0_24 : R24 V (Proc.devRef .tc main_arg4) = R0 V (Proc.devRef .tc main_arg4) :=
  (keepS23 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg4_0_23 V)
theorem rc_arg4_0_25 : R25 V (Proc.devRef .tc main_arg4) = R0 V (Proc.devRef .tc main_arg4) :=
  (keepS24 main_arg4 (Cert.Carry.allc (by decide) (Cert.Carry.allc (by decide) (Cert.Carry.allc (by decide) (Cert.Carry.alln)))) _).trans (rc_arg4_0_24 V)
theorem rc_arg4_0_26 : R26 V (Proc.devRef .tc main_arg4) = R0 V (Proc.devRef .tc main_arg4) :=
  (keepS25 main_arg4 (Cert.Carry.allc (by decide) (Cert.Carry.allc (by decide) (Cert.Carry.allc (by decide) (Cert.Carry.alln)))) _).trans (rc_arg4_0_25 V)
theorem rc_arg4_0_27 : R27 V (Proc.devRef .tc main_arg4) = R0 V (Proc.devRef .tc main_arg4) :=
  (keepS26 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_26 V)
theorem rc_arg4_0_28 : R28 V (Proc.devRef .tc main_arg4) = R0 V (Proc.devRef .tc main_arg4) :=
  (keepS27 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_27 V)
theorem rc_arg4_0_29 : R29 V (Proc.devRef .tc main_arg4) = R0 V (Proc.devRef .tc main_arg4) :=
  (keepS28 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_28 V)
theorem rc_arg4_0_30 : R30 V (Proc.devRef .tc main_arg4) = R0 V (Proc.devRef .tc main_arg4) :=
  (keepS29 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_29 V)
theorem rc_arg4_0_31 : R31 V (Proc.devRef .tc main_arg4) = R0 V (Proc.devRef .tc main_arg4) :=
  (keepS30 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg4_0_30 V)
theorem rc_arg4_0_32 : R32 V (Proc.devRef .tc main_arg4) = R0 V (Proc.devRef .tc main_arg4) :=
  (keepS31 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg4_0_31 V)
theorem rc_arg4_0_33 : R33 V (Proc.devRef .tc main_arg4) = R0 V (Proc.devRef .tc main_arg4) :=
  (keepS32 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg4_0_32 V)
theorem rc_arg4_0_34 : R34 V (Proc.devRef .tc main_arg4) = R0 V (Proc.devRef .tc main_arg4) :=
  (keepS33 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg4_0_33 V)
theorem rc_arg4_0_35 : R35 V (Proc.devRef .tc main_arg4) = R0 V (Proc.devRef .tc main_arg4) :=
  (keepS34 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg4_0_34 V)
theorem rc_arg4_0_36 : R36 V (Proc.devRef .tc main_arg4) = R0 V (Proc.devRef .tc main_arg4) :=
  (keepS35 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg4_0_35 V)
theorem rc_arg4_0_37 : R37 V (Proc.devRef .tc main_arg4) = R0 V (Proc.devRef .tc main_arg4) :=
  (keepS36 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg4_0_36 V)

theorem rc_arg5_0_1 : R1 V (Proc.devRef .tc main_arg5) = R0 V (Proc.devRef .tc main_arg5) :=
  (keepS0 main_arg5 (Cert.Carry.allc (by decide) (Cert.Carry.allc (by decide) (Cert.Carry.allc (by decide) (Cert.Carry.allc (by decide) (Cert.Carry.allc (by decide) (Cert.Carry.alln)))))) _).trans (rfl)
theorem rc_arg5_0_2 : R2 V (Proc.devRef .tc main_arg5) = R0 V (Proc.devRef .tc main_arg5) :=
  (keepS1 main_arg5 (Cert.Carry.allc (by decide) (Cert.Carry.allc (by decide) (Cert.Carry.allc (by decide) (Cert.Carry.allc (by decide) (Cert.Carry.allc (by decide) (Cert.Carry.alln)))))) _).trans (rc_arg5_0_1 V)
theorem rc_arg5_0_3 : R3 V (Proc.devRef .tc main_arg5) = R0 V (Proc.devRef .tc main_arg5) :=
  (keepS2 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_2 V)
theorem rc_arg5_0_4 : R4 V (Proc.devRef .tc main_arg5) = R0 V (Proc.devRef .tc main_arg5) :=
  (keepS3 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_3 V)
theorem rc_arg5_0_5 : R5 V (Proc.devRef .tc main_arg5) = R0 V (Proc.devRef .tc main_arg5) :=
  (keepS4 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_4 V)
theorem rc_arg5_0_6 : R6 V (Proc.devRef .tc main_arg5) = R0 V (Proc.devRef .tc main_arg5) :=
  (keepS5 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_5 V)
theorem rc_arg5_0_7 : R7 V (Proc.devRef .tc main_arg5) = R0 V (Proc.devRef .tc main_arg5) :=
  (keepS6 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_6 V)
theorem rc_arg5_0_8 : R8 V (Proc.devRef .tc main_arg5) = R0 V (Proc.devRef .tc main_arg5) :=
  (keepS7 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_7 V)
theorem rc_arg5_0_9 : R9 V (Proc.devRef .tc main_arg5) = R0 V (Proc.devRef .tc main_arg5) :=
  (keepS8 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg5_0_8 V)
theorem rc_arg5_0_10 : R10 V (Proc.devRef .tc main_arg5) = R0 V (Proc.devRef .tc main_arg5) :=
  (keepS9 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg5_0_9 V)
theorem rc_arg5_0_11 : R11 V (Proc.devRef .tc main_arg5) = R0 V (Proc.devRef .tc main_arg5) :=
  (keepS10 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg5_0_10 V)
theorem rc_arg5_0_12 : R12 V (Proc.devRef .tc main_arg5) = R0 V (Proc.devRef .tc main_arg5) :=
  (keepS11 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg5_0_11 V)
theorem rc_arg5_0_13 : R13 V (Proc.devRef .tc main_arg5) = R0 V (Proc.devRef .tc main_arg5) :=
  (keepS12 main_arg5 (Cert.Carry.allc (by decide) (Cert.Carry.allc (by decide) (Cert.Carry.allc (by decide) (Cert.Carry.alln)))) _).trans (rc_arg5_0_12 V)
theorem rc_arg5_0_14 : R14 V (Proc.devRef .tc main_arg5) = R0 V (Proc.devRef .tc main_arg5) :=
  (keepS13 main_arg5 (Cert.Carry.allc (by decide) (Cert.Carry.allc (by decide) (Cert.Carry.allc (by decide) (Cert.Carry.alln)))) _).trans (rc_arg5_0_13 V)
theorem rc_arg5_0_15 : R15 V (Proc.devRef .tc main_arg5) = R0 V (Proc.devRef .tc main_arg5) :=
  (keepS14 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_14 V)
theorem rc_arg5_0_16 : R16 V (Proc.devRef .tc main_arg5) = R0 V (Proc.devRef .tc main_arg5) :=
  (keepS15 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_15 V)
theorem rc_arg5_0_17 : R17 V (Proc.devRef .tc main_arg5) = R0 V (Proc.devRef .tc main_arg5) :=
  (keepS16 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_16 V)
theorem rc_arg5_0_18 : R18 V (Proc.devRef .tc main_arg5) = R0 V (Proc.devRef .tc main_arg5) :=
  (keepS17 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_17 V)
theorem rc_arg5_0_19 : R19 V (Proc.devRef .tc main_arg5) = R0 V (Proc.devRef .tc main_arg5) :=
  (keepS18 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_18 V)
theorem rc_arg5_0_20 : R20 V (Proc.devRef .tc main_arg5) = R0 V (Proc.devRef .tc main_arg5) :=
  (keepS19 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_19 V)
theorem rc_arg5_0_21 : R21 V (Proc.devRef .tc main_arg5) = R0 V (Proc.devRef .tc main_arg5) :=
  (keepS20 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg5_0_20 V)
theorem rc_arg5_0_22 : R22 V (Proc.devRef .tc main_arg5) = R0 V (Proc.devRef .tc main_arg5) :=
  (keepS21 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg5_0_21 V)
theorem rc_arg5_0_23 : R23 V (Proc.devRef .tc main_arg5) = R0 V (Proc.devRef .tc main_arg5) :=
  (keepS22 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg5_0_22 V)
theorem rc_arg5_0_24 : R24 V (Proc.devRef .tc main_arg5) = R0 V (Proc.devRef .tc main_arg5) :=
  (keepS23 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg5_0_23 V)
theorem rc_arg5_0_25 : R25 V (Proc.devRef .tc main_arg5) = R0 V (Proc.devRef .tc main_arg5) :=
  (keepS24 main_arg5 (Cert.Carry.allc (by decide) (Cert.Carry.allc (by decide) (Cert.Carry.allc (by decide) (Cert.Carry.alln)))) _).trans (rc_arg5_0_24 V)
theorem rc_arg5_0_26 : R26 V (Proc.devRef .tc main_arg5) = R0 V (Proc.devRef .tc main_arg5) :=
  (keepS25 main_arg5 (Cert.Carry.allc (by decide) (Cert.Carry.allc (by decide) (Cert.Carry.allc (by decide) (Cert.Carry.alln)))) _).trans (rc_arg5_0_25 V)
theorem rc_arg5_0_27 : R27 V (Proc.devRef .tc main_arg5) = R0 V (Proc.devRef .tc main_arg5) :=
  (keepS26 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_26 V)
theorem rc_arg5_0_28 : R28 V (Proc.devRef .tc main_arg5) = R0 V (Proc.devRef .tc main_arg5) :=
  (keepS27 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_27 V)
theorem rc_arg5_0_29 : R29 V (Proc.devRef .tc main_arg5) = R0 V (Proc.devRef .tc main_arg5) :=
  (keepS28 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_28 V)
theorem rc_arg5_0_30 : R30 V (Proc.devRef .tc main_arg5) = R0 V (Proc.devRef .tc main_arg5) :=
  (keepS29 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_29 V)
theorem rc_arg5_0_31 : R31 V (Proc.devRef .tc main_arg5) = R0 V (Proc.devRef .tc main_arg5) :=
  (keepS30 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg5_0_30 V)
theorem rc_arg5_0_32 : R32 V (Proc.devRef .tc main_arg5) = R0 V (Proc.devRef .tc main_arg5) :=
  (keepS31 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg5_0_31 V)
theorem rc_arg5_0_33 : R33 V (Proc.devRef .tc main_arg5) = R0 V (Proc.devRef .tc main_arg5) :=
  (keepS32 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg5_0_32 V)
theorem rc_arg5_0_34 : R34 V (Proc.devRef .tc main_arg5) = R0 V (Proc.devRef .tc main_arg5) :=
  (keepS33 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg5_0_33 V)
theorem rc_arg5_0_35 : R35 V (Proc.devRef .tc main_arg5) = R0 V (Proc.devRef .tc main_arg5) :=
  (keepS34 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg5_0_34 V)
theorem rc_arg5_0_36 : R36 V (Proc.devRef .tc main_arg5) = R0 V (Proc.devRef .tc main_arg5) :=
  (keepS35 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg5_0_35 V)
theorem rc_arg5_0_37 : R37 V (Proc.devRef .tc main_arg5) = R0 V (Proc.devRef .tc main_arg5) :=
  (keepS36 main_arg5 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg5_0_36 V)

theorem rc_arg6_0_1 : R1 V (Proc.devRef .tc main_arg6) = R0 V (Proc.devRef .tc main_arg6) :=
  (keepS0 main_arg6 (Cert.Carry.allc (by decide) (Cert.Carry.allc (by decide) (Cert.Carry.allc (by decide) (Cert.Carry.allc (by decide) (Cert.Carry.allc (by decide) (Cert.Carry.alln)))))) _).trans (rfl)
theorem rc_arg6_0_2 : R2 V (Proc.devRef .tc main_arg6) = R0 V (Proc.devRef .tc main_arg6) :=
  (keepS1 main_arg6 (Cert.Carry.allc (by decide) (Cert.Carry.allc (by decide) (Cert.Carry.allc (by decide) (Cert.Carry.allc (by decide) (Cert.Carry.allc (by decide) (Cert.Carry.alln)))))) _).trans (rc_arg6_0_1 V)
theorem rc_arg6_0_3 : R3 V (Proc.devRef .tc main_arg6) = R0 V (Proc.devRef .tc main_arg6) :=
  (keepS2 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_2 V)
theorem rc_arg6_0_4 : R4 V (Proc.devRef .tc main_arg6) = R0 V (Proc.devRef .tc main_arg6) :=
  (keepS3 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_3 V)
theorem rc_arg6_0_5 : R5 V (Proc.devRef .tc main_arg6) = R0 V (Proc.devRef .tc main_arg6) :=
  (keepS4 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_4 V)
theorem rc_arg6_0_6 : R6 V (Proc.devRef .tc main_arg6) = R0 V (Proc.devRef .tc main_arg6) :=
  (keepS5 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_5 V)
theorem rc_arg6_0_7 : R7 V (Proc.devRef .tc main_arg6) = R0 V (Proc.devRef .tc main_arg6) :=
  (keepS6 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_6 V)
theorem rc_arg6_0_8 : R8 V (Proc.devRef .tc main_arg6) = R0 V (Proc.devRef .tc main_arg6) :=
  (keepS7 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_7 V)
theorem rc_arg6_0_9 : R9 V (Proc.devRef .tc main_arg6) = R0 V (Proc.devRef .tc main_arg6) :=
  (keepS8 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg6_0_8 V)
theorem rc_arg6_0_10 : R10 V (Proc.devRef .tc main_arg6) = R0 V (Proc.devRef .tc main_arg6) :=
  (keepS9 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg6_0_9 V)
theorem rc_arg6_0_11 : R11 V (Proc.devRef .tc main_arg6) = R0 V (Proc.devRef .tc main_arg6) :=
  (keepS10 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg6_0_10 V)
theorem rc_arg6_0_12 : R12 V (Proc.devRef .tc main_arg6) = R0 V (Proc.devRef .tc main_arg6) :=
  (keepS11 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg6_0_11 V)
theorem rc_arg6_0_13 : R13 V (Proc.devRef .tc main_arg6) = R0 V (Proc.devRef .tc main_arg6) :=
  (keepS12 main_arg6 (Cert.Carry.allc (by decide) (Cert.Carry.allc (by decide) (Cert.Carry.allc (by decide) (Cert.Carry.alln)))) _).trans (rc_arg6_0_12 V)
theorem rc_arg6_0_14 : R14 V (Proc.devRef .tc main_arg6) = R0 V (Proc.devRef .tc main_arg6) :=
  (keepS13 main_arg6 (Cert.Carry.allc (by decide) (Cert.Carry.allc (by decide) (Cert.Carry.allc (by decide) (Cert.Carry.alln)))) _).trans (rc_arg6_0_13 V)
theorem rc_arg6_0_15 : R15 V (Proc.devRef .tc main_arg6) = R0 V (Proc.devRef .tc main_arg6) :=
  (keepS14 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_14 V)
theorem rc_arg6_0_16 : R16 V (Proc.devRef .tc main_arg6) = R0 V (Proc.devRef .tc main_arg6) :=
  (keepS15 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_15 V)
theorem rc_arg6_0_17 : R17 V (Proc.devRef .tc main_arg6) = R0 V (Proc.devRef .tc main_arg6) :=
  (keepS16 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_16 V)
theorem rc_arg6_0_18 : R18 V (Proc.devRef .tc main_arg6) = R0 V (Proc.devRef .tc main_arg6) :=
  (keepS17 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_17 V)
theorem rc_arg6_0_19 : R19 V (Proc.devRef .tc main_arg6) = R0 V (Proc.devRef .tc main_arg6) :=
  (keepS18 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_18 V)
theorem rc_arg6_0_20 : R20 V (Proc.devRef .tc main_arg6) = R0 V (Proc.devRef .tc main_arg6) :=
  (keepS19 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_19 V)
theorem rc_arg6_0_21 : R21 V (Proc.devRef .tc main_arg6) = R0 V (Proc.devRef .tc main_arg6) :=
  (keepS20 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg6_0_20 V)
theorem rc_arg6_0_22 : R22 V (Proc.devRef .tc main_arg6) = R0 V (Proc.devRef .tc main_arg6) :=
  (keepS21 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg6_0_21 V)
theorem rc_arg6_0_23 : R23 V (Proc.devRef .tc main_arg6) = R0 V (Proc.devRef .tc main_arg6) :=
  (keepS22 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg6_0_22 V)
theorem rc_arg6_0_24 : R24 V (Proc.devRef .tc main_arg6) = R0 V (Proc.devRef .tc main_arg6) :=
  (keepS23 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg6_0_23 V)
theorem rc_arg6_0_25 : R25 V (Proc.devRef .tc main_arg6) = R0 V (Proc.devRef .tc main_arg6) :=
  (keepS24 main_arg6 (Cert.Carry.allc (by decide) (Cert.Carry.allc (by decide) (Cert.Carry.allc (by decide) (Cert.Carry.alln)))) _).trans (rc_arg6_0_24 V)
theorem rc_arg6_0_26 : R26 V (Proc.devRef .tc main_arg6) = R0 V (Proc.devRef .tc main_arg6) :=
  (keepS25 main_arg6 (Cert.Carry.allc (by decide) (Cert.Carry.allc (by decide) (Cert.Carry.allc (by decide) (Cert.Carry.alln)))) _).trans (rc_arg6_0_25 V)
theorem rc_arg6_0_27 : R27 V (Proc.devRef .tc main_arg6) = R0 V (Proc.devRef .tc main_arg6) :=
  (keepS26 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_26 V)
theorem rc_arg6_0_28 : R28 V (Proc.devRef .tc main_arg6) = R0 V (Proc.devRef .tc main_arg6) :=
  (keepS27 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_27 V)
theorem rc_arg6_0_29 : R29 V (Proc.devRef .tc main_arg6) = R0 V (Proc.devRef .tc main_arg6) :=
  (keepS28 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_28 V)
theorem rc_arg6_0_30 : R30 V (Proc.devRef .tc main_arg6) = R0 V (Proc.devRef .tc main_arg6) :=
  (keepS29 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_29 V)
theorem rc_arg6_0_31 : R31 V (Proc.devRef .tc main_arg6) = R0 V (Proc.devRef .tc main_arg6) :=
  (keepS30 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg6_0_30 V)
theorem rc_arg6_0_32 : R32 V (Proc.devRef .tc main_arg6) = R0 V (Proc.devRef .tc main_arg6) :=
  (keepS31 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg6_0_31 V)
theorem rc_arg6_0_33 : R33 V (Proc.devRef .tc main_arg6) = R0 V (Proc.devRef .tc main_arg6) :=
  (keepS32 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg6_0_32 V)
theorem rc_arg6_0_34 : R34 V (Proc.devRef .tc main_arg6) = R0 V (Proc.devRef .tc main_arg6) :=
  (keepS33 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg6_0_33 V)
theorem rc_arg6_0_35 : R35 V (Proc.devRef .tc main_arg6) = R0 V (Proc.devRef .tc main_arg6) :=
  (keepS34 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg6_0_34 V)
theorem rc_arg6_0_36 : R36 V (Proc.devRef .tc main_arg6) = R0 V (Proc.devRef .tc main_arg6) :=
  (keepS35 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg6_0_35 V)
theorem rc_arg6_0_37 : R37 V (Proc.devRef .tc main_arg6) = R0 V (Proc.devRef .tc main_arg6) :=
  (keepS36 main_arg6 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg6_0_36 V)

end Cert.ReferenceIdeal.Run

end
-- ==== Proof.RArgs2.lean ====
import proofs.«143223_j29772713296000_1_alg».proof.Proof.RefOps
import proofs.«143223_j29772713296000_1_alg».proof.Proof.ListAll
import proofs.«143223_j29772713296000_1_alg».proof.Proof.RKeep1
import proofs.«143223_j29772713296000_1_alg».proof.Proof.RKeep2
import proofs.«143223_j29772713296000_1_alg».proof.Proof.RKeep3
import proofs.«143223_j29772713296000_1_alg».proof.Proof.RKeep4

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

variable (V : Valuation τ sig (Elt F))

theorem rc_arg7_0_1 : R1 V (Proc.devRef .tc main_arg7) = R0 V (Proc.devRef .tc main_arg7) :=
  (keepS0 main_arg7 (Cert.Carry.allc (by decide) (Cert.Carry.allc (by decide) (Cert.Carry.allc (by decide) (Cert.Carry.allc (by decide) (Cert.Carry.allc (by decide) (Cert.Carry.alln)))))) _).trans (rfl)
theorem rc_arg7_0_2 : R2 V (Proc.devRef .tc main_arg7) = R0 V (Proc.devRef .tc main_arg7) :=
  (keepS1 main_arg7 (Cert.Carry.allc (by decide) (Cert.Carry.allc (by decide) (Cert.Carry.allc (by decide) (Cert.Carry.allc (by decide) (Cert.Carry.allc (by decide) (Cert.Carry.alln)))))) _).trans (rc_arg7_0_1 V)
theorem rc_arg7_0_3 : R3 V (Proc.devRef .tc main_arg7) = R0 V (Proc.devRef .tc main_arg7) :=
  (keepS2 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_2 V)
theorem rc_arg7_0_4 : R4 V (Proc.devRef .tc main_arg7) = R0 V (Proc.devRef .tc main_arg7) :=
  (keepS3 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_3 V)
theorem rc_arg7_0_5 : R5 V (Proc.devRef .tc main_arg7) = R0 V (Proc.devRef .tc main_arg7) :=
  (keepS4 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_4 V)
theorem rc_arg7_0_6 : R6 V (Proc.devRef .tc main_arg7) = R0 V (Proc.devRef .tc main_arg7) :=
  (keepS5 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_5 V)
theorem rc_arg7_0_7 : R7 V (Proc.devRef .tc main_arg7) = R0 V (Proc.devRef .tc main_arg7) :=
  (keepS6 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_6 V)
theorem rc_arg7_0_8 : R8 V (Proc.devRef .tc main_arg7) = R0 V (Proc.devRef .tc main_arg7) :=
  (keepS7 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_7 V)
theorem rc_arg7_0_9 : R9 V (Proc.devRef .tc main_arg7) = R0 V (Proc.devRef .tc main_arg7) :=
  (keepS8 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg7_0_8 V)
theorem rc_arg7_0_10 : R10 V (Proc.devRef .tc main_arg7) = R0 V (Proc.devRef .tc main_arg7) :=
  (keepS9 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg7_0_9 V)
theorem rc_arg7_0_11 : R11 V (Proc.devRef .tc main_arg7) = R0 V (Proc.devRef .tc main_arg7) :=
  (keepS10 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg7_0_10 V)
theorem rc_arg7_0_12 : R12 V (Proc.devRef .tc main_arg7) = R0 V (Proc.devRef .tc main_arg7) :=
  (keepS11 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg7_0_11 V)
theorem rc_arg7_0_13 : R13 V (Proc.devRef .tc main_arg7) = R0 V (Proc.devRef .tc main_arg7) :=
  (keepS12 main_arg7 (Cert.Carry.allc (by decide) (Cert.Carry.allc (by decide) (Cert.Carry.allc (by decide) (Cert.Carry.alln)))) _).trans (rc_arg7_0_12 V)
theorem rc_arg7_0_14 : R14 V (Proc.devRef .tc main_arg7) = R0 V (Proc.devRef .tc main_arg7) :=
  (keepS13 main_arg7 (Cert.Carry.allc (by decide) (Cert.Carry.allc (by decide) (Cert.Carry.allc (by decide) (Cert.Carry.alln)))) _).trans (rc_arg7_0_13 V)
theorem rc_arg7_0_15 : R15 V (Proc.devRef .tc main_arg7) = R0 V (Proc.devRef .tc main_arg7) :=
  (keepS14 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_14 V)
theorem rc_arg7_0_16 : R16 V (Proc.devRef .tc main_arg7) = R0 V (Proc.devRef .tc main_arg7) :=
  (keepS15 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_15 V)
theorem rc_arg7_0_17 : R17 V (Proc.devRef .tc main_arg7) = R0 V (Proc.devRef .tc main_arg7) :=
  (keepS16 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_16 V)
theorem rc_arg7_0_18 : R18 V (Proc.devRef .tc main_arg7) = R0 V (Proc.devRef .tc main_arg7) :=
  (keepS17 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_17 V)
theorem rc_arg7_0_19 : R19 V (Proc.devRef .tc main_arg7) = R0 V (Proc.devRef .tc main_arg7) :=
  (keepS18 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_18 V)
theorem rc_arg7_0_20 : R20 V (Proc.devRef .tc main_arg7) = R0 V (Proc.devRef .tc main_arg7) :=
  (keepS19 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_19 V)
theorem rc_arg7_0_21 : R21 V (Proc.devRef .tc main_arg7) = R0 V (Proc.devRef .tc main_arg7) :=
  (keepS20 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg7_0_20 V)
theorem rc_arg7_0_22 : R22 V (Proc.devRef .tc main_arg7) = R0 V (Proc.devRef .tc main_arg7) :=
  (keepS21 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg7_0_21 V)
theorem rc_arg7_0_23 : R23 V (Proc.devRef .tc main_arg7) = R0 V (Proc.devRef .tc main_arg7) :=
  (keepS22 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg7_0_22 V)
theorem rc_arg7_0_24 : R24 V (Proc.devRef .tc main_arg7) = R0 V (Proc.devRef .tc main_arg7) :=
  (keepS23 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg7_0_23 V)
theorem rc_arg7_0_25 : R25 V (Proc.devRef .tc main_arg7) = R0 V (Proc.devRef .tc main_arg7) :=
  (keepS24 main_arg7 (Cert.Carry.allc (by decide) (Cert.Carry.allc (by decide) (Cert.Carry.allc (by decide) (Cert.Carry.alln)))) _).trans (rc_arg7_0_24 V)
theorem rc_arg7_0_26 : R26 V (Proc.devRef .tc main_arg7) = R0 V (Proc.devRef .tc main_arg7) :=
  (keepS25 main_arg7 (Cert.Carry.allc (by decide) (Cert.Carry.allc (by decide) (Cert.Carry.allc (by decide) (Cert.Carry.alln)))) _).trans (rc_arg7_0_25 V)
theorem rc_arg7_0_27 : R27 V (Proc.devRef .tc main_arg7) = R0 V (Proc.devRef .tc main_arg7) :=
  (keepS26 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_26 V)
theorem rc_arg7_0_28 : R28 V (Proc.devRef .tc main_arg7) = R0 V (Proc.devRef .tc main_arg7) :=
  (keepS27 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_27 V)
theorem rc_arg7_0_29 : R29 V (Proc.devRef .tc main_arg7) = R0 V (Proc.devRef .tc main_arg7) :=
  (keepS28 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_28 V)
theorem rc_arg7_0_30 : R30 V (Proc.devRef .tc main_arg7) = R0 V (Proc.devRef .tc main_arg7) :=
  (keepS29 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_29 V)
theorem rc_arg7_0_31 : R31 V (Proc.devRef .tc main_arg7) = R0 V (Proc.devRef .tc main_arg7) :=
  (keepS30 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg7_0_30 V)
theorem rc_arg7_0_32 : R32 V (Proc.devRef .tc main_arg7) = R0 V (Proc.devRef .tc main_arg7) :=
  (keepS31 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg7_0_31 V)
theorem rc_arg7_0_33 : R33 V (Proc.devRef .tc main_arg7) = R0 V (Proc.devRef .tc main_arg7) :=
  (keepS32 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg7_0_32 V)
theorem rc_arg7_0_34 : R34 V (Proc.devRef .tc main_arg7) = R0 V (Proc.devRef .tc main_arg7) :=
  (keepS33 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg7_0_33 V)
theorem rc_arg7_0_35 : R35 V (Proc.devRef .tc main_arg7) = R0 V (Proc.devRef .tc main_arg7) :=
  (keepS34 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg7_0_34 V)
theorem rc_arg7_0_36 : R36 V (Proc.devRef .tc main_arg7) = R0 V (Proc.devRef .tc main_arg7) :=
  (keepS35 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg7_0_35 V)
theorem rc_arg7_0_37 : R37 V (Proc.devRef .tc main_arg7) = R0 V (Proc.devRef .tc main_arg7) :=
  (keepS36 main_arg7 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg7_0_36 V)

theorem rc_arg8_0_1 : R1 V (Proc.devRef .tc main_arg8) = R0 V (Proc.devRef .tc main_arg8) :=
  (keepS0 main_arg8 (Cert.Carry.allc (by decide) (Cert.Carry.allc (by decide) (Cert.Carry.allc (by decide) (Cert.Carry.allc (by decide) (Cert.Carry.allc (by decide) (Cert.Carry.alln)))))) _).trans (rfl)
theorem rc_arg8_0_2 : R2 V (Proc.devRef .tc main_arg8) = R0 V (Proc.devRef .tc main_arg8) :=
  (keepS1 main_arg8 (Cert.Carry.allc (by decide) (Cert.Carry.allc (by decide) (Cert.Carry.allc (by decide) (Cert.Carry.allc (by decide) (Cert.Carry.allc (by decide) (Cert.Carry.alln)))))) _).trans (rc_arg8_0_1 V)
theorem rc_arg8_0_3 : R3 V (Proc.devRef .tc main_arg8) = R0 V (Proc.devRef .tc main_arg8) :=
  (keepS2 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_2 V)
theorem rc_arg8_0_4 : R4 V (Proc.devRef .tc main_arg8) = R0 V (Proc.devRef .tc main_arg8) :=
  (keepS3 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_3 V)
theorem rc_arg8_0_5 : R5 V (Proc.devRef .tc main_arg8) = R0 V (Proc.devRef .tc main_arg8) :=
  (keepS4 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_4 V)
theorem rc_arg8_0_6 : R6 V (Proc.devRef .tc main_arg8) = R0 V (Proc.devRef .tc main_arg8) :=
  (keepS5 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_5 V)
theorem rc_arg8_0_7 : R7 V (Proc.devRef .tc main_arg8) = R0 V (Proc.devRef .tc main_arg8) :=
  (keepS6 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_6 V)
theorem rc_arg8_0_8 : R8 V (Proc.devRef .tc main_arg8) = R0 V (Proc.devRef .tc main_arg8) :=
  (keepS7 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_7 V)
theorem rc_arg8_0_9 : R9 V (Proc.devRef .tc main_arg8) = R0 V (Proc.devRef .tc main_arg8) :=
  (keepS8 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg8_0_8 V)
theorem rc_arg8_0_10 : R10 V (Proc.devRef .tc main_arg8) = R0 V (Proc.devRef .tc main_arg8) :=
  (keepS9 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg8_0_9 V)
theorem rc_arg8_0_11 : R11 V (Proc.devRef .tc main_arg8) = R0 V (Proc.devRef .tc main_arg8) :=
  (keepS10 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg8_0_10 V)
theorem rc_arg8_0_12 : R12 V (Proc.devRef .tc main_arg8) = R0 V (Proc.devRef .tc main_arg8) :=
  (keepS11 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg8_0_11 V)
theorem rc_arg8_0_13 : R13 V (Proc.devRef .tc main_arg8) = R0 V (Proc.devRef .tc main_arg8) :=
  (keepS12 main_arg8 (Cert.Carry.allc (by decide) (Cert.Carry.allc (by decide) (Cert.Carry.allc (by decide) (Cert.Carry.alln)))) _).trans (rc_arg8_0_12 V)
theorem rc_arg8_0_14 : R14 V (Proc.devRef .tc main_arg8) = R0 V (Proc.devRef .tc main_arg8) :=
  (keepS13 main_arg8 (Cert.Carry.allc (by decide) (Cert.Carry.allc (by decide) (Cert.Carry.allc (by decide) (Cert.Carry.alln)))) _).trans (rc_arg8_0_13 V)
theorem rc_arg8_0_15 : R15 V (Proc.devRef .tc main_arg8) = R0 V (Proc.devRef .tc main_arg8) :=
  (keepS14 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_14 V)
theorem rc_arg8_0_16 : R16 V (Proc.devRef .tc main_arg8) = R0 V (Proc.devRef .tc main_arg8) :=
  (keepS15 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_15 V)
theorem rc_arg8_0_17 : R17 V (Proc.devRef .tc main_arg8) = R0 V (Proc.devRef .tc main_arg8) :=
  (keepS16 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_16 V)
theorem rc_arg8_0_18 : R18 V (Proc.devRef .tc main_arg8) = R0 V (Proc.devRef .tc main_arg8) :=
  (keepS17 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_17 V)
theorem rc_arg8_0_19 : R19 V (Proc.devRef .tc main_arg8) = R0 V (Proc.devRef .tc main_arg8) :=
  (keepS18 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_18 V)
theorem rc_arg8_0_20 : R20 V (Proc.devRef .tc main_arg8) = R0 V (Proc.devRef .tc main_arg8) :=
  (keepS19 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_19 V)
theorem rc_arg8_0_21 : R21 V (Proc.devRef .tc main_arg8) = R0 V (Proc.devRef .tc main_arg8) :=
  (keepS20 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg8_0_20 V)
theorem rc_arg8_0_22 : R22 V (Proc.devRef .tc main_arg8) = R0 V (Proc.devRef .tc main_arg8) :=
  (keepS21 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg8_0_21 V)
theorem rc_arg8_0_23 : R23 V (Proc.devRef .tc main_arg8) = R0 V (Proc.devRef .tc main_arg8) :=
  (keepS22 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg8_0_22 V)
theorem rc_arg8_0_24 : R24 V (Proc.devRef .tc main_arg8) = R0 V (Proc.devRef .tc main_arg8) :=
  (keepS23 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg8_0_23 V)
theorem rc_arg8_0_25 : R25 V (Proc.devRef .tc main_arg8) = R0 V (Proc.devRef .tc main_arg8) :=
  (keepS24 main_arg8 (Cert.Carry.allc (by decide) (Cert.Carry.allc (by decide) (Cert.Carry.allc (by decide) (Cert.Carry.alln)))) _).trans (rc_arg8_0_24 V)
theorem rc_arg8_0_26 : R26 V (Proc.devRef .tc main_arg8) = R0 V (Proc.devRef .tc main_arg8) :=
  (keepS25 main_arg8 (Cert.Carry.allc (by decide) (Cert.Carry.allc (by decide) (Cert.Carry.allc (by decide) (Cert.Carry.alln)))) _).trans (rc_arg8_0_25 V)
theorem rc_arg8_0_27 : R27 V (Proc.devRef .tc main_arg8) = R0 V (Proc.devRef .tc main_arg8) :=
  (keepS26 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_26 V)
theorem rc_arg8_0_28 : R28 V (Proc.devRef .tc main_arg8) = R0 V (Proc.devRef .tc main_arg8) :=
  (keepS27 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_27 V)
theorem rc_arg8_0_29 : R29 V (Proc.devRef .tc main_arg8) = R0 V (Proc.devRef .tc main_arg8) :=
  (keepS28 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_28 V)
theorem rc_arg8_0_30 : R30 V (Proc.devRef .tc main_arg8) = R0 V (Proc.devRef .tc main_arg8) :=
  (keepS29 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_29 V)
theorem rc_arg8_0_31 : R31 V (Proc.devRef .tc main_arg8) = R0 V (Proc.devRef .tc main_arg8) :=
  (keepS30 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg8_0_30 V)
theorem rc_arg8_0_32 : R32 V (Proc.devRef .tc main_arg8) = R0 V (Proc.devRef .tc main_arg8) :=
  (keepS31 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg8_0_31 V)
theorem rc_arg8_0_33 : R33 V (Proc.devRef .tc main_arg8) = R0 V (Proc.devRef .tc main_arg8) :=
  (keepS32 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg8_0_32 V)
theorem rc_arg8_0_34 : R34 V (Proc.devRef .tc main_arg8) = R0 V (Proc.devRef .tc main_arg8) :=
  (keepS33 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg8_0_33 V)
theorem rc_arg8_0_35 : R35 V (Proc.devRef .tc main_arg8) = R0 V (Proc.devRef .tc main_arg8) :=
  (keepS34 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg8_0_34 V)
theorem rc_arg8_0_36 : R36 V (Proc.devRef .tc main_arg8) = R0 V (Proc.devRef .tc main_arg8) :=
  (keepS35 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg8_0_35 V)
theorem rc_arg8_0_37 : R37 V (Proc.devRef .tc main_arg8) = R0 V (Proc.devRef .tc main_arg8) :=
  (keepS36 main_arg8 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg8_0_36 V)

theorem rc_arg9_0_1 : R1 V (Proc.devRef .tc main_arg9) = R0 V (Proc.devRef .tc main_arg9) :=
  (keepS0 main_arg9 (Cert.Carry.allc (by decide) (Cert.Carry.allc (by decide) (Cert.Carry.allc (by decide) (Cert.Carry.allc (by decide) (Cert.Carry.allc (by decide) (Cert.Carry.alln)))))) _).trans (rfl)
theorem rc_arg9_0_2 : R2 V (Proc.devRef .tc main_arg9) = R0 V (Proc.devRef .tc main_arg9) :=
  (keepS1 main_arg9 (Cert.Carry.allc (by decide) (Cert.Carry.allc (by decide) (Cert.Carry.allc (by decide) (Cert.Carry.allc (by decide) (Cert.Carry.allc (by decide) (Cert.Carry.alln)))))) _).trans (rc_arg9_0_1 V)
theorem rc_arg9_0_3 : R3 V (Proc.devRef .tc main_arg9) = R0 V (Proc.devRef .tc main_arg9) :=
  (keepS2 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_2 V)
theorem rc_arg9_0_4 : R4 V (Proc.devRef .tc main_arg9) = R0 V (Proc.devRef .tc main_arg9) :=
  (keepS3 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_3 V)
theorem rc_arg9_0_5 : R5 V (Proc.devRef .tc main_arg9) = R0 V (Proc.devRef .tc main_arg9) :=
  (keepS4 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_4 V)
theorem rc_arg9_0_6 : R6 V (Proc.devRef .tc main_arg9) = R0 V (Proc.devRef .tc main_arg9) :=
  (keepS5 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_5 V)
theorem rc_arg9_0_7 : R7 V (Proc.devRef .tc main_arg9) = R0 V (Proc.devRef .tc main_arg9) :=
  (keepS6 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_6 V)
theorem rc_arg9_0_8 : R8 V (Proc.devRef .tc main_arg9) = R0 V (Proc.devRef .tc main_arg9) :=
  (keepS7 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_7 V)
theorem rc_arg9_0_9 : R9 V (Proc.devRef .tc main_arg9) = R0 V (Proc.devRef .tc main_arg9) :=
  (keepS8 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg9_0_8 V)
theorem rc_arg9_0_10 : R10 V (Proc.devRef .tc main_arg9) = R0 V (Proc.devRef .tc main_arg9) :=
  (keepS9 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg9_0_9 V)
theorem rc_arg9_0_11 : R11 V (Proc.devRef .tc main_arg9) = R0 V (Proc.devRef .tc main_arg9) :=
  (keepS10 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg9_0_10 V)
theorem rc_arg9_0_12 : R12 V (Proc.devRef .tc main_arg9) = R0 V (Proc.devRef .tc main_arg9) :=
  (keepS11 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg9_0_11 V)
theorem rc_arg9_0_13 : R13 V (Proc.devRef .tc main_arg9) = R0 V (Proc.devRef .tc main_arg9) :=
  (keepS12 main_arg9 (Cert.Carry.allc (by decide) (Cert.Carry.allc (by decide) (Cert.Carry.allc (by decide) (Cert.Carry.alln)))) _).trans (rc_arg9_0_12 V)
theorem rc_arg9_0_14 : R14 V (Proc.devRef .tc main_arg9) = R0 V (Proc.devRef .tc main_arg9) :=
  (keepS13 main_arg9 (Cert.Carry.allc (by decide) (Cert.Carry.allc (by decide) (Cert.Carry.allc (by decide) (Cert.Carry.alln)))) _).trans (rc_arg9_0_13 V)
theorem rc_arg9_0_15 : R15 V (Proc.devRef .tc main_arg9) = R0 V (Proc.devRef .tc main_arg9) :=
  (keepS14 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_14 V)
theorem rc_arg9_0_16 : R16 V (Proc.devRef .tc main_arg9) = R0 V (Proc.devRef .tc main_arg9) :=
  (keepS15 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_15 V)
theorem rc_arg9_0_17 : R17 V (Proc.devRef .tc main_arg9) = R0 V (Proc.devRef .tc main_arg9) :=
  (keepS16 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_16 V)
theorem rc_arg9_0_18 : R18 V (Proc.devRef .tc main_arg9) = R0 V (Proc.devRef .tc main_arg9) :=
  (keepS17 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_17 V)
theorem rc_arg9_0_19 : R19 V (Proc.devRef .tc main_arg9) = R0 V (Proc.devRef .tc main_arg9) :=
  (keepS18 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_18 V)
theorem rc_arg9_0_20 : R20 V (Proc.devRef .tc main_arg9) = R0 V (Proc.devRef .tc main_arg9) :=
  (keepS19 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_19 V)
theorem rc_arg9_0_21 : R21 V (Proc.devRef .tc main_arg9) = R0 V (Proc.devRef .tc main_arg9) :=
  (keepS20 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg9_0_20 V)
theorem rc_arg9_0_22 : R22 V (Proc.devRef .tc main_arg9) = R0 V (Proc.devRef .tc main_arg9) :=
  (keepS21 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg9_0_21 V)
theorem rc_arg9_0_23 : R23 V (Proc.devRef .tc main_arg9) = R0 V (Proc.devRef .tc main_arg9) :=
  (keepS22 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg9_0_22 V)
theorem rc_arg9_0_24 : R24 V (Proc.devRef .tc main_arg9) = R0 V (Proc.devRef .tc main_arg9) :=
  (keepS23 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg9_0_23 V)
theorem rc_arg9_0_25 : R25 V (Proc.devRef .tc main_arg9) = R0 V (Proc.devRef .tc main_arg9) :=
  (keepS24 main_arg9 (Cert.Carry.allc (by decide) (Cert.Carry.allc (by decide) (Cert.Carry.allc (by decide) (Cert.Carry.alln)))) _).trans (rc_arg9_0_24 V)
theorem rc_arg9_0_26 : R26 V (Proc.devRef .tc main_arg9) = R0 V (Proc.devRef .tc main_arg9) :=
  (keepS25 main_arg9 (Cert.Carry.allc (by decide) (Cert.Carry.allc (by decide) (Cert.Carry.allc (by decide) (Cert.Carry.alln)))) _).trans (rc_arg9_0_25 V)
theorem rc_arg9_0_27 : R27 V (Proc.devRef .tc main_arg9) = R0 V (Proc.devRef .tc main_arg9) :=
  (keepS26 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_26 V)
theorem rc_arg9_0_28 : R28 V (Proc.devRef .tc main_arg9) = R0 V (Proc.devRef .tc main_arg9) :=
  (keepS27 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_27 V)
theorem rc_arg9_0_29 : R29 V (Proc.devRef .tc main_arg9) = R0 V (Proc.devRef .tc main_arg9) :=
  (keepS28 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_28 V)
theorem rc_arg9_0_30 : R30 V (Proc.devRef .tc main_arg9) = R0 V (Proc.devRef .tc main_arg9) :=
  (keepS29 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_29 V)
theorem rc_arg9_0_31 : R31 V (Proc.devRef .tc main_arg9) = R0 V (Proc.devRef .tc main_arg9) :=
  (keepS30 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg9_0_30 V)
theorem rc_arg9_0_32 : R32 V (Proc.devRef .tc main_arg9) = R0 V (Proc.devRef .tc main_arg9) :=
  (keepS31 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg9_0_31 V)
theorem rc_arg9_0_33 : R33 V (Proc.devRef .tc main_arg9) = R0 V (Proc.devRef .tc main_arg9) :=
  (keepS32 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg9_0_32 V)
theorem rc_arg9_0_34 : R34 V (Proc.devRef .tc main_arg9) = R0 V (Proc.devRef .tc main_arg9) :=
  (keepS33 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg9_0_33 V)
theorem rc_arg9_0_35 : R35 V (Proc.devRef .tc main_arg9) = R0 V (Proc.devRef .tc main_arg9) :=
  (keepS34 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg9_0_34 V)
theorem rc_arg9_0_36 : R36 V (Proc.devRef .tc main_arg9) = R0 V (Proc.devRef .tc main_arg9) :=
  (keepS35 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg9_0_35 V)
theorem rc_arg9_0_37 : R37 V (Proc.devRef .tc main_arg9) = R0 V (Proc.devRef .tc main_arg9) :=
  (keepS36 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg9_0_36 V)

theorem rc_arg10_0_1 : R1 V (Proc.devRef .tc main_arg10) = R0 V (Proc.devRef .tc main_arg10) :=
  (keepS0 main_arg10 (Cert.Carry.allc (by decide) (Cert.Carry.allc (by decide) (Cert.Carry.allc (by decide) (Cert.Carry.allc (by decide) (Cert.Carry.allc (by decide) (Cert.Carry.alln)))))) _).trans (rfl)
theorem rc_arg10_0_2 : R2 V (Proc.devRef .tc main_arg10) = R0 V (Proc.devRef .tc main_arg10) :=
  (keepS1 main_arg10 (Cert.Carry.allc (by decide) (Cert.Carry.allc (by decide) (Cert.Carry.allc (by decide) (Cert.Carry.allc (by decide) (Cert.Carry.allc (by decide) (Cert.Carry.alln)))))) _).trans (rc_arg10_0_1 V)
theorem rc_arg10_0_3 : R3 V (Proc.devRef .tc main_arg10) = R0 V (Proc.devRef .tc main_arg10) :=
  (keepS2 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_2 V)
theorem rc_arg10_0_4 : R4 V (Proc.devRef .tc main_arg10) = R0 V (Proc.devRef .tc main_arg10) :=
  (keepS3 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_3 V)
theorem rc_arg10_0_5 : R5 V (Proc.devRef .tc main_arg10) = R0 V (Proc.devRef .tc main_arg10) :=
  (keepS4 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_4 V)
theorem rc_arg10_0_6 : R6 V (Proc.devRef .tc main_arg10) = R0 V (Proc.devRef .tc main_arg10) :=
  (keepS5 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_5 V)
theorem rc_arg10_0_7 : R7 V (Proc.devRef .tc main_arg10) = R0 V (Proc.devRef .tc main_arg10) :=
  (keepS6 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_6 V)
theorem rc_arg10_0_8 : R8 V (Proc.devRef .tc main_arg10) = R0 V (Proc.devRef .tc main_arg10) :=
  (keepS7 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_7 V)
theorem rc_arg10_0_9 : R9 V (Proc.devRef .tc main_arg10) = R0 V (Proc.devRef .tc main_arg10) :=
  (keepS8 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg10_0_8 V)
theorem rc_arg10_0_10 : R10 V (Proc.devRef .tc main_arg10) = R0 V (Proc.devRef .tc main_arg10) :=
  (keepS9 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg10_0_9 V)
theorem rc_arg10_0_11 : R11 V (Proc.devRef .tc main_arg10) = R0 V (Proc.devRef .tc main_arg10) :=
  (keepS10 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg10_0_10 V)
theorem rc_arg10_0_12 : R12 V (Proc.devRef .tc main_arg10) = R0 V (Proc.devRef .tc main_arg10) :=
  (keepS11 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg10_0_11 V)
theorem rc_arg10_0_13 : R13 V (Proc.devRef .tc main_arg10) = R0 V (Proc.devRef .tc main_arg10) :=
  (keepS12 main_arg10 (Cert.Carry.allc (by decide) (Cert.Carry.allc (by decide) (Cert.Carry.allc (by decide) (Cert.Carry.alln)))) _).trans (rc_arg10_0_12 V)
theorem rc_arg10_0_14 : R14 V (Proc.devRef .tc main_arg10) = R0 V (Proc.devRef .tc main_arg10) :=
  (keepS13 main_arg10 (Cert.Carry.allc (by decide) (Cert.Carry.allc (by decide) (Cert.Carry.allc (by decide) (Cert.Carry.alln)))) _).trans (rc_arg10_0_13 V)
theorem rc_arg10_0_15 : R15 V (Proc.devRef .tc main_arg10) = R0 V (Proc.devRef .tc main_arg10) :=
  (keepS14 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_14 V)
theorem rc_arg10_0_16 : R16 V (Proc.devRef .tc main_arg10) = R0 V (Proc.devRef .tc main_arg10) :=
  (keepS15 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_15 V)
theorem rc_arg10_0_17 : R17 V (Proc.devRef .tc main_arg10) = R0 V (Proc.devRef .tc main_arg10) :=
  (keepS16 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_16 V)
theorem rc_arg10_0_18 : R18 V (Proc.devRef .tc main_arg10) = R0 V (Proc.devRef .tc main_arg10) :=
  (keepS17 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_17 V)
theorem rc_arg10_0_19 : R19 V (Proc.devRef .tc main_arg10) = R0 V (Proc.devRef .tc main_arg10) :=
  (keepS18 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_18 V)
theorem rc_arg10_0_20 : R20 V (Proc.devRef .tc main_arg10) = R0 V (Proc.devRef .tc main_arg10) :=
  (keepS19 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_19 V)
theorem rc_arg10_0_21 : R21 V (Proc.devRef .tc main_arg10) = R0 V (Proc.devRef .tc main_arg10) :=
  (keepS20 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg10_0_20 V)
theorem rc_arg10_0_22 : R22 V (Proc.devRef .tc main_arg10) = R0 V (Proc.devRef .tc main_arg10) :=
  (keepS21 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg10_0_21 V)
theorem rc_arg10_0_23 : R23 V (Proc.devRef .tc main_arg10) = R0 V (Proc.devRef .tc main_arg10) :=
  (keepS22 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg10_0_22 V)
theorem rc_arg10_0_24 : R24 V (Proc.devRef .tc main_arg10) = R0 V (Proc.devRef .tc main_arg10) :=
  (keepS23 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg10_0_23 V)
theorem rc_arg10_0_25 : R25 V (Proc.devRef .tc main_arg10) = R0 V (Proc.devRef .tc main_arg10) :=
  (keepS24 main_arg10 (Cert.Carry.allc (by decide) (Cert.Carry.allc (by decide) (Cert.Carry.allc (by decide) (Cert.Carry.alln)))) _).trans (rc_arg10_0_24 V)
theorem rc_arg10_0_26 : R26 V (Proc.devRef .tc main_arg10) = R0 V (Proc.devRef .tc main_arg10) :=
  (keepS25 main_arg10 (Cert.Carry.allc (by decide) (Cert.Carry.allc (by decide) (Cert.Carry.allc (by decide) (Cert.Carry.alln)))) _).trans (rc_arg10_0_25 V)
theorem rc_arg10_0_27 : R27 V (Proc.devRef .tc main_arg10) = R0 V (Proc.devRef .tc main_arg10) :=
  (keepS26 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_26 V)
theorem rc_arg10_0_28 : R28 V (Proc.devRef .tc main_arg10) = R0 V (Proc.devRef .tc main_arg10) :=
  (keepS27 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_27 V)
theorem rc_arg10_0_29 : R29 V (Proc.devRef .tc main_arg10) = R0 V (Proc.devRef .tc main_arg10) :=
  (keepS28 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_28 V)
theorem rc_arg10_0_30 : R30 V (Proc.devRef .tc main_arg10) = R0 V (Proc.devRef .tc main_arg10) :=
  (keepS29 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_29 V)
theorem rc_arg10_0_31 : R31 V (Proc.devRef .tc main_arg10) = R0 V (Proc.devRef .tc main_arg10) :=
  (keepS30 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg10_0_30 V)
theorem rc_arg10_0_32 : R32 V (Proc.devRef .tc main_arg10) = R0 V (Proc.devRef .tc main_arg10) :=
  (keepS31 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg10_0_31 V)
theorem rc_arg10_0_33 : R33 V (Proc.devRef .tc main_arg10) = R0 V (Proc.devRef .tc main_arg10) :=
  (keepS32 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg10_0_32 V)
theorem rc_arg10_0_34 : R34 V (Proc.devRef .tc main_arg10) = R0 V (Proc.devRef .tc main_arg10) :=
  (keepS33 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg10_0_33 V)
theorem rc_arg10_0_35 : R35 V (Proc.devRef .tc main_arg10) = R0 V (Proc.devRef .tc main_arg10) :=
  (keepS34 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg10_0_34 V)
theorem rc_arg10_0_36 : R36 V (Proc.devRef .tc main_arg10) = R0 V (Proc.devRef .tc main_arg10) :=
  (keepS35 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg10_0_35 V)
theorem rc_arg10_0_37 : R37 V (Proc.devRef .tc main_arg10) = R0 V (Proc.devRef .tc main_arg10) :=
  (keepS36 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg10_0_36 V)

theorem rc_arg11_0_1 : R1 V (Proc.devRef .tc main_arg11) = R0 V (Proc.devRef .tc main_arg11) :=
  (keepS0 main_arg11 (Cert.Carry.allc (by decide) (Cert.Carry.allc (by decide) (Cert.Carry.allc (by decide) (Cert.Carry.allc (by decide) (Cert.Carry.allc (by decide) (Cert.Carry.alln)))))) _).trans (rfl)
theorem rc_arg11_0_2 : R2 V (Proc.devRef .tc main_arg11) = R0 V (Proc.devRef .tc main_arg11) :=
  (keepS1 main_arg11 (Cert.Carry.allc (by decide) (Cert.Carry.allc (by decide) (Cert.Carry.allc (by decide) (Cert.Carry.allc (by decide) (Cert.Carry.allc (by decide) (Cert.Carry.alln)))))) _).trans (rc_arg11_0_1 V)
theorem rc_arg11_0_3 : R3 V (Proc.devRef .tc main_arg11) = R0 V (Proc.devRef .tc main_arg11) :=
  (keepS2 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_2 V)
theorem rc_arg11_0_4 : R4 V (Proc.devRef .tc main_arg11) = R0 V (Proc.devRef .tc main_arg11) :=
  (keepS3 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_3 V)
theorem rc_arg11_0_5 : R5 V (Proc.devRef .tc main_arg11) = R0 V (Proc.devRef .tc main_arg11) :=
  (keepS4 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_4 V)
theorem rc_arg11_0_6 : R6 V (Proc.devRef .tc main_arg11) = R0 V (Proc.devRef .tc main_arg11) :=
  (keepS5 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_5 V)
theorem rc_arg11_0_7 : R7 V (Proc.devRef .tc main_arg11) = R0 V (Proc.devRef .tc main_arg11) :=
  (keepS6 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_6 V)
theorem rc_arg11_0_8 : R8 V (Proc.devRef .tc main_arg11) = R0 V (Proc.devRef .tc main_arg11) :=
  (keepS7 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_7 V)
theorem rc_arg11_0_9 : R9 V (Proc.devRef .tc main_arg11) = R0 V (Proc.devRef .tc main_arg11) :=
  (keepS8 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg11_0_8 V)
theorem rc_arg11_0_10 : R10 V (Proc.devRef .tc main_arg11) = R0 V (Proc.devRef .tc main_arg11) :=
  (keepS9 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg11_0_9 V)
theorem rc_arg11_0_11 : R11 V (Proc.devRef .tc main_arg11) = R0 V (Proc.devRef .tc main_arg11) :=
  (keepS10 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg11_0_10 V)
theorem rc_arg11_0_12 : R12 V (Proc.devRef .tc main_arg11) = R0 V (Proc.devRef .tc main_arg11) :=
  (keepS11 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg11_0_11 V)
theorem rc_arg11_0_13 : R13 V (Proc.devRef .tc main_arg11) = R0 V (Proc.devRef .tc main_arg11) :=
  (keepS12 main_arg11 (Cert.Carry.allc (by decide) (Cert.Carry.allc (by decide) (Cert.Carry.allc (by decide) (Cert.Carry.alln)))) _).trans (rc_arg11_0_12 V)
theorem rc_arg11_0_14 : R14 V (Proc.devRef .tc main_arg11) = R0 V (Proc.devRef .tc main_arg11) :=
  (keepS13 main_arg11 (Cert.Carry.allc (by decide) (Cert.Carry.allc (by decide) (Cert.Carry.allc (by decide) (Cert.Carry.alln)))) _).trans (rc_arg11_0_13 V)
theorem rc_arg11_0_15 : R15 V (Proc.devRef .tc main_arg11) = R0 V (Proc.devRef .tc main_arg11) :=
  (keepS14 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_14 V)
theorem rc_arg11_0_16 : R16 V (Proc.devRef .tc main_arg11) = R0 V (Proc.devRef .tc main_arg11) :=
  (keepS15 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_15 V)
theorem rc_arg11_0_17 : R17 V (Proc.devRef .tc main_arg11) = R0 V (Proc.devRef .tc main_arg11) :=
  (keepS16 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_16 V)
theorem rc_arg11_0_18 : R18 V (Proc.devRef .tc main_arg11) = R0 V (Proc.devRef .tc main_arg11) :=
  (keepS17 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_17 V)
theorem rc_arg11_0_19 : R19 V (Proc.devRef .tc main_arg11) = R0 V (Proc.devRef .tc main_arg11) :=
  (keepS18 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_18 V)
theorem rc_arg11_0_20 : R20 V (Proc.devRef .tc main_arg11) = R0 V (Proc.devRef .tc main_arg11) :=
  (keepS19 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_19 V)
theorem rc_arg11_0_21 : R21 V (Proc.devRef .tc main_arg11) = R0 V (Proc.devRef .tc main_arg11) :=
  (keepS20 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg11_0_20 V)
theorem rc_arg11_0_22 : R22 V (Proc.devRef .tc main_arg11) = R0 V (Proc.devRef .tc main_arg11) :=
  (keepS21 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg11_0_21 V)
theorem rc_arg11_0_23 : R23 V (Proc.devRef .tc main_arg11) = R0 V (Proc.devRef .tc main_arg11) :=
  (keepS22 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg11_0_22 V)
theorem rc_arg11_0_24 : R24 V (Proc.devRef .tc main_arg11) = R0 V (Proc.devRef .tc main_arg11) :=
  (keepS23 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg11_0_23 V)
theorem rc_arg11_0_25 : R25 V (Proc.devRef .tc main_arg11) = R0 V (Proc.devRef .tc main_arg11) :=
  (keepS24 main_arg11 (Cert.Carry.allc (by decide) (Cert.Carry.allc (by decide) (Cert.Carry.allc (by decide) (Cert.Carry.alln)))) _).trans (rc_arg11_0_24 V)
theorem rc_arg11_0_26 : R26 V (Proc.devRef .tc main_arg11) = R0 V (Proc.devRef .tc main_arg11) :=
  (keepS25 main_arg11 (Cert.Carry.allc (by decide) (Cert.Carry.allc (by decide) (Cert.Carry.allc (by decide) (Cert.Carry.alln)))) _).trans (rc_arg11_0_25 V)
theorem rc_arg11_0_27 : R27 V (Proc.devRef .tc main_arg11) = R0 V (Proc.devRef .tc main_arg11) :=
  (keepS26 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_26 V)
theorem rc_arg11_0_28 : R28 V (Proc.devRef .tc main_arg11) = R0 V (Proc.devRef .tc main_arg11) :=
  (keepS27 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_27 V)
theorem rc_arg11_0_29 : R29 V (Proc.devRef .tc main_arg11) = R0 V (Proc.devRef .tc main_arg11) :=
  (keepS28 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_28 V)
theorem rc_arg11_0_30 : R30 V (Proc.devRef .tc main_arg11) = R0 V (Proc.devRef .tc main_arg11) :=
  (keepS29 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_29 V)
theorem rc_arg11_0_31 : R31 V (Proc.devRef .tc main_arg11) = R0 V (Proc.devRef .tc main_arg11) :=
  (keepS30 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg11_0_30 V)
theorem rc_arg11_0_32 : R32 V (Proc.devRef .tc main_arg11) = R0 V (Proc.devRef .tc main_arg11) :=
  (keepS31 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg11_0_31 V)
theorem rc_arg11_0_33 : R33 V (Proc.devRef .tc main_arg11) = R0 V (Proc.devRef .tc main_arg11) :=
  (keepS32 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg11_0_32 V)
theorem rc_arg11_0_34 : R34 V (Proc.devRef .tc main_arg11) = R0 V (Proc.devRef .tc main_arg11) :=
  (keepS33 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg11_0_33 V)
theorem rc_arg11_0_35 : R35 V (Proc.devRef .tc main_arg11) = R0 V (Proc.devRef .tc main_arg11) :=
  (keepS34 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg11_0_34 V)
theorem rc_arg11_0_36 : R36 V (Proc.devRef .tc main_arg11) = R0 V (Proc.devRef .tc main_arg11) :=
  (keepS35 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg11_0_35 V)
theorem rc_arg11_0_37 : R37 V (Proc.devRef .tc main_arg11) = R0 V (Proc.devRef .tc main_arg11) :=
  (keepS36 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg11_0_36 V)

theorem rc_arg12_0_1 : R1 V (Proc.devRef .tc main_arg12) = R0 V (Proc.devRef .tc main_arg12) :=
  (keepS0 main_arg12 (Cert.Carry.allc (by decide) (Cert.Carry.allc (by decide) (Cert.Carry.allc (by decide) (Cert.Carry.allc (by decide) (Cert.Carry.allc (by decide) (Cert.Carry.alln)))))) _).trans (rfl)
theorem rc_arg12_0_2 : R2 V (Proc.devRef .tc main_arg12) = R0 V (Proc.devRef .tc main_arg12) :=
  (keepS1 main_arg12 (Cert.Carry.allc (by decide) (Cert.Carry.allc (by decide) (Cert.Carry.allc (by decide) (Cert.Carry.allc (by decide) (Cert.Carry.allc (by decide) (Cert.Carry.alln)))))) _).trans (rc_arg12_0_1 V)
theorem rc_arg12_0_3 : R3 V (Proc.devRef .tc main_arg12) = R0 V (Proc.devRef .tc main_arg12) :=
  (keepS2 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_2 V)
theorem rc_arg12_0_4 : R4 V (Proc.devRef .tc main_arg12) = R0 V (Proc.devRef .tc main_arg12) :=
  (keepS3 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_3 V)
theorem rc_arg12_0_5 : R5 V (Proc.devRef .tc main_arg12) = R0 V (Proc.devRef .tc main_arg12) :=
  (keepS4 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_4 V)
theorem rc_arg12_0_6 : R6 V (Proc.devRef .tc main_arg12) = R0 V (Proc.devRef .tc main_arg12) :=
  (keepS5 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_5 V)
theorem rc_arg12_0_7 : R7 V (Proc.devRef .tc main_arg12) = R0 V (Proc.devRef .tc main_arg12) :=
  (keepS6 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_6 V)
theorem rc_arg12_0_8 : R8 V (Proc.devRef .tc main_arg12) = R0 V (Proc.devRef .tc main_arg12) :=
  (keepS7 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_7 V)
theorem rc_arg12_0_9 : R9 V (Proc.devRef .tc main_arg12) = R0 V (Proc.devRef .tc main_arg12) :=
  (keepS8 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg12_0_8 V)
theorem rc_arg12_0_10 : R10 V (Proc.devRef .tc main_arg12) = R0 V (Proc.devRef .tc main_arg12) :=
  (keepS9 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg12_0_9 V)
theorem rc_arg12_0_11 : R11 V (Proc.devRef .tc main_arg12) = R0 V (Proc.devRef .tc main_arg12) :=
  (keepS10 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg12_0_10 V)
theorem rc_arg12_0_12 : R12 V (Proc.devRef .tc main_arg12) = R0 V (Proc.devRef .tc main_arg12) :=
  (keepS11 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg12_0_11 V)
theorem rc_arg12_0_13 : R13 V (Proc.devRef .tc main_arg12) = R0 V (Proc.devRef .tc main_arg12) :=
  (keepS12 main_arg12 (Cert.Carry.allc (by decide) (Cert.Carry.allc (by decide) (Cert.Carry.allc (by decide) (Cert.Carry.alln)))) _).trans (rc_arg12_0_12 V)
theorem rc_arg12_0_14 : R14 V (Proc.devRef .tc main_arg12) = R0 V (Proc.devRef .tc main_arg12) :=
  (keepS13 main_arg12 (Cert.Carry.allc (by decide) (Cert.Carry.allc (by decide) (Cert.Carry.allc (by decide) (Cert.Carry.alln)))) _).trans (rc_arg12_0_13 V)
theorem rc_arg12_0_15 : R15 V (Proc.devRef .tc main_arg12) = R0 V (Proc.devRef .tc main_arg12) :=
  (keepS14 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_14 V)
theorem rc_arg12_0_16 : R16 V (Proc.devRef .tc main_arg12) = R0 V (Proc.devRef .tc main_arg12) :=
  (keepS15 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_15 V)
theorem rc_arg12_0_17 : R17 V (Proc.devRef .tc main_arg12) = R0 V (Proc.devRef .tc main_arg12) :=
  (keepS16 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_16 V)
theorem rc_arg12_0_18 : R18 V (Proc.devRef .tc main_arg12) = R0 V (Proc.devRef .tc main_arg12) :=
  (keepS17 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_17 V)
theorem rc_arg12_0_19 : R19 V (Proc.devRef .tc main_arg12) = R0 V (Proc.devRef .tc main_arg12) :=
  (keepS18 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_18 V)
theorem rc_arg12_0_20 : R20 V (Proc.devRef .tc main_arg12) = R0 V (Proc.devRef .tc main_arg12) :=
  (keepS19 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_19 V)
theorem rc_arg12_0_21 : R21 V (Proc.devRef .tc main_arg12) = R0 V (Proc.devRef .tc main_arg12) :=
  (keepS20 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg12_0_20 V)
theorem rc_arg12_0_22 : R22 V (Proc.devRef .tc main_arg12) = R0 V (Proc.devRef .tc main_arg12) :=
  (keepS21 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg12_0_21 V)
theorem rc_arg12_0_23 : R23 V (Proc.devRef .tc main_arg12) = R0 V (Proc.devRef .tc main_arg12) :=
  (keepS22 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg12_0_22 V)
theorem rc_arg12_0_24 : R24 V (Proc.devRef .tc main_arg12) = R0 V (Proc.devRef .tc main_arg12) :=
  (keepS23 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg12_0_23 V)
theorem rc_arg12_0_25 : R25 V (Proc.devRef .tc main_arg12) = R0 V (Proc.devRef .tc main_arg12) :=
  (keepS24 main_arg12 (Cert.Carry.allc (by decide) (Cert.Carry.allc (by decide) (Cert.Carry.allc (by decide) (Cert.Carry.alln)))) _).trans (rc_arg12_0_24 V)
theorem rc_arg12_0_26 : R26 V (Proc.devRef .tc main_arg12) = R0 V (Proc.devRef .tc main_arg12) :=
  (keepS25 main_arg12 (Cert.Carry.allc (by decide) (Cert.Carry.allc (by decide) (Cert.Carry.allc (by decide) (Cert.Carry.alln)))) _).trans (rc_arg12_0_25 V)
theorem rc_arg12_0_27 : R27 V (Proc.devRef .tc main_arg12) = R0 V (Proc.devRef .tc main_arg12) :=
  (keepS26 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_26 V)
theorem rc_arg12_0_28 : R28 V (Proc.devRef .tc main_arg12) = R0 V (Proc.devRef .tc main_arg12) :=
  (keepS27 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_27 V)
theorem rc_arg12_0_29 : R29 V (Proc.devRef .tc main_arg12) = R0 V (Proc.devRef .tc main_arg12) :=
  (keepS28 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_28 V)
theorem rc_arg12_0_30 : R30 V (Proc.devRef .tc main_arg12) = R0 V (Proc.devRef .tc main_arg12) :=
  (keepS29 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_29 V)
theorem rc_arg12_0_31 : R31 V (Proc.devRef .tc main_arg12) = R0 V (Proc.devRef .tc main_arg12) :=
  (keepS30 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg12_0_30 V)
theorem rc_arg12_0_32 : R32 V (Proc.devRef .tc main_arg12) = R0 V (Proc.devRef .tc main_arg12) :=
  (keepS31 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg12_0_31 V)
theorem rc_arg12_0_33 : R33 V (Proc.devRef .tc main_arg12) = R0 V (Proc.devRef .tc main_arg12) :=
  (keepS32 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg12_0_32 V)
theorem rc_arg12_0_34 : R34 V (Proc.devRef .tc main_arg12) = R0 V (Proc.devRef .tc main_arg12) :=
  (keepS33 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg12_0_33 V)
theorem rc_arg12_0_35 : R35 V (Proc.devRef .tc main_arg12) = R0 V (Proc.devRef .tc main_arg12) :=
  (keepS34 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg12_0_34 V)
theorem rc_arg12_0_36 : R36 V (Proc.devRef .tc main_arg12) = R0 V (Proc.devRef .tc main_arg12) :=
  (keepS35 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg12_0_35 V)
theorem rc_arg12_0_37 : R37 V (Proc.devRef .tc main_arg12) = R0 V (Proc.devRef .tc main_arg12) :=
  (keepS36 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg12_0_36 V)

theorem rc_arg13_0_1 : R1 V (Proc.devRef .tc main_arg13) = R0 V (Proc.devRef .tc main_arg13) :=
  (keepS0 main_arg13 (Cert.Carry.allc (by decide) (Cert.Carry.allc (by decide) (Cert.Carry.allc (by decide) (Cert.Carry.allc (by decide) (Cert.Carry.allc (by decide) (Cert.Carry.alln)))))) _).trans (rfl)
theorem rc_arg13_0_2 : R2 V (Proc.devRef .tc main_arg13) = R0 V (Proc.devRef .tc main_arg13) :=
  (keepS1 main_arg13 (Cert.Carry.allc (by decide) (Cert.Carry.allc (by decide) (Cert.Carry.allc (by decide) (Cert.Carry.allc (by decide) (Cert.Carry.allc (by decide) (Cert.Carry.alln)))))) _).trans (rc_arg13_0_1 V)
theorem rc_arg13_0_3 : R3 V (Proc.devRef .tc main_arg13) = R0 V (Proc.devRef .tc main_arg13) :=
  (keepS2 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_2 V)
theorem rc_arg13_0_4 : R4 V (Proc.devRef .tc main_arg13) = R0 V (Proc.devRef .tc main_arg13) :=
  (keepS3 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_3 V)
theorem rc_arg13_0_5 : R5 V (Proc.devRef .tc main_arg13) = R0 V (Proc.devRef .tc main_arg13) :=
  (keepS4 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_4 V)
theorem rc_arg13_0_6 : R6 V (Proc.devRef .tc main_arg13) = R0 V (Proc.devRef .tc main_arg13) :=
  (keepS5 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_5 V)
theorem rc_arg13_0_7 : R7 V (Proc.devRef .tc main_arg13) = R0 V (Proc.devRef .tc main_arg13) :=
  (keepS6 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_6 V)
theorem rc_arg13_0_8 : R8 V (Proc.devRef .tc main_arg13) = R0 V (Proc.devRef .tc main_arg13) :=
  (keepS7 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_7 V)
theorem rc_arg13_0_9 : R9 V (Proc.devRef .tc main_arg13) = R0 V (Proc.devRef .tc main_arg13) :=
  (keepS8 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg13_0_8 V)
theorem rc_arg13_0_10 : R10 V (Proc.devRef .tc main_arg13) = R0 V (Proc.devRef .tc main_arg13) :=
  (keepS9 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg13_0_9 V)
theorem rc_arg13_0_11 : R11 V (Proc.devRef .tc main_arg13) = R0 V (Proc.devRef .tc main_arg13) :=
  (keepS10 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg13_0_10 V)
theorem rc_arg13_0_12 : R12 V (Proc.devRef .tc main_arg13) = R0 V (Proc.devRef .tc main_arg13) :=
  (keepS11 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg13_0_11 V)
theorem rc_arg13_0_13 : R13 V (Proc.devRef .tc main_arg13) = R0 V (Proc.devRef .tc main_arg13) :=
  (keepS12 main_arg13 (Cert.Carry.allc (by decide) (Cert.Carry.allc (by decide) (Cert.Carry.allc (by decide) (Cert.Carry.alln)))) _).trans (rc_arg13_0_12 V)
theorem rc_arg13_0_14 : R14 V (Proc.devRef .tc main_arg13) = R0 V (Proc.devRef .tc main_arg13) :=
  (keepS13 main_arg13 (Cert.Carry.allc (by decide) (Cert.Carry.allc (by decide) (Cert.Carry.allc (by decide) (Cert.Carry.alln)))) _).trans (rc_arg13_0_13 V)
theorem rc_arg13_0_15 : R15 V (Proc.devRef .tc main_arg13) = R0 V (Proc.devRef .tc main_arg13) :=
  (keepS14 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_14 V)
theorem rc_arg13_0_16 : R16 V (Proc.devRef .tc main_arg13) = R0 V (Proc.devRef .tc main_arg13) :=
  (keepS15 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_15 V)
theorem rc_arg13_0_17 : R17 V (Proc.devRef .tc main_arg13) = R0 V (Proc.devRef .tc main_arg13) :=
  (keepS16 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_16 V)
theorem rc_arg13_0_18 : R18 V (Proc.devRef .tc main_arg13) = R0 V (Proc.devRef .tc main_arg13) :=
  (keepS17 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_17 V)
theorem rc_arg13_0_19 : R19 V (Proc.devRef .tc main_arg13) = R0 V (Proc.devRef .tc main_arg13) :=
  (keepS18 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_18 V)
theorem rc_arg13_0_20 : R20 V (Proc.devRef .tc main_arg13) = R0 V (Proc.devRef .tc main_arg13) :=
  (keepS19 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_19 V)
theorem rc_arg13_0_21 : R21 V (Proc.devRef .tc main_arg13) = R0 V (Proc.devRef .tc main_arg13) :=
  (keepS20 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg13_0_20 V)
theorem rc_arg13_0_22 : R22 V (Proc.devRef .tc main_arg13) = R0 V (Proc.devRef .tc main_arg13) :=
  (keepS21 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg13_0_21 V)
theorem rc_arg13_0_23 : R23 V (Proc.devRef .tc main_arg13) = R0 V (Proc.devRef .tc main_arg13) :=
  (keepS22 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg13_0_22 V)
theorem rc_arg13_0_24 : R24 V (Proc.devRef .tc main_arg13) = R0 V (Proc.devRef .tc main_arg13) :=
  (keepS23 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg13_0_23 V)
theorem rc_arg13_0_25 : R25 V (Proc.devRef .tc main_arg13) = R0 V (Proc.devRef .tc main_arg13) :=
  (keepS24 main_arg13 (Cert.Carry.allc (by decide) (Cert.Carry.allc (by decide) (Cert.Carry.allc (by decide) (Cert.Carry.alln)))) _).trans (rc_arg13_0_24 V)
theorem rc_arg13_0_26 : R26 V (Proc.devRef .tc main_arg13) = R0 V (Proc.devRef .tc main_arg13) :=
  (keepS25 main_arg13 (Cert.Carry.allc (by decide) (Cert.Carry.allc (by decide) (Cert.Carry.allc (by decide) (Cert.Carry.alln)))) _).trans (rc_arg13_0_25 V)
theorem rc_arg13_0_27 : R27 V (Proc.devRef .tc main_arg13) = R0 V (Proc.devRef .tc main_arg13) :=
  (keepS26 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_26 V)
theorem rc_arg13_0_28 : R28 V (Proc.devRef .tc main_arg13) = R0 V (Proc.devRef .tc main_arg13) :=
  (keepS27 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_27 V)
theorem rc_arg13_0_29 : R29 V (Proc.devRef .tc main_arg13) = R0 V (Proc.devRef .tc main_arg13) :=
  (keepS28 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_28 V)
theorem rc_arg13_0_30 : R30 V (Proc.devRef .tc main_arg13) = R0 V (Proc.devRef .tc main_arg13) :=
  (keepS29 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_29 V)
theorem rc_arg13_0_31 : R31 V (Proc.devRef .tc main_arg13) = R0 V (Proc.devRef .tc main_arg13) :=
  (keepS30 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg13_0_30 V)
theorem rc_arg13_0_32 : R32 V (Proc.devRef .tc main_arg13) = R0 V (Proc.devRef .tc main_arg13) :=
  (keepS31 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg13_0_31 V)
theorem rc_arg13_0_33 : R33 V (Proc.devRef .tc main_arg13) = R0 V (Proc.devRef .tc main_arg13) :=
  (keepS32 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg13_0_32 V)
theorem rc_arg13_0_34 : R34 V (Proc.devRef .tc main_arg13) = R0 V (Proc.devRef .tc main_arg13) :=
  (keepS33 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg13_0_33 V)
theorem rc_arg13_0_35 : R35 V (Proc.devRef .tc main_arg13) = R0 V (Proc.devRef .tc main_arg13) :=
  (keepS34 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg13_0_34 V)
theorem rc_arg13_0_36 : R36 V (Proc.devRef .tc main_arg13) = R0 V (Proc.devRef .tc main_arg13) :=
  (keepS35 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg13_0_35 V)
theorem rc_arg13_0_37 : R37 V (Proc.devRef .tc main_arg13) = R0 V (Proc.devRef .tc main_arg13) :=
  (keepS36 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg13_0_36 V)

end Cert.ReferenceIdeal.Run

end
-- ==== Proof.RArgs3.lean ====
import proofs.«143223_j29772713296000_1_alg».proof.Proof.RefOps
import proofs.«143223_j29772713296000_1_alg».proof.Proof.ListAll
import proofs.«143223_j29772713296000_1_alg».proof.Proof.RKeep1
import proofs.«143223_j29772713296000_1_alg».proof.Proof.RKeep2
import proofs.«143223_j29772713296000_1_alg».proof.Proof.RKeep3
import proofs.«143223_j29772713296000_1_alg».proof.Proof.RKeep4

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

variable (V : Valuation τ sig (Elt F))

theorem rc_arg14_0_1 : R1 V (Proc.devRef .tc main_arg14) = R0 V (Proc.devRef .tc main_arg14) :=
  (keepS0 main_arg14 (Cert.Carry.allc (by decide) (Cert.Carry.allc (by decide) (Cert.Carry.allc (by decide) (Cert.Carry.allc (by decide) (Cert.Carry.allc (by decide) (Cert.Carry.alln)))))) _).trans (rfl)
theorem rc_arg14_0_2 : R2 V (Proc.devRef .tc main_arg14) = R0 V (Proc.devRef .tc main_arg14) :=
  (keepS1 main_arg14 (Cert.Carry.allc (by decide) (Cert.Carry.allc (by decide) (Cert.Carry.allc (by decide) (Cert.Carry.allc (by decide) (Cert.Carry.allc (by decide) (Cert.Carry.alln)))))) _).trans (rc_arg14_0_1 V)
theorem rc_arg14_0_3 : R3 V (Proc.devRef .tc main_arg14) = R0 V (Proc.devRef .tc main_arg14) :=
  (keepS2 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_2 V)
theorem rc_arg14_0_4 : R4 V (Proc.devRef .tc main_arg14) = R0 V (Proc.devRef .tc main_arg14) :=
  (keepS3 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_3 V)
theorem rc_arg14_0_5 : R5 V (Proc.devRef .tc main_arg14) = R0 V (Proc.devRef .tc main_arg14) :=
  (keepS4 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_4 V)
theorem rc_arg14_0_6 : R6 V (Proc.devRef .tc main_arg14) = R0 V (Proc.devRef .tc main_arg14) :=
  (keepS5 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_5 V)
theorem rc_arg14_0_7 : R7 V (Proc.devRef .tc main_arg14) = R0 V (Proc.devRef .tc main_arg14) :=
  (keepS6 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_6 V)
theorem rc_arg14_0_8 : R8 V (Proc.devRef .tc main_arg14) = R0 V (Proc.devRef .tc main_arg14) :=
  (keepS7 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_7 V)
theorem rc_arg14_0_9 : R9 V (Proc.devRef .tc main_arg14) = R0 V (Proc.devRef .tc main_arg14) :=
  (keepS8 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg14_0_8 V)
theorem rc_arg14_0_10 : R10 V (Proc.devRef .tc main_arg14) = R0 V (Proc.devRef .tc main_arg14) :=
  (keepS9 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg14_0_9 V)
theorem rc_arg14_0_11 : R11 V (Proc.devRef .tc main_arg14) = R0 V (Proc.devRef .tc main_arg14) :=
  (keepS10 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg14_0_10 V)
theorem rc_arg14_0_12 : R12 V (Proc.devRef .tc main_arg14) = R0 V (Proc.devRef .tc main_arg14) :=
  (keepS11 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg14_0_11 V)
theorem rc_arg14_0_13 : R13 V (Proc.devRef .tc main_arg14) = R0 V (Proc.devRef .tc main_arg14) :=
  (keepS12 main_arg14 (Cert.Carry.allc (by decide) (Cert.Carry.allc (by decide) (Cert.Carry.allc (by decide) (Cert.Carry.alln)))) _).trans (rc_arg14_0_12 V)
theorem rc_arg14_0_14 : R14 V (Proc.devRef .tc main_arg14) = R0 V (Proc.devRef .tc main_arg14) :=
  (keepS13 main_arg14 (Cert.Carry.allc (by decide) (Cert.Carry.allc (by decide) (Cert.Carry.allc (by decide) (Cert.Carry.alln)))) _).trans (rc_arg14_0_13 V)
theorem rc_arg14_0_15 : R15 V (Proc.devRef .tc main_arg14) = R0 V (Proc.devRef .tc main_arg14) :=
  (keepS14 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_14 V)
theorem rc_arg14_0_16 : R16 V (Proc.devRef .tc main_arg14) = R0 V (Proc.devRef .tc main_arg14) :=
  (keepS15 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_15 V)
theorem rc_arg14_0_17 : R17 V (Proc.devRef .tc main_arg14) = R0 V (Proc.devRef .tc main_arg14) :=
  (keepS16 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_16 V)
theorem rc_arg14_0_18 : R18 V (Proc.devRef .tc main_arg14) = R0 V (Proc.devRef .tc main_arg14) :=
  (keepS17 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_17 V)
theorem rc_arg14_0_19 : R19 V (Proc.devRef .tc main_arg14) = R0 V (Proc.devRef .tc main_arg14) :=
  (keepS18 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_18 V)
theorem rc_arg14_0_20 : R20 V (Proc.devRef .tc main_arg14) = R0 V (Proc.devRef .tc main_arg14) :=
  (keepS19 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_19 V)
theorem rc_arg14_0_21 : R21 V (Proc.devRef .tc main_arg14) = R0 V (Proc.devRef .tc main_arg14) :=
  (keepS20 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg14_0_20 V)
theorem rc_arg14_0_22 : R22 V (Proc.devRef .tc main_arg14) = R0 V (Proc.devRef .tc main_arg14) :=
  (keepS21 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg14_0_21 V)
theorem rc_arg14_0_23 : R23 V (Proc.devRef .tc main_arg14) = R0 V (Proc.devRef .tc main_arg14) :=
  (keepS22 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg14_0_22 V)
theorem rc_arg14_0_24 : R24 V (Proc.devRef .tc main_arg14) = R0 V (Proc.devRef .tc main_arg14) :=
  (keepS23 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg14_0_23 V)
theorem rc_arg14_0_25 : R25 V (Proc.devRef .tc main_arg14) = R0 V (Proc.devRef .tc main_arg14) :=
  (keepS24 main_arg14 (Cert.Carry.allc (by decide) (Cert.Carry.allc (by decide) (Cert.Carry.allc (by decide) (Cert.Carry.alln)))) _).trans (rc_arg14_0_24 V)
theorem rc_arg14_0_26 : R26 V (Proc.devRef .tc main_arg14) = R0 V (Proc.devRef .tc main_arg14) :=
  (keepS25 main_arg14 (Cert.Carry.allc (by decide) (Cert.Carry.allc (by decide) (Cert.Carry.allc (by decide) (Cert.Carry.alln)))) _).trans (rc_arg14_0_25 V)
theorem rc_arg14_0_27 : R27 V (Proc.devRef .tc main_arg14) = R0 V (Proc.devRef .tc main_arg14) :=
  (keepS26 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_26 V)
theorem rc_arg14_0_28 : R28 V (Proc.devRef .tc main_arg14) = R0 V (Proc.devRef .tc main_arg14) :=
  (keepS27 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_27 V)
theorem rc_arg14_0_29 : R29 V (Proc.devRef .tc main_arg14) = R0 V (Proc.devRef .tc main_arg14) :=
  (keepS28 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_28 V)
theorem rc_arg14_0_30 : R30 V (Proc.devRef .tc main_arg14) = R0 V (Proc.devRef .tc main_arg14) :=
  (keepS29 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_29 V)
theorem rc_arg14_0_31 : R31 V (Proc.devRef .tc main_arg14) = R0 V (Proc.devRef .tc main_arg14) :=
  (keepS30 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg14_0_30 V)
theorem rc_arg14_0_32 : R32 V (Proc.devRef .tc main_arg14) = R0 V (Proc.devRef .tc main_arg14) :=
  (keepS31 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg14_0_31 V)
theorem rc_arg14_0_33 : R33 V (Proc.devRef .tc main_arg14) = R0 V (Proc.devRef .tc main_arg14) :=
  (keepS32 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg14_0_32 V)
theorem rc_arg14_0_34 : R34 V (Proc.devRef .tc main_arg14) = R0 V (Proc.devRef .tc main_arg14) :=
  (keepS33 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg14_0_33 V)
theorem rc_arg14_0_35 : R35 V (Proc.devRef .tc main_arg14) = R0 V (Proc.devRef .tc main_arg14) :=
  (keepS34 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg14_0_34 V)
theorem rc_arg14_0_36 : R36 V (Proc.devRef .tc main_arg14) = R0 V (Proc.devRef .tc main_arg14) :=
  (keepS35 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg14_0_35 V)
theorem rc_arg14_0_37 : R37 V (Proc.devRef .tc main_arg14) = R0 V (Proc.devRef .tc main_arg14) :=
  (keepS36 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg14_0_36 V)

theorem rc_arg15_0_1 : R1 V (Proc.devRef .tc main_arg15) = R0 V (Proc.devRef .tc main_arg15) :=
  (keepS0 main_arg15 (Cert.Carry.allc (by decide) (Cert.Carry.allc (by decide) (Cert.Carry.allc (by decide) (Cert.Carry.allc (by decide) (Cert.Carry.allc (by decide) (Cert.Carry.alln)))))) _).trans (rfl)
theorem rc_arg15_0_2 : R2 V (Proc.devRef .tc main_arg15) = R0 V (Proc.devRef .tc main_arg15) :=
  (keepS1 main_arg15 (Cert.Carry.allc (by decide) (Cert.Carry.allc (by decide) (Cert.Carry.allc (by decide) (Cert.Carry.allc (by decide) (Cert.Carry.allc (by decide) (Cert.Carry.alln)))))) _).trans (rc_arg15_0_1 V)
theorem rc_arg15_0_3 : R3 V (Proc.devRef .tc main_arg15) = R0 V (Proc.devRef .tc main_arg15) :=
  (keepS2 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_2 V)
theorem rc_arg15_0_4 : R4 V (Proc.devRef .tc main_arg15) = R0 V (Proc.devRef .tc main_arg15) :=
  (keepS3 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_3 V)
theorem rc_arg15_0_5 : R5 V (Proc.devRef .tc main_arg15) = R0 V (Proc.devRef .tc main_arg15) :=
  (keepS4 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_4 V)
theorem rc_arg15_0_6 : R6 V (Proc.devRef .tc main_arg15) = R0 V (Proc.devRef .tc main_arg15) :=
  (keepS5 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_5 V)
theorem rc_arg15_0_7 : R7 V (Proc.devRef .tc main_arg15) = R0 V (Proc.devRef .tc main_arg15) :=
  (keepS6 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_6 V)
theorem rc_arg15_0_8 : R8 V (Proc.devRef .tc main_arg15) = R0 V (Proc.devRef .tc main_arg15) :=
  (keepS7 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_7 V)
theorem rc_arg15_0_9 : R9 V (Proc.devRef .tc main_arg15) = R0 V (Proc.devRef .tc main_arg15) :=
  (keepS8 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg15_0_8 V)
theorem rc_arg15_0_10 : R10 V (Proc.devRef .tc main_arg15) = R0 V (Proc.devRef .tc main_arg15) :=
  (keepS9 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg15_0_9 V)
theorem rc_arg15_0_11 : R11 V (Proc.devRef .tc main_arg15) = R0 V (Proc.devRef .tc main_arg15) :=
  (keepS10 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg15_0_10 V)
theorem rc_arg15_0_12 : R12 V (Proc.devRef .tc main_arg15) = R0 V (Proc.devRef .tc main_arg15) :=
  (keepS11 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg15_0_11 V)
theorem rc_arg15_0_13 : R13 V (Proc.devRef .tc main_arg15) = R0 V (Proc.devRef .tc main_arg15) :=
  (keepS12 main_arg15 (Cert.Carry.allc (by decide) (Cert.Carry.allc (by decide) (Cert.Carry.allc (by decide) (Cert.Carry.alln)))) _).trans (rc_arg15_0_12 V)
theorem rc_arg15_0_14 : R14 V (Proc.devRef .tc main_arg15) = R0 V (Proc.devRef .tc main_arg15) :=
  (keepS13 main_arg15 (Cert.Carry.allc (by decide) (Cert.Carry.allc (by decide) (Cert.Carry.allc (by decide) (Cert.Carry.alln)))) _).trans (rc_arg15_0_13 V)
theorem rc_arg15_0_15 : R15 V (Proc.devRef .tc main_arg15) = R0 V (Proc.devRef .tc main_arg15) :=
  (keepS14 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_14 V)
theorem rc_arg15_0_16 : R16 V (Proc.devRef .tc main_arg15) = R0 V (Proc.devRef .tc main_arg15) :=
  (keepS15 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_15 V)
theorem rc_arg15_0_17 : R17 V (Proc.devRef .tc main_arg15) = R0 V (Proc.devRef .tc main_arg15) :=
  (keepS16 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_16 V)
theorem rc_arg15_0_18 : R18 V (Proc.devRef .tc main_arg15) = R0 V (Proc.devRef .tc main_arg15) :=
  (keepS17 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_17 V)
theorem rc_arg15_0_19 : R19 V (Proc.devRef .tc main_arg15) = R0 V (Proc.devRef .tc main_arg15) :=
  (keepS18 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_18 V)
theorem rc_arg15_0_20 : R20 V (Proc.devRef .tc main_arg15) = R0 V (Proc.devRef .tc main_arg15) :=
  (keepS19 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_19 V)
theorem rc_arg15_0_21 : R21 V (Proc.devRef .tc main_arg15) = R0 V (Proc.devRef .tc main_arg15) :=
  (keepS20 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg15_0_20 V)
theorem rc_arg15_0_22 : R22 V (Proc.devRef .tc main_arg15) = R0 V (Proc.devRef .tc main_arg15) :=
  (keepS21 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg15_0_21 V)
theorem rc_arg15_0_23 : R23 V (Proc.devRef .tc main_arg15) = R0 V (Proc.devRef .tc main_arg15) :=
  (keepS22 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg15_0_22 V)
theorem rc_arg15_0_24 : R24 V (Proc.devRef .tc main_arg15) = R0 V (Proc.devRef .tc main_arg15) :=
  (keepS23 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg15_0_23 V)
theorem rc_arg15_0_25 : R25 V (Proc.devRef .tc main_arg15) = R0 V (Proc.devRef .tc main_arg15) :=
  (keepS24 main_arg15 (Cert.Carry.allc (by decide) (Cert.Carry.allc (by decide) (Cert.Carry.allc (by decide) (Cert.Carry.alln)))) _).trans (rc_arg15_0_24 V)
theorem rc_arg15_0_26 : R26 V (Proc.devRef .tc main_arg15) = R0 V (Proc.devRef .tc main_arg15) :=
  (keepS25 main_arg15 (Cert.Carry.allc (by decide) (Cert.Carry.allc (by decide) (Cert.Carry.allc (by decide) (Cert.Carry.alln)))) _).trans (rc_arg15_0_25 V)
theorem rc_arg15_0_27 : R27 V (Proc.devRef .tc main_arg15) = R0 V (Proc.devRef .tc main_arg15) :=
  (keepS26 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_26 V)
theorem rc_arg15_0_28 : R28 V (Proc.devRef .tc main_arg15) = R0 V (Proc.devRef .tc main_arg15) :=
  (keepS27 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_27 V)
theorem rc_arg15_0_29 : R29 V (Proc.devRef .tc main_arg15) = R0 V (Proc.devRef .tc main_arg15) :=
  (keepS28 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_28 V)
theorem rc_arg15_0_30 : R30 V (Proc.devRef .tc main_arg15) = R0 V (Proc.devRef .tc main_arg15) :=
  (keepS29 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_29 V)
theorem rc_arg15_0_31 : R31 V (Proc.devRef .tc main_arg15) = R0 V (Proc.devRef .tc main_arg15) :=
  (keepS30 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg15_0_30 V)
theorem rc_arg15_0_32 : R32 V (Proc.devRef .tc main_arg15) = R0 V (Proc.devRef .tc main_arg15) :=
  (keepS31 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg15_0_31 V)
theorem rc_arg15_0_33 : R33 V (Proc.devRef .tc main_arg15) = R0 V (Proc.devRef .tc main_arg15) :=
  (keepS32 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg15_0_32 V)
theorem rc_arg15_0_34 : R34 V (Proc.devRef .tc main_arg15) = R0 V (Proc.devRef .tc main_arg15) :=
  (keepS33 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg15_0_33 V)
theorem rc_arg15_0_35 : R35 V (Proc.devRef .tc main_arg15) = R0 V (Proc.devRef .tc main_arg15) :=
  (keepS34 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg15_0_34 V)
theorem rc_arg15_0_36 : R36 V (Proc.devRef .tc main_arg15) = R0 V (Proc.devRef .tc main_arg15) :=
  (keepS35 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg15_0_35 V)
theorem rc_arg15_0_37 : R37 V (Proc.devRef .tc main_arg15) = R0 V (Proc.devRef .tc main_arg15) :=
  (keepS36 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg15_0_36 V)

theorem rc_arg16_0_1 : R1 V (Proc.devRef .tc main_arg16) = R0 V (Proc.devRef .tc main_arg16) :=
  (keepS0 main_arg16 (Cert.Carry.allc (by decide) (Cert.Carry.allc (by decide) (Cert.Carry.allc (by decide) (Cert.Carry.allc (by decide) (Cert.Carry.allc (by decide) (Cert.Carry.alln)))))) _).trans (rfl)
theorem rc_arg16_0_2 : R2 V (Proc.devRef .tc main_arg16) = R0 V (Proc.devRef .tc main_arg16) :=
  (keepS1 main_arg16 (Cert.Carry.allc (by decide) (Cert.Carry.allc (by decide) (Cert.Carry.allc (by decide) (Cert.Carry.allc (by decide) (Cert.Carry.allc (by decide) (Cert.Carry.alln)))))) _).trans (rc_arg16_0_1 V)
theorem rc_arg16_0_3 : R3 V (Proc.devRef .tc main_arg16) = R0 V (Proc.devRef .tc main_arg16) :=
  (keepS2 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_2 V)
theorem rc_arg16_0_4 : R4 V (Proc.devRef .tc main_arg16) = R0 V (Proc.devRef .tc main_arg16) :=
  (keepS3 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_3 V)
theorem rc_arg16_0_5 : R5 V (Proc.devRef .tc main_arg16) = R0 V (Proc.devRef .tc main_arg16) :=
  (keepS4 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_4 V)
theorem rc_arg16_0_6 : R6 V (Proc.devRef .tc main_arg16) = R0 V (Proc.devRef .tc main_arg16) :=
  (keepS5 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_5 V)
theorem rc_arg16_0_7 : R7 V (Proc.devRef .tc main_arg16) = R0 V (Proc.devRef .tc main_arg16) :=
  (keepS6 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_6 V)
theorem rc_arg16_0_8 : R8 V (Proc.devRef .tc main_arg16) = R0 V (Proc.devRef .tc main_arg16) :=
  (keepS7 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_7 V)
theorem rc_arg16_0_9 : R9 V (Proc.devRef .tc main_arg16) = R0 V (Proc.devRef .tc main_arg16) :=
  (keepS8 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg16_0_8 V)
theorem rc_arg16_0_10 : R10 V (Proc.devRef .tc main_arg16) = R0 V (Proc.devRef .tc main_arg16) :=
  (keepS9 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg16_0_9 V)
theorem rc_arg16_0_11 : R11 V (Proc.devRef .tc main_arg16) = R0 V (Proc.devRef .tc main_arg16) :=
  (keepS10 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg16_0_10 V)
theorem rc_arg16_0_12 : R12 V (Proc.devRef .tc main_arg16) = R0 V (Proc.devRef .tc main_arg16) :=
  (keepS11 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg16_0_11 V)
theorem rc_arg16_0_13 : R13 V (Proc.devRef .tc main_arg16) = R0 V (Proc.devRef .tc main_arg16) :=
  (keepS12 main_arg16 (Cert.Carry.allc (by decide) (Cert.Carry.allc (by decide) (Cert.Carry.allc (by decide) (Cert.Carry.alln)))) _).trans (rc_arg16_0_12 V)
theorem rc_arg16_0_14 : R14 V (Proc.devRef .tc main_arg16) = R0 V (Proc.devRef .tc main_arg16) :=
  (keepS13 main_arg16 (Cert.Carry.allc (by decide) (Cert.Carry.allc (by decide) (Cert.Carry.allc (by decide) (Cert.Carry.alln)))) _).trans (rc_arg16_0_13 V)
theorem rc_arg16_0_15 : R15 V (Proc.devRef .tc main_arg16) = R0 V (Proc.devRef .tc main_arg16) :=
  (keepS14 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_14 V)
theorem rc_arg16_0_16 : R16 V (Proc.devRef .tc main_arg16) = R0 V (Proc.devRef .tc main_arg16) :=
  (keepS15 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_15 V)
theorem rc_arg16_0_17 : R17 V (Proc.devRef .tc main_arg16) = R0 V (Proc.devRef .tc main_arg16) :=
  (keepS16 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_16 V)
theorem rc_arg16_0_18 : R18 V (Proc.devRef .tc main_arg16) = R0 V (Proc.devRef .tc main_arg16) :=
  (keepS17 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_17 V)
theorem rc_arg16_0_19 : R19 V (Proc.devRef .tc main_arg16) = R0 V (Proc.devRef .tc main_arg16) :=
  (keepS18 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_18 V)
theorem rc_arg16_0_20 : R20 V (Proc.devRef .tc main_arg16) = R0 V (Proc.devRef .tc main_arg16) :=
  (keepS19 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_19 V)
theorem rc_arg16_0_21 : R21 V (Proc.devRef .tc main_arg16) = R0 V (Proc.devRef .tc main_arg16) :=
  (keepS20 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg16_0_20 V)
theorem rc_arg16_0_22 : R22 V (Proc.devRef .tc main_arg16) = R0 V (Proc.devRef .tc main_arg16) :=
  (keepS21 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg16_0_21 V)
theorem rc_arg16_0_23 : R23 V (Proc.devRef .tc main_arg16) = R0 V (Proc.devRef .tc main_arg16) :=
  (keepS22 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg16_0_22 V)
theorem rc_arg16_0_24 : R24 V (Proc.devRef .tc main_arg16) = R0 V (Proc.devRef .tc main_arg16) :=
  (keepS23 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg16_0_23 V)
theorem rc_arg16_0_25 : R25 V (Proc.devRef .tc main_arg16) = R0 V (Proc.devRef .tc main_arg16) :=
  (keepS24 main_arg16 (Cert.Carry.allc (by decide) (Cert.Carry.allc (by decide) (Cert.Carry.allc (by decide) (Cert.Carry.alln)))) _).trans (rc_arg16_0_24 V)
theorem rc_arg16_0_26 : R26 V (Proc.devRef .tc main_arg16) = R0 V (Proc.devRef .tc main_arg16) :=
  (keepS25 main_arg16 (Cert.Carry.allc (by decide) (Cert.Carry.allc (by decide) (Cert.Carry.allc (by decide) (Cert.Carry.alln)))) _).trans (rc_arg16_0_25 V)
theorem rc_arg16_0_27 : R27 V (Proc.devRef .tc main_arg16) = R0 V (Proc.devRef .tc main_arg16) :=
  (keepS26 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_26 V)
theorem rc_arg16_0_28 : R28 V (Proc.devRef .tc main_arg16) = R0 V (Proc.devRef .tc main_arg16) :=
  (keepS27 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_27 V)
theorem rc_arg16_0_29 : R29 V (Proc.devRef .tc main_arg16) = R0 V (Proc.devRef .tc main_arg16) :=
  (keepS28 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_28 V)
theorem rc_arg16_0_30 : R30 V (Proc.devRef .tc main_arg16) = R0 V (Proc.devRef .tc main_arg16) :=
  (keepS29 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_29 V)
theorem rc_arg16_0_31 : R31 V (Proc.devRef .tc main_arg16) = R0 V (Proc.devRef .tc main_arg16) :=
  (keepS30 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg16_0_30 V)
theorem rc_arg16_0_32 : R32 V (Proc.devRef .tc main_arg16) = R0 V (Proc.devRef .tc main_arg16) :=
  (keepS31 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg16_0_31 V)
theorem rc_arg16_0_33 : R33 V (Proc.devRef .tc main_arg16) = R0 V (Proc.devRef .tc main_arg16) :=
  (keepS32 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg16_0_32 V)
theorem rc_arg16_0_34 : R34 V (Proc.devRef .tc main_arg16) = R0 V (Proc.devRef .tc main_arg16) :=
  (keepS33 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg16_0_33 V)
theorem rc_arg16_0_35 : R35 V (Proc.devRef .tc main_arg16) = R0 V (Proc.devRef .tc main_arg16) :=
  (keepS34 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg16_0_34 V)
theorem rc_arg16_0_36 : R36 V (Proc.devRef .tc main_arg16) = R0 V (Proc.devRef .tc main_arg16) :=
  (keepS35 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg16_0_35 V)
theorem rc_arg16_0_37 : R37 V (Proc.devRef .tc main_arg16) = R0 V (Proc.devRef .tc main_arg16) :=
  (keepS36 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg16_0_36 V)

theorem rc_arg17_0_1 : R1 V (Proc.devRef .tc main_arg17) = R0 V (Proc.devRef .tc main_arg17) :=
  (keepS0 main_arg17 (Cert.Carry.allc (by decide) (Cert.Carry.allc (by decide) (Cert.Carry.allc (by decide) (Cert.Carry.allc (by decide) (Cert.Carry.allc (by decide) (Cert.Carry.alln)))))) _).trans (rfl)
theorem rc_arg17_0_2 : R2 V (Proc.devRef .tc main_arg17) = R0 V (Proc.devRef .tc main_arg17) :=
  (keepS1 main_arg17 (Cert.Carry.allc (by decide) (Cert.Carry.allc (by decide) (Cert.Carry.allc (by decide) (Cert.Carry.allc (by decide) (Cert.Carry.allc (by decide) (Cert.Carry.alln)))))) _).trans (rc_arg17_0_1 V)
theorem rc_arg17_0_3 : R3 V (Proc.devRef .tc main_arg17) = R0 V (Proc.devRef .tc main_arg17) :=
  (keepS2 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_2 V)
theorem rc_arg17_0_4 : R4 V (Proc.devRef .tc main_arg17) = R0 V (Proc.devRef .tc main_arg17) :=
  (keepS3 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_3 V)
theorem rc_arg17_0_5 : R5 V (Proc.devRef .tc main_arg17) = R0 V (Proc.devRef .tc main_arg17) :=
  (keepS4 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_4 V)
theorem rc_arg17_0_6 : R6 V (Proc.devRef .tc main_arg17) = R0 V (Proc.devRef .tc main_arg17) :=
  (keepS5 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_5 V)
theorem rc_arg17_0_7 : R7 V (Proc.devRef .tc main_arg17) = R0 V (Proc.devRef .tc main_arg17) :=
  (keepS6 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_6 V)
theorem rc_arg17_0_8 : R8 V (Proc.devRef .tc main_arg17) = R0 V (Proc.devRef .tc main_arg17) :=
  (keepS7 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_7 V)
theorem rc_arg17_0_9 : R9 V (Proc.devRef .tc main_arg17) = R0 V (Proc.devRef .tc main_arg17) :=
  (keepS8 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg17_0_8 V)
theorem rc_arg17_0_10 : R10 V (Proc.devRef .tc main_arg17) = R0 V (Proc.devRef .tc main_arg17) :=
  (keepS9 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg17_0_9 V)
theorem rc_arg17_0_11 : R11 V (Proc.devRef .tc main_arg17) = R0 V (Proc.devRef .tc main_arg17) :=
  (keepS10 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg17_0_10 V)
theorem rc_arg17_0_12 : R12 V (Proc.devRef .tc main_arg17) = R0 V (Proc.devRef .tc main_arg17) :=
  (keepS11 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg17_0_11 V)
theorem rc_arg17_0_13 : R13 V (Proc.devRef .tc main_arg17) = R0 V (Proc.devRef .tc main_arg17) :=
  (keepS12 main_arg17 (Cert.Carry.allc (by decide) (Cert.Carry.allc (by decide) (Cert.Carry.allc (by decide) (Cert.Carry.alln)))) _).trans (rc_arg17_0_12 V)
theorem rc_arg17_0_14 : R14 V (Proc.devRef .tc main_arg17) = R0 V (Proc.devRef .tc main_arg17) :=
  (keepS13 main_arg17 (Cert.Carry.allc (by decide) (Cert.Carry.allc (by decide) (Cert.Carry.allc (by decide) (Cert.Carry.alln)))) _).trans (rc_arg17_0_13 V)
theorem rc_arg17_0_15 : R15 V (Proc.devRef .tc main_arg17) = R0 V (Proc.devRef .tc main_arg17) :=
  (keepS14 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_14 V)
theorem rc_arg17_0_16 : R16 V (Proc.devRef .tc main_arg17) = R0 V (Proc.devRef .tc main_arg17) :=
  (keepS15 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_15 V)
theorem rc_arg17_0_17 : R17 V (Proc.devRef .tc main_arg17) = R0 V (Proc.devRef .tc main_arg17) :=
  (keepS16 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_16 V)
theorem rc_arg17_0_18 : R18 V (Proc.devRef .tc main_arg17) = R0 V (Proc.devRef .tc main_arg17) :=
  (keepS17 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_17 V)
theorem rc_arg17_0_19 : R19 V (Proc.devRef .tc main_arg17) = R0 V (Proc.devRef .tc main_arg17) :=
  (keepS18 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_18 V)
theorem rc_arg17_0_20 : R20 V (Proc.devRef .tc main_arg17) = R0 V (Proc.devRef .tc main_arg17) :=
  (keepS19 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_19 V)
theorem rc_arg17_0_21 : R21 V (Proc.devRef .tc main_arg17) = R0 V (Proc.devRef .tc main_arg17) :=
  (keepS20 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg17_0_20 V)
theorem rc_arg17_0_22 : R22 V (Proc.devRef .tc main_arg17) = R0 V (Proc.devRef .tc main_arg17) :=
  (keepS21 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg17_0_21 V)
theorem rc_arg17_0_23 : R23 V (Proc.devRef .tc main_arg17) = R0 V (Proc.devRef .tc main_arg17) :=
  (keepS22 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg17_0_22 V)
theorem rc_arg17_0_24 : R24 V (Proc.devRef .tc main_arg17) = R0 V (Proc.devRef .tc main_arg17) :=
  (keepS23 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg17_0_23 V)
theorem rc_arg17_0_25 : R25 V (Proc.devRef .tc main_arg17) = R0 V (Proc.devRef .tc main_arg17) :=
  (keepS24 main_arg17 (Cert.Carry.allc (by decide) (Cert.Carry.allc (by decide) (Cert.Carry.allc (by decide) (Cert.Carry.alln)))) _).trans (rc_arg17_0_24 V)
theorem rc_arg17_0_26 : R26 V (Proc.devRef .tc main_arg17) = R0 V (Proc.devRef .tc main_arg17) :=
  (keepS25 main_arg17 (Cert.Carry.allc (by decide) (Cert.Carry.allc (by decide) (Cert.Carry.allc (by decide) (Cert.Carry.alln)))) _).trans (rc_arg17_0_25 V)
theorem rc_arg17_0_27 : R27 V (Proc.devRef .tc main_arg17) = R0 V (Proc.devRef .tc main_arg17) :=
  (keepS26 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_26 V)
theorem rc_arg17_0_28 : R28 V (Proc.devRef .tc main_arg17) = R0 V (Proc.devRef .tc main_arg17) :=
  (keepS27 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_27 V)
theorem rc_arg17_0_29 : R29 V (Proc.devRef .tc main_arg17) = R0 V (Proc.devRef .tc main_arg17) :=
  (keepS28 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_28 V)
theorem rc_arg17_0_30 : R30 V (Proc.devRef .tc main_arg17) = R0 V (Proc.devRef .tc main_arg17) :=
  (keepS29 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_29 V)
theorem rc_arg17_0_31 : R31 V (Proc.devRef .tc main_arg17) = R0 V (Proc.devRef .tc main_arg17) :=
  (keepS30 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg17_0_30 V)
theorem rc_arg17_0_32 : R32 V (Proc.devRef .tc main_arg17) = R0 V (Proc.devRef .tc main_arg17) :=
  (keepS31 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg17_0_31 V)
theorem rc_arg17_0_33 : R33 V (Proc.devRef .tc main_arg17) = R0 V (Proc.devRef .tc main_arg17) :=
  (keepS32 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg17_0_32 V)
theorem rc_arg17_0_34 : R34 V (Proc.devRef .tc main_arg17) = R0 V (Proc.devRef .tc main_arg17) :=
  (keepS33 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg17_0_33 V)
theorem rc_arg17_0_35 : R35 V (Proc.devRef .tc main_arg17) = R0 V (Proc.devRef .tc main_arg17) :=
  (keepS34 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg17_0_34 V)
theorem rc_arg17_0_36 : R36 V (Proc.devRef .tc main_arg17) = R0 V (Proc.devRef .tc main_arg17) :=
  (keepS35 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg17_0_35 V)
theorem rc_arg17_0_37 : R37 V (Proc.devRef .tc main_arg17) = R0 V (Proc.devRef .tc main_arg17) :=
  (keepS36 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg17_0_36 V)

theorem rc_arg18_0_1 : R1 V (Proc.devRef .tc main_arg18) = R0 V (Proc.devRef .tc main_arg18) :=
  (keepS0 main_arg18 (Cert.Carry.allc (by decide) (Cert.Carry.allc (by decide) (Cert.Carry.allc (by decide) (Cert.Carry.allc (by decide) (Cert.Carry.allc (by decide) (Cert.Carry.alln)))))) _).trans (rfl)
theorem rc_arg18_0_2 : R2 V (Proc.devRef .tc main_arg18) = R0 V (Proc.devRef .tc main_arg18) :=
  (keepS1 main_arg18 (Cert.Carry.allc (by decide) (Cert.Carry.allc (by decide) (Cert.Carry.allc (by decide) (Cert.Carry.allc (by decide) (Cert.Carry.allc (by decide) (Cert.Carry.alln)))))) _).trans (rc_arg18_0_1 V)
theorem rc_arg18_0_3 : R3 V (Proc.devRef .tc main_arg18) = R0 V (Proc.devRef .tc main_arg18) :=
  (keepS2 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_2 V)
theorem rc_arg18_0_4 : R4 V (Proc.devRef .tc main_arg18) = R0 V (Proc.devRef .tc main_arg18) :=
  (keepS3 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_3 V)
theorem rc_arg18_0_5 : R5 V (Proc.devRef .tc main_arg18) = R0 V (Proc.devRef .tc main_arg18) :=
  (keepS4 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_4 V)
theorem rc_arg18_0_6 : R6 V (Proc.devRef .tc main_arg18) = R0 V (Proc.devRef .tc main_arg18) :=
  (keepS5 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_5 V)
theorem rc_arg18_0_7 : R7 V (Proc.devRef .tc main_arg18) = R0 V (Proc.devRef .tc main_arg18) :=
  (keepS6 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_6 V)
theorem rc_arg18_0_8 : R8 V (Proc.devRef .tc main_arg18) = R0 V (Proc.devRef .tc main_arg18) :=
  (keepS7 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_7 V)
theorem rc_arg18_0_9 : R9 V (Proc.devRef .tc main_arg18) = R0 V (Proc.devRef .tc main_arg18) :=
  (keepS8 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg18_0_8 V)
theorem rc_arg18_0_10 : R10 V (Proc.devRef .tc main_arg18) = R0 V (Proc.devRef .tc main_arg18) :=
  (keepS9 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg18_0_9 V)
theorem rc_arg18_0_11 : R11 V (Proc.devRef .tc main_arg18) = R0 V (Proc.devRef .tc main_arg18) :=
  (keepS10 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg18_0_10 V)
theorem rc_arg18_0_12 : R12 V (Proc.devRef .tc main_arg18) = R0 V (Proc.devRef .tc main_arg18) :=
  (keepS11 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg18_0_11 V)
theorem rc_arg18_0_13 : R13 V (Proc.devRef .tc main_arg18) = R0 V (Proc.devRef .tc main_arg18) :=
  (keepS12 main_arg18 (Cert.Carry.allc (by decide) (Cert.Carry.allc (by decide) (Cert.Carry.allc (by decide) (Cert.Carry.alln)))) _).trans (rc_arg18_0_12 V)
theorem rc_arg18_0_14 : R14 V (Proc.devRef .tc main_arg18) = R0 V (Proc.devRef .tc main_arg18) :=
  (keepS13 main_arg18 (Cert.Carry.allc (by decide) (Cert.Carry.allc (by decide) (Cert.Carry.allc (by decide) (Cert.Carry.alln)))) _).trans (rc_arg18_0_13 V)
theorem rc_arg18_0_15 : R15 V (Proc.devRef .tc main_arg18) = R0 V (Proc.devRef .tc main_arg18) :=
  (keepS14 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_14 V)
theorem rc_arg18_0_16 : R16 V (Proc.devRef .tc main_arg18) = R0 V (Proc.devRef .tc main_arg18) :=
  (keepS15 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_15 V)
theorem rc_arg18_0_17 : R17 V (Proc.devRef .tc main_arg18) = R0 V (Proc.devRef .tc main_arg18) :=
  (keepS16 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_16 V)
theorem rc_arg18_0_18 : R18 V (Proc.devRef .tc main_arg18) = R0 V (Proc.devRef .tc main_arg18) :=
  (keepS17 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_17 V)
theorem rc_arg18_0_19 : R19 V (Proc.devRef .tc main_arg18) = R0 V (Proc.devRef .tc main_arg18) :=
  (keepS18 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_18 V)
theorem rc_arg18_0_20 : R20 V (Proc.devRef .tc main_arg18) = R0 V (Proc.devRef .tc main_arg18) :=
  (keepS19 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_19 V)
theorem rc_arg18_0_21 : R21 V (Proc.devRef .tc main_arg18) = R0 V (Proc.devRef .tc main_arg18) :=
  (keepS20 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg18_0_20 V)
theorem rc_arg18_0_22 : R22 V (Proc.devRef .tc main_arg18) = R0 V (Proc.devRef .tc main_arg18) :=
  (keepS21 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg18_0_21 V)
theorem rc_arg18_0_23 : R23 V (Proc.devRef .tc main_arg18) = R0 V (Proc.devRef .tc main_arg18) :=
  (keepS22 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg18_0_22 V)
theorem rc_arg18_0_24 : R24 V (Proc.devRef .tc main_arg18) = R0 V (Proc.devRef .tc main_arg18) :=
  (keepS23 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg18_0_23 V)
theorem rc_arg18_0_25 : R25 V (Proc.devRef .tc main_arg18) = R0 V (Proc.devRef .tc main_arg18) :=
  (keepS24 main_arg18 (Cert.Carry.allc (by decide) (Cert.Carry.allc (by decide) (Cert.Carry.allc (by decide) (Cert.Carry.alln)))) _).trans (rc_arg18_0_24 V)
theorem rc_arg18_0_26 : R26 V (Proc.devRef .tc main_arg18) = R0 V (Proc.devRef .tc main_arg18) :=
  (keepS25 main_arg18 (Cert.Carry.allc (by decide) (Cert.Carry.allc (by decide) (Cert.Carry.allc (by decide) (Cert.Carry.alln)))) _).trans (rc_arg18_0_25 V)
theorem rc_arg18_0_27 : R27 V (Proc.devRef .tc main_arg18) = R0 V (Proc.devRef .tc main_arg18) :=
  (keepS26 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_26 V)
theorem rc_arg18_0_28 : R28 V (Proc.devRef .tc main_arg18) = R0 V (Proc.devRef .tc main_arg18) :=
  (keepS27 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_27 V)
theorem rc_arg18_0_29 : R29 V (Proc.devRef .tc main_arg18) = R0 V (Proc.devRef .tc main_arg18) :=
  (keepS28 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_28 V)
theorem rc_arg18_0_30 : R30 V (Proc.devRef .tc main_arg18) = R0 V (Proc.devRef .tc main_arg18) :=
  (keepS29 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_29 V)
theorem rc_arg18_0_31 : R31 V (Proc.devRef .tc main_arg18) = R0 V (Proc.devRef .tc main_arg18) :=
  (keepS30 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg18_0_30 V)
theorem rc_arg18_0_32 : R32 V (Proc.devRef .tc main_arg18) = R0 V (Proc.devRef .tc main_arg18) :=
  (keepS31 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg18_0_31 V)
theorem rc_arg18_0_33 : R33 V (Proc.devRef .tc main_arg18) = R0 V (Proc.devRef .tc main_arg18) :=
  (keepS32 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg18_0_32 V)
theorem rc_arg18_0_34 : R34 V (Proc.devRef .tc main_arg18) = R0 V (Proc.devRef .tc main_arg18) :=
  (keepS33 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg18_0_33 V)
theorem rc_arg18_0_35 : R35 V (Proc.devRef .tc main_arg18) = R0 V (Proc.devRef .tc main_arg18) :=
  (keepS34 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg18_0_34 V)
theorem rc_arg18_0_36 : R36 V (Proc.devRef .tc main_arg18) = R0 V (Proc.devRef .tc main_arg18) :=
  (keepS35 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg18_0_35 V)
theorem rc_arg18_0_37 : R37 V (Proc.devRef .tc main_arg18) = R0 V (Proc.devRef .tc main_arg18) :=
  (keepS36 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg18_0_36 V)

theorem rc_arg19_0_1 : R1 V (Proc.devRef .tc main_arg19) = R0 V (Proc.devRef .tc main_arg19) :=
  (keepS0 main_arg19 (Cert.Carry.allc (by decide) (Cert.Carry.allc (by decide) (Cert.Carry.allc (by decide) (Cert.Carry.allc (by decide) (Cert.Carry.allc (by decide) (Cert.Carry.alln)))))) _).trans (rfl)
theorem rc_arg19_0_2 : R2 V (Proc.devRef .tc main_arg19) = R0 V (Proc.devRef .tc main_arg19) :=
  (keepS1 main_arg19 (Cert.Carry.allc (by decide) (Cert.Carry.allc (by decide) (Cert.Carry.allc (by decide) (Cert.Carry.allc (by decide) (Cert.Carry.allc (by decide) (Cert.Carry.alln)))))) _).trans (rc_arg19_0_1 V)
theorem rc_arg19_0_3 : R3 V (Proc.devRef .tc main_arg19) = R0 V (Proc.devRef .tc main_arg19) :=
  (keepS2 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_2 V)
theorem rc_arg19_0_4 : R4 V (Proc.devRef .tc main_arg19) = R0 V (Proc.devRef .tc main_arg19) :=
  (keepS3 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_3 V)
theorem rc_arg19_0_5 : R5 V (Proc.devRef .tc main_arg19) = R0 V (Proc.devRef .tc main_arg19) :=
  (keepS4 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_4 V)
theorem rc_arg19_0_6 : R6 V (Proc.devRef .tc main_arg19) = R0 V (Proc.devRef .tc main_arg19) :=
  (keepS5 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_5 V)
theorem rc_arg19_0_7 : R7 V (Proc.devRef .tc main_arg19) = R0 V (Proc.devRef .tc main_arg19) :=
  (keepS6 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_6 V)
theorem rc_arg19_0_8 : R8 V (Proc.devRef .tc main_arg19) = R0 V (Proc.devRef .tc main_arg19) :=
  (keepS7 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_7 V)
theorem rc_arg19_0_9 : R9 V (Proc.devRef .tc main_arg19) = R0 V (Proc.devRef .tc main_arg19) :=
  (keepS8 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg19_0_8 V)
theorem rc_arg19_0_10 : R10 V (Proc.devRef .tc main_arg19) = R0 V (Proc.devRef .tc main_arg19) :=
  (keepS9 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg19_0_9 V)
theorem rc_arg19_0_11 : R11 V (Proc.devRef .tc main_arg19) = R0 V (Proc.devRef .tc main_arg19) :=
  (keepS10 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg19_0_10 V)
theorem rc_arg19_0_12 : R12 V (Proc.devRef .tc main_arg19) = R0 V (Proc.devRef .tc main_arg19) :=
  (keepS11 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg19_0_11 V)
theorem rc_arg19_0_13 : R13 V (Proc.devRef .tc main_arg19) = R0 V (Proc.devRef .tc main_arg19) :=
  (keepS12 main_arg19 (Cert.Carry.allc (by decide) (Cert.Carry.allc (by decide) (Cert.Carry.allc (by decide) (Cert.Carry.alln)))) _).trans (rc_arg19_0_12 V)
theorem rc_arg19_0_14 : R14 V (Proc.devRef .tc main_arg19) = R0 V (Proc.devRef .tc main_arg19) :=
  (keepS13 main_arg19 (Cert.Carry.allc (by decide) (Cert.Carry.allc (by decide) (Cert.Carry.allc (by decide) (Cert.Carry.alln)))) _).trans (rc_arg19_0_13 V)
theorem rc_arg19_0_15 : R15 V (Proc.devRef .tc main_arg19) = R0 V (Proc.devRef .tc main_arg19) :=
  (keepS14 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_14 V)
theorem rc_arg19_0_16 : R16 V (Proc.devRef .tc main_arg19) = R0 V (Proc.devRef .tc main_arg19) :=
  (keepS15 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_15 V)
theorem rc_arg19_0_17 : R17 V (Proc.devRef .tc main_arg19) = R0 V (Proc.devRef .tc main_arg19) :=
  (keepS16 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_16 V)
theorem rc_arg19_0_18 : R18 V (Proc.devRef .tc main_arg19) = R0 V (Proc.devRef .tc main_arg19) :=
  (keepS17 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_17 V)
theorem rc_arg19_0_19 : R19 V (Proc.devRef .tc main_arg19) = R0 V (Proc.devRef .tc main_arg19) :=
  (keepS18 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_18 V)
theorem rc_arg19_0_20 : R20 V (Proc.devRef .tc main_arg19) = R0 V (Proc.devRef .tc main_arg19) :=
  (keepS19 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_19 V)
theorem rc_arg19_0_21 : R21 V (Proc.devRef .tc main_arg19) = R0 V (Proc.devRef .tc main_arg19) :=
  (keepS20 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg19_0_20 V)
theorem rc_arg19_0_22 : R22 V (Proc.devRef .tc main_arg19) = R0 V (Proc.devRef .tc main_arg19) :=
  (keepS21 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg19_0_21 V)
theorem rc_arg19_0_23 : R23 V (Proc.devRef .tc main_arg19) = R0 V (Proc.devRef .tc main_arg19) :=
  (keepS22 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg19_0_22 V)
theorem rc_arg19_0_24 : R24 V (Proc.devRef .tc main_arg19) = R0 V (Proc.devRef .tc main_arg19) :=
  (keepS23 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg19_0_23 V)
theorem rc_arg19_0_25 : R25 V (Proc.devRef .tc main_arg19) = R0 V (Proc.devRef .tc main_arg19) :=
  (keepS24 main_arg19 (Cert.Carry.allc (by decide) (Cert.Carry.allc (by decide) (Cert.Carry.allc (by decide) (Cert.Carry.alln)))) _).trans (rc_arg19_0_24 V)
theorem rc_arg19_0_26 : R26 V (Proc.devRef .tc main_arg19) = R0 V (Proc.devRef .tc main_arg19) :=
  (keepS25 main_arg19 (Cert.Carry.allc (by decide) (Cert.Carry.allc (by decide) (Cert.Carry.allc (by decide) (Cert.Carry.alln)))) _).trans (rc_arg19_0_25 V)
theorem rc_arg19_0_27 : R27 V (Proc.devRef .tc main_arg19) = R0 V (Proc.devRef .tc main_arg19) :=
  (keepS26 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_26 V)
theorem rc_arg19_0_28 : R28 V (Proc.devRef .tc main_arg19) = R0 V (Proc.devRef .tc main_arg19) :=
  (keepS27 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_27 V)
theorem rc_arg19_0_29 : R29 V (Proc.devRef .tc main_arg19) = R0 V (Proc.devRef .tc main_arg19) :=
  (keepS28 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_28 V)
theorem rc_arg19_0_30 : R30 V (Proc.devRef .tc main_arg19) = R0 V (Proc.devRef .tc main_arg19) :=
  (keepS29 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_29 V)
theorem rc_arg19_0_31 : R31 V (Proc.devRef .tc main_arg19) = R0 V (Proc.devRef .tc main_arg19) :=
  (keepS30 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg19_0_30 V)
theorem rc_arg19_0_32 : R32 V (Proc.devRef .tc main_arg19) = R0 V (Proc.devRef .tc main_arg19) :=
  (keepS31 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg19_0_31 V)
theorem rc_arg19_0_33 : R33 V (Proc.devRef .tc main_arg19) = R0 V (Proc.devRef .tc main_arg19) :=
  (keepS32 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg19_0_32 V)
theorem rc_arg19_0_34 : R34 V (Proc.devRef .tc main_arg19) = R0 V (Proc.devRef .tc main_arg19) :=
  (keepS33 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg19_0_33 V)
theorem rc_arg19_0_35 : R35 V (Proc.devRef .tc main_arg19) = R0 V (Proc.devRef .tc main_arg19) :=
  (keepS34 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg19_0_34 V)
theorem rc_arg19_0_36 : R36 V (Proc.devRef .tc main_arg19) = R0 V (Proc.devRef .tc main_arg19) :=
  (keepS35 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg19_0_35 V)
theorem rc_arg19_0_37 : R37 V (Proc.devRef .tc main_arg19) = R0 V (Proc.devRef .tc main_arg19) :=
  (keepS36 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg19_0_36 V)

theorem rc_arg20_0_1 : R1 V (Proc.devRef .tc main_arg20) = R0 V (Proc.devRef .tc main_arg20) :=
  (keepS0 main_arg20 (Cert.Carry.allc (by decide) (Cert.Carry.allc (by decide) (Cert.Carry.allc (by decide) (Cert.Carry.allc (by decide) (Cert.Carry.allc (by decide) (Cert.Carry.alln)))))) _).trans (rfl)
theorem rc_arg20_0_2 : R2 V (Proc.devRef .tc main_arg20) = R0 V (Proc.devRef .tc main_arg20) :=
  (keepS1 main_arg20 (Cert.Carry.allc (by decide) (Cert.Carry.allc (by decide) (Cert.Carry.allc (by decide) (Cert.Carry.allc (by decide) (Cert.Carry.allc (by decide) (Cert.Carry.alln)))))) _).trans (rc_arg20_0_1 V)
theorem rc_arg20_0_3 : R3 V (Proc.devRef .tc main_arg20) = R0 V (Proc.devRef .tc main_arg20) :=
  (keepS2 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_2 V)
theorem rc_arg20_0_4 : R4 V (Proc.devRef .tc main_arg20) = R0 V (Proc.devRef .tc main_arg20) :=
  (keepS3 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_3 V)
theorem rc_arg20_0_5 : R5 V (Proc.devRef .tc main_arg20) = R0 V (Proc.devRef .tc main_arg20) :=
  (keepS4 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_4 V)
theorem rc_arg20_0_6 : R6 V (Proc.devRef .tc main_arg20) = R0 V (Proc.devRef .tc main_arg20) :=
  (keepS5 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_5 V)
theorem rc_arg20_0_7 : R7 V (Proc.devRef .tc main_arg20) = R0 V (Proc.devRef .tc main_arg20) :=
  (keepS6 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_6 V)
theorem rc_arg20_0_8 : R8 V (Proc.devRef .tc main_arg20) = R0 V (Proc.devRef .tc main_arg20) :=
  (keepS7 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_7 V)
theorem rc_arg20_0_9 : R9 V (Proc.devRef .tc main_arg20) = R0 V (Proc.devRef .tc main_arg20) :=
  (keepS8 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg20_0_8 V)
theorem rc_arg20_0_10 : R10 V (Proc.devRef .tc main_arg20) = R0 V (Proc.devRef .tc main_arg20) :=
  (keepS9 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg20_0_9 V)
theorem rc_arg20_0_11 : R11 V (Proc.devRef .tc main_arg20) = R0 V (Proc.devRef .tc main_arg20) :=
  (keepS10 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg20_0_10 V)
theorem rc_arg20_0_12 : R12 V (Proc.devRef .tc main_arg20) = R0 V (Proc.devRef .tc main_arg20) :=
  (keepS11 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg20_0_11 V)
theorem rc_arg20_0_13 : R13 V (Proc.devRef .tc main_arg20) = R0 V (Proc.devRef .tc main_arg20) :=
  (keepS12 main_arg20 (Cert.Carry.allc (by decide) (Cert.Carry.allc (by decide) (Cert.Carry.allc (by decide) (Cert.Carry.alln)))) _).trans (rc_arg20_0_12 V)
theorem rc_arg20_0_14 : R14 V (Proc.devRef .tc main_arg20) = R0 V (Proc.devRef .tc main_arg20) :=
  (keepS13 main_arg20 (Cert.Carry.allc (by decide) (Cert.Carry.allc (by decide) (Cert.Carry.allc (by decide) (Cert.Carry.alln)))) _).trans (rc_arg20_0_13 V)
theorem rc_arg20_0_15 : R15 V (Proc.devRef .tc main_arg20) = R0 V (Proc.devRef .tc main_arg20) :=
  (keepS14 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_14 V)
theorem rc_arg20_0_16 : R16 V (Proc.devRef .tc main_arg20) = R0 V (Proc.devRef .tc main_arg20) :=
  (keepS15 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_15 V)
theorem rc_arg20_0_17 : R17 V (Proc.devRef .tc main_arg20) = R0 V (Proc.devRef .tc main_arg20) :=
  (keepS16 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_16 V)
theorem rc_arg20_0_18 : R18 V (Proc.devRef .tc main_arg20) = R0 V (Proc.devRef .tc main_arg20) :=
  (keepS17 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_17 V)
theorem rc_arg20_0_19 : R19 V (Proc.devRef .tc main_arg20) = R0 V (Proc.devRef .tc main_arg20) :=
  (keepS18 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_18 V)
theorem rc_arg20_0_20 : R20 V (Proc.devRef .tc main_arg20) = R0 V (Proc.devRef .tc main_arg20) :=
  (keepS19 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_19 V)
theorem rc_arg20_0_21 : R21 V (Proc.devRef .tc main_arg20) = R0 V (Proc.devRef .tc main_arg20) :=
  (keepS20 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg20_0_20 V)
theorem rc_arg20_0_22 : R22 V (Proc.devRef .tc main_arg20) = R0 V (Proc.devRef .tc main_arg20) :=
  (keepS21 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg20_0_21 V)
theorem rc_arg20_0_23 : R23 V (Proc.devRef .tc main_arg20) = R0 V (Proc.devRef .tc main_arg20) :=
  (keepS22 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg20_0_22 V)
theorem rc_arg20_0_24 : R24 V (Proc.devRef .tc main_arg20) = R0 V (Proc.devRef .tc main_arg20) :=
  (keepS23 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg20_0_23 V)
theorem rc_arg20_0_25 : R25 V (Proc.devRef .tc main_arg20) = R0 V (Proc.devRef .tc main_arg20) :=
  (keepS24 main_arg20 (Cert.Carry.allc (by decide) (Cert.Carry.allc (by decide) (Cert.Carry.allc (by decide) (Cert.Carry.alln)))) _).trans (rc_arg20_0_24 V)
theorem rc_arg20_0_26 : R26 V (Proc.devRef .tc main_arg20) = R0 V (Proc.devRef .tc main_arg20) :=
  (keepS25 main_arg20 (Cert.Carry.allc (by decide) (Cert.Carry.allc (by decide) (Cert.Carry.allc (by decide) (Cert.Carry.alln)))) _).trans (rc_arg20_0_25 V)
theorem rc_arg20_0_27 : R27 V (Proc.devRef .tc main_arg20) = R0 V (Proc.devRef .tc main_arg20) :=
  (keepS26 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_26 V)
theorem rc_arg20_0_28 : R28 V (Proc.devRef .tc main_arg20) = R0 V (Proc.devRef .tc main_arg20) :=
  (keepS27 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_27 V)
theorem rc_arg20_0_29 : R29 V (Proc.devRef .tc main_arg20) = R0 V (Proc.devRef .tc main_arg20) :=
  (keepS28 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_28 V)
theorem rc_arg20_0_30 : R30 V (Proc.devRef .tc main_arg20) = R0 V (Proc.devRef .tc main_arg20) :=
  (keepS29 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_29 V)
theorem rc_arg20_0_31 : R31 V (Proc.devRef .tc main_arg20) = R0 V (Proc.devRef .tc main_arg20) :=
  (keepS30 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg20_0_30 V)
theorem rc_arg20_0_32 : R32 V (Proc.devRef .tc main_arg20) = R0 V (Proc.devRef .tc main_arg20) :=
  (keepS31 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg20_0_31 V)
theorem rc_arg20_0_33 : R33 V (Proc.devRef .tc main_arg20) = R0 V (Proc.devRef .tc main_arg20) :=
  (keepS32 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg20_0_32 V)
theorem rc_arg20_0_34 : R34 V (Proc.devRef .tc main_arg20) = R0 V (Proc.devRef .tc main_arg20) :=
  (keepS33 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg20_0_33 V)
theorem rc_arg20_0_35 : R35 V (Proc.devRef .tc main_arg20) = R0 V (Proc.devRef .tc main_arg20) :=
  (keepS34 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg20_0_34 V)
theorem rc_arg20_0_36 : R36 V (Proc.devRef .tc main_arg20) = R0 V (Proc.devRef .tc main_arg20) :=
  (keepS35 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg20_0_35 V)
theorem rc_arg20_0_37 : R37 V (Proc.devRef .tc main_arg20) = R0 V (Proc.devRef .tc main_arg20) :=
  (keepS36 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg20_0_36 V)

end Cert.ReferenceIdeal.Run

end
-- ==== Proof.RArgs4.lean ====
import proofs.«143223_j29772713296000_1_alg».proof.Proof.RefOps
import proofs.«143223_j29772713296000_1_alg».proof.Proof.ListAll
import proofs.«143223_j29772713296000_1_alg».proof.Proof.RKeep1
import proofs.«143223_j29772713296000_1_alg».proof.Proof.RKeep2
import proofs.«143223_j29772713296000_1_alg».proof.Proof.RKeep3
import proofs.«143223_j29772713296000_1_alg».proof.Proof.RKeep4

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

variable (V : Valuation τ sig (Elt F))

theorem rc_arg21_0_1 : R1 V (Proc.devRef .tc main_arg21) = R0 V (Proc.devRef .tc main_arg21) :=
  (keepS0 main_arg21 (Cert.Carry.allc (by decide) (Cert.Carry.allc (by decide) (Cert.Carry.allc (by decide) (Cert.Carry.allc (by decide) (Cert.Carry.allc (by decide) (Cert.Carry.alln)))))) _).trans (rfl)
theorem rc_arg21_0_2 : R2 V (Proc.devRef .tc main_arg21) = R0 V (Proc.devRef .tc main_arg21) :=
  (keepS1 main_arg21 (Cert.Carry.allc (by decide) (Cert.Carry.allc (by decide) (Cert.Carry.allc (by decide) (Cert.Carry.allc (by decide) (Cert.Carry.allc (by decide) (Cert.Carry.alln)))))) _).trans (rc_arg21_0_1 V)
theorem rc_arg21_0_3 : R3 V (Proc.devRef .tc main_arg21) = R0 V (Proc.devRef .tc main_arg21) :=
  (keepS2 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_2 V)
theorem rc_arg21_0_4 : R4 V (Proc.devRef .tc main_arg21) = R0 V (Proc.devRef .tc main_arg21) :=
  (keepS3 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_3 V)
theorem rc_arg21_0_5 : R5 V (Proc.devRef .tc main_arg21) = R0 V (Proc.devRef .tc main_arg21) :=
  (keepS4 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_4 V)
theorem rc_arg21_0_6 : R6 V (Proc.devRef .tc main_arg21) = R0 V (Proc.devRef .tc main_arg21) :=
  (keepS5 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_5 V)
theorem rc_arg21_0_7 : R7 V (Proc.devRef .tc main_arg21) = R0 V (Proc.devRef .tc main_arg21) :=
  (keepS6 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_6 V)
theorem rc_arg21_0_8 : R8 V (Proc.devRef .tc main_arg21) = R0 V (Proc.devRef .tc main_arg21) :=
  (keepS7 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_7 V)
theorem rc_arg21_0_9 : R9 V (Proc.devRef .tc main_arg21) = R0 V (Proc.devRef .tc main_arg21) :=
  (keepS8 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg21_0_8 V)
theorem rc_arg21_0_10 : R10 V (Proc.devRef .tc main_arg21) = R0 V (Proc.devRef .tc main_arg21) :=
  (keepS9 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg21_0_9 V)
theorem rc_arg21_0_11 : R11 V (Proc.devRef .tc main_arg21) = R0 V (Proc.devRef .tc main_arg21) :=
  (keepS10 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg21_0_10 V)
theorem rc_arg21_0_12 : R12 V (Proc.devRef .tc main_arg21) = R0 V (Proc.devRef .tc main_arg21) :=
  (keepS11 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg21_0_11 V)
theorem rc_arg21_0_13 : R13 V (Proc.devRef .tc main_arg21) = R0 V (Proc.devRef .tc main_arg21) :=
  (keepS12 main_arg21 (Cert.Carry.allc (by decide) (Cert.Carry.allc (by decide) (Cert.Carry.allc (by decide) (Cert.Carry.alln)))) _).trans (rc_arg21_0_12 V)
theorem rc_arg21_0_14 : R14 V (Proc.devRef .tc main_arg21) = R0 V (Proc.devRef .tc main_arg21) :=
  (keepS13 main_arg21 (Cert.Carry.allc (by decide) (Cert.Carry.allc (by decide) (Cert.Carry.allc (by decide) (Cert.Carry.alln)))) _).trans (rc_arg21_0_13 V)
theorem rc_arg21_0_15 : R15 V (Proc.devRef .tc main_arg21) = R0 V (Proc.devRef .tc main_arg21) :=
  (keepS14 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_14 V)
theorem rc_arg21_0_16 : R16 V (Proc.devRef .tc main_arg21) = R0 V (Proc.devRef .tc main_arg21) :=
  (keepS15 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_15 V)
theorem rc_arg21_0_17 : R17 V (Proc.devRef .tc main_arg21) = R0 V (Proc.devRef .tc main_arg21) :=
  (keepS16 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_16 V)
theorem rc_arg21_0_18 : R18 V (Proc.devRef .tc main_arg21) = R0 V (Proc.devRef .tc main_arg21) :=
  (keepS17 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_17 V)
theorem rc_arg21_0_19 : R19 V (Proc.devRef .tc main_arg21) = R0 V (Proc.devRef .tc main_arg21) :=
  (keepS18 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_18 V)
theorem rc_arg21_0_20 : R20 V (Proc.devRef .tc main_arg21) = R0 V (Proc.devRef .tc main_arg21) :=
  (keepS19 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_19 V)
theorem rc_arg21_0_21 : R21 V (Proc.devRef .tc main_arg21) = R0 V (Proc.devRef .tc main_arg21) :=
  (keepS20 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg21_0_20 V)
theorem rc_arg21_0_22 : R22 V (Proc.devRef .tc main_arg21) = R0 V (Proc.devRef .tc main_arg21) :=
  (keepS21 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg21_0_21 V)
theorem rc_arg21_0_23 : R23 V (Proc.devRef .tc main_arg21) = R0 V (Proc.devRef .tc main_arg21) :=
  (keepS22 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg21_0_22 V)
theorem rc_arg21_0_24 : R24 V (Proc.devRef .tc main_arg21) = R0 V (Proc.devRef .tc main_arg21) :=
  (keepS23 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg21_0_23 V)
theorem rc_arg21_0_25 : R25 V (Proc.devRef .tc main_arg21) = R0 V (Proc.devRef .tc main_arg21) :=
  (keepS24 main_arg21 (Cert.Carry.allc (by decide) (Cert.Carry.allc (by decide) (Cert.Carry.allc (by decide) (Cert.Carry.alln)))) _).trans (rc_arg21_0_24 V)
theorem rc_arg21_0_26 : R26 V (Proc.devRef .tc main_arg21) = R0 V (Proc.devRef .tc main_arg21) :=
  (keepS25 main_arg21 (Cert.Carry.allc (by decide) (Cert.Carry.allc (by decide) (Cert.Carry.allc (by decide) (Cert.Carry.alln)))) _).trans (rc_arg21_0_25 V)
theorem rc_arg21_0_27 : R27 V (Proc.devRef .tc main_arg21) = R0 V (Proc.devRef .tc main_arg21) :=
  (keepS26 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_26 V)
theorem rc_arg21_0_28 : R28 V (Proc.devRef .tc main_arg21) = R0 V (Proc.devRef .tc main_arg21) :=
  (keepS27 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_27 V)
theorem rc_arg21_0_29 : R29 V (Proc.devRef .tc main_arg21) = R0 V (Proc.devRef .tc main_arg21) :=
  (keepS28 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_28 V)
theorem rc_arg21_0_30 : R30 V (Proc.devRef .tc main_arg21) = R0 V (Proc.devRef .tc main_arg21) :=
  (keepS29 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_29 V)
theorem rc_arg21_0_31 : R31 V (Proc.devRef .tc main_arg21) = R0 V (Proc.devRef .tc main_arg21) :=
  (keepS30 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg21_0_30 V)
theorem rc_arg21_0_32 : R32 V (Proc.devRef .tc main_arg21) = R0 V (Proc.devRef .tc main_arg21) :=
  (keepS31 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg21_0_31 V)
theorem rc_arg21_0_33 : R33 V (Proc.devRef .tc main_arg21) = R0 V (Proc.devRef .tc main_arg21) :=
  (keepS32 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg21_0_32 V)
theorem rc_arg21_0_34 : R34 V (Proc.devRef .tc main_arg21) = R0 V (Proc.devRef .tc main_arg21) :=
  (keepS33 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg21_0_33 V)
theorem rc_arg21_0_35 : R35 V (Proc.devRef .tc main_arg21) = R0 V (Proc.devRef .tc main_arg21) :=
  (keepS34 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg21_0_34 V)
theorem rc_arg21_0_36 : R36 V (Proc.devRef .tc main_arg21) = R0 V (Proc.devRef .tc main_arg21) :=
  (keepS35 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg21_0_35 V)
theorem rc_arg21_0_37 : R37 V (Proc.devRef .tc main_arg21) = R0 V (Proc.devRef .tc main_arg21) :=
  (keepS36 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg21_0_36 V)

theorem rc_arg22_0_1 : R1 V (Proc.devRef .tc main_arg22) = R0 V (Proc.devRef .tc main_arg22) :=
  (keepS0 main_arg22 (Cert.Carry.allc (by decide) (Cert.Carry.allc (by decide) (Cert.Carry.allc (by decide) (Cert.Carry.allc (by decide) (Cert.Carry.allc (by decide) (Cert.Carry.alln)))))) _).trans (rfl)
theorem rc_arg22_0_2 : R2 V (Proc.devRef .tc main_arg22) = R0 V (Proc.devRef .tc main_arg22) :=
  (keepS1 main_arg22 (Cert.Carry.allc (by decide) (Cert.Carry.allc (by decide) (Cert.Carry.allc (by decide) (Cert.Carry.allc (by decide) (Cert.Carry.allc (by decide) (Cert.Carry.alln)))))) _).trans (rc_arg22_0_1 V)
theorem rc_arg22_0_3 : R3 V (Proc.devRef .tc main_arg22) = R0 V (Proc.devRef .tc main_arg22) :=
  (keepS2 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_2 V)
theorem rc_arg22_0_4 : R4 V (Proc.devRef .tc main_arg22) = R0 V (Proc.devRef .tc main_arg22) :=
  (keepS3 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_3 V)
theorem rc_arg22_0_5 : R5 V (Proc.devRef .tc main_arg22) = R0 V (Proc.devRef .tc main_arg22) :=
  (keepS4 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_4 V)
theorem rc_arg22_0_6 : R6 V (Proc.devRef .tc main_arg22) = R0 V (Proc.devRef .tc main_arg22) :=
  (keepS5 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_5 V)
theorem rc_arg22_0_7 : R7 V (Proc.devRef .tc main_arg22) = R0 V (Proc.devRef .tc main_arg22) :=
  (keepS6 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_6 V)
theorem rc_arg22_0_8 : R8 V (Proc.devRef .tc main_arg22) = R0 V (Proc.devRef .tc main_arg22) :=
  (keepS7 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_7 V)
theorem rc_arg22_0_9 : R9 V (Proc.devRef .tc main_arg22) = R0 V (Proc.devRef .tc main_arg22) :=
  (keepS8 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg22_0_8 V)
theorem rc_arg22_0_10 : R10 V (Proc.devRef .tc main_arg22) = R0 V (Proc.devRef .tc main_arg22) :=
  (keepS9 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg22_0_9 V)
theorem rc_arg22_0_11 : R11 V (Proc.devRef .tc main_arg22) = R0 V (Proc.devRef .tc main_arg22) :=
  (keepS10 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg22_0_10 V)
theorem rc_arg22_0_12 : R12 V (Proc.devRef .tc main_arg22) = R0 V (Proc.devRef .tc main_arg22) :=
  (keepS11 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg22_0_11 V)
theorem rc_arg22_0_13 : R13 V (Proc.devRef .tc main_arg22) = R0 V (Proc.devRef .tc main_arg22) :=
  (keepS12 main_arg22 (Cert.Carry.allc (by decide) (Cert.Carry.allc (by decide) (Cert.Carry.allc (by decide) (Cert.Carry.alln)))) _).trans (rc_arg22_0_12 V)
theorem rc_arg22_0_14 : R14 V (Proc.devRef .tc main_arg22) = R0 V (Proc.devRef .tc main_arg22) :=
  (keepS13 main_arg22 (Cert.Carry.allc (by decide) (Cert.Carry.allc (by decide) (Cert.Carry.allc (by decide) (Cert.Carry.alln)))) _).trans (rc_arg22_0_13 V)
theorem rc_arg22_0_15 : R15 V (Proc.devRef .tc main_arg22) = R0 V (Proc.devRef .tc main_arg22) :=
  (keepS14 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_14 V)
theorem rc_arg22_0_16 : R16 V (Proc.devRef .tc main_arg22) = R0 V (Proc.devRef .tc main_arg22) :=
  (keepS15 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_15 V)
theorem rc_arg22_0_17 : R17 V (Proc.devRef .tc main_arg22) = R0 V (Proc.devRef .tc main_arg22) :=
  (keepS16 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_16 V)
theorem rc_arg22_0_18 : R18 V (Proc.devRef .tc main_arg22) = R0 V (Proc.devRef .tc main_arg22) :=
  (keepS17 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_17 V)
theorem rc_arg22_0_19 : R19 V (Proc.devRef .tc main_arg22) = R0 V (Proc.devRef .tc main_arg22) :=
  (keepS18 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_18 V)
theorem rc_arg22_0_20 : R20 V (Proc.devRef .tc main_arg22) = R0 V (Proc.devRef .tc main_arg22) :=
  (keepS19 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_19 V)
theorem rc_arg22_0_21 : R21 V (Proc.devRef .tc main_arg22) = R0 V (Proc.devRef .tc main_arg22) :=
  (keepS20 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg22_0_20 V)
theorem rc_arg22_0_22 : R22 V (Proc.devRef .tc main_arg22) = R0 V (Proc.devRef .tc main_arg22) :=
  (keepS21 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg22_0_21 V)
theorem rc_arg22_0_23 : R23 V (Proc.devRef .tc main_arg22) = R0 V (Proc.devRef .tc main_arg22) :=
  (keepS22 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg22_0_22 V)
theorem rc_arg22_0_24 : R24 V (Proc.devRef .tc main_arg22) = R0 V (Proc.devRef .tc main_arg22) :=
  (keepS23 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg22_0_23 V)
theorem rc_arg22_0_25 : R25 V (Proc.devRef .tc main_arg22) = R0 V (Proc.devRef .tc main_arg22) :=
  (keepS24 main_arg22 (Cert.Carry.allc (by decide) (Cert.Carry.allc (by decide) (Cert.Carry.allc (by decide) (Cert.Carry.alln)))) _).trans (rc_arg22_0_24 V)
theorem rc_arg22_0_26 : R26 V (Proc.devRef .tc main_arg22) = R0 V (Proc.devRef .tc main_arg22) :=
  (keepS25 main_arg22 (Cert.Carry.allc (by decide) (Cert.Carry.allc (by decide) (Cert.Carry.allc (by decide) (Cert.Carry.alln)))) _).trans (rc_arg22_0_25 V)
theorem rc_arg22_0_27 : R27 V (Proc.devRef .tc main_arg22) = R0 V (Proc.devRef .tc main_arg22) :=
  (keepS26 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_26 V)
theorem rc_arg22_0_28 : R28 V (Proc.devRef .tc main_arg22) = R0 V (Proc.devRef .tc main_arg22) :=
  (keepS27 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_27 V)
theorem rc_arg22_0_29 : R29 V (Proc.devRef .tc main_arg22) = R0 V (Proc.devRef .tc main_arg22) :=
  (keepS28 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_28 V)
theorem rc_arg22_0_30 : R30 V (Proc.devRef .tc main_arg22) = R0 V (Proc.devRef .tc main_arg22) :=
  (keepS29 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_29 V)
theorem rc_arg22_0_31 : R31 V (Proc.devRef .tc main_arg22) = R0 V (Proc.devRef .tc main_arg22) :=
  (keepS30 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg22_0_30 V)
theorem rc_arg22_0_32 : R32 V (Proc.devRef .tc main_arg22) = R0 V (Proc.devRef .tc main_arg22) :=
  (keepS31 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg22_0_31 V)
theorem rc_arg22_0_33 : R33 V (Proc.devRef .tc main_arg22) = R0 V (Proc.devRef .tc main_arg22) :=
  (keepS32 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg22_0_32 V)
theorem rc_arg22_0_34 : R34 V (Proc.devRef .tc main_arg22) = R0 V (Proc.devRef .tc main_arg22) :=
  (keepS33 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg22_0_33 V)
theorem rc_arg22_0_35 : R35 V (Proc.devRef .tc main_arg22) = R0 V (Proc.devRef .tc main_arg22) :=
  (keepS34 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg22_0_34 V)
theorem rc_arg22_0_36 : R36 V (Proc.devRef .tc main_arg22) = R0 V (Proc.devRef .tc main_arg22) :=
  (keepS35 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg22_0_35 V)
theorem rc_arg22_0_37 : R37 V (Proc.devRef .tc main_arg22) = R0 V (Proc.devRef .tc main_arg22) :=
  (keepS36 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg22_0_36 V)

theorem rc_arg23_0_1 : R1 V (Proc.devRef .tc main_arg23) = R0 V (Proc.devRef .tc main_arg23) :=
  (keepS0 main_arg23 (Cert.Carry.allc (by decide) (Cert.Carry.allc (by decide) (Cert.Carry.allc (by decide) (Cert.Carry.allc (by decide) (Cert.Carry.allc (by decide) (Cert.Carry.alln)))))) _).trans (rfl)
theorem rc_arg23_0_2 : R2 V (Proc.devRef .tc main_arg23) = R0 V (Proc.devRef .tc main_arg23) :=
  (keepS1 main_arg23 (Cert.Carry.allc (by decide) (Cert.Carry.allc (by decide) (Cert.Carry.allc (by decide) (Cert.Carry.allc (by decide) (Cert.Carry.allc (by decide) (Cert.Carry.alln)))))) _).trans (rc_arg23_0_1 V)
theorem rc_arg23_0_3 : R3 V (Proc.devRef .tc main_arg23) = R0 V (Proc.devRef .tc main_arg23) :=
  (keepS2 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_2 V)
theorem rc_arg23_0_4 : R4 V (Proc.devRef .tc main_arg23) = R0 V (Proc.devRef .tc main_arg23) :=
  (keepS3 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_3 V)
theorem rc_arg23_0_5 : R5 V (Proc.devRef .tc main_arg23) = R0 V (Proc.devRef .tc main_arg23) :=
  (keepS4 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_4 V)
theorem rc_arg23_0_6 : R6 V (Proc.devRef .tc main_arg23) = R0 V (Proc.devRef .tc main_arg23) :=
  (keepS5 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_5 V)
theorem rc_arg23_0_7 : R7 V (Proc.devRef .tc main_arg23) = R0 V (Proc.devRef .tc main_arg23) :=
  (keepS6 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_6 V)
theorem rc_arg23_0_8 : R8 V (Proc.devRef .tc main_arg23) = R0 V (Proc.devRef .tc main_arg23) :=
  (keepS7 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_7 V)
theorem rc_arg23_0_9 : R9 V (Proc.devRef .tc main_arg23) = R0 V (Proc.devRef .tc main_arg23) :=
  (keepS8 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg23_0_8 V)
theorem rc_arg23_0_10 : R10 V (Proc.devRef .tc main_arg23) = R0 V (Proc.devRef .tc main_arg23) :=
  (keepS9 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg23_0_9 V)
theorem rc_arg23_0_11 : R11 V (Proc.devRef .tc main_arg23) = R0 V (Proc.devRef .tc main_arg23) :=
  (keepS10 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg23_0_10 V)
theorem rc_arg23_0_12 : R12 V (Proc.devRef .tc main_arg23) = R0 V (Proc.devRef .tc main_arg23) :=
  (keepS11 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg23_0_11 V)
theorem rc_arg23_0_13 : R13 V (Proc.devRef .tc main_arg23) = R0 V (Proc.devRef .tc main_arg23) :=
  (keepS12 main_arg23 (Cert.Carry.allc (by decide) (Cert.Carry.allc (by decide) (Cert.Carry.allc (by decide) (Cert.Carry.alln)))) _).trans (rc_arg23_0_12 V)
theorem rc_arg23_0_14 : R14 V (Proc.devRef .tc main_arg23) = R0 V (Proc.devRef .tc main_arg23) :=
  (keepS13 main_arg23 (Cert.Carry.allc (by decide) (Cert.Carry.allc (by decide) (Cert.Carry.allc (by decide) (Cert.Carry.alln)))) _).trans (rc_arg23_0_13 V)
theorem rc_arg23_0_15 : R15 V (Proc.devRef .tc main_arg23) = R0 V (Proc.devRef .tc main_arg23) :=
  (keepS14 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_14 V)
theorem rc_arg23_0_16 : R16 V (Proc.devRef .tc main_arg23) = R0 V (Proc.devRef .tc main_arg23) :=
  (keepS15 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_15 V)
theorem rc_arg23_0_17 : R17 V (Proc.devRef .tc main_arg23) = R0 V (Proc.devRef .tc main_arg23) :=
  (keepS16 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_16 V)
theorem rc_arg23_0_18 : R18 V (Proc.devRef .tc main_arg23) = R0 V (Proc.devRef .tc main_arg23) :=
  (keepS17 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_17 V)
theorem rc_arg23_0_19 : R19 V (Proc.devRef .tc main_arg23) = R0 V (Proc.devRef .tc main_arg23) :=
  (keepS18 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_18 V)
theorem rc_arg23_0_20 : R20 V (Proc.devRef .tc main_arg23) = R0 V (Proc.devRef .tc main_arg23) :=
  (keepS19 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_19 V)
theorem rc_arg23_0_21 : R21 V (Proc.devRef .tc main_arg23) = R0 V (Proc.devRef .tc main_arg23) :=
  (keepS20 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg23_0_20 V)
theorem rc_arg23_0_22 : R22 V (Proc.devRef .tc main_arg23) = R0 V (Proc.devRef .tc main_arg23) :=
  (keepS21 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg23_0_21 V)
theorem rc_arg23_0_23 : R23 V (Proc.devRef .tc main_arg23) = R0 V (Proc.devRef .tc main_arg23) :=
  (keepS22 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg23_0_22 V)
theorem rc_arg23_0_24 : R24 V (Proc.devRef .tc main_arg23) = R0 V (Proc.devRef .tc main_arg23) :=
  (keepS23 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg23_0_23 V)
theorem rc_arg23_0_25 : R25 V (Proc.devRef .tc main_arg23) = R0 V (Proc.devRef .tc main_arg23) :=
  (keepS24 main_arg23 (Cert.Carry.allc (by decide) (Cert.Carry.allc (by decide) (Cert.Carry.allc (by decide) (Cert.Carry.alln)))) _).trans (rc_arg23_0_24 V)
theorem rc_arg23_0_26 : R26 V (Proc.devRef .tc main_arg23) = R0 V (Proc.devRef .tc main_arg23) :=
  (keepS25 main_arg23 (Cert.Carry.allc (by decide) (Cert.Carry.allc (by decide) (Cert.Carry.allc (by decide) (Cert.Carry.alln)))) _).trans (rc_arg23_0_25 V)
theorem rc_arg23_0_27 : R27 V (Proc.devRef .tc main_arg23) = R0 V (Proc.devRef .tc main_arg23) :=
  (keepS26 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_26 V)
theorem rc_arg23_0_28 : R28 V (Proc.devRef .tc main_arg23) = R0 V (Proc.devRef .tc main_arg23) :=
  (keepS27 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_27 V)
theorem rc_arg23_0_29 : R29 V (Proc.devRef .tc main_arg23) = R0 V (Proc.devRef .tc main_arg23) :=
  (keepS28 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_28 V)
theorem rc_arg23_0_30 : R30 V (Proc.devRef .tc main_arg23) = R0 V (Proc.devRef .tc main_arg23) :=
  (keepS29 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_29 V)
theorem rc_arg23_0_31 : R31 V (Proc.devRef .tc main_arg23) = R0 V (Proc.devRef .tc main_arg23) :=
  (keepS30 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg23_0_30 V)
theorem rc_arg23_0_32 : R32 V (Proc.devRef .tc main_arg23) = R0 V (Proc.devRef .tc main_arg23) :=
  (keepS31 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg23_0_31 V)
theorem rc_arg23_0_33 : R33 V (Proc.devRef .tc main_arg23) = R0 V (Proc.devRef .tc main_arg23) :=
  (keepS32 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg23_0_32 V)
theorem rc_arg23_0_34 : R34 V (Proc.devRef .tc main_arg23) = R0 V (Proc.devRef .tc main_arg23) :=
  (keepS33 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg23_0_33 V)
theorem rc_arg23_0_35 : R35 V (Proc.devRef .tc main_arg23) = R0 V (Proc.devRef .tc main_arg23) :=
  (keepS34 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg23_0_34 V)
theorem rc_arg23_0_36 : R36 V (Proc.devRef .tc main_arg23) = R0 V (Proc.devRef .tc main_arg23) :=
  (keepS35 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg23_0_35 V)
theorem rc_arg23_0_37 : R37 V (Proc.devRef .tc main_arg23) = R0 V (Proc.devRef .tc main_arg23) :=
  (keepS36 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg23_0_36 V)

theorem rc_arg24_0_1 : R1 V (Proc.devRef .tc main_arg24) = R0 V (Proc.devRef .tc main_arg24) :=
  (keepS0 main_arg24 (Cert.Carry.allc (by decide) (Cert.Carry.allc (by decide) (Cert.Carry.allc (by decide) (Cert.Carry.allc (by decide) (Cert.Carry.allc (by decide) (Cert.Carry.alln)))))) _).trans (rfl)
theorem rc_arg24_0_2 : R2 V (Proc.devRef .tc main_arg24) = R0 V (Proc.devRef .tc main_arg24) :=
  (keepS1 main_arg24 (Cert.Carry.allc (by decide) (Cert.Carry.allc (by decide) (Cert.Carry.allc (by decide) (Cert.Carry.allc (by decide) (Cert.Carry.allc (by decide) (Cert.Carry.alln)))))) _).trans (rc_arg24_0_1 V)
theorem rc_arg24_0_3 : R3 V (Proc.devRef .tc main_arg24) = R0 V (Proc.devRef .tc main_arg24) :=
  (keepS2 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_2 V)
theorem rc_arg24_0_4 : R4 V (Proc.devRef .tc main_arg24) = R0 V (Proc.devRef .tc main_arg24) :=
  (keepS3 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_3 V)
theorem rc_arg24_0_5 : R5 V (Proc.devRef .tc main_arg24) = R0 V (Proc.devRef .tc main_arg24) :=
  (keepS4 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_4 V)
theorem rc_arg24_0_6 : R6 V (Proc.devRef .tc main_arg24) = R0 V (Proc.devRef .tc main_arg24) :=
  (keepS5 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_5 V)
theorem rc_arg24_0_7 : R7 V (Proc.devRef .tc main_arg24) = R0 V (Proc.devRef .tc main_arg24) :=
  (keepS6 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_6 V)
theorem rc_arg24_0_8 : R8 V (Proc.devRef .tc main_arg24) = R0 V (Proc.devRef .tc main_arg24) :=
  (keepS7 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_7 V)
theorem rc_arg24_0_9 : R9 V (Proc.devRef .tc main_arg24) = R0 V (Proc.devRef .tc main_arg24) :=
  (keepS8 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg24_0_8 V)
theorem rc_arg24_0_10 : R10 V (Proc.devRef .tc main_arg24) = R0 V (Proc.devRef .tc main_arg24) :=
  (keepS9 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg24_0_9 V)
theorem rc_arg24_0_11 : R11 V (Proc.devRef .tc main_arg24) = R0 V (Proc.devRef .tc main_arg24) :=
  (keepS10 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg24_0_10 V)
theorem rc_arg24_0_12 : R12 V (Proc.devRef .tc main_arg24) = R0 V (Proc.devRef .tc main_arg24) :=
  (keepS11 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg24_0_11 V)
theorem rc_arg24_0_13 : R13 V (Proc.devRef .tc main_arg24) = R0 V (Proc.devRef .tc main_arg24) :=
  (keepS12 main_arg24 (Cert.Carry.allc (by decide) (Cert.Carry.allc (by decide) (Cert.Carry.allc (by decide) (Cert.Carry.alln)))) _).trans (rc_arg24_0_12 V)
theorem rc_arg24_0_14 : R14 V (Proc.devRef .tc main_arg24) = R0 V (Proc.devRef .tc main_arg24) :=
  (keepS13 main_arg24 (Cert.Carry.allc (by decide) (Cert.Carry.allc (by decide) (Cert.Carry.allc (by decide) (Cert.Carry.alln)))) _).trans (rc_arg24_0_13 V)
theorem rc_arg24_0_15 : R15 V (Proc.devRef .tc main_arg24) = R0 V (Proc.devRef .tc main_arg24) :=
  (keepS14 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_14 V)
theorem rc_arg24_0_16 : R16 V (Proc.devRef .tc main_arg24) = R0 V (Proc.devRef .tc main_arg24) :=
  (keepS15 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_15 V)
theorem rc_arg24_0_17 : R17 V (Proc.devRef .tc main_arg24) = R0 V (Proc.devRef .tc main_arg24) :=
  (keepS16 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_16 V)
theorem rc_arg24_0_18 : R18 V (Proc.devRef .tc main_arg24) = R0 V (Proc.devRef .tc main_arg24) :=
  (keepS17 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_17 V)
theorem rc_arg24_0_19 : R19 V (Proc.devRef .tc main_arg24) = R0 V (Proc.devRef .tc main_arg24) :=
  (keepS18 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_18 V)
theorem rc_arg24_0_20 : R20 V (Proc.devRef .tc main_arg24) = R0 V (Proc.devRef .tc main_arg24) :=
  (keepS19 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_19 V)
theorem rc_arg24_0_21 : R21 V (Proc.devRef .tc main_arg24) = R0 V (Proc.devRef .tc main_arg24) :=
  (keepS20 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg24_0_20 V)
theorem rc_arg24_0_22 : R22 V (Proc.devRef .tc main_arg24) = R0 V (Proc.devRef .tc main_arg24) :=
  (keepS21 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg24_0_21 V)
theorem rc_arg24_0_23 : R23 V (Proc.devRef .tc main_arg24) = R0 V (Proc.devRef .tc main_arg24) :=
  (keepS22 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg24_0_22 V)
theorem rc_arg24_0_24 : R24 V (Proc.devRef .tc main_arg24) = R0 V (Proc.devRef .tc main_arg24) :=
  (keepS23 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg24_0_23 V)
theorem rc_arg24_0_25 : R25 V (Proc.devRef .tc main_arg24) = R0 V (Proc.devRef .tc main_arg24) :=
  (keepS24 main_arg24 (Cert.Carry.allc (by decide) (Cert.Carry.allc (by decide) (Cert.Carry.allc (by decide) (Cert.Carry.alln)))) _).trans (rc_arg24_0_24 V)
theorem rc_arg24_0_26 : R26 V (Proc.devRef .tc main_arg24) = R0 V (Proc.devRef .tc main_arg24) :=
  (keepS25 main_arg24 (Cert.Carry.allc (by decide) (Cert.Carry.allc (by decide) (Cert.Carry.allc (by decide) (Cert.Carry.alln)))) _).trans (rc_arg24_0_25 V)
theorem rc_arg24_0_27 : R27 V (Proc.devRef .tc main_arg24) = R0 V (Proc.devRef .tc main_arg24) :=
  (keepS26 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_26 V)
theorem rc_arg24_0_28 : R28 V (Proc.devRef .tc main_arg24) = R0 V (Proc.devRef .tc main_arg24) :=
  (keepS27 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_27 V)
theorem rc_arg24_0_29 : R29 V (Proc.devRef .tc main_arg24) = R0 V (Proc.devRef .tc main_arg24) :=
  (keepS28 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_28 V)
theorem rc_arg24_0_30 : R30 V (Proc.devRef .tc main_arg24) = R0 V (Proc.devRef .tc main_arg24) :=
  (keepS29 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_29 V)
theorem rc_arg24_0_31 : R31 V (Proc.devRef .tc main_arg24) = R0 V (Proc.devRef .tc main_arg24) :=
  (keepS30 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg24_0_30 V)
theorem rc_arg24_0_32 : R32 V (Proc.devRef .tc main_arg24) = R0 V (Proc.devRef .tc main_arg24) :=
  (keepS31 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg24_0_31 V)
theorem rc_arg24_0_33 : R33 V (Proc.devRef .tc main_arg24) = R0 V (Proc.devRef .tc main_arg24) :=
  (keepS32 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg24_0_32 V)
theorem rc_arg24_0_34 : R34 V (Proc.devRef .tc main_arg24) = R0 V (Proc.devRef .tc main_arg24) :=
  (keepS33 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg24_0_33 V)
theorem rc_arg24_0_35 : R35 V (Proc.devRef .tc main_arg24) = R0 V (Proc.devRef .tc main_arg24) :=
  (keepS34 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg24_0_34 V)
theorem rc_arg24_0_36 : R36 V (Proc.devRef .tc main_arg24) = R0 V (Proc.devRef .tc main_arg24) :=
  (keepS35 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg24_0_35 V)
theorem rc_arg24_0_37 : R37 V (Proc.devRef .tc main_arg24) = R0 V (Proc.devRef .tc main_arg24) :=
  (keepS36 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg24_0_36 V)

theorem rc_arg25_0_1 : R1 V (Proc.devRef .tc main_arg25) = R0 V (Proc.devRef .tc main_arg25) :=
  (keepS0 main_arg25 (Cert.Carry.allc (by decide) (Cert.Carry.allc (by decide) (Cert.Carry.allc (by decide) (Cert.Carry.allc (by decide) (Cert.Carry.allc (by decide) (Cert.Carry.alln)))))) _).trans (rfl)
theorem rc_arg25_0_2 : R2 V (Proc.devRef .tc main_arg25) = R0 V (Proc.devRef .tc main_arg25) :=
  (keepS1 main_arg25 (Cert.Carry.allc (by decide) (Cert.Carry.allc (by decide) (Cert.Carry.allc (by decide) (Cert.Carry.allc (by decide) (Cert.Carry.allc (by decide) (Cert.Carry.alln)))))) _).trans (rc_arg25_0_1 V)
theorem rc_arg25_0_3 : R3 V (Proc.devRef .tc main_arg25) = R0 V (Proc.devRef .tc main_arg25) :=
  (keepS2 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_2 V)
theorem rc_arg25_0_4 : R4 V (Proc.devRef .tc main_arg25) = R0 V (Proc.devRef .tc main_arg25) :=
  (keepS3 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_3 V)
theorem rc_arg25_0_5 : R5 V (Proc.devRef .tc main_arg25) = R0 V (Proc.devRef .tc main_arg25) :=
  (keepS4 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_4 V)
theorem rc_arg25_0_6 : R6 V (Proc.devRef .tc main_arg25) = R0 V (Proc.devRef .tc main_arg25) :=
  (keepS5 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_5 V)
theorem rc_arg25_0_7 : R7 V (Proc.devRef .tc main_arg25) = R0 V (Proc.devRef .tc main_arg25) :=
  (keepS6 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_6 V)
theorem rc_arg25_0_8 : R8 V (Proc.devRef .tc main_arg25) = R0 V (Proc.devRef .tc main_arg25) :=
  (keepS7 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_7 V)
theorem rc_arg25_0_9 : R9 V (Proc.devRef .tc main_arg25) = R0 V (Proc.devRef .tc main_arg25) :=
  (keepS8 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg25_0_8 V)
theorem rc_arg25_0_10 : R10 V (Proc.devRef .tc main_arg25) = R0 V (Proc.devRef .tc main_arg25) :=
  (keepS9 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg25_0_9 V)
theorem rc_arg25_0_11 : R11 V (Proc.devRef .tc main_arg25) = R0 V (Proc.devRef .tc main_arg25) :=
  (keepS10 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg25_0_10 V)
theorem rc_arg25_0_12 : R12 V (Proc.devRef .tc main_arg25) = R0 V (Proc.devRef .tc main_arg25) :=
  (keepS11 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg25_0_11 V)
theorem rc_arg25_0_13 : R13 V (Proc.devRef .tc main_arg25) = R0 V (Proc.devRef .tc main_arg25) :=
  (keepS12 main_arg25 (Cert.Carry.allc (by decide) (Cert.Carry.allc (by decide) (Cert.Carry.allc (by decide) (Cert.Carry.alln)))) _).trans (rc_arg25_0_12 V)
theorem rc_arg25_0_14 : R14 V (Proc.devRef .tc main_arg25) = R0 V (Proc.devRef .tc main_arg25) :=
  (keepS13 main_arg25 (Cert.Carry.allc (by decide) (Cert.Carry.allc (by decide) (Cert.Carry.allc (by decide) (Cert.Carry.alln)))) _).trans (rc_arg25_0_13 V)
theorem rc_arg25_0_15 : R15 V (Proc.devRef .tc main_arg25) = R0 V (Proc.devRef .tc main_arg25) :=
  (keepS14 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_14 V)
theorem rc_arg25_0_16 : R16 V (Proc.devRef .tc main_arg25) = R0 V (Proc.devRef .tc main_arg25) :=
  (keepS15 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_15 V)
theorem rc_arg25_0_17 : R17 V (Proc.devRef .tc main_arg25) = R0 V (Proc.devRef .tc main_arg25) :=
  (keepS16 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_16 V)
theorem rc_arg25_0_18 : R18 V (Proc.devRef .tc main_arg25) = R0 V (Proc.devRef .tc main_arg25) :=
  (keepS17 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_17 V)
theorem rc_arg25_0_19 : R19 V (Proc.devRef .tc main_arg25) = R0 V (Proc.devRef .tc main_arg25) :=
  (keepS18 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_18 V)
theorem rc_arg25_0_20 : R20 V (Proc.devRef .tc main_arg25) = R0 V (Proc.devRef .tc main_arg25) :=
  (keepS19 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_19 V)
theorem rc_arg25_0_21 : R21 V (Proc.devRef .tc main_arg25) = R0 V (Proc.devRef .tc main_arg25) :=
  (keepS20 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg25_0_20 V)
theorem rc_arg25_0_22 : R22 V (Proc.devRef .tc main_arg25) = R0 V (Proc.devRef .tc main_arg25) :=
  (keepS21 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg25_0_21 V)
theorem rc_arg25_0_23 : R23 V (Proc.devRef .tc main_arg25) = R0 V (Proc.devRef .tc main_arg25) :=
  (keepS22 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg25_0_22 V)
theorem rc_arg25_0_24 : R24 V (Proc.devRef .tc main_arg25) = R0 V (Proc.devRef .tc main_arg25) :=
  (keepS23 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg25_0_23 V)
theorem rc_arg25_0_25 : R25 V (Proc.devRef .tc main_arg25) = R0 V (Proc.devRef .tc main_arg25) :=
  (keepS24 main_arg25 (Cert.Carry.allc (by decide) (Cert.Carry.allc (by decide) (Cert.Carry.allc (by decide) (Cert.Carry.alln)))) _).trans (rc_arg25_0_24 V)
theorem rc_arg25_0_26 : R26 V (Proc.devRef .tc main_arg25) = R0 V (Proc.devRef .tc main_arg25) :=
  (keepS25 main_arg25 (Cert.Carry.allc (by decide) (Cert.Carry.allc (by decide) (Cert.Carry.allc (by decide) (Cert.Carry.alln)))) _).trans (rc_arg25_0_25 V)
theorem rc_arg25_0_27 : R27 V (Proc.devRef .tc main_arg25) = R0 V (Proc.devRef .tc main_arg25) :=
  (keepS26 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_26 V)
theorem rc_arg25_0_28 : R28 V (Proc.devRef .tc main_arg25) = R0 V (Proc.devRef .tc main_arg25) :=
  (keepS27 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_27 V)
theorem rc_arg25_0_29 : R29 V (Proc.devRef .tc main_arg25) = R0 V (Proc.devRef .tc main_arg25) :=
  (keepS28 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_28 V)
theorem rc_arg25_0_30 : R30 V (Proc.devRef .tc main_arg25) = R0 V (Proc.devRef .tc main_arg25) :=
  (keepS29 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_29 V)
theorem rc_arg25_0_31 : R31 V (Proc.devRef .tc main_arg25) = R0 V (Proc.devRef .tc main_arg25) :=
  (keepS30 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg25_0_30 V)
theorem rc_arg25_0_32 : R32 V (Proc.devRef .tc main_arg25) = R0 V (Proc.devRef .tc main_arg25) :=
  (keepS31 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg25_0_31 V)
theorem rc_arg25_0_33 : R33 V (Proc.devRef .tc main_arg25) = R0 V (Proc.devRef .tc main_arg25) :=
  (keepS32 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg25_0_32 V)
theorem rc_arg25_0_34 : R34 V (Proc.devRef .tc main_arg25) = R0 V (Proc.devRef .tc main_arg25) :=
  (keepS33 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg25_0_33 V)
theorem rc_arg25_0_35 : R35 V (Proc.devRef .tc main_arg25) = R0 V (Proc.devRef .tc main_arg25) :=
  (keepS34 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg25_0_34 V)
theorem rc_arg25_0_36 : R36 V (Proc.devRef .tc main_arg25) = R0 V (Proc.devRef .tc main_arg25) :=
  (keepS35 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg25_0_35 V)
theorem rc_arg25_0_37 : R37 V (Proc.devRef .tc main_arg25) = R0 V (Proc.devRef .tc main_arg25) :=
  (keepS36 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg25_0_36 V)

theorem rc_arg26_0_1 : R1 V (Proc.devRef .tc main_arg26) = R0 V (Proc.devRef .tc main_arg26) :=
  (keepS0 main_arg26 (Cert.Carry.allc (by decide) (Cert.Carry.allc (by decide) (Cert.Carry.allc (by decide) (Cert.Carry.allc (by decide) (Cert.Carry.allc (by decide) (Cert.Carry.alln)))))) _).trans (rfl)
theorem rc_arg26_0_2 : R2 V (Proc.devRef .tc main_arg26) = R0 V (Proc.devRef .tc main_arg26) :=
  (keepS1 main_arg26 (Cert.Carry.allc (by decide) (Cert.Carry.allc (by decide) (Cert.Carry.allc (by decide) (Cert.Carry.allc (by decide) (Cert.Carry.allc (by decide) (Cert.Carry.alln)))))) _).trans (rc_arg26_0_1 V)
theorem rc_arg26_0_3 : R3 V (Proc.devRef .tc main_arg26) = R0 V (Proc.devRef .tc main_arg26) :=
  (keepS2 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_2 V)
theorem rc_arg26_0_4 : R4 V (Proc.devRef .tc main_arg26) = R0 V (Proc.devRef .tc main_arg26) :=
  (keepS3 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_3 V)
theorem rc_arg26_0_5 : R5 V (Proc.devRef .tc main_arg26) = R0 V (Proc.devRef .tc main_arg26) :=
  (keepS4 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_4 V)
theorem rc_arg26_0_6 : R6 V (Proc.devRef .tc main_arg26) = R0 V (Proc.devRef .tc main_arg26) :=
  (keepS5 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_5 V)
theorem rc_arg26_0_7 : R7 V (Proc.devRef .tc main_arg26) = R0 V (Proc.devRef .tc main_arg26) :=
  (keepS6 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_6 V)
theorem rc_arg26_0_8 : R8 V (Proc.devRef .tc main_arg26) = R0 V (Proc.devRef .tc main_arg26) :=
  (keepS7 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_7 V)
theorem rc_arg26_0_9 : R9 V (Proc.devRef .tc main_arg26) = R0 V (Proc.devRef .tc main_arg26) :=
  (keepS8 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg26_0_8 V)
theorem rc_arg26_0_10 : R10 V (Proc.devRef .tc main_arg26) = R0 V (Proc.devRef .tc main_arg26) :=
  (keepS9 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg26_0_9 V)
theorem rc_arg26_0_11 : R11 V (Proc.devRef .tc main_arg26) = R0 V (Proc.devRef .tc main_arg26) :=
  (keepS10 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg26_0_10 V)
theorem rc_arg26_0_12 : R12 V (Proc.devRef .tc main_arg26) = R0 V (Proc.devRef .tc main_arg26) :=
  (keepS11 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg26_0_11 V)
theorem rc_arg26_0_13 : R13 V (Proc.devRef .tc main_arg26) = R0 V (Proc.devRef .tc main_arg26) :=
  (keepS12 main_arg26 (Cert.Carry.allc (by decide) (Cert.Carry.allc (by decide) (Cert.Carry.allc (by decide) (Cert.Carry.alln)))) _).trans (rc_arg26_0_12 V)
theorem rc_arg26_0_14 : R14 V (Proc.devRef .tc main_arg26) = R0 V (Proc.devRef .tc main_arg26) :=
  (keepS13 main_arg26 (Cert.Carry.allc (by decide) (Cert.Carry.allc (by decide) (Cert.Carry.allc (by decide) (Cert.Carry.alln)))) _).trans (rc_arg26_0_13 V)
theorem rc_arg26_0_15 : R15 V (Proc.devRef .tc main_arg26) = R0 V (Proc.devRef .tc main_arg26) :=
  (keepS14 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_14 V)
theorem rc_arg26_0_16 : R16 V (Proc.devRef .tc main_arg26) = R0 V (Proc.devRef .tc main_arg26) :=
  (keepS15 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_15 V)
theorem rc_arg26_0_17 : R17 V (Proc.devRef .tc main_arg26) = R0 V (Proc.devRef .tc main_arg26) :=
  (keepS16 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_16 V)
theorem rc_arg26_0_18 : R18 V (Proc.devRef .tc main_arg26) = R0 V (Proc.devRef .tc main_arg26) :=
  (keepS17 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_17 V)
theorem rc_arg26_0_19 : R19 V (Proc.devRef .tc main_arg26) = R0 V (Proc.devRef .tc main_arg26) :=
  (keepS18 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_18 V)
theorem rc_arg26_0_20 : R20 V (Proc.devRef .tc main_arg26) = R0 V (Proc.devRef .tc main_arg26) :=
  (keepS19 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_19 V)
theorem rc_arg26_0_21 : R21 V (Proc.devRef .tc main_arg26) = R0 V (Proc.devRef .tc main_arg26) :=
  (keepS20 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg26_0_20 V)
theorem rc_arg26_0_22 : R22 V (Proc.devRef .tc main_arg26) = R0 V (Proc.devRef .tc main_arg26) :=
  (keepS21 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg26_0_21 V)
theorem rc_arg26_0_23 : R23 V (Proc.devRef .tc main_arg26) = R0 V (Proc.devRef .tc main_arg26) :=
  (keepS22 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg26_0_22 V)
theorem rc_arg26_0_24 : R24 V (Proc.devRef .tc main_arg26) = R0 V (Proc.devRef .tc main_arg26) :=
  (keepS23 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg26_0_23 V)
theorem rc_arg26_0_25 : R25 V (Proc.devRef .tc main_arg26) = R0 V (Proc.devRef .tc main_arg26) :=
  (keepS24 main_arg26 (Cert.Carry.allc (by decide) (Cert.Carry.allc (by decide) (Cert.Carry.allc (by decide) (Cert.Carry.alln)))) _).trans (rc_arg26_0_24 V)
theorem rc_arg26_0_26 : R26 V (Proc.devRef .tc main_arg26) = R0 V (Proc.devRef .tc main_arg26) :=
  (keepS25 main_arg26 (Cert.Carry.allc (by decide) (Cert.Carry.allc (by decide) (Cert.Carry.allc (by decide) (Cert.Carry.alln)))) _).trans (rc_arg26_0_25 V)
theorem rc_arg26_0_27 : R27 V (Proc.devRef .tc main_arg26) = R0 V (Proc.devRef .tc main_arg26) :=
  (keepS26 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_26 V)
theorem rc_arg26_0_28 : R28 V (Proc.devRef .tc main_arg26) = R0 V (Proc.devRef .tc main_arg26) :=
  (keepS27 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_27 V)
theorem rc_arg26_0_29 : R29 V (Proc.devRef .tc main_arg26) = R0 V (Proc.devRef .tc main_arg26) :=
  (keepS28 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_28 V)
theorem rc_arg26_0_30 : R30 V (Proc.devRef .tc main_arg26) = R0 V (Proc.devRef .tc main_arg26) :=
  (keepS29 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_29 V)
theorem rc_arg26_0_31 : R31 V (Proc.devRef .tc main_arg26) = R0 V (Proc.devRef .tc main_arg26) :=
  (keepS30 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg26_0_30 V)
theorem rc_arg26_0_32 : R32 V (Proc.devRef .tc main_arg26) = R0 V (Proc.devRef .tc main_arg26) :=
  (keepS31 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg26_0_31 V)
theorem rc_arg26_0_33 : R33 V (Proc.devRef .tc main_arg26) = R0 V (Proc.devRef .tc main_arg26) :=
  (keepS32 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg26_0_32 V)
theorem rc_arg26_0_34 : R34 V (Proc.devRef .tc main_arg26) = R0 V (Proc.devRef .tc main_arg26) :=
  (keepS33 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg26_0_33 V)
theorem rc_arg26_0_35 : R35 V (Proc.devRef .tc main_arg26) = R0 V (Proc.devRef .tc main_arg26) :=
  (keepS34 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg26_0_34 V)
theorem rc_arg26_0_36 : R36 V (Proc.devRef .tc main_arg26) = R0 V (Proc.devRef .tc main_arg26) :=
  (keepS35 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg26_0_35 V)
theorem rc_arg26_0_37 : R37 V (Proc.devRef .tc main_arg26) = R0 V (Proc.devRef .tc main_arg26) :=
  (keepS36 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg26_0_36 V)

theorem rc_arg27_0_1 : R1 V (Proc.devRef .tc main_arg27) = R0 V (Proc.devRef .tc main_arg27) :=
  (keepS0 main_arg27 (Cert.Carry.allc (by decide) (Cert.Carry.allc (by decide) (Cert.Carry.allc (by decide) (Cert.Carry.allc (by decide) (Cert.Carry.allc (by decide) (Cert.Carry.alln)))))) _).trans (rfl)
theorem rc_arg27_0_2 : R2 V (Proc.devRef .tc main_arg27) = R0 V (Proc.devRef .tc main_arg27) :=
  (keepS1 main_arg27 (Cert.Carry.allc (by decide) (Cert.Carry.allc (by decide) (Cert.Carry.allc (by decide) (Cert.Carry.allc (by decide) (Cert.Carry.allc (by decide) (Cert.Carry.alln)))))) _).trans (rc_arg27_0_1 V)
theorem rc_arg27_0_3 : R3 V (Proc.devRef .tc main_arg27) = R0 V (Proc.devRef .tc main_arg27) :=
  (keepS2 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_2 V)
theorem rc_arg27_0_4 : R4 V (Proc.devRef .tc main_arg27) = R0 V (Proc.devRef .tc main_arg27) :=
  (keepS3 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_3 V)
theorem rc_arg27_0_5 : R5 V (Proc.devRef .tc main_arg27) = R0 V (Proc.devRef .tc main_arg27) :=
  (keepS4 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_4 V)
theorem rc_arg27_0_6 : R6 V (Proc.devRef .tc main_arg27) = R0 V (Proc.devRef .tc main_arg27) :=
  (keepS5 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_5 V)
theorem rc_arg27_0_7 : R7 V (Proc.devRef .tc main_arg27) = R0 V (Proc.devRef .tc main_arg27) :=
  (keepS6 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_6 V)
theorem rc_arg27_0_8 : R8 V (Proc.devRef .tc main_arg27) = R0 V (Proc.devRef .tc main_arg27) :=
  (keepS7 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_7 V)
theorem rc_arg27_0_9 : R9 V (Proc.devRef .tc main_arg27) = R0 V (Proc.devRef .tc main_arg27) :=
  (keepS8 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg27_0_8 V)
theorem rc_arg27_0_10 : R10 V (Proc.devRef .tc main_arg27) = R0 V (Proc.devRef .tc main_arg27) :=
  (keepS9 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg27_0_9 V)
theorem rc_arg27_0_11 : R11 V (Proc.devRef .tc main_arg27) = R0 V (Proc.devRef .tc main_arg27) :=
  (keepS10 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg27_0_10 V)
theorem rc_arg27_0_12 : R12 V (Proc.devRef .tc main_arg27) = R0 V (Proc.devRef .tc main_arg27) :=
  (keepS11 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg27_0_11 V)
theorem rc_arg27_0_13 : R13 V (Proc.devRef .tc main_arg27) = R0 V (Proc.devRef .tc main_arg27) :=
  (keepS12 main_arg27 (Cert.Carry.allc (by decide) (Cert.Carry.allc (by decide) (Cert.Carry.allc (by decide) (Cert.Carry.alln)))) _).trans (rc_arg27_0_12 V)
theorem rc_arg27_0_14 : R14 V (Proc.devRef .tc main_arg27) = R0 V (Proc.devRef .tc main_arg27) :=
  (keepS13 main_arg27 (Cert.Carry.allc (by decide) (Cert.Carry.allc (by decide) (Cert.Carry.allc (by decide) (Cert.Carry.alln)))) _).trans (rc_arg27_0_13 V)
theorem rc_arg27_0_15 : R15 V (Proc.devRef .tc main_arg27) = R0 V (Proc.devRef .tc main_arg27) :=
  (keepS14 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_14 V)
theorem rc_arg27_0_16 : R16 V (Proc.devRef .tc main_arg27) = R0 V (Proc.devRef .tc main_arg27) :=
  (keepS15 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_15 V)
theorem rc_arg27_0_17 : R17 V (Proc.devRef .tc main_arg27) = R0 V (Proc.devRef .tc main_arg27) :=
  (keepS16 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_16 V)
theorem rc_arg27_0_18 : R18 V (Proc.devRef .tc main_arg27) = R0 V (Proc.devRef .tc main_arg27) :=
  (keepS17 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_17 V)
theorem rc_arg27_0_19 : R19 V (Proc.devRef .tc main_arg27) = R0 V (Proc.devRef .tc main_arg27) :=
  (keepS18 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_18 V)
theorem rc_arg27_0_20 : R20 V (Proc.devRef .tc main_arg27) = R0 V (Proc.devRef .tc main_arg27) :=
  (keepS19 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_19 V)
theorem rc_arg27_0_21 : R21 V (Proc.devRef .tc main_arg27) = R0 V (Proc.devRef .tc main_arg27) :=
  (keepS20 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg27_0_20 V)
theorem rc_arg27_0_22 : R22 V (Proc.devRef .tc main_arg27) = R0 V (Proc.devRef .tc main_arg27) :=
  (keepS21 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg27_0_21 V)
theorem rc_arg27_0_23 : R23 V (Proc.devRef .tc main_arg27) = R0 V (Proc.devRef .tc main_arg27) :=
  (keepS22 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg27_0_22 V)
theorem rc_arg27_0_24 : R24 V (Proc.devRef .tc main_arg27) = R0 V (Proc.devRef .tc main_arg27) :=
  (keepS23 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg27_0_23 V)
theorem rc_arg27_0_25 : R25 V (Proc.devRef .tc main_arg27) = R0 V (Proc.devRef .tc main_arg27) :=
  (keepS24 main_arg27 (Cert.Carry.allc (by decide) (Cert.Carry.allc (by decide) (Cert.Carry.allc (by decide) (Cert.Carry.alln)))) _).trans (rc_arg27_0_24 V)
theorem rc_arg27_0_26 : R26 V (Proc.devRef .tc main_arg27) = R0 V (Proc.devRef .tc main_arg27) :=
  (keepS25 main_arg27 (Cert.Carry.allc (by decide) (Cert.Carry.allc (by decide) (Cert.Carry.allc (by decide) (Cert.Carry.alln)))) _).trans (rc_arg27_0_25 V)
theorem rc_arg27_0_27 : R27 V (Proc.devRef .tc main_arg27) = R0 V (Proc.devRef .tc main_arg27) :=
  (keepS26 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_26 V)
theorem rc_arg27_0_28 : R28 V (Proc.devRef .tc main_arg27) = R0 V (Proc.devRef .tc main_arg27) :=
  (keepS27 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_27 V)
theorem rc_arg27_0_29 : R29 V (Proc.devRef .tc main_arg27) = R0 V (Proc.devRef .tc main_arg27) :=
  (keepS28 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_28 V)
theorem rc_arg27_0_30 : R30 V (Proc.devRef .tc main_arg27) = R0 V (Proc.devRef .tc main_arg27) :=
  (keepS29 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_29 V)
theorem rc_arg27_0_31 : R31 V (Proc.devRef .tc main_arg27) = R0 V (Proc.devRef .tc main_arg27) :=
  (keepS30 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _).trans (rc_arg27_0_30 V)
theorem rc_arg27_0_32 : R32 V (Proc.devRef .tc main_arg27) = R0 V (Proc.devRef .tc main_arg27) :=
  (keepS31 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _).trans (rc_arg27_0_31 V)
theorem rc_arg27_0_33 : R33 V (Proc.devRef .tc main_arg27) = R0 V (Proc.devRef .tc main_arg27) :=
  (keepS32 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _).trans (rc_arg27_0_32 V)
theorem rc_arg27_0_34 : R34 V (Proc.devRef .tc main_arg27) = R0 V (Proc.devRef .tc main_arg27) :=
  (keepS33 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg27_0_33 V)
theorem rc_arg27_0_35 : R35 V (Proc.devRef .tc main_arg27) = R0 V (Proc.devRef .tc main_arg27) :=
  (keepS34 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _).trans (rc_arg27_0_34 V)
theorem rc_arg27_0_36 : R36 V (Proc.devRef .tc main_arg27) = R0 V (Proc.devRef .tc main_arg27) :=
  (keepS35 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _).trans (rc_arg27_0_35 V)
theorem rc_arg27_0_37 : R37 V (Proc.devRef .tc main_arg27) = R0 V (Proc.devRef .tc main_arg27) :=
  (keepS36 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))) _).trans (rc_arg27_0_36 V)

end Cert.ReferenceIdeal.Run

end
-- ==== Proof.RArgs.lean ====
import proofs.«143223_j29772713296000_1_alg».proof.Proof.RArgs1
import proofs.«143223_j29772713296000_1_alg».proof.Proof.RArgs2
import proofs.«143223_j29772713296000_1_alg».proof.Proof.RArgs3
import proofs.«143223_j29772713296000_1_alg».proof.Proof.RArgs4

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

end Cert.ReferenceIdeal.Run

end
-- ==== Proof.RCarry.lean ====
import proofs.«143223_j29772713296000_1_alg».proof.Proof.RefOps
import proofs.«143223_j29772713296000_1_alg».proof.Proof.ListAll
import proofs.«143223_j29772713296000_1_alg».proof.Proof.RKeep1
import proofs.«143223_j29772713296000_1_alg».proof.Proof.RKeep2
import proofs.«143223_j29772713296000_1_alg».proof.Proof.RKeep3
import proofs.«143223_j29772713296000_1_alg».proof.Proof.RKeep4
import proofs.«143223_j29772713296000_1_alg».proof.Proof.RArgs

set_option maxRecDepth 16384
-- one theorem at a time: elaborated side by side the table's entries hold gigabytes together
set_option Elab.async false

noncomputable section

namespace Cert.ReferenceIdeal.Run

open Cert.ReferenceIdeal Cert.ReferenceIdeal.Gen Idealize.ShloMosaic Idealize.ShloMosaic.TcCoe Idealize.SL.Sem

variable {F : FTy → Type} [FloatOps F]

variable (V : Valuation τ sig (Elt F))

theorem rc_v4_1_2 : R2 V (Proc.devRef .tc main_v4) = R1 V (Proc.devRef .tc main_v4) :=
  calc R2 V (Proc.devRef .tc main_v4)
    _ = R1 V (Proc.devRef .tc main_v4) := keepS1 main_v4 (Cert.Carry.allc (by decide) (Cert.Carry.allc (by decide) (Cert.Carry.allc (by decide) (Cert.Carry.allc (by decide) (Cert.Carry.allc (by decide) (Cert.Carry.alln)))))) _

theorem rc_v9_2_3 : R3 V (Proc.devRef .tc main_v9) = R2 V (Proc.devRef .tc main_v9) :=
  calc R3 V (Proc.devRef .tc main_v9)
    _ = R2 V (Proc.devRef .tc main_v9) := keepS2 main_v9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v9_2_4 : R4 V (Proc.devRef .tc main_v9) = R2 V (Proc.devRef .tc main_v9) :=
  calc R4 V (Proc.devRef .tc main_v9)
    _ = R3 V (Proc.devRef .tc main_v9) := keepS3 main_v9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R2 V (Proc.devRef .tc main_v9) := keepS2 main_v9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v4_1_5 : R5 V (Proc.devRef .tc main_v4) = R1 V (Proc.devRef .tc main_v4) :=
  calc R5 V (Proc.devRef .tc main_v4)
    _ = R4 V (Proc.devRef .tc main_v4) := keepS4 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R3 V (Proc.devRef .tc main_v4) := keepS3 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R2 V (Proc.devRef .tc main_v4) := keepS2 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R1 V (Proc.devRef .tc main_v4) := keepS1 main_v4 (Cert.Carry.allc (by decide) (Cert.Carry.allc (by decide) (Cert.Carry.allc (by decide) (Cert.Carry.allc (by decide) (Cert.Carry.allc (by decide) (Cert.Carry.alln)))))) _

theorem rc_v4_1_6 : R6 V (Proc.devRef .tc main_v4) = R1 V (Proc.devRef .tc main_v4) :=
  calc R6 V (Proc.devRef .tc main_v4)
    _ = R5 V (Proc.devRef .tc main_v4) := keepS5 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R4 V (Proc.devRef .tc main_v4) := keepS4 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R3 V (Proc.devRef .tc main_v4) := keepS3 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R2 V (Proc.devRef .tc main_v4) := keepS2 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R1 V (Proc.devRef .tc main_v4) := keepS1 main_v4 (Cert.Carry.allc (by decide) (Cert.Carry.allc (by decide) (Cert.Carry.allc (by decide) (Cert.Carry.allc (by decide) (Cert.Carry.allc (by decide) (Cert.Carry.alln)))))) _

theorem rc_v4_1_7 : R7 V (Proc.devRef .tc main_v4) = R1 V (Proc.devRef .tc main_v4) :=
  calc R7 V (Proc.devRef .tc main_v4)
    _ = R6 V (Proc.devRef .tc main_v4) := keepS6 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R5 V (Proc.devRef .tc main_v4) := keepS5 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R4 V (Proc.devRef .tc main_v4) := keepS4 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R3 V (Proc.devRef .tc main_v4) := keepS3 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R2 V (Proc.devRef .tc main_v4) := keepS2 main_v4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R1 V (Proc.devRef .tc main_v4) := keepS1 main_v4 (Cert.Carry.allc (by decide) (Cert.Carry.allc (by decide) (Cert.Carry.allc (by decide) (Cert.Carry.allc (by decide) (Cert.Carry.allc (by decide) (Cert.Carry.alln)))))) _

theorem rc_v97_6_8 : R8 V (Proc.devRef .tc main_v97) = R6 V (Proc.devRef .tc main_v97) :=
  calc R8 V (Proc.devRef .tc main_v97)
    _ = R7 V (Proc.devRef .tc main_v97) := keepS7 main_v97 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R6 V (Proc.devRef .tc main_v97) := keepS6 main_v97 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v53_4_10 : R10 V (Proc.devRef .tc main_v53) = R4 V (Proc.devRef .tc main_v53) :=
  calc R10 V (Proc.devRef .tc main_v53)
    _ = R9 V (Proc.devRef .tc main_v53) := keepS9 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R8 V (Proc.devRef .tc main_v53) := keepS8 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _
    _ = R7 V (Proc.devRef .tc main_v53) := keepS7 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R6 V (Proc.devRef .tc main_v53) := keepS6 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R5 V (Proc.devRef .tc main_v53) := keepS5 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R4 V (Proc.devRef .tc main_v53) := keepS4 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v53_4_11 : R11 V (Proc.devRef .tc main_v53) = R4 V (Proc.devRef .tc main_v53) :=
  calc R11 V (Proc.devRef .tc main_v53)
    _ = R10 V (Proc.devRef .tc main_v53) := keepS10 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _
    _ = R9 V (Proc.devRef .tc main_v53) := keepS9 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R8 V (Proc.devRef .tc main_v53) := keepS8 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _
    _ = R7 V (Proc.devRef .tc main_v53) := keepS7 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R6 V (Proc.devRef .tc main_v53) := keepS6 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R5 V (Proc.devRef .tc main_v53) := keepS5 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R4 V (Proc.devRef .tc main_v53) := keepS4 main_v53 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v165_10_12 : R12 V (Proc.devRef .tc main_v165) = R10 V (Proc.devRef .tc main_v165) :=
  calc R12 V (Proc.devRef .tc main_v165)
    _ = R11 V (Proc.devRef .tc main_v165) := keepS11 main_v165 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R10 V (Proc.devRef .tc main_v165) := keepS10 main_v165 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _

theorem rc_v188_12_13 : R13 V (Proc.devRef .tc main_v188) = R12 V (Proc.devRef .tc main_v188) :=
  calc R13 V (Proc.devRef .tc main_v188)
    _ = R12 V (Proc.devRef .tc main_v188) := keepS12 main_v188 (Cert.Carry.allc (by decide) (Cert.Carry.allc (by decide) (Cert.Carry.allc (by decide) (Cert.Carry.alln)))) _

theorem rc_v189_13_14 : R14 V (Proc.devRef .tc main_v189) = R13 V (Proc.devRef .tc main_v189) :=
  calc R14 V (Proc.devRef .tc main_v189)
    _ = R13 V (Proc.devRef .tc main_v189) := keepS13 main_v189 (Cert.Carry.allc (by decide) (Cert.Carry.allc (by decide) (Cert.Carry.allc (by decide) (Cert.Carry.alln)))) _

theorem rc_v190_14_15 : R15 V (Proc.devRef .tc main_v190) = R14 V (Proc.devRef .tc main_v190) :=
  calc R15 V (Proc.devRef .tc main_v190)
    _ = R14 V (Proc.devRef .tc main_v190) := keepS14 main_v190 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v190_14_16 : R16 V (Proc.devRef .tc main_v190) = R14 V (Proc.devRef .tc main_v190) :=
  calc R16 V (Proc.devRef .tc main_v190)
    _ = R15 V (Proc.devRef .tc main_v190) := keepS15 main_v190 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R14 V (Proc.devRef .tc main_v190) := keepS14 main_v190 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v189_13_17 : R17 V (Proc.devRef .tc main_v189) = R13 V (Proc.devRef .tc main_v189) :=
  calc R17 V (Proc.devRef .tc main_v189)
    _ = R16 V (Proc.devRef .tc main_v189) := keepS16 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R15 V (Proc.devRef .tc main_v189) := keepS15 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R14 V (Proc.devRef .tc main_v189) := keepS14 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R13 V (Proc.devRef .tc main_v189) := keepS13 main_v189 (Cert.Carry.allc (by decide) (Cert.Carry.allc (by decide) (Cert.Carry.allc (by decide) (Cert.Carry.alln)))) _

theorem rc_v189_13_18 : R18 V (Proc.devRef .tc main_v189) = R13 V (Proc.devRef .tc main_v189) :=
  calc R18 V (Proc.devRef .tc main_v189)
    _ = R17 V (Proc.devRef .tc main_v189) := keepS17 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R16 V (Proc.devRef .tc main_v189) := keepS16 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R15 V (Proc.devRef .tc main_v189) := keepS15 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R14 V (Proc.devRef .tc main_v189) := keepS14 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R13 V (Proc.devRef .tc main_v189) := keepS13 main_v189 (Cert.Carry.allc (by decide) (Cert.Carry.allc (by decide) (Cert.Carry.allc (by decide) (Cert.Carry.alln)))) _

theorem rc_v189_13_19 : R19 V (Proc.devRef .tc main_v189) = R13 V (Proc.devRef .tc main_v189) :=
  calc R19 V (Proc.devRef .tc main_v189)
    _ = R18 V (Proc.devRef .tc main_v189) := keepS18 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R17 V (Proc.devRef .tc main_v189) := keepS17 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R16 V (Proc.devRef .tc main_v189) := keepS16 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R15 V (Proc.devRef .tc main_v189) := keepS15 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R14 V (Proc.devRef .tc main_v189) := keepS14 main_v189 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R13 V (Proc.devRef .tc main_v189) := keepS13 main_v189 (Cert.Carry.allc (by decide) (Cert.Carry.allc (by decide) (Cert.Carry.allc (by decide) (Cert.Carry.alln)))) _

theorem rc_v278_18_20 : R20 V (Proc.devRef .tc main_v278) = R18 V (Proc.devRef .tc main_v278) :=
  calc R20 V (Proc.devRef .tc main_v278)
    _ = R19 V (Proc.devRef .tc main_v278) := keepS19 main_v278 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R18 V (Proc.devRef .tc main_v278) := keepS18 main_v278 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v234_16_22 : R22 V (Proc.devRef .tc main_v234) = R16 V (Proc.devRef .tc main_v234) :=
  calc R22 V (Proc.devRef .tc main_v234)
    _ = R21 V (Proc.devRef .tc main_v234) := keepS21 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R20 V (Proc.devRef .tc main_v234) := keepS20 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _
    _ = R19 V (Proc.devRef .tc main_v234) := keepS19 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R18 V (Proc.devRef .tc main_v234) := keepS18 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R17 V (Proc.devRef .tc main_v234) := keepS17 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R16 V (Proc.devRef .tc main_v234) := keepS16 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v234_16_23 : R23 V (Proc.devRef .tc main_v234) = R16 V (Proc.devRef .tc main_v234) :=
  calc R23 V (Proc.devRef .tc main_v234)
    _ = R22 V (Proc.devRef .tc main_v234) := keepS22 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _
    _ = R21 V (Proc.devRef .tc main_v234) := keepS21 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R20 V (Proc.devRef .tc main_v234) := keepS20 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))) _
    _ = R19 V (Proc.devRef .tc main_v234) := keepS19 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R18 V (Proc.devRef .tc main_v234) := keepS18 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R17 V (Proc.devRef .tc main_v234) := keepS17 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R16 V (Proc.devRef .tc main_v234) := keepS16 main_v234 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v346_22_24 : R24 V (Proc.devRef .tc main_v346) = R22 V (Proc.devRef .tc main_v346) :=
  calc R24 V (Proc.devRef .tc main_v346)
    _ = R23 V (Proc.devRef .tc main_v346) := keepS23 main_v346 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R22 V (Proc.devRef .tc main_v346) := keepS22 main_v346 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _

theorem rc_v369_24_25 : R25 V (Proc.devRef .tc main_v369) = R24 V (Proc.devRef .tc main_v369) :=
  calc R25 V (Proc.devRef .tc main_v369)
    _ = R24 V (Proc.devRef .tc main_v369) := keepS24 main_v369 (Cert.Carry.allc (by decide) (Cert.Carry.allc (by decide) (Cert.Carry.allc (by decide) (Cert.Carry.alln)))) _

theorem rc_v371_26_28 : R28 V (Proc.devRef .tc main_v371) = R26 V (Proc.devRef .tc main_v371) :=
  calc R28 V (Proc.devRef .tc main_v371)
    _ = R27 V (Proc.devRef .tc main_v371) := keepS27 main_v371 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R26 V (Proc.devRef .tc main_v371) := keepS26 main_v371 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v370_25_29 : R29 V (Proc.devRef .tc main_v370) = R25 V (Proc.devRef .tc main_v370) :=
  calc R29 V (Proc.devRef .tc main_v370)
    _ = R28 V (Proc.devRef .tc main_v370) := keepS28 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R27 V (Proc.devRef .tc main_v370) := keepS27 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R26 V (Proc.devRef .tc main_v370) := keepS26 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R25 V (Proc.devRef .tc main_v370) := keepS25 main_v370 (Cert.Carry.allc (by decide) (Cert.Carry.allc (by decide) (Cert.Carry.allc (by decide) (Cert.Carry.alln)))) _

theorem rc_v370_25_30 : R30 V (Proc.devRef .tc main_v370) = R25 V (Proc.devRef .tc main_v370) :=
  calc R30 V (Proc.devRef .tc main_v370)
    _ = R29 V (Proc.devRef .tc main_v370) := keepS29 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R28 V (Proc.devRef .tc main_v370) := keepS28 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R27 V (Proc.devRef .tc main_v370) := keepS27 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R26 V (Proc.devRef .tc main_v370) := keepS26 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R25 V (Proc.devRef .tc main_v370) := keepS25 main_v370 (Cert.Carry.allc (by decide) (Cert.Carry.allc (by decide) (Cert.Carry.allc (by decide) (Cert.Carry.alln)))) _

theorem rc_v370_25_31 : R31 V (Proc.devRef .tc main_v370) = R25 V (Proc.devRef .tc main_v370) :=
  calc R31 V (Proc.devRef .tc main_v370)
    _ = R30 V (Proc.devRef .tc main_v370) := keepS30 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R29 V (Proc.devRef .tc main_v370) := keepS29 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R28 V (Proc.devRef .tc main_v370) := keepS28 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R27 V (Proc.devRef .tc main_v370) := keepS27 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R26 V (Proc.devRef .tc main_v370) := keepS26 main_v370 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _
    _ = R25 V (Proc.devRef .tc main_v370) := keepS25 main_v370 (Cert.Carry.allc (by decide) (Cert.Carry.allc (by decide) (Cert.Carry.allc (by decide) (Cert.Carry.alln)))) _

theorem rc_v459_30_32 : R32 V (Proc.devRef .tc main_v459) = R30 V (Proc.devRef .tc main_v459) :=
  calc R32 V (Proc.devRef .tc main_v459)
    _ = R31 V (Proc.devRef .tc main_v459) := keepS31 main_v459 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))) _
    _ = R30 V (Proc.devRef .tc main_v459) := keepS30 main_v459 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))))))))))))))))))))))))))))))))) _

theorem rc_v527_34_36 : R36 V (Proc.devRef .tc main_v527) = R34 V (Proc.devRef .tc main_v527) :=
  calc R36 V (Proc.devRef .tc main_v527)
    _ = R35 V (Proc.devRef .tc main_v527) := keepS35 main_v527 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))) _
    _ = R34 V (Proc.devRef .tc main_v527) := keepS34 main_v527 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))) _

end Cert.ReferenceIdeal.Run

end
-- ==== Proof.SpecLinear.lean ====
/-
  The dense (linear) layer as ONE function of its three arrays, index by index, and the two
  ways a program spells it read at an index.

  `Cert.Spec.linear x W b` is `x Wᵀ + b`: entry `(r, c)` is `Σ_k x[r, k] · W[c, k]`, plus the bias row's
  entry `b[0, c]`. Both programs compute it with a rank-2 contraction `[M, K] × [K, N]` against the transposed
  weights; at the extended reals the product into a zero accumulator and the host's product are the same
  sum, and a change of float format is the identity, so each side reads as that formula with no law of
  arithmetic beyond `0 + a = a`.
-/
import Idealize.ShloMosaic.PureOps.Ideal.Laws
import Idealize.ShloMosaic.Lib.ValueIdx
import Idealize.ShloMosaic.Lib.ValueLayout

noncomputable section

open scoped BigOperators

namespace Cert.Spec

open Idealize.ShloMosaic Idealize.ShloMosaic.ValueIdx

/-- `x Wᵀ + b` for `x : [n, k]`, `W : [d, k]` and a bias row `b : [1, d]`. -/
def linear {n k d : ℕ} (x : (⟨2, ![n, k]⟩ : Shape).Idx → EReal) (W : (⟨2, ![d, k]⟩ : Shape).Idx → EReal)
    (b : (⟨2, ![1, d]⟩ : Shape).Idx → EReal) : (⟨2, ![n, d]⟩ : Shape).Idx → EReal :=
  fun i => (∑ c : Fin k, x (ix2 (i 0) c) * W (ix2 (i 1) c)) + b (ix2 (0 : Fin 1) (i 1))

theorem linear_apply {n k d : ℕ} (x : (⟨2, ![n, k]⟩ : Shape).Idx → EReal) (W : (⟨2, ![d, k]⟩ : Shape).Idx → EReal)
    (b : (⟨2, ![1, d]⟩ : Shape).Idx → EReal) (r : Fin n) (c : Fin d) :
    linear x W b (ix2 r c) = (∑ e : Fin k, x (ix2 r e) * W (ix2 c e)) + b (ix2 (0 : Fin 1) c) := rfl

/-! ## The plain contraction `[M, K] × [K, N]` read at an index -/

section Plain
variable {M K N : ℕ}

/-- The left operand's row is the result's row, -/
theorem plain_lhs_0 (i : (⟨2, ![M, N]⟩ : Shape).Idx) (q : (DotDims.plain M K N).contr.Idx) :
    ((DotDims.plain M K N).lhsIdx i q 0).val = (i 0).val := rfl
/-- its column the contraction's coordinate; -/
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
/-- the right operand's row is the contraction's coordinate, -/
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
/-- and its column the result's column. -/
theorem plain_rhs_1 (i : (⟨2, ![M, N]⟩ : Shape).Idx) (q : (DotDims.plain M K N).contr.Idx) :
    ((DotDims.plain M K N).rhsIdx i q 1).val = (i 1).val := rfl

/-- The contraction's sum, re-indexed by its one coordinate: `Σ_e l[r, e] · r[e, c]`. -/
theorem plain_sum (l : (⟨2, ![M, K]⟩ : Shape).Idx → EReal) (r : (⟨2, ![K, N]⟩ : Shape).Idx → EReal) (p : Fin M) (c : Fin N) :
    ∑ q : (DotDims.plain M K N).contr.Idx, l ((DotDims.plain M K N).lhsIdx (ix2 p c) q) * r ((DotDims.plain M K N).rhsIdx (ix2 p c) q)
      = ∑ e : Fin K, l (ix2 p e) * r (ix2 e c) := by
  rw [← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 p c) ((contrEquiv1 (DotDims.plain M K N) K rfl rfl).symm e) = ix2 p e :=
    funext fun a => Fin.ext (by
      match a with
      | ⟨0, _⟩ => exact plain_lhs_0 _ _
      | ⟨1, _⟩ => exact (plain_lhs_1 _ _).trans he)
  have er : (DotDims.plain M K N).rhsIdx (ix2 p c) ((contrEquiv1 (DotDims.plain M K N) K rfl rfl).symm e) = ix2 e c :=
    funext fun a => Fin.ext (by
      match a with
      | ⟨0, _⟩ => exact (plain_rhs_0 _ _).trans he
      | ⟨1, _⟩ => exact plain_rhs_1 _ _)
  rw [el, er]

/-- A `tpu.matmul` of that contraction into the zero splat, at `(p, c)`: `Σ_e l[p, e] · r[e, c]`. -/
theorem matmul_plain_zero_apply {φ₁ φ₂ : FTy} (prec : Option ContractPrecision) (l : FVec Ideal ⟨2, ![M, K]⟩ φ₁)
    (r : FVec Ideal ⟨2, ![K, N]⟩ φ₂) (p : Fin M) (c : Fin N) :
    matmul (DotDims.plain M K N) prec l r (constant ⟨2, ![M, N]⟩ .f32 0x00000000#32) (ix2 p c)
      = ∑ e : Fin K, l (ix2 p e) * r (ix2 e c) :=
  (Ideal.matmul_constant_zero_apply (DotDims.plain M K N) prec l r (ix2 p c)).trans (plain_sum l r p c)

/-- The host's `dot_general` of that contraction, at `(p, c)`: the same sum. -/
theorem dotGeneral_plain_apply {φ₁ φ₂ : FTy} (prec : Option ContractPrecision) (l : FVec Ideal ⟨2, ![M, K]⟩ φ₁)
    (r : FVec Ideal ⟨2, ![K, N]⟩ φ₂) (p : Fin M) (c : Fin N) :
    Host.dotGeneral (DotDims.plain M K N) prec l r (ix2 p c) = ∑ e : Fin K, l (ix2 p e) * r (ix2 e c) :=
  (Ideal.dotGeneral_apply (DotDims.plain M K N) prec .single l r (ix2 p c)).trans (plain_sum l r p c)

end Plain

/-! ## The kernel's block: both operands narrowed, the weights transposed, the product into zero, the bias row added -/

/-- One block of the kernel at `(p, c)`: the narrowing is the identity, the transposed weights read `W[c, e]`
    at `(e, c)`, the zero accumulator adds nothing, and the broadcast bias row reads `b[0, c]` on every row. -/
theorem linear_block {M K N : ℕ} (x0 : FVec Ideal ⟨2, ![M, K]⟩ .f32) (x1 : FVec Ideal ⟨2, ![N, K]⟩ .f32)
    (x2 : FVec Ideal ⟨2, ![1, N]⟩ .f32) (hb : FTy.bf16.bits < FTy.f32.bits)
    (hT : (⟨2, ![N, K]⟩ : Shape).Transposes [1, 0] ⟨2, ![K, N]⟩) (hS : (⟨2, ![1, N]⟩ : Shape).ShapeCasts ⟨2, ![1, N]⟩)
    (hB : (⟨2, ![1, N]⟩ : Shape).Broadcasts ⟨2, ![M, N]⟩) (p : Fin M) (c : Fin N) :
    addf (matmul (DotDims.plain M K N) none (truncf .bf16 x0 hb) (transpose ⟨2, ![K, N]⟩ [1, 0] (truncf .bf16 x1 hb) hT)
        (constant ⟨2, ![M, N]⟩ .f32 0x00000000#32))
      (broadcastTo ⟨2, ![M, N]⟩ (shapeCast ⟨2, ![1, N]⟩ x2 hS) hB) (ix2 p c)
      = (∑ e : Fin K, x0 (ix2 p e) * x1 (ix2 c e)) + x2 (ix2 (0 : Fin 1) c) := by
  rw [addf_apply, matmul_plain_zero_apply, broadcastTo_1b_ab_apply, shapeCast_self]
  refine congrArg (· + x2 (ix2 (0 : Fin 1) c)) (Finset.sum_congr rfl fun e _ => ?_)
  rw [truncf_apply, transpose_ix2_apply, truncf_apply]

/-! ## The reference: `dot_general` against the transposed weights, plus the bias broadcast twice -/

/-- A bias `[d]` broadcast to a row `[1, d]` and then down the rows `[n, d]` reads `b[c]` at `(r, c)`, -/
theorem bias_rows_apply {n d : ℕ} (b : (⟨1, ![d]⟩ : Shape).Idx → EReal)
    (h1 : (⟨1, ![d]⟩ : Shape).BroadcastsInDim ⟨2, ![1, d]⟩ ![1])
    (h2 : (⟨2, ![1, d]⟩ : Shape).BroadcastsInDim ⟨2, ![n, d]⟩ ![0, 1]) (r : Fin n) (c : Fin d) :
    broadcastInDim ⟨2, ![n, d]⟩ ![0, 1] h2 (broadcastInDim ⟨2, ![1, d]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => rfl
    | ⟨1, _⟩ =>
      show c.val = if d = 1 then 0 else c.val
      split
      · have := c.isLt; omega
      · rfl
  · match a with
    | ⟨0, _⟩ =>
      show c.val = if d = 1 then 0 else c.val
      split
      · have := c.isLt; omega
      · rfl

/-- and so does the row `[1, d]` the same bias is reshaped to, at `(0, c)`. -/
theorem bias_row_apply {d : ℕ} (b : (⟨1, ![d]⟩ : Shape).Idx → EReal) (hS : (⟨1, ![d]⟩ : Shape).ShapeCasts ⟨2, ![1, d]⟩)
    (c : Fin d) : shapeCast ⟨2, ![1, d]⟩ b hS (ix2 (0 : Fin 1) c) = b (ix1 c) :=
  shapeCast_a_1a_apply b hS 0 c

/-- The reference's dense layer IS `linear` of the same arrays, the bias as the row it is reshaped to. -/
theorem linear_ref {n k d : ℕ} (x : FVec Ideal ⟨2, ![n, k]⟩ .f32) (W : FVec Ideal ⟨2, ![d, k]⟩ .f32)
    (b : FVec Ideal ⟨1, ![d]⟩ .f32) (hT : (⟨2, ![d, k]⟩ : Shape).Transposes [1, 0] ⟨2, ![k, d]⟩)
    (h1 : (⟨1, ![d]⟩ : Shape).BroadcastsInDim ⟨2, ![1, d]⟩ ![1])
    (h2 : (⟨2, ![1, d]⟩ : Shape).BroadcastsInDim ⟨2, ![n, d]⟩ ![0, 1])
    (hS : (⟨1, ![d]⟩ : Shape).ShapeCasts ⟨2, ![1, d]⟩) :
    addf (Host.dotGeneral (DotDims.plain n k d) none x (transpose ⟨2, ![k, d]⟩ [1, 0] W hT))
        (broadcastInDim ⟨2, ![n, d]⟩ ![0, 1] h2 (broadcastInDim ⟨2, ![1, d]⟩ ![1] h1 b))
      = linear x W (shapeCast ⟨2, ![1, d]⟩ b hS) := by
  funext i
  obtain ⟨r, c, rfl⟩ : ∃ (r : Fin n) (c : Fin d), i = ix2 r c := ⟨i 0, i 1, eq_ix2 i⟩
  rw [linear_apply, addf_apply, dotGeneral_plain_apply, bias_rows_apply, bias_row_apply]
  refine congrArg (· + b (ix1 c)) (Finset.sum_congr rfl fun e _ => ?_)
  rw [transpose_ix2_apply]

end Cert.Spec

end
-- ==== Proof.LinearK.lean ====
/-
  Region 0 — the account-side input projection `x Wᵀ + b` — read off its proof data: the array the region's
  write-backs leave in output window 3 is `Cert.Spec.linear` of the three arrays the region stages.

  The grid has 40 points; point `t` stages rows `5000 t … 5000 t + 4999` of `x` ([200000, 64]) and of the output
  ([200000, 128]), and the whole of `W` ([128, 64]) and of the bias row ([1, 128]). So entry `(p, c)` of the block
  point `t` writes back is `Σ_e x[5000 t + p, e] · W[c, e] + b[0, c]`, which is `linear x W b` at row `5000 t + p`;
  the row `r` of the array lies in the block of point `r / 5000`, and the blocks cover the array.
-/
import proofs.«143223_j29772713296000_1_alg».proof.Proof.Gen.KernelIdeal.Frame
import proofs.«143223_j29772713296000_1_alg».proof.Proof.SpecLinear
import Idealize.ShloMosaic.Lib.Pipeline.Value
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

namespace Linear0

/-- The body's rectangles sit at offsets `(0, 0)`. -/
theorem zero_off : (![0, 0] : Fin 2 → Nat) = fun _ => 0 := funext fun a => by fin_cases a <;> rfl

/-- The body's one stored value at `(p, c)` of its blocks: `Σ_e x0[p, e] · x1[c, e] + x2[0, c]`. -/
theorem pay_apply (x0 : Vec Ideal S5000x64 .f32) (x1 : Vec Ideal S128x64 .f32) (x2 : Vec Ideal S1x128 .f32)
    (p : Fin 5000) (c : Fin 128) :
    k0_pay1 (F := Ideal) x0 x1 x2 (ix2 p c) = (∑ e : Fin 64, x0 (ix2 p e) * x1 (ix2 c e)) + x2 (ix2 (0 : Fin 1) c) := by
  unfold k0_pay1
  exact Cert.Spec.linear_block x0 x1 x2 _ _ _ _ p c

/-- The printed index maps over the grid: windows 0 and 3 move one block of rows per point, windows 1 and 2 stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the output array is in point `t`'s block iff each coordinate is in the block's range on its axis. -/
theorem mem_blk (t : Fin cfg0.N) (i : S200000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Row `r` lies in the block of point `r / 5000`: the blocks cover the array. -/
theorem cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  have hN : cfg0.N = 40 := N_0
  obtain ⟨t, ht⟩ : ∃ t : Fin cfg0.N, t.val = (i 0).val / 5000 := ⟨⟨(i 0).val / 5000, by rw [hN]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

variable (V : (c : Dev nD) → (b : Ref sig .tc) → Buf (Elt Ideal) ((c : Thread nD τ).loc b))

/-- Window 0's block at point `t` is rows `5000 t …` of `x`. -/
theorem iblk_x (c : Dev nD) (t : Fin cfg0.N) (y : S5000x64.Idx) (k : S200000x64.Idx)
    (hk0 : (k 0).val = 5000 * t.val + (y 0).val) (hk1 : (k 1).val = (y 1).val) :
    (iblk0 V c 0 t : Vec Ideal S5000x64 .f32) y = (V c main_arg0 : S200000x64.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- Window 1's block at every point is the whole of `W`. -/
theorem iblk_w (c : Dev nD) (t : Fin cfg0.N) (y : S128x64.Idx) :
    (iblk0 V c 1 t : Vec Ideal S128x64 .f32) y = (V c main_arg5 : S128x64.Idx → EReal) y := by
  obtain ⟨-, -, e0, e1, -⟩ := idx_facts t
  unfold iblk0
  rw [View.read_apply]
  show V c main_arg5 _ = V c main_arg5 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- Window 2's block at every point is the whole bias row. -/
theorem iblk_b (c : Dev nD) (t : Fin cfg0.N) (y : S1x128.Idx) :
    (iblk0 V c 2 t : Vec Ideal S1x128 .f32) y = (V c main_v0 : S1x128.Idx → EReal) y := by
  obtain ⟨-, -, -, -, e0, e1, -⟩ := idx_facts t
  unfold iblk0
  rw [View.read_apply]
  show V c main_v0 _ = V c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- Entry `(p, c)` of the body's value, when its three blocks read arrays `X`, `W`, `B` at row `r` / whole / whole,
    is `linear X W B` at `(r, c)`. -/
theorem entry_of_reads (x0 : Vec Ideal S5000x64 .f32) (x1 : Vec Ideal S128x64 .f32) (x2 : Vec Ideal S1x128 .f32)
    (X : S200000x64.Idx → EReal) (W : S128x64.Idx → EReal) (B : S1x128.Idx → EReal)
    (p : Fin 5000) (q : Fin 128) (r : Fin 200000)
    (hx : ∀ e : Fin 64, x0 (ix2 p e) = X (ix2 r e)) (hw : ∀ e : Fin 64, x1 (ix2 q e) = W (ix2 q e))
    (hb : x2 (ix2 (0 : Fin 1) q) = B (ix2 (0 : Fin 1) q)) :
    k0_pay1 (F := Ideal) x0 x1 x2 (ix2 p q) = Cert.Spec.linear X W B (ix2 r q) := by
  rw [pay_apply, Cert.Spec.linear_apply, hb]
  exact congrArg (· + B (ix2 (0 : Fin 1) q)) (Finset.sum_congr rfl fun e _ => by rw [hx e, hw e])

/-- Entry `(p, c)` of what point `t` computes is `linear x W b` at row `r = 5000 t + p`, column `c`. -/
theorem block_entry (c : Dev nD) (t : Fin cfg0.N) (p : Fin 5000) (q : Fin 128) (r : Fin 200000)
    (hr : r.val = 5000 * t.val + p.val) :
    k0_pay1 (F := Ideal) (iblk0 V c 0 t) (iblk0 V c 1 t) (iblk0 V c 2 t) (ix2 p q)
      = Cert.Spec.linear (V c main_arg0) (V c main_arg5) (V c main_v0) (ix2 r q) :=
  entry_of_reads (iblk0 V c 0 t) (iblk0 V c 1 t) (iblk0 V c 2 t) (V c main_arg0) (V c main_arg5) (V c main_v0) p q r
    (fun e => iblk_x V c t (ix2 p e) (ix2 r e) hr rfl) (fun e => iblk_w V c t (ix2 q e))
    (iblk_b V c t (ix2 (0 : Fin 1) q))

/-- WHAT POINT `t` WRITES BACK is block `t` of `linear x W b`. -/
theorem flushed_eq (c : Dev nD) (t : Fin cfg0.N) :
    (dat0 (F := Ideal) V c).flushed 3 t
      = ((cfg0.win 3).blk t).view.read (Elt Ideal) (Cert.Spec.linear (V c main_arg0) (V c main_arg5) (V c main_v0)) := by
  show (cfg0.win 3).cut (grid0.coords t) ((dat0 (F := Ideal) V c).after 3 t) = _
  rw [after0_3]
  unfold out0_3
  rw [View.canon_unit_zero zero_off]
  simp only [View.ld_unit_zero (S := S5000x64) zero_off, View.ld_unit_zero (S := S128x64) zero_off,
    View.ld_unit_zero (S := S1x128) zero_off]
  obtain ⟨-, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  have hN : cfg0.N = 40 := N_0
  have hr : 5000 * t.val + p.val < 200000 := by have := t.isLt; have := p.isLt; omega
  have hemb : ((cfg0.win 3).blk t).view.emb (ix2 p q) = (ix2 (⟨5000 * t.val + p.val, hr⟩ : Fin 200000) q : S200000x128.Idx) := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  show k0_pay1 (F := Ideal) (iblk0 V c 0 t) (iblk0 V c 1 t) (iblk0 V c 2 t) (ix2 p q)
    = Cert.Spec.linear (V c main_arg0) (V c main_arg5) (V c main_v0) (((cfg0.win 3).blk t).view.emb (ix2 p q))
  exact (block_entry V c t p q ⟨5000 * t.val + p.val, hr⟩ rfl).trans
    (congrArg (Cert.Spec.linear (V c main_arg0) (V c main_arg5) (V c main_v0)) hemb.symm)

end Linear0

/-- REGION 0's VALUE: after its write-backs the output array holds `linear` of the arrays the region entered with. -/
theorem reg0_val (V : (c : Dev nD) → (b : Ref sig .tc) → Buf (Elt Ideal) ((c : Thread nD τ).loc b)) (c : Dev nD) :
    (dat0 (F := Ideal) V c).arrAt 3 cfg0.N = Cert.Spec.linear (V c main_arg0) (V c main_arg5) (V c main_v0) :=
  (dat0 (F := Ideal) V c).arrAt_eq_of_cover 3 (Cert.Spec.linear (V c main_arg0) (V c main_arg5) (V c main_v0))
    (fun t _ => Linear0.flushed_eq V c t) Linear0.cover

end Cert.KernelIdeal.Gen

end
-- ==== Proof.LinearK1.lean ====
/-
  Region 1 — the merchant-side input projection `x Wᵀ + b` — read off its proof data: the array the region's
  write-backs leave in output window 3 is `Cert.Spec.linear` of the three arrays the region stages.

  The grid has 20 points; point `t` stages rows `5000 t … 5000 t + 4999` of `x` ([100000, 32]) and of the output
  ([100000, 128]), and the whole of `W` ([128, 32]) and of the bias row ([1, 128]). So entry `(p, c)` of the block
  point `t` writes back is `Σ_e x[5000 t + p, e] · W[c, e] + b[0, c]`, which is `linear x W b` at row `5000 t + p`;
  the row `r` of the array lies in the block of point `r / 5000`, and the blocks cover the array.
-/
import proofs.«143223_j29772713296000_1_alg».proof.Proof.Gen.KernelIdeal.Frame
import proofs.«143223_j29772713296000_1_alg».proof.Proof.SpecLinear
import Idealize.ShloMosaic.Lib.Pipeline.Value
import Idealize.ShloMosaic.Lib.Tactic

noncomputable section

namespace Cert.KernelIdeal.Gen

open Idealize.ShloMosaic Idealize.ShloMosaic.TcCoe Idealize.SL.Sem
open Idealize.ShloMosaic.Pipeline (Dat)
open Idealize.ShloMosaic.ValueIdx

namespace Linear1

/-- The body's rectangles sit at offsets `(0, 0)`. -/
theorem zero_off : (![0, 0] : Fin 2 → Nat) = fun _ => 0 := funext fun a => by fin_cases a <;> rfl

/-- The body's one stored value at `(p, c)` of its blocks: `Σ_e x0[p, e] · x1[c, e] + x2[0, c]`. -/
theorem pay_apply (x0 : Vec Ideal S5000x32 .f32) (x1 : Vec Ideal S128x32 .f32) (x2 : Vec Ideal S1x128 .f32)
    (p : Fin 5000) (c : Fin 128) :
    k1_pay1 (F := Ideal) x0 x1 x2 (ix2 p c) = (∑ e : Fin 32, x0 (ix2 p e) * x1 (ix2 c e)) + x2 (ix2 (0 : Fin 1) c) := by
  unfold k1_pay1
  exact Cert.Spec.linear_block x0 x1 x2 _ _ _ _ p c

/-- The printed index maps over the grid: windows 0 and 3 move one block of rows per point, windows 1 and 2 stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An index of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v3).slice (win1_3.rect t)).set ↔ _
  rw [View.set_slice_whole, Rect.mem_set_unit]
  exact Iff.rfl

/-- Row `r` lies in the block of point `r / 5000`: the blocks cover the array. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

variable (V : (c : Dev nD) → (b : Ref sig .tc) → Buf (Elt Ideal) ((c : Thread nD τ).loc b))

/-- Window 0's block at point `t` is rows `5000 t …` of `x`. -/
theorem iblk_x (c : Dev nD) (t : Fin cfg1.N) (y : S5000x32.Idx) (k : S100000x32.Idx)
    (hk0 : (k 0).val = 5000 * t.val + (y 0).val) (hk1 : (k 1).val = (y 1).val) :
    (iblk1 V c 0 t : Vec Ideal S5000x32 .f32) y = (V c main_arg1 : S100000x32.Idx → EReal) k := by
  obtain ⟨e0, e1, -⟩ := idx_facts t
  unfold iblk1
  rw [View.read_apply]
  show V c main_arg1 _ = V c main_arg1 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 32 + 1 * (y 1).val = (k 1).val; rw [e1, hk1]; omega

/-- Window 1's block at every point is the whole of `W`. -/
theorem iblk_w (c : Dev nD) (t : Fin cfg1.N) (y : S128x32.Idx) :
    (iblk1 V c 1 t : Vec Ideal S128x32 .f32) y = (V c main_arg7 : S128x32.Idx → EReal) y := by
  obtain ⟨-, -, e0, e1, -⟩ := idx_facts t
  unfold iblk1
  rw [View.read_apply]
  show V c main_arg7 _ = V c main_arg7 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 32 + 1 * (y 1).val = (y 1).val; rw [e1]; omega

/-- Window 2's block at every point is the whole bias row. -/
theorem iblk_b (c : Dev nD) (t : Fin cfg1.N) (y : S1x128.Idx) :
    (iblk1 V c 2 t : Vec Ideal S1x128 .f32) y = (V c main_v2 : S1x128.Idx → EReal) y := by
  obtain ⟨-, -, -, -, e0, e1, -⟩ := idx_facts t
  unfold iblk1
  rw [View.read_apply]
  show V c main_v2 _ = V c main_v2 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Entry `(p, c)` of the body's value, when its three blocks read arrays `X`, `W`, `B` at row `r` / whole / whole,
    is `linear X W B` at `(r, c)`. -/
theorem entry_of_reads (x0 : Vec Ideal S5000x32 .f32) (x1 : Vec Ideal S128x32 .f32) (x2 : Vec Ideal S1x128 .f32)
    (X : S100000x32.Idx → EReal) (W : S128x32.Idx → EReal) (B : S1x128.Idx → EReal)
    (p : Fin 5000) (q : Fin 128) (r : Fin 100000)
    (hx : ∀ e : Fin 32, x0 (ix2 p e) = X (ix2 r e)) (hw : ∀ e : Fin 32, x1 (ix2 q e) = W (ix2 q e))
    (hb : x2 (ix2 (0 : Fin 1) q) = B (ix2 (0 : Fin 1) q)) :
    k1_pay1 (F := Ideal) x0 x1 x2 (ix2 p q) = Cert.Spec.linear X W B (ix2 r q) := by
  rw [pay_apply, Cert.Spec.linear_apply, hb]
  exact congrArg (· + B (ix2 (0 : Fin 1) q)) (Finset.sum_congr rfl fun e _ => by rw [hx e, hw e])

/-- Entry `(p, c)` of what point `t` computes is `linear x W b` at row `r = 5000 t + p`, column `c`. -/
theorem block_entry (c : Dev nD) (t : Fin cfg1.N) (p : Fin 5000) (q : Fin 128) (r : Fin 100000)
    (hr : r.val = 5000 * t.val + p.val) :
    k1_pay1 (F := Ideal) (iblk1 V c 0 t) (iblk1 V c 1 t) (iblk1 V c 2 t) (ix2 p q)
      = Cert.Spec.linear (V c main_arg1) (V c main_arg7) (V c main_v2) (ix2 r q) :=
  entry_of_reads (iblk1 V c 0 t) (iblk1 V c 1 t) (iblk1 V c 2 t) (V c main_arg1) (V c main_arg7) (V c main_v2) p q r
    (fun e => iblk_x V c t (ix2 p e) (ix2 r e) hr rfl) (fun e => iblk_w V c t (ix2 q e))
    (iblk_b V c t (ix2 (0 : Fin 1) q))

/-- WHAT POINT `t` WRITES BACK is block `t` of `linear x W b`. -/
theorem flushed_eq (c : Dev nD) (t : Fin cfg1.N) :
    (dat1 (F := Ideal) V c).flushed 3 t
      = ((cfg1.win 3).blk t).view.read (Elt Ideal) (Cert.Spec.linear (V c main_arg1) (V c main_arg7) (V c main_v2)) := by
  show (cfg1.win 3).cut (grid1.coords t) ((dat1 (F := Ideal) V c).after 3 t) = _
  rw [after1_3]
  unfold out1_3
  rw [View.canon_unit_zero zero_off]
  simp only [View.ld_unit_zero (S := S5000x32) zero_off, View.ld_unit_zero (S := S128x32) zero_off,
    View.ld_unit_zero (S := S1x128) zero_off]
  obtain ⟨-, -, -, -, -, -, e0, e1⟩ := idx_facts t
  refine funext fun (j : S5000x128.Idx) => ?_
  obtain ⟨p, q, rfl⟩ : ∃ (p : Fin 5000) (q : Fin 128), j = ix2 p q := ⟨j 0, j 1, eq_ix2 j⟩
  have hN : cfg1.N = 20 := N_1
  have hr : 5000 * t.val + p.val < 100000 := by have := t.isLt; have := p.isLt; omega
  have hemb : ((cfg1.win 3).blk t).view.emb (ix2 p q) = (ix2 (⟨5000 * t.val + p.val, hr⟩ : Fin 100000) q : S100000x128.Idx) := by
    funext a
    apply Fin.ext
    match a with
    | ⟨0, _⟩ => show win1_3.index t (0 : Fin 2) * 5000 + 1 * p.val = 5000 * t.val + p.val; rw [e0]; omega
    | ⟨1, _⟩ => show win1_3.index t (1 : Fin 2) * 128 + 1 * q.val = q.val; rw [e1]; omega
  show k1_pay1 (F := Ideal) (iblk1 V c 0 t) (iblk1 V c 1 t) (iblk1 V c 2 t) (ix2 p q)
    = Cert.Spec.linear (V c main_arg1) (V c main_arg7) (V c main_v2) (((cfg1.win 3).blk t).view.emb (ix2 p q))
  exact (block_entry V c t p q ⟨5000 * t.val + p.val, hr⟩ rfl).trans
    (congrArg (Cert.Spec.linear (V c main_arg1) (V c main_arg7) (V c main_v2)) hemb.symm)

end Linear1

/-- REGION 1's VALUE: after its write-backs the output array holds `linear` of the arrays the region entered with. -/
theorem reg1_val (V : (c : Dev nD) → (b : Ref sig .tc) → Buf (Elt Ideal) ((c : Thread nD τ).loc b)) (c : Dev nD) :
    (dat1 (F := Ideal) V c).arrAt 3 cfg1.N = Cert.Spec.linear (V c main_arg1) (V c main_arg7) (V c main_v2) :=
  (dat1 (F := Ideal) V c).arrAt_eq_of_cover 3 (Cert.Spec.linear (V c main_arg1) (V c main_arg7) (V c main_v2))
    (fun t _ => Linear1.flushed_eq V c t) Linear1.cover

end Cert.KernelIdeal.Gen

end
-- ==== Proof.LinearR.lean ====
/-
  The reference's two input projections as pure functions of their arrays: `dot_general` of the features
  against the transposed weights, plus the bias broadcast to a row and then down the rows. Each IS
  `Cert.Spec.linear` of the same features and weights and of the bias reshaped to a row `[1, 128]` — the
  array the kernel's program stages as its third window.
-/
import proofs.«143223_j29772713296000_1_alg».proof.ReferenceIdeal
import proofs.«143223_j29772713296000_1_alg».proof.Proof.Gen.ReferenceIdeal
import proofs.«143223_j29772713296000_1_alg».proof.Proof.SpecLinear

noncomputable section

namespace Cert.ReferenceIdeal.Dense

open Idealize.ShloMosaic Idealize.SL.Sem
open Cert.ReferenceIdeal Cert.ReferenceIdeal.Facts₀ Cert.ReferenceIdeal.Facts

variable [Cert.ReferenceIdeal.Facts]

/-- The account-side projection (`x : [200000, 64]`, `W : [128, 64]`, `b : [128]`): the reference's operations in
    its order — transpose, `dot_general`, the two broadcasts, the sum — are `linear x W` of the bias as a row. -/
theorem linear_acct (x : FVec Ideal S200000x64 .f32) (W : FVec Ideal S128x64 .f32) (b : FVec Ideal S128 .f32)
    (hS : S128.ShapeCasts S1x128) :
    addf (F := Ideal) (Host.dotGeneral (F := Ideal) dot_S200000x64_S64x128_S200000x128_1_0_0_1_n_n none x
        (transpose S64x128 [1, 0] W transposes_S128x64_S64x128_1_0))
      (broadcastInDim S200000x128 ![0, 1] bcast_S1x128_S200000x128_0_1 (broadcastInDim S1x128 ![1] bcast_S128_S1x128_1 b))
      = Cert.Spec.linear x W (shapeCast S1x128 b hS) :=
  Cert.Spec.linear_ref x W b transposes_S128x64_S64x128_1_0 bcast_S128_S1x128_1 bcast_S1x128_S200000x128_0_1 hS

/-- The merchant-side projection (`x : [100000, 32]`, `W : [128, 32]`, `b : [128]`) likewise. -/
theorem linear_mer (x : FVec Ideal S100000x32 .f32) (W : FVec Ideal S128x32 .f32) (b : FVec Ideal S128 .f32)
    (hS : S128.ShapeCasts S1x128) :
    addf (F := Ideal) (Host.dotGeneral (F := Ideal) dot_S100000x32_S32x128_S100000x128_1_0_0_1_n_n none x
        (transpose S32x128 [1, 0] W transposes_S128x32_S32x128_1_0))
      (broadcastInDim S100000x128 ![0, 1] bcast_S1x128_S100000x128_0_1 (broadcastInDim S1x128 ![1] bcast_S128_S1x128_1 b))
      = Cert.Spec.linear x W (shapeCast S1x128 b hS) :=
  Cert.Spec.linear_ref x W b transposes_S128x32_S32x128_1_0 bcast_S128_S1x128_1 bcast_S1x128_S100000x128_0_1 hS

end Cert.ReferenceIdeal.Dense

end
-- ==== Proof.JoinLinear.lean ====
/-
  The two input projections, joined: the array region 0 (region 1) of the kernel's program leaves is the array
  the reference holds after its first (second) stage. Each side is `Cert.Spec.linear` of the launch contents of
  the same three arguments — the features, the weights, and the bias reshaped to a row — so the argument
  agreements finish it.
-/
import proofs.«143223_j29772713296000_1_alg».proof.Proof.Gen.KernelIdeal.Frame
import proofs.«143223_j29772713296000_1_alg».proof.Proof.RefOps
import proofs.«143223_j29772713296000_1_alg».proof.Proof.SpecLinear
import proofs.«143223_j29772713296000_1_alg».proof.Proof.LinearK
import proofs.«143223_j29772713296000_1_alg».proof.Proof.LinearK1
import proofs.«143223_j29772713296000_1_alg».proof.Proof.LinearR

set_option maxRecDepth 16384

noncomputable section

namespace Cert.Join

open Idealize.ShloMosaic Idealize.ShloMosaic.TcCoe Idealize.SL.Sem Idealize.ShloMosaic.StableHlo

/-- `linear` of equal arrays. -/
theorem linear_congr {n k d : ℕ} {x x' : (⟨2, ![n, k]⟩ : Shape).Idx → EReal} {W W' : (⟨2, ![d, k]⟩ : Shape).Idx → EReal}
    {b b' : (⟨2, ![1, d]⟩ : Shape).Idx → EReal} (hx : x = x') (hW : W = W') (hb : b = b') :
    Cert.Spec.linear x W b = Cert.Spec.linear x' W' b' := by
  subst hx hW hb; rfl

/-- A row reshaped from equal vectors. -/
theorem row_congr {d : ℕ} {b b' : (⟨1, ![d]⟩ : Shape).Idx → EReal} (hb : b = b')
    (h h' : (⟨1, ![d]⟩ : Shape).ShapeCasts ⟨2, ![1, d]⟩) :
    shapeCast ⟨2, ![1, d]⟩ b h = shapeCast ⟨2, ![1, d]⟩ b' h' := by
  subst hb; rfl

section Kernel
open Cert.KernelIdeal Cert.KernelIdeal.Gen

variable (m : (ℓ : Loc nD τ sig) → Buf (Elt Ideal) ℓ) (ρ : Dev nD → PrngReg)

/-- Region 0 enters with the account features and weights as launched, -/
theorem k_arg0_1 (c : Dev nD) : W1 m ρ c (Proc.devRef .tc main_arg0) = m ((c.tc : Thread nD τ).loc main_arg0) := by
  show StableHlo.after hostOps0 (W0 m ρ c) (Proc.devRef .tc main_arg0) = _
  after_results
theorem k_arg5_1 (c : Dev nD) : W1 m ρ c (Proc.devRef .tc main_arg5) = m ((c.tc : Thread nD τ).loc main_arg5) := by
  show StableHlo.after hostOps0 (W0 m ρ c) (Proc.devRef .tc main_arg5) = _
  after_results
/-- and with the bias reshaped to a row. -/
theorem k_v0_1 (c : Dev nD) : W1 m ρ c (Proc.devRef .tc main_v0)
    = shapeCast S1x128 (m ((c.tc : Thread nD τ).loc main_arg6)) shapeCasts_S128_S1x128 := by
  show StableHlo.after hostOps0 (W0 m ρ c) (Proc.devRef .tc main_v0) = _
  after_results
  rfl

/-- What region 0 leaves: `linear` of the launched features, weights and bias row. -/
theorem k_v1 (c : Dev nD) : W2 m ρ c (Proc.devRef .tc main_v1)
    = Cert.Spec.linear (m ((c.tc : Thread nD τ).loc main_arg0)) (m ((c.tc : Thread nD τ).loc main_arg5))
        (shapeCast S1x128 (m ((c.tc : Thread nD τ).loc main_arg6)) shapeCasts_S128_S1x128) :=
  ((W2_arr m ρ c 3).trans (reg0_val (V1 m ρ) c)).trans
    (linear_congr (k_arg0_1 m ρ c) (k_arg5_1 m ρ c) (k_v0_1 m ρ c))

/-- Region 1 enters with the merchant features and weights as launched, -/
theorem k_arg1_3 (c : Dev nD) : W3 m ρ c (Proc.devRef .tc main_arg1) = m ((c.tc : Thread nD τ).loc main_arg1) := by
  show StableHlo.after hostOps1 (W2 m ρ c) (Proc.devRef .tc main_arg1) = _
  after_results
  refine (W2_of_ne m ρ c main_arg1 (by decide)).trans ?_
  show StableHlo.after hostOps0 (W0 m ρ c) (Proc.devRef .tc main_arg1) = _
  after_results
theorem k_arg7_3 (c : Dev nD) : W3 m ρ c (Proc.devRef .tc main_arg7) = m ((c.tc : Thread nD τ).loc main_arg7) := by
  show StableHlo.after hostOps1 (W2 m ρ c) (Proc.devRef .tc main_arg7) = _
  after_results
  refine (W2_of_ne m ρ c main_arg7 (by decide)).trans ?_
  show StableHlo.after hostOps0 (W0 m ρ c) (Proc.devRef .tc main_arg7) = _
  after_results
/-- and with its bias reshaped to a row. -/
theorem k_v2_3 (c : Dev nD) : W3 m ρ c (Proc.devRef .tc main_v2)
    = shapeCast S1x128 (m ((c.tc : Thread nD τ).loc main_arg8)) shapeCasts_S128_S1x128 := by
  show StableHlo.after hostOps1 (W2 m ρ c) (Proc.devRef .tc main_v2) = _
  after_results
  refine congrArg (fun z => shapeCast S1x128 z shapeCasts_S128_S1x128) ?_
  refine (W2_of_ne m ρ c main_arg8 (by decide)).trans ?_
  show StableHlo.after hostOps0 (W0 m ρ c) (Proc.devRef .tc main_arg8) = _
  after_results

/-- What region 1 leaves. -/
theorem k_v3 (c : Dev nD) : W4 m ρ c (Proc.devRef .tc main_v3)
    = Cert.Spec.linear (m ((c.tc : Thread nD τ).loc main_arg1)) (m ((c.tc : Thread nD τ).loc main_arg7))
        (shapeCast S1x128 (m ((c.tc : Thread nD τ).loc main_arg8)) shapeCasts_S128_S1x128) :=
  ((W4_arr m ρ c 3).trans (reg1_val (V3 m ρ) c)).trans
    (linear_congr (k_arg1_3 m ρ c) (k_arg7_3 m ρ c) (k_v2_3 m ρ c))

end Kernel

section Reference
open Cert.ReferenceIdeal Cert.ReferenceIdeal.Gen Cert.ReferenceIdeal.Run

variable (m' : (ℓ : Loc nD τ sig) → Buf (Elt Ideal) ℓ)

/-- The reference's first stage leaves, in its result, `linear` of the launched account features, weights and bias row, -/
theorem r_v4 (c : Dev nD) (hS : S128.ShapeCasts S1x128) : R1 (launchContents m' c) (Proc.devRef .tc main_v4)
    = Cert.Spec.linear (m' ((c.tc : Thread nD τ).loc main_arg0)) (m' ((c.tc : Thread nD τ).loc main_arg5))
        (shapeCast S1x128 (m' ((c.tc : Thread nD τ).loc main_arg6)) hS) := by
  refine Eq.trans ?_ (Dense.linear_acct _ _ _ hS)
  show StableHlo.after seg0 (launchContents m' c) (Proc.devRef .tc main_v4) = _
  after_results

/-- and its second stage the same of the merchant side's. -/
theorem r_v9 (c : Dev nD) (hS : S128.ShapeCasts S1x128) : R2 (launchContents m' c) (Proc.devRef .tc main_v9)
    = Cert.Spec.linear (m' ((c.tc : Thread nD τ).loc main_arg1)) (m' ((c.tc : Thread nD τ).loc main_arg7))
        (shapeCast S1x128 (m' ((c.tc : Thread nD τ).loc main_arg8)) hS) := by
  refine Eq.trans ?_ (Dense.linear_mer _ _ _ hS)
  show StableHlo.after seg1 (StableHlo.after seg0 (launchContents m' c)) (Proc.devRef .tc main_v9) = _
  after_results

end Reference

/-- JOIN (account-side projection): region 0's output array is the reference's first stage's result. -/
theorem j_v1 (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (ha5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (ha6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.KernelIdeal.Gen.W2 m ρ c (Proc.devRef .tc Cert.KernelIdeal.main_v1)
      = Cert.ReferenceIdeal.Run.R1 (launchContents m' c) (Proc.devRef .tc Cert.ReferenceIdeal.main_v4) :=
  (k_v1 m ρ c).trans ((linear_congr ha0.symm ha5.symm (row_congr ha6.symm _ _)).trans
    (r_v4 m' c Cert.KernelIdeal.Gen.shapeCasts_S128_S1x128).symm)

/-- JOIN (merchant-side projection): region 1's output array is the reference's second stage's result. -/
theorem j_v3 (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (ha7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (ha8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)) :
    Cert.KernelIdeal.Gen.W4 m ρ c (Proc.devRef .tc Cert.KernelIdeal.main_v3)
      = Cert.ReferenceIdeal.Run.R2 (launchContents m' c) (Proc.devRef .tc Cert.ReferenceIdeal.main_v9) :=
  (k_v3 m ρ c).trans ((linear_congr ha1.symm ha7.symm (row_congr ha8.symm _ _)).trans
    (r_v9 m' c Cert.KernelIdeal.Gen.shapeCasts_S128_S1x128).symm)

end Cert.Join

end
-- ==== Proof.SpecSage.lean ====
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost

/-!
The dense GraphSAGE layer of output width 128 as ONE function of its five arrays, index by index, at the
extended reals: row `p` of the result is the row `pre p ·` divided by `max (sqrt (Σ_j (pre p j)²)) ε`, where
`pre p q = ((Σ_k mean p k · wl q k) + (Σ_k xdst p k · wr q k)) + bl 0 q` — the two products first, the bias last —
and `ε` is the value of the f32 word `0x2B8CBCCC`. The row count `n` is a parameter: the same function is read
on a block of rows and on the whole array, and a row of the result depends only on that row of `mean` and `xdst`
(`sage_local`). Then the layout operations the layer meets, each read at an index given by coordinates, and the
chain of vector operations that follows the two products, read as `sage`; and the same for the arrangement that adds
the bias between the two products and sums on the host (`sage_of_host_products`): the two meet at `sage` because
addition of extended reals is commutative and associative.
-/

noncomputable section

open Idealize.ShloMosaic Idealize.ShloMosaic.ValueIdx
open scoped BigOperators

namespace Cert.Spec

/-! ## The function -/

/-- The layer before normalisation at row `p`, column `q`: `(mean · wlᵀ + xdst · wrᵀ) + bl`, added in that order. -/
def sagePre (n : Nat) (mean xdst : FVec Ideal ⟨2, ![n, 128]⟩ .f32) (wl : FVec Ideal ⟨2, ![128, 128]⟩ .f32)
    (bl : FVec Ideal ⟨2, ![1, 128]⟩ .f32) (wr : FVec Ideal ⟨2, ![128, 128]⟩ .f32) (p : Fin n) (q : Fin 128) : EReal :=
  ((∑ k : Fin 128, mean (ix2 p k) * wl (ix2 q k)) + ∑ k : Fin 128, xdst (ix2 p k) * wr (ix2 q k)) + bl (ix2 (0 : Fin 1) q)

/-- Row `p`'s divisor: the larger of the row's Euclidean norm and `ε`. -/
def sageNorm (n : Nat) (mean xdst : FVec Ideal ⟨2, ![n, 128]⟩ .f32) (wl : FVec Ideal ⟨2, ![128, 128]⟩ .f32)
    (bl : FVec Ideal ⟨2, ![1, 128]⟩ .f32) (wr : FVec Ideal ⟨2, ![128, 128]⟩ .f32) (p : Fin n) : EReal :=
  max (Ideal.sqrt (∑ j : Fin 128, sagePre n mean xdst wl bl wr p j * sagePre n mean xdst wl bl wr p j))
    (Ideal.ofBits .f32 0x2B8CBCCC#32)

/-- The layer: each row of `sagePre` divided by its divisor. -/
def sage (n : Nat) (mean xdst : FVec Ideal ⟨2, ![n, 128]⟩ .f32) (wl : FVec Ideal ⟨2, ![128, 128]⟩ .f32)
    (bl : FVec Ideal ⟨2, ![1, 128]⟩ .f32) (wr : FVec Ideal ⟨2, ![128, 128]⟩ .f32) : FVec Ideal ⟨2, ![n, 128]⟩ .f32 :=
  fun i => Ideal.div (sagePre n mean xdst wl bl wr (i 0) (i 1)) (sageNorm n mean xdst wl bl wr (i 0))

/-- `sage` at coordinates. -/
theorem sage_apply (n : Nat) (mean xdst : FVec Ideal ⟨2, ![n, 128]⟩ .f32) (wl : FVec Ideal ⟨2, ![128, 128]⟩ .f32)
    (bl : FVec Ideal ⟨2, ![1, 128]⟩ .f32) (wr : FVec Ideal ⟨2, ![128, 128]⟩ .f32) (p : Fin n) (q : Fin 128) :
    sage n mean xdst wl bl wr (ix2 p q)
      = Ideal.div (sagePre n mean xdst wl bl wr p q) (sageNorm n mean xdst wl bl wr p) := rfl

/-- A row of the result depends only on that row of `mean` and of `xdst`: two instances of the layer, at any two
    row counts, whose weights and bias are equal and whose operands agree along one row each, agree on that row. -/
theorem sage_local {n m : Nat} (mean xdst : FVec Ideal ⟨2, ![n, 128]⟩ .f32) (mean' xdst' : FVec Ideal ⟨2, ![m, 128]⟩ .f32)
    (wl wl' : FVec Ideal ⟨2, ![128, 128]⟩ .f32) (bl bl' : FVec Ideal ⟨2, ![1, 128]⟩ .f32)
    (wr wr' : FVec Ideal ⟨2, ![128, 128]⟩ .f32) (p : Fin n) (p' : Fin m) (q : Fin 128)
    (hm : ∀ k : Fin 128, mean' (ix2 p' k) = mean (ix2 p k)) (hx : ∀ k : Fin 128, xdst' (ix2 p' k) = xdst (ix2 p k))
    (hwl : wl' = wl) (hbl : bl' = bl) (hwr : wr' = wr) :
    sage m mean' xdst' wl' bl' wr' (ix2 p' q) = sage n mean xdst wl bl wr (ix2 p q) := by
  subst hwl hbl hwr
  have hpre : ∀ j : Fin 128, sagePre m mean' xdst' wl' bl' wr' p' j = sagePre n mean xdst wl' bl' wr' p j := by
    intro j
    unfold sagePre
    simp only [hm, hx]
  rw [sage_apply, sage_apply]
  unfold sageNorm
  simp only [hpre]

/-- A block of `b` rows: the layer on the block, at a block index `j`, is the layer on the whole arrays at the array
    index `i` that lies `b · t` rows further down in the same column, when the block's `mean` and `xdst` are those
    rows of the arrays' (`hm`, `hx`) and the weights and the bias are the same. -/
theorem sage_block {n b : Nat} (M X : FVec Ideal ⟨2, ![n, 128]⟩ .f32) (m x : FVec Ideal ⟨2, ![b, 128]⟩ .f32)
    (wl : FVec Ideal ⟨2, ![128, 128]⟩ .f32) (bl : FVec Ideal ⟨2, ![1, 128]⟩ .f32) (wr : FVec Ideal ⟨2, ![128, 128]⟩ .f32)
    (t : Nat) (j : (⟨2, ![b, 128]⟩ : Shape).Idx) (i : (⟨2, ![n, 128]⟩ : Shape).Idx)
    (hi0 : (i 0).val = b * t + (j 0).val) (hi1 : (i 1).val = (j 1).val)
    (hm : ∀ (y : (⟨2, ![b, 128]⟩ : Shape).Idx) (k : (⟨2, ![n, 128]⟩ : Shape).Idx),
      (k 0).val = b * t + (y 0).val → (k 1).val = (y 1).val → m y = M k)
    (hx : ∀ (y : (⟨2, ![b, 128]⟩ : Shape).Idx) (k : (⟨2, ![n, 128]⟩ : Shape).Idx),
      (k 0).val = b * t + (y 0).val → (k 1).val = (y 1).val → x y = X k) :
    sage b m x wl bl wr j = sage n M X wl bl wr i := by
  obtain ⟨p', q, rfl⟩ : ∃ (p' : Fin b) (q : Fin 128), j = ix2 p' q := ⟨j 0, j 1, eq_ix2 j⟩
  obtain ⟨p, q', rfl⟩ : ∃ (p : Fin n) (q' : Fin 128), i = ix2 p q' := ⟨i 0, i 1, eq_ix2 i⟩
  obtain rfl : q' = q := Fin.ext hi1
  exact sage_local M X m x wl wl bl bl wr wr p p' q' (fun k => hm (ix2 p' k) (ix2 p k) hi0 rfl)
    (fun k => hx (ix2 p' k) (ix2 p k) hi0 rfl) rfl rfl rfl

/-! ## Layout operations in column form, read at coordinates -/

section Layout
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum over the second axis of an `[n, d]` vector, read at row `p`, is the sum of that row. -/
theorem rowSum_apply {n d : ℕ} (src : FVec Ideal ⟨2, ![n, d]⟩ .f32) (acc : BitVec (FTy.bits .f32))
    (h : (⟨2, ![n, d]⟩ : Shape).Reduces [1] ⟨1, ![n]⟩) (hφ : FKind.Formats .f32)
    (hacc : acc = FKind.add.neutral .f32 hφ) (p : Fin n) :
    multiReduction .add [1] ⟨1, ![n]⟩ src acc h hφ hacc (ix1 p) = ∑ k : Fin d, src (ix2 p k) := by
  refine (Ideal.multiReduction_add_single src acc h hφ hacc (ix1 p)).trans ?_
  show ∑ k : Fin d, src (h.lift (ix1 p) k) = _
  refine Finset.sum_congr rfl fun k _ => congrArg src ?_
  funext c
  apply Fin.ext
  match c with
  | ⟨0, _⟩ => rfl
  | ⟨1, _⟩ => rfl

/-! ## The vector operations after the two products -/

/-- Given the two products index by index (`hA`, `hB`), the chain that follows them — add, add the bias row broadcast
    over the rows, square, sum each row, take the square root of the column of sums, bound it below by `ε`, broadcast the
    column over the row, divide — is `sage`. -/
theorem sage_of_products {n : Nat} (mean xdst : FVec Ideal ⟨2, ![n, 128]⟩ .f32) (wl : FVec Ideal ⟨2, ![128, 128]⟩ .f32)
    (bl : FVec Ideal ⟨2, ![1, 128]⟩ .f32) (wr : FVec Ideal ⟨2, ![128, 128]⟩ .f32)
    (A B : FVec Ideal ⟨2, ![n, 128]⟩ .f32)
    (hA : ∀ (p : Fin n) (q : Fin 128), A (ix2 p q) = ∑ k : Fin 128, mean (ix2 p k) * wl (ix2 q k))
    (hB : ∀ (p : Fin n) (q : Fin 128), B (ix2 p q) = ∑ k : Fin 128, xdst (ix2 p k) * wr (ix2 q k))
    (hb1 : (⟨2, ![1, 128]⟩ : Shape).ShapeCasts ⟨2, ![1, 128]⟩)
    (hb2 : (⟨2, ![1, 128]⟩ : Shape).Broadcasts ⟨2, ![n, 128]⟩)
    (hred : (⟨2, ![n, 128]⟩ : Shape).Reduces [1] ⟨1, ![n]⟩)
    (hφ : FKind.Formats .f32) (hacc : (0x00000000#32 : BitVec (FTy.bits .f32)) = FKind.add.neutral .f32 hφ)
    (hsc : (⟨1, ![n]⟩ : Shape).ShapeCasts ⟨2, ![n, 1]⟩)
    (hbc : (⟨2, ![n, 1]⟩ : Shape).Broadcasts ⟨2, ![n, 128]⟩) :
    divf (addf (addf A B) (broadcastTo ⟨2, ![n, 128]⟩ (shapeCast ⟨2, ![1, 128]⟩ bl hb1) hb2))
        (broadcastTo ⟨2, ![n, 128]⟩
          (maximumf
            (sqrt (shapeCast ⟨2, ![n, 1]⟩
              (multiReduction .add [1] ⟨1, ![n]⟩
                (mulf (addf (addf A B) (broadcastTo ⟨2, ![n, 128]⟩ (shapeCast ⟨2, ![1, 128]⟩ bl hb1) hb2))
                  (addf (addf A B) (broadcastTo ⟨2, ![n, 128]⟩ (shapeCast ⟨2, ![1, 128]⟩ bl hb1) hb2)))
                0x00000000#32 hred hφ hacc) hsc))
            (broadcast ⟨2, ![n, 1]⟩ (Scalar.ofBits (F := Ideal) .f32 0x2B8CBCCC#32))) hbc)
      = sage n mean xdst wl bl wr := by
  have hpre : ∀ (p : Fin n) (q : Fin 128),
      (addf (addf A B) (broadcastTo ⟨2, ![n, 128]⟩ (shapeCast ⟨2, ![1, 128]⟩ bl hb1) hb2)) (ix2 p q)
        = sagePre n mean xdst wl bl wr p q := by
    intro p q
    rw [addf_apply, addf_apply, hA, hB, broadcastTo_1b_ab_apply, shapeCast_self]
    rfl
  funext i
  obtain ⟨p, q, rfl⟩ : ∃ (p : Fin n) (q : Fin 128), i = ix2 p q := ⟨i 0, i 1, eq_ix2 i⟩
  rw [sage_apply, divf_apply, hpre, broadcastTo_a1_ab_apply, maximumf_apply]
  unfold sageNorm
  congr 2
  show Ideal.sqrt (shapeCast ⟨2, ![n, 1]⟩ _ hsc (ix2 p (0 : Fin 1))) = _
  rw [shapeCast_a_a1_apply, rowSum_apply]
  congr 1
  refine Finset.sum_congr rfl fun j _ => ?_
  rw [mulf_apply, hpre]

/-! ## The reference's arrangement: host operations read at coordinates, and its chain after the two products -/

section HostLayout
variable {α : Type}

/-- A vector `[b]` broadcast along axis 1 into the one row `[1, b]` reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A vector `[a]` broadcast along axis 0 into the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` broadcast over `[a, b]` reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end HostLayout

/-- The host's sum over the second axis of an `[n, d]` array from a rank-0 initial value, read at row `p`: the initial
    value plus the sum of that row. -/
theorem hostRowSum_apply {n d : ℕ} (src : FVec Ideal ⟨2, ![n, d]⟩ .f32) (init : (⟨0, ![]⟩ : Shape).Idx → Ideal .f32)
    (h' : (⟨2, ![n, d]⟩ : Shape).ReducesTo [1] ⟨1, ![n]⟩) (hu : 0 < (⟨0, ![]⟩ : Shape).numel) (p : Fin n) :
    Host.reduceAdd src init h' hu (ix1 p) = init (Shape.Idx.first hu) + ∑ k : Fin d, src (ix2 p k) := by
  have h : (⟨2, ![n, d]⟩ : Shape).Reduces [1] ⟨1, ![n]⟩ := match h' with | ⟨e, hs⟩ => ⟨e, Nat.one_pos, hs⟩
  rw [hostReduceAdd_apply, Ideal.hostReduceAdd_single h' h]
  congr 1
  show ∑ k : Fin d, src (h.lift (ix1 p) k) = _
  refine Finset.sum_congr rfl fun k _ => congrArg src ?_
  funext c
  apply Fin.ext
  match c with
  | ⟨0, _⟩ => rfl
  | ⟨1, _⟩ => rfl

/-- The reference's chain after its two products (`hA`, `hB`): the bias vector laid along one row and then down the
    rows is added to the first product BEFORE the second — `(A + bl) + B` —, each row's squares are summed by the host from
    a zero initial value, the column of sums goes through the square root, is bounded below by `ε` and divides the rows.
    It is `sage` at the bias row `[1, 128]` cast from the vector: `(A + bl) + B = (A + B) + bl` in the extended reals'
    commutative addition, and the host's sum from zero is the sum. -/
theorem sage_of_host_products {n : Nat} (mean xdst : FVec Ideal ⟨2, ![n, 128]⟩ .f32) (wl : FVec Ideal ⟨2, ![128, 128]⟩ .f32)
    (blv : FVec Ideal ⟨1, ![128]⟩ .f32) (wr : FVec Ideal ⟨2, ![128, 128]⟩ .f32)
    (A B : FVec Ideal ⟨2, ![n, 128]⟩ .f32)
    (hA : ∀ (p : Fin n) (q : Fin 128), A (ix2 p q) = ∑ k : Fin 128, mean (ix2 p k) * wl (ix2 q k))
    (hB : ∀ (p : Fin n) (q : Fin 128), B (ix2 p q) = ∑ k : Fin 128, xdst (ix2 p k) * wr (ix2 q k))
    (hb1 : (⟨1, ![128]⟩ : Shape).BroadcastsInDim ⟨2, ![1, 128]⟩ ![1])
    (hb2 : (⟨2, ![1, 128]⟩ : Shape).BroadcastsInDim ⟨2, ![n, 128]⟩ ![0, 1])
    (hred : (⟨2, ![n, 128]⟩ : Shape).ReducesTo [1] ⟨1, ![n]⟩) (hu : 0 < (⟨0, ![]⟩ : Shape).numel)
    (hb3 : (⟨1, ![n]⟩ : Shape).BroadcastsInDim ⟨2, ![n, 1]⟩ ![0])
    (hb4 : (⟨0, ![]⟩ : Shape).BroadcastsInDim ⟨2, ![n, 1]⟩ ![])
    (hb5 : (⟨2, ![n, 1]⟩ : Shape).BroadcastsInDim ⟨2, ![n, 128]⟩ ![0, 1])
    (hsc : (⟨1, ![128]⟩ : Shape).ShapeCasts ⟨2, ![1, 128]⟩) :
    Host.divf
        (addf (addf A (broadcastInDim ⟨2, ![n, 128]⟩ ![0, 1] hb2 (broadcastInDim ⟨2, ![1, 128]⟩ ![1] hb1 blv))) B)
        (broadcastInDim ⟨2, ![n, 128]⟩ ![0, 1] hb5
          (maximumf
            (Host.sqrt (broadcastInDim ⟨2, ![n, 1]⟩ ![0] hb3
              (Host.reduceAdd
                (mulf
                  (addf (addf A (broadcastInDim ⟨2, ![n, 128]⟩ ![0, 1] hb2 (broadcastInDim ⟨2, ![1, 128]⟩ ![1] hb1 blv))) B)
                  (addf (addf A (broadcastInDim ⟨2, ![n, 128]⟩ ![0, 1] hb2 (broadcastInDim ⟨2, ![1, 128]⟩ ![1] hb1 blv))) B))
                (constant (F := Ideal) ⟨0, ![]⟩ .f32 0x00000000#32) hred hu)))
            (broadcastInDim ⟨2, ![n, 1]⟩ ![] hb4 (constant (F := Ideal) ⟨0, ![]⟩ .f32 0x2B8CBCCC#32))))
      = sage n mean xdst wl (shapeCast ⟨2, ![1, 128]⟩ blv hsc) wr := by
  have hpre : ∀ (p : Fin n) (q : Fin 128),
      (addf (addf A (broadcastInDim ⟨2, ![n, 128]⟩ ![0, 1] hb2 (broadcastInDim ⟨2, ![1, 128]⟩ ![1] hb1 blv))) B) (ix2 p q)
        = sagePre n mean xdst wl (shapeCast ⟨2, ![1, 128]⟩ blv hsc) wr p q := by
    intro p q
    rw [addf_apply, addf_apply, hA, hB, broadcastInDim_oneRow_apply, broadcastInDim_b_1b_apply]
    unfold sagePre
    rw [shapeCast_a_1a_apply, add_right_comm]
  funext i
  obtain ⟨p, q, rfl⟩ : ∃ (p : Fin n) (q : Fin 128), i = ix2 p q := ⟨i 0, i 1, eq_ix2 i⟩
  rw [sage_apply, hostDivf_apply, hpre, broadcastInDim_a1_ab_apply, maximumf_apply]
  unfold sageNorm
  congr 2
  show Ideal.sqrt (broadcastInDim (s := ⟨1, ![n]⟩) ⟨2, ![n, 1]⟩ ![0] hb3 _ (ix2 p (0 : Fin 1))) = _
  rw [broadcastInDim_a_a1_apply, hostRowSum_apply, constant_apply, Ideal.ofBits_zero_f32, zero_add]
  congr 1
  refine Finset.sum_congr rfl fun j _ => ?_
  rw [mulf_apply, hpre]

end Cert.Spec

end
-- ==== Proof.SageK2.lean ====
import proofs.«143223_j29772713296000_1_alg».proof.Proof.Gen.KernelIdeal.Frame
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout

/-!
A dense GraphSAGE layer of output width 128 on 100000 rows: what the region's result array holds when the region ends,
as the function `Cert.Spec.sage` of the five arrays the region finds. The body's two products are read at an index (the
operand indices of the contraction axis by axis, the contraction re-indexed by its one coordinate), the rest of the body
is the chain `Cert.Spec.sage_of_products` reads, each grid point's row block is the rows `5000 t … 5000 t + 4999` of the
arrays while the weights and the bias are whole, and the 20 row blocks cover the array.
-/

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-! ## The products' operand indices, axis by axis -/

theorem sage2_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sage2_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem sage2_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem sage2_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator at row `p`, column `q`: the sum over the contracted axis. -/
theorem sage2_matmul_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact sage2_lhs_0 _ _
      | ⟨1, _⟩ => exact (sage2_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (sage2_rhs_0 _ _).trans hk
      | ⟨1, _⟩ => exact sage2_rhs_1 _ _)
  rw [el, er]

/-- One product of the layer as the body writes it — both operands cast to their own shape and narrowed (the identity at
    the extended reals), the weight transposed — at row `p`, column `q`: `Σ_k x p k · w q k`. -/
theorem sage2_product (x : Vec Ideal S5000x128 .f32) (w : Vec Ideal S128x128 .f32)
    (h1 : S5000x128.ShapeCasts S5000x128) (h2 : S128x128.ShapeCasts S128x128) (hb : FTy.bits .bf16 < FTy.bits .f32)
    (ht : S128x128.Transposes [1, 0] S128x128) (p : Fin 5000) (q : Fin 128) :
    matmul dot_S5000x128_S128x128_S5000x128_1_0_0_1_n_n none
        (truncf .bf16 (shapeCast S5000x128 x h1) hb : FVec Ideal S5000x128 .bf16)
        (transpose S128x128 [1, 0] (truncf .bf16 (shapeCast S128x128 w h2) hb : FVec Ideal S128x128 .bf16) ht)
        (constant S5000x128 .f32 0x00000000#32) (ix2 p q)
      = ∑ k : Fin 128, x (ix2 p k) * w (ix2 q k) := by
  rw [sage2_matmul_apply]
  refine Finset.sum_congr rfl fun k _ => ?_
  rw [transpose_ix2_apply, truncf_apply, truncf_apply, shapeCast_self, shapeCast_self]

/-! ## The body's value -/

/-- What the body stores, as a function of the five blocks it loads: the layer on a block of 5000 rows. -/
theorem sage2_pay_eq (x0 x1 : Vec Ideal S5000x128 .f32) (x2 x4 : Vec Ideal S128x128 .f32) (x3 : Vec Ideal S1x128 .f32) :
    k2_pay1 (F := Ideal) x0 x1 x2 x4 x3 = Cert.Spec.sage 5000 x0 x1 x2 x3 x4 := by
  unfold k2_pay1
  exact Cert.Spec.sage_of_products x0 x1 x2 x3 x4 _ _
    (fun p q => sage2_product x0 x2 _ _ _ _ p q) (fun p q => sage2_product x1 x4 _ _ _ _ p q) _ _ _ _ _ _ _

/-! ## From the row blocks to the array -/

section Region
variable (V : (c : Dev nD) → (b : Ref sig .tc) → Buf (Elt Ideal) ((c : Thread nD τ).loc b))

theorem sage2_hz : (![0, 0] : Fin 2 → Nat) = fun _ => 0 := funext fun a => by fin_cases a <;> rfl

/-- The printed index maps over the grid: `mean`, `xdst` and the result move one row block per point, the weights and
    the bias stay at block (0, 0). -/
theorem sage2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of `mean` at point `t` is rows `5000 t … 5000 t + 4999` of the array. -/
theorem sage2_iblk0_apply (c : Dev nD) (t : Fin cfg2.N) (y : S5000x128.Idx) (k : S100000x128.Idx)
    (hk0 : (k 0).val = 5000 * t.val + (y 0).val) (hk1 : (k 1).val = (y 1).val) :
    (iblk2 V c 0 t : Vec Ideal S5000x128 .f32) y = (V c main_v28 : S100000x128.Idx → Elt Ideal .f32) k := by
  obtain ⟨e0, e1, -⟩ := sage2_idx_facts t
  show (V c main_v28 : S100000x128.Idx → Elt Ideal .f32) (((cfg2.win 0).blk t).view.emb y) = _
  refine congrArg (V c main_v28 : S100000x128.Idx → Elt Ideal .f32) (funext fun a => Fin.ext ?_)
  match a with
  | ⟨0, _⟩ => show win2_0.index t (0 : Fin 2) * 5000 + 1 * (y 0).val = (k 0).val; omega
  | ⟨1, _⟩ => show win2_0.index t (1 : Fin 2) * 128 + 1 * (y 1).val = (k 1).val; omega

/-- The block of `xdst` at point `t` likewise. -/
theorem sage2_iblk1_apply (c : Dev nD) (t : Fin cfg2.N) (y : S5000x128.Idx) (k : S100000x128.Idx)
    (hk0 : (k 0).val = 5000 * t.val + (y 0).val) (hk1 : (k 1).val = (y 1).val) :
    (iblk2 V c 1 t : Vec Ideal S5000x128 .f32) y = (V c main_v3 : S100000x128.Idx → Elt Ideal .f32) k := by
  obtain ⟨-, -, e0, e1, -⟩ := sage2_idx_facts t
  show (V c main_v3 : S100000x128.Idx → Elt Ideal .f32) (((cfg2.win 1).blk t).view.emb y) = _
  refine congrArg (V c main_v3 : S100000x128.Idx → Elt Ideal .f32) (funext fun a => Fin.ext ?_)
  match a with
  | ⟨0, _⟩ => show win2_1.index t (0 : Fin 2) * 5000 + 1 * (y 0).val = (k 0).val; omega
  | ⟨1, _⟩ => show win2_1.index t (1 : Fin 2) * 128 + 1 * (y 1).val = (k 1).val; omega

/-- The block of the left weight is the whole array at every point. -/
theorem sage2_iblk2_eq (c : Dev nD) (t : Fin cfg2.N) :
    (iblk2 V c 2 t : Vec Ideal S128x128 .f32) = (V c main_v30 : S128x128.Idx → Elt Ideal .f32) := by
  obtain ⟨-, -, -, -, e0, e1, -⟩ := sage2_idx_facts t
  funext y
  show (V c main_v30 : S128x128.Idx → Elt Ideal .f32) (((cfg2.win 2).blk t).view.emb y) = _
  refine congrArg (V c main_v30 : S128x128.Idx → Elt Ideal .f32) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The block of the bias row is the whole array at every point. -/
theorem sage2_iblk3_eq (c : Dev nD) (t : Fin cfg2.N) :
    (iblk2 V c 3 t : Vec Ideal S1x128 .f32) = (V c main_v35 : S1x128.Idx → Elt Ideal .f32) := by
  obtain ⟨-, -, -, -, -, -, e0, e1, -⟩ := sage2_idx_facts t
  funext y
  show (V c main_v35 : S1x128.Idx → Elt Ideal .f32) (((cfg2.win 3).blk t).view.emb y) = _
  refine congrArg (V c main_v35 : S1x128.Idx → Elt Ideal .f32) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The block of the right weight is the whole array at every point. -/
theorem sage2_iblk4_eq (c : Dev nD) (t : Fin cfg2.N) :
    (iblk2 V c 4 t : Vec Ideal S128x128 .f32) = (V c main_v34 : S128x128.Idx → Elt Ideal .f32) := by
  obtain ⟨-, -, -, -, -, -, -, -, e0, e1, -⟩ := sage2_idx_facts t
  funext y
  show (V c main_v34 : S128x128.Idx → Elt Ideal .f32) (((cfg2.win 4).blk t).view.emb y) = _
  refine congrArg (V c main_v34 : S128x128.Idx → Elt Ideal .f32) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- WHAT POINT `t` WRITES BACK is row block `t` of the layer on the arrays as the region finds them. -/
theorem sage2_flushed (c : Dev nD) (t : Fin cfg2.N) :
    (dat2 (F := Ideal) V c).flushed 5 t = ((cfg2.win 5).blk t).view.read (Elt Ideal)
      (Cert.Spec.sage 100000 (V c main_v28) (V c main_v3) (V c main_v30) (V c main_v35) (V c main_v34)) := by
  show (cfg2.win 5).cut (grid2.coords t) ((dat2 (F := Ideal) V c).after 5 t) = _
  rw [after2_5]
  unfold out2_5
  rw [View.canon_unit_zero sage2_hz]
  simp only [View.ld_unit_zero (S := S5000x128) sage2_hz, View.ld_unit_zero (S := S128x128) sage2_hz,
    View.ld_unit_zero (S := S1x128) sage2_hz]
  rw [sage2_pay_eq, sage2_iblk2_eq V c t, sage2_iblk3_eq V c t, sage2_iblk4_eq V c t]
  obtain ⟨-, -, -, -, -, -, -, -, -, -, e0, e1⟩ := sage2_idx_facts t
  funext j
  show Cert.Spec.sage 5000 (iblk2 V c 0 t) (iblk2 V c 1 t) (V c main_v30) (V c main_v35) (V c main_v34) j
    = Cert.Spec.sage 100000 (V c main_v28) (V c main_v3) (V c main_v30) (V c main_v35) (V c main_v34)
        (((cfg2.win 5).blk t).view.emb j)
  refine Cert.Spec.sage_block _ _ _ _ _ _ _ t.val j _ ?_ ?_
    (fun y k hk0 hk1 => sage2_iblk0_apply V c t y k hk0 hk1) (fun y k hk0 hk1 => sage2_iblk1_apply V c t y k hk0 hk1)
  · show win2_5.index t (0 : Fin 2) * 5000 + 1 * (j 0).val = 5000 * t.val + (j 0).val; omega
  · show win2_5.index t (1 : Fin 2) * 128 + 1 * (j 1).val = (j 1).val; omega

/-- An index of the array is in point `t`'s row block iff each coordinate is in the block's range on its axis. -/
theorem sage2_mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v36).slice (win2_5.rect t)).set ↔ _
  rw [View.set_slice_whole, Rect.mem_set_unit]
  exact Iff.rfl

/-- The 20 row blocks cover the array: row `r` lies in the block of point `r / 5000`. -/
theorem sage2_cover (i : S100000x128.Idx) :
    ∃ t : Fin cfg2.N, (cfg2.win 5).flush t = true ∧ i ∈ ((cfg2.win 5).blk t).view.set := by
  have h0 : (i 0).val < 100000 := (i 0).isLt
  have h1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, e0, e1⟩ := sage2_idx_facts t
  refine ⟨t, flush2_5 t, ?_⟩
  rw [sage2_mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- THE RESULT ARRAY when the region ends: the layer on the five arrays the region finds. -/
theorem reg2_val (c : Dev nD) :
    (dat2 (F := Ideal) V c).arrAt 5 cfg2.N
      = Cert.Spec.sage 100000 (V c main_v28) (V c main_v3) (V c main_v30) (V c main_v35) (V c main_v34) :=
  (dat2 (F := Ideal) V c).arrAt_eq_of_cover 5 _ (fun t _ => sage2_flushed V c t) sage2_cover

end Region

end Cert.KernelIdeal.Gen

end
-- ==== Proof.SageK3.lean ====
import proofs.«143223_j29772713296000_1_alg».proof.Proof.Gen.KernelIdeal.Frame
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout

/-!
A dense GraphSAGE layer of output width 128 on 200000 rows: what the region's result array holds when the region ends,
as the function `Cert.Spec.sage` of the five arrays the region finds. The body's two products are read at an index (the
operand indices of the contraction axis by axis, the contraction re-indexed by its one coordinate), the rest of the body
is the chain `Cert.Spec.sage_of_products` reads, each grid point's row block is the rows `5000 t … 5000 t + 4999` of the
arrays while the weights and the bias are whole, and the 40 row blocks cover the array.
-/

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-! ## The products' operand indices, axis by axis -/

theorem sage3_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sage3_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem sage3_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem sage3_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator at row `p`, column `q`: the sum over the contracted axis. -/
theorem sage3_matmul_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact sage3_lhs_0 _ _
      | ⟨1, _⟩ => exact (sage3_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (sage3_rhs_0 _ _).trans hk
      | ⟨1, _⟩ => exact sage3_rhs_1 _ _)
  rw [el, er]

/-- One product of the layer as the body writes it — both operands cast to their own shape and narrowed (the identity at
    the extended reals), the weight transposed — at row `p`, column `q`: `Σ_k x p k · w q k`. -/
theorem sage3_product (x : Vec Ideal S5000x128 .f32) (w : Vec Ideal S128x128 .f32)
    (h1 : S5000x128.ShapeCasts S5000x128) (h2 : S128x128.ShapeCasts S128x128) (hb : FTy.bits .bf16 < FTy.bits .f32)
    (ht : S128x128.Transposes [1, 0] S128x128) (p : Fin 5000) (q : Fin 128) :
    matmul dot_S5000x128_S128x128_S5000x128_1_0_0_1_n_n none
        (truncf .bf16 (shapeCast S5000x128 x h1) hb : FVec Ideal S5000x128 .bf16)
        (transpose S128x128 [1, 0] (truncf .bf16 (shapeCast S128x128 w h2) hb : FVec Ideal S128x128 .bf16) ht)
        (constant S5000x128 .f32 0x00000000#32) (ix2 p q)
      = ∑ k : Fin 128, x (ix2 p k) * w (ix2 q k) := by
  rw [sage3_matmul_apply]
  refine Finset.sum_congr rfl fun k _ => ?_
  rw [transpose_ix2_apply, truncf_apply, truncf_apply, shapeCast_self, shapeCast_self]

/-! ## The body's value -/

/-- What the body stores, as a function of the five blocks it loads: the layer on a block of 5000 rows. -/
theorem sage3_pay_eq (x0 x1 : Vec Ideal S5000x128 .f32) (x2 x4 : Vec Ideal S128x128 .f32) (x3 : Vec Ideal S1x128 .f32) :
    k3_pay1 (F := Ideal) x0 x1 x2 x4 x3 = Cert.Spec.sage 5000 x0 x1 x2 x3 x4 := by
  unfold k3_pay1
  exact Cert.Spec.sage_of_products x0 x1 x2 x3 x4 _ _
    (fun p q => sage3_product x0 x2 _ _ _ _ p q) (fun p q => sage3_product x1 x4 _ _ _ _ p q) _ _ _ _ _ _ _

/-! ## From the row blocks to the array -/

section Region
variable (V : (c : Dev nD) → (b : Ref sig .tc) → Buf (Elt Ideal) ((c : Thread nD τ).loc b))

theorem sage3_hz : (![0, 0] : Fin 2 → Nat) = fun _ => 0 := funext fun a => by fin_cases a <;> rfl

/-- The printed index maps over the grid: `mean`, `xdst` and the result move one row block per point, the weights and
    the bias stay at block (0, 0). -/
theorem sage3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The block of `mean` at point `t` is rows `5000 t … 5000 t + 4999` of the array. -/
theorem sage3_iblk0_apply (c : Dev nD) (t : Fin cfg3.N) (y : S5000x128.Idx) (k : S200000x128.Idx)
    (hk0 : (k 0).val = 5000 * t.val + (y 0).val) (hk1 : (k 1).val = (y 1).val) :
    (iblk3 V c 0 t : Vec Ideal S5000x128 .f32) y = (V c main_v61 : S200000x128.Idx → Elt Ideal .f32) k := by
  obtain ⟨e0, e1, -⟩ := sage3_idx_facts t
  show (V c main_v61 : S200000x128.Idx → Elt Ideal .f32) (((cfg3.win 0).blk t).view.emb y) = _
  refine congrArg (V c main_v61 : S200000x128.Idx → Elt Ideal .f32) (funext fun a => Fin.ext ?_)
  match a with
  | ⟨0, _⟩ => show win3_0.index t (0 : Fin 2) * 5000 + 1 * (y 0).val = (k 0).val; omega
  | ⟨1, _⟩ => show win3_0.index t (1 : Fin 2) * 128 + 1 * (y 1).val = (k 1).val; omega

/-- The block of `xdst` at point `t` likewise. -/
theorem sage3_iblk1_apply (c : Dev nD) (t : Fin cfg3.N) (y : S5000x128.Idx) (k : S200000x128.Idx)
    (hk0 : (k 0).val = 5000 * t.val + (y 0).val) (hk1 : (k 1).val = (y 1).val) :
    (iblk3 V c 1 t : Vec Ideal S5000x128 .f32) y = (V c main_v1 : S200000x128.Idx → Elt Ideal .f32) k := by
  obtain ⟨-, -, e0, e1, -⟩ := sage3_idx_facts t
  show (V c main_v1 : S200000x128.Idx → Elt Ideal .f32) (((cfg3.win 1).blk t).view.emb y) = _
  refine congrArg (V c main_v1 : S200000x128.Idx → Elt Ideal .f32) (funext fun a => Fin.ext ?_)
  match a with
  | ⟨0, _⟩ => show win3_1.index t (0 : Fin 2) * 5000 + 1 * (y 0).val = (k 0).val; omega
  | ⟨1, _⟩ => show win3_1.index t (1 : Fin 2) * 128 + 1 * (y 1).val = (k 1).val; omega

/-- The block of the left weight is the whole array at every point. -/
theorem sage3_iblk2_eq (c : Dev nD) (t : Fin cfg3.N) :
    (iblk3 V c 2 t : Vec Ideal S128x128 .f32) = (V c main_v63 : S128x128.Idx → Elt Ideal .f32) := by
  obtain ⟨-, -, -, -, e0, e1, -⟩ := sage3_idx_facts t
  funext y
  show (V c main_v63 : S128x128.Idx → Elt Ideal .f32) (((cfg3.win 2).blk t).view.emb y) = _
  refine congrArg (V c main_v63 : S128x128.Idx → Elt Ideal .f32) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The block of the bias row is the whole array at every point. -/
theorem sage3_iblk3_eq (c : Dev nD) (t : Fin cfg3.N) :
    (iblk3 V c 3 t : Vec Ideal S1x128 .f32) = (V c main_v68 : S1x128.Idx → Elt Ideal .f32) := by
  obtain ⟨-, -, -, -, -, -, e0, e1, -⟩ := sage3_idx_facts t
  funext y
  show (V c main_v68 : S1x128.Idx → Elt Ideal .f32) (((cfg3.win 3).blk t).view.emb y) = _
  refine congrArg (V c main_v68 : S1x128.Idx → Elt Ideal .f32) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The block of the right weight is the whole array at every point. -/
theorem sage3_iblk4_eq (c : Dev nD) (t : Fin cfg3.N) :
    (iblk3 V c 4 t : Vec Ideal S128x128 .f32) = (V c main_v67 : S128x128.Idx → Elt Ideal .f32) := by
  obtain ⟨-, -, -, -, -, -, -, -, e0, e1, -⟩ := sage3_idx_facts t
  funext y
  show (V c main_v67 : S128x128.Idx → Elt Ideal .f32) (((cfg3.win 4).blk t).view.emb y) = _
  refine congrArg (V c main_v67 : S128x128.Idx → Elt Ideal .f32) (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- WHAT POINT `t` WRITES BACK is row block `t` of the layer on the arrays as the region finds them. -/
theorem sage3_flushed (c : Dev nD) (t : Fin cfg3.N) :
    (dat3 (F := Ideal) V c).flushed 5 t = ((cfg3.win 5).blk t).view.read (Elt Ideal)
      (Cert.Spec.sage 200000 (V c main_v61) (V c main_v1) (V c main_v63) (V c main_v68) (V c main_v67)) := by
  show (cfg3.win 5).cut (grid3.coords t) ((dat3 (F := Ideal) V c).after 5 t) = _
  rw [after3_5]
  unfold out3_5
  rw [View.canon_unit_zero sage3_hz]
  simp only [View.ld_unit_zero (S := S5000x128) sage3_hz, View.ld_unit_zero (S := S128x128) sage3_hz,
    View.ld_unit_zero (S := S1x128) sage3_hz]
  rw [sage3_pay_eq, sage3_iblk2_eq V c t, sage3_iblk3_eq V c t, sage3_iblk4_eq V c t]
  obtain ⟨-, -, -, -, -, -, -, -, -, -, e0, e1⟩ := sage3_idx_facts t
  funext j
  show Cert.Spec.sage 5000 (iblk3 V c 0 t) (iblk3 V c 1 t) (V c main_v63) (V c main_v68) (V c main_v67) j
    = Cert.Spec.sage 200000 (V c main_v61) (V c main_v1) (V c main_v63) (V c main_v68) (V c main_v67)
        (((cfg3.win 5).blk t).view.emb j)
  refine Cert.Spec.sage_block _ _ _ _ _ _ _ t.val j _ ?_ ?_
    (fun y k hk0 hk1 => sage3_iblk0_apply V c t y k hk0 hk1) (fun y k hk0 hk1 => sage3_iblk1_apply V c t y k hk0 hk1)
  · show win3_5.index t (0 : Fin 2) * 5000 + 1 * (j 0).val = 5000 * t.val + (j 0).val; omega
  · show win3_5.index t (1 : Fin 2) * 128 + 1 * (j 1).val = (j 1).val; omega

/-- An index of the array is in point `t`'s row block iff each coordinate is in the block's range on its axis. -/
theorem sage3_mem_blk (t : Fin cfg3.N) (i : S200000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v69).slice (win3_5.rect t)).set ↔ _
  rw [View.set_slice_whole, Rect.mem_set_unit]
  exact Iff.rfl

/-- The 40 row blocks cover the array: row `r` lies in the block of point `r / 5000`. -/
theorem sage3_cover (i : S200000x128.Idx) :
    ∃ t : Fin cfg3.N, (cfg3.win 5).flush t = true ∧ i ∈ ((cfg3.win 5).blk t).view.set := by
  have h0 : (i 0).val < 200000 := (i 0).isLt
  have h1 : (i 1).val < 128 := (i 1).isLt
  obtain ⟨t, ht⟩ : ∃ t : Fin cfg3.N, t.val = (i 0).val / 5000 :=
    ⟨⟨(i 0).val / 5000, by rw [show cfg3.N = 40 from N_3]; omega⟩, rfl⟩
  obtain ⟨-, -, -, -, -, -, -, -, -, -, e0, e1⟩ := sage3_idx_facts t
  refine ⟨t, flush3_5 t, ?_⟩
  rw [sage3_mem_blk]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- THE RESULT ARRAY when the region ends: the layer on the five arrays the region finds. -/
theorem reg3_val (c : Dev nD) :
    (dat3 (F := Ideal) V c).arrAt 5 cfg3.N
      = Cert.Spec.sage 200000 (V c main_v61) (V c main_v1) (V c main_v63) (V c main_v68) (V c main_v67) :=
  (dat3 (F := Ideal) V c).arrAt_eq_of_cover 5 _ (fun t _ => sage3_flushed V c t) sage3_cover

end Region

end Cert.KernelIdeal.Gen

end
-- ==== Proof.SageK4.lean ====
import proofs.«143223_j29772713296000_1_alg».proof.Proof.Gen.KernelIdeal.Frame
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout

/-!
A dense GraphSAGE layer of output width 128 on 200000 rows: what the region's result array holds when the region ends,
as the function `Cert.Spec.sage` of the five arrays the region finds. The body's two products are read at an index (the
operand indices of the contraction axis by axis, the contraction re-indexed by its one coordinate), the rest of the body
is the chain `Cert.Spec.sage_of_products` reads, each grid point's row block is the rows `5000 t … 5000 t + 4999` of the
arrays while the weights and the bias are whole, and the 40 row blocks cover the array.
-/

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-! ## The products' operand indices, axis by axis -/

theorem sage4_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sage4_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem sage4_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem sage4_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator at row `p`, column `q`: the sum over the contracted axis. -/
theorem sage4_matmul_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact sage4_lhs_0 _ _
      | ⟨1, _⟩ => exact (sage4_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (sage4_rhs_0 _ _).trans hk
      | ⟨1, _⟩ => exact sage4_rhs_1 _ _)
  rw [el, er]

/-- One product of the layer as the body writes it — both operands cast to their own shape and narrowed (the identity at
    the extended reals), the weight transposed — at row `p`, column `q`: `Σ_k x p k · w q k`. -/
theorem sage4_product (x : Vec Ideal S5000x128 .f32) (w : Vec Ideal S128x128 .f32)
    (h1 : S5000x128.ShapeCasts S5000x128) (h2 : S128x128.ShapeCasts S128x128) (hb : FTy.bits .bf16 < FTy.bits .f32)
    (ht : S128x128.Transposes [1, 0] S128x128) (p : Fin 5000) (q : Fin 128) :
    matmul dot_S5000x128_S128x128_S5000x128_1_0_0_1_n_n none
        (truncf .bf16 (shapeCast S5000x128 x h1) hb : FVec Ideal S5000x128 .bf16)
        (transpose S128x128 [1, 0] (truncf .bf16 (shapeCast S128x128 w h2) hb : FVec Ideal S128x128 .bf16) ht)
        (constant S5000x128 .f32 0x00000000#32) (ix2 p q)
      = ∑ k : Fin 128, x (ix2 p k) * w (ix2 q k) := by
  rw [sage4_matmul_apply]
  refine Finset.sum_congr rfl fun k _ => ?_
  rw [transpose_ix2_apply, truncf_apply, truncf_apply, shapeCast_self, shapeCast_self]

/-! ## The body's value -/

/-- What the body stores, as a function of the five blocks it loads: the layer on a block of 5000 rows. -/
theorem sage4_pay_eq (x0 x1 : Vec Ideal S5000x128 .f32) (x2 x4 : Vec Ideal S128x128 .f32) (x3 : Vec Ideal S1x128 .f32) :
    k4_pay1 (F := Ideal) x0 x1 x2 x4 x3 = Cert.Spec.sage 5000 x0 x1 x2 x3 x4 := by
  unfold k4_pay1
  exact Cert.Spec.sage_of_products x0 x1 x2 x3 x4 _ _
    (fun p q => sage4_product x0 x2 _ _ _ _ p q) (fun p q => sage4_product x1 x4 _ _ _ _ p q) _ _ _ _ _ _ _

/-! ## From the row blocks to the array -/

section Region
variable (V : (c : Dev nD) → (b : Ref sig .tc) → Buf (Elt Ideal) ((c : Thread nD τ).loc b))

theorem sage4_hz : (![0, 0] : Fin 2 → Nat) = fun _ => 0 := funext fun a => by fin_cases a <;> rfl

/-- The printed index maps over the grid: `mean`, `xdst` and the result move one row block per point, the weights and
    the bias stay at block (0, 0). -/
theorem sage4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The block of `mean` at point `t` is rows `5000 t … 5000 t + 4999` of the array. -/
theorem sage4_iblk0_apply (c : Dev nD) (t : Fin cfg4.N) (y : S5000x128.Idx) (k : S200000x128.Idx)
    (hk0 : (k 0).val = 5000 * t.val + (y 0).val) (hk1 : (k 1).val = (y 1).val) :
    (iblk4 V c 0 t : Vec Ideal S5000x128 .f32) y = (V c main_v94 : S200000x128.Idx → Elt Ideal .f32) k := by
  obtain ⟨e0, e1, -⟩ := sage4_idx_facts t
  show (V c main_v94 : S200000x128.Idx → Elt Ideal .f32) (((cfg4.win 0).blk t).view.emb y) = _
  refine congrArg (V c main_v94 : S200000x128.Idx → Elt Ideal .f32) (funext fun a => Fin.ext ?_)
  match a with
  | ⟨0, _⟩ => show win4_0.index t (0 : Fin 2) * 5000 + 1 * (y 0).val = (k 0).val; omega
  | ⟨1, _⟩ => show win4_0.index t (1 : Fin 2) * 128 + 1 * (y 1).val = (k 1).val; omega

/-- The block of `xdst` at point `t` likewise. -/
theorem sage4_iblk1_apply (c : Dev nD) (t : Fin cfg4.N) (y : S5000x128.Idx) (k : S200000x128.Idx)
    (hk0 : (k 0).val = 5000 * t.val + (y 0).val) (hk1 : (k 1).val = (y 1).val) :
    (iblk4 V c 1 t : Vec Ideal S5000x128 .f32) y = (V c main_v1 : S200000x128.Idx → Elt Ideal .f32) k := by
  obtain ⟨-, -, e0, e1, -⟩ := sage4_idx_facts t
  show (V c main_v1 : S200000x128.Idx → Elt Ideal .f32) (((cfg4.win 1).blk t).view.emb y) = _
  refine congrArg (V c main_v1 : S200000x128.Idx → Elt Ideal .f32) (funext fun a => Fin.ext ?_)
  match a with
  | ⟨0, _⟩ => show win4_1.index t (0 : Fin 2) * 5000 + 1 * (y 0).val = (k 0).val; omega
  | ⟨1, _⟩ => show win4_1.index t (1 : Fin 2) * 128 + 1 * (y 1).val = (k 1).val; omega

/-- The block of the left weight is the whole array at every point. -/
theorem sage4_iblk2_eq (c : Dev nD) (t : Fin cfg4.N) :
    (iblk4 V c 2 t : Vec Ideal S128x128 .f32) = (V c main_v96 : S128x128.Idx → Elt Ideal .f32) := by
  obtain ⟨-, -, -, -, e0, e1, -⟩ := sage4_idx_facts t
  funext y
  show (V c main_v96 : S128x128.Idx → Elt Ideal .f32) (((cfg4.win 2).blk t).view.emb y) = _
  refine congrArg (V c main_v96 : S128x128.Idx → Elt Ideal .f32) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The block of the bias row is the whole array at every point. -/
theorem sage4_iblk3_eq (c : Dev nD) (t : Fin cfg4.N) :
    (iblk4 V c 3 t : Vec Ideal S1x128 .f32) = (V c main_v101 : S1x128.Idx → Elt Ideal .f32) := by
  obtain ⟨-, -, -, -, -, -, e0, e1, -⟩ := sage4_idx_facts t
  funext y
  show (V c main_v101 : S1x128.Idx → Elt Ideal .f32) (((cfg4.win 3).blk t).view.emb y) = _
  refine congrArg (V c main_v101 : S1x128.Idx → Elt Ideal .f32) (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The block of the right weight is the whole array at every point. -/
theorem sage4_iblk4_eq (c : Dev nD) (t : Fin cfg4.N) :
    (iblk4 V c 4 t : Vec Ideal S128x128 .f32) = (V c main_v100 : S128x128.Idx → Elt Ideal .f32) := by
  obtain ⟨-, -, -, -, -, -, -, -, e0, e1, -⟩ := sage4_idx_facts t
  funext y
  show (V c main_v100 : S128x128.Idx → Elt Ideal .f32) (((cfg4.win 4).blk t).view.emb y) = _
  refine congrArg (V c main_v100 : S128x128.Idx → Elt Ideal .f32) (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

/-- WHAT POINT `t` WRITES BACK is row block `t` of the layer on the arrays as the region finds them. -/
theorem sage4_flushed (c : Dev nD) (t : Fin cfg4.N) :
    (dat4 (F := Ideal) V c).flushed 5 t = ((cfg4.win 5).blk t).view.read (Elt Ideal)
      (Cert.Spec.sage 200000 (V c main_v94) (V c main_v1) (V c main_v96) (V c main_v101) (V c main_v100)) := by
  show (cfg4.win 5).cut (grid4.coords t) ((dat4 (F := Ideal) V c).after 5 t) = _
  rw [after4_5]
  unfold out4_5
  rw [View.canon_unit_zero sage4_hz]
  simp only [View.ld_unit_zero (S := S5000x128) sage4_hz, View.ld_unit_zero (S := S128x128) sage4_hz,
    View.ld_unit_zero (S := S1x128) sage4_hz]
  rw [sage4_pay_eq, sage4_iblk2_eq V c t, sage4_iblk3_eq V c t, sage4_iblk4_eq V c t]
  obtain ⟨-, -, -, -, -, -, -, -, -, -, e0, e1⟩ := sage4_idx_facts t
  funext j
  show Cert.Spec.sage 5000 (iblk4 V c 0 t) (iblk4 V c 1 t) (V c main_v96) (V c main_v101) (V c main_v100) j
    = Cert.Spec.sage 200000 (V c main_v94) (V c main_v1) (V c main_v96) (V c main_v101) (V c main_v100)
        (((cfg4.win 5).blk t).view.emb j)
  refine Cert.Spec.sage_block _ _ _ _ _ _ _ t.val j _ ?_ ?_
    (fun y k hk0 hk1 => sage4_iblk0_apply V c t y k hk0 hk1) (fun y k hk0 hk1 => sage4_iblk1_apply V c t y k hk0 hk1)
  · show win4_5.index t (0 : Fin 2) * 5000 + 1 * (j 0).val = 5000 * t.val + (j 0).val; omega
  · show win4_5.index t (1 : Fin 2) * 128 + 1 * (j 1).val = (j 1).val; omega

/-- An index of the array is in point `t`'s row block iff each coordinate is in the block's range on its axis. -/
theorem sage4_mem_blk (t : Fin cfg4.N) (i : S200000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v102).slice (win4_5.rect t)).set ↔ _
  rw [View.set_slice_whole, Rect.mem_set_unit]
  exact Iff.rfl

/-- The 40 row blocks cover the array: row `r` lies in the block of point `r / 5000`. -/
theorem sage4_cover (i : S200000x128.Idx) :
    ∃ t : Fin cfg4.N, (cfg4.win 5).flush t = true ∧ i ∈ ((cfg4.win 5).blk t).view.set := by
  have h0 : (i 0).val < 200000 := (i 0).isLt
  have h1 : (i 1).val < 128 := (i 1).isLt
  obtain ⟨t, ht⟩ : ∃ t : Fin cfg4.N, t.val = (i 0).val / 5000 :=
    ⟨⟨(i 0).val / 5000, by rw [show cfg4.N = 40 from N_4]; omega⟩, rfl⟩
  obtain ⟨-, -, -, -, -, -, -, -, -, -, e0, e1⟩ := sage4_idx_facts t
  refine ⟨t, flush4_5 t, ?_⟩
  rw [sage4_mem_blk]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- THE RESULT ARRAY when the region ends: the layer on the five arrays the region finds. -/
theorem reg4_val (c : Dev nD) :
    (dat4 (F := Ideal) V c).arrAt 5 cfg4.N
      = Cert.Spec.sage 200000 (V c main_v94) (V c main_v1) (V c main_v96) (V c main_v101) (V c main_v100) :=
  (dat4 (F := Ideal) V c).arrAt_eq_of_cover 5 _ (fun t _ => sage4_flushed V c t) sage4_cover

end Region

end Cert.KernelIdeal.Gen

end
-- ==== Proof.SageR.lean ====
import proofs.«143223_j29772713296000_1_alg».proof.ReferenceIdeal
import proofs.«143223_j29772713296000_1_alg».proof.Proof.Gen.ReferenceIdeal
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

/-!
The reference's dense GraphSAGE layers of output width 128 as pure functions: for ARBITRARY arrays of the layer's
shapes, the composition of host operations the reference applies — in its own order, `(mean · wlᵀ + bl) + xdst · wrᵀ`
and then the division by the bounded row norm — equals `Cert.Spec.sage`, whose order is `(mean · wlᵀ + xdst · wrᵀ) + bl`.
Each host product is read at an index (the operand indices of the contraction axis by axis, the contraction re-indexed
by its one coordinate); the rest is `Cert.Spec.sage_of_host_products`. Once for 100000 rows and once for 200000.
-/

noncomputable section

namespace Cert.ReferenceIdeal.Dense

open Idealize.ShloMosaic Idealize.ShloMosaic.ValueIdx Idealize.SL.Sem
open Cert.ReferenceIdeal Cert.ReferenceIdeal.Facts₀ Cert.ReferenceIdeal.Facts
open scoped BigOperators

/-! ## 100000 rows -/

theorem sage100000_lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem sage100000_lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem sage100000_rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem sage100000_rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The host's product at row `p`, column `q`: the sum over the contracted axis. -/
theorem sage100000_dot_apply (x : FVec Ideal S100000x128 .f32) (w : FVec Ideal S128x128 .f32) (p : Fin 100000) (q : Fin 128) :
    Host.dotGeneral dot_S100000x128_S128x128_S100000x128_1_0_0_1_n_n none x w (ix2 p q)
      = ∑ k : Fin 128, x (ix2 p k) * w (ix2 k q) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q)
      ((contrEquiv1 dot_S100000x128_S128x128_S100000x128_1_0_0_1_n_n 128 rfl rfl).symm k) = ix2 p k :=
    funext fun a => Fin.ext (by
      match a with
      | ⟨0, _⟩ => exact sage100000_lhs_0 _ _
      | ⟨1, _⟩ => exact (sage100000_lhs_1 _ _).trans hk)
  have er : dot_S100000x128_S128x128_S100000x128_1_0_0_1_n_n.rhsIdx (ix2 p q)
      ((contrEquiv1 dot_S100000x128_S128x128_S100000x128_1_0_0_1_n_n 128 rfl rfl).symm k) = ix2 k q :=
    funext fun a => Fin.ext (by
      match a with
      | ⟨0, _⟩ => exact (sage100000_rhs_0 _ _).trans hk
      | ⟨1, _⟩ => exact sage100000_rhs_1 _ _)
  rw [el, er]

/-- A product against the transposed weight at row `p`, column `q`: `Σ_k x p k · w q k`. -/
theorem sage100000_product (x : FVec Ideal S100000x128 .f32) (w : FVec Ideal S128x128 .f32)
    (ht : S128x128.Transposes [1, 0] S128x128) (p : Fin 100000) (q : Fin 128) :
    Host.dotGeneral dot_S100000x128_S128x128_S100000x128_1_0_0_1_n_n none x (transpose S128x128 [1, 0] w ht) (ix2 p q)
      = ∑ k : Fin 128, x (ix2 p k) * w (ix2 q k) := by
  rw [sage100000_dot_apply]
  refine Finset.sum_congr rfl fun k _ => ?_
  rw [transpose_ix2_apply]

/-- THE REFERENCE'S DENSE LAYER ON 100000 ROWS, as its host operations compose — the first product against the transposed
    left weight, the bias vector laid along a row and down the rows and added, the second product against the transposed
    right weight added, then the row norms (square, the host's sum from zero along each row, the column of sums through
    the square root), the lower bound `ε`, the column laid over the rows, the quotient — is `Cert.Spec.sage` of the same
    arrays at the bias row `[1, 128]` cast from the bias vector. -/
theorem sage100000_ref (mean xdst : FVec Ideal S100000x128 .f32) (wl wr : FVec Ideal S128x128 .f32) (blv : FVec Ideal S128 .f32)
    (hsc : S128.ShapeCasts S1x128) :
    Host.divf
        (addf
          (addf (Host.dotGeneral dot_S100000x128_S128x128_S100000x128_1_0_0_1_n_n none mean
              (transpose S128x128 [1, 0] wl transposes_S128x128_S128x128_1_0))
            (broadcastInDim S100000x128 ![0, 1] bcast_S1x128_S100000x128_0_1 (broadcastInDim S1x128 ![1] bcast_S128_S1x128_1 blv)))
          (Host.dotGeneral dot_S100000x128_S128x128_S100000x128_1_0_0_1_n_n none xdst
            (transpose S128x128 [1, 0] wr transposes_S128x128_S128x128_1_0)))
        (broadcastInDim S100000x128 ![0, 1] bcast_S100000x1_S100000x128_0_1
          (maximumf
            (Host.sqrt (broadcastInDim S100000x1 ![0] bcast_S100000_S100000x1_0
              (Host.reduceAdd
                (mulf
                  (addf
                    (addf (Host.dotGeneral dot_S100000x128_S128x128_S100000x128_1_0_0_1_n_n none mean
                        (transpose S128x128 [1, 0] wl transposes_S128x128_S128x128_1_0))
                      (broadcastInDim S100000x128 ![0, 1] bcast_S1x128_S100000x128_0_1 (broadcastInDim S1x128 ![1] bcast_S128_S1x128_1 blv)))
                    (Host.dotGeneral dot_S100000x128_S128x128_S100000x128_1_0_0_1_n_n none xdst
                      (transpose S128x128 [1, 0] wr transposes_S128x128_S128x128_1_0)))
                  (addf
                    (addf (Host.dotGeneral dot_S100000x128_S128x128_S100000x128_1_0_0_1_n_n none mean
                        (transpose S128x128 [1, 0] wl transposes_S128x128_S128x128_1_0))
                      (broadcastInDim S100000x128 ![0, 1] bcast_S1x128_S100000x128_0_1 (broadcastInDim S1x128 ![1] bcast_S128_S1x128_1 blv)))
                    (Host.dotGeneral dot_S100000x128_S128x128_S100000x128_1_0_0_1_n_n none xdst
                      (transpose S128x128 [1, 0] wr transposes_S128x128_S128x128_1_0))))
                (constant (F := Ideal) S_ .f32 0x00000000#32) reducesTo_S100000x128_S100000_d1 h_S_)))
            (broadcastInDim S100000x1 ![] bcast_S_S100000x1 (constant (F := Ideal) S_ .f32 0x2B8CBCCC#32))))
      = Cert.Spec.sage 100000 mean xdst wl (shapeCast S1x128 blv hsc) wr :=
  Cert.Spec.sage_of_host_products mean xdst wl blv wr _ _
    (fun p q => sage100000_product mean wl _ p q) (fun p q => sage100000_product xdst wr _ p q) _ _ _ _ _ _ _ hsc

/-! ## 200000 rows -/

theorem sage200000_lhs_0 (i : S200000x128.Idx) (q : dot_S200000x128_S128x128_S200000x128_1_0_0_1_n_n.contr.Idx) :
    (dot_S200000x128_S128x128_S200000x128_1_0_0_1_n_n.lhsIdx i q 0).val = (i 0).val := by
  unfold DotDims.lhsIdx
  rw [dif_neg (show ¬(0 : Fin S200000x128.rank) ∈ dot_S200000x128_S128x128_S200000x128_1_0_0_1_n_n.lhsBatch by decide),
    dif_pos (show (0 : Fin S200000x128.rank) ∈ dot_S200000x128_S128x128_S200000x128_1_0_0_1_n_n.lhsNonContracting by decide)]
  rfl

theorem sage200000_lhs_1 (i : S200000x128.Idx) (q : dot_S200000x128_S128x128_S200000x128_1_0_0_1_n_n.contr.Idx) :
    (dot_S200000x128_S128x128_S200000x128_1_0_0_1_n_n.lhsIdx i q 1).val = (q ⟨0, by decide⟩).val :=
  dot_S200000x128_S128x128_S200000x128_1_0_0_1_n_n.lhsIdx_val_of_single rfl i q

theorem sage200000_rhs_0 (i : S200000x128.Idx) (q : dot_S200000x128_S128x128_S200000x128_1_0_0_1_n_n.contr.Idx) :
    (dot_S200000x128_S128x128_S200000x128_1_0_0_1_n_n.rhsIdx i q 0).val = (q ⟨0, by decide⟩).val :=
  dot_S200000x128_S128x128_S200000x128_1_0_0_1_n_n.rhsIdx_val_of_single rfl i q

theorem sage200000_rhs_1 (i : S200000x128.Idx) (q : dot_S200000x128_S128x128_S200000x128_1_0_0_1_n_n.contr.Idx) :
    (dot_S200000x128_S128x128_S200000x128_1_0_0_1_n_n.rhsIdx i q 1).val = (i 1).val := by
  unfold DotDims.rhsIdx
  rw [dif_neg (show ¬(1 : Fin S128x128.rank) ∈ dot_S200000x128_S128x128_S200000x128_1_0_0_1_n_n.rhsBatch by decide),
    dif_pos (show (1 : Fin S128x128.rank) ∈ dot_S200000x128_S128x128_S200000x128_1_0_0_1_n_n.rhsNonContracting by decide)]
  rfl

/-- The host's product at row `p`, column `q`: the sum over the contracted axis. -/
theorem sage200000_dot_apply (x : FVec Ideal S200000x128 .f32) (w : FVec Ideal S128x128 .f32) (p : Fin 200000) (q : Fin 128) :
    Host.dotGeneral dot_S200000x128_S128x128_S200000x128_1_0_0_1_n_n none x w (ix2 p q)
      = ∑ k : Fin 128, x (ix2 p k) * w (ix2 k q) := by
  simp only [Host.dotGeneral]
  rw [Ideal.dotGeneral_apply,
    ← Equiv.sum_comp (contrEquiv1 dot_S200000x128_S128x128_S200000x128_1_0_0_1_n_n 128 rfl rfl).symm]
  refine Finset.sum_congr rfl fun k _ => ?_
  have hk := contrEquiv1_symm_val dot_S200000x128_S128x128_S200000x128_1_0_0_1_n_n 128 rfl rfl k
  have el : dot_S200000x128_S128x128_S200000x128_1_0_0_1_n_n.lhsIdx (ix2 p q)
      ((contrEquiv1 dot_S200000x128_S128x128_S200000x128_1_0_0_1_n_n 128 rfl rfl).symm k) = ix2 p k :=
    funext fun a => Fin.ext (by
      match a with
      | ⟨0, _⟩ => exact sage200000_lhs_0 _ _
      | ⟨1, _⟩ => exact (sage200000_lhs_1 _ _).trans hk)
  have er : dot_S200000x128_S128x128_S200000x128_1_0_0_1_n_n.rhsIdx (ix2 p q)
      ((contrEquiv1 dot_S200000x128_S128x128_S200000x128_1_0_0_1_n_n 128 rfl rfl).symm k) = ix2 k q :=
    funext fun a => Fin.ext (by
      match a with
      | ⟨0, _⟩ => exact (sage200000_rhs_0 _ _).trans hk
      | ⟨1, _⟩ => exact sage200000_rhs_1 _ _)
  rw [el, er]

/-- A product against the transposed weight at row `p`, column `q`: `Σ_k x p k · w q k`. -/
theorem sage200000_product (x : FVec Ideal S200000x128 .f32) (w : FVec Ideal S128x128 .f32)
    (ht : S128x128.Transposes [1, 0] S128x128) (p : Fin 200000) (q : Fin 128) :
    Host.dotGeneral dot_S200000x128_S128x128_S200000x128_1_0_0_1_n_n none x (transpose S128x128 [1, 0] w ht) (ix2 p q)
      = ∑ k : Fin 128, x (ix2 p k) * w (ix2 q k) := by
  rw [sage200000_dot_apply]
  refine Finset.sum_congr rfl fun k _ => ?_
  rw [transpose_ix2_apply]

/-- THE REFERENCE'S DENSE LAYER ON 200000 ROWS, as its host operations compose — the first product against the transposed
    left weight, the bias vector laid along a row and down the rows and added, the second product against the transposed
    right weight added, then the row norms (square, the host's sum from zero along each row, the column of sums through
    the square root), the lower bound `ε`, the column laid over the rows, the quotient — is `Cert.Spec.sage` of the same
    arrays at the bias row `[1, 128]` cast from the bias vector. -/
theorem sage200000_ref (mean xdst : FVec Ideal S200000x128 .f32) (wl wr : FVec Ideal S128x128 .f32) (blv : FVec Ideal S128 .f32)
    (hsc : S128.ShapeCasts S1x128) :
    Host.divf
        (addf
          (addf (Host.dotGeneral dot_S200000x128_S128x128_S200000x128_1_0_0_1_n_n none mean
              (transpose S128x128 [1, 0] wl transposes_S128x128_S128x128_1_0))
            (broadcastInDim S200000x128 ![0, 1] bcast_S1x128_S200000x128_0_1 (broadcastInDim S1x128 ![1] bcast_S128_S1x128_1 blv)))
          (Host.dotGeneral dot_S200000x128_S128x128_S200000x128_1_0_0_1_n_n none xdst
            (transpose S128x128 [1, 0] wr transposes_S128x128_S128x128_1_0)))
        (broadcastInDim S200000x128 ![0, 1] bcast_S200000x1_S200000x128_0_1
          (maximumf
            (Host.sqrt (broadcastInDim S200000x1 ![0] bcast_S200000_S200000x1_0
              (Host.reduceAdd
                (mulf
                  (addf
                    (addf (Host.dotGeneral dot_S200000x128_S128x128_S200000x128_1_0_0_1_n_n none mean
                        (transpose S128x128 [1, 0] wl transposes_S128x128_S128x128_1_0))
                      (broadcastInDim S200000x128 ![0, 1] bcast_S1x128_S200000x128_0_1 (broadcastInDim S1x128 ![1] bcast_S128_S1x128_1 blv)))
                    (Host.dotGeneral dot_S200000x128_S128x128_S200000x128_1_0_0_1_n_n none xdst
                      (transpose S128x128 [1, 0] wr transposes_S128x128_S128x128_1_0)))
                  (addf
                    (addf (Host.dotGeneral dot_S200000x128_S128x128_S200000x128_1_0_0_1_n_n none mean
                        (transpose S128x128 [1, 0] wl transposes_S128x128_S128x128_1_0))
                      (broadcastInDim S200000x128 ![0, 1] bcast_S1x128_S200000x128_0_1 (broadcastInDim S1x128 ![1] bcast_S128_S1x128_1 blv)))
                    (Host.dotGeneral dot_S200000x128_S128x128_S200000x128_1_0_0_1_n_n none xdst
                      (transpose S128x128 [1, 0] wr transposes_S128x128_S128x128_1_0))))
                (constant (F := Ideal) S_ .f32 0x00000000#32) reducesTo_S200000x128_S200000_d1 h_S_)))
            (broadcastInDim S200000x1 ![] bcast_S_S200000x1 (constant (F := Ideal) S_ .f32 0x2B8CBCCC#32))))
      = Cert.Spec.sage 200000 mean xdst wl (shapeCast S1x128 blv hsc) wr :=
  Cert.Spec.sage_of_host_products mean xdst wl blv wr _ _
    (fun p q => sage200000_product mean wl _ p q) (fun p q => sage200000_product xdst wr _ p q) _ _ _ _ _ _ _ hsc

end Cert.ReferenceIdeal.Dense

end
-- ==== Proof.HostAgg.lean ====
import proofs.«143223_j29772713296000_1_alg».proof.Proof.Gen.KernelIdeal
import proofs.«143223_j29772713296000_1_alg».proof.Proof.Gen.ReferenceIdeal
import Idealize.ShloMosaic.PureOps.Ideal

noncomputable section

namespace Cert.HostFns

open Idealize.ShloMosaic Idealize.SL.Sem
open Cert.KernelIdeal

/-! # The mean aggregation over an edge list, and the weight slices, as pure functions

An edge list is an integer array of two rows over the 500000 edges: row 0 holds each edge's source row, row 1
its destination row. The aggregation of a table of source rows along the edges is, at each destination row,
the sum of the source rows of the edges arriving there divided by the larger of their number and one. The
gather of rows and the two segment sums are carried as the host's own functions, unopened. -/

/-- Row `r` of an edge list, as a vector over the edges. -/
def edgeRow (r : Nat) (ei : IVec S2x500000 32) (h : S2x500000.Slices ![r, 0] S1x500000 := by decide) : IVec S500000 32 :=
  shapeCast S500000 (extractStridedSlice S1x500000 ![r, 0] ei h) Gen.shapeCasts_S1x500000_S500000

/-- The source rows, a negative one counted from the end of a table of `n` rows (`e < 0 ? e + n : e`), as a column. -/
def srcCol (n : BitVec 32) (ei : IVec S2x500000 32) : IVec S500000x1 32 :=
  broadcastInDim S500000x1 ![0] Gen.bcast_S500000_S500000x1_0
    (select
      (cmpi .slt (edgeRow 0 ei Gen.slices_S2x500000_S1x500000_0_0)
        (broadcastInDim S500000 ![] Gen.bcast_S_S500000 (constantI S_ 32 0#32)))
      (addi (edgeRow 0 ei Gen.slices_S2x500000_S1x500000_0_0)
        (broadcastInDim S500000 ![] Gen.bcast_S_S500000 (constantI S_ 32 n)))
      (edgeRow 0 ei Gen.slices_S2x500000_S1x500000_0_0))

/-- The destination rows, as a column. -/
def dstCol (ei : IVec S2x500000 32) : IVec S500000x1 32 :=
  broadcastInDim S500000x1 ![0] Gen.bcast_S500000_S500000x1_0 (edgeRow 1 ei Gen.slices_S2x500000_S1x500000_1_0)

/-- Mean aggregation from the 200000 account rows to the 100000 merchant rows. -/
def aggA2M (x : FVec Ideal S200000x128 .f32) (ei : IVec S2x500000 32) : FVec Ideal S100000x128 .f32 :=
  Host.divf
    (Host.scatterAdd scatter_S100000x128_S500000x1_S500000x128_1_0_0_1
      (broadcastInDim S100000x128 ![] Gen.bcast_S_S100000x128 (constant (F := Ideal) S_ .f32 0x00000000#32))
      (dstCol ei)
      (Host.gather gather_S200000x128_S500000x1_S500000x128_1_0_n_n_0_1_1128 x (srcCol 200000#32 ei)))
    (broadcastInDim S100000x128 ![0, 1] Gen.bcast_S100000x1_S100000x128_0_1
      (broadcastInDim S100000x1 ![0] Gen.bcast_S100000_S100000x1_0
        (maximumf
          (Host.scatterAdd scatter_S100000_S500000x1_S500000_n_0_0_1
            (broadcastInDim S100000 ![] Gen.bcast_S_S100000 (constant (F := Ideal) S_ .f32 0x00000000#32))
            (dstCol ei)
            (broadcastInDim S500000 ![] Gen.bcast_S_S500000 (constant (F := Ideal) S_ .f32 0x3F800000#32)))
          (broadcastInDim S100000 ![] Gen.bcast_S_S100000 (constant (F := Ideal) S_ .f32 0x3F800000#32)))))

/-- Mean aggregation from the 100000 merchant rows to the 200000 account rows. -/
def aggM2A (x : FVec Ideal S100000x128 .f32) (ei : IVec S2x500000 32) : FVec Ideal S200000x128 .f32 :=
  Host.divf
    (Host.scatterAdd scatter_S200000x128_S500000x1_S500000x128_1_0_0_1
      (broadcastInDim S200000x128 ![] Gen.bcast_S_S200000x128 (constant (F := Ideal) S_ .f32 0x00000000#32))
      (dstCol ei)
      (Host.gather gather_S100000x128_S500000x1_S500000x128_1_0_n_n_0_1_1128 x (srcCol 100000#32 ei)))
    (broadcastInDim S200000x128 ![0, 1] Gen.bcast_S200000x1_S200000x128_0_1
      (broadcastInDim S200000x1 ![0] Gen.bcast_S200000_S200000x1_0
        (maximumf
          (Host.scatterAdd scatter_S200000_S500000x1_S500000_n_0_0_1
            (broadcastInDim S200000 ![] Gen.bcast_S_S200000 (constant (F := Ideal) S_ .f32 0x00000000#32))
            (dstCol ei)
            (broadcastInDim S500000 ![] Gen.bcast_S_S500000 (constant (F := Ideal) S_ .f32 0x3F800000#32)))
          (broadcastInDim S200000 ![] Gen.bcast_S_S200000 (constant (F := Ideal) S_ .f32 0x3F800000#32)))))

/-- Mean aggregation from the 200000 account rows to the 200000 account rows. -/
def aggA2A (x : FVec Ideal S200000x128 .f32) (ei : IVec S2x500000 32) : FVec Ideal S200000x128 .f32 :=
  Host.divf
    (Host.scatterAdd scatter_S200000x128_S500000x1_S500000x128_1_0_0_1
      (broadcastInDim S200000x128 ![] Gen.bcast_S_S200000x128 (constant (F := Ideal) S_ .f32 0x00000000#32))
      (dstCol ei)
      (Host.gather gather_S200000x128_S500000x1_S500000x128_1_0_n_n_0_1_1128 x (srcCol 200000#32 ei)))
    (broadcastInDim S200000x128 ![0, 1] Gen.bcast_S200000x1_S200000x128_0_1
      (broadcastInDim S200000x1 ![0] Gen.bcast_S200000_S200000x1_0
        (maximumf
          (Host.scatterAdd scatter_S200000_S500000x1_S500000_n_0_0_1
            (broadcastInDim S200000 ![] Gen.bcast_S_S200000 (constant (F := Ideal) S_ .f32 0x00000000#32))
            (dstCol ei)
            (broadcastInDim S500000 ![] Gen.bcast_S_S500000 (constant (F := Ideal) S_ .f32 0x3F800000#32)))
          (broadcastInDim S200000 ![] Gen.bcast_S_S200000 (constant (F := Ideal) S_ .f32 0x3F800000#32)))))

/-! ## The weight slices -/

/-- Each of the three matrices of a stack is a slice of it. -/
theorem slices_mat (k : Fin 3) : S3x128x128.Slices ![(k : Nat), 0, 0] S1x128x128 := by revert k; decide
/-- Each of the three rows of a stack is a slice of it. -/
theorem slices_vec (k : Fin 3) : S3x128.Slices ![(k : Nat), 0] S1x128 := by revert k; decide

/-- Matrix `k` of a stack of three 128 by 128 matrices. -/
def sliceMat (k : Fin 3) (w : FVec Ideal S3x128x128 .f32) : FVec Ideal S128x128 .f32 :=
  shapeCast S128x128 (extractStridedSlice S1x128x128 ![(k : Nat), 0, 0] w (slices_mat k)) Gen.shapeCasts_S1x128x128_S128x128

/-- Row `k` of a stack of three rows of 128. -/
def sliceVec (k : Fin 3) (b : FVec Ideal S3x128 .f32) : FVec Ideal S128 .f32 :=
  shapeCast S128 (extractStridedSlice S1x128 ![(k : Nat), 0] b (slices_vec k)) Gen.shapeCasts_S1x128_S128

/-- A row of 128 as a 1 by 128 matrix. -/
def rowReshape128 (b : FVec Ideal S128 .f32) : FVec Ideal S1x128 .f32 :=
  shapeCast S1x128 b Gen.shapeCasts_S128_S1x128

/-- Each of the three 64 by 128 matrices of a stack is a slice of it. -/
theorem slices_mat64 (k : Fin 3) : S3x64x128.Slices ![(k : Nat), 0, 0] S1x64x128 := by revert k; decide
/-- Each of the three rows of 64 of a stack is a slice of it. -/
theorem slices_vec64 (k : Fin 3) : S3x64.Slices ![(k : Nat), 0] S1x64 := by revert k; decide

/-- Matrix `k` of a stack of three 64 by 128 matrices. -/
def sliceMat64 (k : Fin 3) (w : FVec Ideal S3x64x128 .f32) : FVec Ideal S64x128 .f32 :=
  shapeCast S64x128 (extractStridedSlice S1x64x128 ![(k : Nat), 0, 0] w (slices_mat64 k)) Gen.shapeCasts_S1x64x128_S64x128

/-- Row `k` of a stack of three rows of 64. -/
def sliceVec64 (k : Fin 3) (b : FVec Ideal S3x64 .f32) : FVec Ideal S64 .f32 :=
  shapeCast S64 (extractStridedSlice S1x64 ![(k : Nat), 0] b (slices_vec64 k)) Gen.shapeCasts_S1x64_S64

/-- A row of 64 as a 1 by 64 matrix. -/
def rowReshape64 (b : FVec Ideal S64 .f32) : FVec Ideal S1x64 .f32 :=
  shapeCast S1x64 b Gen.shapeCasts_S64_S1x64

end Cert.HostFns
-- ==== Proof.KAgg0.lean ====
import proofs.«143223_j29772713296000_1_alg».proof.Proof.Gen.KernelIdeal.Frame
import proofs.«143223_j29772713296000_1_alg».proof.Proof.HostAgg
import Idealize.ShloMosaic.Lib.StableHlo.Run

noncomputable section

namespace Cert.KernelIdeal.Gen

open Idealize.ShloMosaic Idealize.ShloMosaic.TcCoe Idealize.SL.Sem Idealize.ShloMosaic.StableHlo

/-! # One layer: the buffers entering its three neighbour regions

Each of the layer's three host stretches computes one mean aggregation along an edge list and cuts the
layer's two matrices and its bias row out of their stacks. From any contents `V` of the buffers, a stretch
leaves at its result buffers the named functions of `V` at its argument buffers, and leaves the neighbour
region's own rows as they were. -/

/-! ## The three stretches, from any contents -/

theorem hostOps2_v28 (V : Valuation τ sig (Elt Ideal)) :
    StableHlo.after (hostOps2 (F := Ideal)) V (Proc.devRef .tc main_v28)
      = Cert.HostFns.aggA2M (V (Proc.devRef .tc main_v1)) (V (Proc.devRef .tc main_arg2)) := by
  after_results_simp
  rfl

theorem hostOps2_v30 (V : Valuation τ sig (Elt Ideal)) :
    StableHlo.after (hostOps2 (F := Ideal)) V (Proc.devRef .tc main_v30)
      = Cert.HostFns.sliceMat 0 (V (Proc.devRef .tc main_arg9)) := by
  after_results_simp
  rfl

theorem hostOps2_v35 (V : Valuation τ sig (Elt Ideal)) :
    StableHlo.after (hostOps2 (F := Ideal)) V (Proc.devRef .tc main_v35)
      = Cert.HostFns.rowReshape128 (Cert.HostFns.sliceVec 0 (V (Proc.devRef .tc main_arg10))) := by
  after_results_simp
  rfl

theorem hostOps2_v34 (V : Valuation τ sig (Elt Ideal)) :
    StableHlo.after (hostOps2 (F := Ideal)) V (Proc.devRef .tc main_v34)
      = Cert.HostFns.sliceMat 0 (V (Proc.devRef .tc main_arg11)) := by
  after_results_simp
  rfl

theorem hostOps2_keep_v3 (V : Valuation τ sig (Elt Ideal)) :
    StableHlo.after (hostOps2 (F := Ideal)) V (Proc.devRef .tc main_v3) = V (Proc.devRef .tc main_v3) := by
  after_results_simp

theorem hostOps3_v61 (V : Valuation τ sig (Elt Ideal)) :
    StableHlo.after (hostOps3 (F := Ideal)) V (Proc.devRef .tc main_v61)
      = Cert.HostFns.aggM2A (V (Proc.devRef .tc main_v3)) (V (Proc.devRef .tc main_arg3)) := by
  after_results_simp
  rfl

theorem hostOps3_v63 (V : Valuation τ sig (Elt Ideal)) :
    StableHlo.after (hostOps3 (F := Ideal)) V (Proc.devRef .tc main_v63)
      = Cert.HostFns.sliceMat 1 (V (Proc.devRef .tc main_arg9)) := by
  after_results_simp
  rfl

theorem hostOps3_v68 (V : Valuation τ sig (Elt Ideal)) :
    StableHlo.after (hostOps3 (F := Ideal)) V (Proc.devRef .tc main_v68)
      = Cert.HostFns.rowReshape128 (Cert.HostFns.sliceVec 1 (V (Proc.devRef .tc main_arg10))) := by
  after_results_simp
  rfl

theorem hostOps3_v67 (V : Valuation τ sig (Elt Ideal)) :
    StableHlo.after (hostOps3 (F := Ideal)) V (Proc.devRef .tc main_v67)
      = Cert.HostFns.sliceMat 1 (V (Proc.devRef .tc main_arg11)) := by
  after_results_simp
  rfl

theorem hostOps3_keep_v1 (V : Valuation τ sig (Elt Ideal)) :
    StableHlo.after (hostOps3 (F := Ideal)) V (Proc.devRef .tc main_v1) = V (Proc.devRef .tc main_v1) := by
  after_results_simp

theorem hostOps4_v94 (V : Valuation τ sig (Elt Ideal)) :
    StableHlo.after (hostOps4 (F := Ideal)) V (Proc.devRef .tc main_v94)
      = Cert.HostFns.aggA2A (V (Proc.devRef .tc main_v1)) (V (Proc.devRef .tc main_arg4)) := by
  after_results_simp
  rfl

theorem hostOps4_v96 (V : Valuation τ sig (Elt Ideal)) :
    StableHlo.after (hostOps4 (F := Ideal)) V (Proc.devRef .tc main_v96)
      = Cert.HostFns.sliceMat 2 (V (Proc.devRef .tc main_arg9)) := by
  after_results_simp
  rfl

theorem hostOps4_v101 (V : Valuation τ sig (Elt Ideal)) :
    StableHlo.after (hostOps4 (F := Ideal)) V (Proc.devRef .tc main_v101)
      = Cert.HostFns.rowReshape128 (Cert.HostFns.sliceVec 2 (V (Proc.devRef .tc main_arg10))) := by
  after_results_simp
  rfl

theorem hostOps4_v100 (V : Valuation τ sig (Elt Ideal)) :
    StableHlo.after (hostOps4 (F := Ideal)) V (Proc.devRef .tc main_v100)
      = Cert.HostFns.sliceMat 2 (V (Proc.devRef .tc main_arg11)) := by
  after_results_simp
  rfl

theorem hostOps4_keep_v1 (V : Valuation τ sig (Elt Ideal)) :
    StableHlo.after (hostOps4 (F := Ideal)) V (Proc.devRef .tc main_v1) = V (Proc.devRef .tc main_v1) := by
  after_results_simp

/-! ## The same at the run's boundaries

At the boundary after each stretch, the aggregated rows, the two matrices and the bias row are the named
functions of the buffers at the boundary before it, and the region's own rows are as they were. -/

variable (m : (ℓ : Loc nD τ sig) → Buf (Elt Ideal) ℓ) (ρ : Dev nD → PrngReg)

theorem k_v28 (c : Dev nD) :
    W5 m ρ c (Proc.devRef .tc main_v28)
      = Cert.HostFns.aggA2M (W4 m ρ c (Proc.devRef .tc main_v1)) (W4 m ρ c (Proc.devRef .tc main_arg2)) :=
  hostOps2_v28 (W4 m ρ c)

theorem k_v30 (c : Dev nD) :
    W5 m ρ c (Proc.devRef .tc main_v30) = Cert.HostFns.sliceMat 0 (W4 m ρ c (Proc.devRef .tc main_arg9)) :=
  hostOps2_v30 (W4 m ρ c)

theorem k_v35 (c : Dev nD) :
    W5 m ρ c (Proc.devRef .tc main_v35) = Cert.HostFns.rowReshape128 (Cert.HostFns.sliceVec 0 (W4 m ρ c (Proc.devRef .tc main_arg10))) :=
  hostOps2_v35 (W4 m ρ c)

theorem k_v34 (c : Dev nD) :
    W5 m ρ c (Proc.devRef .tc main_v34) = Cert.HostFns.sliceMat 0 (W4 m ρ c (Proc.devRef .tc main_arg11)) :=
  hostOps2_v34 (W4 m ρ c)

theorem k_keep_v3_4_5 (c : Dev nD) :
    W5 m ρ c (Proc.devRef .tc main_v3) = W4 m ρ c (Proc.devRef .tc main_v3) :=
  hostOps2_keep_v3 (W4 m ρ c)

theorem k_v61 (c : Dev nD) :
    W7 m ρ c (Proc.devRef .tc main_v61)
      = Cert.HostFns.aggM2A (W6 m ρ c (Proc.devRef .tc main_v3)) (W6 m ρ c (Proc.devRef .tc main_arg3)) :=
  hostOps3_v61 (W6 m ρ c)

theorem k_v63 (c : Dev nD) :
    W7 m ρ c (Proc.devRef .tc main_v63) = Cert.HostFns.sliceMat 1 (W6 m ρ c (Proc.devRef .tc main_arg9)) :=
  hostOps3_v63 (W6 m ρ c)

theorem k_v68 (c : Dev nD) :
    W7 m ρ c (Proc.devRef .tc main_v68) = Cert.HostFns.rowReshape128 (Cert.HostFns.sliceVec 1 (W6 m ρ c (Proc.devRef .tc main_arg10))) :=
  hostOps3_v68 (W6 m ρ c)

theorem k_v67 (c : Dev nD) :
    W7 m ρ c (Proc.devRef .tc main_v67) = Cert.HostFns.sliceMat 1 (W6 m ρ c (Proc.devRef .tc main_arg11)) :=
  hostOps3_v67 (W6 m ρ c)

theorem k_keep_v1_6_7 (c : Dev nD) :
    W7 m ρ c (Proc.devRef .tc main_v1) = W6 m ρ c (Proc.devRef .tc main_v1) :=
  hostOps3_keep_v1 (W6 m ρ c)

theorem k_v94 (c : Dev nD) :
    W9 m ρ c (Proc.devRef .tc main_v94)
      = Cert.HostFns.aggA2A (W8 m ρ c (Proc.devRef .tc main_v1)) (W8 m ρ c (Proc.devRef .tc main_arg4)) :=
  hostOps4_v94 (W8 m ρ c)

theorem k_v96 (c : Dev nD) :
    W9 m ρ c (Proc.devRef .tc main_v96) = Cert.HostFns.sliceMat 2 (W8 m ρ c (Proc.devRef .tc main_arg9)) :=
  hostOps4_v96 (W8 m ρ c)

theorem k_v101 (c : Dev nD) :
    W9 m ρ c (Proc.devRef .tc main_v101) = Cert.HostFns.rowReshape128 (Cert.HostFns.sliceVec 2 (W8 m ρ c (Proc.devRef .tc main_arg10))) :=
  hostOps4_v101 (W8 m ρ c)

theorem k_v100 (c : Dev nD) :
    W9 m ρ c (Proc.devRef .tc main_v100) = Cert.HostFns.sliceMat 2 (W8 m ρ c (Proc.devRef .tc main_arg11)) :=
  hostOps4_v100 (W8 m ρ c)

theorem k_keep_v1_8_9 (c : Dev nD) :
    W9 m ρ c (Proc.devRef .tc main_v1) = W8 m ρ c (Proc.devRef .tc main_v1) :=
  hostOps4_keep_v1 (W8 m ρ c)

end Cert.KernelIdeal.Gen
-- ==== Proof.RAgg0.lean ====
import proofs.«143223_j29772713296000_1_alg».proof.Proof.RefOps
import proofs.«143223_j29772713296000_1_alg».proof.Proof.HostAgg

noncomputable section

namespace Cert.ReferenceIdeal.Run

open Cert.ReferenceIdeal Cert.ReferenceIdeal.Gen Idealize.ShloMosaic Idealize.ShloMosaic.TcCoe Idealize.SL.Sem Idealize.ShloMosaic.StableHlo

attribute [local irreducible] Host.gather Host.scatterAdd

/-! # One layer of the reference: its three aggregation stages, read at their result buffers

Each stage cuts one layer's two matrices and its bias row out of their stacks and computes one mean
aggregation along an edge list: the same functions as the kernel program's host stretches, the two printed
programs' shape and dimension records being equal term by term. -/

theorem seg2_v40 (V : Valuation τ sig (Elt Ideal)) :
    StableHlo.after (seg2 (F := Ideal)) V (Proc.devRef .tc main_v40)
      = Cert.HostFns.aggA2M (V (Proc.devRef .tc main_v4)) (V (Proc.devRef .tc main_arg2)) := by
  after_results_simp
  rfl

theorem seg2_v11 (V : Valuation τ sig (Elt Ideal)) :
    StableHlo.after (seg2 (F := Ideal)) V (Proc.devRef .tc main_v11)
      = Cert.HostFns.sliceMat 0 (V (Proc.devRef .tc main_arg9)) := by
  after_results_simp
  rfl

theorem seg2_v13 (V : Valuation τ sig (Elt Ideal)) :
    StableHlo.after (seg2 (F := Ideal)) V (Proc.devRef .tc main_v13)
      = Cert.HostFns.sliceVec 0 (V (Proc.devRef .tc main_arg10)) := by
  after_results_simp
  rfl

theorem seg2_v15 (V : Valuation τ sig (Elt Ideal)) :
    StableHlo.after (seg2 (F := Ideal)) V (Proc.devRef .tc main_v15)
      = Cert.HostFns.sliceMat 0 (V (Proc.devRef .tc main_arg11)) := by
  after_results_simp
  rfl

theorem r_v40 (V : Valuation τ sig (Elt Ideal)) :
    R3 V (Proc.devRef .tc main_v40)
      = Cert.HostFns.aggA2M (R2 V (Proc.devRef .tc main_v4)) (R2 V (Proc.devRef .tc main_arg2)) :=
  seg2_v40 (R2 V)

theorem r_v11 (V : Valuation τ sig (Elt Ideal)) :
    R3 V (Proc.devRef .tc main_v11) = Cert.HostFns.sliceMat 0 (R2 V (Proc.devRef .tc main_arg9)) :=
  seg2_v11 (R2 V)

theorem r_v13 (V : Valuation τ sig (Elt Ideal)) :
    R3 V (Proc.devRef .tc main_v13) = Cert.HostFns.sliceVec 0 (R2 V (Proc.devRef .tc main_arg10)) :=
  seg2_v13 (R2 V)

theorem r_v15 (V : Valuation τ sig (Elt Ideal)) :
    R3 V (Proc.devRef .tc main_v15) = Cert.HostFns.sliceMat 0 (R2 V (Proc.devRef .tc main_arg11)) :=
  seg2_v15 (R2 V)

theorem seg4_v84 (V : Valuation τ sig (Elt Ideal)) :
    StableHlo.after (seg4 (F := Ideal)) V (Proc.devRef .tc main_v84)
      = Cert.HostFns.aggM2A (V (Proc.devRef .tc main_v9)) (V (Proc.devRef .tc main_arg3)) := by
  after_results_simp
  rfl

theorem seg4_v55 (V : Valuation τ sig (Elt Ideal)) :
    StableHlo.after (seg4 (F := Ideal)) V (Proc.devRef .tc main_v55)
      = Cert.HostFns.sliceMat 1 (V (Proc.devRef .tc main_arg9)) := by
  after_results_simp
  rfl

theorem seg4_v57 (V : Valuation τ sig (Elt Ideal)) :
    StableHlo.after (seg4 (F := Ideal)) V (Proc.devRef .tc main_v57)
      = Cert.HostFns.sliceVec 1 (V (Proc.devRef .tc main_arg10)) := by
  after_results_simp
  rfl

theorem seg4_v59 (V : Valuation τ sig (Elt Ideal)) :
    StableHlo.after (seg4 (F := Ideal)) V (Proc.devRef .tc main_v59)
      = Cert.HostFns.sliceMat 1 (V (Proc.devRef .tc main_arg11)) := by
  after_results_simp
  rfl

theorem r_v84 (V : Valuation τ sig (Elt Ideal)) :
    R5 V (Proc.devRef .tc main_v84)
      = Cert.HostFns.aggM2A (R4 V (Proc.devRef .tc main_v9)) (R4 V (Proc.devRef .tc main_arg3)) :=
  seg4_v84 (R4 V)

theorem r_v55 (V : Valuation τ sig (Elt Ideal)) :
    R5 V (Proc.devRef .tc main_v55) = Cert.HostFns.sliceMat 1 (R4 V (Proc.devRef .tc main_arg9)) :=
  seg4_v55 (R4 V)

theorem r_v57 (V : Valuation τ sig (Elt Ideal)) :
    R5 V (Proc.devRef .tc main_v57) = Cert.HostFns.sliceVec 1 (R4 V (Proc.devRef .tc main_arg10)) :=
  seg4_v57 (R4 V)

theorem r_v59 (V : Valuation τ sig (Elt Ideal)) :
    R5 V (Proc.devRef .tc main_v59) = Cert.HostFns.sliceMat 1 (R4 V (Proc.devRef .tc main_arg11)) :=
  seg4_v59 (R4 V)

theorem seg6_v128 (V : Valuation τ sig (Elt Ideal)) :
    StableHlo.after (seg6 (F := Ideal)) V (Proc.devRef .tc main_v128)
      = Cert.HostFns.aggA2A (V (Proc.devRef .tc main_v4)) (V (Proc.devRef .tc main_arg4)) := by
  after_results_simp
  rfl

theorem seg6_v99 (V : Valuation τ sig (Elt Ideal)) :
    StableHlo.after (seg6 (F := Ideal)) V (Proc.devRef .tc main_v99)
      = Cert.HostFns.sliceMat 2 (V (Proc.devRef .tc main_arg9)) := by
  after_results_simp
  rfl

theorem seg6_v101 (V : Valuation τ sig (Elt Ideal)) :
    StableHlo.after (seg6 (F := Ideal)) V (Proc.devRef .tc main_v101)
      = Cert.HostFns.sliceVec 2 (V (Proc.devRef .tc main_arg10)) := by
  after_results_simp
  rfl

theorem seg6_v103 (V : Valuation τ sig (Elt Ideal)) :
    StableHlo.after (seg6 (F := Ideal)) V (Proc.devRef .tc main_v103)
      = Cert.HostFns.sliceMat 2 (V (Proc.devRef .tc main_arg11)) := by
  after_results_simp
  rfl

theorem r_v128 (V : Valuation τ sig (Elt Ideal)) :
    R7 V (Proc.devRef .tc main_v128)
      = Cert.HostFns.aggA2A (R6 V (Proc.devRef .tc main_v4)) (R6 V (Proc.devRef .tc main_arg4)) :=
  seg6_v128 (R6 V)

theorem r_v99 (V : Valuation τ sig (Elt Ideal)) :
    R7 V (Proc.devRef .tc main_v99) = Cert.HostFns.sliceMat 2 (R6 V (Proc.devRef .tc main_arg9)) :=
  seg6_v99 (R6 V)

theorem r_v101 (V : Valuation τ sig (Elt Ideal)) :
    R7 V (Proc.devRef .tc main_v101) = Cert.HostFns.sliceVec 2 (R6 V (Proc.devRef .tc main_arg10)) :=
  seg6_v101 (R6 V)

theorem r_v103 (V : Valuation τ sig (Elt Ideal)) :
    R7 V (Proc.devRef .tc main_v103) = Cert.HostFns.sliceMat 2 (R6 V (Proc.devRef .tc main_arg11)) :=
  seg6_v103 (R6 V)

end Cert.ReferenceIdeal.Run
-- ==== Proof.KKeep1.lean ====
import proofs.«143223_j29772713296000_1_alg».proof.Proof.Gen.KernelIdeal.Launch

set_option maxRecDepth 16384
-- one theorem at a time: elaborated side by side the table's entries hold gigabytes together
set_option Elab.async false

noncomputable section

namespace Cert.KernelIdeal.Carry

open Cert.KernelIdeal Cert.KernelIdeal.Gen Idealize.ShloMosaic Idealize.ShloMosaic.TcCoe Idealize.SL.Sem

variable {F : FTy → Type} [FloatOps F]

/-- What hostOps0 writes, in order. -/
def wl0 : List (Ref sig .tc) := [main_v0]
/-- A buffer that is none of them is left as it was. -/
theorem keep0 (b : Ref sig .tc) (hb : ∀ y ∈ wl0, b ≠ y) (V : Valuation τ sig (Elt F)) :
    StableHlo.after (hostOps0 (F := F)) V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))))

/-- What hostOps1 writes, in order. -/
def wl1 : List (Ref sig .tc) := [main_v2]
/-- A buffer that is none of them is left as it was. -/
theorem keep1 (b : Ref sig .tc) (hb : ∀ y ∈ wl1, b ≠ y) (V : Valuation τ sig (Elt F)) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))))

/-- What hostOps2 writes, in order. -/
def wl2 : List (Ref sig .tc) := [main_v4, main_v5, main_c, main_v6, main_v7, main_c_0, main_v8, main_v9, main_v10, main_v11, main_v12, main_v13, main_v14, main_cst, main_v15, main_v16, main_v17, main_cst_1, main_v18, main_v19, main_v20, main_cst_2, main_v21, main_v22, main_v23, main_cst_3, main_v24, main_v25, main_v26, main_v27, main_v28, main_v29, main_v30, main_v31, main_v32, main_v33, main_v34, main_v35]
/-- A buffer that is none of them is left as it was. -/
theorem keep2 (b : Ref sig .tc) (hb : ∀ y ∈ wl2, b ≠ y) (V : Valuation τ sig (Elt F)) :
    StableHlo.after (hostOps2 (F := F)) V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps3 writes, in order. -/
def wl3 : List (Ref sig .tc) := [main_v37, main_v38, main_c_4, main_v39, main_v40, main_c_5, main_v41, main_v42, main_v43, main_v44, main_v45, main_v46, main_v47, main_cst_6, main_v48, main_v49, main_v50, main_cst_7, main_v51, main_v52, main_v53, main_cst_8, main_v54, main_v55, main_v56, main_cst_9, main_v57, main_v58, main_v59, main_v60, main_v61, main_v62, main_v63, main_v64, main_v65, main_v66, main_v67, main_v68]
/-- A buffer that is none of them is left as it was. -/
theorem keep3 (b : Ref sig .tc) (hb : ∀ y ∈ wl3, b ≠ y) (V : Valuation τ sig (Elt F)) :
    StableHlo.after (hostOps3 (F := F)) V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps4 writes, in order. -/
def wl4 : List (Ref sig .tc) := [main_v70, main_v71, main_c_10, main_v72, main_v73, main_c_11, main_v74, main_v75, main_v76, main_v77, main_v78, main_v79, main_v80, main_cst_12, main_v81, main_v82, main_v83, main_cst_13, main_v84, main_v85, main_v86, main_cst_14, main_v87, main_v88, main_v89, main_cst_15, main_v90, main_v91, main_v92, main_v93, main_v94, main_v95, main_v96, main_v97, main_v98, main_v99, main_v100, main_v101]
/-- A buffer that is none of them is left as it was. -/
theorem keep4 (b : Ref sig .tc) (hb : ∀ y ∈ wl4, b ≠ y) (V : Valuation τ sig (Elt F)) :
    StableHlo.after (hostOps4 (F := F)) V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps5 writes, in order. -/
def wl5 : List (Ref sig .tc) := [main_v103, main_cst_16, main_v104, main_cst_17, main_v105, main_v106, main_c_18]
/-- A buffer that is none of them is left as it was. -/
theorem keep5 (b : Ref sig .tc) (hb : ∀ y ∈ wl5, b ≠ y) (V : Valuation τ sig (Elt F)) :
    StableHlo.after (hostOps5 (F := F)) V (Proc.devRef .tc b) = V (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))))

/-- What hostOps5_1 writes, in order. -/
def wl5_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v107]
/-- A buffer that is none of them is left as it was. -/
theorem keep5_1 (b : Ref sig .tc) (hb : ∀ y ∈ wl5_1, b ≠ y) (V : Valuation τ sig (Elt F)) :
    StableHlo.after (hostOps5_1 (F := F)) V (Proc.devRef .tc b) = V (Proc.devRef .tc b) :=
  StableHlo.after_of_forall_not_mem (b := Proc.devRef .tc b) _ _ (List.forall_iff_forall_mem.mp (by
    simp only [hostOps5_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

/-- What hostOps5_2 writes, in order. -/
def wl5_2 : List (Ref sig .tc) := [main_cst_19, main_v108, main_cst_20, main_v109, main_v110, main_c_21]
/-- A buffer that is none of them is left as it was. -/
theorem keep5_2 (b : Ref sig .tc) (hb : ∀ y ∈ wl5_2, b ≠ y) (V : Valuation τ sig (Elt F)) :
    StableHlo.after (hostOps5_2 (F := F)) V (Proc.devRef .tc b) = V (Proc.devRef .tc b) :=
  StableHlo.after_of_forall_not_mem (b := Proc.devRef .tc b) _ _ (List.forall_iff_forall_mem.mp (by
    simp only [hostOps5_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))))

/-- What hostOps5_3 writes, in order. -/
def wl5_3 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v111]
/-- A buffer that is none of them is left as it was. -/
theorem keep5_3 (b : Ref sig .tc) (hb : ∀ y ∈ wl5_3, b ≠ y) (V : Valuation τ sig (Elt F)) :
    StableHlo.after (hostOps5_3 (F := F)) V (Proc.devRef .tc b) = V (Proc.devRef .tc b) :=
  StableHlo.after_of_forall_not_mem (b := Proc.devRef .tc b) _ _ (List.forall_iff_forall_mem.mp (by
    simp only [hostOps5_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

/-- What hostOps5_4 writes, in order. -/
def wl5_4 : List (Ref sig .tc) := [main_v112, main_v113, main_v114, main_v115, main_v116, main_v117, main_v118, main_v119]
/-- A buffer that is none of them is left as it was. -/
theorem keep5_4 (b : Ref sig .tc) (hb : ∀ y ∈ wl5_4, b ≠ y) (V : Valuation τ sig (Elt F)) :
    StableHlo.after (hostOps5_4 (F := F)) V (Proc.devRef .tc b) = V (Proc.devRef .tc b) :=
  StableHlo.after_of_forall_not_mem (b := Proc.devRef .tc b) _ _ (List.forall_iff_forall_mem.mp (by
    simp only [hostOps5_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))))

end Cert.KernelIdeal.Carry

end
-- ==== Proof.KKeep2.lean ====
import proofs.«143223_j29772713296000_1_alg».proof.Proof.Gen.KernelIdeal.Launch

set_option maxRecDepth 16384
-- one theorem at a time: elaborated side by side the table's entries hold gigabytes together
set_option Elab.async false

noncomputable section

namespace Cert.KernelIdeal.Carry

open Cert.KernelIdeal Cert.KernelIdeal.Gen Idealize.ShloMosaic Idealize.ShloMosaic.TcCoe Idealize.SL.Sem

variable {F : FTy → Type} [FloatOps F]

/-- What hostOps6 writes, in order. -/
def wl6 : List (Ref sig .tc) := [main_v121, main_v122, main_v123, main_v124, main_v125, main_v126, main_v127, main_v128]
/-- A buffer that is none of them is left as it was. -/
theorem keep6 (b : Ref sig .tc) (hb : ∀ y ∈ wl6, b ≠ y) (V : Valuation τ sig (Elt F)) :
    StableHlo.after (hostOps6 (F := F)) V (Proc.devRef .tc b) = V (Proc.devRef .tc b) :=
  StableHlo.after_of_forall_not_mem (b := Proc.devRef .tc b) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))))

/-- What hostOps7 writes, in order. -/
def wl7 : List (Ref sig .tc) := [main_v130, main_v131, main_c_22, main_v132, main_v133, main_c_23, main_v134, main_v135, main_v136, main_v137, main_v138, main_v139, main_v140, main_cst_24, main_v141, main_v142, main_v143, main_cst_25, main_v144, main_v145, main_v146, main_cst_26, main_v147, main_v148, main_v149, main_cst_27, main_v150, main_v151, main_v152, main_v153, main_v154, main_v155, main_v156, main_v157, main_v158, main_v159, main_v160, main_v161]
/-- A buffer that is none of them is left as it was. -/
theorem keep7 (b : Ref sig .tc) (hb : ∀ y ∈ wl7, b ≠ y) (V : Valuation τ sig (Elt F)) :
    StableHlo.after (hostOps7 (F := F)) V (Proc.devRef .tc b) = V (Proc.devRef .tc b) :=
  StableHlo.after_of_forall_not_mem (b := Proc.devRef .tc b) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps8 writes, in order. -/
def wl8 : List (Ref sig .tc) := [main_v163, main_v164, main_c_28, main_v165, main_v166, main_c_29, main_v167, main_v168, main_v169, main_v170, main_v171, main_v172, main_v173, main_cst_30, main_v174, main_v175, main_v176, main_cst_31, main_v177, main_v178, main_v179, main_cst_32, main_v180, main_v181, main_v182, main_cst_33, main_v183, main_v184, main_v185, main_v186, main_v187, main_v188, main_v189, main_v190, main_v191, main_v192, main_v193, main_v194]
/-- A buffer that is none of them is left as it was. -/
theorem keep8 (b : Ref sig .tc) (hb : ∀ y ∈ wl8, b ≠ y) (V : Valuation τ sig (Elt F)) :
    StableHlo.after (hostOps8 (F := F)) V (Proc.devRef .tc b) = V (Proc.devRef .tc b) :=
  StableHlo.after_of_forall_not_mem (b := Proc.devRef .tc b) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps9 writes, in order. -/
def wl9 : List (Ref sig .tc) := [main_v196, main_v197, main_c_34, main_v198, main_v199, main_c_35, main_v200, main_v201, main_v202, main_v203, main_v204, main_v205, main_v206, main_cst_36, main_v207, main_v208, main_v209, main_cst_37, main_v210, main_v211, main_v212, main_cst_38, main_v213, main_v214, main_v215, main_cst_39, main_v216, main_v217, main_v218, main_v219, main_v220, main_v221, main_v222, main_v223, main_v224, main_v225, main_v226, main_v227]
/-- A buffer that is none of them is left as it was. -/
theorem keep9 (b : Ref sig .tc) (hb : ∀ y ∈ wl9, b ≠ y) (V : Valuation τ sig (Elt F)) :
    StableHlo.after (hostOps9 (F := F)) V (Proc.devRef .tc b) = V (Proc.devRef .tc b) :=
  StableHlo.after_of_forall_not_mem (b := Proc.devRef .tc b) _ _ (List.forall_iff_forall_mem.mp (by
    simp only [hostOps9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps10 writes, in order. -/
def wl10 : List (Ref sig .tc) := [main_v229, main_cst_40, main_v230, main_cst_41, main_v231, main_v232, main_c_42]
/-- A buffer that is none of them is left as it was. -/
theorem keep10 (b : Ref sig .tc) (hb : ∀ y ∈ wl10, b ≠ y) (V : Valuation τ sig (Elt F)) :
    StableHlo.after (hostOps10 (F := F)) V (Proc.devRef .tc b) = V (Proc.devRef .tc b) :=
  StableHlo.after_of_forall_not_mem (b := Proc.devRef .tc b) _ _ (List.forall_iff_forall_mem.mp (by
    simp only [hostOps10, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))))

/-- What hostOps10_1 writes, in order. -/
def wl10_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v233]
/-- A buffer that is none of them is left as it was. -/
theorem keep10_1 (b : Ref sig .tc) (hb : ∀ y ∈ wl10_1, b ≠ y) (V : Valuation τ sig (Elt F)) :
    StableHlo.after (hostOps10_1 (F := F)) V (Proc.devRef .tc b) = V (Proc.devRef .tc b) :=
  StableHlo.after_of_forall_not_mem (b := Proc.devRef .tc b) _ _ (List.forall_iff_forall_mem.mp (by
    simp only [hostOps10_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

/-- What hostOps10_2 writes, in order. -/
def wl10_2 : List (Ref sig .tc) := [main_cst_43, main_v234, main_cst_44, main_v235, main_v236, main_c_45]
/-- A buffer that is none of them is left as it was. -/
theorem keep10_2 (b : Ref sig .tc) (hb : ∀ y ∈ wl10_2, b ≠ y) (V : Valuation τ sig (Elt F)) :
    StableHlo.after (hostOps10_2 (F := F)) V (Proc.devRef .tc b) = V (Proc.devRef .tc b) :=
  StableHlo.after_of_forall_not_mem (b := Proc.devRef .tc b) _ _ (List.forall_iff_forall_mem.mp (by
    simp only [hostOps10_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))))

/-- What hostOps10_3 writes, in order. -/
def wl10_3 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v237]
/-- A buffer that is none of them is left as it was. -/
theorem keep10_3 (b : Ref sig .tc) (hb : ∀ y ∈ wl10_3, b ≠ y) (V : Valuation τ sig (Elt F)) :
    StableHlo.after (hostOps10_3 (F := F)) V (Proc.devRef .tc b) = V (Proc.devRef .tc b) :=
  StableHlo.after_of_forall_not_mem (b := Proc.devRef .tc b) _ _ (List.forall_iff_forall_mem.mp (by
    simp only [hostOps10_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

/-- What hostOps10_4 writes, in order. -/
def wl10_4 : List (Ref sig .tc) := [main_v238, main_v239, main_v240, main_v241, main_v242, main_v243, main_v244, main_v245]
/-- A buffer that is none of them is left as it was. -/
theorem keep10_4 (b : Ref sig .tc) (hb : ∀ y ∈ wl10_4, b ≠ y) (V : Valuation τ sig (Elt F)) :
    StableHlo.after (hostOps10_4 (F := F)) V (Proc.devRef .tc b) = V (Proc.devRef .tc b) :=
  StableHlo.after_of_forall_not_mem (b := Proc.devRef .tc b) _ _ (List.forall_iff_forall_mem.mp (by
    simp only [hostOps10_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))))

/-- What hostOps11 writes, in order. -/
def wl11 : List (Ref sig .tc) := [main_v247, main_v248, main_v249, main_v250, main_v251, main_v252, main_v253, main_v254]
/-- A buffer that is none of them is left as it was. -/
theorem keep11 (b : Ref sig .tc) (hb : ∀ y ∈ wl11, b ≠ y) (V : Valuation τ sig (Elt F)) :
    StableHlo.after (hostOps11 (F := F)) V (Proc.devRef .tc b) = V (Proc.devRef .tc b) :=
  StableHlo.after_of_forall_not_mem (b := Proc.devRef .tc b) _ _ (List.forall_iff_forall_mem.mp (by
    simp only [hostOps11, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))))

end Cert.KernelIdeal.Carry

end
-- ==== Proof.KKeep3.lean ====
import proofs.«143223_j29772713296000_1_alg».proof.Proof.Gen.KernelIdeal.Launch

set_option maxRecDepth 16384
-- one theorem at a time: elaborated side by side the table's entries hold gigabytes together
set_option Elab.async false

noncomputable section

namespace Cert.KernelIdeal.Carry

open Cert.KernelIdeal Cert.KernelIdeal.Gen Idealize.ShloMosaic Idealize.ShloMosaic.TcCoe Idealize.SL.Sem

variable {F : FTy → Type} [FloatOps F]

/-- What hostOps12 writes, in order. -/
def wl12 : List (Ref sig .tc) := [main_v256, main_v257, main_c_46, main_v258, main_v259, main_c_47, main_v260, main_v261, main_v262, main_v263, main_v264, main_v265, main_v266, main_cst_48, main_v267, main_v268, main_v269, main_cst_49, main_v270, main_v271, main_v272, main_cst_50, main_v273, main_v274, main_v275, main_cst_51, main_v276, main_v277, main_v278, main_v279, main_v280, main_v281, main_v282, main_v283, main_v284, main_v285, main_v286, main_v287]
/-- A buffer that is none of them is left as it was. -/
theorem keep12 (b : Ref sig .tc) (hb : ∀ y ∈ wl12, b ≠ y) (V : Valuation τ sig (Elt F)) :
    StableHlo.after (hostOps12 (F := F)) V (Proc.devRef .tc b) = V (Proc.devRef .tc b) :=
  StableHlo.after_of_forall_not_mem (b := Proc.devRef .tc b) _ _ (List.forall_iff_forall_mem.mp (by
    simp only [hostOps12, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps13 writes, in order. -/
def wl13 : List (Ref sig .tc) := [main_v289, main_v290, main_c_52, main_v291, main_v292, main_c_53, main_v293, main_v294, main_v295, main_v296, main_v297, main_v298, main_v299, main_cst_54, main_v300, main_v301, main_v302, main_cst_55, main_v303, main_v304, main_v305, main_cst_56, main_v306, main_v307, main_v308, main_cst_57, main_v309, main_v310, main_v311, main_v312, main_v313, main_v314, main_v315, main_v316, main_v317, main_v318, main_v319, main_v320]
/-- A buffer that is none of them is left as it was. -/
theorem keep13 (b : Ref sig .tc) (hb : ∀ y ∈ wl13, b ≠ y) (V : Valuation τ sig (Elt F)) :
    StableHlo.after (hostOps13 (F := F)) V (Proc.devRef .tc b) = V (Proc.devRef .tc b) :=
  StableHlo.after_of_forall_not_mem (b := Proc.devRef .tc b) _ _ (List.forall_iff_forall_mem.mp (by
    simp only [hostOps13, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps14 writes, in order. -/
def wl14 : List (Ref sig .tc) := [main_v322, main_v323, main_c_58, main_v324, main_v325, main_c_59, main_v326, main_v327, main_v328, main_v329, main_v330, main_v331, main_v332, main_cst_60, main_v333, main_v334, main_v335, main_cst_61, main_v336, main_v337, main_v338, main_cst_62, main_v339, main_v340, main_v341, main_cst_63, main_v342, main_v343, main_v344, main_v345, main_v346, main_v347, main_v348, main_v349, main_v350, main_v351, main_v352, main_v353]
/-- A buffer that is none of them is left as it was. -/
theorem keep14 (b : Ref sig .tc) (hb : ∀ y ∈ wl14, b ≠ y) (V : Valuation τ sig (Elt F)) :
    StableHlo.after (hostOps14 (F := F)) V (Proc.devRef .tc b) = V (Proc.devRef .tc b) :=
  StableHlo.after_of_forall_not_mem (b := Proc.devRef .tc b) _ _ (List.forall_iff_forall_mem.mp (by
    simp only [hostOps14, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))))))))))))

/-- What hostOps15 writes, in order. -/
def wl15 : List (Ref sig .tc) := [main_v355, main_cst_64, main_v356, main_cst_65, main_v357, main_v358, main_c_66]
/-- A buffer that is none of them is left as it was. -/
theorem keep15 (b : Ref sig .tc) (hb : ∀ y ∈ wl15, b ≠ y) (V : Valuation τ sig (Elt F)) :
    StableHlo.after (hostOps15 (F := F)) V (Proc.devRef .tc b) = V (Proc.devRef .tc b) :=
  StableHlo.after_of_forall_not_mem (b := Proc.devRef .tc b) _ _ (List.forall_iff_forall_mem.mp (by
    simp only [hostOps15, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))))

/-- What hostOps15_1 writes, in order. -/
def wl15_1 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v359]
/-- A buffer that is none of them is left as it was. -/
theorem keep15_1 (b : Ref sig .tc) (hb : ∀ y ∈ wl15_1, b ≠ y) (V : Valuation τ sig (Elt F)) :
    StableHlo.after (hostOps15_1 (F := F)) V (Proc.devRef .tc b) = V (Proc.devRef .tc b) :=
  StableHlo.after_of_forall_not_mem (b := Proc.devRef .tc b) _ _ (List.forall_iff_forall_mem.mp (by
    simp only [hostOps15_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

/-- What hostOps15_2 writes, in order. -/
def wl15_2 : List (Ref sig .tc) := [main_cst_67, main_v360, main_cst_68, main_v361, main_v362, main_c_69]
/-- A buffer that is none of them is left as it was. -/
theorem keep15_2 (b : Ref sig .tc) (hb : ∀ y ∈ wl15_2, b ≠ y) (V : Valuation τ sig (Elt F)) :
    StableHlo.after (hostOps15_2 (F := F)) V (Proc.devRef .tc b) = V (Proc.devRef .tc b) :=
  StableHlo.after_of_forall_not_mem (b := Proc.devRef .tc b) _ _ (List.forall_iff_forall_mem.mp (by
    simp only [hostOps15_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))))

/-- What hostOps15_3 writes, in order. -/
def wl15_3 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v363]
/-- A buffer that is none of them is left as it was. -/
theorem keep15_3 (b : Ref sig .tc) (hb : ∀ y ∈ wl15_3, b ≠ y) (V : Valuation τ sig (Elt F)) :
    StableHlo.after (hostOps15_3 (F := F)) V (Proc.devRef .tc b) = V (Proc.devRef .tc b) :=
  StableHlo.after_of_forall_not_mem (b := Proc.devRef .tc b) _ _ (List.forall_iff_forall_mem.mp (by
    simp only [hostOps15_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))
    · exact StableHlo.devRef_ne_of_ne (hb _ (.tail _ (.tail _ (.tail _ (.tail _ (.tail _ (.tail _ (.tail _ (.tail _ (.head _))))))))))
    · exact StableHlo.devRef_ne_of_ne (hb _ (.tail _ (.tail _ (.tail _ (.tail _ (.tail _ (.tail _ (.tail _ (.tail _ (.tail _ (.head _)))))))))))
    · exact StableHlo.devRef_ne_of_ne (hb _ (.tail _ (.tail _ (.tail _ (.tail _ (.tail _ (.tail _ (.tail _ (.tail _ (.tail _ (.tail _ (.head _))))))))))))
    · exact StableHlo.devRef_ne_of_ne (hb _ (.tail _ (.tail _ (.tail _ (.tail _ (.tail _ (.tail _ (.tail _ (.tail _ (.tail _ (.tail _ (.tail _ (.head _)))))))))))))
    · exact StableHlo.devRef_ne_of_ne (hb _ (.tail _ (.tail _ (.tail _ (.tail _ (.tail _ (.tail _ (.tail _ (.tail _ (.tail _ (.tail _ (.tail _ (.tail _ (.head _))))))))))))))
    · exact StableHlo.devRef_ne_of_ne (hb _ (.tail _ (.tail _ (.tail _ (.tail _ (.tail _ (.tail _ (.tail _ (.tail _ (.tail _ (.tail _ (.tail _ (.tail _ (.tail _ (.head _)))))))))))))))
    · exact StableHlo.devRef_ne_of_ne (hb _ (.tail _ (.tail _ (.tail _ (.tail _ (.tail _ (.tail _ (.tail _ (.tail _ (.tail _ (.tail _ (.tail _ (.tail _ (.tail _ (.tail _ (.head _))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.head _)))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.head _))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.head _)))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.head _))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))
    · exact StableHlo.devRef_ne_of_ne (hb _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))

/-- What hostOps15_4 writes, in order. -/
def wl15_4 : List (Ref sig .tc) := [main_v364, main_v365, main_v366, main_v367, main_v368, main_v369, main_v370, main_v371]
/-- A buffer that is none of them is left as it was. -/
theorem keep15_4 (b : Ref sig .tc) (hb : ∀ y ∈ wl15_4, b ≠ y) (V : Valuation τ sig (Elt F)) :
    StableHlo.after (hostOps15_4 (F := F)) V (Proc.devRef .tc b) = V (Proc.devRef .tc b) :=
  StableHlo.after_of_forall_not_mem (b := Proc.devRef .tc b) _ _ (List.forall_iff_forall_mem.mp (by
    simp only [hostOps15_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))))

/-- What hostOps16 writes, in order. -/
def wl16 : List (Ref sig .tc) := [main_v373, main_v374, main_v375, main_v376, main_v377, main_v378, main_v379, main_v380]
/-- A buffer that is none of them is left as it was. -/
theorem keep16 (b : Ref sig .tc) (hb : ∀ y ∈ wl16, b ≠ y) (V : Valuation τ sig (Elt F)) :
    StableHlo.after (hostOps16 (F := F)) V (Proc.devRef .tc b) = V (Proc.devRef .tc b) :=
  StableHlo.after_of_forall_not_mem (b := Proc.devRef .tc b) _ _ (List.forall_iff_forall_mem.mp (by
    simp only [hostOps16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))
    · exact StableHlo.devRef_ne_of_ne (hb _ (.tail _ (.tail _ (.head _))))
    · exact StableHlo.devRef_ne_of_ne (hb _ (.tail _ (.tail _ (.tail _ (.head _)))))
    · exact StableHlo.devRef_ne_of_ne (hb _ (.tail _ (.tail _ (.tail _ (.tail _ (.head _))))))
    · exact StableHlo.devRef_ne_of_ne (hb _ (.tail _ (.tail _ (.tail _ (.tail _ (.tail _ (.head _)))))))
    · exact StableHlo.devRef_ne_of_ne (hb _ (.tail _ (.tail _ (.tail _ (.tail _ (.tail _ (.tail _ (.head _))))))))
    · exact StableHlo.devRef_ne_of_ne (hb _ (.tail _ (.tail _ (.tail _ (.tail _ (.tail _ (.tail _ (.tail _ (.head _)))))))))))

/-- What hostOps17 writes, in order. -/
def wl17 : List (Ref sig .tc) := [main_v382, main_v383]
/-- A buffer that is none of them is left as it was. -/
theorem keep17 (b : Ref sig .tc) (hb : ∀ y ∈ wl17, b ≠ y) (V : Valuation τ sig (Elt F)) :
    StableHlo.after (hostOps17 (F := F)) V (Proc.devRef .tc b) = V (Proc.devRef .tc b) :=
  StableHlo.after_of_forall_not_mem (b := Proc.devRef .tc b) _ _ (List.forall_iff_forall_mem.mp (by
    simp only [hostOps17, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    · exact StableHlo.devRef_ne_of_ne (hb _ (.head _))
    · exact StableHlo.devRef_ne_of_ne (hb _ (.tail _ (.head _)))))

end Cert.KernelIdeal.Carry

end
-- ==== Proof.KArgs.lean ====
import proofs.«143223_j29772713296000_1_alg».proof.Proof.Gen.KernelIdeal.Frame
import proofs.«143223_j29772713296000_1_alg».proof.Proof.ListAll
import proofs.«143223_j29772713296000_1_alg».proof.Proof.KKeep1
import proofs.«143223_j29772713296000_1_alg».proof.Proof.KKeep2
import proofs.«143223_j29772713296000_1_alg».proof.Proof.KKeep3

set_option maxRecDepth 16384
-- one theorem at a time: elaborated side by side the table's entries hold gigabytes together
set_option Elab.async false

noncomputable section

namespace Cert.KernelIdeal.Carry

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ) (ρ : Dev nD → PrngReg)

theorem c_arg0_0_1 (c : Dev nD) : W1 m ρ c (Proc.devRef .tc main_arg0) = W0 m ρ c (Proc.devRef .tc main_arg0) :=
  (keep0 main_arg0 (Cert.Carry.allc (by decide) (Cert.Carry.alln)) _).trans (rfl)

theorem c_arg1_0_1 (c : Dev nD) : W1 m ρ c (Proc.devRef .tc main_arg1) = W0 m ρ c (Proc.devRef .tc main_arg1) :=
  (keep0 main_arg1 (Cert.Carry.allc (by decide) (Cert.Carry.alln)) _).trans (rfl)
theorem c_arg1_0_2 (c : Dev nD) : W2 m ρ c (Proc.devRef .tc main_arg1) = W0 m ρ c (Proc.devRef .tc main_arg1) :=
  (W2_of_ne m ρ c main_arg1 (by decide)).trans (c_arg1_0_1 m ρ c)
theorem c_arg1_0_3 (c : Dev nD) : W3 m ρ c (Proc.devRef .tc main_arg1) = W0 m ρ c (Proc.devRef .tc main_arg1) :=
  (keep1 main_arg1 (Cert.Carry.allc (by decide) (Cert.Carry.alln)) _).trans (c_arg1_0_2 m ρ c)

theorem c_arg2_0_1 (c : Dev nD) : W1 m ρ c (Proc.devRef .tc main_arg2) = W0 m ρ c (Proc.devRef .tc main_arg2) :=
  (keep0 main_arg2 (Cert.Carry.allc (by decide) (Cert.Carry.alln)) _).trans (rfl)
theorem c_arg2_0_2 (c : Dev nD) : W2 m ρ c (Proc.devRef .tc main_arg2) = W0 m ρ c (Proc.devRef .tc main_arg2) :=
  (W2_of_ne m ρ c main_arg2 (by decide)).trans (c_arg2_0_1 m ρ c)
theorem c_arg2_0_3 (c : Dev nD) : W3 m ρ c (Proc.devRef .tc main_arg2) = W0 m ρ c (Proc.devRef .tc main_arg2) :=
  (keep1 main_arg2 (Cert.Carry.allc (by decide) (Cert.Carry.alln)) _).trans (c_arg2_0_2 m ρ c)
theorem c_arg2_0_4 (c : Dev nD) : W4 m ρ c (Proc.devRef .tc main_arg2) = W0 m ρ c (Proc.devRef .tc main_arg2) :=
  (W4_of_ne m ρ c main_arg2 (by decide)).trans (c_arg2_0_3 m ρ c)
theorem c_arg2_0_5 (c : Dev nD) : W5 m ρ c (Proc.devRef .tc main_arg2) = W0 m ρ c (Proc.devRef .tc main_arg2) :=
  (keep2 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg2_0_4 m ρ c)
theorem c_arg2_0_6 (c : Dev nD) : W6 m ρ c (Proc.devRef .tc main_arg2) = W0 m ρ c (Proc.devRef .tc main_arg2) :=
  (W6_of_ne m ρ c main_arg2 (by decide)).trans (c_arg2_0_5 m ρ c)
theorem c_arg2_0_7 (c : Dev nD) : W7 m ρ c (Proc.devRef .tc main_arg2) = W0 m ρ c (Proc.devRef .tc main_arg2) :=
  (keep3 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg2_0_6 m ρ c)
theorem c_arg2_0_8 (c : Dev nD) : W8 m ρ c (Proc.devRef .tc main_arg2) = W0 m ρ c (Proc.devRef .tc main_arg2) :=
  (W8_of_ne m ρ c main_arg2 (by decide)).trans (c_arg2_0_7 m ρ c)
theorem c_arg2_0_9 (c : Dev nD) : W9 m ρ c (Proc.devRef .tc main_arg2) = W0 m ρ c (Proc.devRef .tc main_arg2) :=
  (keep4 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg2_0_8 m ρ c)
theorem c_arg2_0_10 (c : Dev nD) : W10 m ρ c (Proc.devRef .tc main_arg2) = W0 m ρ c (Proc.devRef .tc main_arg2) :=
  (W10_of_ne m ρ c main_arg2 (by decide)).trans (c_arg2_0_9 m ρ c)
theorem c_arg2_0_11 (c : Dev nD) : W11 m ρ c (Proc.devRef .tc main_arg2) = W0 m ρ c (Proc.devRef .tc main_arg2) :=
  (keep5 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg2_0_10 m ρ c)
theorem c_arg2_0_12 (c : Dev nD) : W12 m ρ c (Proc.devRef .tc main_arg2) = W0 m ρ c (Proc.devRef .tc main_arg2) :=
  (keep5_1 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg2_0_11 m ρ c)
theorem c_arg2_0_13 (c : Dev nD) : W13 m ρ c (Proc.devRef .tc main_arg2) = W0 m ρ c (Proc.devRef .tc main_arg2) :=
  (keep5_2 main_arg2 (Cert.Carry.allc (by decide) (Cert.Carry.allc (by decide) (Cert.Carry.allc (by decide) (Cert.Carry.allc (by decide) (Cert.Carry.allc (by decide) (Cert.Carry.allc (by decide) (Cert.Carry.alln))))))) _).trans (c_arg2_0_12 m ρ c)
theorem c_arg2_0_14 (c : Dev nD) : W14 m ρ c (Proc.devRef .tc main_arg2) = W0 m ρ c (Proc.devRef .tc main_arg2) :=
  (keep5_3 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg2_0_13 m ρ c)
theorem c_arg2_0_15 (c : Dev nD) : W15 m ρ c (Proc.devRef .tc main_arg2) = W0 m ρ c (Proc.devRef .tc main_arg2) :=
  (keep5_4 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg2_0_14 m ρ c)
theorem c_arg2_0_16 (c : Dev nD) : W16 m ρ c (Proc.devRef .tc main_arg2) = W0 m ρ c (Proc.devRef .tc main_arg2) :=
  (W16_of_ne m ρ c main_arg2 (by decide)).trans (c_arg2_0_15 m ρ c)
theorem c_arg2_0_17 (c : Dev nD) : W17 m ρ c (Proc.devRef .tc main_arg2) = W0 m ρ c (Proc.devRef .tc main_arg2) :=
  (keep6 main_arg2 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg2_0_16 m ρ c)
theorem c_arg2_0_18 (c : Dev nD) : W18 m ρ c (Proc.devRef .tc main_arg2) = W0 m ρ c (Proc.devRef .tc main_arg2) :=
  (W18_of_ne m ρ c main_arg2 (by decide)).trans (c_arg2_0_17 m ρ c)

theorem c_arg3_0_1 (c : Dev nD) : W1 m ρ c (Proc.devRef .tc main_arg3) = W0 m ρ c (Proc.devRef .tc main_arg3) :=
  (keep0 main_arg3 (Cert.Carry.allc (by decide) (Cert.Carry.alln)) _).trans (rfl)
theorem c_arg3_0_2 (c : Dev nD) : W2 m ρ c (Proc.devRef .tc main_arg3) = W0 m ρ c (Proc.devRef .tc main_arg3) :=
  (W2_of_ne m ρ c main_arg3 (by decide)).trans (c_arg3_0_1 m ρ c)
theorem c_arg3_0_3 (c : Dev nD) : W3 m ρ c (Proc.devRef .tc main_arg3) = W0 m ρ c (Proc.devRef .tc main_arg3) :=
  (keep1 main_arg3 (Cert.Carry.allc (by decide) (Cert.Carry.alln)) _).trans (c_arg3_0_2 m ρ c)
theorem c_arg3_0_4 (c : Dev nD) : W4 m ρ c (Proc.devRef .tc main_arg3) = W0 m ρ c (Proc.devRef .tc main_arg3) :=
  (W4_of_ne m ρ c main_arg3 (by decide)).trans (c_arg3_0_3 m ρ c)
theorem c_arg3_0_5 (c : Dev nD) : W5 m ρ c (Proc.devRef .tc main_arg3) = W0 m ρ c (Proc.devRef .tc main_arg3) :=
  (keep2 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_4 m ρ c)
theorem c_arg3_0_6 (c : Dev nD) : W6 m ρ c (Proc.devRef .tc main_arg3) = W0 m ρ c (Proc.devRef .tc main_arg3) :=
  (W6_of_ne m ρ c main_arg3 (by decide)).trans (c_arg3_0_5 m ρ c)
theorem c_arg3_0_7 (c : Dev nD) : W7 m ρ c (Proc.devRef .tc main_arg3) = W0 m ρ c (Proc.devRef .tc main_arg3) :=
  (keep3 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_6 m ρ c)
theorem c_arg3_0_8 (c : Dev nD) : W8 m ρ c (Proc.devRef .tc main_arg3) = W0 m ρ c (Proc.devRef .tc main_arg3) :=
  (W8_of_ne m ρ c main_arg3 (by decide)).trans (c_arg3_0_7 m ρ c)
theorem c_arg3_0_9 (c : Dev nD) : W9 m ρ c (Proc.devRef .tc main_arg3) = W0 m ρ c (Proc.devRef .tc main_arg3) :=
  (keep4 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_8 m ρ c)
theorem c_arg3_0_10 (c : Dev nD) : W10 m ρ c (Proc.devRef .tc main_arg3) = W0 m ρ c (Proc.devRef .tc main_arg3) :=
  (W10_of_ne m ρ c main_arg3 (by decide)).trans (c_arg3_0_9 m ρ c)
theorem c_arg3_0_11 (c : Dev nD) : W11 m ρ c (Proc.devRef .tc main_arg3) = W0 m ρ c (Proc.devRef .tc main_arg3) :=
  (keep5 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg3_0_10 m ρ c)
theorem c_arg3_0_12 (c : Dev nD) : W12 m ρ c (Proc.devRef .tc main_arg3) = W0 m ρ c (Proc.devRef .tc main_arg3) :=
  (keep5_1 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg3_0_11 m ρ c)
theorem c_arg3_0_13 (c : Dev nD) : W13 m ρ c (Proc.devRef .tc main_arg3) = W0 m ρ c (Proc.devRef .tc main_arg3) :=
  (keep5_2 main_arg3 (Cert.Carry.allc (by decide) (Cert.Carry.allc (by decide) (Cert.Carry.allc (by decide) (Cert.Carry.allc (by decide) (Cert.Carry.allc (by decide) (Cert.Carry.allc (by decide) (Cert.Carry.alln))))))) _).trans (c_arg3_0_12 m ρ c)
theorem c_arg3_0_14 (c : Dev nD) : W14 m ρ c (Proc.devRef .tc main_arg3) = W0 m ρ c (Proc.devRef .tc main_arg3) :=
  (keep5_3 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg3_0_13 m ρ c)
theorem c_arg3_0_15 (c : Dev nD) : W15 m ρ c (Proc.devRef .tc main_arg3) = W0 m ρ c (Proc.devRef .tc main_arg3) :=
  (keep5_4 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg3_0_14 m ρ c)
theorem c_arg3_0_16 (c : Dev nD) : W16 m ρ c (Proc.devRef .tc main_arg3) = W0 m ρ c (Proc.devRef .tc main_arg3) :=
  (W16_of_ne m ρ c main_arg3 (by decide)).trans (c_arg3_0_15 m ρ c)
theorem c_arg3_0_17 (c : Dev nD) : W17 m ρ c (Proc.devRef .tc main_arg3) = W0 m ρ c (Proc.devRef .tc main_arg3) :=
  (keep6 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg3_0_16 m ρ c)
theorem c_arg3_0_18 (c : Dev nD) : W18 m ρ c (Proc.devRef .tc main_arg3) = W0 m ρ c (Proc.devRef .tc main_arg3) :=
  (W18_of_ne m ρ c main_arg3 (by decide)).trans (c_arg3_0_17 m ρ c)
theorem c_arg3_0_19 (c : Dev nD) : W19 m ρ c (Proc.devRef .tc main_arg3) = W0 m ρ c (Proc.devRef .tc main_arg3) :=
  (keep7 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_18 m ρ c)
theorem c_arg3_0_20 (c : Dev nD) : W20 m ρ c (Proc.devRef .tc main_arg3) = W0 m ρ c (Proc.devRef .tc main_arg3) :=
  (W20_of_ne m ρ c main_arg3 (by decide)).trans (c_arg3_0_19 m ρ c)
theorem c_arg3_0_21 (c : Dev nD) : W21 m ρ c (Proc.devRef .tc main_arg3) = W0 m ρ c (Proc.devRef .tc main_arg3) :=
  (keep8 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_20 m ρ c)
theorem c_arg3_0_22 (c : Dev nD) : W22 m ρ c (Proc.devRef .tc main_arg3) = W0 m ρ c (Proc.devRef .tc main_arg3) :=
  (W22_of_ne m ρ c main_arg3 (by decide)).trans (c_arg3_0_21 m ρ c)
theorem c_arg3_0_23 (c : Dev nD) : W23 m ρ c (Proc.devRef .tc main_arg3) = W0 m ρ c (Proc.devRef .tc main_arg3) :=
  (keep9 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_22 m ρ c)
theorem c_arg3_0_24 (c : Dev nD) : W24 m ρ c (Proc.devRef .tc main_arg3) = W0 m ρ c (Proc.devRef .tc main_arg3) :=
  (W24_of_ne m ρ c main_arg3 (by decide)).trans (c_arg3_0_23 m ρ c)
theorem c_arg3_0_25 (c : Dev nD) : W25 m ρ c (Proc.devRef .tc main_arg3) = W0 m ρ c (Proc.devRef .tc main_arg3) :=
  (keep10 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg3_0_24 m ρ c)
theorem c_arg3_0_26 (c : Dev nD) : W26 m ρ c (Proc.devRef .tc main_arg3) = W0 m ρ c (Proc.devRef .tc main_arg3) :=
  (keep10_1 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg3_0_25 m ρ c)
theorem c_arg3_0_27 (c : Dev nD) : W27 m ρ c (Proc.devRef .tc main_arg3) = W0 m ρ c (Proc.devRef .tc main_arg3) :=
  (keep10_2 main_arg3 (Cert.Carry.allc (by decide) (Cert.Carry.allc (by decide) (Cert.Carry.allc (by decide) (Cert.Carry.allc (by decide) (Cert.Carry.allc (by decide) (Cert.Carry.allc (by decide) (Cert.Carry.alln))))))) _).trans (c_arg3_0_26 m ρ c)
theorem c_arg3_0_28 (c : Dev nD) : W28 m ρ c (Proc.devRef .tc main_arg3) = W0 m ρ c (Proc.devRef .tc main_arg3) :=
  (keep10_3 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg3_0_27 m ρ c)
theorem c_arg3_0_29 (c : Dev nD) : W29 m ρ c (Proc.devRef .tc main_arg3) = W0 m ρ c (Proc.devRef .tc main_arg3) :=
  (keep10_4 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg3_0_28 m ρ c)
theorem c_arg3_0_30 (c : Dev nD) : W30 m ρ c (Proc.devRef .tc main_arg3) = W0 m ρ c (Proc.devRef .tc main_arg3) :=
  (W30_of_ne m ρ c main_arg3 (by decide)).trans (c_arg3_0_29 m ρ c)
theorem c_arg3_0_31 (c : Dev nD) : W31 m ρ c (Proc.devRef .tc main_arg3) = W0 m ρ c (Proc.devRef .tc main_arg3) :=
  (keep11 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg3_0_30 m ρ c)
theorem c_arg3_0_32 (c : Dev nD) : W32 m ρ c (Proc.devRef .tc main_arg3) = W0 m ρ c (Proc.devRef .tc main_arg3) :=
  (W32_of_ne m ρ c main_arg3 (by decide)).trans (c_arg3_0_31 m ρ c)
theorem c_arg3_0_33 (c : Dev nD) : W33 m ρ c (Proc.devRef .tc main_arg3) = W0 m ρ c (Proc.devRef .tc main_arg3) :=
  (keep12 main_arg3 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg3_0_32 m ρ c)
theorem c_arg3_0_34 (c : Dev nD) : W34 m ρ c (Proc.devRef .tc main_arg3) = W0 m ρ c (Proc.devRef .tc main_arg3) :=
  (W34_of_ne m ρ c main_arg3 (by decide)).trans (c_arg3_0_33 m ρ c)

theorem c_arg4_0_1 (c : Dev nD) : W1 m ρ c (Proc.devRef .tc main_arg4) = W0 m ρ c (Proc.devRef .tc main_arg4) :=
  (keep0 main_arg4 (Cert.Carry.allc (by decide) (Cert.Carry.alln)) _).trans (rfl)
theorem c_arg4_0_2 (c : Dev nD) : W2 m ρ c (Proc.devRef .tc main_arg4) = W0 m ρ c (Proc.devRef .tc main_arg4) :=
  (W2_of_ne m ρ c main_arg4 (by decide)).trans (c_arg4_0_1 m ρ c)
theorem c_arg4_0_3 (c : Dev nD) : W3 m ρ c (Proc.devRef .tc main_arg4) = W0 m ρ c (Proc.devRef .tc main_arg4) :=
  (keep1 main_arg4 (Cert.Carry.allc (by decide) (Cert.Carry.alln)) _).trans (c_arg4_0_2 m ρ c)
theorem c_arg4_0_4 (c : Dev nD) : W4 m ρ c (Proc.devRef .tc main_arg4) = W0 m ρ c (Proc.devRef .tc main_arg4) :=
  (W4_of_ne m ρ c main_arg4 (by decide)).trans (c_arg4_0_3 m ρ c)
theorem c_arg4_0_5 (c : Dev nD) : W5 m ρ c (Proc.devRef .tc main_arg4) = W0 m ρ c (Proc.devRef .tc main_arg4) :=
  (keep2 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_4 m ρ c)
theorem c_arg4_0_6 (c : Dev nD) : W6 m ρ c (Proc.devRef .tc main_arg4) = W0 m ρ c (Proc.devRef .tc main_arg4) :=
  (W6_of_ne m ρ c main_arg4 (by decide)).trans (c_arg4_0_5 m ρ c)
theorem c_arg4_0_7 (c : Dev nD) : W7 m ρ c (Proc.devRef .tc main_arg4) = W0 m ρ c (Proc.devRef .tc main_arg4) :=
  (keep3 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_6 m ρ c)
theorem c_arg4_0_8 (c : Dev nD) : W8 m ρ c (Proc.devRef .tc main_arg4) = W0 m ρ c (Proc.devRef .tc main_arg4) :=
  (W8_of_ne m ρ c main_arg4 (by decide)).trans (c_arg4_0_7 m ρ c)
theorem c_arg4_0_9 (c : Dev nD) : W9 m ρ c (Proc.devRef .tc main_arg4) = W0 m ρ c (Proc.devRef .tc main_arg4) :=
  (keep4 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_8 m ρ c)
theorem c_arg4_0_10 (c : Dev nD) : W10 m ρ c (Proc.devRef .tc main_arg4) = W0 m ρ c (Proc.devRef .tc main_arg4) :=
  (W10_of_ne m ρ c main_arg4 (by decide)).trans (c_arg4_0_9 m ρ c)
theorem c_arg4_0_11 (c : Dev nD) : W11 m ρ c (Proc.devRef .tc main_arg4) = W0 m ρ c (Proc.devRef .tc main_arg4) :=
  (keep5 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg4_0_10 m ρ c)
theorem c_arg4_0_12 (c : Dev nD) : W12 m ρ c (Proc.devRef .tc main_arg4) = W0 m ρ c (Proc.devRef .tc main_arg4) :=
  (keep5_1 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg4_0_11 m ρ c)
theorem c_arg4_0_13 (c : Dev nD) : W13 m ρ c (Proc.devRef .tc main_arg4) = W0 m ρ c (Proc.devRef .tc main_arg4) :=
  (keep5_2 main_arg4 (Cert.Carry.allc (by decide) (Cert.Carry.allc (by decide) (Cert.Carry.allc (by decide) (Cert.Carry.allc (by decide) (Cert.Carry.allc (by decide) (Cert.Carry.allc (by decide) (Cert.Carry.alln))))))) _).trans (c_arg4_0_12 m ρ c)
theorem c_arg4_0_14 (c : Dev nD) : W14 m ρ c (Proc.devRef .tc main_arg4) = W0 m ρ c (Proc.devRef .tc main_arg4) :=
  (keep5_3 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg4_0_13 m ρ c)
theorem c_arg4_0_15 (c : Dev nD) : W15 m ρ c (Proc.devRef .tc main_arg4) = W0 m ρ c (Proc.devRef .tc main_arg4) :=
  (keep5_4 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg4_0_14 m ρ c)
theorem c_arg4_0_16 (c : Dev nD) : W16 m ρ c (Proc.devRef .tc main_arg4) = W0 m ρ c (Proc.devRef .tc main_arg4) :=
  (W16_of_ne m ρ c main_arg4 (by decide)).trans (c_arg4_0_15 m ρ c)
theorem c_arg4_0_17 (c : Dev nD) : W17 m ρ c (Proc.devRef .tc main_arg4) = W0 m ρ c (Proc.devRef .tc main_arg4) :=
  (keep6 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg4_0_16 m ρ c)
theorem c_arg4_0_18 (c : Dev nD) : W18 m ρ c (Proc.devRef .tc main_arg4) = W0 m ρ c (Proc.devRef .tc main_arg4) :=
  (W18_of_ne m ρ c main_arg4 (by decide)).trans (c_arg4_0_17 m ρ c)
theorem c_arg4_0_19 (c : Dev nD) : W19 m ρ c (Proc.devRef .tc main_arg4) = W0 m ρ c (Proc.devRef .tc main_arg4) :=
  (keep7 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_18 m ρ c)
theorem c_arg4_0_20 (c : Dev nD) : W20 m ρ c (Proc.devRef .tc main_arg4) = W0 m ρ c (Proc.devRef .tc main_arg4) :=
  (W20_of_ne m ρ c main_arg4 (by decide)).trans (c_arg4_0_19 m ρ c)
theorem c_arg4_0_21 (c : Dev nD) : W21 m ρ c (Proc.devRef .tc main_arg4) = W0 m ρ c (Proc.devRef .tc main_arg4) :=
  (keep8 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_20 m ρ c)
theorem c_arg4_0_22 (c : Dev nD) : W22 m ρ c (Proc.devRef .tc main_arg4) = W0 m ρ c (Proc.devRef .tc main_arg4) :=
  (W22_of_ne m ρ c main_arg4 (by decide)).trans (c_arg4_0_21 m ρ c)
theorem c_arg4_0_23 (c : Dev nD) : W23 m ρ c (Proc.devRef .tc main_arg4) = W0 m ρ c (Proc.devRef .tc main_arg4) :=
  (keep9 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_22 m ρ c)
theorem c_arg4_0_24 (c : Dev nD) : W24 m ρ c (Proc.devRef .tc main_arg4) = W0 m ρ c (Proc.devRef .tc main_arg4) :=
  (W24_of_ne m ρ c main_arg4 (by decide)).trans (c_arg4_0_23 m ρ c)
theorem c_arg4_0_25 (c : Dev nD) : W25 m ρ c (Proc.devRef .tc main_arg4) = W0 m ρ c (Proc.devRef .tc main_arg4) :=
  (keep10 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg4_0_24 m ρ c)
theorem c_arg4_0_26 (c : Dev nD) : W26 m ρ c (Proc.devRef .tc main_arg4) = W0 m ρ c (Proc.devRef .tc main_arg4) :=
  (keep10_1 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg4_0_25 m ρ c)
theorem c_arg4_0_27 (c : Dev nD) : W27 m ρ c (Proc.devRef .tc main_arg4) = W0 m ρ c (Proc.devRef .tc main_arg4) :=
  (keep10_2 main_arg4 (Cert.Carry.allc (by decide) (Cert.Carry.allc (by decide) (Cert.Carry.allc (by decide) (Cert.Carry.allc (by decide) (Cert.Carry.allc (by decide) (Cert.Carry.allc (by decide) (Cert.Carry.alln))))))) _).trans (c_arg4_0_26 m ρ c)
theorem c_arg4_0_28 (c : Dev nD) : W28 m ρ c (Proc.devRef .tc main_arg4) = W0 m ρ c (Proc.devRef .tc main_arg4) :=
  (keep10_3 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg4_0_27 m ρ c)
theorem c_arg4_0_29 (c : Dev nD) : W29 m ρ c (Proc.devRef .tc main_arg4) = W0 m ρ c (Proc.devRef .tc main_arg4) :=
  (keep10_4 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg4_0_28 m ρ c)
theorem c_arg4_0_30 (c : Dev nD) : W30 m ρ c (Proc.devRef .tc main_arg4) = W0 m ρ c (Proc.devRef .tc main_arg4) :=
  (W30_of_ne m ρ c main_arg4 (by decide)).trans (c_arg4_0_29 m ρ c)
theorem c_arg4_0_31 (c : Dev nD) : W31 m ρ c (Proc.devRef .tc main_arg4) = W0 m ρ c (Proc.devRef .tc main_arg4) :=
  (keep11 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg4_0_30 m ρ c)
theorem c_arg4_0_32 (c : Dev nD) : W32 m ρ c (Proc.devRef .tc main_arg4) = W0 m ρ c (Proc.devRef .tc main_arg4) :=
  (W32_of_ne m ρ c main_arg4 (by decide)).trans (c_arg4_0_31 m ρ c)
theorem c_arg4_0_33 (c : Dev nD) : W33 m ρ c (Proc.devRef .tc main_arg4) = W0 m ρ c (Proc.devRef .tc main_arg4) :=
  (keep12 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_32 m ρ c)
theorem c_arg4_0_34 (c : Dev nD) : W34 m ρ c (Proc.devRef .tc main_arg4) = W0 m ρ c (Proc.devRef .tc main_arg4) :=
  (W34_of_ne m ρ c main_arg4 (by decide)).trans (c_arg4_0_33 m ρ c)
theorem c_arg4_0_35 (c : Dev nD) : W35 m ρ c (Proc.devRef .tc main_arg4) = W0 m ρ c (Proc.devRef .tc main_arg4) :=
  (keep13 main_arg4 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg4_0_34 m ρ c)
theorem c_arg4_0_36 (c : Dev nD) : W36 m ρ c (Proc.devRef .tc main_arg4) = W0 m ρ c (Proc.devRef .tc main_arg4) :=
  (W36_of_ne m ρ c main_arg4 (by decide)).trans (c_arg4_0_35 m ρ c)

theorem c_arg5_0_1 (c : Dev nD) : W1 m ρ c (Proc.devRef .tc main_arg5) = W0 m ρ c (Proc.devRef .tc main_arg5) :=
  (keep0 main_arg5 (Cert.Carry.allc (by decide) (Cert.Carry.alln)) _).trans (rfl)

theorem c_arg7_0_1 (c : Dev nD) : W1 m ρ c (Proc.devRef .tc main_arg7) = W0 m ρ c (Proc.devRef .tc main_arg7) :=
  (keep0 main_arg7 (Cert.Carry.allc (by decide) (Cert.Carry.alln)) _).trans (rfl)
theorem c_arg7_0_2 (c : Dev nD) : W2 m ρ c (Proc.devRef .tc main_arg7) = W0 m ρ c (Proc.devRef .tc main_arg7) :=
  (W2_of_ne m ρ c main_arg7 (by decide)).trans (c_arg7_0_1 m ρ c)
theorem c_arg7_0_3 (c : Dev nD) : W3 m ρ c (Proc.devRef .tc main_arg7) = W0 m ρ c (Proc.devRef .tc main_arg7) :=
  (keep1 main_arg7 (Cert.Carry.allc (by decide) (Cert.Carry.alln)) _).trans (c_arg7_0_2 m ρ c)

theorem c_arg8_0_1 (c : Dev nD) : W1 m ρ c (Proc.devRef .tc main_arg8) = W0 m ρ c (Proc.devRef .tc main_arg8) :=
  (keep0 main_arg8 (Cert.Carry.allc (by decide) (Cert.Carry.alln)) _).trans (rfl)
theorem c_arg8_0_2 (c : Dev nD) : W2 m ρ c (Proc.devRef .tc main_arg8) = W0 m ρ c (Proc.devRef .tc main_arg8) :=
  (W2_of_ne m ρ c main_arg8 (by decide)).trans (c_arg8_0_1 m ρ c)

theorem c_arg9_0_1 (c : Dev nD) : W1 m ρ c (Proc.devRef .tc main_arg9) = W0 m ρ c (Proc.devRef .tc main_arg9) :=
  (keep0 main_arg9 (Cert.Carry.allc (by decide) (Cert.Carry.alln)) _).trans (rfl)
theorem c_arg9_0_2 (c : Dev nD) : W2 m ρ c (Proc.devRef .tc main_arg9) = W0 m ρ c (Proc.devRef .tc main_arg9) :=
  (W2_of_ne m ρ c main_arg9 (by decide)).trans (c_arg9_0_1 m ρ c)
theorem c_arg9_0_3 (c : Dev nD) : W3 m ρ c (Proc.devRef .tc main_arg9) = W0 m ρ c (Proc.devRef .tc main_arg9) :=
  (keep1 main_arg9 (Cert.Carry.allc (by decide) (Cert.Carry.alln)) _).trans (c_arg9_0_2 m ρ c)
theorem c_arg9_0_4 (c : Dev nD) : W4 m ρ c (Proc.devRef .tc main_arg9) = W0 m ρ c (Proc.devRef .tc main_arg9) :=
  (W4_of_ne m ρ c main_arg9 (by decide)).trans (c_arg9_0_3 m ρ c)
theorem c_arg9_0_5 (c : Dev nD) : W5 m ρ c (Proc.devRef .tc main_arg9) = W0 m ρ c (Proc.devRef .tc main_arg9) :=
  (keep2 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg9_0_4 m ρ c)
theorem c_arg9_0_6 (c : Dev nD) : W6 m ρ c (Proc.devRef .tc main_arg9) = W0 m ρ c (Proc.devRef .tc main_arg9) :=
  (W6_of_ne m ρ c main_arg9 (by decide)).trans (c_arg9_0_5 m ρ c)
theorem c_arg9_0_7 (c : Dev nD) : W7 m ρ c (Proc.devRef .tc main_arg9) = W0 m ρ c (Proc.devRef .tc main_arg9) :=
  (keep3 main_arg9 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg9_0_6 m ρ c)
theorem c_arg9_0_8 (c : Dev nD) : W8 m ρ c (Proc.devRef .tc main_arg9) = W0 m ρ c (Proc.devRef .tc main_arg9) :=
  (W8_of_ne m ρ c main_arg9 (by decide)).trans (c_arg9_0_7 m ρ c)

theorem c_arg10_0_1 (c : Dev nD) : W1 m ρ c (Proc.devRef .tc main_arg10) = W0 m ρ c (Proc.devRef .tc main_arg10) :=
  (keep0 main_arg10 (Cert.Carry.allc (by decide) (Cert.Carry.alln)) _).trans (rfl)
theorem c_arg10_0_2 (c : Dev nD) : W2 m ρ c (Proc.devRef .tc main_arg10) = W0 m ρ c (Proc.devRef .tc main_arg10) :=
  (W2_of_ne m ρ c main_arg10 (by decide)).trans (c_arg10_0_1 m ρ c)
theorem c_arg10_0_3 (c : Dev nD) : W3 m ρ c (Proc.devRef .tc main_arg10) = W0 m ρ c (Proc.devRef .tc main_arg10) :=
  (keep1 main_arg10 (Cert.Carry.allc (by decide) (Cert.Carry.alln)) _).trans (c_arg10_0_2 m ρ c)
theorem c_arg10_0_4 (c : Dev nD) : W4 m ρ c (Proc.devRef .tc main_arg10) = W0 m ρ c (Proc.devRef .tc main_arg10) :=
  (W4_of_ne m ρ c main_arg10 (by decide)).trans (c_arg10_0_3 m ρ c)
theorem c_arg10_0_5 (c : Dev nD) : W5 m ρ c (Proc.devRef .tc main_arg10) = W0 m ρ c (Proc.devRef .tc main_arg10) :=
  (keep2 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg10_0_4 m ρ c)
theorem c_arg10_0_6 (c : Dev nD) : W6 m ρ c (Proc.devRef .tc main_arg10) = W0 m ρ c (Proc.devRef .tc main_arg10) :=
  (W6_of_ne m ρ c main_arg10 (by decide)).trans (c_arg10_0_5 m ρ c)
theorem c_arg10_0_7 (c : Dev nD) : W7 m ρ c (Proc.devRef .tc main_arg10) = W0 m ρ c (Proc.devRef .tc main_arg10) :=
  (keep3 main_arg10 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg10_0_6 m ρ c)
theorem c_arg10_0_8 (c : Dev nD) : W8 m ρ c (Proc.devRef .tc main_arg10) = W0 m ρ c (Proc.devRef .tc main_arg10) :=
  (W8_of_ne m ρ c main_arg10 (by decide)).trans (c_arg10_0_7 m ρ c)

theorem c_arg11_0_1 (c : Dev nD) : W1 m ρ c (Proc.devRef .tc main_arg11) = W0 m ρ c (Proc.devRef .tc main_arg11) :=
  (keep0 main_arg11 (Cert.Carry.allc (by decide) (Cert.Carry.alln)) _).trans (rfl)
theorem c_arg11_0_2 (c : Dev nD) : W2 m ρ c (Proc.devRef .tc main_arg11) = W0 m ρ c (Proc.devRef .tc main_arg11) :=
  (W2_of_ne m ρ c main_arg11 (by decide)).trans (c_arg11_0_1 m ρ c)
theorem c_arg11_0_3 (c : Dev nD) : W3 m ρ c (Proc.devRef .tc main_arg11) = W0 m ρ c (Proc.devRef .tc main_arg11) :=
  (keep1 main_arg11 (Cert.Carry.allc (by decide) (Cert.Carry.alln)) _).trans (c_arg11_0_2 m ρ c)
theorem c_arg11_0_4 (c : Dev nD) : W4 m ρ c (Proc.devRef .tc main_arg11) = W0 m ρ c (Proc.devRef .tc main_arg11) :=
  (W4_of_ne m ρ c main_arg11 (by decide)).trans (c_arg11_0_3 m ρ c)
theorem c_arg11_0_5 (c : Dev nD) : W5 m ρ c (Proc.devRef .tc main_arg11) = W0 m ρ c (Proc.devRef .tc main_arg11) :=
  (keep2 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg11_0_4 m ρ c)
theorem c_arg11_0_6 (c : Dev nD) : W6 m ρ c (Proc.devRef .tc main_arg11) = W0 m ρ c (Proc.devRef .tc main_arg11) :=
  (W6_of_ne m ρ c main_arg11 (by decide)).trans (c_arg11_0_5 m ρ c)
theorem c_arg11_0_7 (c : Dev nD) : W7 m ρ c (Proc.devRef .tc main_arg11) = W0 m ρ c (Proc.devRef .tc main_arg11) :=
  (keep3 main_arg11 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg11_0_6 m ρ c)
theorem c_arg11_0_8 (c : Dev nD) : W8 m ρ c (Proc.devRef .tc main_arg11) = W0 m ρ c (Proc.devRef .tc main_arg11) :=
  (W8_of_ne m ρ c main_arg11 (by decide)).trans (c_arg11_0_7 m ρ c)

theorem c_arg12_0_1 (c : Dev nD) : W1 m ρ c (Proc.devRef .tc main_arg12) = W0 m ρ c (Proc.devRef .tc main_arg12) :=
  (keep0 main_arg12 (Cert.Carry.allc (by decide) (Cert.Carry.alln)) _).trans (rfl)
theorem c_arg12_0_2 (c : Dev nD) : W2 m ρ c (Proc.devRef .tc main_arg12) = W0 m ρ c (Proc.devRef .tc main_arg12) :=
  (W2_of_ne m ρ c main_arg12 (by decide)).trans (c_arg12_0_1 m ρ c)
theorem c_arg12_0_3 (c : Dev nD) : W3 m ρ c (Proc.devRef .tc main_arg12) = W0 m ρ c (Proc.devRef .tc main_arg12) :=
  (keep1 main_arg12 (Cert.Carry.allc (by decide) (Cert.Carry.alln)) _).trans (c_arg12_0_2 m ρ c)
theorem c_arg12_0_4 (c : Dev nD) : W4 m ρ c (Proc.devRef .tc main_arg12) = W0 m ρ c (Proc.devRef .tc main_arg12) :=
  (W4_of_ne m ρ c main_arg12 (by decide)).trans (c_arg12_0_3 m ρ c)
theorem c_arg12_0_5 (c : Dev nD) : W5 m ρ c (Proc.devRef .tc main_arg12) = W0 m ρ c (Proc.devRef .tc main_arg12) :=
  (keep2 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg12_0_4 m ρ c)
theorem c_arg12_0_6 (c : Dev nD) : W6 m ρ c (Proc.devRef .tc main_arg12) = W0 m ρ c (Proc.devRef .tc main_arg12) :=
  (W6_of_ne m ρ c main_arg12 (by decide)).trans (c_arg12_0_5 m ρ c)
theorem c_arg12_0_7 (c : Dev nD) : W7 m ρ c (Proc.devRef .tc main_arg12) = W0 m ρ c (Proc.devRef .tc main_arg12) :=
  (keep3 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg12_0_6 m ρ c)
theorem c_arg12_0_8 (c : Dev nD) : W8 m ρ c (Proc.devRef .tc main_arg12) = W0 m ρ c (Proc.devRef .tc main_arg12) :=
  (W8_of_ne m ρ c main_arg12 (by decide)).trans (c_arg12_0_7 m ρ c)
theorem c_arg12_0_9 (c : Dev nD) : W9 m ρ c (Proc.devRef .tc main_arg12) = W0 m ρ c (Proc.devRef .tc main_arg12) :=
  (keep4 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg12_0_8 m ρ c)
theorem c_arg12_0_10 (c : Dev nD) : W10 m ρ c (Proc.devRef .tc main_arg12) = W0 m ρ c (Proc.devRef .tc main_arg12) :=
  (W10_of_ne m ρ c main_arg12 (by decide)).trans (c_arg12_0_9 m ρ c)
theorem c_arg12_0_11 (c : Dev nD) : W11 m ρ c (Proc.devRef .tc main_arg12) = W0 m ρ c (Proc.devRef .tc main_arg12) :=
  (keep5 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg12_0_10 m ρ c)
theorem c_arg12_0_12 (c : Dev nD) : W12 m ρ c (Proc.devRef .tc main_arg12) = W0 m ρ c (Proc.devRef .tc main_arg12) :=
  (keep5_1 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg12_0_11 m ρ c)
theorem c_arg12_0_13 (c : Dev nD) : W13 m ρ c (Proc.devRef .tc main_arg12) = W0 m ρ c (Proc.devRef .tc main_arg12) :=
  (keep5_2 main_arg12 (Cert.Carry.allc (by decide) (Cert.Carry.allc (by decide) (Cert.Carry.allc (by decide) (Cert.Carry.allc (by decide) (Cert.Carry.allc (by decide) (Cert.Carry.allc (by decide) (Cert.Carry.alln))))))) _).trans (c_arg12_0_12 m ρ c)
theorem c_arg12_0_14 (c : Dev nD) : W14 m ρ c (Proc.devRef .tc main_arg12) = W0 m ρ c (Proc.devRef .tc main_arg12) :=
  (keep5_3 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg12_0_13 m ρ c)
theorem c_arg12_0_15 (c : Dev nD) : W15 m ρ c (Proc.devRef .tc main_arg12) = W0 m ρ c (Proc.devRef .tc main_arg12) :=
  (keep5_4 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg12_0_14 m ρ c)
theorem c_arg12_0_16 (c : Dev nD) : W16 m ρ c (Proc.devRef .tc main_arg12) = W0 m ρ c (Proc.devRef .tc main_arg12) :=
  (W16_of_ne m ρ c main_arg12 (by decide)).trans (c_arg12_0_15 m ρ c)
theorem c_arg12_0_17 (c : Dev nD) : W17 m ρ c (Proc.devRef .tc main_arg12) = W0 m ρ c (Proc.devRef .tc main_arg12) :=
  (keep6 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg12_0_16 m ρ c)
theorem c_arg12_0_18 (c : Dev nD) : W18 m ρ c (Proc.devRef .tc main_arg12) = W0 m ρ c (Proc.devRef .tc main_arg12) :=
  (W18_of_ne m ρ c main_arg12 (by decide)).trans (c_arg12_0_17 m ρ c)
theorem c_arg12_0_19 (c : Dev nD) : W19 m ρ c (Proc.devRef .tc main_arg12) = W0 m ρ c (Proc.devRef .tc main_arg12) :=
  (keep7 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg12_0_18 m ρ c)
theorem c_arg12_0_20 (c : Dev nD) : W20 m ρ c (Proc.devRef .tc main_arg12) = W0 m ρ c (Proc.devRef .tc main_arg12) :=
  (W20_of_ne m ρ c main_arg12 (by decide)).trans (c_arg12_0_19 m ρ c)
theorem c_arg12_0_21 (c : Dev nD) : W21 m ρ c (Proc.devRef .tc main_arg12) = W0 m ρ c (Proc.devRef .tc main_arg12) :=
  (keep8 main_arg12 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg12_0_20 m ρ c)
theorem c_arg12_0_22 (c : Dev nD) : W22 m ρ c (Proc.devRef .tc main_arg12) = W0 m ρ c (Proc.devRef .tc main_arg12) :=
  (W22_of_ne m ρ c main_arg12 (by decide)).trans (c_arg12_0_21 m ρ c)

theorem c_arg13_0_1 (c : Dev nD) : W1 m ρ c (Proc.devRef .tc main_arg13) = W0 m ρ c (Proc.devRef .tc main_arg13) :=
  (keep0 main_arg13 (Cert.Carry.allc (by decide) (Cert.Carry.alln)) _).trans (rfl)
theorem c_arg13_0_2 (c : Dev nD) : W2 m ρ c (Proc.devRef .tc main_arg13) = W0 m ρ c (Proc.devRef .tc main_arg13) :=
  (W2_of_ne m ρ c main_arg13 (by decide)).trans (c_arg13_0_1 m ρ c)
theorem c_arg13_0_3 (c : Dev nD) : W3 m ρ c (Proc.devRef .tc main_arg13) = W0 m ρ c (Proc.devRef .tc main_arg13) :=
  (keep1 main_arg13 (Cert.Carry.allc (by decide) (Cert.Carry.alln)) _).trans (c_arg13_0_2 m ρ c)
theorem c_arg13_0_4 (c : Dev nD) : W4 m ρ c (Proc.devRef .tc main_arg13) = W0 m ρ c (Proc.devRef .tc main_arg13) :=
  (W4_of_ne m ρ c main_arg13 (by decide)).trans (c_arg13_0_3 m ρ c)
theorem c_arg13_0_5 (c : Dev nD) : W5 m ρ c (Proc.devRef .tc main_arg13) = W0 m ρ c (Proc.devRef .tc main_arg13) :=
  (keep2 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg13_0_4 m ρ c)
theorem c_arg13_0_6 (c : Dev nD) : W6 m ρ c (Proc.devRef .tc main_arg13) = W0 m ρ c (Proc.devRef .tc main_arg13) :=
  (W6_of_ne m ρ c main_arg13 (by decide)).trans (c_arg13_0_5 m ρ c)
theorem c_arg13_0_7 (c : Dev nD) : W7 m ρ c (Proc.devRef .tc main_arg13) = W0 m ρ c (Proc.devRef .tc main_arg13) :=
  (keep3 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg13_0_6 m ρ c)
theorem c_arg13_0_8 (c : Dev nD) : W8 m ρ c (Proc.devRef .tc main_arg13) = W0 m ρ c (Proc.devRef .tc main_arg13) :=
  (W8_of_ne m ρ c main_arg13 (by decide)).trans (c_arg13_0_7 m ρ c)
theorem c_arg13_0_9 (c : Dev nD) : W9 m ρ c (Proc.devRef .tc main_arg13) = W0 m ρ c (Proc.devRef .tc main_arg13) :=
  (keep4 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg13_0_8 m ρ c)
theorem c_arg13_0_10 (c : Dev nD) : W10 m ρ c (Proc.devRef .tc main_arg13) = W0 m ρ c (Proc.devRef .tc main_arg13) :=
  (W10_of_ne m ρ c main_arg13 (by decide)).trans (c_arg13_0_9 m ρ c)
theorem c_arg13_0_11 (c : Dev nD) : W11 m ρ c (Proc.devRef .tc main_arg13) = W0 m ρ c (Proc.devRef .tc main_arg13) :=
  (keep5 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg13_0_10 m ρ c)
theorem c_arg13_0_12 (c : Dev nD) : W12 m ρ c (Proc.devRef .tc main_arg13) = W0 m ρ c (Proc.devRef .tc main_arg13) :=
  (keep5_1 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg13_0_11 m ρ c)
theorem c_arg13_0_13 (c : Dev nD) : W13 m ρ c (Proc.devRef .tc main_arg13) = W0 m ρ c (Proc.devRef .tc main_arg13) :=
  (keep5_2 main_arg13 (Cert.Carry.allc (by decide) (Cert.Carry.allc (by decide) (Cert.Carry.allc (by decide) (Cert.Carry.allc (by decide) (Cert.Carry.allc (by decide) (Cert.Carry.allc (by decide) (Cert.Carry.alln))))))) _).trans (c_arg13_0_12 m ρ c)
theorem c_arg13_0_14 (c : Dev nD) : W14 m ρ c (Proc.devRef .tc main_arg13) = W0 m ρ c (Proc.devRef .tc main_arg13) :=
  (keep5_3 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg13_0_13 m ρ c)
theorem c_arg13_0_15 (c : Dev nD) : W15 m ρ c (Proc.devRef .tc main_arg13) = W0 m ρ c (Proc.devRef .tc main_arg13) :=
  (keep5_4 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg13_0_14 m ρ c)
theorem c_arg13_0_16 (c : Dev nD) : W16 m ρ c (Proc.devRef .tc main_arg13) = W0 m ρ c (Proc.devRef .tc main_arg13) :=
  (W16_of_ne m ρ c main_arg13 (by decide)).trans (c_arg13_0_15 m ρ c)
theorem c_arg13_0_17 (c : Dev nD) : W17 m ρ c (Proc.devRef .tc main_arg13) = W0 m ρ c (Proc.devRef .tc main_arg13) :=
  (keep6 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg13_0_16 m ρ c)
theorem c_arg13_0_18 (c : Dev nD) : W18 m ρ c (Proc.devRef .tc main_arg13) = W0 m ρ c (Proc.devRef .tc main_arg13) :=
  (W18_of_ne m ρ c main_arg13 (by decide)).trans (c_arg13_0_17 m ρ c)
theorem c_arg13_0_19 (c : Dev nD) : W19 m ρ c (Proc.devRef .tc main_arg13) = W0 m ρ c (Proc.devRef .tc main_arg13) :=
  (keep7 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg13_0_18 m ρ c)
theorem c_arg13_0_20 (c : Dev nD) : W20 m ρ c (Proc.devRef .tc main_arg13) = W0 m ρ c (Proc.devRef .tc main_arg13) :=
  (W20_of_ne m ρ c main_arg13 (by decide)).trans (c_arg13_0_19 m ρ c)
theorem c_arg13_0_21 (c : Dev nD) : W21 m ρ c (Proc.devRef .tc main_arg13) = W0 m ρ c (Proc.devRef .tc main_arg13) :=
  (keep8 main_arg13 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg13_0_20 m ρ c)
theorem c_arg13_0_22 (c : Dev nD) : W22 m ρ c (Proc.devRef .tc main_arg13) = W0 m ρ c (Proc.devRef .tc main_arg13) :=
  (W22_of_ne m ρ c main_arg13 (by decide)).trans (c_arg13_0_21 m ρ c)

theorem c_arg14_0_1 (c : Dev nD) : W1 m ρ c (Proc.devRef .tc main_arg14) = W0 m ρ c (Proc.devRef .tc main_arg14) :=
  (keep0 main_arg14 (Cert.Carry.allc (by decide) (Cert.Carry.alln)) _).trans (rfl)
theorem c_arg14_0_2 (c : Dev nD) : W2 m ρ c (Proc.devRef .tc main_arg14) = W0 m ρ c (Proc.devRef .tc main_arg14) :=
  (W2_of_ne m ρ c main_arg14 (by decide)).trans (c_arg14_0_1 m ρ c)
theorem c_arg14_0_3 (c : Dev nD) : W3 m ρ c (Proc.devRef .tc main_arg14) = W0 m ρ c (Proc.devRef .tc main_arg14) :=
  (keep1 main_arg14 (Cert.Carry.allc (by decide) (Cert.Carry.alln)) _).trans (c_arg14_0_2 m ρ c)
theorem c_arg14_0_4 (c : Dev nD) : W4 m ρ c (Proc.devRef .tc main_arg14) = W0 m ρ c (Proc.devRef .tc main_arg14) :=
  (W4_of_ne m ρ c main_arg14 (by decide)).trans (c_arg14_0_3 m ρ c)
theorem c_arg14_0_5 (c : Dev nD) : W5 m ρ c (Proc.devRef .tc main_arg14) = W0 m ρ c (Proc.devRef .tc main_arg14) :=
  (keep2 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg14_0_4 m ρ c)
theorem c_arg14_0_6 (c : Dev nD) : W6 m ρ c (Proc.devRef .tc main_arg14) = W0 m ρ c (Proc.devRef .tc main_arg14) :=
  (W6_of_ne m ρ c main_arg14 (by decide)).trans (c_arg14_0_5 m ρ c)
theorem c_arg14_0_7 (c : Dev nD) : W7 m ρ c (Proc.devRef .tc main_arg14) = W0 m ρ c (Proc.devRef .tc main_arg14) :=
  (keep3 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg14_0_6 m ρ c)
theorem c_arg14_0_8 (c : Dev nD) : W8 m ρ c (Proc.devRef .tc main_arg14) = W0 m ρ c (Proc.devRef .tc main_arg14) :=
  (W8_of_ne m ρ c main_arg14 (by decide)).trans (c_arg14_0_7 m ρ c)
theorem c_arg14_0_9 (c : Dev nD) : W9 m ρ c (Proc.devRef .tc main_arg14) = W0 m ρ c (Proc.devRef .tc main_arg14) :=
  (keep4 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg14_0_8 m ρ c)
theorem c_arg14_0_10 (c : Dev nD) : W10 m ρ c (Proc.devRef .tc main_arg14) = W0 m ρ c (Proc.devRef .tc main_arg14) :=
  (W10_of_ne m ρ c main_arg14 (by decide)).trans (c_arg14_0_9 m ρ c)
theorem c_arg14_0_11 (c : Dev nD) : W11 m ρ c (Proc.devRef .tc main_arg14) = W0 m ρ c (Proc.devRef .tc main_arg14) :=
  (keep5 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg14_0_10 m ρ c)
theorem c_arg14_0_12 (c : Dev nD) : W12 m ρ c (Proc.devRef .tc main_arg14) = W0 m ρ c (Proc.devRef .tc main_arg14) :=
  (keep5_1 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg14_0_11 m ρ c)
theorem c_arg14_0_13 (c : Dev nD) : W13 m ρ c (Proc.devRef .tc main_arg14) = W0 m ρ c (Proc.devRef .tc main_arg14) :=
  (keep5_2 main_arg14 (Cert.Carry.allc (by decide) (Cert.Carry.allc (by decide) (Cert.Carry.allc (by decide) (Cert.Carry.allc (by decide) (Cert.Carry.allc (by decide) (Cert.Carry.allc (by decide) (Cert.Carry.alln))))))) _).trans (c_arg14_0_12 m ρ c)
theorem c_arg14_0_14 (c : Dev nD) : W14 m ρ c (Proc.devRef .tc main_arg14) = W0 m ρ c (Proc.devRef .tc main_arg14) :=
  (keep5_3 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg14_0_13 m ρ c)
theorem c_arg14_0_15 (c : Dev nD) : W15 m ρ c (Proc.devRef .tc main_arg14) = W0 m ρ c (Proc.devRef .tc main_arg14) :=
  (keep5_4 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg14_0_14 m ρ c)
theorem c_arg14_0_16 (c : Dev nD) : W16 m ρ c (Proc.devRef .tc main_arg14) = W0 m ρ c (Proc.devRef .tc main_arg14) :=
  (W16_of_ne m ρ c main_arg14 (by decide)).trans (c_arg14_0_15 m ρ c)
theorem c_arg14_0_17 (c : Dev nD) : W17 m ρ c (Proc.devRef .tc main_arg14) = W0 m ρ c (Proc.devRef .tc main_arg14) :=
  (keep6 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg14_0_16 m ρ c)
theorem c_arg14_0_18 (c : Dev nD) : W18 m ρ c (Proc.devRef .tc main_arg14) = W0 m ρ c (Proc.devRef .tc main_arg14) :=
  (W18_of_ne m ρ c main_arg14 (by decide)).trans (c_arg14_0_17 m ρ c)
theorem c_arg14_0_19 (c : Dev nD) : W19 m ρ c (Proc.devRef .tc main_arg14) = W0 m ρ c (Proc.devRef .tc main_arg14) :=
  (keep7 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg14_0_18 m ρ c)
theorem c_arg14_0_20 (c : Dev nD) : W20 m ρ c (Proc.devRef .tc main_arg14) = W0 m ρ c (Proc.devRef .tc main_arg14) :=
  (W20_of_ne m ρ c main_arg14 (by decide)).trans (c_arg14_0_19 m ρ c)
theorem c_arg14_0_21 (c : Dev nD) : W21 m ρ c (Proc.devRef .tc main_arg14) = W0 m ρ c (Proc.devRef .tc main_arg14) :=
  (keep8 main_arg14 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg14_0_20 m ρ c)
theorem c_arg14_0_22 (c : Dev nD) : W22 m ρ c (Proc.devRef .tc main_arg14) = W0 m ρ c (Proc.devRef .tc main_arg14) :=
  (W22_of_ne m ρ c main_arg14 (by decide)).trans (c_arg14_0_21 m ρ c)

theorem c_arg15_0_1 (c : Dev nD) : W1 m ρ c (Proc.devRef .tc main_arg15) = W0 m ρ c (Proc.devRef .tc main_arg15) :=
  (keep0 main_arg15 (Cert.Carry.allc (by decide) (Cert.Carry.alln)) _).trans (rfl)
theorem c_arg15_0_2 (c : Dev nD) : W2 m ρ c (Proc.devRef .tc main_arg15) = W0 m ρ c (Proc.devRef .tc main_arg15) :=
  (W2_of_ne m ρ c main_arg15 (by decide)).trans (c_arg15_0_1 m ρ c)
theorem c_arg15_0_3 (c : Dev nD) : W3 m ρ c (Proc.devRef .tc main_arg15) = W0 m ρ c (Proc.devRef .tc main_arg15) :=
  (keep1 main_arg15 (Cert.Carry.allc (by decide) (Cert.Carry.alln)) _).trans (c_arg15_0_2 m ρ c)
theorem c_arg15_0_4 (c : Dev nD) : W4 m ρ c (Proc.devRef .tc main_arg15) = W0 m ρ c (Proc.devRef .tc main_arg15) :=
  (W4_of_ne m ρ c main_arg15 (by decide)).trans (c_arg15_0_3 m ρ c)
theorem c_arg15_0_5 (c : Dev nD) : W5 m ρ c (Proc.devRef .tc main_arg15) = W0 m ρ c (Proc.devRef .tc main_arg15) :=
  (keep2 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_4 m ρ c)
theorem c_arg15_0_6 (c : Dev nD) : W6 m ρ c (Proc.devRef .tc main_arg15) = W0 m ρ c (Proc.devRef .tc main_arg15) :=
  (W6_of_ne m ρ c main_arg15 (by decide)).trans (c_arg15_0_5 m ρ c)
theorem c_arg15_0_7 (c : Dev nD) : W7 m ρ c (Proc.devRef .tc main_arg15) = W0 m ρ c (Proc.devRef .tc main_arg15) :=
  (keep3 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_6 m ρ c)
theorem c_arg15_0_8 (c : Dev nD) : W8 m ρ c (Proc.devRef .tc main_arg15) = W0 m ρ c (Proc.devRef .tc main_arg15) :=
  (W8_of_ne m ρ c main_arg15 (by decide)).trans (c_arg15_0_7 m ρ c)
theorem c_arg15_0_9 (c : Dev nD) : W9 m ρ c (Proc.devRef .tc main_arg15) = W0 m ρ c (Proc.devRef .tc main_arg15) :=
  (keep4 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_8 m ρ c)
theorem c_arg15_0_10 (c : Dev nD) : W10 m ρ c (Proc.devRef .tc main_arg15) = W0 m ρ c (Proc.devRef .tc main_arg15) :=
  (W10_of_ne m ρ c main_arg15 (by decide)).trans (c_arg15_0_9 m ρ c)
theorem c_arg15_0_11 (c : Dev nD) : W11 m ρ c (Proc.devRef .tc main_arg15) = W0 m ρ c (Proc.devRef .tc main_arg15) :=
  (keep5 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg15_0_10 m ρ c)
theorem c_arg15_0_12 (c : Dev nD) : W12 m ρ c (Proc.devRef .tc main_arg15) = W0 m ρ c (Proc.devRef .tc main_arg15) :=
  (keep5_1 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg15_0_11 m ρ c)
theorem c_arg15_0_13 (c : Dev nD) : W13 m ρ c (Proc.devRef .tc main_arg15) = W0 m ρ c (Proc.devRef .tc main_arg15) :=
  (keep5_2 main_arg15 (Cert.Carry.allc (by decide) (Cert.Carry.allc (by decide) (Cert.Carry.allc (by decide) (Cert.Carry.allc (by decide) (Cert.Carry.allc (by decide) (Cert.Carry.allc (by decide) (Cert.Carry.alln))))))) _).trans (c_arg15_0_12 m ρ c)
theorem c_arg15_0_14 (c : Dev nD) : W14 m ρ c (Proc.devRef .tc main_arg15) = W0 m ρ c (Proc.devRef .tc main_arg15) :=
  (keep5_3 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg15_0_13 m ρ c)
theorem c_arg15_0_15 (c : Dev nD) : W15 m ρ c (Proc.devRef .tc main_arg15) = W0 m ρ c (Proc.devRef .tc main_arg15) :=
  (keep5_4 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg15_0_14 m ρ c)
theorem c_arg15_0_16 (c : Dev nD) : W16 m ρ c (Proc.devRef .tc main_arg15) = W0 m ρ c (Proc.devRef .tc main_arg15) :=
  (W16_of_ne m ρ c main_arg15 (by decide)).trans (c_arg15_0_15 m ρ c)
theorem c_arg15_0_17 (c : Dev nD) : W17 m ρ c (Proc.devRef .tc main_arg15) = W0 m ρ c (Proc.devRef .tc main_arg15) :=
  (keep6 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg15_0_16 m ρ c)
theorem c_arg15_0_18 (c : Dev nD) : W18 m ρ c (Proc.devRef .tc main_arg15) = W0 m ρ c (Proc.devRef .tc main_arg15) :=
  (W18_of_ne m ρ c main_arg15 (by decide)).trans (c_arg15_0_17 m ρ c)
theorem c_arg15_0_19 (c : Dev nD) : W19 m ρ c (Proc.devRef .tc main_arg15) = W0 m ρ c (Proc.devRef .tc main_arg15) :=
  (keep7 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_18 m ρ c)
theorem c_arg15_0_20 (c : Dev nD) : W20 m ρ c (Proc.devRef .tc main_arg15) = W0 m ρ c (Proc.devRef .tc main_arg15) :=
  (W20_of_ne m ρ c main_arg15 (by decide)).trans (c_arg15_0_19 m ρ c)
theorem c_arg15_0_21 (c : Dev nD) : W21 m ρ c (Proc.devRef .tc main_arg15) = W0 m ρ c (Proc.devRef .tc main_arg15) :=
  (keep8 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_20 m ρ c)
theorem c_arg15_0_22 (c : Dev nD) : W22 m ρ c (Proc.devRef .tc main_arg15) = W0 m ρ c (Proc.devRef .tc main_arg15) :=
  (W22_of_ne m ρ c main_arg15 (by decide)).trans (c_arg15_0_21 m ρ c)
theorem c_arg15_0_23 (c : Dev nD) : W23 m ρ c (Proc.devRef .tc main_arg15) = W0 m ρ c (Proc.devRef .tc main_arg15) :=
  (keep9 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_22 m ρ c)
theorem c_arg15_0_24 (c : Dev nD) : W24 m ρ c (Proc.devRef .tc main_arg15) = W0 m ρ c (Proc.devRef .tc main_arg15) :=
  (W24_of_ne m ρ c main_arg15 (by decide)).trans (c_arg15_0_23 m ρ c)
theorem c_arg15_0_25 (c : Dev nD) : W25 m ρ c (Proc.devRef .tc main_arg15) = W0 m ρ c (Proc.devRef .tc main_arg15) :=
  (keep10 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg15_0_24 m ρ c)
theorem c_arg15_0_26 (c : Dev nD) : W26 m ρ c (Proc.devRef .tc main_arg15) = W0 m ρ c (Proc.devRef .tc main_arg15) :=
  (keep10_1 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg15_0_25 m ρ c)
theorem c_arg15_0_27 (c : Dev nD) : W27 m ρ c (Proc.devRef .tc main_arg15) = W0 m ρ c (Proc.devRef .tc main_arg15) :=
  (keep10_2 main_arg15 (Cert.Carry.allc (by decide) (Cert.Carry.allc (by decide) (Cert.Carry.allc (by decide) (Cert.Carry.allc (by decide) (Cert.Carry.allc (by decide) (Cert.Carry.allc (by decide) (Cert.Carry.alln))))))) _).trans (c_arg15_0_26 m ρ c)
theorem c_arg15_0_28 (c : Dev nD) : W28 m ρ c (Proc.devRef .tc main_arg15) = W0 m ρ c (Proc.devRef .tc main_arg15) :=
  (keep10_3 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg15_0_27 m ρ c)
theorem c_arg15_0_29 (c : Dev nD) : W29 m ρ c (Proc.devRef .tc main_arg15) = W0 m ρ c (Proc.devRef .tc main_arg15) :=
  (keep10_4 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg15_0_28 m ρ c)
theorem c_arg15_0_30 (c : Dev nD) : W30 m ρ c (Proc.devRef .tc main_arg15) = W0 m ρ c (Proc.devRef .tc main_arg15) :=
  (W30_of_ne m ρ c main_arg15 (by decide)).trans (c_arg15_0_29 m ρ c)
theorem c_arg15_0_31 (c : Dev nD) : W31 m ρ c (Proc.devRef .tc main_arg15) = W0 m ρ c (Proc.devRef .tc main_arg15) :=
  (keep11 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg15_0_30 m ρ c)
theorem c_arg15_0_32 (c : Dev nD) : W32 m ρ c (Proc.devRef .tc main_arg15) = W0 m ρ c (Proc.devRef .tc main_arg15) :=
  (W32_of_ne m ρ c main_arg15 (by decide)).trans (c_arg15_0_31 m ρ c)
theorem c_arg15_0_33 (c : Dev nD) : W33 m ρ c (Proc.devRef .tc main_arg15) = W0 m ρ c (Proc.devRef .tc main_arg15) :=
  (keep12 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_32 m ρ c)
theorem c_arg15_0_34 (c : Dev nD) : W34 m ρ c (Proc.devRef .tc main_arg15) = W0 m ρ c (Proc.devRef .tc main_arg15) :=
  (W34_of_ne m ρ c main_arg15 (by decide)).trans (c_arg15_0_33 m ρ c)
theorem c_arg15_0_35 (c : Dev nD) : W35 m ρ c (Proc.devRef .tc main_arg15) = W0 m ρ c (Proc.devRef .tc main_arg15) :=
  (keep13 main_arg15 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg15_0_34 m ρ c)
theorem c_arg15_0_36 (c : Dev nD) : W36 m ρ c (Proc.devRef .tc main_arg15) = W0 m ρ c (Proc.devRef .tc main_arg15) :=
  (W36_of_ne m ρ c main_arg15 (by decide)).trans (c_arg15_0_35 m ρ c)

theorem c_arg16_0_1 (c : Dev nD) : W1 m ρ c (Proc.devRef .tc main_arg16) = W0 m ρ c (Proc.devRef .tc main_arg16) :=
  (keep0 main_arg16 (Cert.Carry.allc (by decide) (Cert.Carry.alln)) _).trans (rfl)
theorem c_arg16_0_2 (c : Dev nD) : W2 m ρ c (Proc.devRef .tc main_arg16) = W0 m ρ c (Proc.devRef .tc main_arg16) :=
  (W2_of_ne m ρ c main_arg16 (by decide)).trans (c_arg16_0_1 m ρ c)
theorem c_arg16_0_3 (c : Dev nD) : W3 m ρ c (Proc.devRef .tc main_arg16) = W0 m ρ c (Proc.devRef .tc main_arg16) :=
  (keep1 main_arg16 (Cert.Carry.allc (by decide) (Cert.Carry.alln)) _).trans (c_arg16_0_2 m ρ c)
theorem c_arg16_0_4 (c : Dev nD) : W4 m ρ c (Proc.devRef .tc main_arg16) = W0 m ρ c (Proc.devRef .tc main_arg16) :=
  (W4_of_ne m ρ c main_arg16 (by decide)).trans (c_arg16_0_3 m ρ c)
theorem c_arg16_0_5 (c : Dev nD) : W5 m ρ c (Proc.devRef .tc main_arg16) = W0 m ρ c (Proc.devRef .tc main_arg16) :=
  (keep2 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_4 m ρ c)
theorem c_arg16_0_6 (c : Dev nD) : W6 m ρ c (Proc.devRef .tc main_arg16) = W0 m ρ c (Proc.devRef .tc main_arg16) :=
  (W6_of_ne m ρ c main_arg16 (by decide)).trans (c_arg16_0_5 m ρ c)
theorem c_arg16_0_7 (c : Dev nD) : W7 m ρ c (Proc.devRef .tc main_arg16) = W0 m ρ c (Proc.devRef .tc main_arg16) :=
  (keep3 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_6 m ρ c)
theorem c_arg16_0_8 (c : Dev nD) : W8 m ρ c (Proc.devRef .tc main_arg16) = W0 m ρ c (Proc.devRef .tc main_arg16) :=
  (W8_of_ne m ρ c main_arg16 (by decide)).trans (c_arg16_0_7 m ρ c)
theorem c_arg16_0_9 (c : Dev nD) : W9 m ρ c (Proc.devRef .tc main_arg16) = W0 m ρ c (Proc.devRef .tc main_arg16) :=
  (keep4 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_8 m ρ c)
theorem c_arg16_0_10 (c : Dev nD) : W10 m ρ c (Proc.devRef .tc main_arg16) = W0 m ρ c (Proc.devRef .tc main_arg16) :=
  (W10_of_ne m ρ c main_arg16 (by decide)).trans (c_arg16_0_9 m ρ c)
theorem c_arg16_0_11 (c : Dev nD) : W11 m ρ c (Proc.devRef .tc main_arg16) = W0 m ρ c (Proc.devRef .tc main_arg16) :=
  (keep5 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg16_0_10 m ρ c)
theorem c_arg16_0_12 (c : Dev nD) : W12 m ρ c (Proc.devRef .tc main_arg16) = W0 m ρ c (Proc.devRef .tc main_arg16) :=
  (keep5_1 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg16_0_11 m ρ c)
theorem c_arg16_0_13 (c : Dev nD) : W13 m ρ c (Proc.devRef .tc main_arg16) = W0 m ρ c (Proc.devRef .tc main_arg16) :=
  (keep5_2 main_arg16 (Cert.Carry.allc (by decide) (Cert.Carry.allc (by decide) (Cert.Carry.allc (by decide) (Cert.Carry.allc (by decide) (Cert.Carry.allc (by decide) (Cert.Carry.allc (by decide) (Cert.Carry.alln))))))) _).trans (c_arg16_0_12 m ρ c)
theorem c_arg16_0_14 (c : Dev nD) : W14 m ρ c (Proc.devRef .tc main_arg16) = W0 m ρ c (Proc.devRef .tc main_arg16) :=
  (keep5_3 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg16_0_13 m ρ c)
theorem c_arg16_0_15 (c : Dev nD) : W15 m ρ c (Proc.devRef .tc main_arg16) = W0 m ρ c (Proc.devRef .tc main_arg16) :=
  (keep5_4 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg16_0_14 m ρ c)
theorem c_arg16_0_16 (c : Dev nD) : W16 m ρ c (Proc.devRef .tc main_arg16) = W0 m ρ c (Proc.devRef .tc main_arg16) :=
  (W16_of_ne m ρ c main_arg16 (by decide)).trans (c_arg16_0_15 m ρ c)
theorem c_arg16_0_17 (c : Dev nD) : W17 m ρ c (Proc.devRef .tc main_arg16) = W0 m ρ c (Proc.devRef .tc main_arg16) :=
  (keep6 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg16_0_16 m ρ c)
theorem c_arg16_0_18 (c : Dev nD) : W18 m ρ c (Proc.devRef .tc main_arg16) = W0 m ρ c (Proc.devRef .tc main_arg16) :=
  (W18_of_ne m ρ c main_arg16 (by decide)).trans (c_arg16_0_17 m ρ c)
theorem c_arg16_0_19 (c : Dev nD) : W19 m ρ c (Proc.devRef .tc main_arg16) = W0 m ρ c (Proc.devRef .tc main_arg16) :=
  (keep7 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_18 m ρ c)
theorem c_arg16_0_20 (c : Dev nD) : W20 m ρ c (Proc.devRef .tc main_arg16) = W0 m ρ c (Proc.devRef .tc main_arg16) :=
  (W20_of_ne m ρ c main_arg16 (by decide)).trans (c_arg16_0_19 m ρ c)
theorem c_arg16_0_21 (c : Dev nD) : W21 m ρ c (Proc.devRef .tc main_arg16) = W0 m ρ c (Proc.devRef .tc main_arg16) :=
  (keep8 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_20 m ρ c)
theorem c_arg16_0_22 (c : Dev nD) : W22 m ρ c (Proc.devRef .tc main_arg16) = W0 m ρ c (Proc.devRef .tc main_arg16) :=
  (W22_of_ne m ρ c main_arg16 (by decide)).trans (c_arg16_0_21 m ρ c)
theorem c_arg16_0_23 (c : Dev nD) : W23 m ρ c (Proc.devRef .tc main_arg16) = W0 m ρ c (Proc.devRef .tc main_arg16) :=
  (keep9 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_22 m ρ c)
theorem c_arg16_0_24 (c : Dev nD) : W24 m ρ c (Proc.devRef .tc main_arg16) = W0 m ρ c (Proc.devRef .tc main_arg16) :=
  (W24_of_ne m ρ c main_arg16 (by decide)).trans (c_arg16_0_23 m ρ c)
theorem c_arg16_0_25 (c : Dev nD) : W25 m ρ c (Proc.devRef .tc main_arg16) = W0 m ρ c (Proc.devRef .tc main_arg16) :=
  (keep10 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg16_0_24 m ρ c)
theorem c_arg16_0_26 (c : Dev nD) : W26 m ρ c (Proc.devRef .tc main_arg16) = W0 m ρ c (Proc.devRef .tc main_arg16) :=
  (keep10_1 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg16_0_25 m ρ c)
theorem c_arg16_0_27 (c : Dev nD) : W27 m ρ c (Proc.devRef .tc main_arg16) = W0 m ρ c (Proc.devRef .tc main_arg16) :=
  (keep10_2 main_arg16 (Cert.Carry.allc (by decide) (Cert.Carry.allc (by decide) (Cert.Carry.allc (by decide) (Cert.Carry.allc (by decide) (Cert.Carry.allc (by decide) (Cert.Carry.allc (by decide) (Cert.Carry.alln))))))) _).trans (c_arg16_0_26 m ρ c)
theorem c_arg16_0_28 (c : Dev nD) : W28 m ρ c (Proc.devRef .tc main_arg16) = W0 m ρ c (Proc.devRef .tc main_arg16) :=
  (keep10_3 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg16_0_27 m ρ c)
theorem c_arg16_0_29 (c : Dev nD) : W29 m ρ c (Proc.devRef .tc main_arg16) = W0 m ρ c (Proc.devRef .tc main_arg16) :=
  (keep10_4 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg16_0_28 m ρ c)
theorem c_arg16_0_30 (c : Dev nD) : W30 m ρ c (Proc.devRef .tc main_arg16) = W0 m ρ c (Proc.devRef .tc main_arg16) :=
  (W30_of_ne m ρ c main_arg16 (by decide)).trans (c_arg16_0_29 m ρ c)
theorem c_arg16_0_31 (c : Dev nD) : W31 m ρ c (Proc.devRef .tc main_arg16) = W0 m ρ c (Proc.devRef .tc main_arg16) :=
  (keep11 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg16_0_30 m ρ c)
theorem c_arg16_0_32 (c : Dev nD) : W32 m ρ c (Proc.devRef .tc main_arg16) = W0 m ρ c (Proc.devRef .tc main_arg16) :=
  (W32_of_ne m ρ c main_arg16 (by decide)).trans (c_arg16_0_31 m ρ c)
theorem c_arg16_0_33 (c : Dev nD) : W33 m ρ c (Proc.devRef .tc main_arg16) = W0 m ρ c (Proc.devRef .tc main_arg16) :=
  (keep12 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_32 m ρ c)
theorem c_arg16_0_34 (c : Dev nD) : W34 m ρ c (Proc.devRef .tc main_arg16) = W0 m ρ c (Proc.devRef .tc main_arg16) :=
  (W34_of_ne m ρ c main_arg16 (by decide)).trans (c_arg16_0_33 m ρ c)
theorem c_arg16_0_35 (c : Dev nD) : W35 m ρ c (Proc.devRef .tc main_arg16) = W0 m ρ c (Proc.devRef .tc main_arg16) :=
  (keep13 main_arg16 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg16_0_34 m ρ c)
theorem c_arg16_0_36 (c : Dev nD) : W36 m ρ c (Proc.devRef .tc main_arg16) = W0 m ρ c (Proc.devRef .tc main_arg16) :=
  (W36_of_ne m ρ c main_arg16 (by decide)).trans (c_arg16_0_35 m ρ c)

theorem c_arg17_0_1 (c : Dev nD) : W1 m ρ c (Proc.devRef .tc main_arg17) = W0 m ρ c (Proc.devRef .tc main_arg17) :=
  (keep0 main_arg17 (Cert.Carry.allc (by decide) (Cert.Carry.alln)) _).trans (rfl)
theorem c_arg17_0_2 (c : Dev nD) : W2 m ρ c (Proc.devRef .tc main_arg17) = W0 m ρ c (Proc.devRef .tc main_arg17) :=
  (W2_of_ne m ρ c main_arg17 (by decide)).trans (c_arg17_0_1 m ρ c)
theorem c_arg17_0_3 (c : Dev nD) : W3 m ρ c (Proc.devRef .tc main_arg17) = W0 m ρ c (Proc.devRef .tc main_arg17) :=
  (keep1 main_arg17 (Cert.Carry.allc (by decide) (Cert.Carry.alln)) _).trans (c_arg17_0_2 m ρ c)
theorem c_arg17_0_4 (c : Dev nD) : W4 m ρ c (Proc.devRef .tc main_arg17) = W0 m ρ c (Proc.devRef .tc main_arg17) :=
  (W4_of_ne m ρ c main_arg17 (by decide)).trans (c_arg17_0_3 m ρ c)
theorem c_arg17_0_5 (c : Dev nD) : W5 m ρ c (Proc.devRef .tc main_arg17) = W0 m ρ c (Proc.devRef .tc main_arg17) :=
  (keep2 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_4 m ρ c)
theorem c_arg17_0_6 (c : Dev nD) : W6 m ρ c (Proc.devRef .tc main_arg17) = W0 m ρ c (Proc.devRef .tc main_arg17) :=
  (W6_of_ne m ρ c main_arg17 (by decide)).trans (c_arg17_0_5 m ρ c)
theorem c_arg17_0_7 (c : Dev nD) : W7 m ρ c (Proc.devRef .tc main_arg17) = W0 m ρ c (Proc.devRef .tc main_arg17) :=
  (keep3 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_6 m ρ c)
theorem c_arg17_0_8 (c : Dev nD) : W8 m ρ c (Proc.devRef .tc main_arg17) = W0 m ρ c (Proc.devRef .tc main_arg17) :=
  (W8_of_ne m ρ c main_arg17 (by decide)).trans (c_arg17_0_7 m ρ c)
theorem c_arg17_0_9 (c : Dev nD) : W9 m ρ c (Proc.devRef .tc main_arg17) = W0 m ρ c (Proc.devRef .tc main_arg17) :=
  (keep4 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_8 m ρ c)
theorem c_arg17_0_10 (c : Dev nD) : W10 m ρ c (Proc.devRef .tc main_arg17) = W0 m ρ c (Proc.devRef .tc main_arg17) :=
  (W10_of_ne m ρ c main_arg17 (by decide)).trans (c_arg17_0_9 m ρ c)
theorem c_arg17_0_11 (c : Dev nD) : W11 m ρ c (Proc.devRef .tc main_arg17) = W0 m ρ c (Proc.devRef .tc main_arg17) :=
  (keep5 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg17_0_10 m ρ c)
theorem c_arg17_0_12 (c : Dev nD) : W12 m ρ c (Proc.devRef .tc main_arg17) = W0 m ρ c (Proc.devRef .tc main_arg17) :=
  (keep5_1 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg17_0_11 m ρ c)
theorem c_arg17_0_13 (c : Dev nD) : W13 m ρ c (Proc.devRef .tc main_arg17) = W0 m ρ c (Proc.devRef .tc main_arg17) :=
  (keep5_2 main_arg17 (Cert.Carry.allc (by decide) (Cert.Carry.allc (by decide) (Cert.Carry.allc (by decide) (Cert.Carry.allc (by decide) (Cert.Carry.allc (by decide) (Cert.Carry.allc (by decide) (Cert.Carry.alln))))))) _).trans (c_arg17_0_12 m ρ c)
theorem c_arg17_0_14 (c : Dev nD) : W14 m ρ c (Proc.devRef .tc main_arg17) = W0 m ρ c (Proc.devRef .tc main_arg17) :=
  (keep5_3 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg17_0_13 m ρ c)
theorem c_arg17_0_15 (c : Dev nD) : W15 m ρ c (Proc.devRef .tc main_arg17) = W0 m ρ c (Proc.devRef .tc main_arg17) :=
  (keep5_4 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg17_0_14 m ρ c)
theorem c_arg17_0_16 (c : Dev nD) : W16 m ρ c (Proc.devRef .tc main_arg17) = W0 m ρ c (Proc.devRef .tc main_arg17) :=
  (W16_of_ne m ρ c main_arg17 (by decide)).trans (c_arg17_0_15 m ρ c)
theorem c_arg17_0_17 (c : Dev nD) : W17 m ρ c (Proc.devRef .tc main_arg17) = W0 m ρ c (Proc.devRef .tc main_arg17) :=
  (keep6 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg17_0_16 m ρ c)
theorem c_arg17_0_18 (c : Dev nD) : W18 m ρ c (Proc.devRef .tc main_arg17) = W0 m ρ c (Proc.devRef .tc main_arg17) :=
  (W18_of_ne m ρ c main_arg17 (by decide)).trans (c_arg17_0_17 m ρ c)
theorem c_arg17_0_19 (c : Dev nD) : W19 m ρ c (Proc.devRef .tc main_arg17) = W0 m ρ c (Proc.devRef .tc main_arg17) :=
  (keep7 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_18 m ρ c)
theorem c_arg17_0_20 (c : Dev nD) : W20 m ρ c (Proc.devRef .tc main_arg17) = W0 m ρ c (Proc.devRef .tc main_arg17) :=
  (W20_of_ne m ρ c main_arg17 (by decide)).trans (c_arg17_0_19 m ρ c)
theorem c_arg17_0_21 (c : Dev nD) : W21 m ρ c (Proc.devRef .tc main_arg17) = W0 m ρ c (Proc.devRef .tc main_arg17) :=
  (keep8 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_20 m ρ c)
theorem c_arg17_0_22 (c : Dev nD) : W22 m ρ c (Proc.devRef .tc main_arg17) = W0 m ρ c (Proc.devRef .tc main_arg17) :=
  (W22_of_ne m ρ c main_arg17 (by decide)).trans (c_arg17_0_21 m ρ c)
theorem c_arg17_0_23 (c : Dev nD) : W23 m ρ c (Proc.devRef .tc main_arg17) = W0 m ρ c (Proc.devRef .tc main_arg17) :=
  (keep9 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_22 m ρ c)
theorem c_arg17_0_24 (c : Dev nD) : W24 m ρ c (Proc.devRef .tc main_arg17) = W0 m ρ c (Proc.devRef .tc main_arg17) :=
  (W24_of_ne m ρ c main_arg17 (by decide)).trans (c_arg17_0_23 m ρ c)
theorem c_arg17_0_25 (c : Dev nD) : W25 m ρ c (Proc.devRef .tc main_arg17) = W0 m ρ c (Proc.devRef .tc main_arg17) :=
  (keep10 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg17_0_24 m ρ c)
theorem c_arg17_0_26 (c : Dev nD) : W26 m ρ c (Proc.devRef .tc main_arg17) = W0 m ρ c (Proc.devRef .tc main_arg17) :=
  (keep10_1 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg17_0_25 m ρ c)
theorem c_arg17_0_27 (c : Dev nD) : W27 m ρ c (Proc.devRef .tc main_arg17) = W0 m ρ c (Proc.devRef .tc main_arg17) :=
  (keep10_2 main_arg17 (Cert.Carry.allc (by decide) (Cert.Carry.allc (by decide) (Cert.Carry.allc (by decide) (Cert.Carry.allc (by decide) (Cert.Carry.allc (by decide) (Cert.Carry.allc (by decide) (Cert.Carry.alln))))))) _).trans (c_arg17_0_26 m ρ c)
theorem c_arg17_0_28 (c : Dev nD) : W28 m ρ c (Proc.devRef .tc main_arg17) = W0 m ρ c (Proc.devRef .tc main_arg17) :=
  (keep10_3 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg17_0_27 m ρ c)
theorem c_arg17_0_29 (c : Dev nD) : W29 m ρ c (Proc.devRef .tc main_arg17) = W0 m ρ c (Proc.devRef .tc main_arg17) :=
  (keep10_4 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg17_0_28 m ρ c)
theorem c_arg17_0_30 (c : Dev nD) : W30 m ρ c (Proc.devRef .tc main_arg17) = W0 m ρ c (Proc.devRef .tc main_arg17) :=
  (W30_of_ne m ρ c main_arg17 (by decide)).trans (c_arg17_0_29 m ρ c)
theorem c_arg17_0_31 (c : Dev nD) : W31 m ρ c (Proc.devRef .tc main_arg17) = W0 m ρ c (Proc.devRef .tc main_arg17) :=
  (keep11 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg17_0_30 m ρ c)
theorem c_arg17_0_32 (c : Dev nD) : W32 m ρ c (Proc.devRef .tc main_arg17) = W0 m ρ c (Proc.devRef .tc main_arg17) :=
  (W32_of_ne m ρ c main_arg17 (by decide)).trans (c_arg17_0_31 m ρ c)
theorem c_arg17_0_33 (c : Dev nD) : W33 m ρ c (Proc.devRef .tc main_arg17) = W0 m ρ c (Proc.devRef .tc main_arg17) :=
  (keep12 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_32 m ρ c)
theorem c_arg17_0_34 (c : Dev nD) : W34 m ρ c (Proc.devRef .tc main_arg17) = W0 m ρ c (Proc.devRef .tc main_arg17) :=
  (W34_of_ne m ρ c main_arg17 (by decide)).trans (c_arg17_0_33 m ρ c)
theorem c_arg17_0_35 (c : Dev nD) : W35 m ρ c (Proc.devRef .tc main_arg17) = W0 m ρ c (Proc.devRef .tc main_arg17) :=
  (keep13 main_arg17 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg17_0_34 m ρ c)
theorem c_arg17_0_36 (c : Dev nD) : W36 m ρ c (Proc.devRef .tc main_arg17) = W0 m ρ c (Proc.devRef .tc main_arg17) :=
  (W36_of_ne m ρ c main_arg17 (by decide)).trans (c_arg17_0_35 m ρ c)

theorem c_arg18_0_1 (c : Dev nD) : W1 m ρ c (Proc.devRef .tc main_arg18) = W0 m ρ c (Proc.devRef .tc main_arg18) :=
  (keep0 main_arg18 (Cert.Carry.allc (by decide) (Cert.Carry.alln)) _).trans (rfl)
theorem c_arg18_0_2 (c : Dev nD) : W2 m ρ c (Proc.devRef .tc main_arg18) = W0 m ρ c (Proc.devRef .tc main_arg18) :=
  (W2_of_ne m ρ c main_arg18 (by decide)).trans (c_arg18_0_1 m ρ c)
theorem c_arg18_0_3 (c : Dev nD) : W3 m ρ c (Proc.devRef .tc main_arg18) = W0 m ρ c (Proc.devRef .tc main_arg18) :=
  (keep1 main_arg18 (Cert.Carry.allc (by decide) (Cert.Carry.alln)) _).trans (c_arg18_0_2 m ρ c)
theorem c_arg18_0_4 (c : Dev nD) : W4 m ρ c (Proc.devRef .tc main_arg18) = W0 m ρ c (Proc.devRef .tc main_arg18) :=
  (W4_of_ne m ρ c main_arg18 (by decide)).trans (c_arg18_0_3 m ρ c)
theorem c_arg18_0_5 (c : Dev nD) : W5 m ρ c (Proc.devRef .tc main_arg18) = W0 m ρ c (Proc.devRef .tc main_arg18) :=
  (keep2 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg18_0_4 m ρ c)
theorem c_arg18_0_6 (c : Dev nD) : W6 m ρ c (Proc.devRef .tc main_arg18) = W0 m ρ c (Proc.devRef .tc main_arg18) :=
  (W6_of_ne m ρ c main_arg18 (by decide)).trans (c_arg18_0_5 m ρ c)
theorem c_arg18_0_7 (c : Dev nD) : W7 m ρ c (Proc.devRef .tc main_arg18) = W0 m ρ c (Proc.devRef .tc main_arg18) :=
  (keep3 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg18_0_6 m ρ c)
theorem c_arg18_0_8 (c : Dev nD) : W8 m ρ c (Proc.devRef .tc main_arg18) = W0 m ρ c (Proc.devRef .tc main_arg18) :=
  (W8_of_ne m ρ c main_arg18 (by decide)).trans (c_arg18_0_7 m ρ c)
theorem c_arg18_0_9 (c : Dev nD) : W9 m ρ c (Proc.devRef .tc main_arg18) = W0 m ρ c (Proc.devRef .tc main_arg18) :=
  (keep4 main_arg18 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg18_0_8 m ρ c)
theorem c_arg18_0_10 (c : Dev nD) : W10 m ρ c (Proc.devRef .tc main_arg18) = W0 m ρ c (Proc.devRef .tc main_arg18) :=
  (W10_of_ne m ρ c main_arg18 (by decide)).trans (c_arg18_0_9 m ρ c)

theorem c_arg19_0_1 (c : Dev nD) : W1 m ρ c (Proc.devRef .tc main_arg19) = W0 m ρ c (Proc.devRef .tc main_arg19) :=
  (keep0 main_arg19 (Cert.Carry.allc (by decide) (Cert.Carry.alln)) _).trans (rfl)
theorem c_arg19_0_2 (c : Dev nD) : W2 m ρ c (Proc.devRef .tc main_arg19) = W0 m ρ c (Proc.devRef .tc main_arg19) :=
  (W2_of_ne m ρ c main_arg19 (by decide)).trans (c_arg19_0_1 m ρ c)
theorem c_arg19_0_3 (c : Dev nD) : W3 m ρ c (Proc.devRef .tc main_arg19) = W0 m ρ c (Proc.devRef .tc main_arg19) :=
  (keep1 main_arg19 (Cert.Carry.allc (by decide) (Cert.Carry.alln)) _).trans (c_arg19_0_2 m ρ c)
theorem c_arg19_0_4 (c : Dev nD) : W4 m ρ c (Proc.devRef .tc main_arg19) = W0 m ρ c (Proc.devRef .tc main_arg19) :=
  (W4_of_ne m ρ c main_arg19 (by decide)).trans (c_arg19_0_3 m ρ c)
theorem c_arg19_0_5 (c : Dev nD) : W5 m ρ c (Proc.devRef .tc main_arg19) = W0 m ρ c (Proc.devRef .tc main_arg19) :=
  (keep2 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg19_0_4 m ρ c)
theorem c_arg19_0_6 (c : Dev nD) : W6 m ρ c (Proc.devRef .tc main_arg19) = W0 m ρ c (Proc.devRef .tc main_arg19) :=
  (W6_of_ne m ρ c main_arg19 (by decide)).trans (c_arg19_0_5 m ρ c)
theorem c_arg19_0_7 (c : Dev nD) : W7 m ρ c (Proc.devRef .tc main_arg19) = W0 m ρ c (Proc.devRef .tc main_arg19) :=
  (keep3 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg19_0_6 m ρ c)
theorem c_arg19_0_8 (c : Dev nD) : W8 m ρ c (Proc.devRef .tc main_arg19) = W0 m ρ c (Proc.devRef .tc main_arg19) :=
  (W8_of_ne m ρ c main_arg19 (by decide)).trans (c_arg19_0_7 m ρ c)
theorem c_arg19_0_9 (c : Dev nD) : W9 m ρ c (Proc.devRef .tc main_arg19) = W0 m ρ c (Proc.devRef .tc main_arg19) :=
  (keep4 main_arg19 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg19_0_8 m ρ c)
theorem c_arg19_0_10 (c : Dev nD) : W10 m ρ c (Proc.devRef .tc main_arg19) = W0 m ρ c (Proc.devRef .tc main_arg19) :=
  (W10_of_ne m ρ c main_arg19 (by decide)).trans (c_arg19_0_9 m ρ c)

theorem c_arg20_0_1 (c : Dev nD) : W1 m ρ c (Proc.devRef .tc main_arg20) = W0 m ρ c (Proc.devRef .tc main_arg20) :=
  (keep0 main_arg20 (Cert.Carry.allc (by decide) (Cert.Carry.alln)) _).trans (rfl)
theorem c_arg20_0_2 (c : Dev nD) : W2 m ρ c (Proc.devRef .tc main_arg20) = W0 m ρ c (Proc.devRef .tc main_arg20) :=
  (W2_of_ne m ρ c main_arg20 (by decide)).trans (c_arg20_0_1 m ρ c)
theorem c_arg20_0_3 (c : Dev nD) : W3 m ρ c (Proc.devRef .tc main_arg20) = W0 m ρ c (Proc.devRef .tc main_arg20) :=
  (keep1 main_arg20 (Cert.Carry.allc (by decide) (Cert.Carry.alln)) _).trans (c_arg20_0_2 m ρ c)
theorem c_arg20_0_4 (c : Dev nD) : W4 m ρ c (Proc.devRef .tc main_arg20) = W0 m ρ c (Proc.devRef .tc main_arg20) :=
  (W4_of_ne m ρ c main_arg20 (by decide)).trans (c_arg20_0_3 m ρ c)
theorem c_arg20_0_5 (c : Dev nD) : W5 m ρ c (Proc.devRef .tc main_arg20) = W0 m ρ c (Proc.devRef .tc main_arg20) :=
  (keep2 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg20_0_4 m ρ c)
theorem c_arg20_0_6 (c : Dev nD) : W6 m ρ c (Proc.devRef .tc main_arg20) = W0 m ρ c (Proc.devRef .tc main_arg20) :=
  (W6_of_ne m ρ c main_arg20 (by decide)).trans (c_arg20_0_5 m ρ c)
theorem c_arg20_0_7 (c : Dev nD) : W7 m ρ c (Proc.devRef .tc main_arg20) = W0 m ρ c (Proc.devRef .tc main_arg20) :=
  (keep3 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg20_0_6 m ρ c)
theorem c_arg20_0_8 (c : Dev nD) : W8 m ρ c (Proc.devRef .tc main_arg20) = W0 m ρ c (Proc.devRef .tc main_arg20) :=
  (W8_of_ne m ρ c main_arg20 (by decide)).trans (c_arg20_0_7 m ρ c)
theorem c_arg20_0_9 (c : Dev nD) : W9 m ρ c (Proc.devRef .tc main_arg20) = W0 m ρ c (Proc.devRef .tc main_arg20) :=
  (keep4 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg20_0_8 m ρ c)
theorem c_arg20_0_10 (c : Dev nD) : W10 m ρ c (Proc.devRef .tc main_arg20) = W0 m ρ c (Proc.devRef .tc main_arg20) :=
  (W10_of_ne m ρ c main_arg20 (by decide)).trans (c_arg20_0_9 m ρ c)
theorem c_arg20_0_11 (c : Dev nD) : W11 m ρ c (Proc.devRef .tc main_arg20) = W0 m ρ c (Proc.devRef .tc main_arg20) :=
  (keep5 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg20_0_10 m ρ c)
theorem c_arg20_0_12 (c : Dev nD) : W12 m ρ c (Proc.devRef .tc main_arg20) = W0 m ρ c (Proc.devRef .tc main_arg20) :=
  (keep5_1 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg20_0_11 m ρ c)
theorem c_arg20_0_13 (c : Dev nD) : W13 m ρ c (Proc.devRef .tc main_arg20) = W0 m ρ c (Proc.devRef .tc main_arg20) :=
  (keep5_2 main_arg20 (Cert.Carry.allc (by decide) (Cert.Carry.allc (by decide) (Cert.Carry.allc (by decide) (Cert.Carry.allc (by decide) (Cert.Carry.allc (by decide) (Cert.Carry.allc (by decide) (Cert.Carry.alln))))))) _).trans (c_arg20_0_12 m ρ c)
theorem c_arg20_0_14 (c : Dev nD) : W14 m ρ c (Proc.devRef .tc main_arg20) = W0 m ρ c (Proc.devRef .tc main_arg20) :=
  (keep5_3 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg20_0_13 m ρ c)
theorem c_arg20_0_15 (c : Dev nD) : W15 m ρ c (Proc.devRef .tc main_arg20) = W0 m ρ c (Proc.devRef .tc main_arg20) :=
  (keep5_4 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg20_0_14 m ρ c)
theorem c_arg20_0_16 (c : Dev nD) : W16 m ρ c (Proc.devRef .tc main_arg20) = W0 m ρ c (Proc.devRef .tc main_arg20) :=
  (W16_of_ne m ρ c main_arg20 (by decide)).trans (c_arg20_0_15 m ρ c)
theorem c_arg20_0_17 (c : Dev nD) : W17 m ρ c (Proc.devRef .tc main_arg20) = W0 m ρ c (Proc.devRef .tc main_arg20) :=
  (keep6 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg20_0_16 m ρ c)
theorem c_arg20_0_18 (c : Dev nD) : W18 m ρ c (Proc.devRef .tc main_arg20) = W0 m ρ c (Proc.devRef .tc main_arg20) :=
  (W18_of_ne m ρ c main_arg20 (by decide)).trans (c_arg20_0_17 m ρ c)
theorem c_arg20_0_19 (c : Dev nD) : W19 m ρ c (Proc.devRef .tc main_arg20) = W0 m ρ c (Proc.devRef .tc main_arg20) :=
  (keep7 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg20_0_18 m ρ c)
theorem c_arg20_0_20 (c : Dev nD) : W20 m ρ c (Proc.devRef .tc main_arg20) = W0 m ρ c (Proc.devRef .tc main_arg20) :=
  (W20_of_ne m ρ c main_arg20 (by decide)).trans (c_arg20_0_19 m ρ c)
theorem c_arg20_0_21 (c : Dev nD) : W21 m ρ c (Proc.devRef .tc main_arg20) = W0 m ρ c (Proc.devRef .tc main_arg20) :=
  (keep8 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg20_0_20 m ρ c)
theorem c_arg20_0_22 (c : Dev nD) : W22 m ρ c (Proc.devRef .tc main_arg20) = W0 m ρ c (Proc.devRef .tc main_arg20) :=
  (W22_of_ne m ρ c main_arg20 (by decide)).trans (c_arg20_0_21 m ρ c)
theorem c_arg20_0_23 (c : Dev nD) : W23 m ρ c (Proc.devRef .tc main_arg20) = W0 m ρ c (Proc.devRef .tc main_arg20) :=
  (keep9 main_arg20 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg20_0_22 m ρ c)
theorem c_arg20_0_24 (c : Dev nD) : W24 m ρ c (Proc.devRef .tc main_arg20) = W0 m ρ c (Proc.devRef .tc main_arg20) :=
  (W24_of_ne m ρ c main_arg20 (by decide)).trans (c_arg20_0_23 m ρ c)

theorem c_arg21_0_1 (c : Dev nD) : W1 m ρ c (Proc.devRef .tc main_arg21) = W0 m ρ c (Proc.devRef .tc main_arg21) :=
  (keep0 main_arg21 (Cert.Carry.allc (by decide) (Cert.Carry.alln)) _).trans (rfl)
theorem c_arg21_0_2 (c : Dev nD) : W2 m ρ c (Proc.devRef .tc main_arg21) = W0 m ρ c (Proc.devRef .tc main_arg21) :=
  (W2_of_ne m ρ c main_arg21 (by decide)).trans (c_arg21_0_1 m ρ c)
theorem c_arg21_0_3 (c : Dev nD) : W3 m ρ c (Proc.devRef .tc main_arg21) = W0 m ρ c (Proc.devRef .tc main_arg21) :=
  (keep1 main_arg21 (Cert.Carry.allc (by decide) (Cert.Carry.alln)) _).trans (c_arg21_0_2 m ρ c)
theorem c_arg21_0_4 (c : Dev nD) : W4 m ρ c (Proc.devRef .tc main_arg21) = W0 m ρ c (Proc.devRef .tc main_arg21) :=
  (W4_of_ne m ρ c main_arg21 (by decide)).trans (c_arg21_0_3 m ρ c)
theorem c_arg21_0_5 (c : Dev nD) : W5 m ρ c (Proc.devRef .tc main_arg21) = W0 m ρ c (Proc.devRef .tc main_arg21) :=
  (keep2 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg21_0_4 m ρ c)
theorem c_arg21_0_6 (c : Dev nD) : W6 m ρ c (Proc.devRef .tc main_arg21) = W0 m ρ c (Proc.devRef .tc main_arg21) :=
  (W6_of_ne m ρ c main_arg21 (by decide)).trans (c_arg21_0_5 m ρ c)
theorem c_arg21_0_7 (c : Dev nD) : W7 m ρ c (Proc.devRef .tc main_arg21) = W0 m ρ c (Proc.devRef .tc main_arg21) :=
  (keep3 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg21_0_6 m ρ c)
theorem c_arg21_0_8 (c : Dev nD) : W8 m ρ c (Proc.devRef .tc main_arg21) = W0 m ρ c (Proc.devRef .tc main_arg21) :=
  (W8_of_ne m ρ c main_arg21 (by decide)).trans (c_arg21_0_7 m ρ c)
theorem c_arg21_0_9 (c : Dev nD) : W9 m ρ c (Proc.devRef .tc main_arg21) = W0 m ρ c (Proc.devRef .tc main_arg21) :=
  (keep4 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg21_0_8 m ρ c)
theorem c_arg21_0_10 (c : Dev nD) : W10 m ρ c (Proc.devRef .tc main_arg21) = W0 m ρ c (Proc.devRef .tc main_arg21) :=
  (W10_of_ne m ρ c main_arg21 (by decide)).trans (c_arg21_0_9 m ρ c)
theorem c_arg21_0_11 (c : Dev nD) : W11 m ρ c (Proc.devRef .tc main_arg21) = W0 m ρ c (Proc.devRef .tc main_arg21) :=
  (keep5 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg21_0_10 m ρ c)
theorem c_arg21_0_12 (c : Dev nD) : W12 m ρ c (Proc.devRef .tc main_arg21) = W0 m ρ c (Proc.devRef .tc main_arg21) :=
  (keep5_1 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg21_0_11 m ρ c)
theorem c_arg21_0_13 (c : Dev nD) : W13 m ρ c (Proc.devRef .tc main_arg21) = W0 m ρ c (Proc.devRef .tc main_arg21) :=
  (keep5_2 main_arg21 (Cert.Carry.allc (by decide) (Cert.Carry.allc (by decide) (Cert.Carry.allc (by decide) (Cert.Carry.allc (by decide) (Cert.Carry.allc (by decide) (Cert.Carry.allc (by decide) (Cert.Carry.alln))))))) _).trans (c_arg21_0_12 m ρ c)
theorem c_arg21_0_14 (c : Dev nD) : W14 m ρ c (Proc.devRef .tc main_arg21) = W0 m ρ c (Proc.devRef .tc main_arg21) :=
  (keep5_3 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg21_0_13 m ρ c)
theorem c_arg21_0_15 (c : Dev nD) : W15 m ρ c (Proc.devRef .tc main_arg21) = W0 m ρ c (Proc.devRef .tc main_arg21) :=
  (keep5_4 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg21_0_14 m ρ c)
theorem c_arg21_0_16 (c : Dev nD) : W16 m ρ c (Proc.devRef .tc main_arg21) = W0 m ρ c (Proc.devRef .tc main_arg21) :=
  (W16_of_ne m ρ c main_arg21 (by decide)).trans (c_arg21_0_15 m ρ c)
theorem c_arg21_0_17 (c : Dev nD) : W17 m ρ c (Proc.devRef .tc main_arg21) = W0 m ρ c (Proc.devRef .tc main_arg21) :=
  (keep6 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg21_0_16 m ρ c)
theorem c_arg21_0_18 (c : Dev nD) : W18 m ρ c (Proc.devRef .tc main_arg21) = W0 m ρ c (Proc.devRef .tc main_arg21) :=
  (W18_of_ne m ρ c main_arg21 (by decide)).trans (c_arg21_0_17 m ρ c)
theorem c_arg21_0_19 (c : Dev nD) : W19 m ρ c (Proc.devRef .tc main_arg21) = W0 m ρ c (Proc.devRef .tc main_arg21) :=
  (keep7 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg21_0_18 m ρ c)
theorem c_arg21_0_20 (c : Dev nD) : W20 m ρ c (Proc.devRef .tc main_arg21) = W0 m ρ c (Proc.devRef .tc main_arg21) :=
  (W20_of_ne m ρ c main_arg21 (by decide)).trans (c_arg21_0_19 m ρ c)
theorem c_arg21_0_21 (c : Dev nD) : W21 m ρ c (Proc.devRef .tc main_arg21) = W0 m ρ c (Proc.devRef .tc main_arg21) :=
  (keep8 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg21_0_20 m ρ c)
theorem c_arg21_0_22 (c : Dev nD) : W22 m ρ c (Proc.devRef .tc main_arg21) = W0 m ρ c (Proc.devRef .tc main_arg21) :=
  (W22_of_ne m ρ c main_arg21 (by decide)).trans (c_arg21_0_21 m ρ c)
theorem c_arg21_0_23 (c : Dev nD) : W23 m ρ c (Proc.devRef .tc main_arg21) = W0 m ρ c (Proc.devRef .tc main_arg21) :=
  (keep9 main_arg21 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg21_0_22 m ρ c)
theorem c_arg21_0_24 (c : Dev nD) : W24 m ρ c (Proc.devRef .tc main_arg21) = W0 m ρ c (Proc.devRef .tc main_arg21) :=
  (W24_of_ne m ρ c main_arg21 (by decide)).trans (c_arg21_0_23 m ρ c)

theorem c_arg22_0_1 (c : Dev nD) : W1 m ρ c (Proc.devRef .tc main_arg22) = W0 m ρ c (Proc.devRef .tc main_arg22) :=
  (keep0 main_arg22 (Cert.Carry.allc (by decide) (Cert.Carry.alln)) _).trans (rfl)
theorem c_arg22_0_2 (c : Dev nD) : W2 m ρ c (Proc.devRef .tc main_arg22) = W0 m ρ c (Proc.devRef .tc main_arg22) :=
  (W2_of_ne m ρ c main_arg22 (by decide)).trans (c_arg22_0_1 m ρ c)
theorem c_arg22_0_3 (c : Dev nD) : W3 m ρ c (Proc.devRef .tc main_arg22) = W0 m ρ c (Proc.devRef .tc main_arg22) :=
  (keep1 main_arg22 (Cert.Carry.allc (by decide) (Cert.Carry.alln)) _).trans (c_arg22_0_2 m ρ c)
theorem c_arg22_0_4 (c : Dev nD) : W4 m ρ c (Proc.devRef .tc main_arg22) = W0 m ρ c (Proc.devRef .tc main_arg22) :=
  (W4_of_ne m ρ c main_arg22 (by decide)).trans (c_arg22_0_3 m ρ c)
theorem c_arg22_0_5 (c : Dev nD) : W5 m ρ c (Proc.devRef .tc main_arg22) = W0 m ρ c (Proc.devRef .tc main_arg22) :=
  (keep2 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_4 m ρ c)
theorem c_arg22_0_6 (c : Dev nD) : W6 m ρ c (Proc.devRef .tc main_arg22) = W0 m ρ c (Proc.devRef .tc main_arg22) :=
  (W6_of_ne m ρ c main_arg22 (by decide)).trans (c_arg22_0_5 m ρ c)
theorem c_arg22_0_7 (c : Dev nD) : W7 m ρ c (Proc.devRef .tc main_arg22) = W0 m ρ c (Proc.devRef .tc main_arg22) :=
  (keep3 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_6 m ρ c)
theorem c_arg22_0_8 (c : Dev nD) : W8 m ρ c (Proc.devRef .tc main_arg22) = W0 m ρ c (Proc.devRef .tc main_arg22) :=
  (W8_of_ne m ρ c main_arg22 (by decide)).trans (c_arg22_0_7 m ρ c)
theorem c_arg22_0_9 (c : Dev nD) : W9 m ρ c (Proc.devRef .tc main_arg22) = W0 m ρ c (Proc.devRef .tc main_arg22) :=
  (keep4 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_8 m ρ c)
theorem c_arg22_0_10 (c : Dev nD) : W10 m ρ c (Proc.devRef .tc main_arg22) = W0 m ρ c (Proc.devRef .tc main_arg22) :=
  (W10_of_ne m ρ c main_arg22 (by decide)).trans (c_arg22_0_9 m ρ c)
theorem c_arg22_0_11 (c : Dev nD) : W11 m ρ c (Proc.devRef .tc main_arg22) = W0 m ρ c (Proc.devRef .tc main_arg22) :=
  (keep5 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg22_0_10 m ρ c)
theorem c_arg22_0_12 (c : Dev nD) : W12 m ρ c (Proc.devRef .tc main_arg22) = W0 m ρ c (Proc.devRef .tc main_arg22) :=
  (keep5_1 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg22_0_11 m ρ c)
theorem c_arg22_0_13 (c : Dev nD) : W13 m ρ c (Proc.devRef .tc main_arg22) = W0 m ρ c (Proc.devRef .tc main_arg22) :=
  (keep5_2 main_arg22 (Cert.Carry.allc (by decide) (Cert.Carry.allc (by decide) (Cert.Carry.allc (by decide) (Cert.Carry.allc (by decide) (Cert.Carry.allc (by decide) (Cert.Carry.allc (by decide) (Cert.Carry.alln))))))) _).trans (c_arg22_0_12 m ρ c)
theorem c_arg22_0_14 (c : Dev nD) : W14 m ρ c (Proc.devRef .tc main_arg22) = W0 m ρ c (Proc.devRef .tc main_arg22) :=
  (keep5_3 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg22_0_13 m ρ c)
theorem c_arg22_0_15 (c : Dev nD) : W15 m ρ c (Proc.devRef .tc main_arg22) = W0 m ρ c (Proc.devRef .tc main_arg22) :=
  (keep5_4 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg22_0_14 m ρ c)
theorem c_arg22_0_16 (c : Dev nD) : W16 m ρ c (Proc.devRef .tc main_arg22) = W0 m ρ c (Proc.devRef .tc main_arg22) :=
  (W16_of_ne m ρ c main_arg22 (by decide)).trans (c_arg22_0_15 m ρ c)
theorem c_arg22_0_17 (c : Dev nD) : W17 m ρ c (Proc.devRef .tc main_arg22) = W0 m ρ c (Proc.devRef .tc main_arg22) :=
  (keep6 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg22_0_16 m ρ c)
theorem c_arg22_0_18 (c : Dev nD) : W18 m ρ c (Proc.devRef .tc main_arg22) = W0 m ρ c (Proc.devRef .tc main_arg22) :=
  (W18_of_ne m ρ c main_arg22 (by decide)).trans (c_arg22_0_17 m ρ c)
theorem c_arg22_0_19 (c : Dev nD) : W19 m ρ c (Proc.devRef .tc main_arg22) = W0 m ρ c (Proc.devRef .tc main_arg22) :=
  (keep7 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_18 m ρ c)
theorem c_arg22_0_20 (c : Dev nD) : W20 m ρ c (Proc.devRef .tc main_arg22) = W0 m ρ c (Proc.devRef .tc main_arg22) :=
  (W20_of_ne m ρ c main_arg22 (by decide)).trans (c_arg22_0_19 m ρ c)
theorem c_arg22_0_21 (c : Dev nD) : W21 m ρ c (Proc.devRef .tc main_arg22) = W0 m ρ c (Proc.devRef .tc main_arg22) :=
  (keep8 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_20 m ρ c)
theorem c_arg22_0_22 (c : Dev nD) : W22 m ρ c (Proc.devRef .tc main_arg22) = W0 m ρ c (Proc.devRef .tc main_arg22) :=
  (W22_of_ne m ρ c main_arg22 (by decide)).trans (c_arg22_0_21 m ρ c)
theorem c_arg22_0_23 (c : Dev nD) : W23 m ρ c (Proc.devRef .tc main_arg22) = W0 m ρ c (Proc.devRef .tc main_arg22) :=
  (keep9 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_22 m ρ c)
theorem c_arg22_0_24 (c : Dev nD) : W24 m ρ c (Proc.devRef .tc main_arg22) = W0 m ρ c (Proc.devRef .tc main_arg22) :=
  (W24_of_ne m ρ c main_arg22 (by decide)).trans (c_arg22_0_23 m ρ c)
theorem c_arg22_0_25 (c : Dev nD) : W25 m ρ c (Proc.devRef .tc main_arg22) = W0 m ρ c (Proc.devRef .tc main_arg22) :=
  (keep10 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg22_0_24 m ρ c)
theorem c_arg22_0_26 (c : Dev nD) : W26 m ρ c (Proc.devRef .tc main_arg22) = W0 m ρ c (Proc.devRef .tc main_arg22) :=
  (keep10_1 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg22_0_25 m ρ c)
theorem c_arg22_0_27 (c : Dev nD) : W27 m ρ c (Proc.devRef .tc main_arg22) = W0 m ρ c (Proc.devRef .tc main_arg22) :=
  (keep10_2 main_arg22 (Cert.Carry.allc (by decide) (Cert.Carry.allc (by decide) (Cert.Carry.allc (by decide) (Cert.Carry.allc (by decide) (Cert.Carry.allc (by decide) (Cert.Carry.allc (by decide) (Cert.Carry.alln))))))) _).trans (c_arg22_0_26 m ρ c)
theorem c_arg22_0_28 (c : Dev nD) : W28 m ρ c (Proc.devRef .tc main_arg22) = W0 m ρ c (Proc.devRef .tc main_arg22) :=
  (keep10_3 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg22_0_27 m ρ c)
theorem c_arg22_0_29 (c : Dev nD) : W29 m ρ c (Proc.devRef .tc main_arg22) = W0 m ρ c (Proc.devRef .tc main_arg22) :=
  (keep10_4 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg22_0_28 m ρ c)
theorem c_arg22_0_30 (c : Dev nD) : W30 m ρ c (Proc.devRef .tc main_arg22) = W0 m ρ c (Proc.devRef .tc main_arg22) :=
  (W30_of_ne m ρ c main_arg22 (by decide)).trans (c_arg22_0_29 m ρ c)
theorem c_arg22_0_31 (c : Dev nD) : W31 m ρ c (Proc.devRef .tc main_arg22) = W0 m ρ c (Proc.devRef .tc main_arg22) :=
  (keep11 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg22_0_30 m ρ c)
theorem c_arg22_0_32 (c : Dev nD) : W32 m ρ c (Proc.devRef .tc main_arg22) = W0 m ρ c (Proc.devRef .tc main_arg22) :=
  (W32_of_ne m ρ c main_arg22 (by decide)).trans (c_arg22_0_31 m ρ c)
theorem c_arg22_0_33 (c : Dev nD) : W33 m ρ c (Proc.devRef .tc main_arg22) = W0 m ρ c (Proc.devRef .tc main_arg22) :=
  (keep12 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_32 m ρ c)
theorem c_arg22_0_34 (c : Dev nD) : W34 m ρ c (Proc.devRef .tc main_arg22) = W0 m ρ c (Proc.devRef .tc main_arg22) :=
  (W34_of_ne m ρ c main_arg22 (by decide)).trans (c_arg22_0_33 m ρ c)
theorem c_arg22_0_35 (c : Dev nD) : W35 m ρ c (Proc.devRef .tc main_arg22) = W0 m ρ c (Proc.devRef .tc main_arg22) :=
  (keep13 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_34 m ρ c)
theorem c_arg22_0_36 (c : Dev nD) : W36 m ρ c (Proc.devRef .tc main_arg22) = W0 m ρ c (Proc.devRef .tc main_arg22) :=
  (W36_of_ne m ρ c main_arg22 (by decide)).trans (c_arg22_0_35 m ρ c)
theorem c_arg22_0_37 (c : Dev nD) : W37 m ρ c (Proc.devRef .tc main_arg22) = W0 m ρ c (Proc.devRef .tc main_arg22) :=
  (keep14 main_arg22 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg22_0_36 m ρ c)
theorem c_arg22_0_38 (c : Dev nD) : W38 m ρ c (Proc.devRef .tc main_arg22) = W0 m ρ c (Proc.devRef .tc main_arg22) :=
  (W38_of_ne m ρ c main_arg22 (by decide)).trans (c_arg22_0_37 m ρ c)

theorem c_arg23_0_1 (c : Dev nD) : W1 m ρ c (Proc.devRef .tc main_arg23) = W0 m ρ c (Proc.devRef .tc main_arg23) :=
  (keep0 main_arg23 (Cert.Carry.allc (by decide) (Cert.Carry.alln)) _).trans (rfl)
theorem c_arg23_0_2 (c : Dev nD) : W2 m ρ c (Proc.devRef .tc main_arg23) = W0 m ρ c (Proc.devRef .tc main_arg23) :=
  (W2_of_ne m ρ c main_arg23 (by decide)).trans (c_arg23_0_1 m ρ c)
theorem c_arg23_0_3 (c : Dev nD) : W3 m ρ c (Proc.devRef .tc main_arg23) = W0 m ρ c (Proc.devRef .tc main_arg23) :=
  (keep1 main_arg23 (Cert.Carry.allc (by decide) (Cert.Carry.alln)) _).trans (c_arg23_0_2 m ρ c)
theorem c_arg23_0_4 (c : Dev nD) : W4 m ρ c (Proc.devRef .tc main_arg23) = W0 m ρ c (Proc.devRef .tc main_arg23) :=
  (W4_of_ne m ρ c main_arg23 (by decide)).trans (c_arg23_0_3 m ρ c)
theorem c_arg23_0_5 (c : Dev nD) : W5 m ρ c (Proc.devRef .tc main_arg23) = W0 m ρ c (Proc.devRef .tc main_arg23) :=
  (keep2 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_4 m ρ c)
theorem c_arg23_0_6 (c : Dev nD) : W6 m ρ c (Proc.devRef .tc main_arg23) = W0 m ρ c (Proc.devRef .tc main_arg23) :=
  (W6_of_ne m ρ c main_arg23 (by decide)).trans (c_arg23_0_5 m ρ c)
theorem c_arg23_0_7 (c : Dev nD) : W7 m ρ c (Proc.devRef .tc main_arg23) = W0 m ρ c (Proc.devRef .tc main_arg23) :=
  (keep3 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_6 m ρ c)
theorem c_arg23_0_8 (c : Dev nD) : W8 m ρ c (Proc.devRef .tc main_arg23) = W0 m ρ c (Proc.devRef .tc main_arg23) :=
  (W8_of_ne m ρ c main_arg23 (by decide)).trans (c_arg23_0_7 m ρ c)
theorem c_arg23_0_9 (c : Dev nD) : W9 m ρ c (Proc.devRef .tc main_arg23) = W0 m ρ c (Proc.devRef .tc main_arg23) :=
  (keep4 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_8 m ρ c)
theorem c_arg23_0_10 (c : Dev nD) : W10 m ρ c (Proc.devRef .tc main_arg23) = W0 m ρ c (Proc.devRef .tc main_arg23) :=
  (W10_of_ne m ρ c main_arg23 (by decide)).trans (c_arg23_0_9 m ρ c)
theorem c_arg23_0_11 (c : Dev nD) : W11 m ρ c (Proc.devRef .tc main_arg23) = W0 m ρ c (Proc.devRef .tc main_arg23) :=
  (keep5 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg23_0_10 m ρ c)
theorem c_arg23_0_12 (c : Dev nD) : W12 m ρ c (Proc.devRef .tc main_arg23) = W0 m ρ c (Proc.devRef .tc main_arg23) :=
  (keep5_1 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg23_0_11 m ρ c)
theorem c_arg23_0_13 (c : Dev nD) : W13 m ρ c (Proc.devRef .tc main_arg23) = W0 m ρ c (Proc.devRef .tc main_arg23) :=
  (keep5_2 main_arg23 (Cert.Carry.allc (by decide) (Cert.Carry.allc (by decide) (Cert.Carry.allc (by decide) (Cert.Carry.allc (by decide) (Cert.Carry.allc (by decide) (Cert.Carry.allc (by decide) (Cert.Carry.alln))))))) _).trans (c_arg23_0_12 m ρ c)
theorem c_arg23_0_14 (c : Dev nD) : W14 m ρ c (Proc.devRef .tc main_arg23) = W0 m ρ c (Proc.devRef .tc main_arg23) :=
  (keep5_3 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg23_0_13 m ρ c)
theorem c_arg23_0_15 (c : Dev nD) : W15 m ρ c (Proc.devRef .tc main_arg23) = W0 m ρ c (Proc.devRef .tc main_arg23) :=
  (keep5_4 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg23_0_14 m ρ c)
theorem c_arg23_0_16 (c : Dev nD) : W16 m ρ c (Proc.devRef .tc main_arg23) = W0 m ρ c (Proc.devRef .tc main_arg23) :=
  (W16_of_ne m ρ c main_arg23 (by decide)).trans (c_arg23_0_15 m ρ c)
theorem c_arg23_0_17 (c : Dev nD) : W17 m ρ c (Proc.devRef .tc main_arg23) = W0 m ρ c (Proc.devRef .tc main_arg23) :=
  (keep6 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg23_0_16 m ρ c)
theorem c_arg23_0_18 (c : Dev nD) : W18 m ρ c (Proc.devRef .tc main_arg23) = W0 m ρ c (Proc.devRef .tc main_arg23) :=
  (W18_of_ne m ρ c main_arg23 (by decide)).trans (c_arg23_0_17 m ρ c)
theorem c_arg23_0_19 (c : Dev nD) : W19 m ρ c (Proc.devRef .tc main_arg23) = W0 m ρ c (Proc.devRef .tc main_arg23) :=
  (keep7 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_18 m ρ c)
theorem c_arg23_0_20 (c : Dev nD) : W20 m ρ c (Proc.devRef .tc main_arg23) = W0 m ρ c (Proc.devRef .tc main_arg23) :=
  (W20_of_ne m ρ c main_arg23 (by decide)).trans (c_arg23_0_19 m ρ c)
theorem c_arg23_0_21 (c : Dev nD) : W21 m ρ c (Proc.devRef .tc main_arg23) = W0 m ρ c (Proc.devRef .tc main_arg23) :=
  (keep8 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_20 m ρ c)
theorem c_arg23_0_22 (c : Dev nD) : W22 m ρ c (Proc.devRef .tc main_arg23) = W0 m ρ c (Proc.devRef .tc main_arg23) :=
  (W22_of_ne m ρ c main_arg23 (by decide)).trans (c_arg23_0_21 m ρ c)
theorem c_arg23_0_23 (c : Dev nD) : W23 m ρ c (Proc.devRef .tc main_arg23) = W0 m ρ c (Proc.devRef .tc main_arg23) :=
  (keep9 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_22 m ρ c)
theorem c_arg23_0_24 (c : Dev nD) : W24 m ρ c (Proc.devRef .tc main_arg23) = W0 m ρ c (Proc.devRef .tc main_arg23) :=
  (W24_of_ne m ρ c main_arg23 (by decide)).trans (c_arg23_0_23 m ρ c)
theorem c_arg23_0_25 (c : Dev nD) : W25 m ρ c (Proc.devRef .tc main_arg23) = W0 m ρ c (Proc.devRef .tc main_arg23) :=
  (keep10 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg23_0_24 m ρ c)
theorem c_arg23_0_26 (c : Dev nD) : W26 m ρ c (Proc.devRef .tc main_arg23) = W0 m ρ c (Proc.devRef .tc main_arg23) :=
  (keep10_1 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg23_0_25 m ρ c)
theorem c_arg23_0_27 (c : Dev nD) : W27 m ρ c (Proc.devRef .tc main_arg23) = W0 m ρ c (Proc.devRef .tc main_arg23) :=
  (keep10_2 main_arg23 (Cert.Carry.allc (by decide) (Cert.Carry.allc (by decide) (Cert.Carry.allc (by decide) (Cert.Carry.allc (by decide) (Cert.Carry.allc (by decide) (Cert.Carry.allc (by decide) (Cert.Carry.alln))))))) _).trans (c_arg23_0_26 m ρ c)
theorem c_arg23_0_28 (c : Dev nD) : W28 m ρ c (Proc.devRef .tc main_arg23) = W0 m ρ c (Proc.devRef .tc main_arg23) :=
  (keep10_3 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg23_0_27 m ρ c)
theorem c_arg23_0_29 (c : Dev nD) : W29 m ρ c (Proc.devRef .tc main_arg23) = W0 m ρ c (Proc.devRef .tc main_arg23) :=
  (keep10_4 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg23_0_28 m ρ c)
theorem c_arg23_0_30 (c : Dev nD) : W30 m ρ c (Proc.devRef .tc main_arg23) = W0 m ρ c (Proc.devRef .tc main_arg23) :=
  (W30_of_ne m ρ c main_arg23 (by decide)).trans (c_arg23_0_29 m ρ c)
theorem c_arg23_0_31 (c : Dev nD) : W31 m ρ c (Proc.devRef .tc main_arg23) = W0 m ρ c (Proc.devRef .tc main_arg23) :=
  (keep11 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg23_0_30 m ρ c)
theorem c_arg23_0_32 (c : Dev nD) : W32 m ρ c (Proc.devRef .tc main_arg23) = W0 m ρ c (Proc.devRef .tc main_arg23) :=
  (W32_of_ne m ρ c main_arg23 (by decide)).trans (c_arg23_0_31 m ρ c)
theorem c_arg23_0_33 (c : Dev nD) : W33 m ρ c (Proc.devRef .tc main_arg23) = W0 m ρ c (Proc.devRef .tc main_arg23) :=
  (keep12 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_32 m ρ c)
theorem c_arg23_0_34 (c : Dev nD) : W34 m ρ c (Proc.devRef .tc main_arg23) = W0 m ρ c (Proc.devRef .tc main_arg23) :=
  (W34_of_ne m ρ c main_arg23 (by decide)).trans (c_arg23_0_33 m ρ c)
theorem c_arg23_0_35 (c : Dev nD) : W35 m ρ c (Proc.devRef .tc main_arg23) = W0 m ρ c (Proc.devRef .tc main_arg23) :=
  (keep13 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_34 m ρ c)
theorem c_arg23_0_36 (c : Dev nD) : W36 m ρ c (Proc.devRef .tc main_arg23) = W0 m ρ c (Proc.devRef .tc main_arg23) :=
  (W36_of_ne m ρ c main_arg23 (by decide)).trans (c_arg23_0_35 m ρ c)
theorem c_arg23_0_37 (c : Dev nD) : W37 m ρ c (Proc.devRef .tc main_arg23) = W0 m ρ c (Proc.devRef .tc main_arg23) :=
  (keep14 main_arg23 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg23_0_36 m ρ c)
theorem c_arg23_0_38 (c : Dev nD) : W38 m ρ c (Proc.devRef .tc main_arg23) = W0 m ρ c (Proc.devRef .tc main_arg23) :=
  (W38_of_ne m ρ c main_arg23 (by decide)).trans (c_arg23_0_37 m ρ c)

theorem c_arg24_0_1 (c : Dev nD) : W1 m ρ c (Proc.devRef .tc main_arg24) = W0 m ρ c (Proc.devRef .tc main_arg24) :=
  (keep0 main_arg24 (Cert.Carry.allc (by decide) (Cert.Carry.alln)) _).trans (rfl)
theorem c_arg24_0_2 (c : Dev nD) : W2 m ρ c (Proc.devRef .tc main_arg24) = W0 m ρ c (Proc.devRef .tc main_arg24) :=
  (W2_of_ne m ρ c main_arg24 (by decide)).trans (c_arg24_0_1 m ρ c)
theorem c_arg24_0_3 (c : Dev nD) : W3 m ρ c (Proc.devRef .tc main_arg24) = W0 m ρ c (Proc.devRef .tc main_arg24) :=
  (keep1 main_arg24 (Cert.Carry.allc (by decide) (Cert.Carry.alln)) _).trans (c_arg24_0_2 m ρ c)
theorem c_arg24_0_4 (c : Dev nD) : W4 m ρ c (Proc.devRef .tc main_arg24) = W0 m ρ c (Proc.devRef .tc main_arg24) :=
  (W4_of_ne m ρ c main_arg24 (by decide)).trans (c_arg24_0_3 m ρ c)
theorem c_arg24_0_5 (c : Dev nD) : W5 m ρ c (Proc.devRef .tc main_arg24) = W0 m ρ c (Proc.devRef .tc main_arg24) :=
  (keep2 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_4 m ρ c)
theorem c_arg24_0_6 (c : Dev nD) : W6 m ρ c (Proc.devRef .tc main_arg24) = W0 m ρ c (Proc.devRef .tc main_arg24) :=
  (W6_of_ne m ρ c main_arg24 (by decide)).trans (c_arg24_0_5 m ρ c)
theorem c_arg24_0_7 (c : Dev nD) : W7 m ρ c (Proc.devRef .tc main_arg24) = W0 m ρ c (Proc.devRef .tc main_arg24) :=
  (keep3 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_6 m ρ c)
theorem c_arg24_0_8 (c : Dev nD) : W8 m ρ c (Proc.devRef .tc main_arg24) = W0 m ρ c (Proc.devRef .tc main_arg24) :=
  (W8_of_ne m ρ c main_arg24 (by decide)).trans (c_arg24_0_7 m ρ c)
theorem c_arg24_0_9 (c : Dev nD) : W9 m ρ c (Proc.devRef .tc main_arg24) = W0 m ρ c (Proc.devRef .tc main_arg24) :=
  (keep4 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_8 m ρ c)
theorem c_arg24_0_10 (c : Dev nD) : W10 m ρ c (Proc.devRef .tc main_arg24) = W0 m ρ c (Proc.devRef .tc main_arg24) :=
  (W10_of_ne m ρ c main_arg24 (by decide)).trans (c_arg24_0_9 m ρ c)
theorem c_arg24_0_11 (c : Dev nD) : W11 m ρ c (Proc.devRef .tc main_arg24) = W0 m ρ c (Proc.devRef .tc main_arg24) :=
  (keep5 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg24_0_10 m ρ c)
theorem c_arg24_0_12 (c : Dev nD) : W12 m ρ c (Proc.devRef .tc main_arg24) = W0 m ρ c (Proc.devRef .tc main_arg24) :=
  (keep5_1 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg24_0_11 m ρ c)
theorem c_arg24_0_13 (c : Dev nD) : W13 m ρ c (Proc.devRef .tc main_arg24) = W0 m ρ c (Proc.devRef .tc main_arg24) :=
  (keep5_2 main_arg24 (Cert.Carry.allc (by decide) (Cert.Carry.allc (by decide) (Cert.Carry.allc (by decide) (Cert.Carry.allc (by decide) (Cert.Carry.allc (by decide) (Cert.Carry.allc (by decide) (Cert.Carry.alln))))))) _).trans (c_arg24_0_12 m ρ c)
theorem c_arg24_0_14 (c : Dev nD) : W14 m ρ c (Proc.devRef .tc main_arg24) = W0 m ρ c (Proc.devRef .tc main_arg24) :=
  (keep5_3 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg24_0_13 m ρ c)
theorem c_arg24_0_15 (c : Dev nD) : W15 m ρ c (Proc.devRef .tc main_arg24) = W0 m ρ c (Proc.devRef .tc main_arg24) :=
  (keep5_4 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg24_0_14 m ρ c)
theorem c_arg24_0_16 (c : Dev nD) : W16 m ρ c (Proc.devRef .tc main_arg24) = W0 m ρ c (Proc.devRef .tc main_arg24) :=
  (W16_of_ne m ρ c main_arg24 (by decide)).trans (c_arg24_0_15 m ρ c)
theorem c_arg24_0_17 (c : Dev nD) : W17 m ρ c (Proc.devRef .tc main_arg24) = W0 m ρ c (Proc.devRef .tc main_arg24) :=
  (keep6 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg24_0_16 m ρ c)
theorem c_arg24_0_18 (c : Dev nD) : W18 m ρ c (Proc.devRef .tc main_arg24) = W0 m ρ c (Proc.devRef .tc main_arg24) :=
  (W18_of_ne m ρ c main_arg24 (by decide)).trans (c_arg24_0_17 m ρ c)
theorem c_arg24_0_19 (c : Dev nD) : W19 m ρ c (Proc.devRef .tc main_arg24) = W0 m ρ c (Proc.devRef .tc main_arg24) :=
  (keep7 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_18 m ρ c)
theorem c_arg24_0_20 (c : Dev nD) : W20 m ρ c (Proc.devRef .tc main_arg24) = W0 m ρ c (Proc.devRef .tc main_arg24) :=
  (W20_of_ne m ρ c main_arg24 (by decide)).trans (c_arg24_0_19 m ρ c)
theorem c_arg24_0_21 (c : Dev nD) : W21 m ρ c (Proc.devRef .tc main_arg24) = W0 m ρ c (Proc.devRef .tc main_arg24) :=
  (keep8 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_20 m ρ c)
theorem c_arg24_0_22 (c : Dev nD) : W22 m ρ c (Proc.devRef .tc main_arg24) = W0 m ρ c (Proc.devRef .tc main_arg24) :=
  (W22_of_ne m ρ c main_arg24 (by decide)).trans (c_arg24_0_21 m ρ c)
theorem c_arg24_0_23 (c : Dev nD) : W23 m ρ c (Proc.devRef .tc main_arg24) = W0 m ρ c (Proc.devRef .tc main_arg24) :=
  (keep9 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_22 m ρ c)
theorem c_arg24_0_24 (c : Dev nD) : W24 m ρ c (Proc.devRef .tc main_arg24) = W0 m ρ c (Proc.devRef .tc main_arg24) :=
  (W24_of_ne m ρ c main_arg24 (by decide)).trans (c_arg24_0_23 m ρ c)
theorem c_arg24_0_25 (c : Dev nD) : W25 m ρ c (Proc.devRef .tc main_arg24) = W0 m ρ c (Proc.devRef .tc main_arg24) :=
  (keep10 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg24_0_24 m ρ c)
theorem c_arg24_0_26 (c : Dev nD) : W26 m ρ c (Proc.devRef .tc main_arg24) = W0 m ρ c (Proc.devRef .tc main_arg24) :=
  (keep10_1 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg24_0_25 m ρ c)
theorem c_arg24_0_27 (c : Dev nD) : W27 m ρ c (Proc.devRef .tc main_arg24) = W0 m ρ c (Proc.devRef .tc main_arg24) :=
  (keep10_2 main_arg24 (Cert.Carry.allc (by decide) (Cert.Carry.allc (by decide) (Cert.Carry.allc (by decide) (Cert.Carry.allc (by decide) (Cert.Carry.allc (by decide) (Cert.Carry.allc (by decide) (Cert.Carry.alln))))))) _).trans (c_arg24_0_26 m ρ c)
theorem c_arg24_0_28 (c : Dev nD) : W28 m ρ c (Proc.devRef .tc main_arg24) = W0 m ρ c (Proc.devRef .tc main_arg24) :=
  (keep10_3 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg24_0_27 m ρ c)
theorem c_arg24_0_29 (c : Dev nD) : W29 m ρ c (Proc.devRef .tc main_arg24) = W0 m ρ c (Proc.devRef .tc main_arg24) :=
  (keep10_4 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg24_0_28 m ρ c)
theorem c_arg24_0_30 (c : Dev nD) : W30 m ρ c (Proc.devRef .tc main_arg24) = W0 m ρ c (Proc.devRef .tc main_arg24) :=
  (W30_of_ne m ρ c main_arg24 (by decide)).trans (c_arg24_0_29 m ρ c)
theorem c_arg24_0_31 (c : Dev nD) : W31 m ρ c (Proc.devRef .tc main_arg24) = W0 m ρ c (Proc.devRef .tc main_arg24) :=
  (keep11 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg24_0_30 m ρ c)
theorem c_arg24_0_32 (c : Dev nD) : W32 m ρ c (Proc.devRef .tc main_arg24) = W0 m ρ c (Proc.devRef .tc main_arg24) :=
  (W32_of_ne m ρ c main_arg24 (by decide)).trans (c_arg24_0_31 m ρ c)
theorem c_arg24_0_33 (c : Dev nD) : W33 m ρ c (Proc.devRef .tc main_arg24) = W0 m ρ c (Proc.devRef .tc main_arg24) :=
  (keep12 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_32 m ρ c)
theorem c_arg24_0_34 (c : Dev nD) : W34 m ρ c (Proc.devRef .tc main_arg24) = W0 m ρ c (Proc.devRef .tc main_arg24) :=
  (W34_of_ne m ρ c main_arg24 (by decide)).trans (c_arg24_0_33 m ρ c)
theorem c_arg24_0_35 (c : Dev nD) : W35 m ρ c (Proc.devRef .tc main_arg24) = W0 m ρ c (Proc.devRef .tc main_arg24) :=
  (keep13 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_34 m ρ c)
theorem c_arg24_0_36 (c : Dev nD) : W36 m ρ c (Proc.devRef .tc main_arg24) = W0 m ρ c (Proc.devRef .tc main_arg24) :=
  (W36_of_ne m ρ c main_arg24 (by decide)).trans (c_arg24_0_35 m ρ c)
theorem c_arg24_0_37 (c : Dev nD) : W37 m ρ c (Proc.devRef .tc main_arg24) = W0 m ρ c (Proc.devRef .tc main_arg24) :=
  (keep14 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg24_0_36 m ρ c)
theorem c_arg24_0_38 (c : Dev nD) : W38 m ρ c (Proc.devRef .tc main_arg24) = W0 m ρ c (Proc.devRef .tc main_arg24) :=
  (W38_of_ne m ρ c main_arg24 (by decide)).trans (c_arg24_0_37 m ρ c)
theorem c_arg24_0_39 (c : Dev nD) : W39 m ρ c (Proc.devRef .tc main_arg24) = W0 m ρ c (Proc.devRef .tc main_arg24) :=
  (keep15 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg24_0_38 m ρ c)
theorem c_arg24_0_40 (c : Dev nD) : W40 m ρ c (Proc.devRef .tc main_arg24) = W0 m ρ c (Proc.devRef .tc main_arg24) :=
  (keep15_1 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg24_0_39 m ρ c)
theorem c_arg24_0_41 (c : Dev nD) : W41 m ρ c (Proc.devRef .tc main_arg24) = W0 m ρ c (Proc.devRef .tc main_arg24) :=
  (keep15_2 main_arg24 (Cert.Carry.allc (by decide) (Cert.Carry.allc (by decide) (Cert.Carry.allc (by decide) (Cert.Carry.allc (by decide) (Cert.Carry.allc (by decide) (Cert.Carry.allc (by decide) (Cert.Carry.alln))))))) _).trans (c_arg24_0_40 m ρ c)
theorem c_arg24_0_42 (c : Dev nD) : W42 m ρ c (Proc.devRef .tc main_arg24) = W0 m ρ c (Proc.devRef .tc main_arg24) :=
  (keep15_3 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg24_0_41 m ρ c)
theorem c_arg24_0_43 (c : Dev nD) : W43 m ρ c (Proc.devRef .tc main_arg24) = W0 m ρ c (Proc.devRef .tc main_arg24) :=
  (keep15_4 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg24_0_42 m ρ c)
theorem c_arg24_0_44 (c : Dev nD) : W44 m ρ c (Proc.devRef .tc main_arg24) = W0 m ρ c (Proc.devRef .tc main_arg24) :=
  (W44_of_ne m ρ c main_arg24 (by decide)).trans (c_arg24_0_43 m ρ c)
theorem c_arg24_0_45 (c : Dev nD) : W45 m ρ c (Proc.devRef .tc main_arg24) = W0 m ρ c (Proc.devRef .tc main_arg24) :=
  (keep16 main_arg24 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg24_0_44 m ρ c)
theorem c_arg24_0_46 (c : Dev nD) : W46 m ρ c (Proc.devRef .tc main_arg24) = W0 m ρ c (Proc.devRef .tc main_arg24) :=
  (W46_of_ne m ρ c main_arg24 (by decide)).trans (c_arg24_0_45 m ρ c)
theorem c_arg24_0_47 (c : Dev nD) : W47 m ρ c (Proc.devRef .tc main_arg24) = W0 m ρ c (Proc.devRef .tc main_arg24) :=
  (keep17 main_arg24 (Cert.Carry.allc (by decide) (Cert.Carry.allc (by decide) (Cert.Carry.alln))) _).trans (c_arg24_0_46 m ρ c)

theorem c_arg25_0_1 (c : Dev nD) : W1 m ρ c (Proc.devRef .tc main_arg25) = W0 m ρ c (Proc.devRef .tc main_arg25) :=
  (keep0 main_arg25 (Cert.Carry.allc (by decide) (Cert.Carry.alln)) _).trans (rfl)
theorem c_arg25_0_2 (c : Dev nD) : W2 m ρ c (Proc.devRef .tc main_arg25) = W0 m ρ c (Proc.devRef .tc main_arg25) :=
  (W2_of_ne m ρ c main_arg25 (by decide)).trans (c_arg25_0_1 m ρ c)
theorem c_arg25_0_3 (c : Dev nD) : W3 m ρ c (Proc.devRef .tc main_arg25) = W0 m ρ c (Proc.devRef .tc main_arg25) :=
  (keep1 main_arg25 (Cert.Carry.allc (by decide) (Cert.Carry.alln)) _).trans (c_arg25_0_2 m ρ c)
theorem c_arg25_0_4 (c : Dev nD) : W4 m ρ c (Proc.devRef .tc main_arg25) = W0 m ρ c (Proc.devRef .tc main_arg25) :=
  (W4_of_ne m ρ c main_arg25 (by decide)).trans (c_arg25_0_3 m ρ c)
theorem c_arg25_0_5 (c : Dev nD) : W5 m ρ c (Proc.devRef .tc main_arg25) = W0 m ρ c (Proc.devRef .tc main_arg25) :=
  (keep2 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_4 m ρ c)
theorem c_arg25_0_6 (c : Dev nD) : W6 m ρ c (Proc.devRef .tc main_arg25) = W0 m ρ c (Proc.devRef .tc main_arg25) :=
  (W6_of_ne m ρ c main_arg25 (by decide)).trans (c_arg25_0_5 m ρ c)
theorem c_arg25_0_7 (c : Dev nD) : W7 m ρ c (Proc.devRef .tc main_arg25) = W0 m ρ c (Proc.devRef .tc main_arg25) :=
  (keep3 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_6 m ρ c)
theorem c_arg25_0_8 (c : Dev nD) : W8 m ρ c (Proc.devRef .tc main_arg25) = W0 m ρ c (Proc.devRef .tc main_arg25) :=
  (W8_of_ne m ρ c main_arg25 (by decide)).trans (c_arg25_0_7 m ρ c)
theorem c_arg25_0_9 (c : Dev nD) : W9 m ρ c (Proc.devRef .tc main_arg25) = W0 m ρ c (Proc.devRef .tc main_arg25) :=
  (keep4 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_8 m ρ c)
theorem c_arg25_0_10 (c : Dev nD) : W10 m ρ c (Proc.devRef .tc main_arg25) = W0 m ρ c (Proc.devRef .tc main_arg25) :=
  (W10_of_ne m ρ c main_arg25 (by decide)).trans (c_arg25_0_9 m ρ c)
theorem c_arg25_0_11 (c : Dev nD) : W11 m ρ c (Proc.devRef .tc main_arg25) = W0 m ρ c (Proc.devRef .tc main_arg25) :=
  (keep5 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg25_0_10 m ρ c)
theorem c_arg25_0_12 (c : Dev nD) : W12 m ρ c (Proc.devRef .tc main_arg25) = W0 m ρ c (Proc.devRef .tc main_arg25) :=
  (keep5_1 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg25_0_11 m ρ c)
theorem c_arg25_0_13 (c : Dev nD) : W13 m ρ c (Proc.devRef .tc main_arg25) = W0 m ρ c (Proc.devRef .tc main_arg25) :=
  (keep5_2 main_arg25 (Cert.Carry.allc (by decide) (Cert.Carry.allc (by decide) (Cert.Carry.allc (by decide) (Cert.Carry.allc (by decide) (Cert.Carry.allc (by decide) (Cert.Carry.allc (by decide) (Cert.Carry.alln))))))) _).trans (c_arg25_0_12 m ρ c)
theorem c_arg25_0_14 (c : Dev nD) : W14 m ρ c (Proc.devRef .tc main_arg25) = W0 m ρ c (Proc.devRef .tc main_arg25) :=
  (keep5_3 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg25_0_13 m ρ c)
theorem c_arg25_0_15 (c : Dev nD) : W15 m ρ c (Proc.devRef .tc main_arg25) = W0 m ρ c (Proc.devRef .tc main_arg25) :=
  (keep5_4 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg25_0_14 m ρ c)
theorem c_arg25_0_16 (c : Dev nD) : W16 m ρ c (Proc.devRef .tc main_arg25) = W0 m ρ c (Proc.devRef .tc main_arg25) :=
  (W16_of_ne m ρ c main_arg25 (by decide)).trans (c_arg25_0_15 m ρ c)
theorem c_arg25_0_17 (c : Dev nD) : W17 m ρ c (Proc.devRef .tc main_arg25) = W0 m ρ c (Proc.devRef .tc main_arg25) :=
  (keep6 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg25_0_16 m ρ c)
theorem c_arg25_0_18 (c : Dev nD) : W18 m ρ c (Proc.devRef .tc main_arg25) = W0 m ρ c (Proc.devRef .tc main_arg25) :=
  (W18_of_ne m ρ c main_arg25 (by decide)).trans (c_arg25_0_17 m ρ c)
theorem c_arg25_0_19 (c : Dev nD) : W19 m ρ c (Proc.devRef .tc main_arg25) = W0 m ρ c (Proc.devRef .tc main_arg25) :=
  (keep7 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_18 m ρ c)
theorem c_arg25_0_20 (c : Dev nD) : W20 m ρ c (Proc.devRef .tc main_arg25) = W0 m ρ c (Proc.devRef .tc main_arg25) :=
  (W20_of_ne m ρ c main_arg25 (by decide)).trans (c_arg25_0_19 m ρ c)
theorem c_arg25_0_21 (c : Dev nD) : W21 m ρ c (Proc.devRef .tc main_arg25) = W0 m ρ c (Proc.devRef .tc main_arg25) :=
  (keep8 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_20 m ρ c)
theorem c_arg25_0_22 (c : Dev nD) : W22 m ρ c (Proc.devRef .tc main_arg25) = W0 m ρ c (Proc.devRef .tc main_arg25) :=
  (W22_of_ne m ρ c main_arg25 (by decide)).trans (c_arg25_0_21 m ρ c)
theorem c_arg25_0_23 (c : Dev nD) : W23 m ρ c (Proc.devRef .tc main_arg25) = W0 m ρ c (Proc.devRef .tc main_arg25) :=
  (keep9 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_22 m ρ c)
theorem c_arg25_0_24 (c : Dev nD) : W24 m ρ c (Proc.devRef .tc main_arg25) = W0 m ρ c (Proc.devRef .tc main_arg25) :=
  (W24_of_ne m ρ c main_arg25 (by decide)).trans (c_arg25_0_23 m ρ c)
theorem c_arg25_0_25 (c : Dev nD) : W25 m ρ c (Proc.devRef .tc main_arg25) = W0 m ρ c (Proc.devRef .tc main_arg25) :=
  (keep10 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg25_0_24 m ρ c)
theorem c_arg25_0_26 (c : Dev nD) : W26 m ρ c (Proc.devRef .tc main_arg25) = W0 m ρ c (Proc.devRef .tc main_arg25) :=
  (keep10_1 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg25_0_25 m ρ c)
theorem c_arg25_0_27 (c : Dev nD) : W27 m ρ c (Proc.devRef .tc main_arg25) = W0 m ρ c (Proc.devRef .tc main_arg25) :=
  (keep10_2 main_arg25 (Cert.Carry.allc (by decide) (Cert.Carry.allc (by decide) (Cert.Carry.allc (by decide) (Cert.Carry.allc (by decide) (Cert.Carry.allc (by decide) (Cert.Carry.allc (by decide) (Cert.Carry.alln))))))) _).trans (c_arg25_0_26 m ρ c)
theorem c_arg25_0_28 (c : Dev nD) : W28 m ρ c (Proc.devRef .tc main_arg25) = W0 m ρ c (Proc.devRef .tc main_arg25) :=
  (keep10_3 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg25_0_27 m ρ c)
theorem c_arg25_0_29 (c : Dev nD) : W29 m ρ c (Proc.devRef .tc main_arg25) = W0 m ρ c (Proc.devRef .tc main_arg25) :=
  (keep10_4 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg25_0_28 m ρ c)
theorem c_arg25_0_30 (c : Dev nD) : W30 m ρ c (Proc.devRef .tc main_arg25) = W0 m ρ c (Proc.devRef .tc main_arg25) :=
  (W30_of_ne m ρ c main_arg25 (by decide)).trans (c_arg25_0_29 m ρ c)
theorem c_arg25_0_31 (c : Dev nD) : W31 m ρ c (Proc.devRef .tc main_arg25) = W0 m ρ c (Proc.devRef .tc main_arg25) :=
  (keep11 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg25_0_30 m ρ c)
theorem c_arg25_0_32 (c : Dev nD) : W32 m ρ c (Proc.devRef .tc main_arg25) = W0 m ρ c (Proc.devRef .tc main_arg25) :=
  (W32_of_ne m ρ c main_arg25 (by decide)).trans (c_arg25_0_31 m ρ c)
theorem c_arg25_0_33 (c : Dev nD) : W33 m ρ c (Proc.devRef .tc main_arg25) = W0 m ρ c (Proc.devRef .tc main_arg25) :=
  (keep12 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_32 m ρ c)
theorem c_arg25_0_34 (c : Dev nD) : W34 m ρ c (Proc.devRef .tc main_arg25) = W0 m ρ c (Proc.devRef .tc main_arg25) :=
  (W34_of_ne m ρ c main_arg25 (by decide)).trans (c_arg25_0_33 m ρ c)
theorem c_arg25_0_35 (c : Dev nD) : W35 m ρ c (Proc.devRef .tc main_arg25) = W0 m ρ c (Proc.devRef .tc main_arg25) :=
  (keep13 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_34 m ρ c)
theorem c_arg25_0_36 (c : Dev nD) : W36 m ρ c (Proc.devRef .tc main_arg25) = W0 m ρ c (Proc.devRef .tc main_arg25) :=
  (W36_of_ne m ρ c main_arg25 (by decide)).trans (c_arg25_0_35 m ρ c)
theorem c_arg25_0_37 (c : Dev nD) : W37 m ρ c (Proc.devRef .tc main_arg25) = W0 m ρ c (Proc.devRef .tc main_arg25) :=
  (keep14 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg25_0_36 m ρ c)
theorem c_arg25_0_38 (c : Dev nD) : W38 m ρ c (Proc.devRef .tc main_arg25) = W0 m ρ c (Proc.devRef .tc main_arg25) :=
  (W38_of_ne m ρ c main_arg25 (by decide)).trans (c_arg25_0_37 m ρ c)
theorem c_arg25_0_39 (c : Dev nD) : W39 m ρ c (Proc.devRef .tc main_arg25) = W0 m ρ c (Proc.devRef .tc main_arg25) :=
  (keep15 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg25_0_38 m ρ c)
theorem c_arg25_0_40 (c : Dev nD) : W40 m ρ c (Proc.devRef .tc main_arg25) = W0 m ρ c (Proc.devRef .tc main_arg25) :=
  (keep15_1 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg25_0_39 m ρ c)
theorem c_arg25_0_41 (c : Dev nD) : W41 m ρ c (Proc.devRef .tc main_arg25) = W0 m ρ c (Proc.devRef .tc main_arg25) :=
  (keep15_2 main_arg25 (Cert.Carry.allc (by decide) (Cert.Carry.allc (by decide) (Cert.Carry.allc (by decide) (Cert.Carry.allc (by decide) (Cert.Carry.allc (by decide) (Cert.Carry.allc (by decide) (Cert.Carry.alln))))))) _).trans (c_arg25_0_40 m ρ c)
theorem c_arg25_0_42 (c : Dev nD) : W42 m ρ c (Proc.devRef .tc main_arg25) = W0 m ρ c (Proc.devRef .tc main_arg25) :=
  (keep15_3 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg25_0_41 m ρ c)
theorem c_arg25_0_43 (c : Dev nD) : W43 m ρ c (Proc.devRef .tc main_arg25) = W0 m ρ c (Proc.devRef .tc main_arg25) :=
  (keep15_4 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg25_0_42 m ρ c)
theorem c_arg25_0_44 (c : Dev nD) : W44 m ρ c (Proc.devRef .tc main_arg25) = W0 m ρ c (Proc.devRef .tc main_arg25) :=
  (W44_of_ne m ρ c main_arg25 (by decide)).trans (c_arg25_0_43 m ρ c)
theorem c_arg25_0_45 (c : Dev nD) : W45 m ρ c (Proc.devRef .tc main_arg25) = W0 m ρ c (Proc.devRef .tc main_arg25) :=
  (keep16 main_arg25 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg25_0_44 m ρ c)
theorem c_arg25_0_46 (c : Dev nD) : W46 m ρ c (Proc.devRef .tc main_arg25) = W0 m ρ c (Proc.devRef .tc main_arg25) :=
  (W46_of_ne m ρ c main_arg25 (by decide)).trans (c_arg25_0_45 m ρ c)

theorem c_arg26_0_1 (c : Dev nD) : W1 m ρ c (Proc.devRef .tc main_arg26) = W0 m ρ c (Proc.devRef .tc main_arg26) :=
  (keep0 main_arg26 (Cert.Carry.allc (by decide) (Cert.Carry.alln)) _).trans (rfl)
theorem c_arg26_0_2 (c : Dev nD) : W2 m ρ c (Proc.devRef .tc main_arg26) = W0 m ρ c (Proc.devRef .tc main_arg26) :=
  (W2_of_ne m ρ c main_arg26 (by decide)).trans (c_arg26_0_1 m ρ c)
theorem c_arg26_0_3 (c : Dev nD) : W3 m ρ c (Proc.devRef .tc main_arg26) = W0 m ρ c (Proc.devRef .tc main_arg26) :=
  (keep1 main_arg26 (Cert.Carry.allc (by decide) (Cert.Carry.alln)) _).trans (c_arg26_0_2 m ρ c)
theorem c_arg26_0_4 (c : Dev nD) : W4 m ρ c (Proc.devRef .tc main_arg26) = W0 m ρ c (Proc.devRef .tc main_arg26) :=
  (W4_of_ne m ρ c main_arg26 (by decide)).trans (c_arg26_0_3 m ρ c)
theorem c_arg26_0_5 (c : Dev nD) : W5 m ρ c (Proc.devRef .tc main_arg26) = W0 m ρ c (Proc.devRef .tc main_arg26) :=
  (keep2 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_4 m ρ c)
theorem c_arg26_0_6 (c : Dev nD) : W6 m ρ c (Proc.devRef .tc main_arg26) = W0 m ρ c (Proc.devRef .tc main_arg26) :=
  (W6_of_ne m ρ c main_arg26 (by decide)).trans (c_arg26_0_5 m ρ c)
theorem c_arg26_0_7 (c : Dev nD) : W7 m ρ c (Proc.devRef .tc main_arg26) = W0 m ρ c (Proc.devRef .tc main_arg26) :=
  (keep3 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_6 m ρ c)
theorem c_arg26_0_8 (c : Dev nD) : W8 m ρ c (Proc.devRef .tc main_arg26) = W0 m ρ c (Proc.devRef .tc main_arg26) :=
  (W8_of_ne m ρ c main_arg26 (by decide)).trans (c_arg26_0_7 m ρ c)
theorem c_arg26_0_9 (c : Dev nD) : W9 m ρ c (Proc.devRef .tc main_arg26) = W0 m ρ c (Proc.devRef .tc main_arg26) :=
  (keep4 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_8 m ρ c)
theorem c_arg26_0_10 (c : Dev nD) : W10 m ρ c (Proc.devRef .tc main_arg26) = W0 m ρ c (Proc.devRef .tc main_arg26) :=
  (W10_of_ne m ρ c main_arg26 (by decide)).trans (c_arg26_0_9 m ρ c)
theorem c_arg26_0_11 (c : Dev nD) : W11 m ρ c (Proc.devRef .tc main_arg26) = W0 m ρ c (Proc.devRef .tc main_arg26) :=
  (keep5 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg26_0_10 m ρ c)
theorem c_arg26_0_12 (c : Dev nD) : W12 m ρ c (Proc.devRef .tc main_arg26) = W0 m ρ c (Proc.devRef .tc main_arg26) :=
  (keep5_1 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg26_0_11 m ρ c)
theorem c_arg26_0_13 (c : Dev nD) : W13 m ρ c (Proc.devRef .tc main_arg26) = W0 m ρ c (Proc.devRef .tc main_arg26) :=
  (keep5_2 main_arg26 (Cert.Carry.allc (by decide) (Cert.Carry.allc (by decide) (Cert.Carry.allc (by decide) (Cert.Carry.allc (by decide) (Cert.Carry.allc (by decide) (Cert.Carry.allc (by decide) (Cert.Carry.alln))))))) _).trans (c_arg26_0_12 m ρ c)
theorem c_arg26_0_14 (c : Dev nD) : W14 m ρ c (Proc.devRef .tc main_arg26) = W0 m ρ c (Proc.devRef .tc main_arg26) :=
  (keep5_3 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg26_0_13 m ρ c)
theorem c_arg26_0_15 (c : Dev nD) : W15 m ρ c (Proc.devRef .tc main_arg26) = W0 m ρ c (Proc.devRef .tc main_arg26) :=
  (keep5_4 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg26_0_14 m ρ c)
theorem c_arg26_0_16 (c : Dev nD) : W16 m ρ c (Proc.devRef .tc main_arg26) = W0 m ρ c (Proc.devRef .tc main_arg26) :=
  (W16_of_ne m ρ c main_arg26 (by decide)).trans (c_arg26_0_15 m ρ c)
theorem c_arg26_0_17 (c : Dev nD) : W17 m ρ c (Proc.devRef .tc main_arg26) = W0 m ρ c (Proc.devRef .tc main_arg26) :=
  (keep6 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg26_0_16 m ρ c)
theorem c_arg26_0_18 (c : Dev nD) : W18 m ρ c (Proc.devRef .tc main_arg26) = W0 m ρ c (Proc.devRef .tc main_arg26) :=
  (W18_of_ne m ρ c main_arg26 (by decide)).trans (c_arg26_0_17 m ρ c)
theorem c_arg26_0_19 (c : Dev nD) : W19 m ρ c (Proc.devRef .tc main_arg26) = W0 m ρ c (Proc.devRef .tc main_arg26) :=
  (keep7 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_18 m ρ c)
theorem c_arg26_0_20 (c : Dev nD) : W20 m ρ c (Proc.devRef .tc main_arg26) = W0 m ρ c (Proc.devRef .tc main_arg26) :=
  (W20_of_ne m ρ c main_arg26 (by decide)).trans (c_arg26_0_19 m ρ c)
theorem c_arg26_0_21 (c : Dev nD) : W21 m ρ c (Proc.devRef .tc main_arg26) = W0 m ρ c (Proc.devRef .tc main_arg26) :=
  (keep8 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_20 m ρ c)
theorem c_arg26_0_22 (c : Dev nD) : W22 m ρ c (Proc.devRef .tc main_arg26) = W0 m ρ c (Proc.devRef .tc main_arg26) :=
  (W22_of_ne m ρ c main_arg26 (by decide)).trans (c_arg26_0_21 m ρ c)
theorem c_arg26_0_23 (c : Dev nD) : W23 m ρ c (Proc.devRef .tc main_arg26) = W0 m ρ c (Proc.devRef .tc main_arg26) :=
  (keep9 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_22 m ρ c)
theorem c_arg26_0_24 (c : Dev nD) : W24 m ρ c (Proc.devRef .tc main_arg26) = W0 m ρ c (Proc.devRef .tc main_arg26) :=
  (W24_of_ne m ρ c main_arg26 (by decide)).trans (c_arg26_0_23 m ρ c)
theorem c_arg26_0_25 (c : Dev nD) : W25 m ρ c (Proc.devRef .tc main_arg26) = W0 m ρ c (Proc.devRef .tc main_arg26) :=
  (keep10 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg26_0_24 m ρ c)
theorem c_arg26_0_26 (c : Dev nD) : W26 m ρ c (Proc.devRef .tc main_arg26) = W0 m ρ c (Proc.devRef .tc main_arg26) :=
  (keep10_1 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg26_0_25 m ρ c)
theorem c_arg26_0_27 (c : Dev nD) : W27 m ρ c (Proc.devRef .tc main_arg26) = W0 m ρ c (Proc.devRef .tc main_arg26) :=
  (keep10_2 main_arg26 (Cert.Carry.allc (by decide) (Cert.Carry.allc (by decide) (Cert.Carry.allc (by decide) (Cert.Carry.allc (by decide) (Cert.Carry.allc (by decide) (Cert.Carry.allc (by decide) (Cert.Carry.alln))))))) _).trans (c_arg26_0_26 m ρ c)
theorem c_arg26_0_28 (c : Dev nD) : W28 m ρ c (Proc.devRef .tc main_arg26) = W0 m ρ c (Proc.devRef .tc main_arg26) :=
  (keep10_3 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg26_0_27 m ρ c)
theorem c_arg26_0_29 (c : Dev nD) : W29 m ρ c (Proc.devRef .tc main_arg26) = W0 m ρ c (Proc.devRef .tc main_arg26) :=
  (keep10_4 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg26_0_28 m ρ c)
theorem c_arg26_0_30 (c : Dev nD) : W30 m ρ c (Proc.devRef .tc main_arg26) = W0 m ρ c (Proc.devRef .tc main_arg26) :=
  (W30_of_ne m ρ c main_arg26 (by decide)).trans (c_arg26_0_29 m ρ c)
theorem c_arg26_0_31 (c : Dev nD) : W31 m ρ c (Proc.devRef .tc main_arg26) = W0 m ρ c (Proc.devRef .tc main_arg26) :=
  (keep11 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg26_0_30 m ρ c)
theorem c_arg26_0_32 (c : Dev nD) : W32 m ρ c (Proc.devRef .tc main_arg26) = W0 m ρ c (Proc.devRef .tc main_arg26) :=
  (W32_of_ne m ρ c main_arg26 (by decide)).trans (c_arg26_0_31 m ρ c)
theorem c_arg26_0_33 (c : Dev nD) : W33 m ρ c (Proc.devRef .tc main_arg26) = W0 m ρ c (Proc.devRef .tc main_arg26) :=
  (keep12 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_32 m ρ c)
theorem c_arg26_0_34 (c : Dev nD) : W34 m ρ c (Proc.devRef .tc main_arg26) = W0 m ρ c (Proc.devRef .tc main_arg26) :=
  (W34_of_ne m ρ c main_arg26 (by decide)).trans (c_arg26_0_33 m ρ c)
theorem c_arg26_0_35 (c : Dev nD) : W35 m ρ c (Proc.devRef .tc main_arg26) = W0 m ρ c (Proc.devRef .tc main_arg26) :=
  (keep13 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_34 m ρ c)
theorem c_arg26_0_36 (c : Dev nD) : W36 m ρ c (Proc.devRef .tc main_arg26) = W0 m ρ c (Proc.devRef .tc main_arg26) :=
  (W36_of_ne m ρ c main_arg26 (by decide)).trans (c_arg26_0_35 m ρ c)
theorem c_arg26_0_37 (c : Dev nD) : W37 m ρ c (Proc.devRef .tc main_arg26) = W0 m ρ c (Proc.devRef .tc main_arg26) :=
  (keep14 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg26_0_36 m ρ c)
theorem c_arg26_0_38 (c : Dev nD) : W38 m ρ c (Proc.devRef .tc main_arg26) = W0 m ρ c (Proc.devRef .tc main_arg26) :=
  (W38_of_ne m ρ c main_arg26 (by decide)).trans (c_arg26_0_37 m ρ c)
theorem c_arg26_0_39 (c : Dev nD) : W39 m ρ c (Proc.devRef .tc main_arg26) = W0 m ρ c (Proc.devRef .tc main_arg26) :=
  (keep15 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg26_0_38 m ρ c)
theorem c_arg26_0_40 (c : Dev nD) : W40 m ρ c (Proc.devRef .tc main_arg26) = W0 m ρ c (Proc.devRef .tc main_arg26) :=
  (keep15_1 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg26_0_39 m ρ c)
theorem c_arg26_0_41 (c : Dev nD) : W41 m ρ c (Proc.devRef .tc main_arg26) = W0 m ρ c (Proc.devRef .tc main_arg26) :=
  (keep15_2 main_arg26 (Cert.Carry.allc (by decide) (Cert.Carry.allc (by decide) (Cert.Carry.allc (by decide) (Cert.Carry.allc (by decide) (Cert.Carry.allc (by decide) (Cert.Carry.allc (by decide) (Cert.Carry.alln))))))) _).trans (c_arg26_0_40 m ρ c)
theorem c_arg26_0_42 (c : Dev nD) : W42 m ρ c (Proc.devRef .tc main_arg26) = W0 m ρ c (Proc.devRef .tc main_arg26) :=
  (keep15_3 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg26_0_41 m ρ c)
theorem c_arg26_0_43 (c : Dev nD) : W43 m ρ c (Proc.devRef .tc main_arg26) = W0 m ρ c (Proc.devRef .tc main_arg26) :=
  (keep15_4 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg26_0_42 m ρ c)
theorem c_arg26_0_44 (c : Dev nD) : W44 m ρ c (Proc.devRef .tc main_arg26) = W0 m ρ c (Proc.devRef .tc main_arg26) :=
  (W44_of_ne m ρ c main_arg26 (by decide)).trans (c_arg26_0_43 m ρ c)
theorem c_arg26_0_45 (c : Dev nD) : W45 m ρ c (Proc.devRef .tc main_arg26) = W0 m ρ c (Proc.devRef .tc main_arg26) :=
  (keep16 main_arg26 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg26_0_44 m ρ c)
theorem c_arg26_0_46 (c : Dev nD) : W46 m ρ c (Proc.devRef .tc main_arg26) = W0 m ρ c (Proc.devRef .tc main_arg26) :=
  (W46_of_ne m ρ c main_arg26 (by decide)).trans (c_arg26_0_45 m ρ c)
theorem c_arg26_0_47 (c : Dev nD) : W47 m ρ c (Proc.devRef .tc main_arg26) = W0 m ρ c (Proc.devRef .tc main_arg26) :=
  (keep17 main_arg26 (Cert.Carry.allc (by decide) (Cert.Carry.allc (by decide) (Cert.Carry.alln))) _).trans (c_arg26_0_46 m ρ c)

theorem c_arg27_0_1 (c : Dev nD) : W1 m ρ c (Proc.devRef .tc main_arg27) = W0 m ρ c (Proc.devRef .tc main_arg27) :=
  (keep0 main_arg27 (Cert.Carry.allc (by decide) (Cert.Carry.alln)) _).trans (rfl)
theorem c_arg27_0_2 (c : Dev nD) : W2 m ρ c (Proc.devRef .tc main_arg27) = W0 m ρ c (Proc.devRef .tc main_arg27) :=
  (W2_of_ne m ρ c main_arg27 (by decide)).trans (c_arg27_0_1 m ρ c)
theorem c_arg27_0_3 (c : Dev nD) : W3 m ρ c (Proc.devRef .tc main_arg27) = W0 m ρ c (Proc.devRef .tc main_arg27) :=
  (keep1 main_arg27 (Cert.Carry.allc (by decide) (Cert.Carry.alln)) _).trans (c_arg27_0_2 m ρ c)
theorem c_arg27_0_4 (c : Dev nD) : W4 m ρ c (Proc.devRef .tc main_arg27) = W0 m ρ c (Proc.devRef .tc main_arg27) :=
  (W4_of_ne m ρ c main_arg27 (by decide)).trans (c_arg27_0_3 m ρ c)
theorem c_arg27_0_5 (c : Dev nD) : W5 m ρ c (Proc.devRef .tc main_arg27) = W0 m ρ c (Proc.devRef .tc main_arg27) :=
  (keep2 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_4 m ρ c)
theorem c_arg27_0_6 (c : Dev nD) : W6 m ρ c (Proc.devRef .tc main_arg27) = W0 m ρ c (Proc.devRef .tc main_arg27) :=
  (W6_of_ne m ρ c main_arg27 (by decide)).trans (c_arg27_0_5 m ρ c)
theorem c_arg27_0_7 (c : Dev nD) : W7 m ρ c (Proc.devRef .tc main_arg27) = W0 m ρ c (Proc.devRef .tc main_arg27) :=
  (keep3 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_6 m ρ c)
theorem c_arg27_0_8 (c : Dev nD) : W8 m ρ c (Proc.devRef .tc main_arg27) = W0 m ρ c (Proc.devRef .tc main_arg27) :=
  (W8_of_ne m ρ c main_arg27 (by decide)).trans (c_arg27_0_7 m ρ c)
theorem c_arg27_0_9 (c : Dev nD) : W9 m ρ c (Proc.devRef .tc main_arg27) = W0 m ρ c (Proc.devRef .tc main_arg27) :=
  (keep4 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_8 m ρ c)
theorem c_arg27_0_10 (c : Dev nD) : W10 m ρ c (Proc.devRef .tc main_arg27) = W0 m ρ c (Proc.devRef .tc main_arg27) :=
  (W10_of_ne m ρ c main_arg27 (by decide)).trans (c_arg27_0_9 m ρ c)
theorem c_arg27_0_11 (c : Dev nD) : W11 m ρ c (Proc.devRef .tc main_arg27) = W0 m ρ c (Proc.devRef .tc main_arg27) :=
  (keep5 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg27_0_10 m ρ c)
theorem c_arg27_0_12 (c : Dev nD) : W12 m ρ c (Proc.devRef .tc main_arg27) = W0 m ρ c (Proc.devRef .tc main_arg27) :=
  (keep5_1 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg27_0_11 m ρ c)
theorem c_arg27_0_13 (c : Dev nD) : W13 m ρ c (Proc.devRef .tc main_arg27) = W0 m ρ c (Proc.devRef .tc main_arg27) :=
  (keep5_2 main_arg27 (Cert.Carry.allc (by decide) (Cert.Carry.allc (by decide) (Cert.Carry.allc (by decide) (Cert.Carry.allc (by decide) (Cert.Carry.allc (by decide) (Cert.Carry.allc (by decide) (Cert.Carry.alln))))))) _).trans (c_arg27_0_12 m ρ c)
theorem c_arg27_0_14 (c : Dev nD) : W14 m ρ c (Proc.devRef .tc main_arg27) = W0 m ρ c (Proc.devRef .tc main_arg27) :=
  (keep5_3 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg27_0_13 m ρ c)
theorem c_arg27_0_15 (c : Dev nD) : W15 m ρ c (Proc.devRef .tc main_arg27) = W0 m ρ c (Proc.devRef .tc main_arg27) :=
  (keep5_4 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg27_0_14 m ρ c)
theorem c_arg27_0_16 (c : Dev nD) : W16 m ρ c (Proc.devRef .tc main_arg27) = W0 m ρ c (Proc.devRef .tc main_arg27) :=
  (W16_of_ne m ρ c main_arg27 (by decide)).trans (c_arg27_0_15 m ρ c)
theorem c_arg27_0_17 (c : Dev nD) : W17 m ρ c (Proc.devRef .tc main_arg27) = W0 m ρ c (Proc.devRef .tc main_arg27) :=
  (keep6 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg27_0_16 m ρ c)
theorem c_arg27_0_18 (c : Dev nD) : W18 m ρ c (Proc.devRef .tc main_arg27) = W0 m ρ c (Proc.devRef .tc main_arg27) :=
  (W18_of_ne m ρ c main_arg27 (by decide)).trans (c_arg27_0_17 m ρ c)
theorem c_arg27_0_19 (c : Dev nD) : W19 m ρ c (Proc.devRef .tc main_arg27) = W0 m ρ c (Proc.devRef .tc main_arg27) :=
  (keep7 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_18 m ρ c)
theorem c_arg27_0_20 (c : Dev nD) : W20 m ρ c (Proc.devRef .tc main_arg27) = W0 m ρ c (Proc.devRef .tc main_arg27) :=
  (W20_of_ne m ρ c main_arg27 (by decide)).trans (c_arg27_0_19 m ρ c)
theorem c_arg27_0_21 (c : Dev nD) : W21 m ρ c (Proc.devRef .tc main_arg27) = W0 m ρ c (Proc.devRef .tc main_arg27) :=
  (keep8 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_20 m ρ c)
theorem c_arg27_0_22 (c : Dev nD) : W22 m ρ c (Proc.devRef .tc main_arg27) = W0 m ρ c (Proc.devRef .tc main_arg27) :=
  (W22_of_ne m ρ c main_arg27 (by decide)).trans (c_arg27_0_21 m ρ c)
theorem c_arg27_0_23 (c : Dev nD) : W23 m ρ c (Proc.devRef .tc main_arg27) = W0 m ρ c (Proc.devRef .tc main_arg27) :=
  (keep9 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_22 m ρ c)
theorem c_arg27_0_24 (c : Dev nD) : W24 m ρ c (Proc.devRef .tc main_arg27) = W0 m ρ c (Proc.devRef .tc main_arg27) :=
  (W24_of_ne m ρ c main_arg27 (by decide)).trans (c_arg27_0_23 m ρ c)
theorem c_arg27_0_25 (c : Dev nD) : W25 m ρ c (Proc.devRef .tc main_arg27) = W0 m ρ c (Proc.devRef .tc main_arg27) :=
  (keep10 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg27_0_24 m ρ c)
theorem c_arg27_0_26 (c : Dev nD) : W26 m ρ c (Proc.devRef .tc main_arg27) = W0 m ρ c (Proc.devRef .tc main_arg27) :=
  (keep10_1 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg27_0_25 m ρ c)
theorem c_arg27_0_27 (c : Dev nD) : W27 m ρ c (Proc.devRef .tc main_arg27) = W0 m ρ c (Proc.devRef .tc main_arg27) :=
  (keep10_2 main_arg27 (Cert.Carry.allc (by decide) (Cert.Carry.allc (by decide) (Cert.Carry.allc (by decide) (Cert.Carry.allc (by decide) (Cert.Carry.allc (by decide) (Cert.Carry.allc (by decide) (Cert.Carry.alln))))))) _).trans (c_arg27_0_26 m ρ c)
theorem c_arg27_0_28 (c : Dev nD) : W28 m ρ c (Proc.devRef .tc main_arg27) = W0 m ρ c (Proc.devRef .tc main_arg27) :=
  (keep10_3 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg27_0_27 m ρ c)
theorem c_arg27_0_29 (c : Dev nD) : W29 m ρ c (Proc.devRef .tc main_arg27) = W0 m ρ c (Proc.devRef .tc main_arg27) :=
  (keep10_4 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg27_0_28 m ρ c)
theorem c_arg27_0_30 (c : Dev nD) : W30 m ρ c (Proc.devRef .tc main_arg27) = W0 m ρ c (Proc.devRef .tc main_arg27) :=
  (W30_of_ne m ρ c main_arg27 (by decide)).trans (c_arg27_0_29 m ρ c)
theorem c_arg27_0_31 (c : Dev nD) : W31 m ρ c (Proc.devRef .tc main_arg27) = W0 m ρ c (Proc.devRef .tc main_arg27) :=
  (keep11 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg27_0_30 m ρ c)
theorem c_arg27_0_32 (c : Dev nD) : W32 m ρ c (Proc.devRef .tc main_arg27) = W0 m ρ c (Proc.devRef .tc main_arg27) :=
  (W32_of_ne m ρ c main_arg27 (by decide)).trans (c_arg27_0_31 m ρ c)
theorem c_arg27_0_33 (c : Dev nD) : W33 m ρ c (Proc.devRef .tc main_arg27) = W0 m ρ c (Proc.devRef .tc main_arg27) :=
  (keep12 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_32 m ρ c)
theorem c_arg27_0_34 (c : Dev nD) : W34 m ρ c (Proc.devRef .tc main_arg27) = W0 m ρ c (Proc.devRef .tc main_arg27) :=
  (W34_of_ne m ρ c main_arg27 (by decide)).trans (c_arg27_0_33 m ρ c)
theorem c_arg27_0_35 (c : Dev nD) : W35 m ρ c (Proc.devRef .tc main_arg27) = W0 m ρ c (Proc.devRef .tc main_arg27) :=
  (keep13 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_34 m ρ c)
theorem c_arg27_0_36 (c : Dev nD) : W36 m ρ c (Proc.devRef .tc main_arg27) = W0 m ρ c (Proc.devRef .tc main_arg27) :=
  (W36_of_ne m ρ c main_arg27 (by decide)).trans (c_arg27_0_35 m ρ c)
theorem c_arg27_0_37 (c : Dev nD) : W37 m ρ c (Proc.devRef .tc main_arg27) = W0 m ρ c (Proc.devRef .tc main_arg27) :=
  (keep14 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _).trans (c_arg27_0_36 m ρ c)
theorem c_arg27_0_38 (c : Dev nD) : W38 m ρ c (Proc.devRef .tc main_arg27) = W0 m ρ c (Proc.devRef .tc main_arg27) :=
  (W38_of_ne m ρ c main_arg27 (by decide)).trans (c_arg27_0_37 m ρ c)
theorem c_arg27_0_39 (c : Dev nD) : W39 m ρ c (Proc.devRef .tc main_arg27) = W0 m ρ c (Proc.devRef .tc main_arg27) :=
  (keep15 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _).trans (c_arg27_0_38 m ρ c)
theorem c_arg27_0_40 (c : Dev nD) : W40 m ρ c (Proc.devRef .tc main_arg27) = W0 m ρ c (Proc.devRef .tc main_arg27) :=
  (keep15_1 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg27_0_39 m ρ c)
theorem c_arg27_0_41 (c : Dev nD) : W41 m ρ c (Proc.devRef .tc main_arg27) = W0 m ρ c (Proc.devRef .tc main_arg27) :=
  (keep15_2 main_arg27 (Cert.Carry.allc (by decide) (Cert.Carry.allc (by decide) (Cert.Carry.allc (by decide) (Cert.Carry.allc (by decide) (Cert.Carry.allc (by decide) (Cert.Carry.allc (by decide) (Cert.Carry.alln))))))) _).trans (c_arg27_0_40 m ρ c)
theorem c_arg27_0_42 (c : Dev nD) : W42 m ρ c (Proc.devRef .tc main_arg27) = W0 m ρ c (Proc.devRef .tc main_arg27) :=
  (keep15_3 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _).trans (c_arg27_0_41 m ρ c)
theorem c_arg27_0_43 (c : Dev nD) : W43 m ρ c (Proc.devRef .tc main_arg27) = W0 m ρ c (Proc.devRef .tc main_arg27) :=
  (keep15_4 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg27_0_42 m ρ c)
theorem c_arg27_0_44 (c : Dev nD) : W44 m ρ c (Proc.devRef .tc main_arg27) = W0 m ρ c (Proc.devRef .tc main_arg27) :=
  (W44_of_ne m ρ c main_arg27 (by decide)).trans (c_arg27_0_43 m ρ c)
theorem c_arg27_0_45 (c : Dev nD) : W45 m ρ c (Proc.devRef .tc main_arg27) = W0 m ρ c (Proc.devRef .tc main_arg27) :=
  (keep16 main_arg27 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _).trans (c_arg27_0_44 m ρ c)
theorem c_arg27_0_46 (c : Dev nD) : W46 m ρ c (Proc.devRef .tc main_arg27) = W0 m ρ c (Proc.devRef .tc main_arg27) :=
  (W46_of_ne m ρ c main_arg27 (by decide)).trans (c_arg27_0_45 m ρ c)

end Cert.KernelIdeal.Carry

end
-- ==== Proof.KCarry.lean ====
import proofs.«143223_j29772713296000_1_alg».proof.Proof.Gen.KernelIdeal.Frame
import proofs.«143223_j29772713296000_1_alg».proof.Proof.ListAll
import proofs.«143223_j29772713296000_1_alg».proof.Proof.KKeep1
import proofs.«143223_j29772713296000_1_alg».proof.Proof.KKeep2
import proofs.«143223_j29772713296000_1_alg».proof.Proof.KKeep3
import proofs.«143223_j29772713296000_1_alg».proof.Proof.KArgs

set_option maxRecDepth 16384
-- one theorem at a time: elaborated side by side the table's entries hold gigabytes together
set_option Elab.async false

noncomputable section

namespace Cert.KernelIdeal.Carry

open Cert.KernelIdeal Cert.KernelIdeal.Gen Idealize.ShloMosaic Idealize.ShloMosaic.TcCoe Idealize.SL.Sem

variable {F : FTy → Type} [FloatOps F]

variable (m : (ℓ : Loc nD τ sig) → Buf (Elt F) ℓ) (ρ : Dev nD → PrngReg)

theorem c_v1_2_4 (c : Dev nD) : W4 m ρ c (Proc.devRef .tc main_v1) = W2 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := keep1 main_v1 (Cert.Carry.allc (by decide) (Cert.Carry.alln)) _

theorem c_v1_2_6 (c : Dev nD) : W6 m ρ c (Proc.devRef .tc main_v1) = W2 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := keep2 main_v1 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W3 m ρ c (Proc.devRef .tc main_v1) := W4_of_ne m ρ c main_v1 (by decide)
    _ = W2 m ρ c (Proc.devRef .tc main_v1) := keep1 main_v1 (Cert.Carry.allc (by decide) (Cert.Carry.alln)) _

theorem c_v1_7_8 (c : Dev nD) : W8 m ρ c (Proc.devRef .tc main_v1) = W7 m ρ c (Proc.devRef .tc main_v1) :=
  calc W8 m ρ c (Proc.devRef .tc main_v1)
    _ = W7 m ρ c (Proc.devRef .tc main_v1) := (W8_arr m ρ c 1).trans (((dat3 (V7 m ρ) c).arrAt_in 1 rfl _).trans (A_eq3 (V7 m ρ) c 1))

theorem c_v3_5_6 (c : Dev nD) : W6 m ρ c (Proc.devRef .tc main_v3) = W5 m ρ c (Proc.devRef .tc main_v3) :=
  calc W6 m ρ c (Proc.devRef .tc main_v3)
    _ = W5 m ρ c (Proc.devRef .tc main_v3) := (W6_arr m ρ c 1).trans (((dat2 (V5 m ρ) c).arrAt_in 1 rfl _).trans (A_eq2 (V5 m ρ) c 1))

theorem c_v36_6_10 (c : Dev nD) : W10 m ρ c (Proc.devRef .tc main_v36) = W6 m ρ c (Proc.devRef .tc main_v36) :=
  calc W10 m ρ c (Proc.devRef .tc main_v36)
    _ = W9 m ρ c (Proc.devRef .tc main_v36) := W10_of_ne m ρ c main_v36 (by decide)
    _ = W8 m ρ c (Proc.devRef .tc main_v36) := keep4 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W7 m ρ c (Proc.devRef .tc main_v36) := W8_of_ne m ρ c main_v36 (by decide)
    _ = W6 m ρ c (Proc.devRef .tc main_v36) := keep3 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v36_6_17 (c : Dev nD) : W17 m ρ c (Proc.devRef .tc main_v36) = W6 m ρ c (Proc.devRef .tc main_v36) :=
  calc W17 m ρ c (Proc.devRef .tc main_v36)
    _ = W16 m ρ c (Proc.devRef .tc main_v36) := keep6 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _
    _ = W15 m ρ c (Proc.devRef .tc main_v36) := W16_of_ne m ρ c main_v36 (by decide)
    _ = W14 m ρ c (Proc.devRef .tc main_v36) := keep5_4 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _
    _ = W13 m ρ c (Proc.devRef .tc main_v36) := keep5_3 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _
    _ = W12 m ρ c (Proc.devRef .tc main_v36) := keep5_2 main_v36 (Cert.Carry.allc (by decide) (Cert.Carry.allc (by decide) (Cert.Carry.allc (by decide) (Cert.Carry.allc (by decide) (Cert.Carry.allc (by decide) (Cert.Carry.allc (by decide) (Cert.Carry.alln))))))) _
    _ = W11 m ρ c (Proc.devRef .tc main_v36) := keep5_1 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _
    _ = W10 m ρ c (Proc.devRef .tc main_v36) := keep5 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _
    _ = W9 m ρ c (Proc.devRef .tc main_v36) := W10_of_ne m ρ c main_v36 (by decide)
    _ = W8 m ρ c (Proc.devRef .tc main_v36) := keep4 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W7 m ρ c (Proc.devRef .tc main_v36) := W8_of_ne m ρ c main_v36 (by decide)
    _ = W6 m ρ c (Proc.devRef .tc main_v36) := keep3 main_v36 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v69_8_10 (c : Dev nD) : W10 m ρ c (Proc.devRef .tc main_v69) = W8 m ρ c (Proc.devRef .tc main_v69) :=
  calc W10 m ρ c (Proc.devRef .tc main_v69)
    _ = W9 m ρ c (Proc.devRef .tc main_v69) := W10_of_ne m ρ c main_v69 (by decide)
    _ = W8 m ρ c (Proc.devRef .tc main_v69) := keep4 main_v69 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v120_16_18 (c : Dev nD) : W18 m ρ c (Proc.devRef .tc main_v120) = W16 m ρ c (Proc.devRef .tc main_v120) :=
  calc W18 m ρ c (Proc.devRef .tc main_v120)
    _ = W17 m ρ c (Proc.devRef .tc main_v120) := W18_of_ne m ρ c main_v120 (by decide)
    _ = W16 m ρ c (Proc.devRef .tc main_v120) := keep6 main_v120 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _

theorem c_v120_16_20 (c : Dev nD) : W20 m ρ c (Proc.devRef .tc main_v120) = W16 m ρ c (Proc.devRef .tc main_v120) :=
  calc W20 m ρ c (Proc.devRef .tc main_v120)
    _ = W19 m ρ c (Proc.devRef .tc main_v120) := W20_of_ne m ρ c main_v120 (by decide)
    _ = W18 m ρ c (Proc.devRef .tc main_v120) := keep7 main_v120 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W17 m ρ c (Proc.devRef .tc main_v120) := W18_of_ne m ρ c main_v120 (by decide)
    _ = W16 m ρ c (Proc.devRef .tc main_v120) := keep6 main_v120 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _

theorem c_v120_16_22 (c : Dev nD) : W22 m ρ c (Proc.devRef .tc main_v120) = W16 m ρ c (Proc.devRef .tc main_v120) :=
  calc W22 m ρ c (Proc.devRef .tc main_v120)
    _ = W21 m ρ c (Proc.devRef .tc main_v120) := (W22_arr m ρ c 1).trans (((dat8 (V21 m ρ) c).arrAt_in 1 rfl _).trans (A_eq8 (V21 m ρ) c 1))
    _ = W20 m ρ c (Proc.devRef .tc main_v120) := keep8 main_v120 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W19 m ρ c (Proc.devRef .tc main_v120) := W20_of_ne m ρ c main_v120 (by decide)
    _ = W18 m ρ c (Proc.devRef .tc main_v120) := keep7 main_v120 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W17 m ρ c (Proc.devRef .tc main_v120) := W18_of_ne m ρ c main_v120 (by decide)
    _ = W16 m ρ c (Proc.devRef .tc main_v120) := keep6 main_v120 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _

theorem c_v129_18_20 (c : Dev nD) : W20 m ρ c (Proc.devRef .tc main_v129) = W18 m ρ c (Proc.devRef .tc main_v129) :=
  calc W20 m ρ c (Proc.devRef .tc main_v129)
    _ = W19 m ρ c (Proc.devRef .tc main_v129) := (W20_arr m ρ c 1).trans (((dat7 (V19 m ρ) c).arrAt_in 1 rfl _).trans (A_eq7 (V19 m ρ) c 1))
    _ = W18 m ρ c (Proc.devRef .tc main_v129) := keep7 main_v129 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v162_20_24 (c : Dev nD) : W24 m ρ c (Proc.devRef .tc main_v162) = W20 m ρ c (Proc.devRef .tc main_v162) :=
  calc W24 m ρ c (Proc.devRef .tc main_v162)
    _ = W23 m ρ c (Proc.devRef .tc main_v162) := W24_of_ne m ρ c main_v162 (by decide)
    _ = W22 m ρ c (Proc.devRef .tc main_v162) := keep9 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W21 m ρ c (Proc.devRef .tc main_v162) := W22_of_ne m ρ c main_v162 (by decide)
    _ = W20 m ρ c (Proc.devRef .tc main_v162) := keep8 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v162_20_31 (c : Dev nD) : W31 m ρ c (Proc.devRef .tc main_v162) = W20 m ρ c (Proc.devRef .tc main_v162) :=
  calc W31 m ρ c (Proc.devRef .tc main_v162)
    _ = W30 m ρ c (Proc.devRef .tc main_v162) := keep11 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _
    _ = W29 m ρ c (Proc.devRef .tc main_v162) := W30_of_ne m ρ c main_v162 (by decide)
    _ = W28 m ρ c (Proc.devRef .tc main_v162) := keep10_4 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _
    _ = W27 m ρ c (Proc.devRef .tc main_v162) := keep10_3 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _
    _ = W26 m ρ c (Proc.devRef .tc main_v162) := keep10_2 main_v162 (Cert.Carry.allc (by decide) (Cert.Carry.allc (by decide) (Cert.Carry.allc (by decide) (Cert.Carry.allc (by decide) (Cert.Carry.allc (by decide) (Cert.Carry.allc (by decide) (Cert.Carry.alln))))))) _
    _ = W25 m ρ c (Proc.devRef .tc main_v162) := keep10_1 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))) _
    _ = W24 m ρ c (Proc.devRef .tc main_v162) := keep10 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.alln)))))))) _
    _ = W23 m ρ c (Proc.devRef .tc main_v162) := W24_of_ne m ρ c main_v162 (by decide)
    _ = W22 m ρ c (Proc.devRef .tc main_v162) := keep9 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W21 m ρ c (Proc.devRef .tc main_v162) := W22_of_ne m ρ c main_v162 (by decide)
    _ = W20 m ρ c (Proc.devRef .tc main_v162) := keep8 main_v162 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v195_22_24 (c : Dev nD) : W24 m ρ c (Proc.devRef .tc main_v195) = W22 m ρ c (Proc.devRef .tc main_v195) :=
  calc W24 m ρ c (Proc.devRef .tc main_v195)
    _ = W23 m ρ c (Proc.devRef .tc main_v195) := W24_of_ne m ρ c main_v195 (by decide)
    _ = W22 m ρ c (Proc.devRef .tc main_v195) := keep9 main_v195 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v246_30_34 (c : Dev nD) : W34 m ρ c (Proc.devRef .tc main_v246) = W30 m ρ c (Proc.devRef .tc main_v246) :=
  calc W34 m ρ c (Proc.devRef .tc main_v246)
    _ = W33 m ρ c (Proc.devRef .tc main_v246) := W34_of_ne m ρ c main_v246 (by decide)
    _ = W32 m ρ c (Proc.devRef .tc main_v246) := keep12 main_v246 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W31 m ρ c (Proc.devRef .tc main_v246) := W32_of_ne m ρ c main_v246 (by decide)
    _ = W30 m ρ c (Proc.devRef .tc main_v246) := keep11 main_v246 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _

theorem c_v246_30_36 (c : Dev nD) : W36 m ρ c (Proc.devRef .tc main_v246) = W30 m ρ c (Proc.devRef .tc main_v246) :=
  calc W36 m ρ c (Proc.devRef .tc main_v246)
    _ = W35 m ρ c (Proc.devRef .tc main_v246) := (W36_arr m ρ c 1).trans (((dat13 (V35 m ρ) c).arrAt_in 1 rfl _).trans (A_eq13 (V35 m ρ) c 1))
    _ = W34 m ρ c (Proc.devRef .tc main_v246) := keep13 main_v246 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W33 m ρ c (Proc.devRef .tc main_v246) := W34_of_ne m ρ c main_v246 (by decide)
    _ = W32 m ρ c (Proc.devRef .tc main_v246) := keep12 main_v246 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _
    _ = W31 m ρ c (Proc.devRef .tc main_v246) := W32_of_ne m ρ c main_v246 (by decide)
    _ = W30 m ρ c (Proc.devRef .tc main_v246) := keep11 main_v246 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _

theorem c_v255_32_34 (c : Dev nD) : W34 m ρ c (Proc.devRef .tc main_v255) = W32 m ρ c (Proc.devRef .tc main_v255) :=
  calc W34 m ρ c (Proc.devRef .tc main_v255)
    _ = W33 m ρ c (Proc.devRef .tc main_v255) := (W34_arr m ρ c 1).trans (((dat12 (V33 m ρ) c).arrAt_in 1 rfl _).trans (A_eq12 (V33 m ρ) c 1))
    _ = W32 m ρ c (Proc.devRef .tc main_v255) := keep12 main_v255 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v321_36_38 (c : Dev nD) : W38 m ρ c (Proc.devRef .tc main_v321) = W36 m ρ c (Proc.devRef .tc main_v321) :=
  calc W38 m ρ c (Proc.devRef .tc main_v321)
    _ = W37 m ρ c (Proc.devRef .tc main_v321) := W38_of_ne m ρ c main_v321 (by decide)
    _ = W36 m ρ c (Proc.devRef .tc main_v321) := keep14 main_v321 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))))))))))))))))))))))))))))))))) _

theorem c_v372_44_47 (c : Dev nD) : W47 m ρ c (Proc.devRef .tc main_v372) = W44 m ρ c (Proc.devRef .tc main_v372) :=
  calc W47 m ρ c (Proc.devRef .tc main_v372)
    _ = W46 m ρ c (Proc.devRef .tc main_v372) := keep17 main_v372 (Cert.Carry.allc (by decide) (Cert.Carry.allc (by decide) (Cert.Carry.alln))) _
    _ = W45 m ρ c (Proc.devRef .tc main_v372) := W46_of_ne m ρ c main_v372 (by decide)
    _ = W44 m ρ c (Proc.devRef .tc main_v372) := keep16 main_v372 (Cert.Carry.allc (by decide) (Cert.Carry.allc (by decide) (Cert.Carry.allc (by decide) (Cert.Carry.allc (by decide) (Cert.Carry.allc (by decide) (Cert.Carry.allc (by decide) (Cert.Carry.allc (by decide) (Cert.Carry.allc (by decide) (Cert.Carry.alln))))))))) _

theorem c_v120_21_22 (c : Dev nD) : W22 m ρ c (Proc.devRef .tc main_v120) = W21 m ρ c (Proc.devRef .tc main_v120) :=
  calc W22 m ρ c (Proc.devRef .tc main_v120)
    _ = W21 m ρ c (Proc.devRef .tc main_v120) := (W22_arr m ρ c 1).trans (((dat8 (V21 m ρ) c).arrAt_in 1 rfl _).trans (A_eq8 (V21 m ρ) c 1))

theorem c_v129_19_20 (c : Dev nD) : W20 m ρ c (Proc.devRef .tc main_v129) = W19 m ρ c (Proc.devRef .tc main_v129) :=
  calc W20 m ρ c (Proc.devRef .tc main_v129)
    _ = W19 m ρ c (Proc.devRef .tc main_v129) := (W20_arr m ρ c 1).trans (((dat7 (V19 m ρ) c).arrAt_in 1 rfl _).trans (A_eq7 (V19 m ρ) c 1))

end Cert.KernelIdeal.Carry

end
-- ==== Proof.JoinSage0.lean ====
import proofs.«143223_j29772713296000_1_alg».proof.Proof.SageK2
import proofs.«143223_j29772713296000_1_alg».proof.Proof.SageK3
import proofs.«143223_j29772713296000_1_alg».proof.Proof.SageK4
import proofs.«143223_j29772713296000_1_alg».proof.Proof.SageR
import proofs.«143223_j29772713296000_1_alg».proof.Proof.KAgg0
import proofs.«143223_j29772713296000_1_alg».proof.Proof.RAgg0
import proofs.«143223_j29772713296000_1_alg».proof.Proof.KCarry
import proofs.«143223_j29772713296000_1_alg».proof.Proof.RCarry
import Idealize.ShloMosaic.Lib.StableHlo.Run

set_option maxRecDepth 16384

noncomputable section

/-! # The first layer's three dense outputs on both sides

Three times the kernel program runs a dense region on what a host stretch prepared (a mean aggregation along an edge
list, one slice of each of the two weight stacks and of the bias stack, the bias as a one-row matrix) and the reference
runs one dense stage on what its own aggregation stage prepared. Both are `Cert.Spec.sage` of the same five functions
of the earlier rows and of the launch arguments, so equal earlier rows and equal arguments give equal outputs. -/

namespace Cert.Join

section Reference

open Cert.ReferenceIdeal Cert.ReferenceIdeal.Gen Cert.ReferenceIdeal.Run
open Idealize.ShloMosaic Idealize.ShloMosaic.TcCoe Idealize.SL.Sem Idealize.ShloMosaic.StableHlo

/-- Stage 3 of the reference leaves at its result the dense layer of the stage's five inputs, the bias vector cast to one row. -/
theorem seg3_v53 (V : Valuation τ sig (Elt Ideal)) (h : S128.ShapeCasts S1x128) :
    StableHlo.after (seg3 (F := Ideal)) V (Proc.devRef .tc main_v53)
      = Cert.Spec.sage 100000 (V (Proc.devRef .tc main_v40)) (V (Proc.devRef .tc main_v9)) (V (Proc.devRef .tc main_v11))
          (shapeCast S1x128 (V (Proc.devRef .tc main_v13)) h) (V (Proc.devRef .tc main_v15)) := by
  after_results_simp
  exact Cert.ReferenceIdeal.Dense.sage100000_ref _ _ _ _ _ h

/-- Stage 5 of the reference leaves at its result the dense layer of the stage's five inputs, the bias vector cast to one row. -/
theorem seg5_v97 (V : Valuation τ sig (Elt Ideal)) (h : S128.ShapeCasts S1x128) :
    StableHlo.after (seg5 (F := Ideal)) V (Proc.devRef .tc main_v97)
      = Cert.Spec.sage 200000 (V (Proc.devRef .tc main_v84)) (V (Proc.devRef .tc main_v4)) (V (Proc.devRef .tc main_v55))
          (shapeCast S1x128 (V (Proc.devRef .tc main_v57)) h) (V (Proc.devRef .tc main_v59)) := by
  after_results_simp
  exact Cert.ReferenceIdeal.Dense.sage200000_ref _ _ _ _ _ h

/-- Stage 7 of the reference leaves at its result the dense layer of the stage's five inputs, the bias vector cast to one row. -/
theorem seg7_v141 (V : Valuation τ sig (Elt Ideal)) (h : S128.ShapeCasts S1x128) :
    StableHlo.after (seg7 (F := Ideal)) V (Proc.devRef .tc main_v141)
      = Cert.Spec.sage 200000 (V (Proc.devRef .tc main_v128)) (V (Proc.devRef .tc main_v4)) (V (Proc.devRef .tc main_v99))
          (shapeCast S1x128 (V (Proc.devRef .tc main_v101)) h) (V (Proc.devRef .tc main_v103)) := by
  after_results_simp
  exact Cert.ReferenceIdeal.Dense.sage200000_ref _ _ _ _ _ h

end Reference

open Idealize.ShloMosaic Idealize.ShloMosaic.TcCoe Idealize.SL.Sem Idealize.ShloMosaic.StableHlo

/-- Region 2's result array is the reference's stage-3 result: both are the dense layer of `aggA2M` of the earlier 200000-row array along the edge list `main_arg2`, of the earlier 100000-row array, and of slice 0 of the two weight stacks and of the bias stack (the bias as a one-row matrix). -/
theorem j_v36
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (ha9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (ha10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (ha11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (j1 : Cert.KernelIdeal.Gen.W2 m ρ c (Proc.devRef .tc Cert.KernelIdeal.main_v1)
      = Cert.ReferenceIdeal.Run.R1 (launchContents m' c) (Proc.devRef .tc Cert.ReferenceIdeal.main_v4))
    (j3 : Cert.KernelIdeal.Gen.W4 m ρ c (Proc.devRef .tc Cert.KernelIdeal.main_v3)
      = Cert.ReferenceIdeal.Run.R2 (launchContents m' c) (Proc.devRef .tc Cert.ReferenceIdeal.main_v9)) :
    Cert.KernelIdeal.Gen.W6 m ρ c (Proc.devRef .tc Cert.KernelIdeal.main_v36)
      = Cert.ReferenceIdeal.Run.R4 (launchContents m' c) (Proc.devRef .tc Cert.ReferenceIdeal.main_v53) := by
  have hsc : Cert.ReferenceIdeal.S128.ShapeCasts Cert.ReferenceIdeal.S1x128 := by decide
  -- the kernel side: the region's value at the contents it finds, read back to the launch memory
  have hk : Cert.KernelIdeal.Gen.W6 m ρ c (Proc.devRef .tc Cert.KernelIdeal.main_v36)
      = Cert.Spec.sage 100000
          (Cert.HostFns.aggA2M (Cert.KernelIdeal.Gen.W2 m ρ c (Proc.devRef .tc Cert.KernelIdeal.main_v1)) (m ((c.tc : Thread Cert.KernelIdeal.nD Cert.KernelIdeal.τ).loc Cert.KernelIdeal.main_arg2)))
          (Cert.KernelIdeal.Gen.W4 m ρ c (Proc.devRef .tc Cert.KernelIdeal.main_v3))
          (Cert.HostFns.sliceMat 0 (m ((c.tc : Thread Cert.KernelIdeal.nD Cert.KernelIdeal.τ).loc Cert.KernelIdeal.main_arg9)))
          (Cert.HostFns.rowReshape128 (Cert.HostFns.sliceVec 0 (m ((c.tc : Thread Cert.KernelIdeal.nD Cert.KernelIdeal.τ).loc Cert.KernelIdeal.main_arg10))))
          (Cert.HostFns.sliceMat 0 (m ((c.tc : Thread Cert.KernelIdeal.nD Cert.KernelIdeal.τ).loc Cert.KernelIdeal.main_arg11))) := by
    refine ((Cert.KernelIdeal.Gen.W6_arr m ρ c 5).trans (Cert.KernelIdeal.Gen.reg2_val (Cert.KernelIdeal.Gen.V5 m ρ) c)).trans ?_
    show Cert.Spec.sage 100000 (Cert.KernelIdeal.Gen.W5 m ρ c (Proc.devRef .tc Cert.KernelIdeal.main_v28)) (Cert.KernelIdeal.Gen.W5 m ρ c (Proc.devRef .tc Cert.KernelIdeal.main_v3))
        (Cert.KernelIdeal.Gen.W5 m ρ c (Proc.devRef .tc Cert.KernelIdeal.main_v30)) (Cert.KernelIdeal.Gen.W5 m ρ c (Proc.devRef .tc Cert.KernelIdeal.main_v35))
        (Cert.KernelIdeal.Gen.W5 m ρ c (Proc.devRef .tc Cert.KernelIdeal.main_v34)) = _
    rw [Cert.KernelIdeal.Gen.k_v28,
      Cert.KernelIdeal.Gen.k_keep_v3_4_5,
      Cert.KernelIdeal.Gen.k_v30,
      Cert.KernelIdeal.Gen.k_v35,
      Cert.KernelIdeal.Gen.k_v34,
      Cert.KernelIdeal.Carry.c_v1_2_4,
      Cert.KernelIdeal.Carry.c_arg2_0_4,
      Cert.KernelIdeal.Carry.c_arg9_0_4,
      Cert.KernelIdeal.Carry.c_arg10_0_4,
      Cert.KernelIdeal.Carry.c_arg11_0_4]
    all_goals rfl
  -- the reference side: the dense stage's value at the contents before it, read back to the launch contents
  have hr : Cert.ReferenceIdeal.Run.R4 (launchContents m' c) (Proc.devRef .tc Cert.ReferenceIdeal.main_v53)
      = Cert.Spec.sage 100000
          (Cert.HostFns.aggA2M (Cert.ReferenceIdeal.Run.R1 (launchContents m' c) (Proc.devRef .tc Cert.ReferenceIdeal.main_v4)) (m' ((c.tc : Thread Cert.ReferenceIdeal.nD Cert.ReferenceIdeal.τ).loc Cert.ReferenceIdeal.main_arg2)))
          (Cert.ReferenceIdeal.Run.R2 (launchContents m' c) (Proc.devRef .tc Cert.ReferenceIdeal.main_v9))
          (Cert.HostFns.sliceMat 0 (m' ((c.tc : Thread Cert.ReferenceIdeal.nD Cert.ReferenceIdeal.τ).loc Cert.ReferenceIdeal.main_arg9)))
          (shapeCast Cert.ReferenceIdeal.S1x128 (Cert.HostFns.sliceVec 0 (m' ((c.tc : Thread Cert.ReferenceIdeal.nD Cert.ReferenceIdeal.τ).loc Cert.ReferenceIdeal.main_arg10))) hsc)
          (Cert.HostFns.sliceMat 0 (m' ((c.tc : Thread Cert.ReferenceIdeal.nD Cert.ReferenceIdeal.τ).loc Cert.ReferenceIdeal.main_arg11))) := by
    refine (seg3_v53 (Cert.ReferenceIdeal.Run.R3 (launchContents m' c)) hsc).trans ?_
    rw [Cert.ReferenceIdeal.Run.r_v40,
      Cert.ReferenceIdeal.Run.rc_v9_2_3,
      Cert.ReferenceIdeal.Run.r_v11,
      Cert.ReferenceIdeal.Run.r_v13,
      Cert.ReferenceIdeal.Run.r_v15,
      Cert.ReferenceIdeal.Run.rc_v4_1_2,
      Cert.ReferenceIdeal.Run.rc_arg2_0_2,
      Cert.ReferenceIdeal.Run.rc_arg9_0_2,
      Cert.ReferenceIdeal.Run.rc_arg10_0_2,
      Cert.ReferenceIdeal.Run.rc_arg11_0_2]
    all_goals rfl
  rw [hk, hr, j1, j3, ha2, ha9, ha10, ha11]
  rfl

/-- Region 3's result array is the reference's stage-5 result: both are the dense layer of `aggM2A` of the earlier 100000-row array along the edge list `main_arg3`, of the earlier 200000-row array, and of slice 1 of the two weight stacks and of the bias stack (the bias as a one-row matrix). -/
theorem j_v69
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (ha9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (ha10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (ha11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (j1 : Cert.KernelIdeal.Gen.W2 m ρ c (Proc.devRef .tc Cert.KernelIdeal.main_v1)
      = Cert.ReferenceIdeal.Run.R1 (launchContents m' c) (Proc.devRef .tc Cert.ReferenceIdeal.main_v4))
    (j3 : Cert.KernelIdeal.Gen.W4 m ρ c (Proc.devRef .tc Cert.KernelIdeal.main_v3)
      = Cert.ReferenceIdeal.Run.R2 (launchContents m' c) (Proc.devRef .tc Cert.ReferenceIdeal.main_v9)) :
    Cert.KernelIdeal.Gen.W8 m ρ c (Proc.devRef .tc Cert.KernelIdeal.main_v69)
      = Cert.ReferenceIdeal.Run.R6 (launchContents m' c) (Proc.devRef .tc Cert.ReferenceIdeal.main_v97) := by
  have hsc : Cert.ReferenceIdeal.S128.ShapeCasts Cert.ReferenceIdeal.S1x128 := by decide
  -- the kernel side: the region's value at the contents it finds, read back to the launch memory
  have hk : Cert.KernelIdeal.Gen.W8 m ρ c (Proc.devRef .tc Cert.KernelIdeal.main_v69)
      = Cert.Spec.sage 200000
          (Cert.HostFns.aggM2A (Cert.KernelIdeal.Gen.W4 m ρ c (Proc.devRef .tc Cert.KernelIdeal.main_v3)) (m ((c.tc : Thread Cert.KernelIdeal.nD Cert.KernelIdeal.τ).loc Cert.KernelIdeal.main_arg3)))
          (Cert.KernelIdeal.Gen.W2 m ρ c (Proc.devRef .tc Cert.KernelIdeal.main_v1))
          (Cert.HostFns.sliceMat 1 (m ((c.tc : Thread Cert.KernelIdeal.nD Cert.KernelIdeal.τ).loc Cert.KernelIdeal.main_arg9)))
          (Cert.HostFns.rowReshape128 (Cert.HostFns.sliceVec 1 (m ((c.tc : Thread Cert.KernelIdeal.nD Cert.KernelIdeal.τ).loc Cert.KernelIdeal.main_arg10))))
          (Cert.HostFns.sliceMat 1 (m ((c.tc : Thread Cert.KernelIdeal.nD Cert.KernelIdeal.τ).loc Cert.KernelIdeal.main_arg11))) := by
    refine ((Cert.KernelIdeal.Gen.W8_arr m ρ c 5).trans (Cert.KernelIdeal.Gen.reg3_val (Cert.KernelIdeal.Gen.V7 m ρ) c)).trans ?_
    show Cert.Spec.sage 200000 (Cert.KernelIdeal.Gen.W7 m ρ c (Proc.devRef .tc Cert.KernelIdeal.main_v61)) (Cert.KernelIdeal.Gen.W7 m ρ c (Proc.devRef .tc Cert.KernelIdeal.main_v1))
        (Cert.KernelIdeal.Gen.W7 m ρ c (Proc.devRef .tc Cert.KernelIdeal.main_v63)) (Cert.KernelIdeal.Gen.W7 m ρ c (Proc.devRef .tc Cert.KernelIdeal.main_v68))
        (Cert.KernelIdeal.Gen.W7 m ρ c (Proc.devRef .tc Cert.KernelIdeal.main_v67)) = _
    rw [Cert.KernelIdeal.Gen.k_v61,
      Cert.KernelIdeal.Gen.k_keep_v1_6_7,
      Cert.KernelIdeal.Gen.k_v63,
      Cert.KernelIdeal.Gen.k_v68,
      Cert.KernelIdeal.Gen.k_v67,
      Cert.KernelIdeal.Carry.c_v3_5_6,
      Cert.KernelIdeal.Gen.k_keep_v3_4_5,
      Cert.KernelIdeal.Carry.c_v1_2_6,
      Cert.KernelIdeal.Carry.c_arg3_0_6,
      Cert.KernelIdeal.Carry.c_arg9_0_6,
      Cert.KernelIdeal.Carry.c_arg10_0_6,
      Cert.KernelIdeal.Carry.c_arg11_0_6]
    all_goals rfl
  -- the reference side: the dense stage's value at the contents before it, read back to the launch contents
  have hr : Cert.ReferenceIdeal.Run.R6 (launchContents m' c) (Proc.devRef .tc Cert.ReferenceIdeal.main_v97)
      = Cert.Spec.sage 200000
          (Cert.HostFns.aggM2A (Cert.ReferenceIdeal.Run.R2 (launchContents m' c) (Proc.devRef .tc Cert.ReferenceIdeal.main_v9)) (m' ((c.tc : Thread Cert.ReferenceIdeal.nD Cert.ReferenceIdeal.τ).loc Cert.ReferenceIdeal.main_arg3)))
          (Cert.ReferenceIdeal.Run.R1 (launchContents m' c) (Proc.devRef .tc Cert.ReferenceIdeal.main_v4))
          (Cert.HostFns.sliceMat 1 (m' ((c.tc : Thread Cert.ReferenceIdeal.nD Cert.ReferenceIdeal.τ).loc Cert.ReferenceIdeal.main_arg9)))
          (shapeCast Cert.ReferenceIdeal.S1x128 (Cert.HostFns.sliceVec 1 (m' ((c.tc : Thread Cert.ReferenceIdeal.nD Cert.ReferenceIdeal.τ).loc Cert.ReferenceIdeal.main_arg10))) hsc)
          (Cert.HostFns.sliceMat 1 (m' ((c.tc : Thread Cert.ReferenceIdeal.nD Cert.ReferenceIdeal.τ).loc Cert.ReferenceIdeal.main_arg11))) := by
    refine (seg5_v97 (Cert.ReferenceIdeal.Run.R5 (launchContents m' c)) hsc).trans ?_
    rw [Cert.ReferenceIdeal.Run.r_v84,
      Cert.ReferenceIdeal.Run.rc_v4_1_5,
      Cert.ReferenceIdeal.Run.r_v55,
      Cert.ReferenceIdeal.Run.r_v57,
      Cert.ReferenceIdeal.Run.r_v59,
      Cert.ReferenceIdeal.Run.rc_v9_2_4,
      Cert.ReferenceIdeal.Run.rc_arg3_0_4,
      Cert.ReferenceIdeal.Run.rc_arg9_0_4,
      Cert.ReferenceIdeal.Run.rc_arg10_0_4,
      Cert.ReferenceIdeal.Run.rc_arg11_0_4]
    all_goals rfl
  rw [hk, hr, j1, j3, ha3, ha9, ha10, ha11]
  rfl

/-- Region 4's result array is the reference's stage-7 result: both are the dense layer of `aggA2A` of the earlier 200000-row array along the edge list `main_arg4`, of that same array, and of slice 2 of the two weight stacks and of the bias stack (the bias as a one-row matrix). -/
theorem j_v102
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (ha9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (ha10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (ha11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (j1 : Cert.KernelIdeal.Gen.W2 m ρ c (Proc.devRef .tc Cert.KernelIdeal.main_v1)
      = Cert.ReferenceIdeal.Run.R1 (launchContents m' c) (Proc.devRef .tc Cert.ReferenceIdeal.main_v4)) :
    Cert.KernelIdeal.Gen.W10 m ρ c (Proc.devRef .tc Cert.KernelIdeal.main_v102)
      = Cert.ReferenceIdeal.Run.R8 (launchContents m' c) (Proc.devRef .tc Cert.ReferenceIdeal.main_v141) := by
  have hsc : Cert.ReferenceIdeal.S128.ShapeCasts Cert.ReferenceIdeal.S1x128 := by decide
  -- the kernel side: the region's value at the contents it finds, read back to the launch memory
  have hk : Cert.KernelIdeal.Gen.W10 m ρ c (Proc.devRef .tc Cert.KernelIdeal.main_v102)
      = Cert.Spec.sage 200000
          (Cert.HostFns.aggA2A (Cert.KernelIdeal.Gen.W2 m ρ c (Proc.devRef .tc Cert.KernelIdeal.main_v1)) (m ((c.tc : Thread Cert.KernelIdeal.nD Cert.KernelIdeal.τ).loc Cert.KernelIdeal.main_arg4)))
          (Cert.KernelIdeal.Gen.W2 m ρ c (Proc.devRef .tc Cert.KernelIdeal.main_v1))
          (Cert.HostFns.sliceMat 2 (m ((c.tc : Thread Cert.KernelIdeal.nD Cert.KernelIdeal.τ).loc Cert.KernelIdeal.main_arg9)))
          (Cert.HostFns.rowReshape128 (Cert.HostFns.sliceVec 2 (m ((c.tc : Thread Cert.KernelIdeal.nD Cert.KernelIdeal.τ).loc Cert.KernelIdeal.main_arg10))))
          (Cert.HostFns.sliceMat 2 (m ((c.tc : Thread Cert.KernelIdeal.nD Cert.KernelIdeal.τ).loc Cert.KernelIdeal.main_arg11))) := by
    refine ((Cert.KernelIdeal.Gen.W10_arr m ρ c 5).trans (Cert.KernelIdeal.Gen.reg4_val (Cert.KernelIdeal.Gen.V9 m ρ) c)).trans ?_
    show Cert.Spec.sage 200000 (Cert.KernelIdeal.Gen.W9 m ρ c (Proc.devRef .tc Cert.KernelIdeal.main_v94)) (Cert.KernelIdeal.Gen.W9 m ρ c (Proc.devRef .tc Cert.KernelIdeal.main_v1))
        (Cert.KernelIdeal.Gen.W9 m ρ c (Proc.devRef .tc Cert.KernelIdeal.main_v96)) (Cert.KernelIdeal.Gen.W9 m ρ c (Proc.devRef .tc Cert.KernelIdeal.main_v101))
        (Cert.KernelIdeal.Gen.W9 m ρ c (Proc.devRef .tc Cert.KernelIdeal.main_v100)) = _
    rw [Cert.KernelIdeal.Gen.k_v94,
      Cert.KernelIdeal.Gen.k_keep_v1_8_9,
      Cert.KernelIdeal.Gen.k_v96,
      Cert.KernelIdeal.Gen.k_v101,
      Cert.KernelIdeal.Gen.k_v100,
      Cert.KernelIdeal.Carry.c_v1_7_8,
      Cert.KernelIdeal.Gen.k_keep_v1_6_7,
      Cert.KernelIdeal.Carry.c_v1_2_6,
      Cert.KernelIdeal.Carry.c_arg4_0_8,
      Cert.KernelIdeal.Carry.c_arg9_0_8,
      Cert.KernelIdeal.Carry.c_arg10_0_8,
      Cert.KernelIdeal.Carry.c_arg11_0_8]
    all_goals rfl
  -- the reference side: the dense stage's value at the contents before it, read back to the launch contents
  have hr : Cert.ReferenceIdeal.Run.R8 (launchContents m' c) (Proc.devRef .tc Cert.ReferenceIdeal.main_v141)
      = Cert.Spec.sage 200000
          (Cert.HostFns.aggA2A (Cert.ReferenceIdeal.Run.R1 (launchContents m' c) (Proc.devRef .tc Cert.ReferenceIdeal.main_v4)) (m' ((c.tc : Thread Cert.ReferenceIdeal.nD Cert.ReferenceIdeal.τ).loc Cert.ReferenceIdeal.main_arg4)))
          (Cert.ReferenceIdeal.Run.R1 (launchContents m' c) (Proc.devRef .tc Cert.ReferenceIdeal.main_v4))
          (Cert.HostFns.sliceMat 2 (m' ((c.tc : Thread Cert.ReferenceIdeal.nD Cert.ReferenceIdeal.τ).loc Cert.ReferenceIdeal.main_arg9)))
          (shapeCast Cert.ReferenceIdeal.S1x128 (Cert.HostFns.sliceVec 2 (m' ((c.tc : Thread Cert.ReferenceIdeal.nD Cert.ReferenceIdeal.τ).loc Cert.ReferenceIdeal.main_arg10))) hsc)
          (Cert.HostFns.sliceMat 2 (m' ((c.tc : Thread Cert.ReferenceIdeal.nD Cert.ReferenceIdeal.τ).loc Cert.ReferenceIdeal.main_arg11))) := by
    refine (seg7_v141 (Cert.ReferenceIdeal.Run.R7 (launchContents m' c)) hsc).trans ?_
    rw [Cert.ReferenceIdeal.Run.r_v128,
      Cert.ReferenceIdeal.Run.rc_v4_1_7,
      Cert.ReferenceIdeal.Run.r_v99,
      Cert.ReferenceIdeal.Run.r_v101,
      Cert.ReferenceIdeal.Run.r_v103,
      Cert.ReferenceIdeal.Run.rc_v4_1_6,
      Cert.ReferenceIdeal.Run.rc_arg4_0_6,
      Cert.ReferenceIdeal.Run.rc_arg9_0_6,
      Cert.ReferenceIdeal.Run.rc_arg10_0_6,
      Cert.ReferenceIdeal.Run.rc_arg11_0_6]
    all_goals rfl
  rw [hk, hr, j1, ha4, ha9, ha10, ha11]
  rfl

end Cert.Join

end
-- ==== Proof.SageK7.lean ====
import proofs.«143223_j29772713296000_1_alg».proof.Proof.Gen.KernelIdeal.Frame
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout

/-!
A dense GraphSAGE layer of output width 128 on 100000 rows: what the region's result array holds when the region ends,
as the function `Cert.Spec.sage` of the five arrays the region finds. The body's two products are read at an index (the
operand indices of the contraction axis by axis, the contraction re-indexed by its one coordinate), the rest of the body
is the chain `Cert.Spec.sage_of_products` reads, each grid point's row block is the rows `5000 t … 5000 t + 4999` of the
arrays while the weights and the bias are whole, and the 20 row blocks cover the array.
-/

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-! ## The products' operand indices, axis by axis -/

theorem sage7_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sage7_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem sage7_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem sage7_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator at row `p`, column `q`: the sum over the contracted axis. -/
theorem sage7_matmul_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact sage7_lhs_0 _ _
      | ⟨1, _⟩ => exact (sage7_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (sage7_rhs_0 _ _).trans hk
      | ⟨1, _⟩ => exact sage7_rhs_1 _ _)
  rw [el, er]

/-- One product of the layer as the body writes it — both operands cast to their own shape and narrowed (the identity at
    the extended reals), the weight transposed — at row `p`, column `q`: `Σ_k x p k · w q k`. -/
theorem sage7_product (x : Vec Ideal S5000x128 .f32) (w : Vec Ideal S128x128 .f32)
    (h1 : S5000x128.ShapeCasts S5000x128) (h2 : S128x128.ShapeCasts S128x128) (hb : FTy.bits .bf16 < FTy.bits .f32)
    (ht : S128x128.Transposes [1, 0] S128x128) (p : Fin 5000) (q : Fin 128) :
    matmul dot_S5000x128_S128x128_S5000x128_1_0_0_1_n_n none
        (truncf .bf16 (shapeCast S5000x128 x h1) hb : FVec Ideal S5000x128 .bf16)
        (transpose S128x128 [1, 0] (truncf .bf16 (shapeCast S128x128 w h2) hb : FVec Ideal S128x128 .bf16) ht)
        (constant S5000x128 .f32 0x00000000#32) (ix2 p q)
      = ∑ k : Fin 128, x (ix2 p k) * w (ix2 q k) := by
  rw [sage7_matmul_apply]
  refine Finset.sum_congr rfl fun k _ => ?_
  rw [transpose_ix2_apply, truncf_apply, truncf_apply, shapeCast_self, shapeCast_self]

/-! ## The body's value -/

/-- What the body stores, as a function of the five blocks it loads: the layer on a block of 5000 rows. -/
theorem sage7_pay_eq (x0 x1 : Vec Ideal S5000x128 .f32) (x2 x4 : Vec Ideal S128x128 .f32) (x3 : Vec Ideal S1x128 .f32) :
    k7_pay1 (F := Ideal) x0 x1 x2 x4 x3 = Cert.Spec.sage 5000 x0 x1 x2 x3 x4 := by
  unfold k7_pay1
  exact Cert.Spec.sage_of_products x0 x1 x2 x3 x4 _ _
    (fun p q => sage7_product x0 x2 _ _ _ _ p q) (fun p q => sage7_product x1 x4 _ _ _ _ p q) _ _ _ _ _ _ _

/-! ## From the row blocks to the array -/

section Region
variable (V : (c : Dev nD) → (b : Ref sig .tc) → Buf (Elt Ideal) ((c : Thread nD τ).loc b))

theorem sage7_hz : (![0, 0] : Fin 2 → Nat) = fun _ => 0 := funext fun a => by fin_cases a <;> rfl

/-- The printed index maps over the grid: `mean`, `xdst` and the result move one row block per point, the weights and
    the bias stay at block (0, 0). -/
theorem sage7_idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The block of `mean` at point `t` is rows `5000 t … 5000 t + 4999` of the array. -/
theorem sage7_iblk0_apply (c : Dev nD) (t : Fin cfg7.N) (y : S5000x128.Idx) (k : S100000x128.Idx)
    (hk0 : (k 0).val = 5000 * t.val + (y 0).val) (hk1 : (k 1).val = (y 1).val) :
    (iblk7 V c 0 t : Vec Ideal S5000x128 .f32) y = (V c main_v154 : S100000x128.Idx → Elt Ideal .f32) k := by
  obtain ⟨e0, e1, -⟩ := sage7_idx_facts t
  show (V c main_v154 : S100000x128.Idx → Elt Ideal .f32) (((cfg7.win 0).blk t).view.emb y) = _
  refine congrArg (V c main_v154 : S100000x128.Idx → Elt Ideal .f32) (funext fun a => Fin.ext ?_)
  match a with
  | ⟨0, _⟩ => show win7_0.index t (0 : Fin 2) * 5000 + 1 * (y 0).val = (k 0).val; omega
  | ⟨1, _⟩ => show win7_0.index t (1 : Fin 2) * 128 + 1 * (y 1).val = (k 1).val; omega

/-- The block of `xdst` at point `t` likewise. -/
theorem sage7_iblk1_apply (c : Dev nD) (t : Fin cfg7.N) (y : S5000x128.Idx) (k : S100000x128.Idx)
    (hk0 : (k 0).val = 5000 * t.val + (y 0).val) (hk1 : (k 1).val = (y 1).val) :
    (iblk7 V c 1 t : Vec Ideal S5000x128 .f32) y = (V c main_v129 : S100000x128.Idx → Elt Ideal .f32) k := by
  obtain ⟨-, -, e0, e1, -⟩ := sage7_idx_facts t
  show (V c main_v129 : S100000x128.Idx → Elt Ideal .f32) (((cfg7.win 1).blk t).view.emb y) = _
  refine congrArg (V c main_v129 : S100000x128.Idx → Elt Ideal .f32) (funext fun a => Fin.ext ?_)
  match a with
  | ⟨0, _⟩ => show win7_1.index t (0 : Fin 2) * 5000 + 1 * (y 0).val = (k 0).val; omega
  | ⟨1, _⟩ => show win7_1.index t (1 : Fin 2) * 128 + 1 * (y 1).val = (k 1).val; omega

/-- The block of the left weight is the whole array at every point. -/
theorem sage7_iblk2_eq (c : Dev nD) (t : Fin cfg7.N) :
    (iblk7 V c 2 t : Vec Ideal S128x128 .f32) = (V c main_v156 : S128x128.Idx → Elt Ideal .f32) := by
  obtain ⟨-, -, -, -, e0, e1, -⟩ := sage7_idx_facts t
  funext y
  show (V c main_v156 : S128x128.Idx → Elt Ideal .f32) (((cfg7.win 2).blk t).view.emb y) = _
  refine congrArg (V c main_v156 : S128x128.Idx → Elt Ideal .f32) (funext fun a => Fin.ext ?_)
  match a with
  | ⟨0, _⟩ => show win7_2.index t (0 : Fin 2) * 128 + 1 * (y 0).val = (y 0).val; omega
  | ⟨1, _⟩ => show win7_2.index t (1 : Fin 2) * 128 + 1 * (y 1).val = (y 1).val; omega

/-- The block of the bias row is the whole array at every point. -/
theorem sage7_iblk3_eq (c : Dev nD) (t : Fin cfg7.N) :
    (iblk7 V c 3 t : Vec Ideal S1x128 .f32) = (V c main_v161 : S1x128.Idx → Elt Ideal .f32) := by
  obtain ⟨-, -, -, -, -, -, e0, e1, -⟩ := sage7_idx_facts t
  funext y
  show (V c main_v161 : S1x128.Idx → Elt Ideal .f32) (((cfg7.win 3).blk t).view.emb y) = _
  refine congrArg (V c main_v161 : S1x128.Idx → Elt Ideal .f32) (funext fun a => Fin.ext ?_)
  match a with
  | ⟨0, _⟩ => show win7_3.index t (0 : Fin 2) * 1 + 1 * (y 0).val = (y 0).val; omega
  | ⟨1, _⟩ => show win7_3.index t (1 : Fin 2) * 128 + 1 * (y 1).val = (y 1).val; omega

/-- The block of the right weight is the whole array at every point. -/
theorem sage7_iblk4_eq (c : Dev nD) (t : Fin cfg7.N) :
    (iblk7 V c 4 t : Vec Ideal S128x128 .f32) = (V c main_v160 : S128x128.Idx → Elt Ideal .f32) := by
  obtain ⟨-, -, -, -, -, -, -, -, e0, e1, -⟩ := sage7_idx_facts t
  funext y
  show (V c main_v160 : S128x128.Idx → Elt Ideal .f32) (((cfg7.win 4).blk t).view.emb y) = _
  refine congrArg (V c main_v160 : S128x128.Idx → Elt Ideal .f32) (funext fun a => Fin.ext ?_)
  match a with
  | ⟨0, _⟩ => show win7_4.index t (0 : Fin 2) * 128 + 1 * (y 0).val = (y 0).val; omega
  | ⟨1, _⟩ => show win7_4.index t (1 : Fin 2) * 128 + 1 * (y 1).val = (y 1).val; omega

/-- WHAT POINT `t` WRITES BACK is row block `t` of the layer on the arrays as the region finds them. -/
theorem sage7_flushed (c : Dev nD) (t : Fin cfg7.N) :
    (dat7 (F := Ideal) V c).flushed 5 t = ((cfg7.win 5).blk t).view.read (Elt Ideal)
      (Cert.Spec.sage 100000 (V c main_v154) (V c main_v129) (V c main_v156) (V c main_v161) (V c main_v160)) := by
  show (cfg7.win 5).cut (grid7.coords t) ((dat7 (F := Ideal) V c).after 5 t) = _
  rw [after7_5]
  unfold out7_5
  rw [View.canon_unit_zero sage7_hz]
  simp only [View.ld_unit_zero (S := S5000x128) sage7_hz, View.ld_unit_zero (S := S128x128) sage7_hz,
    View.ld_unit_zero (S := S1x128) sage7_hz]
  rw [sage7_pay_eq, sage7_iblk2_eq V c t, sage7_iblk3_eq V c t, sage7_iblk4_eq V c t]
  obtain ⟨-, -, -, -, -, -, -, -, -, -, e0, e1⟩ := sage7_idx_facts t
  funext j
  show Cert.Spec.sage 5000 (iblk7 V c 0 t) (iblk7 V c 1 t) (V c main_v156) (V c main_v161) (V c main_v160) j
    = Cert.Spec.sage 100000 (V c main_v154) (V c main_v129) (V c main_v156) (V c main_v161) (V c main_v160)
        (((cfg7.win 5).blk t).view.emb j)
  refine Cert.Spec.sage_block _ _ _ _ _ _ _ t.val j _ ?_ ?_
    (fun y k hk0 hk1 => sage7_iblk0_apply V c t y k hk0 hk1) (fun y k hk0 hk1 => sage7_iblk1_apply V c t y k hk0 hk1)
  · show win7_5.index t (0 : Fin 2) * 5000 + 1 * (j 0).val = 5000 * t.val + (j 0).val; omega
  · show win7_5.index t (1 : Fin 2) * 128 + 1 * (j 1).val = (j 1).val; omega

/-- An index of the array is in point `t`'s row block iff each coordinate is in the block's range on its axis. -/
theorem sage7_mem_blk (t : Fin cfg7.N) (i : S100000x128.Idx) :
    i ∈ ((cfg7.win 5).blk t).view.set ↔ ∀ a : Fin 2, win7_5.index t a * S5000x128.size a ≤ (i a).val
      ∧ (i a).val < win7_5.index t a * S5000x128.size a + S5000x128.size a := by
  show i ∈ ((View.whole main_v162).slice (win7_5.rect t)).set ↔ _
  rw [View.set_slice_whole, Rect.mem_set_unit]
  exact Iff.rfl

/-- The 20 row blocks cover the array: row `r` lies in the block of point `r / 5000`. -/
theorem sage7_cover (i : S100000x128.Idx) :
    ∃ t : Fin cfg7.N, (cfg7.win 5).flush t = true ∧ i ∈ ((cfg7.win 5).blk t).view.set := by
  have h0 : (i 0).val < 100000 := (i 0).isLt
  have h1 : (i 1).val < 128 := (i 1).isLt
  obtain ⟨t, ht⟩ : ∃ t : Fin cfg7.N, t.val = (i 0).val / 5000 :=
    ⟨⟨(i 0).val / 5000, by rw [show cfg7.N = 20 from N_7]; omega⟩, rfl⟩
  obtain ⟨-, -, -, -, -, -, -, -, -, -, e0, e1⟩ := sage7_idx_facts t
  refine ⟨t, flush7_5 t, ?_⟩
  rw [sage7_mem_blk]
  intro a
  match a with
  | ⟨0, _⟩ =>
    show win7_5.index t (0 : Fin 2) * 5000 ≤ (i 0).val ∧ (i 0).val < win7_5.index t (0 : Fin 2) * 5000 + 5000
    omega
  | ⟨1, _⟩ =>
    show win7_5.index t (1 : Fin 2) * 128 ≤ (i 1).val ∧ (i 1).val < win7_5.index t (1 : Fin 2) * 128 + 128
    omega

/-- THE RESULT ARRAY when the region ends: the layer on the five arrays the region finds. -/
theorem reg7_val (c : Dev nD) :
    (dat7 (F := Ideal) V c).arrAt 5 cfg7.N
      = Cert.Spec.sage 100000 (V c main_v154) (V c main_v129) (V c main_v156) (V c main_v161) (V c main_v160) :=
  (dat7 (F := Ideal) V c).arrAt_eq_of_cover 5 _ (fun t _ => sage7_flushed V c t) sage7_cover

end Region

end Cert.KernelIdeal.Gen

end
-- ==== Proof.SageK8.lean ====
import proofs.«143223_j29772713296000_1_alg».proof.Proof.Gen.KernelIdeal.Frame
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout

/-!
A dense GraphSAGE layer of output width 128 on 200000 rows: what the region's result array holds when the region ends,
as the function `Cert.Spec.sage` of the five arrays the region finds. The body's two products are read at an index (the
operand indices of the contraction axis by axis, the contraction re-indexed by its one coordinate), the rest of the body
is the chain `Cert.Spec.sage_of_products` reads, each grid point's row block is the rows `5000 t … 5000 t + 4999` of the
arrays while the weights and the bias are whole, and the 40 row blocks cover the array.
-/

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-! ## The products' operand indices, axis by axis -/

theorem sage8_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sage8_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem sage8_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem sage8_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator at row `p`, column `q`: the sum over the contracted axis. -/
theorem sage8_matmul_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact sage8_lhs_0 _ _
      | ⟨1, _⟩ => exact (sage8_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (sage8_rhs_0 _ _).trans hk
      | ⟨1, _⟩ => exact sage8_rhs_1 _ _)
  rw [el, er]

/-- One product of the layer as the body writes it — both operands cast to their own shape and narrowed (the identity at
    the extended reals), the weight transposed — at row `p`, column `q`: `Σ_k x p k · w q k`. -/
theorem sage8_product (x : Vec Ideal S5000x128 .f32) (w : Vec Ideal S128x128 .f32)
    (h1 : S5000x128.ShapeCasts S5000x128) (h2 : S128x128.ShapeCasts S128x128) (hb : FTy.bits .bf16 < FTy.bits .f32)
    (ht : S128x128.Transposes [1, 0] S128x128) (p : Fin 5000) (q : Fin 128) :
    matmul dot_S5000x128_S128x128_S5000x128_1_0_0_1_n_n none
        (truncf .bf16 (shapeCast S5000x128 x h1) hb : FVec Ideal S5000x128 .bf16)
        (transpose S128x128 [1, 0] (truncf .bf16 (shapeCast S128x128 w h2) hb : FVec Ideal S128x128 .bf16) ht)
        (constant S5000x128 .f32 0x00000000#32) (ix2 p q)
      = ∑ k : Fin 128, x (ix2 p k) * w (ix2 q k) := by
  rw [sage8_matmul_apply]
  refine Finset.sum_congr rfl fun k _ => ?_
  rw [transpose_ix2_apply, truncf_apply, truncf_apply, shapeCast_self, shapeCast_self]

/-! ## The body's value -/

/-- What the body stores, as a function of the five blocks it loads: the layer on a block of 5000 rows. -/
theorem sage8_pay_eq (x0 x1 : Vec Ideal S5000x128 .f32) (x2 x4 : Vec Ideal S128x128 .f32) (x3 : Vec Ideal S1x128 .f32) :
    k8_pay1 (F := Ideal) x0 x1 x2 x4 x3 = Cert.Spec.sage 5000 x0 x1 x2 x3 x4 := by
  unfold k8_pay1
  exact Cert.Spec.sage_of_products x0 x1 x2 x3 x4 _ _
    (fun p q => sage8_product x0 x2 _ _ _ _ p q) (fun p q => sage8_product x1 x4 _ _ _ _ p q) _ _ _ _ _ _ _

/-! ## From the row blocks to the array -/

section Region
variable (V : (c : Dev nD) → (b : Ref sig .tc) → Buf (Elt Ideal) ((c : Thread nD τ).loc b))

theorem sage8_hz : (![0, 0] : Fin 2 → Nat) = fun _ => 0 := funext fun a => by fin_cases a <;> rfl

/-- The printed index maps over the grid: `mean`, `xdst` and the result move one row block per point, the weights and
    the bias stay at block (0, 0). -/
theorem sage8_idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- The block of `mean` at point `t` is rows `5000 t … 5000 t + 4999` of the array. -/
theorem sage8_iblk0_apply (c : Dev nD) (t : Fin cfg8.N) (y : S5000x128.Idx) (k : S200000x128.Idx)
    (hk0 : (k 0).val = 5000 * t.val + (y 0).val) (hk1 : (k 1).val = (y 1).val) :
    (iblk8 V c 0 t : Vec Ideal S5000x128 .f32) y = (V c main_v187 : S200000x128.Idx → Elt Ideal .f32) k := by
  obtain ⟨e0, e1, -⟩ := sage8_idx_facts t
  show (V c main_v187 : S200000x128.Idx → Elt Ideal .f32) (((cfg8.win 0).blk t).view.emb y) = _
  refine congrArg (V c main_v187 : S200000x128.Idx → Elt Ideal .f32) (funext fun a => Fin.ext ?_)
  match a with
  | ⟨0, _⟩ => show win8_0.index t (0 : Fin 2) * 5000 + 1 * (y 0).val = (k 0).val; omega
  | ⟨1, _⟩ => show win8_0.index t (1 : Fin 2) * 128 + 1 * (y 1).val = (k 1).val; omega

/-- The block of `xdst` at point `t` likewise. -/
theorem sage8_iblk1_apply (c : Dev nD) (t : Fin cfg8.N) (y : S5000x128.Idx) (k : S200000x128.Idx)
    (hk0 : (k 0).val = 5000 * t.val + (y 0).val) (hk1 : (k 1).val = (y 1).val) :
    (iblk8 V c 1 t : Vec Ideal S5000x128 .f32) y = (V c main_v120 : S200000x128.Idx → Elt Ideal .f32) k := by
  obtain ⟨-, -, e0, e1, -⟩ := sage8_idx_facts t
  show (V c main_v120 : S200000x128.Idx → Elt Ideal .f32) (((cfg8.win 1).blk t).view.emb y) = _
  refine congrArg (V c main_v120 : S200000x128.Idx → Elt Ideal .f32) (funext fun a => Fin.ext ?_)
  match a with
  | ⟨0, _⟩ => show win8_1.index t (0 : Fin 2) * 5000 + 1 * (y 0).val = (k 0).val; omega
  | ⟨1, _⟩ => show win8_1.index t (1 : Fin 2) * 128 + 1 * (y 1).val = (k 1).val; omega

/-- The block of the left weight is the whole array at every point. -/
theorem sage8_iblk2_eq (c : Dev nD) (t : Fin cfg8.N) :
    (iblk8 V c 2 t : Vec Ideal S128x128 .f32) = (V c main_v189 : S128x128.Idx → Elt Ideal .f32) := by
  obtain ⟨-, -, -, -, e0, e1, -⟩ := sage8_idx_facts t
  funext y
  show (V c main_v189 : S128x128.Idx → Elt Ideal .f32) (((cfg8.win 2).blk t).view.emb y) = _
  refine congrArg (V c main_v189 : S128x128.Idx → Elt Ideal .f32) (funext fun a => Fin.ext ?_)
  match a with
  | ⟨0, _⟩ => show win8_2.index t (0 : Fin 2) * 128 + 1 * (y 0).val = (y 0).val; omega
  | ⟨1, _⟩ => show win8_2.index t (1 : Fin 2) * 128 + 1 * (y 1).val = (y 1).val; omega

/-- The block of the bias row is the whole array at every point. -/
theorem sage8_iblk3_eq (c : Dev nD) (t : Fin cfg8.N) :
    (iblk8 V c 3 t : Vec Ideal S1x128 .f32) = (V c main_v194 : S1x128.Idx → Elt Ideal .f32) := by
  obtain ⟨-, -, -, -, -, -, e0, e1, -⟩ := sage8_idx_facts t
  funext y
  show (V c main_v194 : S1x128.Idx → Elt Ideal .f32) (((cfg8.win 3).blk t).view.emb y) = _
  refine congrArg (V c main_v194 : S1x128.Idx → Elt Ideal .f32) (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega

/-- The block of the right weight is the whole array at every point. -/
theorem sage8_iblk4_eq (c : Dev nD) (t : Fin cfg8.N) :
    (iblk8 V c 4 t : Vec Ideal S128x128 .f32) = (V c main_v193 : S128x128.Idx → Elt Ideal .f32) := by
  obtain ⟨-, -, -, -, -, -, -, -, e0, e1, -⟩ := sage8_idx_facts t
  funext y
  show (V c main_v193 : S128x128.Idx → Elt Ideal .f32) (((cfg8.win 4).blk t).view.emb y) = _
  refine congrArg (V c main_v193 : S128x128.Idx → Elt Ideal .f32) (funext fun a => Fin.ext ?_)
  match a with
  | ⟨0, _⟩ => show win8_4.index t (0 : Fin 2) * 128 + 1 * (y 0).val = (y 0).val; omega
  | ⟨1, _⟩ => show win8_4.index t (1 : Fin 2) * 128 + 1 * (y 1).val = (y 1).val; omega

/-- WHAT POINT `t` WRITES BACK is row block `t` of the layer on the arrays as the region finds them. -/
theorem sage8_flushed (c : Dev nD) (t : Fin cfg8.N) :
    (dat8 (F := Ideal) V c).flushed 5 t = ((cfg8.win 5).blk t).view.read (Elt Ideal)
      (Cert.Spec.sage 200000 (V c main_v187) (V c main_v120) (V c main_v189) (V c main_v194) (V c main_v193)) := by
  show (cfg8.win 5).cut (grid8.coords t) ((dat8 (F := Ideal) V c).after 5 t) = _
  rw [after8_5]
  unfold out8_5
  rw [View.canon_unit_zero sage8_hz]
  simp only [View.ld_unit_zero (S := S5000x128) sage8_hz, View.ld_unit_zero (S := S128x128) sage8_hz,
    View.ld_unit_zero (S := S1x128) sage8_hz]
  rw [sage8_pay_eq, sage8_iblk2_eq V c t, sage8_iblk3_eq V c t, sage8_iblk4_eq V c t]
  obtain ⟨-, -, -, -, -, -, -, -, -, -, e0, e1⟩ := sage8_idx_facts t
  funext j
  show Cert.Spec.sage 5000 (iblk8 V c 0 t) (iblk8 V c 1 t) (V c main_v189) (V c main_v194) (V c main_v193) j
    = Cert.Spec.sage 200000 (V c main_v187) (V c main_v120) (V c main_v189) (V c main_v194) (V c main_v193)
        (((cfg8.win 5).blk t).view.emb j)
  refine Cert.Spec.sage_block _ _ _ _ _ _ _ t.val j _ ?_ ?_
    (fun y k hk0 hk1 => sage8_iblk0_apply V c t y k hk0 hk1) (fun y k hk0 hk1 => sage8_iblk1_apply V c t y k hk0 hk1)
  · show win8_5.index t (0 : Fin 2) * 5000 + 1 * (j 0).val = 5000 * t.val + (j 0).val; omega
  · show win8_5.index t (1 : Fin 2) * 128 + 1 * (j 1).val = (j 1).val; omega

/-- An index of the array is in point `t`'s row block iff each coordinate is in the block's range on its axis. -/
theorem sage8_mem_blk (t : Fin cfg8.N) (i : S200000x128.Idx) :
    i ∈ ((cfg8.win 5).blk t).view.set ↔ ∀ a : Fin 2, win8_5.index t a * S5000x128.size a ≤ (i a).val
      ∧ (i a).val < win8_5.index t a * S5000x128.size a + S5000x128.size a := by
  show i ∈ ((View.whole main_v195).slice (win8_5.rect t)).set ↔ _
  rw [View.set_slice_whole, Rect.mem_set_unit]
  exact Iff.rfl

/-- The 40 row blocks cover the array: row `r` lies in the block of point `r / 5000`. -/
theorem sage8_cover (i : S200000x128.Idx) :
    ∃ t : Fin cfg8.N, (cfg8.win 5).flush t = true ∧ i ∈ ((cfg8.win 5).blk t).view.set := by
  have h0 : (i 0).val < 200000 := (i 0).isLt
  have h1 : (i 1).val < 128 := (i 1).isLt
  obtain ⟨t, ht⟩ : ∃ t : Fin cfg8.N, t.val = (i 0).val / 5000 :=
    ⟨⟨(i 0).val / 5000, by rw [show cfg8.N = 40 from N_8]; omega⟩, rfl⟩
  obtain ⟨-, -, -, -, -, -, -, -, -, -, e0, e1⟩ := sage8_idx_facts t
  refine ⟨t, flush8_5 t, ?_⟩
  rw [sage8_mem_blk]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 128 ≤ (i 1).val ∧ (i 1).val < win8_5.index t (1 : Fin 2) * 128 + 128
    omega

/-- THE RESULT ARRAY when the region ends: the layer on the five arrays the region finds. -/
theorem reg8_val (c : Dev nD) :
    (dat8 (F := Ideal) V c).arrAt 5 cfg8.N
      = Cert.Spec.sage 200000 (V c main_v187) (V c main_v120) (V c main_v189) (V c main_v194) (V c main_v193) :=
  (dat8 (F := Ideal) V c).arrAt_eq_of_cover 5 _ (fun t _ => sage8_flushed V c t) sage8_cover

end Region

end Cert.KernelIdeal.Gen

end
-- ==== Proof.SageK9.lean ====
import proofs.«143223_j29772713296000_1_alg».proof.Proof.Gen.KernelIdeal.Frame
import proofs.«143223_j29772713296000_1_alg».proof.Proof.SpecSage
import Idealize.ShloMosaic.PureOps.Ideal.Laws
import Idealize.ShloMosaic.Lib.ValueIdx
import Idealize.ShloMosaic.Lib.Pipeline.Value
import Idealize.ShloMosaic.Lib.ValueLayout

/-!
A dense GraphSAGE layer of output width 128 on 200000 rows: what the region's result array holds when the region ends,
as the function `Cert.Spec.sage` of the five arrays the region finds. The body's two products are read at an index (the
operand indices of the contraction axis by axis, the contraction re-indexed by its one coordinate), the rest of the body
is the chain `Cert.Spec.sage_of_products` reads, each grid point's row block is the rows `5000 t … 5000 t + 4999` of the
arrays while the weights and the bias are whole, and the 40 row blocks cover the array.
-/

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-! ## The products' operand indices, axis by axis -/

theorem sage9_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sage9_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem sage9_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem sage9_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator at row `p`, column `q`: the sum over the contracted axis. -/
theorem sage9_matmul_apply (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact sage9_lhs_0 _ _
      | ⟨1, _⟩ => exact (sage9_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (sage9_rhs_0 _ _).trans hk
      | ⟨1, _⟩ => exact sage9_rhs_1 _ _)
  rw [el, er]

/-- One product of the layer as the body writes it — both operands cast to their own shape and narrowed (the identity at
    the extended reals), the weight transposed — at row `p`, column `q`: `Σ_k x p k · w q k`. -/
theorem sage9_product (x : Vec Ideal S5000x128 .f32) (w : Vec Ideal S128x128 .f32)
    (h1 : S5000x128.ShapeCasts S5000x128) (h2 : S128x128.ShapeCasts S128x128) (hb : FTy.bits .bf16 < FTy.bits .f32)
    (ht : S128x128.Transposes [1, 0] S128x128) (p : Fin 5000) (q : Fin 128) :
    matmul dot_S5000x128_S128x128_S5000x128_1_0_0_1_n_n none
        (truncf .bf16 (shapeCast S5000x128 x h1) hb : FVec Ideal S5000x128 .bf16)
        (transpose S128x128 [1, 0] (truncf .bf16 (shapeCast S128x128 w h2) hb : FVec Ideal S128x128 .bf16) ht)
        (constant S5000x128 .f32 0x00000000#32) (ix2 p q)
      = ∑ k : Fin 128, x (ix2 p k) * w (ix2 q k) := by
  rw [sage9_matmul_apply]
  refine Finset.sum_congr rfl fun k _ => ?_
  rw [transpose_ix2_apply, truncf_apply, truncf_apply, shapeCast_self, shapeCast_self]

/-! ## The body's value -/

/-- What the body stores, as a function of the five blocks it loads: the layer on a block of 5000 rows. -/
theorem sage9_pay_eq (x0 x1 : Vec Ideal S5000x128 .f32) (x2 x4 : Vec Ideal S128x128 .f32) (x3 : Vec Ideal S1x128 .f32) :
    k9_pay1 (F := Ideal) x0 x1 x2 x4 x3 = Cert.Spec.sage 5000 x0 x1 x2 x3 x4 := by
  unfold k9_pay1
  exact Cert.Spec.sage_of_products x0 x1 x2 x3 x4 _ _
    (fun p q => sage9_product x0 x2 _ _ _ _ p q) (fun p q => sage9_product x1 x4 _ _ _ _ p q) _ _ _ _ _ _ _

/-! ## From the row blocks to the array -/

section Region
variable (V : (c : Dev nD) → (b : Ref sig .tc) → Buf (Elt Ideal) ((c : Thread nD τ).loc b))

theorem sage9_hz : (![0, 0] : Fin 2 → Nat) = fun _ => 0 := funext fun a => by fin_cases a <;> rfl

/-- The printed index maps over the grid: `mean`, `xdst` and the result move one row block per point, the weights and
    the bias stay at block (0, 0). -/
theorem sage9_idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- The block of `mean` at point `t` is rows `5000 t … 5000 t + 4999` of the array. -/
theorem sage9_iblk0_apply (c : Dev nD) (t : Fin cfg9.N) (y : S5000x128.Idx) (k : S200000x128.Idx)
    (hk0 : (k 0).val = 5000 * t.val + (y 0).val) (hk1 : (k 1).val = (y 1).val) :
    (iblk9 V c 0 t : Vec Ideal S5000x128 .f32) y = (V c main_v220 : S200000x128.Idx → Elt Ideal .f32) k := by
  obtain ⟨e0, e1, -⟩ := sage9_idx_facts t
  show (V c main_v220 : S200000x128.Idx → Elt Ideal .f32) (((cfg9.win 0).blk t).view.emb y) = _
  refine congrArg (V c main_v220 : S200000x128.Idx → Elt Ideal .f32) (funext fun a => Fin.ext ?_)
  match a with
  | ⟨0, _⟩ => show win9_0.index t (0 : Fin 2) * 5000 + 1 * (y 0).val = (k 0).val; omega
  | ⟨1, _⟩ => show win9_0.index t (1 : Fin 2) * 128 + 1 * (y 1).val = (k 1).val; omega

/-- The block of `xdst` at point `t` likewise. -/
theorem sage9_iblk1_apply (c : Dev nD) (t : Fin cfg9.N) (y : S5000x128.Idx) (k : S200000x128.Idx)
    (hk0 : (k 0).val = 5000 * t.val + (y 0).val) (hk1 : (k 1).val = (y 1).val) :
    (iblk9 V c 1 t : Vec Ideal S5000x128 .f32) y = (V c main_v120 : S200000x128.Idx → Elt Ideal .f32) k := by
  obtain ⟨-, -, e0, e1, -⟩ := sage9_idx_facts t
  show (V c main_v120 : S200000x128.Idx → Elt Ideal .f32) (((cfg9.win 1).blk t).view.emb y) = _
  refine congrArg (V c main_v120 : S200000x128.Idx → Elt Ideal .f32) (funext fun a => Fin.ext ?_)
  match a with
  | ⟨0, _⟩ => show win9_1.index t (0 : Fin 2) * 5000 + 1 * (y 0).val = (k 0).val; omega
  | ⟨1, _⟩ => show win9_1.index t (1 : Fin 2) * 128 + 1 * (y 1).val = (k 1).val; omega

/-- The block of the left weight is the whole array at every point. -/
theorem sage9_iblk2_eq (c : Dev nD) (t : Fin cfg9.N) :
    (iblk9 V c 2 t : Vec Ideal S128x128 .f32) = (V c main_v222 : S128x128.Idx → Elt Ideal .f32) := by
  obtain ⟨-, -, -, -, e0, e1, -⟩ := sage9_idx_facts t
  funext y
  show (V c main_v222 : S128x128.Idx → Elt Ideal .f32) (((cfg9.win 2).blk t).view.emb y) = _
  refine congrArg (V c main_v222 : S128x128.Idx → Elt Ideal .f32) (funext fun a => Fin.ext ?_)
  match a with
  | ⟨0, _⟩ => show win9_2.index t (0 : Fin 2) * 128 + 1 * (y 0).val = (y 0).val; omega
  | ⟨1, _⟩ => show win9_2.index t (1 : Fin 2) * 128 + 1 * (y 1).val = (y 1).val; omega

/-- The block of the bias row is the whole array at every point. -/
theorem sage9_iblk3_eq (c : Dev nD) (t : Fin cfg9.N) :
    (iblk9 V c 3 t : Vec Ideal S1x128 .f32) = (V c main_v227 : S1x128.Idx → Elt Ideal .f32) := by
  obtain ⟨-, -, -, -, -, -, e0, e1, -⟩ := sage9_idx_facts t
  funext y
  show (V c main_v227 : S1x128.Idx → Elt Ideal .f32) (((cfg9.win 3).blk t).view.emb y) = _
  refine congrArg (V c main_v227 : S1x128.Idx → Elt Ideal .f32) (funext fun a => Fin.ext ?_)
  match a with
  | ⟨0, _⟩ => show win9_3.index t (0 : Fin 2) * 1 + 1 * (y 0).val = (y 0).val; omega
  | ⟨1, _⟩ => show win9_3.index t (1 : Fin 2) * 128 + 1 * (y 1).val = (y 1).val; omega

/-- The block of the right weight is the whole array at every point. -/
theorem sage9_iblk4_eq (c : Dev nD) (t : Fin cfg9.N) :
    (iblk9 V c 4 t : Vec Ideal S128x128 .f32) = (V c main_v226 : S128x128.Idx → Elt Ideal .f32) := by
  obtain ⟨-, -, -, -, -, -, -, -, e0, e1, -⟩ := sage9_idx_facts t
  funext y
  show (V c main_v226 : S128x128.Idx → Elt Ideal .f32) (((cfg9.win 4).blk t).view.emb y) = _
  refine congrArg (V c main_v226 : S128x128.Idx → Elt Ideal .f32) (funext fun a => Fin.ext ?_)
  match a with
  | ⟨0, _⟩ => show win9_4.index t (0 : Fin 2) * 128 + 1 * (y 0).val = (y 0).val; omega
  | ⟨1, _⟩ => show win9_4.index t (1 : Fin 2) * 128 + 1 * (y 1).val = (y 1).val; omega

/-- WHAT POINT `t` WRITES BACK is row block `t` of the layer on the arrays as the region finds them. -/
theorem sage9_flushed (c : Dev nD) (t : Fin cfg9.N) :
    (dat9 (F := Ideal) V c).flushed 5 t = ((cfg9.win 5).blk t).view.read (Elt Ideal)
      (Cert.Spec.sage 200000 (V c main_v220) (V c main_v120) (V c main_v222) (V c main_v227) (V c main_v226)) := by
  show (cfg9.win 5).cut (grid9.coords t) ((dat9 (F := Ideal) V c).after 5 t) = _
  rw [after9_5]
  unfold out9_5
  rw [View.canon_unit_zero sage9_hz]
  simp only [View.ld_unit_zero (S := S5000x128) sage9_hz, View.ld_unit_zero (S := S128x128) sage9_hz,
    View.ld_unit_zero (S := S1x128) sage9_hz]
  rw [sage9_pay_eq, sage9_iblk2_eq V c t, sage9_iblk3_eq V c t, sage9_iblk4_eq V c t]
  obtain ⟨-, -, -, -, -, -, -, -, -, -, e0, e1⟩ := sage9_idx_facts t
  funext j
  show Cert.Spec.sage 5000 (iblk9 V c 0 t) (iblk9 V c 1 t) (V c main_v222) (V c main_v227) (V c main_v226) j
    = Cert.Spec.sage 200000 (V c main_v220) (V c main_v120) (V c main_v222) (V c main_v227) (V c main_v226)
        (((cfg9.win 5).blk t).view.emb j)
  refine Cert.Spec.sage_block _ _ _ _ _ _ _ t.val j _ ?_ ?_
    (fun y k hk0 hk1 => sage9_iblk0_apply V c t y k hk0 hk1) (fun y k hk0 hk1 => sage9_iblk1_apply V c t y k hk0 hk1)
  · show win9_5.index t (0 : Fin 2) * 5000 + 1 * (j 0).val = 5000 * t.val + (j 0).val; omega
  · show win9_5.index t (1 : Fin 2) * 128 + 1 * (j 1).val = (j 1).val; omega

/-- An index of the array is in point `t`'s row block iff each coordinate is in the block's range on its axis. -/
theorem sage9_mem_blk (t : Fin cfg9.N) (i : S200000x128.Idx) :
    i ∈ ((cfg9.win 5).blk t).view.set ↔ ∀ a : Fin 2, win9_5.index t a * S5000x128.size a ≤ (i a).val
      ∧ (i a).val < win9_5.index t a * S5000x128.size a + S5000x128.size a := by
  show i ∈ ((View.whole main_v228).slice (win9_5.rect t)).set ↔ _
  rw [View.set_slice_whole, Rect.mem_set_unit]
  exact Iff.rfl

/-- The 40 row blocks cover the array: row `r` lies in the block of point `r / 5000`. -/
theorem sage9_cover (i : S200000x128.Idx) :
    ∃ t : Fin cfg9.N, (cfg9.win 5).flush t = true ∧ i ∈ ((cfg9.win 5).blk t).view.set := by
  have h0 : (i 0).val < 200000 := (i 0).isLt
  have h1 : (i 1).val < 128 := (i 1).isLt
  obtain ⟨t, ht⟩ : ∃ t : Fin cfg9.N, t.val = (i 0).val / 5000 :=
    ⟨⟨(i 0).val / 5000, by rw [show cfg9.N = 40 from N_9]; omega⟩, rfl⟩
  obtain ⟨-, -, -, -, -, -, -, -, -, -, e0, e1⟩ := sage9_idx_facts t
  refine ⟨t, flush9_5 t, ?_⟩
  rw [sage9_mem_blk]
  intro a
  match a with
  | ⟨0, _⟩ =>
    show win9_5.index t (0 : Fin 2) * 5000 ≤ (i 0).val ∧ (i 0).val < win9_5.index t (0 : Fin 2) * 5000 + 5000
    omega
  | ⟨1, _⟩ =>
    show win9_5.index t (1 : Fin 2) * 128 ≤ (i 1).val ∧ (i 1).val < win9_5.index t (1 : Fin 2) * 128 + 128
    omega

/-- THE RESULT ARRAY when the region ends: the layer on the five arrays the region finds. -/
theorem reg9_val (c : Dev nD) :
    (dat9 (F := Ideal) V c).arrAt 5 cfg9.N
      = Cert.Spec.sage 200000 (V c main_v220) (V c main_v120) (V c main_v222) (V c main_v227) (V c main_v226) :=
  (dat9 (F := Ideal) V c).arrAt_eq_of_cover 5 _ (fun t _ => sage9_flushed V c t) sage9_cover

end Region

end Cert.KernelIdeal.Gen

end
-- ==== Proof.KAgg1.lean ====
import proofs.«143223_j29772713296000_1_alg».proof.Proof.Gen.KernelIdeal.Frame
import proofs.«143223_j29772713296000_1_alg».proof.Proof.HostAgg
import Idealize.ShloMosaic.Lib.StableHlo.Run

noncomputable section

namespace Cert.KernelIdeal.Gen

open Idealize.ShloMosaic Idealize.ShloMosaic.TcCoe Idealize.SL.Sem Idealize.ShloMosaic.StableHlo

/-! # One layer: the buffers entering its three neighbour regions

Each of the layer's three host stretches computes one mean aggregation along an edge list and cuts the
layer's two matrices and its bias row out of their stacks. From any contents `V` of the buffers, a stretch
leaves at its result buffers the named functions of `V` at its argument buffers, and leaves the neighbour
region's own rows as they were. -/

/-! ## The three stretches, from any contents -/

theorem hostOps7_v154 (V : Valuation τ sig (Elt Ideal)) :
    StableHlo.after (hostOps7 (F := Ideal)) V (Proc.devRef .tc main_v154)
      = Cert.HostFns.aggA2M (V (Proc.devRef .tc main_v120)) (V (Proc.devRef .tc main_arg2)) := by
  after_results_simp
  rfl

theorem hostOps7_v156 (V : Valuation τ sig (Elt Ideal)) :
    StableHlo.after (hostOps7 (F := Ideal)) V (Proc.devRef .tc main_v156)
      = Cert.HostFns.sliceMat 0 (V (Proc.devRef .tc main_arg12)) := by
  after_results_simp
  rfl

theorem hostOps7_v161 (V : Valuation τ sig (Elt Ideal)) :
    StableHlo.after (hostOps7 (F := Ideal)) V (Proc.devRef .tc main_v161)
      = Cert.HostFns.rowReshape128 (Cert.HostFns.sliceVec 0 (V (Proc.devRef .tc main_arg13))) := by
  after_results_simp
  rfl

theorem hostOps7_v160 (V : Valuation τ sig (Elt Ideal)) :
    StableHlo.after (hostOps7 (F := Ideal)) V (Proc.devRef .tc main_v160)
      = Cert.HostFns.sliceMat 0 (V (Proc.devRef .tc main_arg14)) := by
  after_results_simp
  rfl

theorem hostOps7_keep_v129 (V : Valuation τ sig (Elt Ideal)) :
    StableHlo.after (hostOps7 (F := Ideal)) V (Proc.devRef .tc main_v129) = V (Proc.devRef .tc main_v129) := by
  after_results_simp

theorem hostOps8_v187 (V : Valuation τ sig (Elt Ideal)) :
    StableHlo.after (hostOps8 (F := Ideal)) V (Proc.devRef .tc main_v187)
      = Cert.HostFns.aggM2A (V (Proc.devRef .tc main_v129)) (V (Proc.devRef .tc main_arg3)) := by
  after_results_simp
  rfl

theorem hostOps8_v189 (V : Valuation τ sig (Elt Ideal)) :
    StableHlo.after (hostOps8 (F := Ideal)) V (Proc.devRef .tc main_v189)
      = Cert.HostFns.sliceMat 1 (V (Proc.devRef .tc main_arg12)) := by
  after_results_simp
  rfl

theorem hostOps8_v194 (V : Valuation τ sig (Elt Ideal)) :
    StableHlo.after (hostOps8 (F := Ideal)) V (Proc.devRef .tc main_v194)
      = Cert.HostFns.rowReshape128 (Cert.HostFns.sliceVec 1 (V (Proc.devRef .tc main_arg13))) := by
  after_results_simp
  rfl

theorem hostOps8_v193 (V : Valuation τ sig (Elt Ideal)) :
    StableHlo.after (hostOps8 (F := Ideal)) V (Proc.devRef .tc main_v193)
      = Cert.HostFns.sliceMat 1 (V (Proc.devRef .tc main_arg14)) := by
  after_results_simp
  rfl

theorem hostOps8_keep_v120 (V : Valuation τ sig (Elt Ideal)) :
    StableHlo.after (hostOps8 (F := Ideal)) V (Proc.devRef .tc main_v120) = V (Proc.devRef .tc main_v120) := by
  after_results_simp

theorem hostOps9_v220 (V : Valuation τ sig (Elt Ideal)) :
    StableHlo.after (hostOps9 (F := Ideal)) V (Proc.devRef .tc main_v220)
      = Cert.HostFns.aggA2A (V (Proc.devRef .tc main_v120)) (V (Proc.devRef .tc main_arg4)) := by
  after_results_simp
  rfl

theorem hostOps9_v222 (V : Valuation τ sig (Elt Ideal)) :
    StableHlo.after (hostOps9 (F := Ideal)) V (Proc.devRef .tc main_v222)
      = Cert.HostFns.sliceMat 2 (V (Proc.devRef .tc main_arg12)) := by
  after_results_simp
  rfl

theorem hostOps9_v227 (V : Valuation τ sig (Elt Ideal)) :
    StableHlo.after (hostOps9 (F := Ideal)) V (Proc.devRef .tc main_v227)
      = Cert.HostFns.rowReshape128 (Cert.HostFns.sliceVec 2 (V (Proc.devRef .tc main_arg13))) := by
  after_results_simp
  rfl

theorem hostOps9_v226 (V : Valuation τ sig (Elt Ideal)) :
    StableHlo.after (hostOps9 (F := Ideal)) V (Proc.devRef .tc main_v226)
      = Cert.HostFns.sliceMat 2 (V (Proc.devRef .tc main_arg14)) := by
  after_results_simp
  rfl

theorem hostOps9_keep_v120 (V : Valuation τ sig (Elt Ideal)) :
    StableHlo.after (hostOps9 (F := Ideal)) V (Proc.devRef .tc main_v120) = V (Proc.devRef .tc main_v120) := by
  after_results_simp

/-! ## The same at the run's boundaries

At the boundary after each stretch, the aggregated rows, the two matrices and the bias row are the named
functions of the buffers at the boundary before it, and the region's own rows are as they were. -/

variable (m : (ℓ : Loc nD τ sig) → Buf (Elt Ideal) ℓ) (ρ : Dev nD → PrngReg)

theorem k_v154 (c : Dev nD) :
    W19 m ρ c (Proc.devRef .tc main_v154)
      = Cert.HostFns.aggA2M (W18 m ρ c (Proc.devRef .tc main_v120)) (W18 m ρ c (Proc.devRef .tc main_arg2)) :=
  hostOps7_v154 (W18 m ρ c)

theorem k_v156 (c : Dev nD) :
    W19 m ρ c (Proc.devRef .tc main_v156) = Cert.HostFns.sliceMat 0 (W18 m ρ c (Proc.devRef .tc main_arg12)) :=
  hostOps7_v156 (W18 m ρ c)

theorem k_v161 (c : Dev nD) :
    W19 m ρ c (Proc.devRef .tc main_v161) = Cert.HostFns.rowReshape128 (Cert.HostFns.sliceVec 0 (W18 m ρ c (Proc.devRef .tc main_arg13))) :=
  hostOps7_v161 (W18 m ρ c)

theorem k_v160 (c : Dev nD) :
    W19 m ρ c (Proc.devRef .tc main_v160) = Cert.HostFns.sliceMat 0 (W18 m ρ c (Proc.devRef .tc main_arg14)) :=
  hostOps7_v160 (W18 m ρ c)

theorem k_keep_v129_18_19 (c : Dev nD) :
    W19 m ρ c (Proc.devRef .tc main_v129) = W18 m ρ c (Proc.devRef .tc main_v129) :=
  hostOps7_keep_v129 (W18 m ρ c)

theorem k_v187 (c : Dev nD) :
    W21 m ρ c (Proc.devRef .tc main_v187)
      = Cert.HostFns.aggM2A (W20 m ρ c (Proc.devRef .tc main_v129)) (W20 m ρ c (Proc.devRef .tc main_arg3)) :=
  hostOps8_v187 (W20 m ρ c)

theorem k_v189 (c : Dev nD) :
    W21 m ρ c (Proc.devRef .tc main_v189) = Cert.HostFns.sliceMat 1 (W20 m ρ c (Proc.devRef .tc main_arg12)) :=
  hostOps8_v189 (W20 m ρ c)

theorem k_v194 (c : Dev nD) :
    W21 m ρ c (Proc.devRef .tc main_v194) = Cert.HostFns.rowReshape128 (Cert.HostFns.sliceVec 1 (W20 m ρ c (Proc.devRef .tc main_arg13))) :=
  hostOps8_v194 (W20 m ρ c)

theorem k_v193 (c : Dev nD) :
    W21 m ρ c (Proc.devRef .tc main_v193) = Cert.HostFns.sliceMat 1 (W20 m ρ c (Proc.devRef .tc main_arg14)) :=
  hostOps8_v193 (W20 m ρ c)

theorem k_keep_v120_20_21 (c : Dev nD) :
    W21 m ρ c (Proc.devRef .tc main_v120) = W20 m ρ c (Proc.devRef .tc main_v120) :=
  hostOps8_keep_v120 (W20 m ρ c)

theorem k_v220 (c : Dev nD) :
    W23 m ρ c (Proc.devRef .tc main_v220)
      = Cert.HostFns.aggA2A (W22 m ρ c (Proc.devRef .tc main_v120)) (W22 m ρ c (Proc.devRef .tc main_arg4)) :=
  hostOps9_v220 (W22 m ρ c)

theorem k_v222 (c : Dev nD) :
    W23 m ρ c (Proc.devRef .tc main_v222) = Cert.HostFns.sliceMat 2 (W22 m ρ c (Proc.devRef .tc main_arg12)) :=
  hostOps9_v222 (W22 m ρ c)

theorem k_v227 (c : Dev nD) :
    W23 m ρ c (Proc.devRef .tc main_v227) = Cert.HostFns.rowReshape128 (Cert.HostFns.sliceVec 2 (W22 m ρ c (Proc.devRef .tc main_arg13))) :=
  hostOps9_v227 (W22 m ρ c)

theorem k_v226 (c : Dev nD) :
    W23 m ρ c (Proc.devRef .tc main_v226) = Cert.HostFns.sliceMat 2 (W22 m ρ c (Proc.devRef .tc main_arg14)) :=
  hostOps9_v226 (W22 m ρ c)

theorem k_keep_v120_22_23 (c : Dev nD) :
    W23 m ρ c (Proc.devRef .tc main_v120) = W22 m ρ c (Proc.devRef .tc main_v120) :=
  hostOps9_keep_v120 (W22 m ρ c)

end Cert.KernelIdeal.Gen
-- ==== Proof.RAgg1.lean ====
import proofs.«143223_j29772713296000_1_alg».proof.Proof.RefOps
import proofs.«143223_j29772713296000_1_alg».proof.Proof.HostAgg

noncomputable section

namespace Cert.ReferenceIdeal.Run

open Cert.ReferenceIdeal Cert.ReferenceIdeal.Gen Idealize.ShloMosaic Idealize.ShloMosaic.TcCoe Idealize.SL.Sem Idealize.ShloMosaic.StableHlo

attribute [local irreducible] Host.gather Host.scatterAdd

/-! # One layer of the reference: its three aggregation stages, read at their result buffers

Each stage cuts one layer's two matrices and its bias row out of their stacks and computes one mean
aggregation along an edge list: the same functions as the kernel program's host stretches, the two printed
programs' shape and dimension records being equal term by term. -/

theorem seg14_v221 (V : Valuation τ sig (Elt Ideal)) :
    StableHlo.after (seg14 (F := Ideal)) V (Proc.devRef .tc main_v221)
      = Cert.HostFns.aggA2M (V (Proc.devRef .tc main_v189)) (V (Proc.devRef .tc main_arg2)) := by
  after_results_simp
  rfl

theorem seg14_v192 (V : Valuation τ sig (Elt Ideal)) :
    StableHlo.after (seg14 (F := Ideal)) V (Proc.devRef .tc main_v192)
      = Cert.HostFns.sliceMat 0 (V (Proc.devRef .tc main_arg12)) := by
  after_results_simp
  rfl

theorem seg14_v194 (V : Valuation τ sig (Elt Ideal)) :
    StableHlo.after (seg14 (F := Ideal)) V (Proc.devRef .tc main_v194)
      = Cert.HostFns.sliceVec 0 (V (Proc.devRef .tc main_arg13)) := by
  after_results_simp
  rfl

theorem seg14_v196 (V : Valuation τ sig (Elt Ideal)) :
    StableHlo.after (seg14 (F := Ideal)) V (Proc.devRef .tc main_v196)
      = Cert.HostFns.sliceMat 0 (V (Proc.devRef .tc main_arg14)) := by
  after_results_simp
  rfl

theorem r_v221 (V : Valuation τ sig (Elt Ideal)) :
    R15 V (Proc.devRef .tc main_v221)
      = Cert.HostFns.aggA2M (R14 V (Proc.devRef .tc main_v189)) (R14 V (Proc.devRef .tc main_arg2)) :=
  seg14_v221 (R14 V)

theorem r_v192 (V : Valuation τ sig (Elt Ideal)) :
    R15 V (Proc.devRef .tc main_v192) = Cert.HostFns.sliceMat 0 (R14 V (Proc.devRef .tc main_arg12)) :=
  seg14_v192 (R14 V)

theorem r_v194 (V : Valuation τ sig (Elt Ideal)) :
    R15 V (Proc.devRef .tc main_v194) = Cert.HostFns.sliceVec 0 (R14 V (Proc.devRef .tc main_arg13)) :=
  seg14_v194 (R14 V)

theorem r_v196 (V : Valuation τ sig (Elt Ideal)) :
    R15 V (Proc.devRef .tc main_v196) = Cert.HostFns.sliceMat 0 (R14 V (Proc.devRef .tc main_arg14)) :=
  seg14_v196 (R14 V)

theorem seg16_v265 (V : Valuation τ sig (Elt Ideal)) :
    StableHlo.after (seg16 (F := Ideal)) V (Proc.devRef .tc main_v265)
      = Cert.HostFns.aggM2A (V (Proc.devRef .tc main_v190)) (V (Proc.devRef .tc main_arg3)) := by
  after_results_simp
  rfl

theorem seg16_v236 (V : Valuation τ sig (Elt Ideal)) :
    StableHlo.after (seg16 (F := Ideal)) V (Proc.devRef .tc main_v236)
      = Cert.HostFns.sliceMat 1 (V (Proc.devRef .tc main_arg12)) := by
  after_results_simp
  rfl

theorem seg16_v238 (V : Valuation τ sig (Elt Ideal)) :
    StableHlo.after (seg16 (F := Ideal)) V (Proc.devRef .tc main_v238)
      = Cert.HostFns.sliceVec 1 (V (Proc.devRef .tc main_arg13)) := by
  after_results_simp
  rfl

theorem seg16_v240 (V : Valuation τ sig (Elt Ideal)) :
    StableHlo.after (seg16 (F := Ideal)) V (Proc.devRef .tc main_v240)
      = Cert.HostFns.sliceMat 1 (V (Proc.devRef .tc main_arg14)) := by
  after_results_simp
  rfl

theorem r_v265 (V : Valuation τ sig (Elt Ideal)) :
    R17 V (Proc.devRef .tc main_v265)
      = Cert.HostFns.aggM2A (R16 V (Proc.devRef .tc main_v190)) (R16 V (Proc.devRef .tc main_arg3)) :=
  seg16_v265 (R16 V)

theorem r_v236 (V : Valuation τ sig (Elt Ideal)) :
    R17 V (Proc.devRef .tc main_v236) = Cert.HostFns.sliceMat 1 (R16 V (Proc.devRef .tc main_arg12)) :=
  seg16_v236 (R16 V)

theorem r_v238 (V : Valuation τ sig (Elt Ideal)) :
    R17 V (Proc.devRef .tc main_v238) = Cert.HostFns.sliceVec 1 (R16 V (Proc.devRef .tc main_arg13)) :=
  seg16_v238 (R16 V)

theorem r_v240 (V : Valuation τ sig (Elt Ideal)) :
    R17 V (Proc.devRef .tc main_v240) = Cert.HostFns.sliceMat 1 (R16 V (Proc.devRef .tc main_arg14)) :=
  seg16_v240 (R16 V)

theorem seg18_v309 (V : Valuation τ sig (Elt Ideal)) :
    StableHlo.after (seg18 (F := Ideal)) V (Proc.devRef .tc main_v309)
      = Cert.HostFns.aggA2A (V (Proc.devRef .tc main_v189)) (V (Proc.devRef .tc main_arg4)) := by
  after_results_simp
  rfl

theorem seg18_v280 (V : Valuation τ sig (Elt Ideal)) :
    StableHlo.after (seg18 (F := Ideal)) V (Proc.devRef .tc main_v280)
      = Cert.HostFns.sliceMat 2 (V (Proc.devRef .tc main_arg12)) := by
  after_results_simp
  rfl

theorem seg18_v282 (V : Valuation τ sig (Elt Ideal)) :
    StableHlo.after (seg18 (F := Ideal)) V (Proc.devRef .tc main_v282)
      = Cert.HostFns.sliceVec 2 (V (Proc.devRef .tc main_arg13)) := by
  after_results_simp
  rfl

theorem seg18_v284 (V : Valuation τ sig (Elt Ideal)) :
    StableHlo.after (seg18 (F := Ideal)) V (Proc.devRef .tc main_v284)
      = Cert.HostFns.sliceMat 2 (V (Proc.devRef .tc main_arg14)) := by
  after_results_simp
  rfl

theorem r_v309 (V : Valuation τ sig (Elt Ideal)) :
    R19 V (Proc.devRef .tc main_v309)
      = Cert.HostFns.aggA2A (R18 V (Proc.devRef .tc main_v189)) (R18 V (Proc.devRef .tc main_arg4)) :=
  seg18_v309 (R18 V)

theorem r_v280 (V : Valuation τ sig (Elt Ideal)) :
    R19 V (Proc.devRef .tc main_v280) = Cert.HostFns.sliceMat 2 (R18 V (Proc.devRef .tc main_arg12)) :=
  seg18_v280 (R18 V)

theorem r_v282 (V : Valuation τ sig (Elt Ideal)) :
    R19 V (Proc.devRef .tc main_v282) = Cert.HostFns.sliceVec 2 (R18 V (Proc.devRef .tc main_arg13)) :=
  seg18_v282 (R18 V)

theorem r_v284 (V : Valuation τ sig (Elt Ideal)) :
    R19 V (Proc.devRef .tc main_v284) = Cert.HostFns.sliceMat 2 (R18 V (Proc.devRef .tc main_arg14)) :=
  seg18_v284 (R18 V)

end Cert.ReferenceIdeal.Run
-- ==== Proof.JoinSage1.lean ====
import proofs.«143223_j29772713296000_1_alg».proof.Proof.SageK7
import proofs.«143223_j29772713296000_1_alg».proof.Proof.SageK8
import proofs.«143223_j29772713296000_1_alg».proof.Proof.SageK9
import proofs.«143223_j29772713296000_1_alg».proof.Proof.SageR
import proofs.«143223_j29772713296000_1_alg».proof.Proof.KAgg1
import proofs.«143223_j29772713296000_1_alg».proof.Proof.RAgg1
import proofs.«143223_j29772713296000_1_alg».proof.Proof.KCarry
import proofs.«143223_j29772713296000_1_alg».proof.Proof.RCarry
import Idealize.ShloMosaic.Lib.StableHlo.Run

set_option maxRecDepth 16384

noncomputable section

/-! # The second layer's three dense outputs on both sides

Three times the kernel program runs a dense region on what a host stretch prepared (a mean aggregation along an edge
list, one slice of each of the two weight stacks and of the bias stack, the bias as a one-row matrix) and the reference
runs one dense stage on what its own aggregation stage prepared. Both are `Cert.Spec.sage` of the same five functions
of the earlier rows and of the launch arguments, so equal earlier rows and equal arguments give equal outputs. -/

namespace Cert.Join

section Reference

open Cert.ReferenceIdeal Cert.ReferenceIdeal.Gen Cert.ReferenceIdeal.Run
open Idealize.ShloMosaic Idealize.ShloMosaic.TcCoe Idealize.SL.Sem Idealize.ShloMosaic.StableHlo

/-- Stage 15 of the reference leaves at its result the dense layer of the stage's five inputs, the bias vector cast to one row. -/
theorem seg15_v234 (V : Valuation τ sig (Elt Ideal)) (h : S128.ShapeCasts S1x128) :
    StableHlo.after (seg15 (F := Ideal)) V (Proc.devRef .tc main_v234)
      = Cert.Spec.sage 100000 (V (Proc.devRef .tc main_v221)) (V (Proc.devRef .tc main_v190)) (V (Proc.devRef .tc main_v192))
          (shapeCast S1x128 (V (Proc.devRef .tc main_v194)) h) (V (Proc.devRef .tc main_v196)) := by
  after_results_simp
  exact Cert.ReferenceIdeal.Dense.sage100000_ref _ _ _ _ _ h

/-- Stage 17 of the reference leaves at its result the dense layer of the stage's five inputs, the bias vector cast to one row. -/
theorem seg17_v278 (V : Valuation τ sig (Elt Ideal)) (h : S128.ShapeCasts S1x128) :
    StableHlo.after (seg17 (F := Ideal)) V (Proc.devRef .tc main_v278)
      = Cert.Spec.sage 200000 (V (Proc.devRef .tc main_v265)) (V (Proc.devRef .tc main_v189)) (V (Proc.devRef .tc main_v236))
          (shapeCast S1x128 (V (Proc.devRef .tc main_v238)) h) (V (Proc.devRef .tc main_v240)) := by
  after_results_simp
  exact Cert.ReferenceIdeal.Dense.sage200000_ref _ _ _ _ _ h

/-- Stage 19 of the reference leaves at its result the dense layer of the stage's five inputs, the bias vector cast to one row. -/
theorem seg19_v322 (V : Valuation τ sig (Elt Ideal)) (h : S128.ShapeCasts S1x128) :
    StableHlo.after (seg19 (F := Ideal)) V (Proc.devRef .tc main_v322)
      = Cert.Spec.sage 200000 (V (Proc.devRef .tc main_v309)) (V (Proc.devRef .tc main_v189)) (V (Proc.devRef .tc main_v280))
          (shapeCast S1x128 (V (Proc.devRef .tc main_v282)) h) (V (Proc.devRef .tc main_v284)) := by
  after_results_simp
  exact Cert.ReferenceIdeal.Dense.sage200000_ref _ _ _ _ _ h

end Reference

open Idealize.ShloMosaic Idealize.ShloMosaic.TcCoe Idealize.SL.Sem Idealize.ShloMosaic.StableHlo

/-- Region 7's result array is the reference's stage-15 result: both are the dense layer of `aggA2M` of the earlier 200000-row array along the edge list `main_arg2`, of the earlier 100000-row array, and of slice 0 of the two weight stacks and of the bias stack (the bias as a one-row matrix). -/
theorem j_v162
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (ha12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (ha13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (ha14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (j120 : Cert.KernelIdeal.Gen.W16 m ρ c (Proc.devRef .tc Cert.KernelIdeal.main_v120)
      = Cert.ReferenceIdeal.Run.R13 (launchContents m' c) (Proc.devRef .tc Cert.ReferenceIdeal.main_v189))
    (j129 : Cert.KernelIdeal.Gen.W18 m ρ c (Proc.devRef .tc Cert.KernelIdeal.main_v129)
      = Cert.ReferenceIdeal.Run.R14 (launchContents m' c) (Proc.devRef .tc Cert.ReferenceIdeal.main_v190)) :
    Cert.KernelIdeal.Gen.W20 m ρ c (Proc.devRef .tc Cert.KernelIdeal.main_v162)
      = Cert.ReferenceIdeal.Run.R16 (launchContents m' c) (Proc.devRef .tc Cert.ReferenceIdeal.main_v234) := by
  have hsc : Cert.ReferenceIdeal.S128.ShapeCasts Cert.ReferenceIdeal.S1x128 := by decide
  -- the kernel side: the region's value at the contents it finds, read back to the launch memory
  have hk : Cert.KernelIdeal.Gen.W20 m ρ c (Proc.devRef .tc Cert.KernelIdeal.main_v162)
      = Cert.Spec.sage 100000
          (Cert.HostFns.aggA2M (Cert.KernelIdeal.Gen.W16 m ρ c (Proc.devRef .tc Cert.KernelIdeal.main_v120)) (m ((c.tc : Thread Cert.KernelIdeal.nD Cert.KernelIdeal.τ).loc Cert.KernelIdeal.main_arg2)))
          (Cert.KernelIdeal.Gen.W18 m ρ c (Proc.devRef .tc Cert.KernelIdeal.main_v129))
          (Cert.HostFns.sliceMat 0 (m ((c.tc : Thread Cert.KernelIdeal.nD Cert.KernelIdeal.τ).loc Cert.KernelIdeal.main_arg12)))
          (Cert.HostFns.rowReshape128 (Cert.HostFns.sliceVec 0 (m ((c.tc : Thread Cert.KernelIdeal.nD Cert.KernelIdeal.τ).loc Cert.KernelIdeal.main_arg13))))
          (Cert.HostFns.sliceMat 0 (m ((c.tc : Thread Cert.KernelIdeal.nD Cert.KernelIdeal.τ).loc Cert.KernelIdeal.main_arg14))) := by
    refine ((Cert.KernelIdeal.Gen.W20_arr m ρ c 5).trans (Cert.KernelIdeal.Gen.reg7_val (Cert.KernelIdeal.Gen.V19 m ρ) c)).trans ?_
    show Cert.Spec.sage 100000 (Cert.KernelIdeal.Gen.W19 m ρ c (Proc.devRef .tc Cert.KernelIdeal.main_v154)) (Cert.KernelIdeal.Gen.W19 m ρ c (Proc.devRef .tc Cert.KernelIdeal.main_v129))
        (Cert.KernelIdeal.Gen.W19 m ρ c (Proc.devRef .tc Cert.KernelIdeal.main_v156)) (Cert.KernelIdeal.Gen.W19 m ρ c (Proc.devRef .tc Cert.KernelIdeal.main_v161))
        (Cert.KernelIdeal.Gen.W19 m ρ c (Proc.devRef .tc Cert.KernelIdeal.main_v160)) = _
    rw [Cert.KernelIdeal.Gen.k_v154,
      Cert.KernelIdeal.Gen.k_keep_v129_18_19,
      Cert.KernelIdeal.Gen.k_v156,
      Cert.KernelIdeal.Gen.k_v161,
      Cert.KernelIdeal.Gen.k_v160,
      Cert.KernelIdeal.Carry.c_v120_16_18,
      Cert.KernelIdeal.Carry.c_arg2_0_18,
      Cert.KernelIdeal.Carry.c_arg12_0_18,
      Cert.KernelIdeal.Carry.c_arg13_0_18,
      Cert.KernelIdeal.Carry.c_arg14_0_18]
    all_goals rfl
  -- the reference side: the dense stage's value at the contents before it, read back to the launch contents
  have hr : Cert.ReferenceIdeal.Run.R16 (launchContents m' c) (Proc.devRef .tc Cert.ReferenceIdeal.main_v234)
      = Cert.Spec.sage 100000
          (Cert.HostFns.aggA2M (Cert.ReferenceIdeal.Run.R13 (launchContents m' c) (Proc.devRef .tc Cert.ReferenceIdeal.main_v189)) (m' ((c.tc : Thread Cert.ReferenceIdeal.nD Cert.ReferenceIdeal.τ).loc Cert.ReferenceIdeal.main_arg2)))
          (Cert.ReferenceIdeal.Run.R14 (launchContents m' c) (Proc.devRef .tc Cert.ReferenceIdeal.main_v190))
          (Cert.HostFns.sliceMat 0 (m' ((c.tc : Thread Cert.ReferenceIdeal.nD Cert.ReferenceIdeal.τ).loc Cert.ReferenceIdeal.main_arg12)))
          (shapeCast Cert.ReferenceIdeal.S1x128 (Cert.HostFns.sliceVec 0 (m' ((c.tc : Thread Cert.ReferenceIdeal.nD Cert.ReferenceIdeal.τ).loc Cert.ReferenceIdeal.main_arg13))) hsc)
          (Cert.HostFns.sliceMat 0 (m' ((c.tc : Thread Cert.ReferenceIdeal.nD Cert.ReferenceIdeal.τ).loc Cert.ReferenceIdeal.main_arg14))) := by
    refine (seg15_v234 (Cert.ReferenceIdeal.Run.R15 (launchContents m' c)) hsc).trans ?_
    rw [Cert.ReferenceIdeal.Run.r_v221,
      Cert.ReferenceIdeal.Run.rc_v190_14_15,
      Cert.ReferenceIdeal.Run.r_v192,
      Cert.ReferenceIdeal.Run.r_v194,
      Cert.ReferenceIdeal.Run.r_v196,
      Cert.ReferenceIdeal.Run.rc_v189_13_14,
      Cert.ReferenceIdeal.Run.rc_arg2_0_14,
      Cert.ReferenceIdeal.Run.rc_arg12_0_14,
      Cert.ReferenceIdeal.Run.rc_arg13_0_14,
      Cert.ReferenceIdeal.Run.rc_arg14_0_14]
    all_goals rfl
  rw [hk, hr, j120, j129, ha2, ha12, ha13, ha14]
  rfl

/-- Region 8's result array is the reference's stage-17 result: both are the dense layer of `aggM2A` of the earlier 100000-row array along the edge list `main_arg3`, of the earlier 200000-row array, and of slice 1 of the two weight stacks and of the bias stack (the bias as a one-row matrix). -/
theorem j_v195
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (ha12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (ha13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (ha14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (j120 : Cert.KernelIdeal.Gen.W16 m ρ c (Proc.devRef .tc Cert.KernelIdeal.main_v120)
      = Cert.ReferenceIdeal.Run.R13 (launchContents m' c) (Proc.devRef .tc Cert.ReferenceIdeal.main_v189))
    (j129 : Cert.KernelIdeal.Gen.W18 m ρ c (Proc.devRef .tc Cert.KernelIdeal.main_v129)
      = Cert.ReferenceIdeal.Run.R14 (launchContents m' c) (Proc.devRef .tc Cert.ReferenceIdeal.main_v190)) :
    Cert.KernelIdeal.Gen.W22 m ρ c (Proc.devRef .tc Cert.KernelIdeal.main_v195)
      = Cert.ReferenceIdeal.Run.R18 (launchContents m' c) (Proc.devRef .tc Cert.ReferenceIdeal.main_v278) := by
  have hsc : Cert.ReferenceIdeal.S128.ShapeCasts Cert.ReferenceIdeal.S1x128 := by decide
  -- the kernel side: the region's value at the contents it finds, read back to the launch memory
  have hk : Cert.KernelIdeal.Gen.W22 m ρ c (Proc.devRef .tc Cert.KernelIdeal.main_v195)
      = Cert.Spec.sage 200000
          (Cert.HostFns.aggM2A (Cert.KernelIdeal.Gen.W18 m ρ c (Proc.devRef .tc Cert.KernelIdeal.main_v129)) (m ((c.tc : Thread Cert.KernelIdeal.nD Cert.KernelIdeal.τ).loc Cert.KernelIdeal.main_arg3)))
          (Cert.KernelIdeal.Gen.W16 m ρ c (Proc.devRef .tc Cert.KernelIdeal.main_v120))
          (Cert.HostFns.sliceMat 1 (m ((c.tc : Thread Cert.KernelIdeal.nD Cert.KernelIdeal.τ).loc Cert.KernelIdeal.main_arg12)))
          (Cert.HostFns.rowReshape128 (Cert.HostFns.sliceVec 1 (m ((c.tc : Thread Cert.KernelIdeal.nD Cert.KernelIdeal.τ).loc Cert.KernelIdeal.main_arg13))))
          (Cert.HostFns.sliceMat 1 (m ((c.tc : Thread Cert.KernelIdeal.nD Cert.KernelIdeal.τ).loc Cert.KernelIdeal.main_arg14))) := by
    refine ((Cert.KernelIdeal.Gen.W22_arr m ρ c 5).trans (Cert.KernelIdeal.Gen.reg8_val (Cert.KernelIdeal.Gen.V21 m ρ) c)).trans ?_
    show Cert.Spec.sage 200000 (Cert.KernelIdeal.Gen.W21 m ρ c (Proc.devRef .tc Cert.KernelIdeal.main_v187)) (Cert.KernelIdeal.Gen.W21 m ρ c (Proc.devRef .tc Cert.KernelIdeal.main_v120))
        (Cert.KernelIdeal.Gen.W21 m ρ c (Proc.devRef .tc Cert.KernelIdeal.main_v189)) (Cert.KernelIdeal.Gen.W21 m ρ c (Proc.devRef .tc Cert.KernelIdeal.main_v194))
        (Cert.KernelIdeal.Gen.W21 m ρ c (Proc.devRef .tc Cert.KernelIdeal.main_v193)) = _
    rw [Cert.KernelIdeal.Gen.k_v187,
      Cert.KernelIdeal.Gen.k_keep_v120_20_21,
      Cert.KernelIdeal.Gen.k_v189,
      Cert.KernelIdeal.Gen.k_v194,
      Cert.KernelIdeal.Gen.k_v193,
      Cert.KernelIdeal.Carry.c_v129_18_20,
      Cert.KernelIdeal.Carry.c_v120_16_20,
      Cert.KernelIdeal.Carry.c_arg3_0_20,
      Cert.KernelIdeal.Carry.c_arg12_0_20,
      Cert.KernelIdeal.Carry.c_arg13_0_20,
      Cert.KernelIdeal.Carry.c_arg14_0_20]
    all_goals rfl
  -- the reference side: the dense stage's value at the contents before it, read back to the launch contents
  have hr : Cert.ReferenceIdeal.Run.R18 (launchContents m' c) (Proc.devRef .tc Cert.ReferenceIdeal.main_v278)
      = Cert.Spec.sage 200000
          (Cert.HostFns.aggM2A (Cert.ReferenceIdeal.Run.R14 (launchContents m' c) (Proc.devRef .tc Cert.ReferenceIdeal.main_v190)) (m' ((c.tc : Thread Cert.ReferenceIdeal.nD Cert.ReferenceIdeal.τ).loc Cert.ReferenceIdeal.main_arg3)))
          (Cert.ReferenceIdeal.Run.R13 (launchContents m' c) (Proc.devRef .tc Cert.ReferenceIdeal.main_v189))
          (Cert.HostFns.sliceMat 1 (m' ((c.tc : Thread Cert.ReferenceIdeal.nD Cert.ReferenceIdeal.τ).loc Cert.ReferenceIdeal.main_arg12)))
          (shapeCast Cert.ReferenceIdeal.S1x128 (Cert.HostFns.sliceVec 1 (m' ((c.tc : Thread Cert.ReferenceIdeal.nD Cert.ReferenceIdeal.τ).loc Cert.ReferenceIdeal.main_arg13))) hsc)
          (Cert.HostFns.sliceMat 1 (m' ((c.tc : Thread Cert.ReferenceIdeal.nD Cert.ReferenceIdeal.τ).loc Cert.ReferenceIdeal.main_arg14))) := by
    refine (seg17_v278 (Cert.ReferenceIdeal.Run.R17 (launchContents m' c)) hsc).trans ?_
    rw [Cert.ReferenceIdeal.Run.r_v265,
      Cert.ReferenceIdeal.Run.rc_v189_13_17,
      Cert.ReferenceIdeal.Run.r_v236,
      Cert.ReferenceIdeal.Run.r_v238,
      Cert.ReferenceIdeal.Run.r_v240,
      Cert.ReferenceIdeal.Run.rc_v190_14_16,
      Cert.ReferenceIdeal.Run.rc_arg3_0_16,
      Cert.ReferenceIdeal.Run.rc_arg12_0_16,
      Cert.ReferenceIdeal.Run.rc_arg13_0_16,
      Cert.ReferenceIdeal.Run.rc_arg14_0_16]
    all_goals rfl
  rw [hk, hr, j120, j129, ha3, ha12, ha13, ha14]
  rfl

/-- Region 9's result array is the reference's stage-19 result: both are the dense layer of `aggA2A` of the earlier 200000-row array along the edge list `main_arg4`, of that same array, and of slice 2 of the two weight stacks and of the bias stack (the bias as a one-row matrix). -/
theorem j_v228
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (ha12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12))
    (ha13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (ha14 : m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14))
    (j120 : Cert.KernelIdeal.Gen.W16 m ρ c (Proc.devRef .tc Cert.KernelIdeal.main_v120)
      = Cert.ReferenceIdeal.Run.R13 (launchContents m' c) (Proc.devRef .tc Cert.ReferenceIdeal.main_v189)) :
    Cert.KernelIdeal.Gen.W24 m ρ c (Proc.devRef .tc Cert.KernelIdeal.main_v228)
      = Cert.ReferenceIdeal.Run.R20 (launchContents m' c) (Proc.devRef .tc Cert.ReferenceIdeal.main_v322) := by
  have hsc : Cert.ReferenceIdeal.S128.ShapeCasts Cert.ReferenceIdeal.S1x128 := by decide
  -- the kernel side: the region's value at the contents it finds, read back to the launch memory
  have hk : Cert.KernelIdeal.Gen.W24 m ρ c (Proc.devRef .tc Cert.KernelIdeal.main_v228)
      = Cert.Spec.sage 200000
          (Cert.HostFns.aggA2A (Cert.KernelIdeal.Gen.W16 m ρ c (Proc.devRef .tc Cert.KernelIdeal.main_v120)) (m ((c.tc : Thread Cert.KernelIdeal.nD Cert.KernelIdeal.τ).loc Cert.KernelIdeal.main_arg4)))
          (Cert.KernelIdeal.Gen.W16 m ρ c (Proc.devRef .tc Cert.KernelIdeal.main_v120))
          (Cert.HostFns.sliceMat 2 (m ((c.tc : Thread Cert.KernelIdeal.nD Cert.KernelIdeal.τ).loc Cert.KernelIdeal.main_arg12)))
          (Cert.HostFns.rowReshape128 (Cert.HostFns.sliceVec 2 (m ((c.tc : Thread Cert.KernelIdeal.nD Cert.KernelIdeal.τ).loc Cert.KernelIdeal.main_arg13))))
          (Cert.HostFns.sliceMat 2 (m ((c.tc : Thread Cert.KernelIdeal.nD Cert.KernelIdeal.τ).loc Cert.KernelIdeal.main_arg14))) := by
    refine ((Cert.KernelIdeal.Gen.W24_arr m ρ c 5).trans (Cert.KernelIdeal.Gen.reg9_val (Cert.KernelIdeal.Gen.V23 m ρ) c)).trans ?_
    show Cert.Spec.sage 200000 (Cert.KernelIdeal.Gen.W23 m ρ c (Proc.devRef .tc Cert.KernelIdeal.main_v220)) (Cert.KernelIdeal.Gen.W23 m ρ c (Proc.devRef .tc Cert.KernelIdeal.main_v120))
        (Cert.KernelIdeal.Gen.W23 m ρ c (Proc.devRef .tc Cert.KernelIdeal.main_v222)) (Cert.KernelIdeal.Gen.W23 m ρ c (Proc.devRef .tc Cert.KernelIdeal.main_v227))
        (Cert.KernelIdeal.Gen.W23 m ρ c (Proc.devRef .tc Cert.KernelIdeal.main_v226)) = _
    rw [Cert.KernelIdeal.Gen.k_v220,
      Cert.KernelIdeal.Gen.k_keep_v120_22_23,
      Cert.KernelIdeal.Gen.k_v222,
      Cert.KernelIdeal.Gen.k_v227,
      Cert.KernelIdeal.Gen.k_v226,
      Cert.KernelIdeal.Carry.c_v120_16_22,
      Cert.KernelIdeal.Carry.c_arg4_0_22,
      Cert.KernelIdeal.Carry.c_arg12_0_22,
      Cert.KernelIdeal.Carry.c_arg13_0_22,
      Cert.KernelIdeal.Carry.c_arg14_0_22]
    all_goals rfl
  -- the reference side: the dense stage's value at the contents before it, read back to the launch contents
  have hr : Cert.ReferenceIdeal.Run.R20 (launchContents m' c) (Proc.devRef .tc Cert.ReferenceIdeal.main_v322)
      = Cert.Spec.sage 200000
          (Cert.HostFns.aggA2A (Cert.ReferenceIdeal.Run.R13 (launchContents m' c) (Proc.devRef .tc Cert.ReferenceIdeal.main_v189)) (m' ((c.tc : Thread Cert.ReferenceIdeal.nD Cert.ReferenceIdeal.τ).loc Cert.ReferenceIdeal.main_arg4)))
          (Cert.ReferenceIdeal.Run.R13 (launchContents m' c) (Proc.devRef .tc Cert.ReferenceIdeal.main_v189))
          (Cert.HostFns.sliceMat 2 (m' ((c.tc : Thread Cert.ReferenceIdeal.nD Cert.ReferenceIdeal.τ).loc Cert.ReferenceIdeal.main_arg12)))
          (shapeCast Cert.ReferenceIdeal.S1x128 (Cert.HostFns.sliceVec 2 (m' ((c.tc : Thread Cert.ReferenceIdeal.nD Cert.ReferenceIdeal.τ).loc Cert.ReferenceIdeal.main_arg13))) hsc)
          (Cert.HostFns.sliceMat 2 (m' ((c.tc : Thread Cert.ReferenceIdeal.nD Cert.ReferenceIdeal.τ).loc Cert.ReferenceIdeal.main_arg14))) := by
    refine (seg19_v322 (Cert.ReferenceIdeal.Run.R19 (launchContents m' c)) hsc).trans ?_
    rw [Cert.ReferenceIdeal.Run.r_v309,
      Cert.ReferenceIdeal.Run.rc_v189_13_19,
      Cert.ReferenceIdeal.Run.r_v280,
      Cert.ReferenceIdeal.Run.r_v282,
      Cert.ReferenceIdeal.Run.r_v284,
      Cert.ReferenceIdeal.Run.rc_v189_13_18,
      Cert.ReferenceIdeal.Run.rc_arg4_0_18,
      Cert.ReferenceIdeal.Run.rc_arg12_0_18,
      Cert.ReferenceIdeal.Run.rc_arg13_0_18,
      Cert.ReferenceIdeal.Run.rc_arg14_0_18]
    all_goals rfl
  rw [hk, hr, j120, ha4, ha12, ha13, ha14]
  rfl

end Cert.Join

end
-- ==== Proof.SpecBn.lean ====
/-
  Batch normalisation of a row-major array by per-column statistics, as one function of its arguments, index by index.

  For an array `x` of `n` rows and `d` columns and four rows `mu`, `var`, `g`, `b` of `d` columns (each carried as a
  `[1, d]` array), the normalised array at `(r, j)` is

      (x r j − mu j) · rsqrt (var j + ε) · g j + b j,

  where `ε` is the single-precision number nearest `1e-5`; with the rectifier it is the maximum of that and `0`. All
  arithmetic is the extended reals'. The product with the reciprocal square root is the quotient by the square root
  wherever the radicand is positive (real or `+∞`): `mul_rsqrt_eq_div_sqrt`. A variance is non-negative and `ε` is
  positive, so the radicand `var j + ε` is positive: `add_bnEps_pos`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Spec

/-- The stabiliser under the square root: the single-precision number nearest `1e-5`. -/
abbrev bnEps : EReal := Ideal.ofBits .f32 0x3727C5AC#32

/-- Batch normalisation at an index: the entry less its column's mean, times the reciprocal square root of the column's
    variance plus `ε`, times the column's scale, plus the column's shift. -/
def bn {n d : Nat} (x : (⟨2, ![n, d]⟩ : Shape).Idx → EReal) (mu var g b : (⟨2, ![1, d]⟩ : Shape).Idx → EReal) :
    (⟨2, ![n, d]⟩ : Shape).Idx → EReal :=
  fun i => (x i - mu (ix2 (0 : Fin 1) (i 1))) * Ideal.rsqrt (var (ix2 (0 : Fin 1) (i 1)) + bnEps)
    * g (ix2 (0 : Fin 1) (i 1)) + b (ix2 (0 : Fin 1) (i 1))

/-- Batch normalisation followed by the rectifier: the maximum of the normalised entry and `0`. -/
def bnRelu {n d : Nat} (x : (⟨2, ![n, d]⟩ : Shape).Idx → EReal) (mu var g b : (⟨2, ![1, d]⟩ : Shape).Idx → EReal) :
    (⟨2, ![n, d]⟩ : Shape).Idx → EReal :=
  fun i => max (bn x mu var g b i) 0

/-- `ε` is a positive real: `10995116 · 2⁻⁴⁰`. -/
theorem bnEps_eq : bnEps = ((10995116 * (2 : ℝ) ^ (-40 : ℤ) : ℝ) : EReal) := by
  simp [bnEps, Ideal.ofBits, Ideal.ieee, -EReal.coe_mul]

theorem bnEps_pos : 0 < bnEps := by
  rw [bnEps_eq]
  exact_mod_cast (by positivity : (0 : ℝ) < 10995116 * (2 : ℝ) ^ (-40 : ℤ))

/-- A non-negative variance plus `ε` is positive. -/
theorem add_bnEps_pos {v : EReal} (hv : 0 ≤ v) : 0 < v + bnEps :=
  lt_of_lt_of_le bnEps_pos (le_add_of_nonneg_left hv)

/-- For a positive radicand `w` — a positive real or `+∞` — the product with the reciprocal square root is the quotient by
    the square root. At a positive real both are `a · (√w)⁻¹`; at `+∞` both are `a · 0`. (It fails at `w ≤ 0`: there the
    reciprocal square root is `+∞` or undefined while the quotient divides by zero.) -/
theorem mul_rsqrt_eq_div_sqrt (a w : EReal) (hw : 0 < w) : a * Ideal.rsqrt w = Ideal.div a (Ideal.sqrt w) := by
  induction w using EReal.rec with
  | bot => exact absurd hw (not_lt_bot)
  | coe r =>
    have hr : 0 < r := by exact_mod_cast hw
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]
  | top =>
    rw [Ideal.rsqrt_top, Ideal.sqrt_top, mul_zero]
    unfold Ideal.div
    rw [if_neg EReal.top_ne_zero, EReal.inv_top, mul_zero]

end Cert.Spec

end
-- ==== Proof.BnK5.lean ====
/-
  Region 5: batch normalisation with the rectifier of a 200000 × 128 array, forty row blocks of 5000 rows.

  Each point of the grid loads one block of 5000 rows of the array and the four statistics rows (each a one-block window
  that every point reads whole), and stores into the same rows of the result

      max ((x − mu) · rsqrt (var + ε) · g + b, 0),

  the statistics rows repeated down the block. The blocks tile the result, so after the run the result array is that
  function of the array and the four rows at every index: `Cert.Spec.bnRelu`.
-/
import proofs.«143223_j29772713296000_1_alg».proof.Proof.Gen.KernelIdeal.Frame
import proofs.«143223_j29772713296000_1_alg».proof.Proof.SpecBn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The zero offsets of a whole-block access, as the constant function. -/
theorem bn5_off_zero : (![0, 0] : Fin 2 → Nat) = fun _ => 0 := funext fun a => by fin_cases a <;> rfl

/-- The body's arithmetic at row `p`, column `q` of a block: the block's entry less the mean row's entry `q`, times the
    reciprocal square root of the variance row's entry `q` plus `ε`, times the scale row's entry, plus the shift row's
    entry; then the maximum with `0`. The same-shape casts are the identity and a `[1, 128]` row repeated down the block
    reads its entry `q` at every row. -/
theorem bn5_pay_apply (x0 : Vec Ideal S5000x128 .f32) (x1 x2 x3 x4 : Vec Ideal S1x128 .f32) (p : Fin 5000) (q : Fin 128) :
    k5_pay1 (F := Ideal) x0 x1 x2 x3 x4 (ix2 p q)
      = max ((x0 (ix2 p q) - x1 (ix2 (0 : Fin 1) q)) * Ideal.rsqrt (x2 (ix2 (0 : Fin 1) q) + Cert.Spec.bnEps)
          * x3 (ix2 (0 : Fin 1) q) + x4 (ix2 (0 : Fin 1) q)) 0 := by
  unfold k5_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max (_ * Ideal.rsqrt (x2 (ix2 (0 : Fin 1) q) + Ideal.ofBits .f32 0x3727C5AC#32) * _ + _)
    (Ideal.ofBits .f32 0x00000000#32) = _
  rw [Ideal.ofBits_zero_f32]

/-- A block whose entries are the array's entries along a map `e` of indices that keeps the column, together with the
    four statistics rows themselves: the body's result at `y` is the normalised array at `e y`. -/
theorem bn5_pay_rows (X : S200000x128.Idx → EReal) (M Vr G B : S1x128.Idx → EReal)
    (x0 : Vec Ideal S5000x128 .f32) (x1 x2 x3 x4 : Vec Ideal S1x128 .f32)
    (e : S5000x128.Idx → S200000x128.Idx) (he : ∀ y, ((e y) 1).val = (y 1).val)
    (h0 : ∀ y, x0 y = X (e y)) (h1 : x1 = M) (h2 : x2 = Vr) (h3 : x3 = G) (h4 : x4 = B) (y : S5000x128.Idx) :
    k5_pay1 (F := Ideal) x0 x1 x2 x3 x4 y = Cert.Spec.bnRelu X M Vr G B (e y) := by
  subst h1 h2 h3 h4
  obtain ⟨p, q, rfl⟩ : ∃ (p : Fin 5000) (q : Fin 128), y = ix2 p q := ⟨y 0, y 1, eq_ix2 y⟩
  have hidx : (ix2 (0 : Fin 1) q : S1x128.Idx) = ix2 (0 : Fin 1) ((e (ix2 p q)) 1) := by
    funext a
    match a with
    | ⟨0, _⟩ => rfl
    | ⟨1, _⟩ => exact Fin.ext (he (ix2 p q)).symm
  rw [bn5_pay_apply, h0, hidx]
  rfl

variable (V : (c : Dev nD) → (b : Ref sig .tc) → Buf (Elt Ideal) ((c : Thread nD τ).loc b))

/-- The index maps over the grid: the array's window and the result's window are at the same row block, which is the
    point's number; every other block index is zero. -/
theorem bn5_idx : ∀ t : Fin cfg5.N,
    win5_0.index t (0 : Fin 2) = win5_5.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point `t` writes back is block `t` of the normalised array. -/
theorem bn5_flushed (c : Dev nD) (t : Fin cfg5.N) :
    (dat5 (F := Ideal) V c).flushed 5 t = ((cfg5.win 5).blk t).view.read (Elt Ideal)
      (Cert.Spec.bnRelu (V c main_v103) (V c main_v116) (V c main_v117) (V c main_v118) (V c main_v119)) := by
  show (cfg5.win 5).cut (grid5.coords t) ((dat5 (F := Ideal) V c).after 5 t) = _
  rw [after5_5]
  unfold out5_5
  rw [View.canon_unit_zero bn5_off_zero]
  simp only [View.ld_unit_zero (S := S5000x128) bn5_off_zero, View.ld_unit_zero (S := S1x128) bn5_off_zero]
  obtain ⟨a00, a01, a10, a11, a20, a21, a30, a31, a40, a41, a50, a51⟩ := bn5_idx t
  funext j
  refine (bn5_pay_rows (V c main_v103) (V c main_v116) (V c main_v117) (V c main_v118) (V c main_v119)
    (iblk5 V c 0 t) (iblk5 V c 1 t) (iblk5 V c 2 t) (iblk5 V c 3 t) (iblk5 V c 4 t)
    (fun y => ((cfg5.win 5).blk t).view.emb y) ?_ ?_ ?_ ?_ ?_ ?_ j).trans ?_
  · intro y
    show win5_5.index t (1 : Fin 2) * 128 + 1 * (y 1).val = (y 1).val
    omega
  · intro y
    show V c main_v103 (((cfg5.win 0).blk t).view.emb y) = V c main_v103 (((cfg5.win 5).blk t).view.emb y)
    refine congrArg (V c main_v103) (funext fun a => Fin.ext ?_)
    match a with
    | ⟨0, _⟩ =>
      show win5_0.index t (0 : Fin 2) * 5000 + 1 * (y 0).val = win5_5.index t (0 : Fin 2) * 5000 + 1 * (y 0).val
      omega
    | ⟨1, _⟩ =>
      show win5_0.index t (1 : Fin 2) * 128 + 1 * (y 1).val = win5_5.index t (1 : Fin 2) * 128 + 1 * (y 1).val
      omega
  · funext y
    show V c main_v116 (((cfg5.win 1).blk t).view.emb y) = V c main_v116 y
    refine congrArg (V c main_v116) (funext fun a => Fin.ext ?_)
    match a with
    | ⟨0, _⟩ => show win5_1.index t (0 : Fin 2) * 1 + 1 * (y 0).val = (y 0).val; omega
    | ⟨1, _⟩ => show win5_1.index t (1 : Fin 2) * 128 + 1 * (y 1).val = (y 1).val; omega
  · funext y
    show V c main_v117 (((cfg5.win 2).blk t).view.emb y) = V c main_v117 y
    refine congrArg (V c main_v117) (funext fun a => Fin.ext ?_)
    match a with
    | ⟨0, _⟩ => show win5_2.index t (0 : Fin 2) * 1 + 1 * (y 0).val = (y 0).val; omega
    | ⟨1, _⟩ => show win5_2.index t (1 : Fin 2) * 128 + 1 * (y 1).val = (y 1).val; omega
  · funext y
    show V c main_v118 (((cfg5.win 3).blk t).view.emb y) = V c main_v118 y
    refine congrArg (V c main_v118) (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  · funext y
    show V c main_v119 (((cfg5.win 4).blk t).view.emb y) = V c main_v119 y
    refine congrArg (V c main_v119) (funext fun a => Fin.ext ?_)
    match a with
    | ⟨0, _⟩ => show win5_4.index t (0 : Fin 2) * 1 + 1 * (y 0).val = (y 0).val; omega
    | ⟨1, _⟩ => show win5_4.index t (1 : Fin 2) * 128 + 1 * (y 1).val = (y 1).val; omega
  · rfl

/-- An index of the result is in point `t`'s block exactly when each coordinate is in the block's range on its axis. -/
theorem bn5_mem_blk (t : Fin cfg5.N) (i : S200000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v120).slice (win5_5.rect t)).set ↔ _
  rw [View.set_slice_whole, Rect.mem_set_unit]
  exact Iff.rfl

/-- Every index of the result is in some point's block: row `r` is in block `r / 5000`. -/
theorem bn5_cover (i : S200000x128.Idx) :
    ∃ t : Fin cfg5.N, (cfg5.win 5).flush t = true ∧ i ∈ ((cfg5.win 5).blk t).view.set := by
  have hN : cfg5.N = 40 := N_5
  have hi0 : (i 0).val < 200000 := (i 0).isLt
  have hi1 : (i 1).val < 128 := (i 1).isLt
  have ht : (i 0).val / 5000 < cfg5.N := by rw [hN]; omega
  obtain ⟨-, -, -, -, -, -, -, -, -, -, a50, a51⟩ := bn5_idx ⟨(i 0).val / 5000, ht⟩
  refine ⟨⟨(i 0).val / 5000, ht⟩, flush5_5 _, ?_⟩
  rw [bn5_mem_blk]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [a50]
    show (i 0).val / 5000 * 5000 ≤ (i 0).val ∧ (i 0).val < (i 0).val / 5000 * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [a51]
    omega

/-- After region 5 the result array is the batch normalisation with the rectifier of the array by the four rows, at the
    contents the region was entered with. -/
theorem reg5_val (c : Dev nD) :
    (dat5 (F := Ideal) V c).arrAt 5 cfg5.N
      = Cert.Spec.bnRelu (V c main_v103) (V c main_v116) (V c main_v117) (V c main_v118) (V c main_v119) :=
  (dat5 (F := Ideal) V c).arrAt_eq_of_cover 5 _ (fun t _ => bn5_flushed V c t) (fun i => bn5_cover i)

end Cert.KernelIdeal.Gen

end
-- ==== Proof.BnK6.lean ====
/-
  Region 6: batch normalisation with the rectifier of a 100000 × 128 array, twenty row blocks of 5000 rows.

  Each point of the grid loads one block of 5000 rows of the array and the four statistics rows (each a one-block window
  that every point reads whole), and stores into the same rows of the result

      max ((x − mu) · rsqrt (var + ε) · g + b, 0),

  the statistics rows repeated down the block. The blocks tile the result, so after the run the result array is that
  function of the array and the four rows at every index: `Cert.Spec.bnRelu`.
-/
import proofs.«143223_j29772713296000_1_alg».proof.Proof.Gen.KernelIdeal.Frame
import proofs.«143223_j29772713296000_1_alg».proof.Proof.SpecBn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The zero offsets of a whole-block access, as the constant function. -/
theorem bn6_off_zero : (![0, 0] : Fin 2 → Nat) = fun _ => 0 := funext fun a => by fin_cases a <;> rfl

/-- The body's arithmetic at row `p`, column `q` of a block: the block's entry less the mean row's entry `q`, times the
    reciprocal square root of the variance row's entry `q` plus `ε`, times the scale row's entry, plus the shift row's
    entry; then the maximum with `0`. The same-shape casts are the identity and a `[1, 128]` row repeated down the block
    reads its entry `q` at every row. -/
theorem bn6_pay_apply (x0 : Vec Ideal S5000x128 .f32) (x1 x2 x3 x4 : Vec Ideal S1x128 .f32) (p : Fin 5000) (q : Fin 128) :
    k6_pay1 (F := Ideal) x0 x1 x2 x3 x4 (ix2 p q)
      = max ((x0 (ix2 p q) - x1 (ix2 (0 : Fin 1) q)) * Ideal.rsqrt (x2 (ix2 (0 : Fin 1) q) + Cert.Spec.bnEps)
          * x3 (ix2 (0 : Fin 1) q) + x4 (ix2 (0 : Fin 1) q)) 0 := by
  unfold k6_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max (_ * Ideal.rsqrt (x2 (ix2 (0 : Fin 1) q) + Ideal.ofBits .f32 0x3727C5AC#32) * _ + _)
    (Ideal.ofBits .f32 0x00000000#32) = _
  rw [Ideal.ofBits_zero_f32]

/-- A block whose entries are the array's entries along a map `e` of indices that keeps the column, together with the
    four statistics rows themselves: the body's result at `y` is the normalised array at `e y`. -/
theorem bn6_pay_rows (X : S100000x128.Idx → EReal) (M Vr G B : S1x128.Idx → EReal)
    (x0 : Vec Ideal S5000x128 .f32) (x1 x2 x3 x4 : Vec Ideal S1x128 .f32)
    (e : S5000x128.Idx → S100000x128.Idx) (he : ∀ y, ((e y) 1).val = (y 1).val)
    (h0 : ∀ y, x0 y = X (e y)) (h1 : x1 = M) (h2 : x2 = Vr) (h3 : x3 = G) (h4 : x4 = B) (y : S5000x128.Idx) :
    k6_pay1 (F := Ideal) x0 x1 x2 x3 x4 y = Cert.Spec.bnRelu X M Vr G B (e y) := by
  subst h1 h2 h3 h4
  obtain ⟨p, q, rfl⟩ : ∃ (p : Fin 5000) (q : Fin 128), y = ix2 p q := ⟨y 0, y 1, eq_ix2 y⟩
  have hidx : (ix2 (0 : Fin 1) q : S1x128.Idx) = ix2 (0 : Fin 1) ((e (ix2 p q)) 1) := by
    funext a
    match a with
    | ⟨0, _⟩ => rfl
    | ⟨1, _⟩ => exact Fin.ext (he (ix2 p q)).symm
  rw [bn6_pay_apply, h0, hidx]
  rfl

variable (V : (c : Dev nD) → (b : Ref sig .tc) → Buf (Elt Ideal) ((c : Thread nD τ).loc b))

/-- The index maps over the grid: the array's window and the result's window are at the same row block, which is the
    point's number; every other block index is zero. -/
theorem bn6_idx : ∀ t : Fin cfg6.N,
    win6_0.index t (0 : Fin 2) = win6_5.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What point `t` writes back is block `t` of the normalised array. -/
theorem bn6_flushed (c : Dev nD) (t : Fin cfg6.N) :
    (dat6 (F := Ideal) V c).flushed 5 t = ((cfg6.win 5).blk t).view.read (Elt Ideal)
      (Cert.Spec.bnRelu (V c main_v36) (V c main_v125) (V c main_v126) (V c main_v127) (V c main_v128)) := by
  show (cfg6.win 5).cut (grid6.coords t) ((dat6 (F := Ideal) V c).after 5 t) = _
  rw [after6_5]
  unfold out6_5
  rw [View.canon_unit_zero bn6_off_zero]
  simp only [View.ld_unit_zero (S := S5000x128) bn6_off_zero, View.ld_unit_zero (S := S1x128) bn6_off_zero]
  obtain ⟨a00, a01, a10, a11, a20, a21, a30, a31, a40, a41, a50, a51⟩ := bn6_idx t
  funext j
  refine (bn6_pay_rows (V c main_v36) (V c main_v125) (V c main_v126) (V c main_v127) (V c main_v128)
    (iblk6 V c 0 t) (iblk6 V c 1 t) (iblk6 V c 2 t) (iblk6 V c 3 t) (iblk6 V c 4 t)
    (fun y => ((cfg6.win 5).blk t).view.emb y) ?_ ?_ ?_ ?_ ?_ ?_ j).trans ?_
  · intro y
    show win6_5.index t (1 : Fin 2) * 128 + 1 * (y 1).val = (y 1).val
    omega
  · intro y
    show V c main_v36 (((cfg6.win 0).blk t).view.emb y) = V c main_v36 (((cfg6.win 5).blk t).view.emb y)
    refine congrArg (V c main_v36) (funext fun a => Fin.ext ?_)
    match a with
    | ⟨0, _⟩ =>
      show win6_0.index t (0 : Fin 2) * 5000 + 1 * (y 0).val = win6_5.index t (0 : Fin 2) * 5000 + 1 * (y 0).val
      omega
    | ⟨1, _⟩ =>
      show win6_0.index t (1 : Fin 2) * 128 + 1 * (y 1).val = win6_5.index t (1 : Fin 2) * 128 + 1 * (y 1).val
      omega
  · funext y
    show V c main_v125 (((cfg6.win 1).blk t).view.emb y) = V c main_v125 y
    refine congrArg (V c main_v125) (funext fun a => Fin.ext ?_)
    match a with
    | ⟨0, _⟩ => show win6_1.index t (0 : Fin 2) * 1 + 1 * (y 0).val = (y 0).val; omega
    | ⟨1, _⟩ => show win6_1.index t (1 : Fin 2) * 128 + 1 * (y 1).val = (y 1).val; omega
  · funext y
    show V c main_v126 (((cfg6.win 2).blk t).view.emb y) = V c main_v126 y
    refine congrArg (V c main_v126) (funext fun a => Fin.ext ?_)
    match a with
    | ⟨0, _⟩ => show win6_2.index t (0 : Fin 2) * 1 + 1 * (y 0).val = (y 0).val; omega
    | ⟨1, _⟩ => show win6_2.index t (1 : Fin 2) * 128 + 1 * (y 1).val = (y 1).val; omega
  · funext y
    show V c main_v127 (((cfg6.win 3).blk t).view.emb y) = V c main_v127 y
    refine congrArg (V c main_v127) (funext fun a => Fin.ext ?_)
    match a with
    | ⟨0, _⟩ => show win6_3.index t (0 : Fin 2) * 1 + 1 * (y 0).val = (y 0).val; omega
    | ⟨1, _⟩ => show win6_3.index t (1 : Fin 2) * 128 + 1 * (y 1).val = (y 1).val; omega
  · funext y
    show V c main_v128 (((cfg6.win 4).blk t).view.emb y) = V c main_v128 y
    refine congrArg (V c main_v128) (funext fun a => Fin.ext ?_)
    match a with
    | ⟨0, _⟩ => show win6_4.index t (0 : Fin 2) * 1 + 1 * (y 0).val = (y 0).val; omega
    | ⟨1, _⟩ => show win6_4.index t (1 : Fin 2) * 128 + 1 * (y 1).val = (y 1).val; omega
  · rfl

/-- An index of the result is in point `t`'s block exactly when each coordinate is in the block's range on its axis. -/
theorem bn6_mem_blk (t : Fin cfg6.N) (i : S100000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v129).slice (win6_5.rect t)).set ↔ _
  rw [View.set_slice_whole, Rect.mem_set_unit]
  exact Iff.rfl

/-- Every index of the result is in some point's block: row `r` is in block `r / 5000`. -/
theorem bn6_cover (i : S100000x128.Idx) :
    ∃ t : Fin cfg6.N, (cfg6.win 5).flush t = true ∧ i ∈ ((cfg6.win 5).blk t).view.set := by
  have hN : cfg6.N = 20 := N_6
  have hi0 : (i 0).val < 100000 := (i 0).isLt
  have hi1 : (i 1).val < 128 := (i 1).isLt
  have ht : (i 0).val / 5000 < cfg6.N := by rw [hN]; omega
  obtain ⟨-, -, -, -, -, -, -, -, -, -, a50, a51⟩ := bn6_idx ⟨(i 0).val / 5000, ht⟩
  refine ⟨⟨(i 0).val / 5000, ht⟩, flush6_5 _, ?_⟩
  rw [bn6_mem_blk]
  intro a
  match a with
  | ⟨0, _⟩ =>
    show win6_5.index ⟨(i 0).val / 5000, ht⟩ (0 : Fin 2) * 5000 ≤ (i 0).val
      ∧ (i 0).val < win6_5.index ⟨(i 0).val / 5000, ht⟩ (0 : Fin 2) * 5000 + 5000
    rw [a50]
    show (i 0).val / 5000 * 5000 ≤ (i 0).val ∧ (i 0).val < (i 0).val / 5000 * 5000 + 5000
    omega
  | ⟨1, _⟩ =>
    show win6_5.index ⟨(i 0).val / 5000, ht⟩ (1 : Fin 2) * 128 ≤ (i 1).val
      ∧ (i 1).val < win6_5.index ⟨(i 0).val / 5000, ht⟩ (1 : Fin 2) * 128 + 128
    rw [a51]
    omega

/-- After region 6 the result array is the batch normalisation with the rectifier of the array by the four rows, at the
    contents the region was entered with. -/
theorem reg6_val (c : Dev nD) :
    (dat6 (F := Ideal) V c).arrAt 5 cfg6.N
      = Cert.Spec.bnRelu (V c main_v36) (V c main_v125) (V c main_v126) (V c main_v127) (V c main_v128) :=
  (dat6 (F := Ideal) V c).arrAt_eq_of_cover 5 _ (fun t _ => bn6_flushed V c t) (fun i => bn6_cover i)

end Cert.KernelIdeal.Gen

end
-- ==== Proof.BnR.lean ====
/-
  The reference's batch normalisation is the kernel's, wherever the variance is not negative.

  The reference subtracts the mean row from the array, adds `ε` to the variance row and takes its square root, divides
  by it, multiplies by the scale row and adds the shift row, each row repeated down the array (a `[d]` row made a
  `[1, d]` array and then an `[n, d]` array); then, in the first two layers, takes the maximum with `0`. At row `p`,
  column `q` that is

      (x p q − mu q) / √(var q + ε) · g q + b q.

  The kernel multiplies by the reciprocal square root instead. A variance is not negative and `ε` is positive, so the
  radicand is positive and the quotient by the square root is the product with the reciprocal square root
  (`Cert.Spec.mul_rsqrt_eq_div_sqrt`). The kernel carries each row as a `[1, d]` array, the reshape of the `[d]` row.
-/
import proofs.«143223_j29772713296000_1_alg».proof.ReferenceIdeal
import proofs.«143223_j29772713296000_1_alg».proof.Proof.SpecBn
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open Idealize.ShloMosaic Idealize.ShloMosaic.ValueIdx

namespace Cert.Spec

/-- A row of `d` entries, made a `[1, d]` array and then repeated down `n` rows, reads at `(p, q)` its entry `q`. -/
theorem bcast_row_apply {α : Type} {n d : Nat}
    (h1 : (⟨1, ![d]⟩ : Shape).BroadcastsInDim ⟨2, ![1, d]⟩ ![1])
    (h2 : (⟨2, ![1, d]⟩ : Shape).BroadcastsInDim ⟨2, ![n, d]⟩ ![0, 1])
    (v : (⟨1, ![d]⟩ : Shape).Idx → α) (p : Fin n) (q : Fin d) :
    broadcastInDim ⟨2, ![n, d]⟩ ![0, 1] h2 (broadcastInDim ⟨2, ![1, d]⟩ ![1] h1 v) (ix2 p q) = v (ix1 q) := by
  rw [broadcastInDim_apply ![0, 1] h2 _ (ix2 p q) (ix2 (0 : Fin 1) q) (fun a => by
    match a with
    | ⟨0, _⟩ => rfl
    | ⟨1, _⟩ =>
      show q.val = if d = 1 then 0 else q.val
      split
      · have := q.isLt; omega
      · rfl)]
  exact broadcastInDim_apply ![1] h1 v (ix2 (0 : Fin 1) q) (ix1 q) (fun a => by
    match a with
    | ⟨0, _⟩ =>
      show q.val = if d = 1 then 0 else q.val
      split
      · have := q.isLt; omega
      · rfl)

/-- The reference's composition, for any number of rows and columns, is `Cert.Spec.bn` of the array and the reshaped
    rows, given that no variance is negative. Both sides are read at row `p`, column `q`; the quotient by the square
    root becomes the product with the reciprocal square root at the positive radicand `var q + ε`. -/
theorem bn_ref {n d : Nat}
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨1, ![d]⟩ ![])
    (hsc : (⟨1, ![d]⟩ : Shape).ShapeCasts ⟨2, ![1, d]⟩)
    (x : FVec Ideal ⟨2, ![n, d]⟩ .f32) (mu var g b : FVec Ideal ⟨1, ![d]⟩ .f32) (hvar : ∀ j, 0 ≤ var j) :
    addf
        (mulf
          (Host.divf
            (subf x (broadcastInDim ⟨2, ![n, d]⟩ ![0, 1] h2 (broadcastInDim ⟨2, ![1, d]⟩ ![1] h1 mu)))
            (broadcastInDim ⟨2, ![n, d]⟩ ![0, 1] h2 (broadcastInDim ⟨2, ![1, d]⟩ ![1] h1
              (Host.sqrt (addf var (broadcastInDim ⟨1, ![d]⟩ ![] h0 (constant (F := Ideal) ⟨0, ![]⟩ .f32 0x3727C5AC#32)))))))
          (broadcastInDim ⟨2, ![n, d]⟩ ![0, 1] h2 (broadcastInDim ⟨2, ![1, d]⟩ ![1] h1 g)))
        (broadcastInDim ⟨2, ![n, d]⟩ ![0, 1] h2 (broadcastInDim ⟨2, ![1, d]⟩ ![1] h1 b))
    = Cert.Spec.bn x (shapeCast ⟨2, ![1, d]⟩ mu hsc) (shapeCast ⟨2, ![1, d]⟩ var hsc) (shapeCast ⟨2, ![1, d]⟩ g hsc) (shapeCast ⟨2, ![1, d]⟩ b hsc) := by
  funext i
  obtain ⟨p, q, rfl⟩ : ∃ (p : Fin n) (q : Fin d), i = ix2 p q := ⟨i 0, i 1, eq_ix2 i⟩
  rw [addf_apply, mulf_apply, hostDivf_apply, subf_apply,
    bcast_row_apply h1 h2, bcast_row_apply h1 h2, bcast_row_apply h1 h2, bcast_row_apply h1 h2]
  have hs : Host.sqrt (addf var (broadcastInDim ⟨1, ![d]⟩ ![] h0 (constant (F := Ideal) ⟨0, ![]⟩ .f32 0x3727C5AC#32))) (ix1 q)
      = Ideal.sqrt (var (ix1 q) + bnEps) := by
    show Ideal.sqrt (var (ix1 q)
      + broadcastInDim ⟨1, ![d]⟩ ![] h0 (constant (F := Ideal) ⟨0, ![]⟩ .f32 0x3727C5AC#32) (ix1 q)) = _
    rw [broadcastInDim_scalar_apply]
    rfl
  rw [hs, ← mul_rsqrt_eq_div_sqrt _ _ (add_bnEps_pos (hvar (ix1 q)))]
  show _ = (x (ix2 p q) - shapeCast ⟨2, ![1, d]⟩ mu hsc (ix2 (0 : Fin 1) q))
      * Ideal.rsqrt (shapeCast ⟨2, ![1, d]⟩ var hsc (ix2 (0 : Fin 1) q) + bnEps)
      * shapeCast ⟨2, ![1, d]⟩ g hsc (ix2 (0 : Fin 1) q) + shapeCast ⟨2, ![1, d]⟩ b hsc (ix2 (0 : Fin 1) q)
  rw [shapeCast_a_1a_apply, shapeCast_a_1a_apply, shapeCast_a_1a_apply, shapeCast_a_1a_apply]

/-- With the rectifier: the maximum with the zero splat is the maximum with `0`. -/
theorem bnRelu_ref {n d : Nat}
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨1, ![d]⟩ ![])
    (hz : (⟨0, ![]⟩ : Shape).BroadcastsInDim ⟨2, ![n, d]⟩ ![])
    (hsc : (⟨1, ![d]⟩ : Shape).ShapeCasts ⟨2, ![1, d]⟩)
    (x : FVec Ideal ⟨2, ![n, d]⟩ .f32) (mu var g b : FVec Ideal ⟨1, ![d]⟩ .f32) (hvar : ∀ j, 0 ≤ var j) :
    maximumf
      (addf
        (mulf
          (Host.divf
            (subf x (broadcastInDim ⟨2, ![n, d]⟩ ![0, 1] h2 (broadcastInDim ⟨2, ![1, d]⟩ ![1] h1 mu)))
            (broadcastInDim ⟨2, ![n, d]⟩ ![0, 1] h2 (broadcastInDim ⟨2, ![1, d]⟩ ![1] h1
              (Host.sqrt (addf var (broadcastInDim ⟨1, ![d]⟩ ![] h0 (constant (F := Ideal) ⟨0, ![]⟩ .f32 0x3727C5AC#32)))))))
          (broadcastInDim ⟨2, ![n, d]⟩ ![0, 1] h2 (broadcastInDim ⟨2, ![1, d]⟩ ![1] h1 g)))
        (broadcastInDim ⟨2, ![n, d]⟩ ![0, 1] h2 (broadcastInDim ⟨2, ![1, d]⟩ ![1] h1 b)))
      (broadcastInDim ⟨2, ![n, d]⟩ ![] hz (constant (F := Ideal) ⟨0, ![]⟩ .f32 0x00000000#32))
    = Cert.Spec.bnRelu x (shapeCast ⟨2, ![1, d]⟩ mu hsc) (shapeCast ⟨2, ![1, d]⟩ var hsc) (shapeCast ⟨2, ![1, d]⟩ g hsc) (shapeCast ⟨2, ![1, d]⟩ b hsc) := by
  rw [bn_ref h1 h2 h0 hsc x mu var g b hvar]
  funext i
  rw [maximumf_apply, broadcastInDim_scalar_apply]
  show max _ (Ideal.ofBits .f32 0x00000000#32) = max _ 0
  rw [Ideal.ofBits_zero_f32]

end Cert.Spec

namespace Cert.ReferenceIdeal.Dense

open Cert.ReferenceIdeal

variable [Cert.ReferenceIdeal.Facts]
open Cert.ReferenceIdeal.Facts₀ Cert.ReferenceIdeal.Facts

/-- The reference's batch normalisation with the rectifier of a 200000 × 128 array (the account side of the first two
    layers), in the reference's order of operations. -/
theorem bnRelu_200000x128 (hsc : S128.ShapeCasts S1x128) (x : FVec Ideal S200000x128 .f32)
    (mu var g b : FVec Ideal S128 .f32) (hvar : ∀ j, 0 ≤ var j) :
    maximumf
      (addf
        (mulf
          (Host.divf
            (subf x (broadcastInDim S200000x128 ![0, 1] bcast_S1x128_S200000x128_0_1 (broadcastInDim S1x128 ![1] bcast_S128_S1x128_1 mu)))
            (broadcastInDim S200000x128 ![0, 1] bcast_S1x128_S200000x128_0_1 (broadcastInDim S1x128 ![1] bcast_S128_S1x128_1
              (Host.sqrt (addf var (broadcastInDim S128 ![] bcast_S_S128 (constant (F := Ideal) S_ .f32 0x3727C5AC#32)))))))
          (broadcastInDim S200000x128 ![0, 1] bcast_S1x128_S200000x128_0_1 (broadcastInDim S1x128 ![1] bcast_S128_S1x128_1 g)))
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32))
    = Cert.Spec.bnRelu x (shapeCast S1x128 mu hsc) (shapeCast S1x128 var hsc) (shapeCast S1x128 g hsc) (shapeCast S1x128 b hsc) :=
  Cert.Spec.bnRelu_ref bcast_S128_S1x128_1 bcast_S1x128_S200000x128_0_1 bcast_S_S128 bcast_S_S200000x128 hsc x mu var g b hvar

/-- The same of a 100000 × 128 array (the merchant side of the first two layers). -/
theorem bnRelu_100000x128 (hsc : S128.ShapeCasts S1x128) (x : FVec Ideal S100000x128 .f32)
    (mu var g b : FVec Ideal S128 .f32) (hvar : ∀ j, 0 ≤ var j) :
    maximumf
      (addf
        (mulf
          (Host.divf
            (subf x (broadcastInDim S100000x128 ![0, 1] bcast_S1x128_S100000x128_0_1 (broadcastInDim S1x128 ![1] bcast_S128_S1x128_1 mu)))
            (broadcastInDim S100000x128 ![0, 1] bcast_S1x128_S100000x128_0_1 (broadcastInDim S1x128 ![1] bcast_S128_S1x128_1
              (Host.sqrt (addf var (broadcastInDim S128 ![] bcast_S_S128 (constant (F := Ideal) S_ .f32 0x3727C5AC#32)))))))
          (broadcastInDim S100000x128 ![0, 1] bcast_S1x128_S100000x128_0_1 (broadcastInDim S1x128 ![1] bcast_S128_S1x128_1 g)))
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = Cert.Spec.bnRelu x (shapeCast S1x128 mu hsc) (shapeCast S1x128 var hsc) (shapeCast S1x128 g hsc) (shapeCast S1x128 b hsc) :=
  Cert.Spec.bnRelu_ref bcast_S128_S1x128_1 bcast_S1x128_S100000x128_0_1 bcast_S_S128 bcast_S_S100000x128 hsc x mu var g b hvar

/-- The reference's batch normalisation, without the rectifier, of a 200000 × 64 array (the account side of the last
    layer). -/
theorem bn_200000x64 (hsc : S64.ShapeCasts S1x64) (x : FVec Ideal S200000x64 .f32)
    (mu var g b : FVec Ideal S64 .f32) (hvar : ∀ j, 0 ≤ var j) :
    addf
        (mulf
          (Host.divf
            (subf x (broadcastInDim S200000x64 ![0, 1] bcast_S1x64_S200000x64_0_1 (broadcastInDim S1x64 ![1] bcast_S64_S1x64_1 mu)))
            (broadcastInDim S200000x64 ![0, 1] bcast_S1x64_S200000x64_0_1 (broadcastInDim S1x64 ![1] bcast_S64_S1x64_1
              (Host.sqrt (addf var (broadcastInDim S64 ![] bcast_S_S64 (constant (F := Ideal) S_ .f32 0x3727C5AC#32)))))))
          (broadcastInDim S200000x64 ![0, 1] bcast_S1x64_S200000x64_0_1 (broadcastInDim S1x64 ![1] bcast_S64_S1x64_1 g)))
        (broadcastInDim S200000x64 ![0, 1] bcast_S1x64_S200000x64_0_1 (broadcastInDim S1x64 ![1] bcast_S64_S1x64_1 b))
    = Cert.Spec.bn x (shapeCast S1x64 mu hsc) (shapeCast S1x64 var hsc) (shapeCast S1x64 g hsc) (shapeCast S1x64 b hsc) :=
  Cert.Spec.bn_ref bcast_S64_S1x64_1 bcast_S1x64_S200000x64_0_1 bcast_S_S64 hsc x mu var g b hvar

end Cert.ReferenceIdeal.Dense

end
-- ==== Proof.HostStats.lean ====
import proofs.«143223_j29772713296000_1_alg».proof.Proof.Gen.KernelIdeal
import Idealize.ShloMosaic.PureOps.Ideal.Laws
import Idealize.ShloMosaic.Lib.IdealHost
import Idealize.ShloMosaic.Lib.ValueLayout

noncomputable section

namespace Cert.HostStats

open Idealize.ShloMosaic Cert.KernelIdeal Cert.KernelIdeal.Gen
open scoped BigOperators

/-! # The batch-norm statistics as functions of the normalized array

The column mean and the column variance of an `[n, d]` array, the `[d] → [1, d]` reshape and the rows of the
`[2, d]` scale and shift tables: each the composition of host functions that computes it, at any float instance. -/

section Fns

variable {F : FTy → Type} [FloatOps F]

/-- The column mean of a `[200000, 128]` array: each column's sum from zero, divided by the row count 200000. -/
def colMean200k128 (x : FVec F S200000x128 .f32) : FVec F S128 .f32 :=
  Host.divf (Host.reduceAdd x (constant S_ .f32 0x00000000#32) reducesTo_S200000x128_S128_d0 h_S_)
    (broadcastInDim S128 ![] bcast_S_S128 (constant S_ .f32 0x48435000#32))

/-- The column variance of a `[200000, 128]` array with no degrees of freedom removed: with `μ` the column mean
    laid over the rows and `N − 0` the divisor, `Σ (x − μ)·(x − μ) / (N − 0)` where `N − 0 > 0`, the NaN word otherwise. -/
def colVar200k128 (x : FVec F S200000x128 .f32) : FVec F S128 .f32 :=
  select
    (broadcastInDim S128 ![] bcast_S_S128
      (cmpf (F := F) .ogt (subf (constant S_ .f32 0x48435000#32) (sitofp .f32 (constantI S_ 32 0#32))) (constant S_ .f32 0x00000000#32)))
    (Host.divf
      (Host.reduceAdd
        (mulf
          (subf x (broadcastInDim S200000x128 ![0, 1] bcast_S1x128_S200000x128_0_1
            (Host.divf
              (broadcastInDim S1x128 ![1] bcast_S128_S1x128_1
                (Host.reduceAdd x (constant S_ .f32 0x00000000#32) reducesTo_S200000x128_S128_d0 h_S_))
              (broadcastInDim S1x128 ![] bcast_S_S1x128 (constant S_ .f32 0x48435000#32)))))
          (subf x (broadcastInDim S200000x128 ![0, 1] bcast_S1x128_S200000x128_0_1
            (Host.divf
              (broadcastInDim S1x128 ![1] bcast_S128_S1x128_1
                (Host.reduceAdd x (constant S_ .f32 0x00000000#32) reducesTo_S200000x128_S128_d0 h_S_))
              (broadcastInDim S1x128 ![] bcast_S_S1x128 (constant S_ .f32 0x48435000#32))))))
        (constant S_ .f32 0x00000000#32) reducesTo_S200000x128_S128_d0 h_S_)
      (broadcastInDim S128 ![] bcast_S_S128
        (subf (constant S_ .f32 0x48435000#32) (sitofp .f32 (constantI S_ 32 0#32)))))
    (broadcastInDim S128 ![] bcast_S_S128 (id (constant S_ .f32 0x7FC00000#32)))

/-- The column mean of a `[100000, 128]` array: each column's sum from zero, divided by the row count 100000. -/
def colMean100k128 (x : FVec F S100000x128 .f32) : FVec F S128 .f32 :=
  Host.divf (Host.reduceAdd x (constant S_ .f32 0x00000000#32) reducesTo_S100000x128_S128_d0 h_S_)
    (broadcastInDim S128 ![] bcast_S_S128 (constant S_ .f32 0x47C35000#32))

/-- The column variance of a `[100000, 128]` array with no degrees of freedom removed: with `μ` the column mean
    laid over the rows and `N − 0` the divisor, `Σ (x − μ)·(x − μ) / (N − 0)` where `N − 0 > 0`, the NaN word otherwise. -/
def colVar100k128 (x : FVec F S100000x128 .f32) : FVec F S128 .f32 :=
  select
    (broadcastInDim S128 ![] bcast_S_S128
      (cmpf (F := F) .ogt (subf (constant S_ .f32 0x47C35000#32) (sitofp .f32 (constantI S_ 32 0#32))) (constant S_ .f32 0x00000000#32)))
    (Host.divf
      (Host.reduceAdd
        (mulf
          (subf x (broadcastInDim S100000x128 ![0, 1] bcast_S1x128_S100000x128_0_1
            (Host.divf
              (broadcastInDim S1x128 ![1] bcast_S128_S1x128_1
                (Host.reduceAdd x (constant S_ .f32 0x00000000#32) reducesTo_S100000x128_S128_d0 h_S_))
              (broadcastInDim S1x128 ![] bcast_S_S1x128 (constant S_ .f32 0x47C35000#32)))))
          (subf x (broadcastInDim S100000x128 ![0, 1] bcast_S1x128_S100000x128_0_1
            (Host.divf
              (broadcastInDim S1x128 ![1] bcast_S128_S1x128_1
                (Host.reduceAdd x (constant S_ .f32 0x00000000#32) reducesTo_S100000x128_S128_d0 h_S_))
              (broadcastInDim S1x128 ![] bcast_S_S1x128 (constant S_ .f32 0x47C35000#32))))))
        (constant S_ .f32 0x00000000#32) reducesTo_S100000x128_S128_d0 h_S_)
      (broadcastInDim S128 ![] bcast_S_S128
        (subf (constant S_ .f32 0x47C35000#32) (sitofp .f32 (constantI S_ 32 0#32)))))
    (broadcastInDim S128 ![] bcast_S_S128 (id (constant S_ .f32 0x7FC00000#32)))

/-- The column mean of a `[200000, 64]` array: each column's sum from zero, divided by the row count 200000. -/
def colMean200k64 (x : FVec F S200000x64 .f32) : FVec F S64 .f32 :=
  Host.divf (Host.reduceAdd x (constant S_ .f32 0x00000000#32) reducesTo_S200000x64_S64_d0 h_S_)
    (broadcastInDim S64 ![] bcast_S_S64 (constant S_ .f32 0x48435000#32))

/-- The column variance of a `[200000, 64]` array with no degrees of freedom removed: with `μ` the column mean
    laid over the rows and `N − 0` the divisor, `Σ (x − μ)·(x − μ) / (N − 0)` where `N − 0 > 0`, the NaN word otherwise. -/
def colVar200k64 (x : FVec F S200000x64 .f32) : FVec F S64 .f32 :=
  select
    (broadcastInDim S64 ![] bcast_S_S64
      (cmpf (F := F) .ogt (subf (constant S_ .f32 0x48435000#32) (sitofp .f32 (constantI S_ 32 0#32))) (constant S_ .f32 0x00000000#32)))
    (Host.divf
      (Host.reduceAdd
        (mulf
          (subf x (broadcastInDim S200000x64 ![0, 1] bcast_S1x64_S200000x64_0_1
            (Host.divf
              (broadcastInDim S1x64 ![1] bcast_S64_S1x64_1
                (Host.reduceAdd x (constant S_ .f32 0x00000000#32) reducesTo_S200000x64_S64_d0 h_S_))
              (broadcastInDim S1x64 ![] bcast_S_S1x64 (constant S_ .f32 0x48435000#32)))))
          (subf x (broadcastInDim S200000x64 ![0, 1] bcast_S1x64_S200000x64_0_1
            (Host.divf
              (broadcastInDim S1x64 ![1] bcast_S64_S1x64_1
                (Host.reduceAdd x (constant S_ .f32 0x00000000#32) reducesTo_S200000x64_S64_d0 h_S_))
              (broadcastInDim S1x64 ![] bcast_S_S1x64 (constant S_ .f32 0x48435000#32))))))
        (constant S_ .f32 0x00000000#32) reducesTo_S200000x64_S64_d0 h_S_)
      (broadcastInDim S64 ![] bcast_S_S64
        (subf (constant S_ .f32 0x48435000#32) (sitofp .f32 (constantI S_ 32 0#32)))))
    (broadcastInDim S64 ![] bcast_S_S64 (id (constant S_ .f32 0x7FC00000#32)))

/-- The column mean of a `[100000, 64]` array: each column's sum from zero, divided by the row count 100000. -/
def colMean100k64 (x : FVec F S100000x64 .f32) : FVec F S64 .f32 :=
  Host.divf (Host.reduceAdd x (constant S_ .f32 0x00000000#32) reducesTo_S100000x64_S64_d0 h_S_)
    (broadcastInDim S64 ![] bcast_S_S64 (constant S_ .f32 0x47C35000#32))

/-- The column variance of a `[100000, 64]` array with no degrees of freedom removed: with `μ` the column mean
    laid over the rows and `N − 0` the divisor, `Σ (x − μ)·(x − μ) / (N − 0)` where `N − 0 > 0`, the NaN word otherwise. -/
def colVar100k64 (x : FVec F S100000x64 .f32) : FVec F S64 .f32 :=
  select
    (broadcastInDim S64 ![] bcast_S_S64
      (cmpf (F := F) .ogt (subf (constant S_ .f32 0x47C35000#32) (sitofp .f32 (constantI S_ 32 0#32))) (constant S_ .f32 0x00000000#32)))
    (Host.divf
      (Host.reduceAdd
        (mulf
          (subf x (broadcastInDim S100000x64 ![0, 1] bcast_S1x64_S100000x64_0_1
            (Host.divf
              (broadcastInDim S1x64 ![1] bcast_S64_S1x64_1
                (Host.reduceAdd x (constant S_ .f32 0x00000000#32) reducesTo_S100000x64_S64_d0 h_S_))
              (broadcastInDim S1x64 ![] bcast_S_S1x64 (constant S_ .f32 0x47C35000#32)))))
          (subf x (broadcastInDim S100000x64 ![0, 1] bcast_S1x64_S100000x64_0_1
            (Host.divf
              (broadcastInDim S1x64 ![1] bcast_S64_S1x64_1
                (Host.reduceAdd x (constant S_ .f32 0x00000000#32) reducesTo_S100000x64_S64_d0 h_S_))
              (broadcastInDim S1x64 ![] bcast_S_S1x64 (constant S_ .f32 0x47C35000#32))))))
        (constant S_ .f32 0x00000000#32) reducesTo_S100000x64_S64_d0 h_S_)
      (broadcastInDim S64 ![] bcast_S_S64
        (subf (constant S_ .f32 0x47C35000#32) (sitofp .f32 (constantI S_ 32 0#32)))))
    (broadcastInDim S64 ![] bcast_S_S64 (id (constant S_ .f32 0x7FC00000#32)))

/-- A `[128]` array as the one row of a `[1, 128]` array. -/
def rowReshape128 (v : FVec F S128 .f32) : FVec F S1x128 .f32 :=
  fun i => shapeCast S1x128 v shapeCasts_S128_S1x128 i

/-- Row 0 of a `[2, 128]` table, as a `[128]` array. -/
def slice2r0_128 (a : FVec F S2x128 .f32) : FVec F S128 .f32 :=
  fun i => shapeCast S128 (extractStridedSlice S1x128 ![0, 0] a slices_S2x128_S1x128_0_0) shapeCasts_S1x128_S128 i

/-- Row 1 of a `[2, 128]` table, as a `[128]` array. -/
def slice2r1_128 (a : FVec F S2x128 .f32) : FVec F S128 .f32 :=
  fun i => shapeCast S128 (extractStridedSlice S1x128 ![1, 0] a slices_S2x128_S1x128_1_0) shapeCasts_S1x128_S128 i

/-- The reshaped row read at `(u, i)` is the array at `i`. -/
theorem rowReshape128_apply (v : FVec F S128 .f32) (u : Fin 1) (i : Fin 128) :
    rowReshape128 v (ValueIdx.ix2 u i) = v (ValueIdx.ix1 i) :=
  ValueIdx.shapeCast_a_1a_apply v shapeCasts_S128_S1x128 u i

/-- Row 0 of the table read at `i` is the table at `(0, i)`. -/
theorem slice2r0_128_apply (a : FVec F S2x128 .f32) (i : Fin 128) :
    slice2r0_128 a (ValueIdx.ix1 i) = a (ValueIdx.ix2 (0 : Fin 2) i) := by
  unfold slice2r0_128
  rw [ValueIdx.shapeCast_1a_a_apply]
  exact ValueIdx.slice2_axis0_apply 0 a slices_S2x128_S1x128_0_0 (0 : Fin 1) i (0 : Fin 2) rfl

/-- Row 1 of the table read at `i` is the table at `(1, i)`. -/
theorem slice2r1_128_apply (a : FVec F S2x128 .f32) (i : Fin 128) :
    slice2r1_128 a (ValueIdx.ix1 i) = a (ValueIdx.ix2 (1 : Fin 2) i) := by
  unfold slice2r1_128
  rw [ValueIdx.shapeCast_1a_a_apply]
  exact ValueIdx.slice2_axis0_apply 1 a slices_S2x128_S1x128_1_0 (0 : Fin 1) i (1 : Fin 2) rfl

/-- A `[64]` array as the one row of a `[1, 64]` array. -/
def rowReshape64 (v : FVec F S64 .f32) : FVec F S1x64 .f32 :=
  fun i => shapeCast S1x64 v shapeCasts_S64_S1x64 i

/-- Row 0 of a `[2, 64]` table, as a `[64]` array. -/
def slice2r0_64 (a : FVec F S2x64 .f32) : FVec F S64 .f32 :=
  fun i => shapeCast S64 (extractStridedSlice S1x64 ![0, 0] a slices_S2x64_S1x64_0_0) shapeCasts_S1x64_S64 i

/-- Row 1 of a `[2, 64]` table, as a `[64]` array. -/
def slice2r1_64 (a : FVec F S2x64 .f32) : FVec F S64 .f32 :=
  fun i => shapeCast S64 (extractStridedSlice S1x64 ![1, 0] a slices_S2x64_S1x64_1_0) shapeCasts_S1x64_S64 i

/-- The reshaped row read at `(u, i)` is the array at `i`. -/
theorem rowReshape64_apply (v : FVec F S64 .f32) (u : Fin 1) (i : Fin 64) :
    rowReshape64 v (ValueIdx.ix2 u i) = v (ValueIdx.ix1 i) :=
  ValueIdx.shapeCast_a_1a_apply v shapeCasts_S64_S1x64 u i

/-- Row 0 of the table read at `i` is the table at `(0, i)`. -/
theorem slice2r0_64_apply (a : FVec F S2x64 .f32) (i : Fin 64) :
    slice2r0_64 a (ValueIdx.ix1 i) = a (ValueIdx.ix2 (0 : Fin 2) i) := by
  unfold slice2r0_64
  rw [ValueIdx.shapeCast_1a_a_apply]
  exact ValueIdx.slice2_axis0_apply 0 a slices_S2x64_S1x64_0_0 (0 : Fin 1) i (0 : Fin 2) rfl

/-- Row 1 of the table read at `i` is the table at `(1, i)`. -/
theorem slice2r1_64_apply (a : FVec F S2x64 .f32) (i : Fin 64) :
    slice2r1_64 a (ValueIdx.ix1 i) = a (ValueIdx.ix2 (1 : Fin 2) i) := by
  unfold slice2r1_64
  rw [ValueIdx.shapeCast_1a_a_apply]
  exact ValueIdx.slice2_axis0_apply 1 a slices_S2x64_S1x64_1_0 (0 : Fin 1) i (1 : Fin 2) rfl

end Fns

/-! # The variance is not negative

At the extended reals the divisor `N − 0` is the positive real `N`, so the compare is true and the value at a column
is a sum of squares, from zero, over a positive real. -/

/-- The f32 word `0x48435000` is the real 200000: exponent field 144, significand 2^23 + 4411392, so
    12800000 · 2^(-6). -/
theorem ofBits_200000 : Ideal.ofBits .f32 0x48435000#32 = ((200000 : ℝ) : EReal) := by
  simp [Ideal.ofBits, Ideal.ieee, -EReal.coe_mul]; norm_num

/-- The f32 word `0x47C35000` is the real 100000: the same significand one binade lower. -/
theorem ofBits_100000 : Ideal.ofBits .f32 0x47C35000#32 = ((100000 : ℝ) : EReal) := by
  simp [Ideal.ofBits, Ideal.ieee, -EReal.coe_mul]; norm_num

/-- A square of an extended real is not negative: at an infinity it is `⊤`, at a real the real square. -/
theorem mul_self_nonneg_ereal (y : EReal) : 0 ≤ y * y := by
  induction y using EReal.rec with
  | bot => simp
  | top => simp
  | coe r => rw [← EReal.coe_mul]; exact EReal.coe_nonneg.mpr (mul_self_nonneg r)

/-- A quantity that is not negative divided by a positive real is not negative. -/
theorem div_nonneg_of_pos_real {a : EReal} {r : ℝ} (ha : 0 ≤ a) (hr : 0 < r) : 0 ≤ Ideal.div a (r : EReal) := by
  unfold Ideal.div
  rw [if_neg (by exact_mod_cast hr.ne')]
  rw [← EReal.coe_inv]
  exact mul_nonneg ha (EReal.coe_nonneg.mpr (inv_nonneg.mpr hr.le))

/-- The variance chain, from the centred array `d` on, at any shapes: the select's predicate is the compare
    `N − 0 > 0`, true at a word `N` that denotes a positive real `r`, so the value at a column is
    `(0 + Σ d·d) / r` over the elements reducing to that column: a sum of squares over a positive real. -/
theorem colVar_core_nonneg {s t : Shape} {axes : List (Fin s.rank)} (hr : s.ReducesTo axes t)
    (hb : (⟨0, ![]⟩ : Shape).BroadcastsInDim t ![]) (hu : 0 < (⟨0, ![]⟩ : Shape).numel)
    (N : BitVec 32) (r : ℝ) (hN : Ideal.ofBits .f32 N = (r : EReal)) (hr0 : 0 < r)
    (d : FVec Ideal s .f32) (nan : FVec Ideal t .f32) (j : t.Idx) :
    0 ≤ select
          (broadcastInDim t ![] hb
            (cmpf .ogt (subf (constant (F := Ideal) ⟨0, ![]⟩ .f32 N) (sitofp .f32 (constantI ⟨0, ![]⟩ 32 0#32)))
              (constant (F := Ideal) ⟨0, ![]⟩ .f32 0x00000000#32)))
          (Host.divf (Host.reduceAdd (mulf d d) (constant (F := Ideal) ⟨0, ![]⟩ .f32 0x00000000#32) hr hu)
            (broadcastInDim t ![] hb
              (subf (constant (F := Ideal) ⟨0, ![]⟩ .f32 N) (sitofp .f32 (constantI ⟨0, ![]⟩ 32 0#32)))))
          nan j := by
  have hz : Ideal.ofBits .f32 0x00000000#32 = 0 := Ideal.ofBits_zero_f32
  have hnm : ∀ i, subf (constant (F := Ideal) ⟨0, ![]⟩ .f32 N) (sitofp .f32 (constantI ⟨0, ![]⟩ 32 0#32)) i = (r : EReal) := by
    intro i
    show Ideal.ofBits .f32 N - ((((0#32 : BitVec 32).toInt : ℤ) : ℝ) : EReal) = _
    rw [hN]; simp
  have hp : ∀ i, cmpf .ogt (subf (constant (F := Ideal) ⟨0, ![]⟩ .f32 N) (sitofp .f32 (constantI ⟨0, ![]⟩ 32 0#32)))
      (constant (F := Ideal) ⟨0, ![]⟩ .f32 0x00000000#32) i = 1#1 := by
    intro i
    show Ideal.cmp .ogt (subf (constant (F := Ideal) ⟨0, ![]⟩ .f32 N) (sitofp .f32 (constantI ⟨0, ![]⟩ 32 0#32)) i)
      (Ideal.ofBits .f32 0x00000000#32) = 1#1
    rw [hnm, hz]
    have : (0 : EReal) < (r : EReal) := by exact_mod_cast hr0
    simp [Ideal.cmp, this]
  show 0 ≤ Scalar.select (broadcastInDim (s := ⟨0, ![]⟩) t ![] hb _ j) (Host.divf _ _ j) (nan j)
  rw [ValueIdx.broadcastInDim_scalar_apply, hp]
  unfold Scalar.select
  rw [if_pos (show (1#1 : BitVec 1) = 1 from rfl), ValueIdx.hostDivf_apply, ValueIdx.broadcastInDim_scalar_apply, hnm, ValueIdx.hostReduceAdd_apply]
  refine div_nonneg_of_pos_real ?_ hr0
  show 0 ≤ Ideal.ofBits .f32 0x00000000#32 + _
  rw [hz, zero_add]
  exact Finset.sum_nonneg fun i _ => mul_self_nonneg_ereal _

/-- The column variance of a `[200000, 128]` array is not negative at any column. -/
theorem colVar200k128_nonneg (x : FVec Ideal S200000x128 .f32) (j : S128.Idx) : 0 ≤ colVar200k128 x j :=
  colVar_core_nonneg reducesTo_S200000x128_S128_d0 bcast_S_S128 h_S_ 0x48435000#32 200000 ofBits_200000 (by norm_num) _ _ j

/-- The column variance of a `[100000, 128]` array is not negative at any column. -/
theorem colVar100k128_nonneg (x : FVec Ideal S100000x128 .f32) (j : S128.Idx) : 0 ≤ colVar100k128 x j :=
  colVar_core_nonneg reducesTo_S100000x128_S128_d0 bcast_S_S128 h_S_ 0x47C35000#32 100000 ofBits_100000 (by norm_num) _ _ j

/-- The column variance of a `[200000, 64]` array is not negative at any column. -/
theorem colVar200k64_nonneg (x : FVec Ideal S200000x64 .f32) (j : S64.Idx) : 0 ≤ colVar200k64 x j :=
  colVar_core_nonneg reducesTo_S200000x64_S64_d0 bcast_S_S64 h_S_ 0x48435000#32 200000 ofBits_200000 (by norm_num) _ _ j

/-- The column variance of a `[100000, 64]` array is not negative at any column. -/
theorem colVar100k64_nonneg (x : FVec Ideal S100000x64 .f32) (j : S64.Idx) : 0 ≤ colVar100k64 x j :=
  colVar_core_nonneg reducesTo_S100000x64_S64_d0 bcast_S_S64 h_S_ 0x47C35000#32 100000 ofBits_100000 (by norm_num) _ _ j

/-- The reshaped row of an array that is nowhere negative is nowhere negative: it reads the array. -/
theorem rowReshape128_nonneg (v : FVec Ideal S128 .f32) (h : ∀ j, 0 ≤ v j) (i : S1x128.Idx) : 0 ≤ rowReshape128 v i :=
  h _

/-- The reshaped row of an array that is nowhere negative is nowhere negative: it reads the array. -/
theorem rowReshape64_nonneg (v : FVec Ideal S64 .f32) (h : ∀ j, 0 ≤ v j) (i : S1x64.Idx) : 0 ≤ rowReshape64 v i :=
  h _

end Cert.HostStats
-- ==== Proof.KStats0.lean ====
import proofs.«143223_j29772713296000_1_alg».proof.Proof.Gen.KernelIdeal.Frame
import proofs.«143223_j29772713296000_1_alg».proof.Proof.HostStats
import Idealize.ShloMosaic.Lib.StableHlo.Run

noncomputable section

namespace Cert.KernelIdeal.Gen

open Idealize.ShloMosaic Idealize.ShloMosaic.TcCoe Idealize.ShloMosaic.StableHlo
open Idealize.SL.Sem
open Cert.HostStats

variable {F : FTy → Type} [FloatOps F]

/-! # The statistics stretches before a batch norm's two regions

Between the last sage region's exit and the account-side batch norm's entry the host adds the two account-side outputs,
takes the column mean and variance of the sum and of the merchant-side output, and reshapes them and row 0 of the scale
and shift tables to one row; before the merchant-side batch norm it reshapes the merchant-side statistics and row 1 of
the tables. Each buffer below is read off the fold of those operations from arbitrary contents `V`. -/

section Stretch

variable (V : Valuation τ sig (Elt F))

theorem s5_v103 : StableHlo.after hostOps5_4 (StableHlo.after hostOps5_3 (StableHlo.after hostOps5_2 (StableHlo.after hostOps5_1 (StableHlo.after hostOps5 V)))) (Proc.devRef .tc main_v103) = addf (V (Proc.devRef .tc main_v69)) (V (Proc.devRef .tc main_v102)) := by
  dsimp only [hostOps5, hostOps5_1, hostOps5_2, hostOps5_3, hostOps5_4]
  after_results_simp <;> (try simp only [TRef.ofBuf, TRef.toBuf, cast_eq]) <;> rfl

theorem s5_v116 : StableHlo.after hostOps5_4 (StableHlo.after hostOps5_3 (StableHlo.after hostOps5_2 (StableHlo.after hostOps5_1 (StableHlo.after hostOps5 V)))) (Proc.devRef .tc main_v116) = rowReshape128 (colMean200k128 (addf (V (Proc.devRef .tc main_v69)) (V (Proc.devRef .tc main_v102)))) := by
  dsimp only [hostOps5, hostOps5_1, hostOps5_2, hostOps5_3, hostOps5_4]
  after_results_simp <;> (try simp only [TRef.ofBuf, TRef.toBuf, cast_eq]) <;> rfl

theorem s5_v117 : StableHlo.after hostOps5_4 (StableHlo.after hostOps5_3 (StableHlo.after hostOps5_2 (StableHlo.after hostOps5_1 (StableHlo.after hostOps5 V)))) (Proc.devRef .tc main_v117) = rowReshape128 (colVar200k128 (addf (V (Proc.devRef .tc main_v69)) (V (Proc.devRef .tc main_v102)))) := by
  dsimp only [hostOps5, hostOps5_1, hostOps5_2, hostOps5_3, hostOps5_4]
  after_results_simp <;> (try simp only [TRef.ofBuf, TRef.toBuf, cast_eq]) <;> rfl

theorem s5_v118 : StableHlo.after hostOps5_4 (StableHlo.after hostOps5_3 (StableHlo.after hostOps5_2 (StableHlo.after hostOps5_1 (StableHlo.after hostOps5 V)))) (Proc.devRef .tc main_v118) = rowReshape128 (slice2r0_128 (V (Proc.devRef .tc main_arg18))) := by
  dsimp only [hostOps5, hostOps5_1, hostOps5_2, hostOps5_3, hostOps5_4]
  after_results_simp <;> (try simp only [TRef.ofBuf, TRef.toBuf, cast_eq]) <;> rfl

theorem s5_v119 : StableHlo.after hostOps5_4 (StableHlo.after hostOps5_3 (StableHlo.after hostOps5_2 (StableHlo.after hostOps5_1 (StableHlo.after hostOps5 V)))) (Proc.devRef .tc main_v119) = rowReshape128 (slice2r0_128 (V (Proc.devRef .tc main_arg19))) := by
  dsimp only [hostOps5, hostOps5_1, hostOps5_2, hostOps5_3, hostOps5_4]
  after_results_simp <;> (try simp only [TRef.ofBuf, TRef.toBuf, cast_eq]) <;> rfl

theorem s5_v110 : StableHlo.after hostOps5_4 (StableHlo.after hostOps5_3 (StableHlo.after hostOps5_2 (StableHlo.after hostOps5_1 (StableHlo.after hostOps5 V)))) (Proc.devRef .tc main_v110) = colMean100k128 (V (Proc.devRef .tc main_v36)) := by
  dsimp only [hostOps5, hostOps5_1, hostOps5_2, hostOps5_3, hostOps5_4]
  after_results_simp <;> (try simp only [TRef.ofBuf, TRef.toBuf, cast_eq]) <;> rfl

theorem s5_v111 : StableHlo.after hostOps5_4 (StableHlo.after hostOps5_3 (StableHlo.after hostOps5_2 (StableHlo.after hostOps5_1 (StableHlo.after hostOps5 V)))) (Proc.devRef .tc main_v111) = colVar100k128 (V (Proc.devRef .tc main_v36)) := by
  dsimp only [hostOps5, hostOps5_1, hostOps5_2, hostOps5_3, hostOps5_4]
  after_results_simp <;> (try simp only [TRef.ofBuf, TRef.toBuf, cast_eq]) <;> rfl

theorem s5_arg18 : StableHlo.after hostOps5_4 (StableHlo.after hostOps5_3 (StableHlo.after hostOps5_2 (StableHlo.after hostOps5_1 (StableHlo.after hostOps5 V)))) (Proc.devRef .tc main_arg18) = V (Proc.devRef .tc main_arg18) := by
  dsimp only [hostOps5, hostOps5_1, hostOps5_2, hostOps5_3, hostOps5_4]
  after_results_simp <;> (try simp only [TRef.ofBuf, TRef.toBuf, cast_eq]) <;> rfl

theorem s5_arg19 : StableHlo.after hostOps5_4 (StableHlo.after hostOps5_3 (StableHlo.after hostOps5_2 (StableHlo.after hostOps5_1 (StableHlo.after hostOps5 V)))) (Proc.devRef .tc main_arg19) = V (Proc.devRef .tc main_arg19) := by
  dsimp only [hostOps5, hostOps5_1, hostOps5_2, hostOps5_3, hostOps5_4]
  after_results_simp <;> (try simp only [TRef.ofBuf, TRef.toBuf, cast_eq]) <;> rfl

theorem s6_v125 : StableHlo.after hostOps6 V (Proc.devRef .tc main_v125) = rowReshape128 (V (Proc.devRef .tc main_v110)) := by
  dsimp only [hostOps6]
  after_results_simp <;> (try simp only [TRef.ofBuf, TRef.toBuf, cast_eq]) <;> rfl

theorem s6_v126 : StableHlo.after hostOps6 V (Proc.devRef .tc main_v126) = rowReshape128 (V (Proc.devRef .tc main_v111)) := by
  dsimp only [hostOps6]
  after_results_simp <;> (try simp only [TRef.ofBuf, TRef.toBuf, cast_eq]) <;> rfl

theorem s6_v127 : StableHlo.after hostOps6 V (Proc.devRef .tc main_v127) = rowReshape128 (slice2r1_128 (V (Proc.devRef .tc main_arg18))) := by
  dsimp only [hostOps6]
  after_results_simp <;> (try simp only [TRef.ofBuf, TRef.toBuf, cast_eq]) <;> rfl

theorem s6_v128 : StableHlo.after hostOps6 V (Proc.devRef .tc main_v128) = rowReshape128 (slice2r1_128 (V (Proc.devRef .tc main_arg19))) := by
  dsimp only [hostOps6]
  after_results_simp <;> (try simp only [TRef.ofBuf, TRef.toBuf, cast_eq]) <;> rfl

end Stretch

/-! ## At the run's boundaries

The account-side batch norm's entry contents read from the preceding region's exit contents; the merchant-side one's
likewise, the account-side region writing none of the buffers read. -/

section Run

variable (m : (ℓ : Loc nD τ sig) → Buf (Elt F) ℓ) (ρ : Dev nD → PrngReg)

theorem k_v103 (c : Dev nD) : W15 m ρ c (Proc.devRef .tc main_v103) = addf (W10 m ρ c (Proc.devRef .tc main_v69)) (W10 m ρ c (Proc.devRef .tc main_v102)) :=
  s5_v103 (W10 m ρ c)

theorem k_v116 (c : Dev nD) : W15 m ρ c (Proc.devRef .tc main_v116) = rowReshape128 (colMean200k128 (addf (W10 m ρ c (Proc.devRef .tc main_v69)) (W10 m ρ c (Proc.devRef .tc main_v102)))) :=
  s5_v116 (W10 m ρ c)

theorem k_v117 (c : Dev nD) : W15 m ρ c (Proc.devRef .tc main_v117) = rowReshape128 (colVar200k128 (addf (W10 m ρ c (Proc.devRef .tc main_v69)) (W10 m ρ c (Proc.devRef .tc main_v102)))) :=
  s5_v117 (W10 m ρ c)

theorem k_v118 (c : Dev nD) : W15 m ρ c (Proc.devRef .tc main_v118) = rowReshape128 (slice2r0_128 (W10 m ρ c (Proc.devRef .tc main_arg18))) :=
  s5_v118 (W10 m ρ c)

theorem k_v119 (c : Dev nD) : W15 m ρ c (Proc.devRef .tc main_v119) = rowReshape128 (slice2r0_128 (W10 m ρ c (Proc.devRef .tc main_arg19))) :=
  s5_v119 (W10 m ρ c)

theorem k_v125 (c : Dev nD) : W17 m ρ c (Proc.devRef .tc main_v125) = rowReshape128 (colMean100k128 (W10 m ρ c (Proc.devRef .tc main_v36))) :=
  calc W17 m ρ c (Proc.devRef .tc main_v125)
    _ = rowReshape128 (W16 m ρ c (Proc.devRef .tc main_v110)) := s6_v125 (W16 m ρ c)
    _ = rowReshape128 (W15 m ρ c (Proc.devRef .tc main_v110)) := by rw [W16_of_ne m ρ c main_v110 (by decide)]
    _ = _ := congrArg rowReshape128 (s5_v110 (W10 m ρ c))

theorem k_v126 (c : Dev nD) : W17 m ρ c (Proc.devRef .tc main_v126) = rowReshape128 (colVar100k128 (W10 m ρ c (Proc.devRef .tc main_v36))) :=
  calc W17 m ρ c (Proc.devRef .tc main_v126)
    _ = rowReshape128 (W16 m ρ c (Proc.devRef .tc main_v111)) := s6_v126 (W16 m ρ c)
    _ = rowReshape128 (W15 m ρ c (Proc.devRef .tc main_v111)) := by rw [W16_of_ne m ρ c main_v111 (by decide)]
    _ = _ := congrArg rowReshape128 (s5_v111 (W10 m ρ c))

theorem k_v127 (c : Dev nD) : W17 m ρ c (Proc.devRef .tc main_v127) = rowReshape128 (slice2r1_128 (W10 m ρ c (Proc.devRef .tc main_arg18))) :=
  calc W17 m ρ c (Proc.devRef .tc main_v127)
    _ = rowReshape128 (slice2r1_128 (W16 m ρ c (Proc.devRef .tc main_arg18))) := s6_v127 (W16 m ρ c)
    _ = rowReshape128 (slice2r1_128 (W15 m ρ c (Proc.devRef .tc main_arg18))) := by rw [W16_of_ne m ρ c main_arg18 (by decide)]
    _ = _ := congrArg (fun a => rowReshape128 (slice2r1_128 a)) (s5_arg18 (W10 m ρ c))

theorem k_v128 (c : Dev nD) : W17 m ρ c (Proc.devRef .tc main_v128) = rowReshape128 (slice2r1_128 (W10 m ρ c (Proc.devRef .tc main_arg19))) :=
  calc W17 m ρ c (Proc.devRef .tc main_v128)
    _ = rowReshape128 (slice2r1_128 (W16 m ρ c (Proc.devRef .tc main_arg19))) := s6_v128 (W16 m ρ c)
    _ = rowReshape128 (slice2r1_128 (W15 m ρ c (Proc.devRef .tc main_arg19))) := by rw [W16_of_ne m ρ c main_arg19 (by decide)]
    _ = _ := congrArg (fun a => rowReshape128 (slice2r1_128 a)) (s5_arg19 (W10 m ρ c))

end Run

end Cert.KernelIdeal.Gen
-- ==== Proof.RStats0.lean ====
import proofs.«143223_j29772713296000_1_alg».proof.Proof.RefOps
import proofs.«143223_j29772713296000_1_alg».proof.Proof.HostStats
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo
open Cert.HostStats

variable {F : FTy → Type} [FloatOps F]

/-! # The reference's statistics stages

The stage before each batch norm adds the two account-side outputs (the account side only), takes row 0 or row 1 of
the scale and shift tables and the column mean and variance of the normalized array: the same host functions, in the
same order, as the kernel side's stretches, so each buffer is the same named function of the stage's inputs. -/

section Stage8

variable (V : Valuation τ sig (Elt F))

theorem sg8_v142 : StableHlo.after seg8 V (Proc.devRef .tc main_v142) = addf (V (Proc.devRef .tc main_v97)) (V (Proc.devRef .tc main_v141)) := by
  dsimp only [seg8]
  after_results_simp <;> (try simp only [TRef.ofBuf, TRef.toBuf, cast_eq]) <;> rfl

theorem sg8_v149 : StableHlo.after seg8 V (Proc.devRef .tc main_v149) = colMean200k128 (addf (V (Proc.devRef .tc main_v97)) (V (Proc.devRef .tc main_v141))) := by
  dsimp only [seg8]
  after_results_simp <;> (try simp only [TRef.ofBuf, TRef.toBuf, cast_eq]) <;> rfl

theorem sg8_v150 : StableHlo.after seg8 V (Proc.devRef .tc main_v150) = colVar200k128 (addf (V (Proc.devRef .tc main_v97)) (V (Proc.devRef .tc main_v141))) := by
  dsimp only [seg8]
  after_results_simp <;> (try simp only [TRef.ofBuf, TRef.toBuf, cast_eq]) <;> rfl

theorem sg8_v144 : StableHlo.after seg8 V (Proc.devRef .tc main_v144) = slice2r0_128 (V (Proc.devRef .tc main_arg18)) := by
  dsimp only [seg8]
  after_results_simp <;> (try simp only [TRef.ofBuf, TRef.toBuf, cast_eq]) <;> rfl

theorem sg8_v146 : StableHlo.after seg8 V (Proc.devRef .tc main_v146) = slice2r0_128 (V (Proc.devRef .tc main_arg19)) := by
  dsimp only [seg8]
  after_results_simp <;> (try simp only [TRef.ofBuf, TRef.toBuf, cast_eq]) <;> rfl

theorem sg10_v172 : StableHlo.after seg10 V (Proc.devRef .tc main_v172) = colMean100k128 (V (Proc.devRef .tc main_v53)) := by
  dsimp only [seg10]
  after_results_simp <;> (try simp only [TRef.ofBuf, TRef.toBuf, cast_eq]) <;> rfl

theorem sg10_v173 : StableHlo.after seg10 V (Proc.devRef .tc main_v173) = colVar100k128 (V (Proc.devRef .tc main_v53)) := by
  dsimp only [seg10]
  after_results_simp <;> (try simp only [TRef.ofBuf, TRef.toBuf, cast_eq]) <;> rfl

theorem sg10_v167 : StableHlo.after seg10 V (Proc.devRef .tc main_v167) = slice2r1_128 (V (Proc.devRef .tc main_arg18)) := by
  dsimp only [seg10]
  after_results_simp <;> (try simp only [TRef.ofBuf, TRef.toBuf, cast_eq]) <;> rfl

theorem sg10_v169 : StableHlo.after seg10 V (Proc.devRef .tc main_v169) = slice2r1_128 (V (Proc.devRef .tc main_arg19)) := by
  dsimp only [seg10]
  after_results_simp <;> (try simp only [TRef.ofBuf, TRef.toBuf, cast_eq]) <;> rfl

theorem r_v142 : R9 V (Proc.devRef .tc main_v142) = addf (R8 V (Proc.devRef .tc main_v97)) (R8 V (Proc.devRef .tc main_v141)) := sg8_v142 (R8 V)
theorem r_v149 : R9 V (Proc.devRef .tc main_v149) = colMean200k128 (addf (R8 V (Proc.devRef .tc main_v97)) (R8 V (Proc.devRef .tc main_v141))) := sg8_v149 (R8 V)
theorem r_v150 : R9 V (Proc.devRef .tc main_v150) = colVar200k128 (addf (R8 V (Proc.devRef .tc main_v97)) (R8 V (Proc.devRef .tc main_v141))) := sg8_v150 (R8 V)
theorem r_v144 : R9 V (Proc.devRef .tc main_v144) = slice2r0_128 (R8 V (Proc.devRef .tc main_arg18)) := sg8_v144 (R8 V)
theorem r_v146 : R9 V (Proc.devRef .tc main_v146) = slice2r0_128 (R8 V (Proc.devRef .tc main_arg19)) := sg8_v146 (R8 V)
theorem r_v172 : R11 V (Proc.devRef .tc main_v172) = colMean100k128 (R10 V (Proc.devRef .tc main_v53)) := sg10_v172 (R10 V)
theorem r_v173 : R11 V (Proc.devRef .tc main_v173) = colVar100k128 (R10 V (Proc.devRef .tc main_v53)) := sg10_v173 (R10 V)
theorem r_v167 : R11 V (Proc.devRef .tc main_v167) = slice2r1_128 (R10 V (Proc.devRef .tc main_arg18)) := sg10_v167 (R10 V)
theorem r_v169 : R11 V (Proc.devRef .tc main_v169) = slice2r1_128 (R10 V (Proc.devRef .tc main_arg19)) := sg10_v169 (R10 V)

end Stage8

end Cert.ReferenceIdeal.Run
-- ==== Proof.JoinBn0.lean ====
import proofs.«143223_j29772713296000_1_alg».proof.Proof.BnK5
import proofs.«143223_j29772713296000_1_alg».proof.Proof.BnK6
import proofs.«143223_j29772713296000_1_alg».proof.Proof.BnR
import proofs.«143223_j29772713296000_1_alg».proof.Proof.KStats0
import proofs.«143223_j29772713296000_1_alg».proof.Proof.RStats0
import proofs.«143223_j29772713296000_1_alg».proof.Proof.KCarry
import proofs.«143223_j29772713296000_1_alg».proof.Proof.RCarry
import Idealize.ShloMosaic.PureOps.Ideal
import Idealize.ShloMosaic.Lib.StableHlo.Run

set_option maxRecDepth 16384

noncomputable section

/-! # The normalised features after the first layer, on both sides

The kernel program computes the column statistics on the host, reshapes them and the scale and shift rows to one-row
arrays and runs a batch-normalisation region; the reference normalises by host operations and applies the rectifier.
Both are the batch normalisation with the rectifier of the same array by the same rows: the kernel multiplies by the
reciprocal square root where the reference divides by the square root, which agree because a column variance is not
negative. So equal sage outputs and equal scale and shift tables give equal normalised features. -/

namespace Cert.ReferenceIdeal.Run

open Cert.ReferenceIdeal Cert.ReferenceIdeal.Gen Idealize.ShloMosaic Idealize.ShloMosaic.TcCoe Idealize.SL.Sem Idealize.ShloMosaic.StableHlo

/-- Stage 9 is the reference's batch normalisation: its result is the composition, in the reference's order, of the
    array, the mean, the variance, the scale row and the shift row as the stage finds them. -/
theorem sg9_v165 (V : Valuation τ sig (Elt Ideal)) :
    StableHlo.after (seg9 (F := Ideal)) V (Proc.devRef .tc main_v165)
      = addf
        (mulf
          (Host.divf
            (subf (V (Proc.devRef .tc main_v142)) (broadcastInDim S200000x128 ![0, 1] bcast_S1x128_S200000x128_0_1 (broadcastInDim S1x128 ![1] bcast_S128_S1x128_1 (V (Proc.devRef .tc main_v149)))))
            (broadcastInDim S200000x128 ![0, 1] bcast_S1x128_S200000x128_0_1 (broadcastInDim S1x128 ![1] bcast_S128_S1x128_1
              (Host.sqrt (addf (V (Proc.devRef .tc main_v150)) (broadcastInDim S128 ![] bcast_S_S128 (constant (F := Ideal) S_ .f32 0x3727C5AC#32)))))))
          (broadcastInDim S200000x128 ![0, 1] bcast_S1x128_S200000x128_0_1 (broadcastInDim S1x128 ![1] bcast_S128_S1x128_1 (V (Proc.devRef .tc main_v144)))))
        (broadcastInDim S200000x128 ![0, 1] bcast_S1x128_S200000x128_0_1 (broadcastInDim S1x128 ![1] bcast_S128_S1x128_1 (V (Proc.devRef .tc main_v146)))) := by
  dsimp only [seg9]
  after_results_simp <;> (try simp only [TRef.ofBuf, TRef.toBuf, cast_eq]) <;> rfl

/-- Stage 12 is the rectifier: the maximum of the normalised array with the zero splat. -/
theorem sg12_v189 (V : Valuation τ sig (Elt Ideal)) :
    StableHlo.after (seg12 (F := Ideal)) V (Proc.devRef .tc main_v189)
      = maximumf (V (Proc.devRef .tc main_v165)) (broadcastInDim S200000x128 ![] bcast_S_S200000x128 (constant (F := Ideal) S_ .f32 0x00000000#32)) := by
  dsimp only [seg12]
  after_results_simp <;> (try simp only [TRef.ofBuf, TRef.toBuf, cast_eq]) <;> rfl

/-- Stage 11 is the reference's batch normalisation: its result is the composition, in the reference's order, of the
    array, the mean, the variance, the scale row and the shift row as the stage finds them. -/
theorem sg11_v188 (V : Valuation τ sig (Elt Ideal)) :
    StableHlo.after (seg11 (F := Ideal)) V (Proc.devRef .tc main_v188)
      = addf
        (mulf
          (Host.divf
            (subf (V (Proc.devRef .tc main_v53)) (broadcastInDim S100000x128 ![0, 1] bcast_S1x128_S100000x128_0_1 (broadcastInDim S1x128 ![1] bcast_S128_S1x128_1 (V (Proc.devRef .tc main_v172)))))
            (broadcastInDim S100000x128 ![0, 1] bcast_S1x128_S100000x128_0_1 (broadcastInDim S1x128 ![1] bcast_S128_S1x128_1
              (Host.sqrt (addf (V (Proc.devRef .tc main_v173)) (broadcastInDim S128 ![] bcast_S_S128 (constant (F := Ideal) S_ .f32 0x3727C5AC#32)))))))
          (broadcastInDim S100000x128 ![0, 1] bcast_S1x128_S100000x128_0_1 (broadcastInDim S1x128 ![1] bcast_S128_S1x128_1 (V (Proc.devRef .tc main_v167)))))
        (broadcastInDim S100000x128 ![0, 1] bcast_S1x128_S100000x128_0_1 (broadcastInDim S1x128 ![1] bcast_S128_S1x128_1 (V (Proc.devRef .tc main_v169)))) := by
  dsimp only [seg11]
  after_results_simp <;> (try simp only [TRef.ofBuf, TRef.toBuf, cast_eq]) <;> rfl

/-- Stage 13 is the rectifier: the maximum of the normalised array with the zero splat. -/
theorem sg13_v190 (V : Valuation τ sig (Elt Ideal)) :
    StableHlo.after (seg13 (F := Ideal)) V (Proc.devRef .tc main_v190)
      = maximumf (V (Proc.devRef .tc main_v188)) (broadcastInDim S100000x128 ![] bcast_S_S100000x128 (constant (F := Ideal) S_ .f32 0x00000000#32)) := by
  dsimp only [seg13]
  after_results_simp <;> (try simp only [TRef.ofBuf, TRef.toBuf, cast_eq]) <;> rfl

end Cert.ReferenceIdeal.Run

namespace Cert.Join

open Idealize.ShloMosaic Idealize.ShloMosaic.TcCoe Idealize.SL.Sem Idealize.ShloMosaic.StableHlo

/-- The account-side features after the first layer's normalisation: the kernel program's and the reference's are the batch normalisation with the rectifier of the sum of the two account-side sage outputs (equal by the earlier joining equalities), by its column mean and variance and row 0 of the scale and shift tables (equal by agreement). -/
theorem j_v120
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18))
    (ha19 : m' ((c.tc : Thread Cert.ReferenceIdeal.nD Cert.ReferenceIdeal.τ).loc Cert.ReferenceIdeal.main_arg19)
      = m ((c.tc : Thread Cert.KernelIdeal.nD Cert.KernelIdeal.τ).loc Cert.KernelIdeal.main_arg19))
    (j69 : Cert.KernelIdeal.Gen.W8 m ρ c (Proc.devRef .tc Cert.KernelIdeal.main_v69)
      = Cert.ReferenceIdeal.Run.R6 (launchContents m' c) (Proc.devRef .tc Cert.ReferenceIdeal.main_v97))
    (j102 : Cert.KernelIdeal.Gen.W10 m ρ c (Proc.devRef .tc Cert.KernelIdeal.main_v102)
      = Cert.ReferenceIdeal.Run.R8 (launchContents m' c) (Proc.devRef .tc Cert.ReferenceIdeal.main_v141)) :
    Cert.KernelIdeal.Gen.W16 m ρ c (Proc.devRef .tc Cert.KernelIdeal.main_v120)
      = Cert.ReferenceIdeal.Run.R13 (launchContents m' c) (Proc.devRef .tc Cert.ReferenceIdeal.main_v189) := by
  have hsc : Cert.ReferenceIdeal.S128.ShapeCasts Cert.ReferenceIdeal.S1x128 := by decide
  -- the kernel side: the region's value at the contents it finds, read back to the two sage outputs and the launch memory
  have hk : Cert.KernelIdeal.Gen.W16 m ρ c (Proc.devRef .tc Cert.KernelIdeal.main_v120)
      = Cert.Spec.bnRelu (addf (F := Ideal) (φ := .f32) (Cert.KernelIdeal.Gen.W8 m ρ c (Proc.devRef .tc Cert.KernelIdeal.main_v69)) (Cert.KernelIdeal.Gen.W10 m ρ c (Proc.devRef .tc Cert.KernelIdeal.main_v102)))
          (Cert.HostStats.rowReshape128 (F := Ideal) (Cert.HostStats.colMean200k128 (F := Ideal) (addf (F := Ideal) (φ := .f32) (Cert.KernelIdeal.Gen.W8 m ρ c (Proc.devRef .tc Cert.KernelIdeal.main_v69)) (Cert.KernelIdeal.Gen.W10 m ρ c (Proc.devRef .tc Cert.KernelIdeal.main_v102)))))
          (Cert.HostStats.rowReshape128 (F := Ideal) (Cert.HostStats.colVar200k128 (F := Ideal) (addf (F := Ideal) (φ := .f32) (Cert.KernelIdeal.Gen.W8 m ρ c (Proc.devRef .tc Cert.KernelIdeal.main_v69)) (Cert.KernelIdeal.Gen.W10 m ρ c (Proc.devRef .tc Cert.KernelIdeal.main_v102)))))
          (Cert.HostStats.rowReshape128 (F := Ideal) (Cert.HostStats.slice2r0_128 (F := Ideal) (m ((c.tc : Thread Cert.KernelIdeal.nD Cert.KernelIdeal.τ).loc Cert.KernelIdeal.main_arg18))))
          (Cert.HostStats.rowReshape128 (F := Ideal) (Cert.HostStats.slice2r0_128 (F := Ideal) (m ((c.tc : Thread Cert.KernelIdeal.nD Cert.KernelIdeal.τ).loc Cert.KernelIdeal.main_arg19)))) := by
    refine ((Cert.KernelIdeal.Gen.W16_arr m ρ c 5).trans (Cert.KernelIdeal.Gen.reg5_val (Cert.KernelIdeal.Gen.V15 m ρ) c)).trans ?_
    show Cert.Spec.bnRelu (Cert.KernelIdeal.Gen.W15 m ρ c (Proc.devRef .tc Cert.KernelIdeal.main_v103)) (Cert.KernelIdeal.Gen.W15 m ρ c (Proc.devRef .tc Cert.KernelIdeal.main_v116)) (Cert.KernelIdeal.Gen.W15 m ρ c (Proc.devRef .tc Cert.KernelIdeal.main_v117))
        (Cert.KernelIdeal.Gen.W15 m ρ c (Proc.devRef .tc Cert.KernelIdeal.main_v118)) (Cert.KernelIdeal.Gen.W15 m ρ c (Proc.devRef .tc Cert.KernelIdeal.main_v119)) = _
    rw [Cert.KernelIdeal.Gen.k_v103, Cert.KernelIdeal.Gen.k_v116, Cert.KernelIdeal.Gen.k_v117, Cert.KernelIdeal.Gen.k_v118, Cert.KernelIdeal.Gen.k_v119,
      Cert.KernelIdeal.Carry.c_v69_8_10, Cert.KernelIdeal.Carry.c_arg18_0_10, Cert.KernelIdeal.Carry.c_arg19_0_10]
  -- the reference side: the rectifier's and the normalisation's stages at the contents before them, read back likewise
  have hr : Cert.ReferenceIdeal.Run.R13 (launchContents m' c) (Proc.devRef .tc Cert.ReferenceIdeal.main_v189)
      = Cert.Spec.bnRelu (addf (F := Ideal) (φ := .f32) (Cert.ReferenceIdeal.Run.R6 (launchContents m' c) (Proc.devRef .tc Cert.ReferenceIdeal.main_v97)) (Cert.ReferenceIdeal.Run.R8 (launchContents m' c) (Proc.devRef .tc Cert.ReferenceIdeal.main_v141)))
          (shapeCast Cert.ReferenceIdeal.S1x128 (Cert.HostStats.colMean200k128 (F := Ideal) (addf (F := Ideal) (φ := .f32) (Cert.ReferenceIdeal.Run.R6 (launchContents m' c) (Proc.devRef .tc Cert.ReferenceIdeal.main_v97)) (Cert.ReferenceIdeal.Run.R8 (launchContents m' c) (Proc.devRef .tc Cert.ReferenceIdeal.main_v141)))) hsc)
          (shapeCast Cert.ReferenceIdeal.S1x128 (Cert.HostStats.colVar200k128 (F := Ideal) (addf (F := Ideal) (φ := .f32) (Cert.ReferenceIdeal.Run.R6 (launchContents m' c) (Proc.devRef .tc Cert.ReferenceIdeal.main_v97)) (Cert.ReferenceIdeal.Run.R8 (launchContents m' c) (Proc.devRef .tc Cert.ReferenceIdeal.main_v141)))) hsc)
          (shapeCast Cert.ReferenceIdeal.S1x128 (Cert.HostStats.slice2r0_128 (F := Ideal) (m' ((c.tc : Thread Cert.ReferenceIdeal.nD Cert.ReferenceIdeal.τ).loc Cert.ReferenceIdeal.main_arg18))) hsc)
          (shapeCast Cert.ReferenceIdeal.S1x128 (Cert.HostStats.slice2r0_128 (F := Ideal) (m' ((c.tc : Thread Cert.ReferenceIdeal.nD Cert.ReferenceIdeal.τ).loc Cert.ReferenceIdeal.main_arg19))) hsc) := by
    refine (Cert.ReferenceIdeal.Run.sg12_v189 (Cert.ReferenceIdeal.Run.R12 (launchContents m' c))).trans ?_
    rw [Cert.ReferenceIdeal.Run.rc_v165_10_12,
      show Cert.ReferenceIdeal.Run.R10 (launchContents m' c) (Proc.devRef .tc Cert.ReferenceIdeal.main_v165) = _ from
        Cert.ReferenceIdeal.Run.sg9_v165 (Cert.ReferenceIdeal.Run.R9 (launchContents m' c)),
      Cert.ReferenceIdeal.Run.r_v142, Cert.ReferenceIdeal.Run.r_v149, Cert.ReferenceIdeal.Run.r_v150, Cert.ReferenceIdeal.Run.r_v144, Cert.ReferenceIdeal.Run.r_v146,
      Cert.ReferenceIdeal.Run.rc_v97_6_8, Cert.ReferenceIdeal.Run.rc_arg18_0_8, Cert.ReferenceIdeal.Run.rc_arg19_0_8]
    exact Cert.ReferenceIdeal.Dense.bnRelu_200000x128 hsc _ _ _ _ _ (fun j => Cert.HostStats.colVar200k128_nonneg _ j)
  rw [hk, hr, j69, j102, ha18, ha19]
  rfl

/-- The merchant-side features after the first layer's normalisation: both are the batch normalisation with the rectifier of the merchant-side sage output (equal by the earlier joining equality), by its column mean and variance and row 1 of the scale and shift tables (equal by agreement). -/
theorem j_v129
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha18 : m' ((c.tc : Thread Cert.ReferenceIdeal.nD Cert.ReferenceIdeal.τ).loc Cert.ReferenceIdeal.main_arg18)
      = m ((c.tc : Thread Cert.KernelIdeal.nD Cert.KernelIdeal.τ).loc Cert.KernelIdeal.main_arg18))
    (ha19 : m' ((c.tc : Thread Cert.ReferenceIdeal.nD Cert.ReferenceIdeal.τ).loc Cert.ReferenceIdeal.main_arg19)
      = m ((c.tc : Thread Cert.KernelIdeal.nD Cert.KernelIdeal.τ).loc Cert.KernelIdeal.main_arg19))
    (j36 : Cert.KernelIdeal.Gen.W6 m ρ c (Proc.devRef .tc Cert.KernelIdeal.main_v36)
      = Cert.ReferenceIdeal.Run.R4 (launchContents m' c) (Proc.devRef .tc Cert.ReferenceIdeal.main_v53)) :
    Cert.KernelIdeal.Gen.W18 m ρ c (Proc.devRef .tc Cert.KernelIdeal.main_v129)
      = Cert.ReferenceIdeal.Run.R14 (launchContents m' c) (Proc.devRef .tc Cert.ReferenceIdeal.main_v190) := by
  have hsc : Cert.ReferenceIdeal.S128.ShapeCasts Cert.ReferenceIdeal.S1x128 := by decide
  -- the kernel side: the region's value at the contents it finds, read back to the sage output and the launch memory
  have hk : Cert.KernelIdeal.Gen.W18 m ρ c (Proc.devRef .tc Cert.KernelIdeal.main_v129)
      = Cert.Spec.bnRelu (Cert.KernelIdeal.Gen.W6 m ρ c (Proc.devRef .tc Cert.KernelIdeal.main_v36))
          (Cert.HostStats.rowReshape128 (F := Ideal) (Cert.HostStats.colMean100k128 (F := Ideal) (Cert.KernelIdeal.Gen.W6 m ρ c (Proc.devRef .tc Cert.KernelIdeal.main_v36))))
          (Cert.HostStats.rowReshape128 (F := Ideal) (Cert.HostStats.colVar100k128 (F := Ideal) (Cert.KernelIdeal.Gen.W6 m ρ c (Proc.devRef .tc Cert.KernelIdeal.main_v36))))
          (Cert.HostStats.rowReshape128 (F := Ideal) (Cert.HostStats.slice2r1_128 (F := Ideal) (m ((c.tc : Thread Cert.KernelIdeal.nD Cert.KernelIdeal.τ).loc Cert.KernelIdeal.main_arg18))))
          (Cert.HostStats.rowReshape128 (F := Ideal) (Cert.HostStats.slice2r1_128 (F := Ideal) (m ((c.tc : Thread Cert.KernelIdeal.nD Cert.KernelIdeal.τ).loc Cert.KernelIdeal.main_arg19)))) := by
    refine ((Cert.KernelIdeal.Gen.W18_arr m ρ c 5).trans (Cert.KernelIdeal.Gen.reg6_val (Cert.KernelIdeal.Gen.V17 m ρ) c)).trans ?_
    show Cert.Spec.bnRelu (Cert.KernelIdeal.Gen.W17 m ρ c (Proc.devRef .tc Cert.KernelIdeal.main_v36)) (Cert.KernelIdeal.Gen.W17 m ρ c (Proc.devRef .tc Cert.KernelIdeal.main_v125)) (Cert.KernelIdeal.Gen.W17 m ρ c (Proc.devRef .tc Cert.KernelIdeal.main_v126))
        (Cert.KernelIdeal.Gen.W17 m ρ c (Proc.devRef .tc Cert.KernelIdeal.main_v127)) (Cert.KernelIdeal.Gen.W17 m ρ c (Proc.devRef .tc Cert.KernelIdeal.main_v128)) = _
    rw [Cert.KernelIdeal.Carry.c_v36_6_17, Cert.KernelIdeal.Gen.k_v125, Cert.KernelIdeal.Gen.k_v126, Cert.KernelIdeal.Gen.k_v127, Cert.KernelIdeal.Gen.k_v128,
      Cert.KernelIdeal.Carry.c_v36_6_10, Cert.KernelIdeal.Carry.c_arg18_0_10, Cert.KernelIdeal.Carry.c_arg19_0_10]
  -- the reference side: the rectifier's and the normalisation's stages at the contents before them, read back likewise
  have hr : Cert.ReferenceIdeal.Run.R14 (launchContents m' c) (Proc.devRef .tc Cert.ReferenceIdeal.main_v190)
      = Cert.Spec.bnRelu (Cert.ReferenceIdeal.Run.R4 (launchContents m' c) (Proc.devRef .tc Cert.ReferenceIdeal.main_v53))
          (shapeCast Cert.ReferenceIdeal.S1x128 (Cert.HostStats.colMean100k128 (F := Ideal) (Cert.ReferenceIdeal.Run.R4 (launchContents m' c) (Proc.devRef .tc Cert.ReferenceIdeal.main_v53))) hsc)
          (shapeCast Cert.ReferenceIdeal.S1x128 (Cert.HostStats.colVar100k128 (F := Ideal) (Cert.ReferenceIdeal.Run.R4 (launchContents m' c) (Proc.devRef .tc Cert.ReferenceIdeal.main_v53))) hsc)
          (shapeCast Cert.ReferenceIdeal.S1x128 (Cert.HostStats.slice2r1_128 (F := Ideal) (m' ((c.tc : Thread Cert.ReferenceIdeal.nD Cert.ReferenceIdeal.τ).loc Cert.ReferenceIdeal.main_arg18))) hsc)
          (shapeCast Cert.ReferenceIdeal.S1x128 (Cert.HostStats.slice2r1_128 (F := Ideal) (m' ((c.tc : Thread Cert.ReferenceIdeal.nD Cert.ReferenceIdeal.τ).loc Cert.ReferenceIdeal.main_arg19))) hsc) := by
    refine (Cert.ReferenceIdeal.Run.sg13_v190 (Cert.ReferenceIdeal.Run.R13 (launchContents m' c))).trans ?_
    rw [Cert.ReferenceIdeal.Run.rc_v188_12_13,
      show Cert.ReferenceIdeal.Run.R12 (launchContents m' c) (Proc.devRef .tc Cert.ReferenceIdeal.main_v188) = _ from
        Cert.ReferenceIdeal.Run.sg11_v188 (Cert.ReferenceIdeal.Run.R11 (launchContents m' c)),
      Cert.ReferenceIdeal.Run.rc_v53_4_11, Cert.ReferenceIdeal.Run.r_v172, Cert.ReferenceIdeal.Run.r_v173, Cert.ReferenceIdeal.Run.r_v167, Cert.ReferenceIdeal.Run.r_v169,
      Cert.ReferenceIdeal.Run.rc_v53_4_10, Cert.ReferenceIdeal.Run.rc_arg18_0_10, Cert.ReferenceIdeal.Run.rc_arg19_0_10]
    exact Cert.ReferenceIdeal.Dense.bnRelu_100000x128 hsc _ _ _ _ _ (fun j => Cert.HostStats.colVar100k128_nonneg _ j)
  rw [hk, hr, j36, ha18, ha19]
  rfl

end Cert.Join

end
-- ==== Proof.BnK10.lean ====
/-
  Region 10: batch normalisation with the rectifier of a 200000 × 128 array, forty row blocks of 5000 rows.

  Each point of the grid loads one block of 5000 rows of the array and the four statistics rows (each a one-block window
  that every point reads whole), and stores into the same rows of the result

      max ((x − mu) · rsqrt (var + ε) · g + b, 0),

  the statistics rows repeated down the block. The blocks tile the result, so after the run the result array is that
  function of the array and the four rows at every index: `Cert.Spec.bnRelu`.
-/
import proofs.«143223_j29772713296000_1_alg».proof.Proof.Gen.KernelIdeal.Frame
import proofs.«143223_j29772713296000_1_alg».proof.Proof.SpecBn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The zero offsets of a whole-block access, as the constant function. -/
theorem bn10_off_zero : (![0, 0] : Fin 2 → Nat) = fun _ => 0 := funext fun a => by fin_cases a <;> rfl

/-- The body's arithmetic at row `p`, column `q` of a block: the block's entry less the mean row's entry `q`, times the
    reciprocal square root of the variance row's entry `q` plus `ε`, times the scale row's entry, plus the shift row's
    entry; then the maximum with `0`. The same-shape casts are the identity and a `[1, 128]` row repeated down the block
    reads its entry `q` at every row. -/
theorem bn10_pay_apply (x0 : Vec Ideal S5000x128 .f32) (x1 x2 x3 x4 : Vec Ideal S1x128 .f32) (p : Fin 5000) (q : Fin 128) :
    k10_pay1 (F := Ideal) x0 x1 x2 x3 x4 (ix2 p q)
      = max ((x0 (ix2 p q) - x1 (ix2 (0 : Fin 1) q)) * Ideal.rsqrt (x2 (ix2 (0 : Fin 1) q) + Cert.Spec.bnEps)
          * x3 (ix2 (0 : Fin 1) q) + x4 (ix2 (0 : Fin 1) q)) 0 := by
  unfold k10_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max (_ * Ideal.rsqrt (x2 (ix2 (0 : Fin 1) q) + Ideal.ofBits .f32 0x3727C5AC#32) * _ + _)
    (Ideal.ofBits .f32 0x00000000#32) = _
  rw [Ideal.ofBits_zero_f32]

/-- A block whose entries are the array's entries along a map `e` of indices that keeps the column, together with the
    four statistics rows themselves: the body's result at `y` is the normalised array at `e y`. -/
theorem bn10_pay_rows (X : S200000x128.Idx → EReal) (M Vr G B : S1x128.Idx → EReal)
    (x0 : Vec Ideal S5000x128 .f32) (x1 x2 x3 x4 : Vec Ideal S1x128 .f32)
    (e : S5000x128.Idx → S200000x128.Idx) (he : ∀ y, ((e y) 1).val = (y 1).val)
    (h0 : ∀ y, x0 y = X (e y)) (h1 : x1 = M) (h2 : x2 = Vr) (h3 : x3 = G) (h4 : x4 = B) (y : S5000x128.Idx) :
    k10_pay1 (F := Ideal) x0 x1 x2 x3 x4 y = Cert.Spec.bnRelu X M Vr G B (e y) := by
  subst h1 h2 h3 h4
  obtain ⟨p, q, rfl⟩ : ∃ (p : Fin 5000) (q : Fin 128), y = ix2 p q := ⟨y 0, y 1, eq_ix2 y⟩
  have hidx : (ix2 (0 : Fin 1) q : S1x128.Idx) = ix2 (0 : Fin 1) ((e (ix2 p q)) 1) := by
    funext a
    match a with
    | ⟨0, _⟩ => rfl
    | ⟨1, _⟩ => exact Fin.ext (he (ix2 p q)).symm
  rw [bn10_pay_apply, h0, hidx]
  rfl

variable (V : (c : Dev nD) → (b : Ref sig .tc) → Buf (Elt Ideal) ((c : Thread nD τ).loc b))

/-- The index maps over the grid: the array's window and the result's window are at the same row block, which is the
    point's number; every other block index is zero. -/
theorem bn10_idx : ∀ t : Fin cfg10.N,
    win10_0.index t (0 : Fin 2) = win10_5.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- What point `t` writes back is block `t` of the normalised array. -/
theorem bn10_flushed (c : Dev nD) (t : Fin cfg10.N) :
    (dat10 (F := Ideal) V c).flushed 5 t = ((cfg10.win 5).blk t).view.read (Elt Ideal)
      (Cert.Spec.bnRelu (V c main_v229) (V c main_v242) (V c main_v243) (V c main_v244) (V c main_v245)) := by
  show (cfg10.win 5).cut (grid10.coords t) ((dat10 (F := Ideal) V c).after 5 t) = _
  rw [after10_5]
  unfold out10_5
  rw [View.canon_unit_zero bn10_off_zero]
  simp only [View.ld_unit_zero (S := S5000x128) bn10_off_zero, View.ld_unit_zero (S := S1x128) bn10_off_zero]
  obtain ⟨a00, a01, a10, a11, a20, a21, a30, a31, a40, a41, a50, a51⟩ := bn10_idx t
  funext j
  refine (bn10_pay_rows (V c main_v229) (V c main_v242) (V c main_v243) (V c main_v244) (V c main_v245)
    (iblk10 V c 0 t) (iblk10 V c 1 t) (iblk10 V c 2 t) (iblk10 V c 3 t) (iblk10 V c 4 t)
    (fun y => ((cfg10.win 5).blk t).view.emb y) ?_ ?_ ?_ ?_ ?_ ?_ j).trans ?_
  · intro y
    show win10_5.index t (1 : Fin 2) * 128 + 1 * (y 1).val = (y 1).val
    omega
  · intro y
    show V c main_v229 (((cfg10.win 0).blk t).view.emb y) = V c main_v229 (((cfg10.win 5).blk t).view.emb y)
    refine congrArg (V c main_v229) (funext fun a => Fin.ext ?_)
    match a with
    | ⟨0, _⟩ =>
      show win10_0.index t (0 : Fin 2) * 5000 + 1 * (y 0).val = win10_5.index t (0 : Fin 2) * 5000 + 1 * (y 0).val
      omega
    | ⟨1, _⟩ =>
      show win10_0.index t (1 : Fin 2) * 128 + 1 * (y 1).val = win10_5.index t (1 : Fin 2) * 128 + 1 * (y 1).val
      omega
  · funext y
    show V c main_v242 (((cfg10.win 1).blk t).view.emb y) = V c main_v242 y
    refine congrArg (V c main_v242) (funext fun a => Fin.ext ?_)
    match a with
    | ⟨0, _⟩ => show win10_1.index t (0 : Fin 2) * 1 + 1 * (y 0).val = (y 0).val; omega
    | ⟨1, _⟩ => show win10_1.index t (1 : Fin 2) * 128 + 1 * (y 1).val = (y 1).val; omega
  · funext y
    show V c main_v243 (((cfg10.win 2).blk t).view.emb y) = V c main_v243 y
    refine congrArg (V c main_v243) (funext fun a => Fin.ext ?_)
    match a with
    | ⟨0, _⟩ => show win10_2.index t (0 : Fin 2) * 1 + 1 * (y 0).val = (y 0).val; omega
    | ⟨1, _⟩ => show win10_2.index t (1 : Fin 2) * 128 + 1 * (y 1).val = (y 1).val; omega
  · funext y
    show V c main_v244 (((cfg10.win 3).blk t).view.emb y) = V c main_v244 y
    refine congrArg (V c main_v244) (funext fun a => Fin.ext ?_)
    match a with
    | ⟨0, _⟩ => show win10_3.index t (0 : Fin 2) * 1 + 1 * (y 0).val = (y 0).val; omega
    | ⟨1, _⟩ => show win10_3.index t (1 : Fin 2) * 128 + 1 * (y 1).val = (y 1).val; omega
  · funext y
    show V c main_v245 (((cfg10.win 4).blk t).view.emb y) = V c main_v245 y
    refine congrArg (V c main_v245) (funext fun a => Fin.ext ?_)
    match a with
    | ⟨0, _⟩ => show win10_4.index t (0 : Fin 2) * 1 + 1 * (y 0).val = (y 0).val; omega
    | ⟨1, _⟩ => show win10_4.index t (1 : Fin 2) * 128 + 1 * (y 1).val = (y 1).val; omega
  · rfl

/-- An index of the result is in point `t`'s block exactly when each coordinate is in the block's range on its axis. -/
theorem bn10_mem_blk (t : Fin cfg10.N) (i : S200000x128.Idx) :
    i ∈ ((cfg10.win 5).blk t).view.set ↔ ∀ a : Fin 2, win10_5.index t a * S5000x128.size a ≤ (i a).val
      ∧ (i a).val < win10_5.index t a * S5000x128.size a + S5000x128.size a := by
  show i ∈ ((View.whole main_v246).slice (win10_5.rect t)).set ↔ _
  rw [View.set_slice_whole, Rect.mem_set_unit]
  exact Iff.rfl

/-- Every index of the result is in some point's block: row `r` is in block `r / 5000`. -/
theorem bn10_cover (i : S200000x128.Idx) :
    ∃ t : Fin cfg10.N, (cfg10.win 5).flush t = true ∧ i ∈ ((cfg10.win 5).blk t).view.set := by
  have hN : cfg10.N = 40 := N_10
  have hi0 : (i 0).val < 200000 := (i 0).isLt
  have hi1 : (i 1).val < 128 := (i 1).isLt
  have ht : (i 0).val / 5000 < cfg10.N := by rw [hN]; omega
  obtain ⟨-, -, -, -, -, -, -, -, -, -, a50, a51⟩ := bn10_idx ⟨(i 0).val / 5000, ht⟩
  refine ⟨⟨(i 0).val / 5000, ht⟩, flush10_5 _, ?_⟩
  rw [bn10_mem_blk]
  intro a
  match a with
  | ⟨0, _⟩ =>
    show win10_5.index ⟨(i 0).val / 5000, ht⟩ (0 : Fin 2) * 5000 ≤ (i 0).val
      ∧ (i 0).val < win10_5.index ⟨(i 0).val / 5000, ht⟩ (0 : Fin 2) * 5000 + 5000
    rw [a50]
    show (i 0).val / 5000 * 5000 ≤ (i 0).val ∧ (i 0).val < (i 0).val / 5000 * 5000 + 5000
    omega
  | ⟨1, _⟩ =>
    show win10_5.index ⟨(i 0).val / 5000, ht⟩ (1 : Fin 2) * 128 ≤ (i 1).val
      ∧ (i 1).val < win10_5.index ⟨(i 0).val / 5000, ht⟩ (1 : Fin 2) * 128 + 128
    rw [a51]
    omega

/-- After region 10 the result array is the batch normalisation with the rectifier of the array by the four rows, at the
    contents the region was entered with. -/
theorem reg10_val (c : Dev nD) :
    (dat10 (F := Ideal) V c).arrAt 5 cfg10.N
      = Cert.Spec.bnRelu (V c main_v229) (V c main_v242) (V c main_v243) (V c main_v244) (V c main_v245) :=
  (dat10 (F := Ideal) V c).arrAt_eq_of_cover 5 _ (fun t _ => bn10_flushed V c t) (fun i => bn10_cover i)

end Cert.KernelIdeal.Gen

end
-- ==== Proof.BnK11.lean ====
/-
  Region 11: batch normalisation with the rectifier of a 100000 × 128 array, twenty row blocks of 5000 rows.

  Each point of the grid loads one block of 5000 rows of the array and the four statistics rows (each a one-block window
  that every point reads whole), and stores into the same rows of the result

      max ((x − mu) · rsqrt (var + ε) · g + b, 0),

  the statistics rows repeated down the block. The blocks tile the result, so after the run the result array is that
  function of the array and the four rows at every index: `Cert.Spec.bnRelu`.
-/
import proofs.«143223_j29772713296000_1_alg».proof.Proof.Gen.KernelIdeal.Frame
import proofs.«143223_j29772713296000_1_alg».proof.Proof.SpecBn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The zero offsets of a whole-block access, as the constant function. -/
theorem bn11_off_zero : (![0, 0] : Fin 2 → Nat) = fun _ => 0 := funext fun a => by fin_cases a <;> rfl

/-- The body's arithmetic at row `p`, column `q` of a block: the block's entry less the mean row's entry `q`, times the
    reciprocal square root of the variance row's entry `q` plus `ε`, times the scale row's entry, plus the shift row's
    entry; then the maximum with `0`. The same-shape casts are the identity and a `[1, 128]` row repeated down the block
    reads its entry `q` at every row. -/
theorem bn11_pay_apply (x0 : Vec Ideal S5000x128 .f32) (x1 x2 x3 x4 : Vec Ideal S1x128 .f32) (p : Fin 5000) (q : Fin 128) :
    k11_pay1 (F := Ideal) x0 x1 x2 x3 x4 (ix2 p q)
      = max ((x0 (ix2 p q) - x1 (ix2 (0 : Fin 1) q)) * Ideal.rsqrt (x2 (ix2 (0 : Fin 1) q) + Cert.Spec.bnEps)
          * x3 (ix2 (0 : Fin 1) q) + x4 (ix2 (0 : Fin 1) q)) 0 := by
  unfold k11_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max (_ * Ideal.rsqrt (x2 (ix2 (0 : Fin 1) q) + Ideal.ofBits .f32 0x3727C5AC#32) * _ + _)
    (Ideal.ofBits .f32 0x00000000#32) = _
  rw [Ideal.ofBits_zero_f32]

/-- A block whose entries are the array's entries along a map `e` of indices that keeps the column, together with the
    four statistics rows themselves: the body's result at `y` is the normalised array at `e y`. -/
theorem bn11_pay_rows (X : S100000x128.Idx → EReal) (M Vr G B : S1x128.Idx → EReal)
    (x0 : Vec Ideal S5000x128 .f32) (x1 x2 x3 x4 : Vec Ideal S1x128 .f32)
    (e : S5000x128.Idx → S100000x128.Idx) (he : ∀ y, ((e y) 1).val = (y 1).val)
    (h0 : ∀ y, x0 y = X (e y)) (h1 : x1 = M) (h2 : x2 = Vr) (h3 : x3 = G) (h4 : x4 = B) (y : S5000x128.Idx) :
    k11_pay1 (F := Ideal) x0 x1 x2 x3 x4 y = Cert.Spec.bnRelu X M Vr G B (e y) := by
  subst h1 h2 h3 h4
  obtain ⟨p, q, rfl⟩ : ∃ (p : Fin 5000) (q : Fin 128), y = ix2 p q := ⟨y 0, y 1, eq_ix2 y⟩
  have hidx : (ix2 (0 : Fin 1) q : S1x128.Idx) = ix2 (0 : Fin 1) ((e (ix2 p q)) 1) := by
    funext a
    match a with
    | ⟨0, _⟩ => rfl
    | ⟨1, _⟩ => exact Fin.ext (he (ix2 p q)).symm
  rw [bn11_pay_apply, h0, hidx]
  rfl

variable (V : (c : Dev nD) → (b : Ref sig .tc) → Buf (Elt Ideal) ((c : Thread nD τ).loc b))

/-- The index maps over the grid: the array's window and the result's window are at the same row block, which is the
    point's number; every other block index is zero. -/
theorem bn11_idx : ∀ t : Fin cfg11.N,
    win11_0.index t (0 : Fin 2) = win11_5.index t (0 : Fin 2) ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- What point `t` writes back is block `t` of the normalised array. -/
theorem bn11_flushed (c : Dev nD) (t : Fin cfg11.N) :
    (dat11 (F := Ideal) V c).flushed 5 t = ((cfg11.win 5).blk t).view.read (Elt Ideal)
      (Cert.Spec.bnRelu (V c main_v162) (V c main_v251) (V c main_v252) (V c main_v253) (V c main_v254)) := by
  show (cfg11.win 5).cut (grid11.coords t) ((dat11 (F := Ideal) V c).after 5 t) = _
  rw [after11_5]
  unfold out11_5
  rw [View.canon_unit_zero bn11_off_zero]
  simp only [View.ld_unit_zero (S := S5000x128) bn11_off_zero, View.ld_unit_zero (S := S1x128) bn11_off_zero]
  obtain ⟨a00, a01, a10, a11, a20, a21, a30, a31, a40, a41, a50, a51⟩ := bn11_idx t
  funext j
  refine (bn11_pay_rows (V c main_v162) (V c main_v251) (V c main_v252) (V c main_v253) (V c main_v254)
    (iblk11 V c 0 t) (iblk11 V c 1 t) (iblk11 V c 2 t) (iblk11 V c 3 t) (iblk11 V c 4 t)
    (fun y => ((cfg11.win 5).blk t).view.emb y) ?_ ?_ ?_ ?_ ?_ ?_ j).trans ?_
  · intro y
    show win11_5.index t (1 : Fin 2) * 128 + 1 * (y 1).val = (y 1).val
    omega
  · intro y
    show V c main_v162 (((cfg11.win 0).blk t).view.emb y) = V c main_v162 (((cfg11.win 5).blk t).view.emb y)
    refine congrArg (V c main_v162) (funext fun a => Fin.ext ?_)
    match a with
    | ⟨0, _⟩ =>
      show win11_0.index t (0 : Fin 2) * 5000 + 1 * (y 0).val = win11_5.index t (0 : Fin 2) * 5000 + 1 * (y 0).val
      omega
    | ⟨1, _⟩ =>
      show win11_0.index t (1 : Fin 2) * 128 + 1 * (y 1).val = win11_5.index t (1 : Fin 2) * 128 + 1 * (y 1).val
      omega
  · funext y
    show V c main_v251 (((cfg11.win 1).blk t).view.emb y) = V c main_v251 y
    refine congrArg (V c main_v251) (funext fun a => Fin.ext ?_)
    match a with
    | ⟨0, _⟩ => show win11_1.index t (0 : Fin 2) * 1 + 1 * (y 0).val = (y 0).val; omega
    | ⟨1, _⟩ => show win11_1.index t (1 : Fin 2) * 128 + 1 * (y 1).val = (y 1).val; omega
  · funext y
    show V c main_v252 (((cfg11.win 2).blk t).view.emb y) = V c main_v252 y
    refine congrArg (V c main_v252) (funext fun a => Fin.ext ?_)
    match a with
    | ⟨0, _⟩ => show win11_2.index t (0 : Fin 2) * 1 + 1 * (y 0).val = (y 0).val; omega
    | ⟨1, _⟩ => show win11_2.index t (1 : Fin 2) * 128 + 1 * (y 1).val = (y 1).val; omega
  · funext y
    show V c main_v253 (((cfg11.win 3).blk t).view.emb y) = V c main_v253 y
    refine congrArg (V c main_v253) (funext fun a => Fin.ext ?_)
    match a with
    | ⟨0, _⟩ => show win11_3.index t (0 : Fin 2) * 1 + 1 * (y 0).val = (y 0).val; omega
    | ⟨1, _⟩ => show win11_3.index t (1 : Fin 2) * 128 + 1 * (y 1).val = (y 1).val; omega
  · funext y
    show V c main_v254 (((cfg11.win 4).blk t).view.emb y) = V c main_v254 y
    refine congrArg (V c main_v254) (funext fun a => Fin.ext ?_)
    match a with
    | ⟨0, _⟩ => show win11_4.index t (0 : Fin 2) * 1 + 1 * (y 0).val = (y 0).val; omega
    | ⟨1, _⟩ => show win11_4.index t (1 : Fin 2) * 128 + 1 * (y 1).val = (y 1).val; omega
  · rfl

/-- An index of the result is in point `t`'s block exactly when each coordinate is in the block's range on its axis. -/
theorem bn11_mem_blk (t : Fin cfg11.N) (i : S100000x128.Idx) :
    i ∈ ((cfg11.win 5).blk t).view.set ↔ ∀ a : Fin 2, win11_5.index t a * S5000x128.size a ≤ (i a).val
      ∧ (i a).val < win11_5.index t a * S5000x128.size a + S5000x128.size a := by
  show i ∈ ((View.whole main_v255).slice (win11_5.rect t)).set ↔ _
  rw [View.set_slice_whole, Rect.mem_set_unit]
  exact Iff.rfl

/-- Every index of the result is in some point's block: row `r` is in block `r / 5000`. -/
theorem bn11_cover (i : S100000x128.Idx) :
    ∃ t : Fin cfg11.N, (cfg11.win 5).flush t = true ∧ i ∈ ((cfg11.win 5).blk t).view.set := by
  have hN : cfg11.N = 20 := N_11
  have hi0 : (i 0).val < 100000 := (i 0).isLt
  have hi1 : (i 1).val < 128 := (i 1).isLt
  have ht : (i 0).val / 5000 < cfg11.N := by rw [hN]; omega
  obtain ⟨-, -, -, -, -, -, -, -, -, -, a50, a51⟩ := bn11_idx ⟨(i 0).val / 5000, ht⟩
  refine ⟨⟨(i 0).val / 5000, ht⟩, flush11_5 _, ?_⟩
  rw [bn11_mem_blk]
  intro a
  match a with
  | ⟨0, _⟩ =>
    show win11_5.index ⟨(i 0).val / 5000, ht⟩ (0 : Fin 2) * 5000 ≤ (i 0).val
      ∧ (i 0).val < win11_5.index ⟨(i 0).val / 5000, ht⟩ (0 : Fin 2) * 5000 + 5000
    rw [a50]
    show (i 0).val / 5000 * 5000 ≤ (i 0).val ∧ (i 0).val < (i 0).val / 5000 * 5000 + 5000
    omega
  | ⟨1, _⟩ =>
    show win11_5.index ⟨(i 0).val / 5000, ht⟩ (1 : Fin 2) * 128 ≤ (i 1).val
      ∧ (i 1).val < win11_5.index ⟨(i 0).val / 5000, ht⟩ (1 : Fin 2) * 128 + 128
    rw [a51]
    omega

/-- After region 11 the result array is the batch normalisation with the rectifier of the array by the four rows, at the
    contents the region was entered with. -/
theorem reg11_val (c : Dev nD) :
    (dat11 (F := Ideal) V c).arrAt 5 cfg11.N
      = Cert.Spec.bnRelu (V c main_v162) (V c main_v251) (V c main_v252) (V c main_v253) (V c main_v254) :=
  (dat11 (F := Ideal) V c).arrAt_eq_of_cover 5 _ (fun t _ => bn11_flushed V c t) (fun i => bn11_cover i)

end Cert.KernelIdeal.Gen

end
-- ==== Proof.KStats1.lean ====
import proofs.«143223_j29772713296000_1_alg».proof.Proof.Gen.KernelIdeal.Frame
import proofs.«143223_j29772713296000_1_alg».proof.Proof.HostStats
import Idealize.ShloMosaic.Lib.StableHlo.Run

noncomputable section

namespace Cert.KernelIdeal.Gen

open Idealize.ShloMosaic Idealize.ShloMosaic.TcCoe Idealize.ShloMosaic.StableHlo
open Idealize.SL.Sem
open Cert.HostStats

variable {F : FTy → Type} [FloatOps F]

/-! # The statistics stretches before a batch norm's two regions

Between the last sage region's exit and the account-side batch norm's entry the host adds the two account-side outputs,
takes the column mean and variance of the sum and of the merchant-side output, and reshapes them and row 0 of the scale
and shift tables to one row; before the merchant-side batch norm it reshapes the merchant-side statistics and row 1 of
the tables. Each buffer below is read off the fold of those operations from arbitrary contents `V`. -/

section Stretch

variable (V : Valuation τ sig (Elt F))

theorem s10_v229 : StableHlo.after hostOps10_4 (StableHlo.after hostOps10_3 (StableHlo.after hostOps10_2 (StableHlo.after hostOps10_1 (StableHlo.after hostOps10 V)))) (Proc.devRef .tc main_v229) = addf (V (Proc.devRef .tc main_v195)) (V (Proc.devRef .tc main_v228)) := by
  dsimp only [hostOps10, hostOps10_1, hostOps10_2, hostOps10_3, hostOps10_4]
  after_results_simp <;> (try simp only [TRef.ofBuf, TRef.toBuf, cast_eq]) <;> rfl

theorem s10_v242 : StableHlo.after hostOps10_4 (StableHlo.after hostOps10_3 (StableHlo.after hostOps10_2 (StableHlo.after hostOps10_1 (StableHlo.after hostOps10 V)))) (Proc.devRef .tc main_v242) = rowReshape128 (colMean200k128 (addf (V (Proc.devRef .tc main_v195)) (V (Proc.devRef .tc main_v228)))) := by
  dsimp only [hostOps10, hostOps10_1, hostOps10_2, hostOps10_3, hostOps10_4]
  after_results_simp <;> (try simp only [TRef.ofBuf, TRef.toBuf, cast_eq]) <;> rfl

theorem s10_v243 : StableHlo.after hostOps10_4 (StableHlo.after hostOps10_3 (StableHlo.after hostOps10_2 (StableHlo.after hostOps10_1 (StableHlo.after hostOps10 V)))) (Proc.devRef .tc main_v243) = rowReshape128 (colVar200k128 (addf (V (Proc.devRef .tc main_v195)) (V (Proc.devRef .tc main_v228)))) := by
  dsimp only [hostOps10, hostOps10_1, hostOps10_2, hostOps10_3, hostOps10_4]
  after_results_simp <;> (try simp only [TRef.ofBuf, TRef.toBuf, cast_eq]) <;> rfl

theorem s10_v244 : StableHlo.after hostOps10_4 (StableHlo.after hostOps10_3 (StableHlo.after hostOps10_2 (StableHlo.after hostOps10_1 (StableHlo.after hostOps10 V)))) (Proc.devRef .tc main_v244) = rowReshape128 (slice2r0_128 (V (Proc.devRef .tc main_arg20))) := by
  dsimp only [hostOps10, hostOps10_1, hostOps10_2, hostOps10_3, hostOps10_4]
  after_results_simp <;> (try simp only [TRef.ofBuf, TRef.toBuf, cast_eq]) <;> rfl

theorem s10_v245 : StableHlo.after hostOps10_4 (StableHlo.after hostOps10_3 (StableHlo.after hostOps10_2 (StableHlo.after hostOps10_1 (StableHlo.after hostOps10 V)))) (Proc.devRef .tc main_v245) = rowReshape128 (slice2r0_128 (V (Proc.devRef .tc main_arg21))) := by
  dsimp only [hostOps10, hostOps10_1, hostOps10_2, hostOps10_3, hostOps10_4]
  after_results_simp <;> (try simp only [TRef.ofBuf, TRef.toBuf, cast_eq]) <;> rfl

theorem s10_v236 : StableHlo.after hostOps10_4 (StableHlo.after hostOps10_3 (StableHlo.after hostOps10_2 (StableHlo.after hostOps10_1 (StableHlo.after hostOps10 V)))) (Proc.devRef .tc main_v236) = colMean100k128 (V (Proc.devRef .tc main_v162)) := by
  dsimp only [hostOps10, hostOps10_1, hostOps10_2, hostOps10_3, hostOps10_4]
  after_results_simp <;> (try simp only [TRef.ofBuf, TRef.toBuf, cast_eq]) <;> rfl

theorem s10_v237 : StableHlo.after hostOps10_4 (StableHlo.after hostOps10_3 (StableHlo.after hostOps10_2 (StableHlo.after hostOps10_1 (StableHlo.after hostOps10 V)))) (Proc.devRef .tc main_v237) = colVar100k128 (V (Proc.devRef .tc main_v162)) := by
  dsimp only [hostOps10, hostOps10_1, hostOps10_2, hostOps10_3, hostOps10_4]
  after_results_simp <;> (try simp only [TRef.ofBuf, TRef.toBuf, cast_eq]) <;> rfl

theorem s10_arg20 : StableHlo.after hostOps10_4 (StableHlo.after hostOps10_3 (StableHlo.after hostOps10_2 (StableHlo.after hostOps10_1 (StableHlo.after hostOps10 V)))) (Proc.devRef .tc main_arg20) = V (Proc.devRef .tc main_arg20) := by
  dsimp only [hostOps10, hostOps10_1, hostOps10_2, hostOps10_3, hostOps10_4]
  after_results_simp <;> (try simp only [TRef.ofBuf, TRef.toBuf, cast_eq]) <;> rfl

theorem s10_arg21 : StableHlo.after hostOps10_4 (StableHlo.after hostOps10_3 (StableHlo.after hostOps10_2 (StableHlo.after hostOps10_1 (StableHlo.after hostOps10 V)))) (Proc.devRef .tc main_arg21) = V (Proc.devRef .tc main_arg21) := by
  dsimp only [hostOps10, hostOps10_1, hostOps10_2, hostOps10_3, hostOps10_4]
  after_results_simp <;> (try simp only [TRef.ofBuf, TRef.toBuf, cast_eq]) <;> rfl

theorem s11_v251 : StableHlo.after hostOps11 V (Proc.devRef .tc main_v251) = rowReshape128 (V (Proc.devRef .tc main_v236)) := by
  dsimp only [hostOps11]
  after_results_simp <;> (try simp only [TRef.ofBuf, TRef.toBuf, cast_eq]) <;> rfl

theorem s11_v252 : StableHlo.after hostOps11 V (Proc.devRef .tc main_v252) = rowReshape128 (V (Proc.devRef .tc main_v237)) := by
  dsimp only [hostOps11]
  after_results_simp <;> (try simp only [TRef.ofBuf, TRef.toBuf, cast_eq]) <;> rfl

theorem s11_v253 : StableHlo.after hostOps11 V (Proc.devRef .tc main_v253) = rowReshape128 (slice2r1_128 (V (Proc.devRef .tc main_arg20))) := by
  dsimp only [hostOps11]
  after_results_simp <;> (try simp only [TRef.ofBuf, TRef.toBuf, cast_eq]) <;> rfl

theorem s11_v254 : StableHlo.after hostOps11 V (Proc.devRef .tc main_v254) = rowReshape128 (slice2r1_128 (V (Proc.devRef .tc main_arg21))) := by
  dsimp only [hostOps11]
  after_results_simp <;> (try simp only [TRef.ofBuf, TRef.toBuf, cast_eq]) <;> rfl

end Stretch

/-! ## At the run's boundaries

The account-side batch norm's entry contents read from the preceding region's exit contents; the merchant-side one's
likewise, the account-side region writing none of the buffers read. -/

section Run

variable (m : (ℓ : Loc nD τ sig) → Buf (Elt F) ℓ) (ρ : Dev nD → PrngReg)

theorem k_v229 (c : Dev nD) : W29 m ρ c (Proc.devRef .tc main_v229) = addf (W24 m ρ c (Proc.devRef .tc main_v195)) (W24 m ρ c (Proc.devRef .tc main_v228)) :=
  s10_v229 (W24 m ρ c)

theorem k_v242 (c : Dev nD) : W29 m ρ c (Proc.devRef .tc main_v242) = rowReshape128 (colMean200k128 (addf (W24 m ρ c (Proc.devRef .tc main_v195)) (W24 m ρ c (Proc.devRef .tc main_v228)))) :=
  s10_v242 (W24 m ρ c)

theorem k_v243 (c : Dev nD) : W29 m ρ c (Proc.devRef .tc main_v243) = rowReshape128 (colVar200k128 (addf (W24 m ρ c (Proc.devRef .tc main_v195)) (W24 m ρ c (Proc.devRef .tc main_v228)))) :=
  s10_v243 (W24 m ρ c)

theorem k_v244 (c : Dev nD) : W29 m ρ c (Proc.devRef .tc main_v244) = rowReshape128 (slice2r0_128 (W24 m ρ c (Proc.devRef .tc main_arg20))) :=
  s10_v244 (W24 m ρ c)

theorem k_v245 (c : Dev nD) : W29 m ρ c (Proc.devRef .tc main_v245) = rowReshape128 (slice2r0_128 (W24 m ρ c (Proc.devRef .tc main_arg21))) :=
  s10_v245 (W24 m ρ c)

theorem k_v251 (c : Dev nD) : W31 m ρ c (Proc.devRef .tc main_v251) = rowReshape128 (colMean100k128 (W24 m ρ c (Proc.devRef .tc main_v162))) :=
  calc W31 m ρ c (Proc.devRef .tc main_v251)
    _ = rowReshape128 (W30 m ρ c (Proc.devRef .tc main_v236)) := s11_v251 (W30 m ρ c)
    _ = rowReshape128 (W29 m ρ c (Proc.devRef .tc main_v236)) := by rw [W30_of_ne m ρ c main_v236 (by decide)]
    _ = _ := congrArg rowReshape128 (s10_v236 (W24 m ρ c))

theorem k_v252 (c : Dev nD) : W31 m ρ c (Proc.devRef .tc main_v252) = rowReshape128 (colVar100k128 (W24 m ρ c (Proc.devRef .tc main_v162))) :=
  calc W31 m ρ c (Proc.devRef .tc main_v252)
    _ = rowReshape128 (W30 m ρ c (Proc.devRef .tc main_v237)) := s11_v252 (W30 m ρ c)
    _ = rowReshape128 (W29 m ρ c (Proc.devRef .tc main_v237)) := by rw [W30_of_ne m ρ c main_v237 (by decide)]
    _ = _ := congrArg rowReshape128 (s10_v237 (W24 m ρ c))

theorem k_v253 (c : Dev nD) : W31 m ρ c (Proc.devRef .tc main_v253) = rowReshape128 (slice2r1_128 (W24 m ρ c (Proc.devRef .tc main_arg20))) :=
  calc W31 m ρ c (Proc.devRef .tc main_v253)
    _ = rowReshape128 (slice2r1_128 (W30 m ρ c (Proc.devRef .tc main_arg20))) := s11_v253 (W30 m ρ c)
    _ = rowReshape128 (slice2r1_128 (W29 m ρ c (Proc.devRef .tc main_arg20))) := by rw [W30_of_ne m ρ c main_arg20 (by decide)]
    _ = _ := congrArg (fun a => rowReshape128 (slice2r1_128 a)) (s10_arg20 (W24 m ρ c))

theorem k_v254 (c : Dev nD) : W31 m ρ c (Proc.devRef .tc main_v254) = rowReshape128 (slice2r1_128 (W24 m ρ c (Proc.devRef .tc main_arg21))) :=
  calc W31 m ρ c (Proc.devRef .tc main_v254)
    _ = rowReshape128 (slice2r1_128 (W30 m ρ c (Proc.devRef .tc main_arg21))) := s11_v254 (W30 m ρ c)
    _ = rowReshape128 (slice2r1_128 (W29 m ρ c (Proc.devRef .tc main_arg21))) := by rw [W30_of_ne m ρ c main_arg21 (by decide)]
    _ = _ := congrArg (fun a => rowReshape128 (slice2r1_128 a)) (s10_arg21 (W24 m ρ c))

end Run

end Cert.KernelIdeal.Gen
-- ==== Proof.RStats1.lean ====
import proofs.«143223_j29772713296000_1_alg».proof.Proof.RefOps
import proofs.«143223_j29772713296000_1_alg».proof.Proof.HostStats
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo
open Cert.HostStats

variable {F : FTy → Type} [FloatOps F]

/-! # The reference's statistics stages

The stage before each batch norm adds the two account-side outputs (the account side only), takes row 0 or row 1 of
the scale and shift tables and the column mean and variance of the normalized array: the same host functions, in the
same order, as the kernel side's stretches, so each buffer is the same named function of the stage's inputs. -/

section Stage20

variable (V : Valuation τ sig (Elt F))

theorem sg20_v323 : StableHlo.after seg20 V (Proc.devRef .tc main_v323) = addf (V (Proc.devRef .tc main_v278)) (V (Proc.devRef .tc main_v322)) := by
  dsimp only [seg20]
  after_results_simp <;> (try simp only [TRef.ofBuf, TRef.toBuf, cast_eq]) <;> rfl

theorem sg20_v330 : StableHlo.after seg20 V (Proc.devRef .tc main_v330) = colMean200k128 (addf (V (Proc.devRef .tc main_v278)) (V (Proc.devRef .tc main_v322))) := by
  dsimp only [seg20]
  after_results_simp <;> (try simp only [TRef.ofBuf, TRef.toBuf, cast_eq]) <;> rfl

theorem sg20_v331 : StableHlo.after seg20 V (Proc.devRef .tc main_v331) = colVar200k128 (addf (V (Proc.devRef .tc main_v278)) (V (Proc.devRef .tc main_v322))) := by
  dsimp only [seg20]
  after_results_simp <;> (try simp only [TRef.ofBuf, TRef.toBuf, cast_eq]) <;> rfl

theorem sg20_v325 : StableHlo.after seg20 V (Proc.devRef .tc main_v325) = slice2r0_128 (V (Proc.devRef .tc main_arg20)) := by
  dsimp only [seg20]
  after_results_simp <;> (try simp only [TRef.ofBuf, TRef.toBuf, cast_eq]) <;> rfl

theorem sg20_v327 : StableHlo.after seg20 V (Proc.devRef .tc main_v327) = slice2r0_128 (V (Proc.devRef .tc main_arg21)) := by
  dsimp only [seg20]
  after_results_simp <;> (try simp only [TRef.ofBuf, TRef.toBuf, cast_eq]) <;> rfl

theorem sg22_v353 : StableHlo.after seg22 V (Proc.devRef .tc main_v353) = colMean100k128 (V (Proc.devRef .tc main_v234)) := by
  dsimp only [seg22]
  after_results_simp <;> (try simp only [TRef.ofBuf, TRef.toBuf, cast_eq]) <;> rfl

theorem sg22_v354 : StableHlo.after seg22 V (Proc.devRef .tc main_v354) = colVar100k128 (V (Proc.devRef .tc main_v234)) := by
  dsimp only [seg22]
  after_results_simp <;> (try simp only [TRef.ofBuf, TRef.toBuf, cast_eq]) <;> rfl

theorem sg22_v348 : StableHlo.after seg22 V (Proc.devRef .tc main_v348) = slice2r1_128 (V (Proc.devRef .tc main_arg20)) := by
  dsimp only [seg22]
  after_results_simp <;> (try simp only [TRef.ofBuf, TRef.toBuf, cast_eq]) <;> rfl

theorem sg22_v350 : StableHlo.after seg22 V (Proc.devRef .tc main_v350) = slice2r1_128 (V (Proc.devRef .tc main_arg21)) := by
  dsimp only [seg22]
  after_results_simp <;> (try simp only [TRef.ofBuf, TRef.toBuf, cast_eq]) <;> rfl

theorem r_v323 : R21 V (Proc.devRef .tc main_v323) = addf (R20 V (Proc.devRef .tc main_v278)) (R20 V (Proc.devRef .tc main_v322)) := sg20_v323 (R20 V)
theorem r_v330 : R21 V (Proc.devRef .tc main_v330) = colMean200k128 (addf (R20 V (Proc.devRef .tc main_v278)) (R20 V (Proc.devRef .tc main_v322))) := sg20_v330 (R20 V)
theorem r_v331 : R21 V (Proc.devRef .tc main_v331) = colVar200k128 (addf (R20 V (Proc.devRef .tc main_v278)) (R20 V (Proc.devRef .tc main_v322))) := sg20_v331 (R20 V)
theorem r_v325 : R21 V (Proc.devRef .tc main_v325) = slice2r0_128 (R20 V (Proc.devRef .tc main_arg20)) := sg20_v325 (R20 V)
theorem r_v327 : R21 V (Proc.devRef .tc main_v327) = slice2r0_128 (R20 V (Proc.devRef .tc main_arg21)) := sg20_v327 (R20 V)
theorem r_v353 : R23 V (Proc.devRef .tc main_v353) = colMean100k128 (R22 V (Proc.devRef .tc main_v234)) := sg22_v353 (R22 V)
theorem r_v354 : R23 V (Proc.devRef .tc main_v354) = colVar100k128 (R22 V (Proc.devRef .tc main_v234)) := sg22_v354 (R22 V)
theorem r_v348 : R23 V (Proc.devRef .tc main_v348) = slice2r1_128 (R22 V (Proc.devRef .tc main_arg20)) := sg22_v348 (R22 V)
theorem r_v350 : R23 V (Proc.devRef .tc main_v350) = slice2r1_128 (R22 V (Proc.devRef .tc main_arg21)) := sg22_v350 (R22 V)

end Stage20

end Cert.ReferenceIdeal.Run
-- ==== Proof.JoinBn1.lean ====
import proofs.«143223_j29772713296000_1_alg».proof.Proof.BnK10
import proofs.«143223_j29772713296000_1_alg».proof.Proof.BnK11
import proofs.«143223_j29772713296000_1_alg».proof.Proof.BnR
import proofs.«143223_j29772713296000_1_alg».proof.Proof.KStats1
import proofs.«143223_j29772713296000_1_alg».proof.Proof.RStats1
import proofs.«143223_j29772713296000_1_alg».proof.Proof.KCarry
import proofs.«143223_j29772713296000_1_alg».proof.Proof.RCarry
import Idealize.ShloMosaic.PureOps.Ideal
import Idealize.ShloMosaic.Lib.StableHlo.Run

set_option maxRecDepth 16384

noncomputable section

/-! # The normalised features after the second layer, on both sides

The kernel program computes the column statistics on the host, reshapes them and the scale and shift rows to one-row
arrays and runs a batch-normalisation region; the reference normalises by host operations and applies the rectifier.
Both are the batch normalisation with the rectifier of the same array by the same rows: the kernel multiplies by the
reciprocal square root where the reference divides by the square root, which agree because a column variance is not
negative. So equal sage outputs and equal scale and shift tables give equal normalised features. -/

namespace Cert.ReferenceIdeal.Run

open Cert.ReferenceIdeal Cert.ReferenceIdeal.Gen Idealize.ShloMosaic Idealize.ShloMosaic.TcCoe Idealize.SL.Sem Idealize.ShloMosaic.StableHlo

/-- Stage 21 is the reference's batch normalisation: its result is the composition, in the reference's order, of the
    array, the mean, the variance, the scale row and the shift row as the stage finds them. -/
theorem sg21_v346 (V : Valuation τ sig (Elt Ideal)) :
    StableHlo.after (seg21 (F := Ideal)) V (Proc.devRef .tc main_v346)
      = addf
        (mulf
          (Host.divf
            (subf (V (Proc.devRef .tc main_v323)) (broadcastInDim S200000x128 ![0, 1] bcast_S1x128_S200000x128_0_1 (broadcastInDim S1x128 ![1] bcast_S128_S1x128_1 (V (Proc.devRef .tc main_v330)))))
            (broadcastInDim S200000x128 ![0, 1] bcast_S1x128_S200000x128_0_1 (broadcastInDim S1x128 ![1] bcast_S128_S1x128_1
              (Host.sqrt (addf (V (Proc.devRef .tc main_v331)) (broadcastInDim S128 ![] bcast_S_S128 (constant (F := Ideal) S_ .f32 0x3727C5AC#32)))))))
          (broadcastInDim S200000x128 ![0, 1] bcast_S1x128_S200000x128_0_1 (broadcastInDim S1x128 ![1] bcast_S128_S1x128_1 (V (Proc.devRef .tc main_v325)))))
        (broadcastInDim S200000x128 ![0, 1] bcast_S1x128_S200000x128_0_1 (broadcastInDim S1x128 ![1] bcast_S128_S1x128_1 (V (Proc.devRef .tc main_v327)))) := by
  dsimp only [seg21]
  after_results_simp <;> (try simp only [TRef.ofBuf, TRef.toBuf, cast_eq]) <;> rfl

/-- Stage 24 is the rectifier: the maximum of the normalised array with the zero splat. -/
theorem sg24_v370 (V : Valuation τ sig (Elt Ideal)) :
    StableHlo.after (seg24 (F := Ideal)) V (Proc.devRef .tc main_v370)
      = maximumf (V (Proc.devRef .tc main_v346)) (broadcastInDim S200000x128 ![] bcast_S_S200000x128 (constant (F := Ideal) S_ .f32 0x00000000#32)) := by
  dsimp only [seg24]
  after_results_simp <;> (try simp only [TRef.ofBuf, TRef.toBuf, cast_eq]) <;> rfl

/-- Stage 23 is the reference's batch normalisation: its result is the composition, in the reference's order, of the
    array, the mean, the variance, the scale row and the shift row as the stage finds them. -/
theorem sg23_v369 (V : Valuation τ sig (Elt Ideal)) :
    StableHlo.after (seg23 (F := Ideal)) V (Proc.devRef .tc main_v369)
      = addf
        (mulf
          (Host.divf
            (subf (V (Proc.devRef .tc main_v234)) (broadcastInDim S100000x128 ![0, 1] bcast_S1x128_S100000x128_0_1 (broadcastInDim S1x128 ![1] bcast_S128_S1x128_1 (V (Proc.devRef .tc main_v353)))))
            (broadcastInDim S100000x128 ![0, 1] bcast_S1x128_S100000x128_0_1 (broadcastInDim S1x128 ![1] bcast_S128_S1x128_1
              (Host.sqrt (addf (V (Proc.devRef .tc main_v354)) (broadcastInDim S128 ![] bcast_S_S128 (constant (F := Ideal) S_ .f32 0x3727C5AC#32)))))))
          (broadcastInDim S100000x128 ![0, 1] bcast_S1x128_S100000x128_0_1 (broadcastInDim S1x128 ![1] bcast_S128_S1x128_1 (V (Proc.devRef .tc main_v348)))))
        (broadcastInDim S100000x128 ![0, 1] bcast_S1x128_S100000x128_0_1 (broadcastInDim S1x128 ![1] bcast_S128_S1x128_1 (V (Proc.devRef .tc main_v350)))) := by
  dsimp only [seg23]
  after_results_simp <;> (try simp only [TRef.ofBuf, TRef.toBuf, cast_eq]) <;> rfl

/-- Stage 25 is the rectifier: the maximum of the normalised array with the zero splat. -/
theorem sg25_v371 (V : Valuation τ sig (Elt Ideal)) :
    StableHlo.after (seg25 (F := Ideal)) V (Proc.devRef .tc main_v371)
      = maximumf (V (Proc.devRef .tc main_v369)) (broadcastInDim S100000x128 ![] bcast_S_S100000x128 (constant (F := Ideal) S_ .f32 0x00000000#32)) := by
  dsimp only [seg25]
  after_results_simp <;> (try simp only [TRef.ofBuf, TRef.toBuf, cast_eq]) <;> rfl

end Cert.ReferenceIdeal.Run

namespace Cert.Join

open Idealize.ShloMosaic Idealize.ShloMosaic.TcCoe Idealize.SL.Sem Idealize.ShloMosaic.StableHlo

/-- The account-side features after the second layer's normalisation: the kernel program's and the reference's are the batch normalisation with the rectifier of the sum of the two account-side sage outputs (equal by the earlier joining equalities), by its column mean and variance and row 0 of the scale and shift tables (equal by agreement). -/
theorem j_v246
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha20 : m' ((c.tc : Thread Cert.ReferenceIdeal.nD Cert.ReferenceIdeal.τ).loc Cert.ReferenceIdeal.main_arg20)
      = m ((c.tc : Thread Cert.KernelIdeal.nD Cert.KernelIdeal.τ).loc Cert.KernelIdeal.main_arg20))
    (ha21 : m' ((c.tc : Thread Cert.ReferenceIdeal.nD Cert.ReferenceIdeal.τ).loc Cert.ReferenceIdeal.main_arg21)
      = m ((c.tc : Thread Cert.KernelIdeal.nD Cert.KernelIdeal.τ).loc Cert.KernelIdeal.main_arg21))
    (j195 : Cert.KernelIdeal.Gen.W22 m ρ c (Proc.devRef .tc Cert.KernelIdeal.main_v195)
      = Cert.ReferenceIdeal.Run.R18 (launchContents m' c) (Proc.devRef .tc Cert.ReferenceIdeal.main_v278))
    (j228 : Cert.KernelIdeal.Gen.W24 m ρ c (Proc.devRef .tc Cert.KernelIdeal.main_v228)
      = Cert.ReferenceIdeal.Run.R20 (launchContents m' c) (Proc.devRef .tc Cert.ReferenceIdeal.main_v322)) :
    Cert.KernelIdeal.Gen.W30 m ρ c (Proc.devRef .tc Cert.KernelIdeal.main_v246)
      = Cert.ReferenceIdeal.Run.R25 (launchContents m' c) (Proc.devRef .tc Cert.ReferenceIdeal.main_v370) := by
  have hsc : Cert.ReferenceIdeal.S128.ShapeCasts Cert.ReferenceIdeal.S1x128 := by decide
  -- the kernel side: the region's value at the contents it finds, read back to the two sage outputs and the launch memory
  have hk : Cert.KernelIdeal.Gen.W30 m ρ c (Proc.devRef .tc Cert.KernelIdeal.main_v246)
      = Cert.Spec.bnRelu (addf (F := Ideal) (φ := .f32) (Cert.KernelIdeal.Gen.W22 m ρ c (Proc.devRef .tc Cert.KernelIdeal.main_v195)) (Cert.KernelIdeal.Gen.W24 m ρ c (Proc.devRef .tc Cert.KernelIdeal.main_v228)))
          (Cert.HostStats.rowReshape128 (F := Ideal) (Cert.HostStats.colMean200k128 (F := Ideal) (addf (F := Ideal) (φ := .f32) (Cert.KernelIdeal.Gen.W22 m ρ c (Proc.devRef .tc Cert.KernelIdeal.main_v195)) (Cert.KernelIdeal.Gen.W24 m ρ c (Proc.devRef .tc Cert.KernelIdeal.main_v228)))))
          (Cert.HostStats.rowReshape128 (F := Ideal) (Cert.HostStats.colVar200k128 (F := Ideal) (addf (F := Ideal) (φ := .f32) (Cert.KernelIdeal.Gen.W22 m ρ c (Proc.devRef .tc Cert.KernelIdeal.main_v195)) (Cert.KernelIdeal.Gen.W24 m ρ c (Proc.devRef .tc Cert.KernelIdeal.main_v228)))))
          (Cert.HostStats.rowReshape128 (F := Ideal) (Cert.HostStats.slice2r0_128 (F := Ideal) (m ((c.tc : Thread Cert.KernelIdeal.nD Cert.KernelIdeal.τ).loc Cert.KernelIdeal.main_arg20))))
          (Cert.HostStats.rowReshape128 (F := Ideal) (Cert.HostStats.slice2r0_128 (F := Ideal) (m ((c.tc : Thread Cert.KernelIdeal.nD Cert.KernelIdeal.τ).loc Cert.KernelIdeal.main_arg21)))) := by
    refine ((Cert.KernelIdeal.Gen.W30_arr m ρ c 5).trans (Cert.KernelIdeal.Gen.reg10_val (Cert.KernelIdeal.Gen.V29 m ρ) c)).trans ?_
    show Cert.Spec.bnRelu (Cert.KernelIdeal.Gen.W29 m ρ c (Proc.devRef .tc Cert.KernelIdeal.main_v229)) (Cert.KernelIdeal.Gen.W29 m ρ c (Proc.devRef .tc Cert.KernelIdeal.main_v242)) (Cert.KernelIdeal.Gen.W29 m ρ c (Proc.devRef .tc Cert.KernelIdeal.main_v243))
        (Cert.KernelIdeal.Gen.W29 m ρ c (Proc.devRef .tc Cert.KernelIdeal.main_v244)) (Cert.KernelIdeal.Gen.W29 m ρ c (Proc.devRef .tc Cert.KernelIdeal.main_v245)) = _
    rw [Cert.KernelIdeal.Gen.k_v229, Cert.KernelIdeal.Gen.k_v242, Cert.KernelIdeal.Gen.k_v243, Cert.KernelIdeal.Gen.k_v244, Cert.KernelIdeal.Gen.k_v245,
      Cert.KernelIdeal.Carry.c_v195_22_24, Cert.KernelIdeal.Carry.c_arg20_0_24, Cert.KernelIdeal.Carry.c_arg21_0_24]
  -- the reference side: the rectifier's and the normalisation's stages at the contents before them, read back likewise
  have hr : Cert.ReferenceIdeal.Run.R25 (launchContents m' c) (Proc.devRef .tc Cert.ReferenceIdeal.main_v370)
      = Cert.Spec.bnRelu (addf (F := Ideal) (φ := .f32) (Cert.ReferenceIdeal.Run.R18 (launchContents m' c) (Proc.devRef .tc Cert.ReferenceIdeal.main_v278)) (Cert.ReferenceIdeal.Run.R20 (launchContents m' c) (Proc.devRef .tc Cert.ReferenceIdeal.main_v322)))
          (shapeCast Cert.ReferenceIdeal.S1x128 (Cert.HostStats.colMean200k128 (F := Ideal) (addf (F := Ideal) (φ := .f32) (Cert.ReferenceIdeal.Run.R18 (launchContents m' c) (Proc.devRef .tc Cert.ReferenceIdeal.main_v278)) (Cert.ReferenceIdeal.Run.R20 (launchContents m' c) (Proc.devRef .tc Cert.ReferenceIdeal.main_v322)))) hsc)
          (shapeCast Cert.ReferenceIdeal.S1x128 (Cert.HostStats.colVar200k128 (F := Ideal) (addf (F := Ideal) (φ := .f32) (Cert.ReferenceIdeal.Run.R18 (launchContents m' c) (Proc.devRef .tc Cert.ReferenceIdeal.main_v278)) (Cert.ReferenceIdeal.Run.R20 (launchContents m' c) (Proc.devRef .tc Cert.ReferenceIdeal.main_v322)))) hsc)
          (shapeCast Cert.ReferenceIdeal.S1x128 (Cert.HostStats.slice2r0_128 (F := Ideal) (m' ((c.tc : Thread Cert.ReferenceIdeal.nD Cert.ReferenceIdeal.τ).loc Cert.ReferenceIdeal.main_arg20))) hsc)
          (shapeCast Cert.ReferenceIdeal.S1x128 (Cert.HostStats.slice2r0_128 (F := Ideal) (m' ((c.tc : Thread Cert.ReferenceIdeal.nD Cert.ReferenceIdeal.τ).loc Cert.ReferenceIdeal.main_arg21))) hsc) := by
    refine (Cert.ReferenceIdeal.Run.sg24_v370 (Cert.ReferenceIdeal.Run.R24 (launchContents m' c))).trans ?_
    rw [Cert.ReferenceIdeal.Run.rc_v346_22_24,
      show Cert.ReferenceIdeal.Run.R22 (launchContents m' c) (Proc.devRef .tc Cert.ReferenceIdeal.main_v346) = _ from
        Cert.ReferenceIdeal.Run.sg21_v346 (Cert.ReferenceIdeal.Run.R21 (launchContents m' c)),
      Cert.ReferenceIdeal.Run.r_v323, Cert.ReferenceIdeal.Run.r_v330, Cert.ReferenceIdeal.Run.r_v331, Cert.ReferenceIdeal.Run.r_v325, Cert.ReferenceIdeal.Run.r_v327,
      Cert.ReferenceIdeal.Run.rc_v278_18_20, Cert.ReferenceIdeal.Run.rc_arg20_0_20, Cert.ReferenceIdeal.Run.rc_arg21_0_20]
    exact Cert.ReferenceIdeal.Dense.bnRelu_200000x128 hsc _ _ _ _ _ (fun j => Cert.HostStats.colVar200k128_nonneg _ j)
  rw [hk, hr, j195, j228, ha20, ha21]
  rfl

/-- The merchant-side features after the second layer's normalisation: both are the batch normalisation with the rectifier of the merchant-side sage output (equal by the earlier joining equality), by its column mean and variance and row 1 of the scale and shift tables (equal by agreement). -/
theorem j_v255
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha20 : m' ((c.tc : Thread Cert.ReferenceIdeal.nD Cert.ReferenceIdeal.τ).loc Cert.ReferenceIdeal.main_arg20)
      = m ((c.tc : Thread Cert.KernelIdeal.nD Cert.KernelIdeal.τ).loc Cert.KernelIdeal.main_arg20))
    (ha21 : m' ((c.tc : Thread Cert.ReferenceIdeal.nD Cert.ReferenceIdeal.τ).loc Cert.ReferenceIdeal.main_arg21)
      = m ((c.tc : Thread Cert.KernelIdeal.nD Cert.KernelIdeal.τ).loc Cert.KernelIdeal.main_arg21))
    (j162 : Cert.KernelIdeal.Gen.W20 m ρ c (Proc.devRef .tc Cert.KernelIdeal.main_v162)
      = Cert.ReferenceIdeal.Run.R16 (launchContents m' c) (Proc.devRef .tc Cert.ReferenceIdeal.main_v234)) :
    Cert.KernelIdeal.Gen.W32 m ρ c (Proc.devRef .tc Cert.KernelIdeal.main_v255)
      = Cert.ReferenceIdeal.Run.R26 (launchContents m' c) (Proc.devRef .tc Cert.ReferenceIdeal.main_v371) := by
  have hsc : Cert.ReferenceIdeal.S128.ShapeCasts Cert.ReferenceIdeal.S1x128 := by decide
  -- the kernel side: the region's value at the contents it finds, read back to the sage output and the launch memory
  have hk : Cert.KernelIdeal.Gen.W32 m ρ c (Proc.devRef .tc Cert.KernelIdeal.main_v255)
      = Cert.Spec.bnRelu (Cert.KernelIdeal.Gen.W20 m ρ c (Proc.devRef .tc Cert.KernelIdeal.main_v162))
          (Cert.HostStats.rowReshape128 (F := Ideal) (Cert.HostStats.colMean100k128 (F := Ideal) (Cert.KernelIdeal.Gen.W20 m ρ c (Proc.devRef .tc Cert.KernelIdeal.main_v162))))
          (Cert.HostStats.rowReshape128 (F := Ideal) (Cert.HostStats.colVar100k128 (F := Ideal) (Cert.KernelIdeal.Gen.W20 m ρ c (Proc.devRef .tc Cert.KernelIdeal.main_v162))))
          (Cert.HostStats.rowReshape128 (F := Ideal) (Cert.HostStats.slice2r1_128 (F := Ideal) (m ((c.tc : Thread Cert.KernelIdeal.nD Cert.KernelIdeal.τ).loc Cert.KernelIdeal.main_arg20))))
          (Cert.HostStats.rowReshape128 (F := Ideal) (Cert.HostStats.slice2r1_128 (F := Ideal) (m ((c.tc : Thread Cert.KernelIdeal.nD Cert.KernelIdeal.τ).loc Cert.KernelIdeal.main_arg21)))) := by
    refine ((Cert.KernelIdeal.Gen.W32_arr m ρ c 5).trans (Cert.KernelIdeal.Gen.reg11_val (Cert.KernelIdeal.Gen.V31 m ρ) c)).trans ?_
    show Cert.Spec.bnRelu (Cert.KernelIdeal.Gen.W31 m ρ c (Proc.devRef .tc Cert.KernelIdeal.main_v162)) (Cert.KernelIdeal.Gen.W31 m ρ c (Proc.devRef .tc Cert.KernelIdeal.main_v251)) (Cert.KernelIdeal.Gen.W31 m ρ c (Proc.devRef .tc Cert.KernelIdeal.main_v252))
        (Cert.KernelIdeal.Gen.W31 m ρ c (Proc.devRef .tc Cert.KernelIdeal.main_v253)) (Cert.KernelIdeal.Gen.W31 m ρ c (Proc.devRef .tc Cert.KernelIdeal.main_v254)) = _
    rw [Cert.KernelIdeal.Carry.c_v162_20_31, Cert.KernelIdeal.Gen.k_v251, Cert.KernelIdeal.Gen.k_v252, Cert.KernelIdeal.Gen.k_v253, Cert.KernelIdeal.Gen.k_v254,
      Cert.KernelIdeal.Carry.c_v162_20_24, Cert.KernelIdeal.Carry.c_arg20_0_24, Cert.KernelIdeal.Carry.c_arg21_0_24]
  -- the reference side: the rectifier's and the normalisation's stages at the contents before them, read back likewise
  have hr : Cert.ReferenceIdeal.Run.R26 (launchContents m' c) (Proc.devRef .tc Cert.ReferenceIdeal.main_v371)
      = Cert.Spec.bnRelu (Cert.ReferenceIdeal.Run.R16 (launchContents m' c) (Proc.devRef .tc Cert.ReferenceIdeal.main_v234))
          (shapeCast Cert.ReferenceIdeal.S1x128 (Cert.HostStats.colMean100k128 (F := Ideal) (Cert.ReferenceIdeal.Run.R16 (launchContents m' c) (Proc.devRef .tc Cert.ReferenceIdeal.main_v234))) hsc)
          (shapeCast Cert.ReferenceIdeal.S1x128 (Cert.HostStats.colVar100k128 (F := Ideal) (Cert.ReferenceIdeal.Run.R16 (launchContents m' c) (Proc.devRef .tc Cert.ReferenceIdeal.main_v234))) hsc)
          (shapeCast Cert.ReferenceIdeal.S1x128 (Cert.HostStats.slice2r1_128 (F := Ideal) (m' ((c.tc : Thread Cert.ReferenceIdeal.nD Cert.ReferenceIdeal.τ).loc Cert.ReferenceIdeal.main_arg20))) hsc)
          (shapeCast Cert.ReferenceIdeal.S1x128 (Cert.HostStats.slice2r1_128 (F := Ideal) (m' ((c.tc : Thread Cert.ReferenceIdeal.nD Cert.ReferenceIdeal.τ).loc Cert.ReferenceIdeal.main_arg21))) hsc) := by
    refine (Cert.ReferenceIdeal.Run.sg25_v371 (Cert.ReferenceIdeal.Run.R25 (launchContents m' c))).trans ?_
    rw [Cert.ReferenceIdeal.Run.rc_v369_24_25,
      show Cert.ReferenceIdeal.Run.R24 (launchContents m' c) (Proc.devRef .tc Cert.ReferenceIdeal.main_v369) = _ from
        Cert.ReferenceIdeal.Run.sg23_v369 (Cert.ReferenceIdeal.Run.R23 (launchContents m' c)),
      Cert.ReferenceIdeal.Run.rc_v234_16_23, Cert.ReferenceIdeal.Run.r_v353, Cert.ReferenceIdeal.Run.r_v354, Cert.ReferenceIdeal.Run.r_v348, Cert.ReferenceIdeal.Run.r_v350,
      Cert.ReferenceIdeal.Run.rc_v234_16_22, Cert.ReferenceIdeal.Run.rc_arg20_0_22, Cert.ReferenceIdeal.Run.rc_arg21_0_22]
    exact Cert.ReferenceIdeal.Dense.bnRelu_100000x128 hsc _ _ _ _ _ (fun j => Cert.HostStats.colVar100k128_nonneg _ j)
  rw [hk, hr, j162, ha20, ha21]
  rfl

end Cert.Join

end
-- ==== Proof.BnK15.lean ====
/-
  Region 15: batch normalisation (no rectifier) of a 200000 × 64 array, forty row blocks of 5000 rows.

  Each point of the grid loads one block of 5000 rows of the array and the four statistics rows (each a one-block window
  that every point reads whole), and stores into the same rows of the result

      (x − mu) · rsqrt (var + ε) · g + b,

  the statistics rows repeated down the block. The blocks tile the result, so after the run the result array is that
  function of the array and the four rows at every index: `Cert.Spec.bn`.
-/
import proofs.«143223_j29772713296000_1_alg».proof.Proof.Gen.KernelIdeal.Frame
import proofs.«143223_j29772713296000_1_alg».proof.Proof.SpecBn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

/-- The zero offsets of a whole-block access, as the constant function. -/
theorem bn15_off_zero : (![0, 0] : Fin 2 → Nat) = fun _ => 0 := funext fun a => by fin_cases a <;> rfl

/-- The body's arithmetic at row `p`, column `q` of a block: the block's entry less the mean row's entry `q`, times the
    reciprocal square root of the variance row's entry `q` plus `ε`, times the scale row's entry, plus the shift row's
    entry. The same-shape casts are the identity and a `[1, 64]` row repeated down the block
    reads its entry `q` at every row. -/
theorem bn15_pay_apply (x0 : Vec Ideal S5000x64 .f32) (x1 x2 x3 x4 : Vec Ideal S1x64 .f32) (p : Fin 5000) (q : Fin 64) :
    k15_pay1 (F := Ideal) x0 x1 x2 x3 x4 (ix2 p q)
      = (x0 (ix2 p q) - x1 (ix2 (0 : Fin 1) q)) * Ideal.rsqrt (x2 (ix2 (0 : Fin 1) q) + Cert.Spec.bnEps)
          * x3 (ix2 (0 : Fin 1) q) + x4 (ix2 (0 : Fin 1) q) := by
  unfold k15_pay1
  simp only [shapeCast_self]
  rw [addf_apply, mulf_apply, mulf_apply, subf_apply,
    broadcastTo_1b_ab_apply, broadcastTo_1b_ab_apply, broadcastTo_1b_ab_apply, broadcastTo_1b_ab_apply]
  rfl

/-- A block whose entries are the array's entries along a map `e` of indices that keeps the column, together with the
    four statistics rows themselves: the body's result at `y` is the normalised array at `e y`. -/
theorem bn15_pay_rows (X : S200000x64.Idx → EReal) (M Vr G B : S1x64.Idx → EReal)
    (x0 : Vec Ideal S5000x64 .f32) (x1 x2 x3 x4 : Vec Ideal S1x64 .f32)
    (e : S5000x64.Idx → S200000x64.Idx) (he : ∀ y, ((e y) 1).val = (y 1).val)
    (h0 : ∀ y, x0 y = X (e y)) (h1 : x1 = M) (h2 : x2 = Vr) (h3 : x3 = G) (h4 : x4 = B) (y : S5000x64.Idx) :
    k15_pay1 (F := Ideal) x0 x1 x2 x3 x4 y = Cert.Spec.bn X M Vr G B (e y) := by
  subst h1 h2 h3 h4
  obtain ⟨p, q, rfl⟩ : ∃ (p : Fin 5000) (q : Fin 64), y = ix2 p q := ⟨y 0, y 1, eq_ix2 y⟩
  have hidx : (ix2 (0 : Fin 1) q : S1x64.Idx) = ix2 (0 : Fin 1) ((e (ix2 p q)) 1) := by
    funext a
    match a with
    | ⟨0, _⟩ => rfl
    | ⟨1, _⟩ => exact Fin.ext (he (ix2 p q)).symm
  rw [bn15_pay_apply, h0, hidx]
  rfl

variable (V : (c : Dev nD) → (b : Ref sig .tc) → Buf (Elt Ideal) ((c : Thread nD τ).loc b))

/-- The index maps over the grid: the array's window and the result's window are at the same row block, which is the
    point's number; every other block index is zero. -/
theorem bn15_idx : ∀ t : Fin cfg15.N,
    win15_0.index t (0 : Fin 2) = win15_5.index t (0 : Fin 2) ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = t.val ∧ win15_5.index t (1 : Fin 2) = 0 :=
  (by decide +kernel : ∀ t : Fin grid15.N, _)

/-- What point `t` writes back is block `t` of the normalised array. -/
theorem bn15_flushed (c : Dev nD) (t : Fin cfg15.N) :
    (dat15 (F := Ideal) V c).flushed 5 t = ((cfg15.win 5).blk t).view.read (Elt Ideal)
      (Cert.Spec.bn (V c main_v355) (V c main_v368) (V c main_v369) (V c main_v370) (V c main_v371)) := by
  show (cfg15.win 5).cut (grid15.coords t) ((dat15 (F := Ideal) V c).after 5 t) = _
  rw [after15_5]
  unfold out15_5
  rw [View.canon_unit_zero bn15_off_zero]
  simp only [View.ld_unit_zero (S := S5000x64) bn15_off_zero, View.ld_unit_zero (S := S1x64) bn15_off_zero]
  obtain ⟨a00, a01, a10, a11, a20, a21, a30, a31, a40, a41, a50, a51⟩ := bn15_idx t
  funext j
  refine (bn15_pay_rows (V c main_v355) (V c main_v368) (V c main_v369) (V c main_v370) (V c main_v371)
    (iblk15 V c 0 t) (iblk15 V c 1 t) (iblk15 V c 2 t) (iblk15 V c 3 t) (iblk15 V c 4 t)
    (fun y => ((cfg15.win 5).blk t).view.emb y) ?_ ?_ ?_ ?_ ?_ ?_ j).trans ?_
  · intro y
    show win15_5.index t (1 : Fin 2) * 64 + 1 * (y 1).val = (y 1).val
    omega
  · intro y
    show V c main_v355 (((cfg15.win 0).blk t).view.emb y) = V c main_v355 (((cfg15.win 5).blk t).view.emb y)
    refine congrArg (V c main_v355) (funext fun a => Fin.ext ?_)
    match a with
    | ⟨0, _⟩ =>
      show win15_0.index t (0 : Fin 2) * 5000 + 1 * (y 0).val = win15_5.index t (0 : Fin 2) * 5000 + 1 * (y 0).val
      omega
    | ⟨1, _⟩ =>
      show win15_0.index t (1 : Fin 2) * 64 + 1 * (y 1).val = win15_5.index t (1 : Fin 2) * 64 + 1 * (y 1).val
      omega
  · funext y
    show V c main_v368 (((cfg15.win 1).blk t).view.emb y) = V c main_v368 y
    refine congrArg (V c main_v368) (funext fun a => Fin.ext ?_)
    match a with
    | ⟨0, _⟩ => show win15_1.index t (0 : Fin 2) * 1 + 1 * (y 0).val = (y 0).val; omega
    | ⟨1, _⟩ => show win15_1.index t (1 : Fin 2) * 64 + 1 * (y 1).val = (y 1).val; omega
  · funext y
    show V c main_v369 (((cfg15.win 2).blk t).view.emb y) = V c main_v369 y
    refine congrArg (V c main_v369) (funext fun a => Fin.ext ?_)
    match a with
    | ⟨0, _⟩ => show win15_2.index t (0 : Fin 2) * 1 + 1 * (y 0).val = (y 0).val; omega
    | ⟨1, _⟩ => show win15_2.index t (1 : Fin 2) * 64 + 1 * (y 1).val = (y 1).val; omega
  · funext y
    show V c main_v370 (((cfg15.win 3).blk t).view.emb y) = V c main_v370 y
    refine congrArg (V c main_v370) (funext fun a => Fin.ext ?_)
    match a with
    | ⟨0, _⟩ => show win15_3.index t (0 : Fin 2) * 1 + 1 * (y 0).val = (y 0).val; omega
    | ⟨1, _⟩ => show win15_3.index t (1 : Fin 2) * 64 + 1 * (y 1).val = (y 1).val; omega
  · funext y
    show V c main_v371 (((cfg15.win 4).blk t).view.emb y) = V c main_v371 y
    refine congrArg (V c main_v371) (funext fun a => Fin.ext ?_)
    match a with
    | ⟨0, _⟩ => show win15_4.index t (0 : Fin 2) * 1 + 1 * (y 0).val = (y 0).val; omega
    | ⟨1, _⟩ => show win15_4.index t (1 : Fin 2) * 64 + 1 * (y 1).val = (y 1).val; omega
  · rfl

/-- An index of the result is in point `t`'s block exactly when each coordinate is in the block's range on its axis. -/
theorem bn15_mem_blk (t : Fin cfg15.N) (i : S200000x64.Idx) :
    i ∈ ((cfg15.win 5).blk t).view.set ↔ ∀ a : Fin 2, win15_5.index t a * S5000x64.size a ≤ (i a).val
      ∧ (i a).val < win15_5.index t a * S5000x64.size a + S5000x64.size a := by
  show i ∈ ((View.whole main_v372).slice (win15_5.rect t)).set ↔ _
  rw [View.set_slice_whole, Rect.mem_set_unit]
  exact Iff.rfl

/-- Every index of the result is in some point's block: row `r` is in block `r / 5000`. -/
theorem bn15_cover (i : S200000x64.Idx) :
    ∃ t : Fin cfg15.N, (cfg15.win 5).flush t = true ∧ i ∈ ((cfg15.win 5).blk t).view.set := by
  have hN : cfg15.N = 40 := N_15
  have hi0 : (i 0).val < 200000 := (i 0).isLt
  have hi1 : (i 1).val < 64 := (i 1).isLt
  have ht : (i 0).val / 5000 < cfg15.N := by rw [hN]; omega
  obtain ⟨-, -, -, -, -, -, -, -, -, -, a50, a51⟩ := bn15_idx ⟨(i 0).val / 5000, ht⟩
  refine ⟨⟨(i 0).val / 5000, ht⟩, flush15_5 _, ?_⟩
  rw [bn15_mem_blk]
  intro a
  match a with
  | ⟨0, _⟩ =>
    show win15_5.index ⟨(i 0).val / 5000, ht⟩ (0 : Fin 2) * 5000 ≤ (i 0).val
      ∧ (i 0).val < win15_5.index ⟨(i 0).val / 5000, ht⟩ (0 : Fin 2) * 5000 + 5000
    rw [a50]
    show (i 0).val / 5000 * 5000 ≤ (i 0).val ∧ (i 0).val < (i 0).val / 5000 * 5000 + 5000
    omega
  | ⟨1, _⟩ =>
    show win15_5.index ⟨(i 0).val / 5000, ht⟩ (1 : Fin 2) * 64 ≤ (i 1).val
      ∧ (i 1).val < win15_5.index ⟨(i 0).val / 5000, ht⟩ (1 : Fin 2) * 64 + 64
    rw [a51]
    omega

/-- After region 15 the result array is the batch normalisation of the array by the four rows, at the
    contents the region was entered with. -/
theorem reg15_val (c : Dev nD) :
    (dat15 (F := Ideal) V c).arrAt 5 cfg15.N
      = Cert.Spec.bn (V c main_v355) (V c main_v368) (V c main_v369) (V c main_v370) (V c main_v371) :=
  (dat15 (F := Ideal) V c).arrAt_eq_of_cover 5 _ (fun t _ => bn15_flushed V c t) (fun i => bn15_cover i)

end Cert.KernelIdeal.Gen

end
-- ==== Proof.KStats2.lean ====
import proofs.«143223_j29772713296000_1_alg».proof.Proof.Gen.KernelIdeal.Frame
import proofs.«143223_j29772713296000_1_alg».proof.Proof.HostStats
import Idealize.ShloMosaic.Lib.StableHlo.Run

noncomputable section

namespace Cert.KernelIdeal.Gen

open Idealize.ShloMosaic Idealize.ShloMosaic.TcCoe Idealize.ShloMosaic.StableHlo
open Idealize.SL.Sem
open Cert.HostStats

variable {F : FTy → Type} [FloatOps F]

/-! # The statistics stretches before a batch norm's two regions

Between the last sage region's exit and the account-side batch norm's entry the host adds the two account-side outputs,
takes the column mean and variance of the sum and of the merchant-side output, and reshapes them and row 0 of the scale
and shift tables to one row; before the merchant-side batch norm it reshapes the merchant-side statistics and row 1 of
the tables. Each buffer below is read off the fold of those operations from arbitrary contents `V`. -/

section Stretch

variable (V : Valuation τ sig (Elt F))

theorem s15_v355 : StableHlo.after hostOps15_4 (StableHlo.after hostOps15_3 (StableHlo.after hostOps15_2 (StableHlo.after hostOps15_1 (StableHlo.after hostOps15 V)))) (Proc.devRef .tc main_v355) = addf (V (Proc.devRef .tc main_v321)) (V (Proc.devRef .tc main_v354)) := by
  dsimp only [hostOps15, hostOps15_1, hostOps15_2, hostOps15_3, hostOps15_4]
  after_results_simp <;> (try simp only [TRef.ofBuf, TRef.toBuf, cast_eq]) <;> rfl

theorem s15_v368 : StableHlo.after hostOps15_4 (StableHlo.after hostOps15_3 (StableHlo.after hostOps15_2 (StableHlo.after hostOps15_1 (StableHlo.after hostOps15 V)))) (Proc.devRef .tc main_v368) = rowReshape64 (colMean200k64 (addf (V (Proc.devRef .tc main_v321)) (V (Proc.devRef .tc main_v354)))) := by
  dsimp only [hostOps15, hostOps15_1, hostOps15_2, hostOps15_3, hostOps15_4]
  after_results_simp <;> (try simp only [TRef.ofBuf, TRef.toBuf, cast_eq]) <;> rfl

theorem s15_v369 : StableHlo.after hostOps15_4 (StableHlo.after hostOps15_3 (StableHlo.after hostOps15_2 (StableHlo.after hostOps15_1 (StableHlo.after hostOps15 V)))) (Proc.devRef .tc main_v369) = rowReshape64 (colVar200k64 (addf (V (Proc.devRef .tc main_v321)) (V (Proc.devRef .tc main_v354)))) := by
  dsimp only [hostOps15, hostOps15_1, hostOps15_2, hostOps15_3, hostOps15_4]
  after_results_simp <;> (try simp only [TRef.ofBuf, TRef.toBuf, cast_eq]) <;> rfl

theorem s15_v370 : StableHlo.after hostOps15_4 (StableHlo.after hostOps15_3 (StableHlo.after hostOps15_2 (StableHlo.after hostOps15_1 (StableHlo.after hostOps15 V)))) (Proc.devRef .tc main_v370) = rowReshape64 (slice2r0_64 (V (Proc.devRef .tc main_arg22))) := by
  dsimp only [hostOps15, hostOps15_1, hostOps15_2, hostOps15_3, hostOps15_4]
  after_results_simp <;> (try simp only [TRef.ofBuf, TRef.toBuf, cast_eq]) <;> rfl

theorem s15_v371 : StableHlo.after hostOps15_4 (StableHlo.after hostOps15_3 (StableHlo.after hostOps15_2 (StableHlo.after hostOps15_1 (StableHlo.after hostOps15 V)))) (Proc.devRef .tc main_v371) = rowReshape64 (slice2r0_64 (V (Proc.devRef .tc main_arg23))) := by
  dsimp only [hostOps15, hostOps15_1, hostOps15_2, hostOps15_3, hostOps15_4]
  after_results_simp <;> (try simp only [TRef.ofBuf, TRef.toBuf, cast_eq]) <;> rfl

theorem s15_v362 : StableHlo.after hostOps15_4 (StableHlo.after hostOps15_3 (StableHlo.after hostOps15_2 (StableHlo.after hostOps15_1 (StableHlo.after hostOps15 V)))) (Proc.devRef .tc main_v362) = colMean100k64 (V (Proc.devRef .tc main_v288)) := by
  dsimp only [hostOps15, hostOps15_1, hostOps15_2, hostOps15_3, hostOps15_4]
  after_results_simp <;> (try simp only [TRef.ofBuf, TRef.toBuf, cast_eq]) <;> rfl

theorem s15_v363 : StableHlo.after hostOps15_4 (StableHlo.after hostOps15_3 (StableHlo.after hostOps15_2 (StableHlo.after hostOps15_1 (StableHlo.after hostOps15 V)))) (Proc.devRef .tc main_v363) = colVar100k64 (V (Proc.devRef .tc main_v288)) := by
  dsimp only [hostOps15, hostOps15_1, hostOps15_2, hostOps15_3, hostOps15_4]
  after_results_simp <;> (try simp only [TRef.ofBuf, TRef.toBuf, cast_eq]) <;> rfl

theorem s15_arg22 : StableHlo.after hostOps15_4 (StableHlo.after hostOps15_3 (StableHlo.after hostOps15_2 (StableHlo.after hostOps15_1 (StableHlo.after hostOps15 V)))) (Proc.devRef .tc main_arg22) = V (Proc.devRef .tc main_arg22) := by
  dsimp only [hostOps15, hostOps15_1, hostOps15_2, hostOps15_3, hostOps15_4]
  after_results_simp <;> (try simp only [TRef.ofBuf, TRef.toBuf, cast_eq]) <;> rfl

theorem s15_arg23 : StableHlo.after hostOps15_4 (StableHlo.after hostOps15_3 (StableHlo.after hostOps15_2 (StableHlo.after hostOps15_1 (StableHlo.after hostOps15 V)))) (Proc.devRef .tc main_arg23) = V (Proc.devRef .tc main_arg23) := by
  dsimp only [hostOps15, hostOps15_1, hostOps15_2, hostOps15_3, hostOps15_4]
  after_results_simp <;> (try simp only [TRef.ofBuf, TRef.toBuf, cast_eq]) <;> rfl

theorem s16_v377 : StableHlo.after hostOps16 V (Proc.devRef .tc main_v377) = rowReshape64 (V (Proc.devRef .tc main_v362)) := by
  dsimp only [hostOps16]
  after_results_simp <;> (try simp only [TRef.ofBuf, TRef.toBuf, cast_eq]) <;> rfl

theorem s16_v378 : StableHlo.after hostOps16 V (Proc.devRef .tc main_v378) = rowReshape64 (V (Proc.devRef .tc main_v363)) := by
  dsimp only [hostOps16]
  after_results_simp <;> (try simp only [TRef.ofBuf, TRef.toBuf, cast_eq]) <;> rfl

theorem s16_v379 : StableHlo.after hostOps16 V (Proc.devRef .tc main_v379) = rowReshape64 (slice2r1_64 (V (Proc.devRef .tc main_arg22))) := by
  dsimp only [hostOps16]
  after_results_simp <;> (try simp only [TRef.ofBuf, TRef.toBuf, cast_eq]) <;> rfl

theorem s16_v380 : StableHlo.after hostOps16 V (Proc.devRef .tc main_v380) = rowReshape64 (slice2r1_64 (V (Proc.devRef .tc main_arg23))) := by
  dsimp only [hostOps16]
  after_results_simp <;> (try simp only [TRef.ofBuf, TRef.toBuf, cast_eq]) <;> rfl

end Stretch

/-! ## At the run's boundaries

The account-side batch norm's entry contents read from the preceding region's exit contents; the merchant-side one's
likewise, the account-side region writing none of the buffers read. -/

section Run

variable (m : (ℓ : Loc nD τ sig) → Buf (Elt F) ℓ) (ρ : Dev nD → PrngReg)

theorem k_v355 (c : Dev nD) : W43 m ρ c (Proc.devRef .tc main_v355) = addf (W38 m ρ c (Proc.devRef .tc main_v321)) (W38 m ρ c (Proc.devRef .tc main_v354)) :=
  s15_v355 (W38 m ρ c)

theorem k_v368 (c : Dev nD) : W43 m ρ c (Proc.devRef .tc main_v368) = rowReshape64 (colMean200k64 (addf (W38 m ρ c (Proc.devRef .tc main_v321)) (W38 m ρ c (Proc.devRef .tc main_v354)))) :=
  s15_v368 (W38 m ρ c)

theorem k_v369 (c : Dev nD) : W43 m ρ c (Proc.devRef .tc main_v369) = rowReshape64 (colVar200k64 (addf (W38 m ρ c (Proc.devRef .tc main_v321)) (W38 m ρ c (Proc.devRef .tc main_v354)))) :=
  s15_v369 (W38 m ρ c)

theorem k_v370 (c : Dev nD) : W43 m ρ c (Proc.devRef .tc main_v370) = rowReshape64 (slice2r0_64 (W38 m ρ c (Proc.devRef .tc main_arg22))) :=
  s15_v370 (W38 m ρ c)

theorem k_v371 (c : Dev nD) : W43 m ρ c (Proc.devRef .tc main_v371) = rowReshape64 (slice2r0_64 (W38 m ρ c (Proc.devRef .tc main_arg23))) :=
  s15_v371 (W38 m ρ c)

theorem k_v377 (c : Dev nD) : W45 m ρ c (Proc.devRef .tc main_v377) = rowReshape64 (colMean100k64 (W38 m ρ c (Proc.devRef .tc main_v288))) :=
  calc W45 m ρ c (Proc.devRef .tc main_v377)
    _ = rowReshape64 (W44 m ρ c (Proc.devRef .tc main_v362)) := s16_v377 (W44 m ρ c)
    _ = rowReshape64 (W43 m ρ c (Proc.devRef .tc main_v362)) := by rw [W44_of_ne m ρ c main_v362 (by decide)]
    _ = _ := congrArg rowReshape64 (s15_v362 (W38 m ρ c))

theorem k_v378 (c : Dev nD) : W45 m ρ c (Proc.devRef .tc main_v378) = rowReshape64 (colVar100k64 (W38 m ρ c (Proc.devRef .tc main_v288))) :=
  calc W45 m ρ c (Proc.devRef .tc main_v378)
    _ = rowReshape64 (W44 m ρ c (Proc.devRef .tc main_v363)) := s16_v378 (W44 m ρ c)
    _ = rowReshape64 (W43 m ρ c (Proc.devRef .tc main_v363)) := by rw [W44_of_ne m ρ c main_v363 (by decide)]
    _ = _ := congrArg rowReshape64 (s15_v363 (W38 m ρ c))

theorem k_v379 (c : Dev nD) : W45 m ρ c (Proc.devRef .tc main_v379) = rowReshape64 (slice2r1_64 (W38 m ρ c (Proc.devRef .tc main_arg22))) :=
  calc W45 m ρ c (Proc.devRef .tc main_v379)
    _ = rowReshape64 (slice2r1_64 (W44 m ρ c (Proc.devRef .tc main_arg22))) := s16_v379 (W44 m ρ c)
    _ = rowReshape64 (slice2r1_64 (W43 m ρ c (Proc.devRef .tc main_arg22))) := by rw [W44_of_ne m ρ c main_arg22 (by decide)]
    _ = _ := congrArg (fun a => rowReshape64 (slice2r1_64 a)) (s15_arg22 (W38 m ρ c))

theorem k_v380 (c : Dev nD) : W45 m ρ c (Proc.devRef .tc main_v380) = rowReshape64 (slice2r1_64 (W38 m ρ c (Proc.devRef .tc main_arg23))) :=
  calc W45 m ρ c (Proc.devRef .tc main_v380)
    _ = rowReshape64 (slice2r1_64 (W44 m ρ c (Proc.devRef .tc main_arg23))) := s16_v380 (W44 m ρ c)
    _ = rowReshape64 (slice2r1_64 (W43 m ρ c (Proc.devRef .tc main_arg23))) := by rw [W44_of_ne m ρ c main_arg23 (by decide)]
    _ = _ := congrArg (fun a => rowReshape64 (slice2r1_64 a)) (s15_arg23 (W38 m ρ c))

end Run

end Cert.KernelIdeal.Gen
-- ==== Proof.RStats2.lean ====
import proofs.«143223_j29772713296000_1_alg».proof.Proof.RefOps
import proofs.«143223_j29772713296000_1_alg».proof.Proof.HostStats
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo
open Cert.HostStats

variable {F : FTy → Type} [FloatOps F]

/-! # The reference's statistics stages

The stage before each batch norm adds the two account-side outputs (the account side only), takes row 0 or row 1 of
the scale and shift tables and the column mean and variance of the normalized array: the same host functions, in the
same order, as the kernel side's stretches, so each buffer is the same named function of the stage's inputs. -/

section Stage32

variable (V : Valuation τ sig (Elt F))

theorem sg32_v504 : StableHlo.after seg32 V (Proc.devRef .tc main_v504) = addf (V (Proc.devRef .tc main_v459)) (V (Proc.devRef .tc main_v503)) := by
  dsimp only [seg32]
  after_results_simp <;> (try simp only [TRef.ofBuf, TRef.toBuf, cast_eq]) <;> rfl

theorem sg32_v511 : StableHlo.after seg32 V (Proc.devRef .tc main_v511) = colMean200k64 (addf (V (Proc.devRef .tc main_v459)) (V (Proc.devRef .tc main_v503))) := by
  dsimp only [seg32]
  after_results_simp <;> (try simp only [TRef.ofBuf, TRef.toBuf, cast_eq]) <;> rfl

theorem sg32_v512 : StableHlo.after seg32 V (Proc.devRef .tc main_v512) = colVar200k64 (addf (V (Proc.devRef .tc main_v459)) (V (Proc.devRef .tc main_v503))) := by
  dsimp only [seg32]
  after_results_simp <;> (try simp only [TRef.ofBuf, TRef.toBuf, cast_eq]) <;> rfl

theorem sg32_v506 : StableHlo.after seg32 V (Proc.devRef .tc main_v506) = slice2r0_64 (V (Proc.devRef .tc main_arg22)) := by
  dsimp only [seg32]
  after_results_simp <;> (try simp only [TRef.ofBuf, TRef.toBuf, cast_eq]) <;> rfl

theorem sg32_v508 : StableHlo.after seg32 V (Proc.devRef .tc main_v508) = slice2r0_64 (V (Proc.devRef .tc main_arg23)) := by
  dsimp only [seg32]
  after_results_simp <;> (try simp only [TRef.ofBuf, TRef.toBuf, cast_eq]) <;> rfl

theorem sg34_v534 : StableHlo.after seg34 V (Proc.devRef .tc main_v534) = colMean100k64 (V (Proc.devRef .tc main_v415)) := by
  dsimp only [seg34]
  after_results_simp <;> (try simp only [TRef.ofBuf, TRef.toBuf, cast_eq]) <;> rfl

theorem sg34_v535 : StableHlo.after seg34 V (Proc.devRef .tc main_v535) = colVar100k64 (V (Proc.devRef .tc main_v415)) := by
  dsimp only [seg34]
  after_results_simp <;> (try simp only [TRef.ofBuf, TRef.toBuf, cast_eq]) <;> rfl

theorem sg34_v529 : StableHlo.after seg34 V (Proc.devRef .tc main_v529) = slice2r1_64 (V (Proc.devRef .tc main_arg22)) := by
  dsimp only [seg34]
  after_results_simp <;> (try simp only [TRef.ofBuf, TRef.toBuf, cast_eq]) <;> rfl

theorem sg34_v531 : StableHlo.after seg34 V (Proc.devRef .tc main_v531) = slice2r1_64 (V (Proc.devRef .tc main_arg23)) := by
  dsimp only [seg34]
  after_results_simp <;> (try simp only [TRef.ofBuf, TRef.toBuf, cast_eq]) <;> rfl

theorem r_v504 : R33 V (Proc.devRef .tc main_v504) = addf (R32 V (Proc.devRef .tc main_v459)) (R32 V (Proc.devRef .tc main_v503)) := sg32_v504 (R32 V)
theorem r_v511 : R33 V (Proc.devRef .tc main_v511) = colMean200k64 (addf (R32 V (Proc.devRef .tc main_v459)) (R32 V (Proc.devRef .tc main_v503))) := sg32_v511 (R32 V)
theorem r_v512 : R33 V (Proc.devRef .tc main_v512) = colVar200k64 (addf (R32 V (Proc.devRef .tc main_v459)) (R32 V (Proc.devRef .tc main_v503))) := sg32_v512 (R32 V)
theorem r_v506 : R33 V (Proc.devRef .tc main_v506) = slice2r0_64 (R32 V (Proc.devRef .tc main_arg22)) := sg32_v506 (R32 V)
theorem r_v508 : R33 V (Proc.devRef .tc main_v508) = slice2r0_64 (R32 V (Proc.devRef .tc main_arg23)) := sg32_v508 (R32 V)
theorem r_v534 : R35 V (Proc.devRef .tc main_v534) = colMean100k64 (R34 V (Proc.devRef .tc main_v415)) := sg34_v534 (R34 V)
theorem r_v535 : R35 V (Proc.devRef .tc main_v535) = colVar100k64 (R34 V (Proc.devRef .tc main_v415)) := sg34_v535 (R34 V)
theorem r_v529 : R35 V (Proc.devRef .tc main_v529) = slice2r1_64 (R34 V (Proc.devRef .tc main_arg22)) := sg34_v529 (R34 V)
theorem r_v531 : R35 V (Proc.devRef .tc main_v531) = slice2r1_64 (R34 V (Proc.devRef .tc main_arg23)) := sg34_v531 (R34 V)

end Stage32

end Cert.ReferenceIdeal.Run
-- ==== Proof.JoinBn2.lean ====
import proofs.«143223_j29772713296000_1_alg».proof.Proof.BnK15
import proofs.«143223_j29772713296000_1_alg».proof.Proof.BnR
import proofs.«143223_j29772713296000_1_alg».proof.Proof.KStats2
import proofs.«143223_j29772713296000_1_alg».proof.Proof.RStats2
import proofs.«143223_j29772713296000_1_alg».proof.Proof.KCarry
import proofs.«143223_j29772713296000_1_alg».proof.Proof.RCarry
import Idealize.ShloMosaic.PureOps.Ideal
import Idealize.ShloMosaic.Lib.StableHlo.Run

set_option maxRecDepth 16384

noncomputable section

/-! # The normalised account-side features after the last layer, on both sides

The kernel program computes the column statistics of the sum of the two account-side sage outputs on the host, reshapes
them and row 0 of the scale and shift tables to one-row arrays and runs a batch-normalisation region with no rectifier;
the reference normalises by host operations. Both are the batch normalisation of the same array by the same rows: the
kernel multiplies by the reciprocal square root where the reference divides by the square root, which agree because a
column variance is not negative. So equal sage outputs and equal tables give equal normalised features. -/

namespace Cert.ReferenceIdeal.Run

open Cert.ReferenceIdeal Cert.ReferenceIdeal.Gen Idealize.ShloMosaic Idealize.ShloMosaic.TcCoe Idealize.SL.Sem Idealize.ShloMosaic.StableHlo

/-- Stage 33 is the reference's batch normalisation: its result is the composition, in the reference's order, of the
    array, the mean, the variance, the scale row and the shift row as the stage finds them. -/
theorem sg33_v527 (V : Valuation τ sig (Elt Ideal)) :
    StableHlo.after (seg33 (F := Ideal)) V (Proc.devRef .tc main_v527)
      = addf
        (mulf
          (Host.divf
            (subf (V (Proc.devRef .tc main_v504)) (broadcastInDim S200000x64 ![0, 1] bcast_S1x64_S200000x64_0_1 (broadcastInDim S1x64 ![1] bcast_S64_S1x64_1 (V (Proc.devRef .tc main_v511)))))
            (broadcastInDim S200000x64 ![0, 1] bcast_S1x64_S200000x64_0_1 (broadcastInDim S1x64 ![1] bcast_S64_S1x64_1
              (Host.sqrt (addf (V (Proc.devRef .tc main_v512)) (broadcastInDim S64 ![] bcast_S_S64 (constant (F := Ideal) S_ .f32 0x3727C5AC#32)))))))
          (broadcastInDim S200000x64 ![0, 1] bcast_S1x64_S200000x64_0_1 (broadcastInDim S1x64 ![1] bcast_S64_S1x64_1 (V (Proc.devRef .tc main_v506)))))
        (broadcastInDim S200000x64 ![0, 1] bcast_S1x64_S200000x64_0_1 (broadcastInDim S1x64 ![1] bcast_S64_S1x64_1 (V (Proc.devRef .tc main_v508)))) := by
  dsimp only [seg33]
  after_results_simp <;> (try simp only [TRef.ofBuf, TRef.toBuf, cast_eq]) <;> rfl

end Cert.ReferenceIdeal.Run

namespace Cert.Join

open Idealize.ShloMosaic Idealize.ShloMosaic.TcCoe Idealize.SL.Sem Idealize.ShloMosaic.StableHlo

/-- The account-side features after the last layer's normalisation: the kernel program's and the reference's are the
    batch normalisation (no rectifier) of the sum of the two account-side sage outputs (equal by the earlier joining
    equalities), by its column mean and variance and row 0 of the scale and shift tables (equal by agreement). -/
theorem j_v372
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha22 : m' ((c.tc : Thread Cert.ReferenceIdeal.nD Cert.ReferenceIdeal.τ).loc Cert.ReferenceIdeal.main_arg22)
      = m ((c.tc : Thread Cert.KernelIdeal.nD Cert.KernelIdeal.τ).loc Cert.KernelIdeal.main_arg22))
    (ha23 : m' ((c.tc : Thread Cert.ReferenceIdeal.nD Cert.ReferenceIdeal.τ).loc Cert.ReferenceIdeal.main_arg23)
      = m ((c.tc : Thread Cert.KernelIdeal.nD Cert.KernelIdeal.τ).loc Cert.KernelIdeal.main_arg23))
    (j321 : Cert.KernelIdeal.Gen.W36 m ρ c (Proc.devRef .tc Cert.KernelIdeal.main_v321)
      = Cert.ReferenceIdeal.Run.R30 (launchContents m' c) (Proc.devRef .tc Cert.ReferenceIdeal.main_v459))
    (j354 : Cert.KernelIdeal.Gen.W38 m ρ c (Proc.devRef .tc Cert.KernelIdeal.main_v354)
      = Cert.ReferenceIdeal.Run.R32 (launchContents m' c) (Proc.devRef .tc Cert.ReferenceIdeal.main_v503)) :
    Cert.KernelIdeal.Gen.W44 m ρ c (Proc.devRef .tc Cert.KernelIdeal.main_v372)
      = Cert.ReferenceIdeal.Run.R34 (launchContents m' c) (Proc.devRef .tc Cert.ReferenceIdeal.main_v527) := by
  have hsc : Cert.ReferenceIdeal.S64.ShapeCasts Cert.ReferenceIdeal.S1x64 := by decide
  -- the kernel side: the region's value at the contents it finds, read back to the two sage outputs and the launch memory
  have hk : Cert.KernelIdeal.Gen.W44 m ρ c (Proc.devRef .tc Cert.KernelIdeal.main_v372)
      = Cert.Spec.bn
          (addf (F := Ideal) (φ := .f32) (Cert.KernelIdeal.Gen.W36 m ρ c (Proc.devRef .tc Cert.KernelIdeal.main_v321)) (Cert.KernelIdeal.Gen.W38 m ρ c (Proc.devRef .tc Cert.KernelIdeal.main_v354)))
          (Cert.HostStats.rowReshape64 (F := Ideal) (Cert.HostStats.colMean200k64 (F := Ideal)
            (addf (F := Ideal) (φ := .f32) (Cert.KernelIdeal.Gen.W36 m ρ c (Proc.devRef .tc Cert.KernelIdeal.main_v321)) (Cert.KernelIdeal.Gen.W38 m ρ c (Proc.devRef .tc Cert.KernelIdeal.main_v354)))))
          (Cert.HostStats.rowReshape64 (F := Ideal) (Cert.HostStats.colVar200k64 (F := Ideal)
            (addf (F := Ideal) (φ := .f32) (Cert.KernelIdeal.Gen.W36 m ρ c (Proc.devRef .tc Cert.KernelIdeal.main_v321)) (Cert.KernelIdeal.Gen.W38 m ρ c (Proc.devRef .tc Cert.KernelIdeal.main_v354)))))
          (Cert.HostStats.rowReshape64 (F := Ideal) (Cert.HostStats.slice2r0_64 (F := Ideal) (m ((c.tc : Thread Cert.KernelIdeal.nD Cert.KernelIdeal.τ).loc Cert.KernelIdeal.main_arg22))))
          (Cert.HostStats.rowReshape64 (F := Ideal) (Cert.HostStats.slice2r0_64 (F := Ideal) (m ((c.tc : Thread Cert.KernelIdeal.nD Cert.KernelIdeal.τ).loc Cert.KernelIdeal.main_arg23)))) := by
    refine ((Cert.KernelIdeal.Gen.W44_arr m ρ c 5).trans (Cert.KernelIdeal.Gen.reg15_val (Cert.KernelIdeal.Gen.V43 m ρ) c)).trans ?_
    show Cert.Spec.bn (Cert.KernelIdeal.Gen.W43 m ρ c (Proc.devRef .tc Cert.KernelIdeal.main_v355))
        (Cert.KernelIdeal.Gen.W43 m ρ c (Proc.devRef .tc Cert.KernelIdeal.main_v368))
        (Cert.KernelIdeal.Gen.W43 m ρ c (Proc.devRef .tc Cert.KernelIdeal.main_v369))
        (Cert.KernelIdeal.Gen.W43 m ρ c (Proc.devRef .tc Cert.KernelIdeal.main_v370))
        (Cert.KernelIdeal.Gen.W43 m ρ c (Proc.devRef .tc Cert.KernelIdeal.main_v371)) = _
    rw [Cert.KernelIdeal.Gen.k_v355, Cert.KernelIdeal.Gen.k_v368, Cert.KernelIdeal.Gen.k_v369, Cert.KernelIdeal.Gen.k_v370,
      Cert.KernelIdeal.Gen.k_v371, Cert.KernelIdeal.Carry.c_v321_36_38, Cert.KernelIdeal.Carry.c_arg22_0_38,
      Cert.KernelIdeal.Carry.c_arg23_0_38]
  -- the reference side: the normalisation's stage at the contents before it, read back likewise
  have hr : Cert.ReferenceIdeal.Run.R34 (launchContents m' c) (Proc.devRef .tc Cert.ReferenceIdeal.main_v527)
      = Cert.Spec.bn
          (addf (F := Ideal) (φ := .f32) (Cert.ReferenceIdeal.Run.R30 (launchContents m' c) (Proc.devRef .tc Cert.ReferenceIdeal.main_v459)) (Cert.ReferenceIdeal.Run.R32 (launchContents m' c) (Proc.devRef .tc Cert.ReferenceIdeal.main_v503)))
          (shapeCast Cert.ReferenceIdeal.S1x64 (Cert.HostStats.colMean200k64 (F := Ideal)
            (addf (F := Ideal) (φ := .f32) (Cert.ReferenceIdeal.Run.R30 (launchContents m' c) (Proc.devRef .tc Cert.ReferenceIdeal.main_v459)) (Cert.ReferenceIdeal.Run.R32 (launchContents m' c) (Proc.devRef .tc Cert.ReferenceIdeal.main_v503)))) hsc)
          (shapeCast Cert.ReferenceIdeal.S1x64 (Cert.HostStats.colVar200k64 (F := Ideal)
            (addf (F := Ideal) (φ := .f32) (Cert.ReferenceIdeal.Run.R30 (launchContents m' c) (Proc.devRef .tc Cert.ReferenceIdeal.main_v459)) (Cert.ReferenceIdeal.Run.R32 (launchContents m' c) (Proc.devRef .tc Cert.ReferenceIdeal.main_v503)))) hsc)
          (shapeCast Cert.ReferenceIdeal.S1x64 (Cert.HostStats.slice2r0_64 (F := Ideal) (m' ((c.tc : Thread Cert.ReferenceIdeal.nD Cert.ReferenceIdeal.τ).loc Cert.ReferenceIdeal.main_arg22))) hsc)
          (shapeCast Cert.ReferenceIdeal.S1x64 (Cert.HostStats.slice2r0_64 (F := Ideal) (m' ((c.tc : Thread Cert.ReferenceIdeal.nD Cert.ReferenceIdeal.τ).loc Cert.ReferenceIdeal.main_arg23))) hsc) := by
    refine (Cert.ReferenceIdeal.Run.sg33_v527 (Cert.ReferenceIdeal.Run.R33 (launchContents m' c))).trans ?_
    rw [Cert.ReferenceIdeal.Run.r_v504, Cert.ReferenceIdeal.Run.r_v511, Cert.ReferenceIdeal.Run.r_v512, Cert.ReferenceIdeal.Run.r_v506,
      Cert.ReferenceIdeal.Run.r_v508, Cert.ReferenceIdeal.Run.rc_v459_30_32, Cert.ReferenceIdeal.Run.rc_arg22_0_32,
      Cert.ReferenceIdeal.Run.rc_arg23_0_32]
    exact Cert.ReferenceIdeal.Dense.bn_200000x64 hsc _ _ _ _ _ (fun j => Cert.HostStats.colVar200k64_nonneg _ j)
  rw [hk, hr, j321, j354, ha22, ha23]
  rfl

end Cert.Join

end
-- ==== Proof.SpecSage64.lean ====
/-
  The dense GraphSAGE step of output width 64, as ONE function of its five arrays, index by index, at the ideal
  values (floats are extended reals, every operation exact).

  With `mean`, `xdst` of shape [n, 128], the two weight matrices `wl`, `wr` of shape [64, 128] and the bias row
  `bl` of shape [1, 64], the un-normalised row is

      pre r j = (Σ_k mean[r,k] · wl[j,k]  +  Σ_k xdst[r,k] · wr[j,k])  +  bl[0,j]

  (the two products summed first, the bias added last) and the result divides each row by its Euclidean norm,
  kept away from zero by the single-precision word 0x2B8CBCCC (about 1e-12):

      out r j = pre r j / max (sqrt (Σ_j' (pre r j')²)) eps.

  Every row of the result depends on the same row of `mean` and `xdst` only, so the function is stated for any
  number of rows `n`: at n = 200000 it is the whole array, at a smaller n it is a block of consecutive rows.
-/
import Idealize.ShloMosaic.PureOps.Ideal
import Idealize.ShloMosaic.Lib.ValueIdx

noncomputable section

open scoped BigOperators

namespace Cert.Spec

open Idealize.ShloMosaic Idealize.ShloMosaic.ValueIdx

/-- Entry (r, j) before normalisation: the two matrix products against the transposed weights, summed, plus the bias. -/
def sage64Pre {n : ℕ} (mean xdst : FVec Ideal ⟨2, ![n, 128]⟩ .f32) (wl : FVec Ideal ⟨2, ![64, 128]⟩ .f32)
    (bl : FVec Ideal ⟨2, ![1, 64]⟩ .f32) (wr : FVec Ideal ⟨2, ![64, 128]⟩ .f32) (r : Fin n) (j : Fin 64) : EReal :=
  ((∑ k : Fin 128, mean (ix2 r k) * wl (ix2 j k)) + (∑ k : Fin 128, xdst (ix2 r k) * wr (ix2 j k))) + bl (ix2 (0 : Fin 1) j)

/-- The squared Euclidean norm of row r before normalisation. -/
def sage64SumSq {n : ℕ} (mean xdst : FVec Ideal ⟨2, ![n, 128]⟩ .f32) (wl : FVec Ideal ⟨2, ![64, 128]⟩ .f32)
    (bl : FVec Ideal ⟨2, ![1, 64]⟩ .f32) (wr : FVec Ideal ⟨2, ![64, 128]⟩ .f32) (r : Fin n) : EReal :=
  ∑ j : Fin 64, sage64Pre mean xdst wl bl wr r j * sage64Pre mean xdst wl bl wr r j

/-- The step on `n` rows: each entry over its row's norm, the norm no smaller than the word 0x2B8CBCCC. -/
def sage64Rows {n : ℕ} (mean xdst : FVec Ideal ⟨2, ![n, 128]⟩ .f32) (wl : FVec Ideal ⟨2, ![64, 128]⟩ .f32)
    (bl : FVec Ideal ⟨2, ![1, 64]⟩ .f32) (wr : FVec Ideal ⟨2, ![64, 128]⟩ .f32) : FVec Ideal ⟨2, ![n, 64]⟩ .f32 := fun i =>
  Ideal.div (sage64Pre mean xdst wl bl wr (i 0) (i 1))
    (max (Ideal.sqrt (sage64SumSq mean xdst wl bl wr (i 0))) (Ideal.ofBits .f32 0x2B8CBCCC#32))

/-- At an index given by its coordinates. -/
theorem sage64Rows_ix2 {n : ℕ} (mean xdst : FVec Ideal ⟨2, ![n, 128]⟩ .f32) (wl : FVec Ideal ⟨2, ![64, 128]⟩ .f32)
    (bl : FVec Ideal ⟨2, ![1, 64]⟩ .f32) (wr : FVec Ideal ⟨2, ![64, 128]⟩ .f32) (r : Fin n) (j : Fin 64) :
    sage64Rows mean xdst wl bl wr (ix2 r j)
      = Ideal.div (sage64Pre mean xdst wl bl wr r j)
          (max (Ideal.sqrt (sage64SumSq mean xdst wl bl wr r)) (Ideal.ofBits .f32 0x2B8CBCCC#32)) := rfl

/-- The step on the 200000 account rows. -/
abbrev sage64 (mean xdst : FVec Ideal ⟨2, ![200000, 128]⟩ .f32) (wl : FVec Ideal ⟨2, ![64, 128]⟩ .f32)
    (bl : FVec Ideal ⟨2, ![1, 64]⟩ .f32) (wr : FVec Ideal ⟨2, ![64, 128]⟩ .f32) : FVec Ideal ⟨2, ![200000, 64]⟩ .f32 :=
  sage64Rows mean xdst wl bl wr

/-- Rows of the result are rows of the arguments: if `mean'`, `xdst'` hold, at row p, what `mean`, `xdst` hold at
    row r, then the step on the primed arrays at (p, j) is the step on the unprimed ones at (r, j). -/
theorem sage64Rows_of_rows {n n' : ℕ} (mean xdst : FVec Ideal ⟨2, ![n, 128]⟩ .f32) (mean' xdst' : FVec Ideal ⟨2, ![n', 128]⟩ .f32)
    (wl : FVec Ideal ⟨2, ![64, 128]⟩ .f32) (bl : FVec Ideal ⟨2, ![1, 64]⟩ .f32) (wr : FVec Ideal ⟨2, ![64, 128]⟩ .f32)
    (r : Fin n) (p : Fin n') (hm : ∀ k : Fin 128, mean' (ix2 p k) = mean (ix2 r k))
    (hx : ∀ k : Fin 128, xdst' (ix2 p k) = xdst (ix2 r k)) (j : Fin 64) :
    sage64Rows mean' xdst' wl bl wr (ix2 p j) = sage64Rows mean xdst wl bl wr (ix2 r j) := by
  have hpre : ∀ j' : Fin 64, sage64Pre mean' xdst' wl bl wr p j' = sage64Pre mean xdst wl bl wr r j' := fun j' => by
    unfold sage64Pre
    simp only [hm, hx]
  rw [sage64Rows_ix2, sage64Rows_ix2]
  unfold sage64SumSq
  simp only [hpre]

end Cert.Spec

end
-- ==== Proof.SageLemmas64.lean ====
/-
  Readings at an index, at the ideal values, of the operations the dense GraphSAGE step is made of. Nothing here
  mentions a program: every lemma is over variables of literal shapes.

  * a vector [a] viewed as a column [a, 1], and a column [a, 1] repeated along b columns, at (p, c);
  * a sum along axis 1 of an [a, b] array, at row r: the sum over the row's entries;
  * a product of an [m, k] matrix with the TRANSPOSE of an [n, k] matrix, accumulated into zero (the matrix unit's
    form) or taken by the host: at (a, b) it is  Σ_c A[a, c] · W[b, c];
  * the normalisation that follows:  X / max (sqrt (Σ_j X²)) eps  row by row, where X = (A + B) + bias row.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember

noncomputable section

open scoped BigOperators

namespace Cert.Spec.Sage64

open Idealize.ShloMosaic Idealize.ShloMosaic.ValueIdx

/-! ## Columns -/

section Layout
variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along the rows -/

/-- Over the one-coordinate index `(r)`, the index with `k` inserted on axis 1 is `(r, k)`. -/
theorem lift_axis1_ix1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A sum along axis 1 of an `[a, b]` array, at row `r`, is the sum of that row's entries. -/
theorem multiReduction_add_axis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_axis1_ix1 h r k))

/-! ## A product against a transposed matrix -/

/-- The matrix unit's product of `[m, k]` by `[k, n]` into the zero accumulator, at `(a, b)`: the sum over the
    contracted coordinate. Both it and the host's product are the same sum over the contraction index. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- Against the transpose of an `[n, k]` matrix `W`: at `(a, b)` it is  Σ_c A[a, c] · W[b, c]. -/
theorem matmul_transposed_zero_apply {m k n : ℕ} {φ₁ φ₂ : FTy} (prec : Option ContractPrecision)
    (A : FVec Ideal ⟨2, ![m, k]⟩ φ₁) (W : FVec Ideal ⟨2, ![n, k]⟩ φ₂)
    (ht : (⟨2, ![n, k]⟩ : Shape).Transposes [1, 0] ⟨2, ![k, n]⟩) (a : Fin m) (b : Fin n) :
    matmul (DotDims.plain m k n) prec A (transpose ⟨2, ![k, n]⟩ [1, 0] W ht) (constant (F := Ideal) ⟨2, ![m, n]⟩ .f32 0x00000000#32) (ix2 a b)
      = ∑ c : Fin k, A (ix2 a c) * W (ix2 b c) :=
  (matmul_plain_zero_apply prec A (transpose ⟨2, ![k, n]⟩ [1, 0] W ht) a b).trans
    (Finset.sum_congr rfl fun c _ => congrArg (A (ix2 a c) * ·) (transpose_ix2_apply W ht c b))

/-- The host's product against the transpose of `W`, the same sum. -/
theorem dotGeneral_transposed_apply {m k n : ℕ} {φ₁ φ₂ : FTy} (prec : Option ContractPrecision)
    (A : FVec Ideal ⟨2, ![m, k]⟩ φ₁) (W : FVec Ideal ⟨2, ![n, k]⟩ φ₂)
    (ht : (⟨2, ![n, k]⟩ : Shape).Transposes [1, 0] ⟨2, ![k, n]⟩) (a : Fin m) (b : Fin n) :
    Host.dotGeneral (DotDims.plain m k n) prec A (transpose ⟨2, ![k, n]⟩ [1, 0] W ht) (ix2 a b)
      = ∑ c : Fin k, A (ix2 a c) * W (ix2 b c) :=
  (StackMember.dotGeneral_plain_apply prec A (transpose ⟨2, ![k, n]⟩ [1, 0] W ht) a b).trans
    (Finset.sum_congr rfl fun c _ => congrArg (A (ix2 a c) * ·) (transpose_ix2_apply W ht c b))

/-! ## The normalisation -/

/-- `X / max (sqrt (Σ_j X²)) eps` row by row, where `X = (A + B) + bias row`, in the order the operations are applied:
    the two sums, the bias row repeated down the rows, the squares summed along each row into a vector, that vector as a
    column, its square root, the maximum with the splat word, the column repeated along the row, the quotient. -/
theorem normTail_apply {n : ℕ} (A B : FVec Ideal ⟨2, ![n, 64]⟩ .f32) (bl : FVec Ideal ⟨2, ![1, 64]⟩ .f32)
    (hbl : (⟨2, ![1, 64]⟩ : Shape).Broadcasts ⟨2, ![n, 64]⟩) (hr : (⟨2, ![n, 64]⟩ : Shape).Reduces [1] ⟨1, ![n]⟩)
    (hφ : FKind.Formats .f32) (hacc : (0x00000000#32 : BitVec 32) = FKind.add.neutral .f32 hφ)
    (hsc : (⟨1, ![n]⟩ : Shape).ShapeCasts ⟨2, ![n, 1]⟩) (hb2 : (⟨2, ![n, 1]⟩ : Shape).Broadcasts ⟨2, ![n, 64]⟩)
    (p : Fin n) (q : Fin 64) :
    divf (addf (addf A B) (broadcastTo ⟨2, ![n, 64]⟩ bl hbl))
        (broadcastTo ⟨2, ![n, 64]⟩
          (maximumf
            (sqrt (shapeCast ⟨2, ![n, 1]⟩
              (multiReduction .add [1] ⟨1, ![n]⟩
                (mulf (addf (addf A B) (broadcastTo ⟨2, ![n, 64]⟩ bl hbl)) (addf (addf A B) (broadcastTo ⟨2, ![n, 64]⟩ bl hbl)))
                0x00000000#32 hr hφ hacc) hsc))
            (broadcast ⟨2, ![n, 1]⟩ (Scalar.ofBits (F := Ideal) .f32 0x2B8CBCCC#32))) hb2) (ix2 p q)
      = Ideal.div ((A (ix2 p q) + B (ix2 p q)) + bl (ix2 (0 : Fin 1) q))
          (max (Ideal.sqrt (∑ j : Fin 64, ((A (ix2 p j) + B (ix2 p j)) + bl (ix2 (0 : Fin 1) j)) * ((A (ix2 p j) + B (ix2 p j)) + bl (ix2 (0 : Fin 1) j))))
            (Ideal.ofBits .f32 0x2B8CBCCC#32)) := by
  have hX : ∀ j : Fin 64, addf (addf A B) (broadcastTo ⟨2, ![n, 64]⟩ bl hbl) (ix2 p j)
      = (A (ix2 p j) + B (ix2 p j)) + bl (ix2 (0 : Fin 1) j) := fun j =>
    congrArg ((A (ix2 p j) + B (ix2 p j)) + ·) (broadcastTo_1b_ab_apply bl hbl p j)
  refine (divf_apply _ _ (ix2 p q)).trans ?_
  rw [hX q, broadcastTo_a1_ab_apply]
  refine congrArg (Ideal.div _) ?_
  refine (maximumf_apply _ _ (ix2 p (0 : Fin 1))).trans ?_
  refine congrArg₂ max ?_ rfl
  show Ideal.sqrt (shapeCast ⟨2, ![n, 1]⟩ _ hsc (ix2 p (0 : Fin 1))) = _
  rw [shapeCast_a_a1_apply, multiReduction_add_axis1_apply]
  refine congrArg Ideal.sqrt (Finset.sum_congr rfl fun j _ => ?_)
  rw [mulf_apply, hX j]

end Cert.Spec.Sage64

end
-- ==== Proof.SageK13.lean ====
/-
  Region 13: the last layer's dense GraphSAGE step on the 200000 account rows, for one of the two relations that end in
  account nodes.

  The region runs 40 grid points. At point t it reads rows 5000 t … 5000 t + 4999 of the two row-blocked operands
  (the aggregated neighbour means and the destination features), the two whole [64, 128] weight matrices and the whole
  [1, 64] bias row, and writes rows 5000 t … of the [200000, 64] result. What it stores is one pure function of those
  blocks; read at an index it is: the two products against the transposed weights as sums over the 128 contracted entries,
  added, plus the bias, each row then divided by the larger of its Euclidean norm and the word 0x2B8CBCCC. A row of that
  function depends on the same row of the two operands only, so block t of the result is block t of the function of the
  whole arrays; the 40 blocks tile the array (row r is written by point r / 5000), hence the array after the region is
  that function of the five arrays as the region found them.
-/
import proofs.«143223_j29772713296000_1_alg».proof.Proof.Gen.KernelIdeal.Frame
import proofs.«143223_j29772713296000_1_alg».proof.Proof.SpecSage64
import proofs.«143223_j29772713296000_1_alg».proof.Proof.SageLemmas64
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Gen

/-! ## The body's arithmetic at an index -/

/-- The value stored by region 13's body, at (p, q) of its [5000, 64] block, is the dense step on the block's 5000 rows:
    the two matrix-unit products against the transposed weights read as sums over the 128 contracted entries (rounding to
    the narrower format is the identity on the extended reals), and what follows them is the normalisation. -/
theorem pay13_apply (v0 v3 : Vec Ideal S5000x128 .f32) (v6 v9 : Vec Ideal S64x128 .f32) (v17 : Vec Ideal S1x64 .f32)
    (p : Fin 5000) (q : Fin 64) :
    k13_pay1 (F := Ideal) v0 v3 v6 v9 v17 (ix2 p q) = Cert.Spec.sage64Rows (n := 5000) v0 v3 v6 v17 v9 (ix2 p q) := by
  unfold k13_pay1
  refine (Cert.Spec.Sage64.normTail_apply (n := 5000) _ _ _ _ _ _ _ _ _ p q).trans ?_
  have hA : ∀ j : Fin 64,
      matmul dot_S5000x128_S128x64_S5000x64_1_0_0_1_n_n none
          (truncf .bf16 (shapeCast S5000x128 v0 shapeCasts_S5000x128_S5000x128) bitsLt_bf16_f32)
          (transpose S128x64 [1, 0] (truncf .bf16 (shapeCast S64x128 v6 shapeCasts_S64x128_S64x128) bitsLt_bf16_f32) transposes_S64x128_p1_0_S128x64)
          (constant (F := Ideal) S5000x64 .f32 0x00000000#32) (ix2 p j)
        = ∑ k : Fin 128, v0 (ix2 p k) * v6 (ix2 j k) := fun j =>
    (Cert.Spec.Sage64.matmul_transposed_zero_apply (m := 5000) (k := 128) (n := 64) none _ _ _ p j).trans
      (Finset.sum_congr rfl fun k _ => by rw [truncf_apply, truncf_apply, shapeCast_self, shapeCast_self])
  have hB : ∀ j : Fin 64,
      matmul dot_S5000x128_S128x64_S5000x64_1_0_0_1_n_n none
          (truncf .bf16 (shapeCast S5000x128 v3 shapeCasts_S5000x128_S5000x128) bitsLt_bf16_f32)
          (transpose S128x64 [1, 0] (truncf .bf16 (shapeCast S64x128 v9 shapeCasts_S64x128_S64x128) bitsLt_bf16_f32) transposes_S64x128_p1_0_S128x64)
          (constant (F := Ideal) S5000x64 .f32 0x00000000#32) (ix2 p j)
        = ∑ k : Fin 128, v3 (ix2 p k) * v9 (ix2 j k) := fun j =>
    (Cert.Spec.Sage64.matmul_transposed_zero_apply (m := 5000) (k := 128) (n := 64) none _ _ _ p j).trans
      (Finset.sum_congr rfl fun k _ => by rw [truncf_apply, truncf_apply, shapeCast_self, shapeCast_self])
  simp only [hA, hB]
  simp only [shapeCast_self]
  rfl

/-! ## The windows' blocks as pieces of the arrays -/

variable (V : (c : Dev nD) → (b : Ref sig .tc) → Buf (Elt Ideal) ((c : Thread nD τ).loc b))

theorem hz13 : (![0, 0] : Fin 2 → Nat) = fun _ => 0 := funext fun a => by fin_cases a <;> rfl

/-- The index maps over the 40 grid points: the two row-blocked inputs and the output move one block of 5000 rows per
    point; the weights and the bias row stay at their one block. -/
theorem idx13 : ∀ t : Fin cfg13.N,
      win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = t.val ∧ win13_5.index t (1 : Fin 2) = 0 :=
  (by decide +kernel : ∀ t : Fin grid13.N, _)

/-- Window 0's block at point t is rows 5000 t … 5000 t + 4999 of the first operand. -/
theorem iblk13_0_apply (c : Dev nD) (t : Fin cfg13.N) (p : Fin 5000) (k : Fin 128) (r : Fin 200000)
    (hr : r.val = 5000 * t.val + p.val) :
    (iblk13 V c 0 t : Vec Ideal S5000x128 .f32) (ix2 p k) = (V c main_v313 : Vec Ideal S200000x128 .f32) (ix2 r k) := by
  obtain ⟨e0, e1, -⟩ := idx13 t
  unfold iblk13
  rw [View.read_apply]
  show V c main_v313 _ = V c main_v313 _
  refine congrArg (V c main_v313) (funext fun a => Fin.ext ?_)
  match a with
  | ⟨0, _⟩ => show win13_0.index t (0 : Fin 2) * 5000 + 1 * p.val = r.val; rw [e0, hr]; omega
  | ⟨1, _⟩ => show win13_0.index t (1 : Fin 2) * 128 + 1 * k.val = k.val; rw [e1]; omega

/-- Window 1's block at point t is the same rows of the second operand. -/
theorem iblk13_1_apply (c : Dev nD) (t : Fin cfg13.N) (p : Fin 5000) (k : Fin 128) (r : Fin 200000)
    (hr : r.val = 5000 * t.val + p.val) :
    (iblk13 V c 1 t : Vec Ideal S5000x128 .f32) (ix2 p k) = (V c main_v246 : Vec Ideal S200000x128 .f32) (ix2 r k) := by
  obtain ⟨-, -, e0, e1, -⟩ := idx13 t
  unfold iblk13
  rw [View.read_apply]
  show V c main_v246 _ = V c main_v246 _
  refine congrArg (V c main_v246) (funext fun a => Fin.ext ?_)
  match a with
  | ⟨0, _⟩ => show win13_1.index t (0 : Fin 2) * 5000 + 1 * p.val = r.val; rw [e0, hr]; omega
  | ⟨1, _⟩ => show win13_1.index t (1 : Fin 2) * 128 + 1 * k.val = k.val; rw [e1]; omega

/-- Window 2's one block is the whole first weight matrix. -/
theorem iblk13_2_eq (c : Dev nD) (t : Fin cfg13.N) :
    (iblk13 V c 2 t : Vec Ideal S64x128 .f32) = (V c main_v315 : Vec Ideal S64x128 .f32) := by
  obtain ⟨-, -, -, -, e0, e1, -⟩ := idx13 t
  funext y
  unfold iblk13
  rw [View.read_apply]
  show V c main_v315 _ = V c main_v315 _
  refine congrArg (V c main_v315) (funext fun a => Fin.ext ?_)
  match a with
  | ⟨0, _⟩ => show win13_2.index t (0 : Fin 2) * 64 + 1 * (y 0).val = (y 0).val; rw [e0]; omega
  | ⟨1, _⟩ => show win13_2.index t (1 : Fin 2) * 128 + 1 * (y 1).val = (y 1).val; rw [e1]; omega

/-- Window 3's one block is the whole bias row. -/
theorem iblk13_3_eq (c : Dev nD) (t : Fin cfg13.N) :
    (iblk13 V c 3 t : Vec Ideal S1x64 .f32) = (V c main_v320 : Vec Ideal S1x64 .f32) := by
  obtain ⟨-, -, -, -, -, -, e0, e1, -⟩ := idx13 t
  funext y
  unfold iblk13
  rw [View.read_apply]
  show V c main_v320 _ = V c main_v320 _
  refine congrArg (V c main_v320) (funext fun a => Fin.ext ?_)
  match a with
  | ⟨0, _⟩ => show win13_3.index t (0 : Fin 2) * 1 + 1 * (y 0).val = (y 0).val; rw [e0]; omega
  | ⟨1, _⟩ => show win13_3.index t (1 : Fin 2) * 64 + 1 * (y 1).val = (y 1).val; rw [e1]; omega

/-- Window 4's one block is the whole second weight matrix. -/
theorem iblk13_4_eq (c : Dev nD) (t : Fin cfg13.N) :
    (iblk13 V c 4 t : Vec Ideal S64x128 .f32) = (V c main_v319 : Vec Ideal S64x128 .f32) := by
  obtain ⟨-, -, -, -, -, -, -, -, e0, e1, -⟩ := idx13 t
  funext y
  unfold iblk13
  rw [View.read_apply]
  show V c main_v319 _ = V c main_v319 _
  refine congrArg (V c main_v319) (funext fun a => Fin.ext ?_)
  match a with
  | ⟨0, _⟩ => show win13_4.index t (0 : Fin 2) * 64 + 1 * (y 0).val = (y 0).val; rw [e0]; omega
  | ⟨1, _⟩ => show win13_4.index t (1 : Fin 2) * 128 + 1 * (y 1).val = (y 1).val; rw [e1]; omega

/-- Entry (p, q) of the output's block at point t sits at row 5000 t + p of the output array. -/
theorem emb13_5 (t : Fin cfg13.N) (p : Fin 5000) (q : Fin 64) (r : Fin 200000) (hr : r.val = 5000 * t.val + p.val) :
    ((cfg13.win 5).blk t).view.emb (ix2 p q) = (ix2 r q : S200000x64.Idx) := by
  obtain ⟨-, -, -, -, -, -, -, -, -, -, e0, e1⟩ := idx13 t
  funext a
  apply Fin.ext
  match a with
  | ⟨0, _⟩ => show win13_5.index t (0 : Fin 2) * 5000 + 1 * p.val = r.val; rw [e0, hr]; omega
  | ⟨1, _⟩ => show win13_5.index t (1 : Fin 2) * 64 + 1 * q.val = q.val; rw [e1]; omega

/-! ## What each point writes back, and the array after the region -/

/-- The region's result: the dense step on the 200000 rows, of the five arrays as the region finds them. -/
abbrev G13 (c : Dev nD) : Vec Ideal S200000x64 .f32 :=
  Cert.Spec.sage64 (V c main_v313) (V c main_v246) (V c main_v315) (V c main_v320) (V c main_v319)

/-- Point t writes back block t of that function: a row of the step depends on the same row of the two row-blocked
    operands only, and the block's rows are rows 5000 t … of the arrays. -/
theorem flushed13_eq (c : Dev nD) (t : Fin cfg13.N) :
    (dat13 V c).flushed 5 t = ((cfg13.win 5).blk t).view.read (Elt Ideal) (G13 V c) := by
  have hN : cfg13.N = 40 := N_13
  have ht : t.val < 40 := by have := t.isLt; omega
  show (cfg13.win 5).cut (grid13.coords t) ((dat13 V c).after 5 t) = _
  rw [after13_5]
  unfold out13_5
  rw [View.canon_unit_zero hz13]
  simp only [View.ld_unit_zero (S := S5000x128) hz13, View.ld_unit_zero (S := S64x128) hz13, View.ld_unit_zero (S := S1x64) hz13]
  funext y
  obtain ⟨p, q, rfl⟩ : ∃ (p : Fin 5000) (q : Fin 64), y = ix2 p q := ⟨y 0, y 1, eq_ix2 y⟩
  have hp : p.val < 5000 := p.isLt
  refine (pay13_apply (iblk13 V c 0 t) (iblk13 V c 1 t) (iblk13 V c 2 t) (iblk13 V c 4 t) (iblk13 V c 3 t) p q).trans ?_
  rw [View.read_apply]
  show _ = G13 V c (((cfg13.win 5).blk t).view.emb (ix2 p q))
  rw [emb13_5 t p q ⟨5000 * t.val + p.val, by omega⟩ rfl, iblk13_2_eq V c t, iblk13_3_eq V c t, iblk13_4_eq V c t]
  exact Cert.Spec.sage64Rows_of_rows (n := 200000) (n' := 5000) (V c main_v313) (V c main_v246) (iblk13 V c 0 t) (iblk13 V c 1 t)
    (V c main_v315) (V c main_v320) (V c main_v319) ⟨5000 * t.val + p.val, by omega⟩ p
    (fun k => iblk13_0_apply V c t p k _ rfl) (fun k => iblk13_1_apply V c t p k _ rfl) q

/-- An index of the output array is in point t's block iff each coordinate is in the block's range. -/
theorem mem_blk13_5 (t : Fin cfg13.N) (i : S200000x64.Idx) :
    i ∈ ((cfg13.win 5).blk t).view.set ↔ ∀ a : Fin 2, win13_5.index t a * S5000x64.size a ≤ (i a).val ∧ (i a).val < win13_5.index t a * S5000x64.size a + S5000x64.size a := by
  show i ∈ ((View.whole main_v321).slice (win13_5.rect t)).set ↔ _
  rw [View.set_slice_whole, Rect.mem_set_unit]
  exact Iff.rfl

/-- Every row r of the output array is written: by point r / 5000. -/
theorem arrCover13 (i : S200000x64.Idx) :
    ∃ t : Fin cfg13.N, (cfg13.win 5).flush t = true ∧ i ∈ ((cfg13.win 5).blk t).view.set := by
  have hi0 : (i 0).val < 200000 := (i 0).isLt
  have hi1 : (i 1).val < 64 := (i 1).isLt
  have hN : cfg13.N = 40 := N_13
  refine ⟨⟨(i 0).val / 5000, by omega⟩, flush13_5 _, ?_⟩
  obtain ⟨-, -, -, -, -, -, -, -, -, -, e0, e1⟩ := idx13 ⟨(i 0).val / 5000, by omega⟩
  rw [mem_blk13_5]
  intro a
  match a with
  | ⟨0, _⟩ =>
    show win13_5.index ⟨(i 0).val / 5000, _⟩ (0 : Fin 2) * 5000 ≤ (i 0).val ∧ (i 0).val < win13_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win13_5.index ⟨(i 0).val / 5000, _⟩ (1 : Fin 2) * 64 ≤ (i 1).val ∧ (i 1).val < win13_5.index ⟨(i 0).val / 5000, _⟩ (1 : Fin 2) * 64 + 64
    rw [e1]; omega

/-- REGION 13'S VALUE: after the region the output array holds the dense step of the five arrays as the region found them. -/
theorem reg13_val (c : Dev nD) :
    (dat13 (F := Ideal) V c).arrAt 5 cfg13.N
      = Cert.Spec.sage64 (V c main_v313) (V c main_v246) (V c main_v315) (V c main_v320) (V c main_v319) :=
  (dat13 V c).arrAt_eq_of_cover 5 (G13 V c) (fun t _ => flushed13_eq V c t) arrCover13

end Cert.KernelIdeal.Gen

end
-- ==== Proof.SageR64.lean ====
/-
  The reference's last-layer dense GraphSAGE step on the 200000 account rows, as a function of its arrays.

  The reference computes  mean · wlᵀ  by the host's product against the transposed weight matrix, adds the bias (a [64]
  vector laid out as a [1, 64] row and repeated down the rows), adds  xdst · wrᵀ,  and divides each row by the larger of its
  Euclidean norm (squares summed along the row from zero, square root) and the word 0x2B8CBCCC. Read at an index each of these
  is the corresponding piece of `Cert.Spec.sage64`; the one difference is the order of the three summands,
  (a + bias) + b here against (a + b) + bias there, equal in the extended reals by commutativity and associativity of
  addition alone (no finiteness is used).
-/
import proofs.«143223_j29772713296000_1_alg».proof.ReferenceIdeal
import proofs.«143223_j29772713296000_1_alg».proof.Proof.Gen.ReferenceIdeal
import proofs.«143223_j29772713296000_1_alg».proof.Proof.SpecSage64
import proofs.«143223_j29772713296000_1_alg».proof.Proof.SageLemmas64

noncomputable section

open scoped BigOperators

namespace Cert.ReferenceIdeal.Dense

open Idealize.ShloMosaic Idealize.ShloMosaic.ValueIdx Cert.ReferenceIdeal

variable [Cert.ReferenceIdeal.Facts]
open Facts₀ Facts

/-! ## The reference's last-layer dense step on the 200000 account rows, as its operations compose -/

/-- The bias vector [64] laid out as the row [1, 64]. -/
abbrev biasRow64 (b : FVec Ideal S64 .f32) : FVec Ideal S1x64 .f32 :=
  broadcastInDim S1x64 ![1] bcast_S64_S1x64_1 b

/-- Before normalisation, in the reference's order: the first product, plus the bias row repeated down the rows, plus the
    second product. -/
abbrev pre64 (mean xdst : FVec Ideal S200000x128 .f32) (wl wr : FVec Ideal S64x128 .f32) (b : FVec Ideal S64 .f32) :
    FVec Ideal S200000x64 .f32 :=
  addf
    (addf (Host.dotGeneral dot_S200000x128_S128x64_S200000x64_1_0_0_1_n_n none mean (transpose S128x64 [1, 0] wl transposes_S64x128_S128x64_1_0))
      (broadcastInDim S200000x64 ![0, 1] bcast_S1x64_S200000x64_0_1 (biasRow64 b)))
    (Host.dotGeneral dot_S200000x128_S128x64_S200000x64_1_0_0_1_n_n none xdst (transpose S128x64 [1, 0] wr transposes_S64x128_S128x64_1_0))

/-- The row norms as a column: squares, summed along each row from zero, laid out [200000, 1], square root. -/
abbrev norm64 (x : FVec Ideal S200000x64 .f32) : FVec Ideal S200000x1 .f32 :=
  Host.sqrt (broadcastInDim S200000x1 ![0] bcast_S200000_S200000x1_0
    (Host.reduceAdd (mulf x x) (constant (F := Ideal) S_ .f32 0x00000000#32) reducesTo_S200000x64_S200000_d1 h_S_))

/-- Each row over the larger of its norm and the splat word 0x2B8CBCCC. -/
abbrev normalize64 (x : FVec Ideal S200000x64 .f32) : FVec Ideal S200000x64 .f32 :=
  Host.divf x (broadcastInDim S200000x64 ![0, 1] bcast_S200000x1_S200000x64_0_1
    (maximumf (norm64 x) (broadcastInDim S200000x1 ![] bcast_S_S200000x1 (constant (F := Ideal) S_ .f32 0x2B8CBCCC#32))))

/-! ## Read at an index -/

/-- The host's quotient at an index is the quotient of the entries. -/
theorem hostDivf_apply {s : Shape} {φ : FTy} (a d : FVec Ideal s φ) (i : s.Idx) : Host.divf a d i = Ideal.div (a i) (d i) := rfl

/-- The host's square root at an index is the square root of the entry. -/
theorem hostSqrt_apply {s : Shape} {φ : FTy} (a : FVec Ideal s φ) (i : s.Idx) : Host.sqrt a i = Ideal.sqrt (a i) := rfl

/-- The bias row at (0, j) is the bias at j. -/
theorem biasRow64_apply (b : FVec Ideal S64 .f32) (u : Fin 1) (j : Fin 64) : biasRow64 b (ix2 u j) = b (ix1 j) :=
  broadcastInDim_apply _ _ b (ix2 u j) (ix1 j) fun a => match a with | ⟨0, _⟩ => rfl

/-- A row [1, 64] repeated down 200000 rows. -/
theorem rowBcast64_apply (v : FVec Ideal S1x64 .f32) (r : Fin 200000) (j : Fin 64) :
    broadcastInDim S200000x64 ![0, 1] bcast_S1x64_S200000x64_0_1 v (ix2 r j) = v (ix2 (0 : Fin 1) j) :=
  broadcastInDim_apply _ _ v (ix2 r j) (ix2 (0 : Fin 1) j) fun a => match a with | ⟨0, _⟩ => rfl | ⟨1, _⟩ => rfl

/-- A vector [200000] laid out as a column. -/
theorem col64_apply (s : FVec Ideal S200000 .f32) (r : Fin 200000) (u : Fin 1) :
    broadcastInDim S200000x1 ![0] bcast_S200000_S200000x1_0 s (ix2 r u) = s (ix1 r) :=
  broadcastInDim_apply _ _ s (ix2 r u) (ix1 r) fun a => match a with | ⟨0, _⟩ => rfl

/-- A scalar repeated over a column. -/
theorem splatCol64_apply (c : FVec Ideal S_ .f32) (r : Fin 200000) (u : Fin 1) :
    broadcastInDim S200000x1 ![] bcast_S_S200000x1 c (ix2 r u) = c ix0 :=
  broadcastInDim_apply _ _ c (ix2 r u) ix0 fun a => a.elim0

/-- A column repeated along 64 columns. -/
theorem colBcast64_apply (m : FVec Ideal S200000x1 .f32) (r : Fin 200000) (j : Fin 64) :
    broadcastInDim S200000x64 ![0, 1] bcast_S200000x1_S200000x64_0_1 m (ix2 r j) = m (ix2 r (0 : Fin 1)) :=
  broadcastInDim_apply _ _ m (ix2 r j) (ix2 r (0 : Fin 1)) fun a => match a with | ⟨0, _⟩ => rfl | ⟨1, _⟩ => rfl

/-- The host's sum along each row, from zero: the sum of the row. -/
theorem rowSum64_apply (y : FVec Ideal S200000x64 .f32) (r : Fin 200000) :
    Host.reduceAdd y (constant (F := Ideal) S_ .f32 0x00000000#32) reducesTo_S200000x64_S200000_d1 h_S_ (ix1 r)
      = ∑ k : Fin 64, y (ix2 r k) := by
  have hR : S200000x64.Reduces [1] S200000 := by decide
  refine (Ideal.hostReduceAdd_single reducesTo_S200000x64_S200000_d1 hR y _ (ix1 r)).trans ?_
  rw [constant_apply, Ideal.ofBits_zero_f32, zero_add]
  exact Finset.sum_congr rfl fun k _ => congrArg y (Cert.Spec.Sage64.lift_axis1_ix1 hR r k)

/-- The two products and the bias, at (r, j), in the order of the function `Cert.Spec.sage64Pre`: in the extended reals
    (a + c) + b = (a + b) + c. -/
theorem pre64_apply (mean xdst : FVec Ideal S200000x128 .f32) (wl wr : FVec Ideal S64x128 .f32) (b : FVec Ideal S64 .f32)
    (r : Fin 200000) (j : Fin 64) :
    pre64 mean xdst wl wr b (ix2 r j) = Cert.Spec.sage64Pre mean xdst wl (biasRow64 b) wr r j := by
  have hA : Host.dotGeneral dot_S200000x128_S128x64_S200000x64_1_0_0_1_n_n none mean (transpose S128x64 [1, 0] wl transposes_S64x128_S128x64_1_0) (ix2 r j)
      = ∑ k : Fin 128, mean (ix2 r k) * wl (ix2 j k) :=
    Cert.Spec.Sage64.dotGeneral_transposed_apply (m := 200000) (k := 128) (n := 64) none mean wl transposes_S64x128_S128x64_1_0 r j
  have hB : Host.dotGeneral dot_S200000x128_S128x64_S200000x64_1_0_0_1_n_n none xdst (transpose S128x64 [1, 0] wr transposes_S64x128_S128x64_1_0) (ix2 r j)
      = ∑ k : Fin 128, xdst (ix2 r k) * wr (ix2 j k) :=
    Cert.Spec.Sage64.dotGeneral_transposed_apply (m := 200000) (k := 128) (n := 64) none xdst wr transposes_S64x128_S128x64_1_0 r j
  refine Eq.trans (congrArg₂ (· + ·) (congrArg₂ (· + ·) hA (rowBcast64_apply (biasRow64 b) r j)) hB) ?_
  unfold Cert.Spec.sage64Pre
  exact add_right_comm _ _ _

/-- The normalisation of any array, at (r, j). -/
theorem normalize64_apply (x : FVec Ideal S200000x64 .f32) (r : Fin 200000) (j : Fin 64) :
    normalize64 x (ix2 r j)
      = Ideal.div (x (ix2 r j)) (max (Ideal.sqrt (∑ k : Fin 64, x (ix2 r k) * x (ix2 r k))) (Ideal.ofBits .f32 0x2B8CBCCC#32)) := by
  unfold normalize64 norm64
  rw [hostDivf_apply, colBcast64_apply, maximumf_apply, splatCol64_apply, constant_apply, hostSqrt_apply, col64_apply,
    rowSum64_apply]
  simp only [mulf_apply]

/-- THE REFERENCE'S DENSE STEP IS THE FUNCTION: products, bias and normalisation composed as the reference composes them
    are `Cert.Spec.sage64` of the same arrays, the bias laid out as a row. -/
theorem sage64_eq (mean xdst : FVec Ideal S200000x128 .f32) (wl wr : FVec Ideal S64x128 .f32) (b : FVec Ideal S64 .f32) :
    normalize64 (pre64 mean xdst wl wr b) = Cert.Spec.sage64 mean xdst wl (biasRow64 b) wr := by
  funext i
  obtain ⟨r, j, rfl⟩ : ∃ (r : Fin 200000) (j : Fin 64), i = ix2 r j := ⟨i 0, i 1, eq_ix2 i⟩
  show normalize64 (pre64 mean xdst wl wr b) (ix2 r j) = Cert.Spec.sage64Rows mean xdst wl (biasRow64 b) wr (ix2 r j)
  rw [normalize64_apply, Cert.Spec.sage64Rows_ix2]
  unfold Cert.Spec.sage64SumSq
  simp only [pre64_apply]

/-- The bias laid out as a row by repeating along a new leading axis is the bias viewed as a [1, 64] array: both hold
    b[j] at (0, j). -/
theorem biasRow64_eq_shapeCast (b : FVec Ideal S64 .f32) (h : S64.ShapeCasts S1x64) :
    biasRow64 b = shapeCast S1x64 b h := by
  funext i
  obtain ⟨u, j, rfl⟩ : ∃ (u : Fin 1) (j : Fin 64), i = ix2 u j := ⟨i 0, i 1, eq_ix2 i⟩
  exact (biasRow64_apply b u j).trans (shapeCast_a_1a_apply b h u j).symm

/-- The same, with the bias entering the function as the [64] vector viewed [1, 64]. -/
theorem sage64_eq_reshape (mean xdst : FVec Ideal S200000x128 .f32) (wl wr : FVec Ideal S64x128 .f32) (b : FVec Ideal S64 .f32)
    (h : S64.ShapeCasts S1x64) :
    normalize64 (pre64 mean xdst wl wr b) = Cert.Spec.sage64 mean xdst wl (shapeCast S1x64 b h) wr :=
  (sage64_eq mean xdst wl wr b).trans (congrArg (fun bl => Cert.Spec.sage64 mean xdst wl bl wr) (biasRow64_eq_shapeCast b h))

end Cert.ReferenceIdeal.Dense

end
-- ==== Proof.KAgg2.lean ====
import proofs.«143223_j29772713296000_1_alg».proof.Proof.Gen.KernelIdeal.Frame
import proofs.«143223_j29772713296000_1_alg».proof.Proof.HostAgg
import Idealize.ShloMosaic.Lib.StableHlo.Run

noncomputable section

namespace Cert.KernelIdeal.Gen

open Idealize.ShloMosaic Idealize.ShloMosaic.TcCoe Idealize.SL.Sem Idealize.ShloMosaic.StableHlo

/-! # One layer: the buffers entering its three neighbour regions

Each of the layer's three host stretches computes one mean aggregation along an edge list and cuts the
layer's two matrices and its bias row out of their stacks. From any contents `V` of the buffers, a stretch
leaves at its result buffers the named functions of `V` at its argument buffers, and leaves the neighbour
region's own rows as they were. -/

/-! ## The three stretches, from any contents -/

theorem hostOps12_v280 (V : Valuation τ sig (Elt Ideal)) :
    StableHlo.after (hostOps12 (F := Ideal)) V (Proc.devRef .tc main_v280)
      = Cert.HostFns.aggA2M (V (Proc.devRef .tc main_v246)) (V (Proc.devRef .tc main_arg2)) := by
  after_results_simp
  rfl

theorem hostOps12_v282 (V : Valuation τ sig (Elt Ideal)) :
    StableHlo.after (hostOps12 (F := Ideal)) V (Proc.devRef .tc main_v282)
      = Cert.HostFns.sliceMat64 0 (V (Proc.devRef .tc main_arg15)) := by
  after_results_simp
  rfl

theorem hostOps12_v287 (V : Valuation τ sig (Elt Ideal)) :
    StableHlo.after (hostOps12 (F := Ideal)) V (Proc.devRef .tc main_v287)
      = Cert.HostFns.rowReshape64 (Cert.HostFns.sliceVec64 0 (V (Proc.devRef .tc main_arg16))) := by
  after_results_simp
  rfl

theorem hostOps12_v286 (V : Valuation τ sig (Elt Ideal)) :
    StableHlo.after (hostOps12 (F := Ideal)) V (Proc.devRef .tc main_v286)
      = Cert.HostFns.sliceMat64 0 (V (Proc.devRef .tc main_arg17)) := by
  after_results_simp
  rfl

theorem hostOps12_keep_v255 (V : Valuation τ sig (Elt Ideal)) :
    StableHlo.after (hostOps12 (F := Ideal)) V (Proc.devRef .tc main_v255) = V (Proc.devRef .tc main_v255) := by
  after_results_simp

theorem hostOps13_v313 (V : Valuation τ sig (Elt Ideal)) :
    StableHlo.after (hostOps13 (F := Ideal)) V (Proc.devRef .tc main_v313)
      = Cert.HostFns.aggM2A (V (Proc.devRef .tc main_v255)) (V (Proc.devRef .tc main_arg3)) := by
  after_results_simp
  rfl

theorem hostOps13_v315 (V : Valuation τ sig (Elt Ideal)) :
    StableHlo.after (hostOps13 (F := Ideal)) V (Proc.devRef .tc main_v315)
      = Cert.HostFns.sliceMat64 1 (V (Proc.devRef .tc main_arg15)) := by
  after_results_simp
  rfl

theorem hostOps13_v320 (V : Valuation τ sig (Elt Ideal)) :
    StableHlo.after (hostOps13 (F := Ideal)) V (Proc.devRef .tc main_v320)
      = Cert.HostFns.rowReshape64 (Cert.HostFns.sliceVec64 1 (V (Proc.devRef .tc main_arg16))) := by
  after_results_simp
  rfl

theorem hostOps13_v319 (V : Valuation τ sig (Elt Ideal)) :
    StableHlo.after (hostOps13 (F := Ideal)) V (Proc.devRef .tc main_v319)
      = Cert.HostFns.sliceMat64 1 (V (Proc.devRef .tc main_arg17)) := by
  after_results_simp
  rfl

theorem hostOps13_keep_v246 (V : Valuation τ sig (Elt Ideal)) :
    StableHlo.after (hostOps13 (F := Ideal)) V (Proc.devRef .tc main_v246) = V (Proc.devRef .tc main_v246) := by
  after_results_simp

theorem hostOps14_v346 (V : Valuation τ sig (Elt Ideal)) :
    StableHlo.after (hostOps14 (F := Ideal)) V (Proc.devRef .tc main_v346)
      = Cert.HostFns.aggA2A (V (Proc.devRef .tc main_v246)) (V (Proc.devRef .tc main_arg4)) := by
  after_results_simp
  rfl

theorem hostOps14_v348 (V : Valuation τ sig (Elt Ideal)) :
    StableHlo.after (hostOps14 (F := Ideal)) V (Proc.devRef .tc main_v348)
      = Cert.HostFns.sliceMat64 2 (V (Proc.devRef .tc main_arg15)) := by
  after_results_simp
  rfl

theorem hostOps14_v353 (V : Valuation τ sig (Elt Ideal)) :
    StableHlo.after (hostOps14 (F := Ideal)) V (Proc.devRef .tc main_v353)
      = Cert.HostFns.rowReshape64 (Cert.HostFns.sliceVec64 2 (V (Proc.devRef .tc main_arg16))) := by
  after_results_simp
  rfl

theorem hostOps14_v352 (V : Valuation τ sig (Elt Ideal)) :
    StableHlo.after (hostOps14 (F := Ideal)) V (Proc.devRef .tc main_v352)
      = Cert.HostFns.sliceMat64 2 (V (Proc.devRef .tc main_arg17)) := by
  after_results_simp
  rfl

theorem hostOps14_keep_v246 (V : Valuation τ sig (Elt Ideal)) :
    StableHlo.after (hostOps14 (F := Ideal)) V (Proc.devRef .tc main_v246) = V (Proc.devRef .tc main_v246) := by
  after_results_simp

/-! ## The same at the run's boundaries

At the boundary after each stretch, the aggregated rows, the two matrices and the bias row are the named
functions of the buffers at the boundary before it, and the region's own rows are as they were. -/

variable (m : (ℓ : Loc nD τ sig) → Buf (Elt Ideal) ℓ) (ρ : Dev nD → PrngReg)

theorem k_v280 (c : Dev nD) :
    W33 m ρ c (Proc.devRef .tc main_v280)
      = Cert.HostFns.aggA2M (W32 m ρ c (Proc.devRef .tc main_v246)) (W32 m ρ c (Proc.devRef .tc main_arg2)) :=
  hostOps12_v280 (W32 m ρ c)

theorem k_v282 (c : Dev nD) :
    W33 m ρ c (Proc.devRef .tc main_v282) = Cert.HostFns.sliceMat64 0 (W32 m ρ c (Proc.devRef .tc main_arg15)) :=
  hostOps12_v282 (W32 m ρ c)

theorem k_v287 (c : Dev nD) :
    W33 m ρ c (Proc.devRef .tc main_v287) = Cert.HostFns.rowReshape64 (Cert.HostFns.sliceVec64 0 (W32 m ρ c (Proc.devRef .tc main_arg16))) :=
  hostOps12_v287 (W32 m ρ c)

theorem k_v286 (c : Dev nD) :
    W33 m ρ c (Proc.devRef .tc main_v286) = Cert.HostFns.sliceMat64 0 (W32 m ρ c (Proc.devRef .tc main_arg17)) :=
  hostOps12_v286 (W32 m ρ c)

theorem k_keep_v255_32_33 (c : Dev nD) :
    W33 m ρ c (Proc.devRef .tc main_v255) = W32 m ρ c (Proc.devRef .tc main_v255) :=
  hostOps12_keep_v255 (W32 m ρ c)

theorem k_v313 (c : Dev nD) :
    W35 m ρ c (Proc.devRef .tc main_v313)
      = Cert.HostFns.aggM2A (W34 m ρ c (Proc.devRef .tc main_v255)) (W34 m ρ c (Proc.devRef .tc main_arg3)) :=
  hostOps13_v313 (W34 m ρ c)

theorem k_v315 (c : Dev nD) :
    W35 m ρ c (Proc.devRef .tc main_v315) = Cert.HostFns.sliceMat64 1 (W34 m ρ c (Proc.devRef .tc main_arg15)) :=
  hostOps13_v315 (W34 m ρ c)

theorem k_v320 (c : Dev nD) :
    W35 m ρ c (Proc.devRef .tc main_v320) = Cert.HostFns.rowReshape64 (Cert.HostFns.sliceVec64 1 (W34 m ρ c (Proc.devRef .tc main_arg16))) :=
  hostOps13_v320 (W34 m ρ c)

theorem k_v319 (c : Dev nD) :
    W35 m ρ c (Proc.devRef .tc main_v319) = Cert.HostFns.sliceMat64 1 (W34 m ρ c (Proc.devRef .tc main_arg17)) :=
  hostOps13_v319 (W34 m ρ c)

theorem k_keep_v246_34_35 (c : Dev nD) :
    W35 m ρ c (Proc.devRef .tc main_v246) = W34 m ρ c (Proc.devRef .tc main_v246) :=
  hostOps13_keep_v246 (W34 m ρ c)

theorem k_v346 (c : Dev nD) :
    W37 m ρ c (Proc.devRef .tc main_v346)
      = Cert.HostFns.aggA2A (W36 m ρ c (Proc.devRef .tc main_v246)) (W36 m ρ c (Proc.devRef .tc main_arg4)) :=
  hostOps14_v346 (W36 m ρ c)

theorem k_v348 (c : Dev nD) :
    W37 m ρ c (Proc.devRef .tc main_v348) = Cert.HostFns.sliceMat64 2 (W36 m ρ c (Proc.devRef .tc main_arg15)) :=
  hostOps14_v348 (W36 m ρ c)

theorem k_v353 (c : Dev nD) :
    W37 m ρ c (Proc.devRef .tc main_v353) = Cert.HostFns.rowReshape64 (Cert.HostFns.sliceVec64 2 (W36 m ρ c (Proc.devRef .tc main_arg16))) :=
  hostOps14_v353 (W36 m ρ c)

theorem k_v352 (c : Dev nD) :
    W37 m ρ c (Proc.devRef .tc main_v352) = Cert.HostFns.sliceMat64 2 (W36 m ρ c (Proc.devRef .tc main_arg17)) :=
  hostOps14_v352 (W36 m ρ c)

theorem k_keep_v246_36_37 (c : Dev nD) :
    W37 m ρ c (Proc.devRef .tc main_v246) = W36 m ρ c (Proc.devRef .tc main_v246) :=
  hostOps14_keep_v246 (W36 m ρ c)

end Cert.KernelIdeal.Gen
-- ==== Proof.RAgg2.lean ====
import proofs.«143223_j29772713296000_1_alg».proof.Proof.RefOps
import proofs.«143223_j29772713296000_1_alg».proof.Proof.HostAgg

noncomputable section

namespace Cert.ReferenceIdeal.Run

open Cert.ReferenceIdeal Cert.ReferenceIdeal.Gen Idealize.ShloMosaic Idealize.ShloMosaic.TcCoe Idealize.SL.Sem Idealize.ShloMosaic.StableHlo

attribute [local irreducible] Host.gather Host.scatterAdd

/-! # One layer of the reference: its three aggregation stages, read at their result buffers

Each stage cuts one layer's two matrices and its bias row out of their stacks and computes one mean
aggregation along an edge list: the same functions as the kernel program's host stretches, the two printed
programs' shape and dimension records being equal term by term. -/

theorem seg26_v402 (V : Valuation τ sig (Elt Ideal)) :
    StableHlo.after (seg26 (F := Ideal)) V (Proc.devRef .tc main_v402)
      = Cert.HostFns.aggA2M (V (Proc.devRef .tc main_v370)) (V (Proc.devRef .tc main_arg2)) := by
  after_results_simp
  rfl

theorem seg26_v373 (V : Valuation τ sig (Elt Ideal)) :
    StableHlo.after (seg26 (F := Ideal)) V (Proc.devRef .tc main_v373)
      = Cert.HostFns.sliceMat64 0 (V (Proc.devRef .tc main_arg15)) := by
  after_results_simp
  rfl

theorem seg26_v375 (V : Valuation τ sig (Elt Ideal)) :
    StableHlo.after (seg26 (F := Ideal)) V (Proc.devRef .tc main_v375)
      = Cert.HostFns.sliceVec64 0 (V (Proc.devRef .tc main_arg16)) := by
  after_results_simp
  rfl

theorem seg26_v377 (V : Valuation τ sig (Elt Ideal)) :
    StableHlo.after (seg26 (F := Ideal)) V (Proc.devRef .tc main_v377)
      = Cert.HostFns.sliceMat64 0 (V (Proc.devRef .tc main_arg17)) := by
  after_results_simp
  rfl

theorem r_v402 (V : Valuation τ sig (Elt Ideal)) :
    R27 V (Proc.devRef .tc main_v402)
      = Cert.HostFns.aggA2M (R26 V (Proc.devRef .tc main_v370)) (R26 V (Proc.devRef .tc main_arg2)) :=
  seg26_v402 (R26 V)

theorem r_v373 (V : Valuation τ sig (Elt Ideal)) :
    R27 V (Proc.devRef .tc main_v373) = Cert.HostFns.sliceMat64 0 (R26 V (Proc.devRef .tc main_arg15)) :=
  seg26_v373 (R26 V)

theorem r_v375 (V : Valuation τ sig (Elt Ideal)) :
    R27 V (Proc.devRef .tc main_v375) = Cert.HostFns.sliceVec64 0 (R26 V (Proc.devRef .tc main_arg16)) :=
  seg26_v375 (R26 V)

theorem r_v377 (V : Valuation τ sig (Elt Ideal)) :
    R27 V (Proc.devRef .tc main_v377) = Cert.HostFns.sliceMat64 0 (R26 V (Proc.devRef .tc main_arg17)) :=
  seg26_v377 (R26 V)

theorem seg28_v446 (V : Valuation τ sig (Elt Ideal)) :
    StableHlo.after (seg28 (F := Ideal)) V (Proc.devRef .tc main_v446)
      = Cert.HostFns.aggM2A (V (Proc.devRef .tc main_v371)) (V (Proc.devRef .tc main_arg3)) := by
  after_results_simp
  rfl

theorem seg28_v417 (V : Valuation τ sig (Elt Ideal)) :
    StableHlo.after (seg28 (F := Ideal)) V (Proc.devRef .tc main_v417)
      = Cert.HostFns.sliceMat64 1 (V (Proc.devRef .tc main_arg15)) := by
  after_results_simp
  rfl

theorem seg28_v419 (V : Valuation τ sig (Elt Ideal)) :
    StableHlo.after (seg28 (F := Ideal)) V (Proc.devRef .tc main_v419)
      = Cert.HostFns.sliceVec64 1 (V (Proc.devRef .tc main_arg16)) := by
  after_results_simp
  rfl

theorem seg28_v421 (V : Valuation τ sig (Elt Ideal)) :
    StableHlo.after (seg28 (F := Ideal)) V (Proc.devRef .tc main_v421)
      = Cert.HostFns.sliceMat64 1 (V (Proc.devRef .tc main_arg17)) := by
  after_results_simp
  rfl

theorem r_v446 (V : Valuation τ sig (Elt Ideal)) :
    R29 V (Proc.devRef .tc main_v446)
      = Cert.HostFns.aggM2A (R28 V (Proc.devRef .tc main_v371)) (R28 V (Proc.devRef .tc main_arg3)) :=
  seg28_v446 (R28 V)

theorem r_v417 (V : Valuation τ sig (Elt Ideal)) :
    R29 V (Proc.devRef .tc main_v417) = Cert.HostFns.sliceMat64 1 (R28 V (Proc.devRef .tc main_arg15)) :=
  seg28_v417 (R28 V)

theorem r_v419 (V : Valuation τ sig (Elt Ideal)) :
    R29 V (Proc.devRef .tc main_v419) = Cert.HostFns.sliceVec64 1 (R28 V (Proc.devRef .tc main_arg16)) :=
  seg28_v419 (R28 V)

theorem r_v421 (V : Valuation τ sig (Elt Ideal)) :
    R29 V (Proc.devRef .tc main_v421) = Cert.HostFns.sliceMat64 1 (R28 V (Proc.devRef .tc main_arg17)) :=
  seg28_v421 (R28 V)

theorem seg30_v490 (V : Valuation τ sig (Elt Ideal)) :
    StableHlo.after (seg30 (F := Ideal)) V (Proc.devRef .tc main_v490)
      = Cert.HostFns.aggA2A (V (Proc.devRef .tc main_v370)) (V (Proc.devRef .tc main_arg4)) := by
  after_results_simp
  rfl

theorem seg30_v461 (V : Valuation τ sig (Elt Ideal)) :
    StableHlo.after (seg30 (F := Ideal)) V (Proc.devRef .tc main_v461)
      = Cert.HostFns.sliceMat64 2 (V (Proc.devRef .tc main_arg15)) := by
  after_results_simp
  rfl

theorem seg30_v463 (V : Valuation τ sig (Elt Ideal)) :
    StableHlo.after (seg30 (F := Ideal)) V (Proc.devRef .tc main_v463)
      = Cert.HostFns.sliceVec64 2 (V (Proc.devRef .tc main_arg16)) := by
  after_results_simp
  rfl

theorem seg30_v465 (V : Valuation τ sig (Elt Ideal)) :
    StableHlo.after (seg30 (F := Ideal)) V (Proc.devRef .tc main_v465)
      = Cert.HostFns.sliceMat64 2 (V (Proc.devRef .tc main_arg17)) := by
  after_results_simp
  rfl

theorem r_v490 (V : Valuation τ sig (Elt Ideal)) :
    R31 V (Proc.devRef .tc main_v490)
      = Cert.HostFns.aggA2A (R30 V (Proc.devRef .tc main_v370)) (R30 V (Proc.devRef .tc main_arg4)) :=
  seg30_v490 (R30 V)

theorem r_v461 (V : Valuation τ sig (Elt Ideal)) :
    R31 V (Proc.devRef .tc main_v461) = Cert.HostFns.sliceMat64 2 (R30 V (Proc.devRef .tc main_arg15)) :=
  seg30_v461 (R30 V)

theorem r_v463 (V : Valuation τ sig (Elt Ideal)) :
    R31 V (Proc.devRef .tc main_v463) = Cert.HostFns.sliceVec64 2 (R30 V (Proc.devRef .tc main_arg16)) :=
  seg30_v463 (R30 V)

theorem r_v465 (V : Valuation τ sig (Elt Ideal)) :
    R31 V (Proc.devRef .tc main_v465) = Cert.HostFns.sliceMat64 2 (R30 V (Proc.devRef .tc main_arg17)) :=
  seg30_v465 (R30 V)

end Cert.ReferenceIdeal.Run
-- ==== Proof.JoinV321.lean ====
/-
  The last layer's dense step for one relation into the account nodes, joined: the array region 13 of the kernel's program
  leaves is the array the reference holds after its stage 29.

  Kernel side. Region 13 leaves the dense step `Cert.Spec.sage64` of its five arrays as the region finds them. The host stretch
  before it fills them: the neighbour means are the mean aggregation of the merchant rows along one edge list, the two weight
  matrices and the bias are one slice each of their stacks (the bias slice viewed as a row), and the destination rows are the
  account rows as an earlier region left them. None of those buffers is touched between where they were made and here.

  Reference side. Stage 29 is the same step composed from host operations: two products against transposed weights, the bias
  repeated down the rows, the row norms, the quotient; that composition is `Cert.Spec.sage64` of its inputs, the bias entering as
  the vector viewed as a row. Stage 28 fills those inputs with the same aggregation and the same slices.

  So both arrays are `Cert.Spec.sage64` of the same functions of: the merchant rows and the account rows of the layer before
  (joined earlier), and four arguments as launched (on which the two programs agree).
-/
import proofs.«143223_j29772713296000_1_alg».proof.Proof.SageK13
import proofs.«143223_j29772713296000_1_alg».proof.Proof.SageR64
import proofs.«143223_j29772713296000_1_alg».proof.Proof.KAgg2
import proofs.«143223_j29772713296000_1_alg».proof.Proof.RAgg2
import proofs.«143223_j29772713296000_1_alg».proof.Proof.KCarry
import proofs.«143223_j29772713296000_1_alg».proof.Proof.RCarry

set_option maxRecDepth 16384

noncomputable section

namespace Cert.Join

open Idealize.ShloMosaic Idealize.ShloMosaic.TcCoe Idealize.SL.Sem Idealize.ShloMosaic.StableHlo

/-! ## The kernel's side -/

section Kernel
open Cert.KernelIdeal Cert.KernelIdeal.Gen Cert.KernelIdeal.Carry

variable (m : (ℓ : Loc nD τ sig) → Buf (Elt Ideal) ℓ) (ρ : Dev nD → PrngReg)

/-- What region 13 leaves, over the rows of the layer before and the arguments as launched. -/
theorem k_v321 (c : Dev nD) : W36 m ρ c (Proc.devRef .tc main_v321)
    = Cert.Spec.sage64
        (Cert.HostFns.aggM2A (W32 m ρ c (Proc.devRef .tc main_v255)) (m ((c.tc : Thread nD τ).loc main_arg3)))
        (W30 m ρ c (Proc.devRef .tc main_v246))
        (Cert.HostFns.sliceMat64 1 (m ((c.tc : Thread nD τ).loc main_arg15)))
        (Cert.HostFns.rowReshape64 (Cert.HostFns.sliceVec64 1 (m ((c.tc : Thread nD τ).loc main_arg16))))
        (Cert.HostFns.sliceMat64 1 (m ((c.tc : Thread nD τ).loc main_arg17))) := by
  refine ((W36_arr m ρ c 5).trans (reg13_val (V35 m ρ) c)).trans ?_
  show Cert.Spec.sage64 (W35 m ρ c (Proc.devRef .tc main_v313)) (W35 m ρ c (Proc.devRef .tc main_v246))
      (W35 m ρ c (Proc.devRef .tc main_v315)) (W35 m ρ c (Proc.devRef .tc main_v320)) (W35 m ρ c (Proc.devRef .tc main_v319)) = _
  rw [k_v313, k_keep_v246_34_35, k_v315, k_v320, k_v319, c_v255_32_34, c_v246_30_34, c_arg3_0_34, c_arg15_0_34, c_arg16_0_34,
    c_arg17_0_34]

end Kernel

/-! ## The reference's side -/

section Reference
open Cert.ReferenceIdeal Cert.ReferenceIdeal.Gen Cert.ReferenceIdeal.Run

/-- Stage 29 leaves, at its result, the dense step composed from its five inputs. -/
theorem seg29_v459 (V : Valuation τ sig (Elt Ideal)) :
    StableHlo.after (seg29 (F := Ideal)) V (Proc.devRef .tc main_v459)
      = Cert.ReferenceIdeal.Dense.normalize64
          (Cert.ReferenceIdeal.Dense.pre64 (V (Proc.devRef .tc main_v446)) (V (Proc.devRef .tc main_v370))
            (V (Proc.devRef .tc main_v417)) (V (Proc.devRef .tc main_v421)) (V (Proc.devRef .tc main_v419))) := by
  after_results_simp
  rfl

/-- What the reference holds after stage 29, over the rows of the layer before and the arguments as launched. -/
theorem r_v459 (V : Valuation τ sig (Elt Ideal)) : R30 V (Proc.devRef .tc main_v459)
    = Cert.Spec.sage64
        (Cert.HostFns.aggM2A (R26 V (Proc.devRef .tc main_v371)) (V (Proc.devRef .tc main_arg3)))
        (R25 V (Proc.devRef .tc main_v370))
        (Cert.HostFns.sliceMat64 1 (V (Proc.devRef .tc main_arg15)))
        (Cert.HostFns.rowReshape64 (Cert.HostFns.sliceVec64 1 (V (Proc.devRef .tc main_arg16))))
        (Cert.HostFns.sliceMat64 1 (V (Proc.devRef .tc main_arg17))) := by
  refine (seg29_v459 (R29 V)).trans ?_
  refine (Cert.ReferenceIdeal.Dense.sage64_eq_reshape _ _ _ _ _ Cert.KernelIdeal.Gen.shapeCasts_S64_S1x64).trans ?_
  rw [r_v446, r_v417, r_v419, r_v421, rc_v370_25_29, rc_v371_26_28, rc_arg3_0_28, rc_arg15_0_28, rc_arg16_0_28, rc_arg17_0_28]
  rfl

end Reference

/-! ## The join -/

/-- THE TWO ARRAYS ARE ONE: given the joins of the layer before (account rows, merchant rows) and the two programs' agreement on
    the edge list and the three stacks, region 13's result is the reference's stage-29 result. -/
theorem j_v321
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3))
    (ha15 : m' ((c.tc : Thread Cert.ReferenceIdeal.nD Cert.ReferenceIdeal.τ).loc Cert.ReferenceIdeal.main_arg15)
        = m ((c.tc : Thread Cert.KernelIdeal.nD Cert.KernelIdeal.τ).loc Cert.KernelIdeal.main_arg15))
    (ha16 : m' ((c.tc : Thread Cert.ReferenceIdeal.nD Cert.ReferenceIdeal.τ).loc Cert.ReferenceIdeal.main_arg16)
        = m ((c.tc : Thread Cert.KernelIdeal.nD Cert.KernelIdeal.τ).loc Cert.KernelIdeal.main_arg16))
    (ha17 : m' ((c.tc : Thread Cert.ReferenceIdeal.nD Cert.ReferenceIdeal.τ).loc Cert.ReferenceIdeal.main_arg17)
        = m ((c.tc : Thread Cert.KernelIdeal.nD Cert.KernelIdeal.τ).loc Cert.KernelIdeal.main_arg17))
    (j246 : Cert.KernelIdeal.Gen.W30 m ρ c (Proc.devRef .tc Cert.KernelIdeal.main_v246)
        = Cert.ReferenceIdeal.Run.R25 (launchContents m' c) (Proc.devRef .tc Cert.ReferenceIdeal.main_v370))
    (j255 : Cert.KernelIdeal.Gen.W32 m ρ c (Proc.devRef .tc Cert.KernelIdeal.main_v255)
        = Cert.ReferenceIdeal.Run.R26 (launchContents m' c) (Proc.devRef .tc Cert.ReferenceIdeal.main_v371)) :
    Cert.KernelIdeal.Gen.W36 m ρ c (Proc.devRef .tc Cert.KernelIdeal.main_v321)
      = Cert.ReferenceIdeal.Run.R30 (launchContents m' c) (Proc.devRef .tc Cert.ReferenceIdeal.main_v459) := by
  rw [k_v321 m ρ c, r_v459 (launchContents m' c), j246, j255]
  show Cert.Spec.sage64 _ _ _ _ _
      = Cert.Spec.sage64
          (Cert.HostFns.aggM2A _ (m' ((c.tc : Thread Cert.ReferenceIdeal.nD Cert.ReferenceIdeal.τ).loc Cert.ReferenceIdeal.main_arg3)))
          _
          (Cert.HostFns.sliceMat64 1 (m' ((c.tc : Thread Cert.ReferenceIdeal.nD Cert.ReferenceIdeal.τ).loc Cert.ReferenceIdeal.main_arg15)))
          (Cert.HostFns.rowReshape64 (Cert.HostFns.sliceVec64 1 (m' ((c.tc : Thread Cert.ReferenceIdeal.nD Cert.ReferenceIdeal.τ).loc Cert.ReferenceIdeal.main_arg16))))
          (Cert.HostFns.sliceMat64 1 (m' ((c.tc : Thread Cert.ReferenceIdeal.nD Cert.ReferenceIdeal.τ).loc Cert.ReferenceIdeal.main_arg17)))
  rw [ha3, ha15, ha16, ha17]

end Cert.Join

end
-- ==== Proof.SageK14.lean ====
/-
  Region 14: the last layer's dense GraphSAGE step on the 200000 account rows, for one of the two relations that end in
  account nodes.

  The region runs 40 grid points. At point t it reads rows 5000 t … 5000 t + 4999 of the two row-blocked operands
  (the aggregated neighbour means and the destination features), the two whole [64, 128] weight matrices and the whole
  [1, 64] bias row, and writes rows 5000 t … of the [200000, 64] result. What it stores is one pure function of those
  blocks; read at an index it is: the two products against the transposed weights as sums over the 128 contracted entries,
  added, plus the bias, each row then divided by the larger of its Euclidean norm and the word 0x2B8CBCCC. A row of that
  function depends on the same row of the two operands only, so block t of the result is block t of the function of the
  whole arrays; the 40 blocks tile the array (row r is written by point r / 5000), hence the array after the region is
  that function of the five arrays as the region found them.
-/
import proofs.«143223_j29772713296000_1_alg».proof.Proof.Gen.KernelIdeal.Frame
import proofs.«143223_j29772713296000_1_alg».proof.Proof.SpecSage64
import proofs.«143223_j29772713296000_1_alg».proof.Proof.SageLemmas64
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.Gen

/-! ## The body's arithmetic at an index -/

/-- The value stored by region 14's body, at (p, q) of its [5000, 64] block, is the dense step on the block's 5000 rows:
    the two matrix-unit products against the transposed weights read as sums over the 128 contracted entries (rounding to
    the narrower format is the identity on the extended reals), and what follows them is the normalisation. -/
theorem pay14_apply (v0 v3 : Vec Ideal S5000x128 .f32) (v6 v9 : Vec Ideal S64x128 .f32) (v17 : Vec Ideal S1x64 .f32)
    (p : Fin 5000) (q : Fin 64) :
    k14_pay1 (F := Ideal) v0 v3 v6 v9 v17 (ix2 p q) = Cert.Spec.sage64Rows (n := 5000) v0 v3 v6 v17 v9 (ix2 p q) := by
  unfold k14_pay1
  refine (Cert.Spec.Sage64.normTail_apply (n := 5000) _ _ _ _ _ _ _ _ _ p q).trans ?_
  have hA : ∀ j : Fin 64,
      matmul dot_S5000x128_S128x64_S5000x64_1_0_0_1_n_n none
          (truncf .bf16 (shapeCast S5000x128 v0 shapeCasts_S5000x128_S5000x128) bitsLt_bf16_f32)
          (transpose S128x64 [1, 0] (truncf .bf16 (shapeCast S64x128 v6 shapeCasts_S64x128_S64x128) bitsLt_bf16_f32) transposes_S64x128_p1_0_S128x64)
          (constant (F := Ideal) S5000x64 .f32 0x00000000#32) (ix2 p j)
        = ∑ k : Fin 128, v0 (ix2 p k) * v6 (ix2 j k) := fun j =>
    (Cert.Spec.Sage64.matmul_transposed_zero_apply (m := 5000) (k := 128) (n := 64) none _ _ _ p j).trans
      (Finset.sum_congr rfl fun k _ => by rw [truncf_apply, truncf_apply, shapeCast_self, shapeCast_self])
  have hB : ∀ j : Fin 64,
      matmul dot_S5000x128_S128x64_S5000x64_1_0_0_1_n_n none
          (truncf .bf16 (shapeCast S5000x128 v3 shapeCasts_S5000x128_S5000x128) bitsLt_bf16_f32)
          (transpose S128x64 [1, 0] (truncf .bf16 (shapeCast S64x128 v9 shapeCasts_S64x128_S64x128) bitsLt_bf16_f32) transposes_S64x128_p1_0_S128x64)
          (constant (F := Ideal) S5000x64 .f32 0x00000000#32) (ix2 p j)
        = ∑ k : Fin 128, v3 (ix2 p k) * v9 (ix2 j k) := fun j =>
    (Cert.Spec.Sage64.matmul_transposed_zero_apply (m := 5000) (k := 128) (n := 64) none _ _ _ p j).trans
      (Finset.sum_congr rfl fun k _ => by rw [truncf_apply, truncf_apply, shapeCast_self, shapeCast_self])
  simp only [hA, hB]
  simp only [shapeCast_self]
  rfl

/-! ## The windows' blocks as pieces of the arrays -/

variable (V : (c : Dev nD) → (b : Ref sig .tc) → Buf (Elt Ideal) ((c : Thread nD τ).loc b))

theorem hz14 : (![0, 0] : Fin 2 → Nat) = fun _ => 0 := funext fun a => by fin_cases a <;> rfl

/-- The index maps over the 40 grid points: the two row-blocked inputs and the output move one block of 5000 rows per
    point; the weights and the bias row stay at their one block. -/
theorem idx14 : ∀ t : Fin cfg14.N,
      win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Window 0's block at point t is rows 5000 t … 5000 t + 4999 of the first operand. -/
theorem iblk14_0_apply (c : Dev nD) (t : Fin cfg14.N) (p : Fin 5000) (k : Fin 128) (r : Fin 200000)
    (hr : r.val = 5000 * t.val + p.val) :
    (iblk14 V c 0 t : Vec Ideal S5000x128 .f32) (ix2 p k) = (V c main_v346 : Vec Ideal S200000x128 .f32) (ix2 r k) := by
  obtain ⟨e0, e1, -⟩ := idx14 t
  unfold iblk14
  rw [View.read_apply]
  show V c main_v346 _ = V c main_v346 _
  refine congrArg (V c main_v346) (funext fun a => Fin.ext ?_)
  match a with
  | ⟨0, _⟩ => show win14_0.index t (0 : Fin 2) * 5000 + 1 * p.val = r.val; rw [e0, hr]; omega
  | ⟨1, _⟩ => show win14_0.index t (1 : Fin 2) * 128 + 1 * k.val = k.val; rw [e1]; omega

/-- Window 1's block at point t is the same rows of the second operand. -/
theorem iblk14_1_apply (c : Dev nD) (t : Fin cfg14.N) (p : Fin 5000) (k : Fin 128) (r : Fin 200000)
    (hr : r.val = 5000 * t.val + p.val) :
    (iblk14 V c 1 t : Vec Ideal S5000x128 .f32) (ix2 p k) = (V c main_v246 : Vec Ideal S200000x128 .f32) (ix2 r k) := by
  obtain ⟨-, -, e0, e1, -⟩ := idx14 t
  unfold iblk14
  rw [View.read_apply]
  show V c main_v246 _ = V c main_v246 _
  refine congrArg (V c main_v246) (funext fun a => Fin.ext ?_)
  match a with
  | ⟨0, _⟩ => show win14_1.index t (0 : Fin 2) * 5000 + 1 * p.val = r.val; rw [e0, hr]; omega
  | ⟨1, _⟩ => show win14_1.index t (1 : Fin 2) * 128 + 1 * k.val = k.val; rw [e1]; omega

/-- Window 2's one block is the whole first weight matrix. -/
theorem iblk14_2_eq (c : Dev nD) (t : Fin cfg14.N) :
    (iblk14 V c 2 t : Vec Ideal S64x128 .f32) = (V c main_v348 : Vec Ideal S64x128 .f32) := by
  obtain ⟨-, -, -, -, e0, e1, -⟩ := idx14 t
  funext y
  unfold iblk14
  rw [View.read_apply]
  show V c main_v348 _ = V c main_v348 _
  refine congrArg (V c main_v348) (funext fun a => Fin.ext ?_)
  match a with
  | ⟨0, _⟩ => show win14_2.index t (0 : Fin 2) * 64 + 1 * (y 0).val = (y 0).val; rw [e0]; omega
  | ⟨1, _⟩ => show win14_2.index t (1 : Fin 2) * 128 + 1 * (y 1).val = (y 1).val; rw [e1]; omega

/-- Window 3's one block is the whole bias row. -/
theorem iblk14_3_eq (c : Dev nD) (t : Fin cfg14.N) :
    (iblk14 V c 3 t : Vec Ideal S1x64 .f32) = (V c main_v353 : Vec Ideal S1x64 .f32) := by
  obtain ⟨-, -, -, -, -, -, e0, e1, -⟩ := idx14 t
  funext y
  unfold iblk14
  rw [View.read_apply]
  show V c main_v353 _ = V c main_v353 _
  refine congrArg (V c main_v353) (funext fun a => Fin.ext ?_)
  match a with
  | ⟨0, _⟩ => show win14_3.index t (0 : Fin 2) * 1 + 1 * (y 0).val = (y 0).val; rw [e0]; omega
  | ⟨1, _⟩ => show win14_3.index t (1 : Fin 2) * 64 + 1 * (y 1).val = (y 1).val; rw [e1]; omega

/-- Window 4's one block is the whole second weight matrix. -/
theorem iblk14_4_eq (c : Dev nD) (t : Fin cfg14.N) :
    (iblk14 V c 4 t : Vec Ideal S64x128 .f32) = (V c main_v352 : Vec Ideal S64x128 .f32) := by
  obtain ⟨-, -, -, -, -, -, -, -, e0, e1, -⟩ := idx14 t
  funext y
  unfold iblk14
  rw [View.read_apply]
  show V c main_v352 _ = V c main_v352 _
  refine congrArg (V c main_v352) (funext fun a => Fin.ext ?_)
  match a with
  | ⟨0, _⟩ => show win14_4.index t (0 : Fin 2) * 64 + 1 * (y 0).val = (y 0).val; rw [e0]; omega
  | ⟨1, _⟩ => show win14_4.index t (1 : Fin 2) * 128 + 1 * (y 1).val = (y 1).val; rw [e1]; omega

/-- Entry (p, q) of the output's block at point t sits at row 5000 t + p of the output array. -/
theorem emb14_5 (t : Fin cfg14.N) (p : Fin 5000) (q : Fin 64) (r : Fin 200000) (hr : r.val = 5000 * t.val + p.val) :
    ((cfg14.win 5).blk t).view.emb (ix2 p q) = (ix2 r q : S200000x64.Idx) := by
  obtain ⟨-, -, -, -, -, -, -, -, -, -, e0, e1⟩ := idx14 t
  funext a
  apply Fin.ext
  match a with
  | ⟨0, _⟩ => show win14_5.index t (0 : Fin 2) * 5000 + 1 * p.val = r.val; rw [e0, hr]; omega
  | ⟨1, _⟩ => show win14_5.index t (1 : Fin 2) * 64 + 1 * q.val = q.val; rw [e1]; omega

/-! ## What each point writes back, and the array after the region -/

/-- The region's result: the dense step on the 200000 rows, of the five arrays as the region finds them. -/
abbrev G14 (c : Dev nD) : Vec Ideal S200000x64 .f32 :=
  Cert.Spec.sage64 (V c main_v346) (V c main_v246) (V c main_v348) (V c main_v353) (V c main_v352)

/-- Point t writes back block t of that function: a row of the step depends on the same row of the two row-blocked
    operands only, and the block's rows are rows 5000 t … of the arrays. -/
theorem flushed14_eq (c : Dev nD) (t : Fin cfg14.N) :
    (dat14 V c).flushed 5 t = ((cfg14.win 5).blk t).view.read (Elt Ideal) (G14 V c) := by
  have hN : cfg14.N = 40 := N_14
  have ht : t.val < 40 := by have := t.isLt; omega
  show (cfg14.win 5).cut (grid14.coords t) ((dat14 V c).after 5 t) = _
  rw [after14_5]
  unfold out14_5
  rw [View.canon_unit_zero hz14]
  simp only [View.ld_unit_zero (S := S5000x128) hz14, View.ld_unit_zero (S := S64x128) hz14, View.ld_unit_zero (S := S1x64) hz14]
  funext y
  obtain ⟨p, q, rfl⟩ : ∃ (p : Fin 5000) (q : Fin 64), y = ix2 p q := ⟨y 0, y 1, eq_ix2 y⟩
  have hp : p.val < 5000 := p.isLt
  refine (pay14_apply (iblk14 V c 0 t) (iblk14 V c 1 t) (iblk14 V c 2 t) (iblk14 V c 4 t) (iblk14 V c 3 t) p q).trans ?_
  rw [View.read_apply]
  show _ = G14 V c (((cfg14.win 5).blk t).view.emb (ix2 p q))
  rw [emb14_5 t p q ⟨5000 * t.val + p.val, by omega⟩ rfl, iblk14_2_eq V c t, iblk14_3_eq V c t, iblk14_4_eq V c t]
  exact Cert.Spec.sage64Rows_of_rows (n := 200000) (n' := 5000) (V c main_v346) (V c main_v246) (iblk14 V c 0 t) (iblk14 V c 1 t)
    (V c main_v348) (V c main_v353) (V c main_v352) ⟨5000 * t.val + p.val, by omega⟩ p
    (fun k => iblk14_0_apply V c t p k _ rfl) (fun k => iblk14_1_apply V c t p k _ rfl) q

/-- An index of the output array is in point t's block iff each coordinate is in the block's range. -/
theorem mem_blk14_5 (t : Fin cfg14.N) (i : S200000x64.Idx) :
    i ∈ ((cfg14.win 5).blk t).view.set ↔ ∀ a : Fin 2, win14_5.index t a * S5000x64.size a ≤ (i a).val ∧ (i a).val < win14_5.index t a * S5000x64.size a + S5000x64.size a := by
  show i ∈ ((View.whole main_v354).slice (win14_5.rect t)).set ↔ _
  rw [View.set_slice_whole, Rect.mem_set_unit]
  exact Iff.rfl

/-- Every row r of the output array is written: by point r / 5000. -/
theorem arrCover14 (i : S200000x64.Idx) :
    ∃ t : Fin cfg14.N, (cfg14.win 5).flush t = true ∧ i ∈ ((cfg14.win 5).blk t).view.set := by
  have hi0 : (i 0).val < 200000 := (i 0).isLt
  have hi1 : (i 1).val < 64 := (i 1).isLt
  have hN : cfg14.N = 40 := N_14
  refine ⟨⟨(i 0).val / 5000, by omega⟩, flush14_5 _, ?_⟩
  obtain ⟨-, -, -, -, -, -, -, -, -, -, e0, e1⟩ := idx14 ⟨(i 0).val / 5000, by omega⟩
  rw [mem_blk14_5]
  intro a
  match a with
  | ⟨0, _⟩ =>
    show win14_5.index ⟨(i 0).val / 5000, _⟩ (0 : Fin 2) * 5000 ≤ (i 0).val ∧ (i 0).val < win14_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win14_5.index ⟨(i 0).val / 5000, _⟩ (1 : Fin 2) * 64 ≤ (i 1).val ∧ (i 1).val < win14_5.index ⟨(i 0).val / 5000, _⟩ (1 : Fin 2) * 64 + 64
    rw [e1]; omega

/-- REGION 14'S VALUE: after the region the output array holds the dense step of the five arrays as the region found them. -/
theorem reg14_val (c : Dev nD) :
    (dat14 (F := Ideal) V c).arrAt 5 cfg14.N
      = Cert.Spec.sage64 (V c main_v346) (V c main_v246) (V c main_v348) (V c main_v353) (V c main_v352) :=
  (dat14 V c).arrAt_eq_of_cover 5 (G14 V c) (fun t _ => flushed14_eq V c t) arrCover14

end Cert.KernelIdeal.Gen

end
-- ==== Proof.JoinV354.lean ====
/-
  The last layer's dense step for the other relation into the account nodes, joined: the array region 14 of the kernel's program
  leaves is the array the reference holds after its stage 31.

  The same argument as for region 13, with the neighbour means taken over the ACCOUNT rows of the layer before along the third edge
  list, and the third slice of each stack: both arrays are `Cert.Spec.sage64` of the same functions of the account rows of the layer
  before (joined earlier) and of four arguments as launched, on which the two programs agree.
-/
import proofs.«143223_j29772713296000_1_alg».proof.Proof.SageK14
import proofs.«143223_j29772713296000_1_alg».proof.Proof.SageR64
import proofs.«143223_j29772713296000_1_alg».proof.Proof.KAgg2
import proofs.«143223_j29772713296000_1_alg».proof.Proof.RAgg2
import proofs.«143223_j29772713296000_1_alg».proof.Proof.KCarry
import proofs.«143223_j29772713296000_1_alg».proof.Proof.RCarry

set_option maxRecDepth 16384

noncomputable section

namespace Cert.Join

open Idealize.ShloMosaic Idealize.ShloMosaic.TcCoe Idealize.SL.Sem Idealize.ShloMosaic.StableHlo

/-! ## The kernel's side -/

section Kernel
open Cert.KernelIdeal Cert.KernelIdeal.Gen Cert.KernelIdeal.Carry

variable (m : (ℓ : Loc nD τ sig) → Buf (Elt Ideal) ℓ) (ρ : Dev nD → PrngReg)

/-- What region 14 leaves, over the account rows of the layer before and the arguments as launched. -/
theorem k_v354 (c : Dev nD) : W38 m ρ c (Proc.devRef .tc main_v354)
    = Cert.Spec.sage64
        (Cert.HostFns.aggA2A (W30 m ρ c (Proc.devRef .tc main_v246)) (m ((c.tc : Thread nD τ).loc main_arg4)))
        (W30 m ρ c (Proc.devRef .tc main_v246))
        (Cert.HostFns.sliceMat64 2 (m ((c.tc : Thread nD τ).loc main_arg15)))
        (Cert.HostFns.rowReshape64 (Cert.HostFns.sliceVec64 2 (m ((c.tc : Thread nD τ).loc main_arg16))))
        (Cert.HostFns.sliceMat64 2 (m ((c.tc : Thread nD τ).loc main_arg17))) := by
  refine ((W38_arr m ρ c 5).trans (reg14_val (V37 m ρ) c)).trans ?_
  show Cert.Spec.sage64 (W37 m ρ c (Proc.devRef .tc main_v346)) (W37 m ρ c (Proc.devRef .tc main_v246))
      (W37 m ρ c (Proc.devRef .tc main_v348)) (W37 m ρ c (Proc.devRef .tc main_v353)) (W37 m ρ c (Proc.devRef .tc main_v352)) = _
  rw [k_v346, k_keep_v246_36_37, k_v348, k_v353, k_v352, c_v246_30_36, c_arg4_0_36, c_arg15_0_36, c_arg16_0_36, c_arg17_0_36]

end Kernel

/-! ## The reference's side -/

section Reference
open Cert.ReferenceIdeal Cert.ReferenceIdeal.Gen Cert.ReferenceIdeal.Run

/-- Stage 31 leaves, at its result, the dense step composed from its five inputs. -/
theorem seg31_v503 (V : Valuation τ sig (Elt Ideal)) :
    StableHlo.after (seg31 (F := Ideal)) V (Proc.devRef .tc main_v503)
      = Cert.ReferenceIdeal.Dense.normalize64
          (Cert.ReferenceIdeal.Dense.pre64 (V (Proc.devRef .tc main_v490)) (V (Proc.devRef .tc main_v370))
            (V (Proc.devRef .tc main_v461)) (V (Proc.devRef .tc main_v465)) (V (Proc.devRef .tc main_v463))) := by
  after_results_simp
  rfl

/-- What the reference holds after stage 31, over the account rows of the layer before and the arguments as launched. -/
theorem r_v503 (V : Valuation τ sig (Elt Ideal)) : R32 V (Proc.devRef .tc main_v503)
    = Cert.Spec.sage64
        (Cert.HostFns.aggA2A (R25 V (Proc.devRef .tc main_v370)) (V (Proc.devRef .tc main_arg4)))
        (R25 V (Proc.devRef .tc main_v370))
        (Cert.HostFns.sliceMat64 2 (V (Proc.devRef .tc main_arg15)))
        (Cert.HostFns.rowReshape64 (Cert.HostFns.sliceVec64 2 (V (Proc.devRef .tc main_arg16))))
        (Cert.HostFns.sliceMat64 2 (V (Proc.devRef .tc main_arg17))) := by
  refine (seg31_v503 (R31 V)).trans ?_
  refine (Cert.ReferenceIdeal.Dense.sage64_eq_reshape _ _ _ _ _ Cert.KernelIdeal.Gen.shapeCasts_S64_S1x64).trans ?_
  rw [r_v490, r_v461, r_v463, r_v465, rc_v370_25_31, rc_v370_25_30, rc_arg4_0_30, rc_arg15_0_30, rc_arg16_0_30, rc_arg17_0_30]
  rfl

end Reference

/-! ## The join -/

/-- THE TWO ARRAYS ARE ONE: given the join of the layer before's account rows and the two programs' agreement on the edge list and
    the three stacks, region 14's result is the reference's stage-31 result. -/
theorem j_v354
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4))
    (ha15 : m' ((c.tc : Thread Cert.ReferenceIdeal.nD Cert.ReferenceIdeal.τ).loc Cert.ReferenceIdeal.main_arg15)
        = m ((c.tc : Thread Cert.KernelIdeal.nD Cert.KernelIdeal.τ).loc Cert.KernelIdeal.main_arg15))
    (ha16 : m' ((c.tc : Thread Cert.ReferenceIdeal.nD Cert.ReferenceIdeal.τ).loc Cert.ReferenceIdeal.main_arg16)
        = m ((c.tc : Thread Cert.KernelIdeal.nD Cert.KernelIdeal.τ).loc Cert.KernelIdeal.main_arg16))
    (ha17 : m' ((c.tc : Thread Cert.ReferenceIdeal.nD Cert.ReferenceIdeal.τ).loc Cert.ReferenceIdeal.main_arg17)
        = m ((c.tc : Thread Cert.KernelIdeal.nD Cert.KernelIdeal.τ).loc Cert.KernelIdeal.main_arg17))
    (j246 : Cert.KernelIdeal.Gen.W30 m ρ c (Proc.devRef .tc Cert.KernelIdeal.main_v246)
        = Cert.ReferenceIdeal.Run.R25 (launchContents m' c) (Proc.devRef .tc Cert.ReferenceIdeal.main_v370)) :
    Cert.KernelIdeal.Gen.W38 m ρ c (Proc.devRef .tc Cert.KernelIdeal.main_v354)
      = Cert.ReferenceIdeal.Run.R32 (launchContents m' c) (Proc.devRef .tc Cert.ReferenceIdeal.main_v503) := by
  rw [k_v354 m ρ c, r_v503 (launchContents m' c), j246]
  show Cert.Spec.sage64 _ _ _ _ _
      = Cert.Spec.sage64
          (Cert.HostFns.aggA2A _ (m' ((c.tc : Thread Cert.ReferenceIdeal.nD Cert.ReferenceIdeal.τ).loc Cert.ReferenceIdeal.main_arg4)))
          _
          (Cert.HostFns.sliceMat64 2 (m' ((c.tc : Thread Cert.ReferenceIdeal.nD Cert.ReferenceIdeal.τ).loc Cert.ReferenceIdeal.main_arg15)))
          (Cert.HostFns.rowReshape64 (Cert.HostFns.sliceVec64 2 (m' ((c.tc : Thread Cert.ReferenceIdeal.nD Cert.ReferenceIdeal.τ).loc Cert.ReferenceIdeal.main_arg16))))
          (Cert.HostFns.sliceMat64 2 (m' ((c.tc : Thread Cert.ReferenceIdeal.nD Cert.ReferenceIdeal.τ).loc Cert.ReferenceIdeal.main_arg17)))
  rw [ha4, ha15, ha16, ha17]

end Cert.Join

end
-- ==== Proof.SpecClf.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember
import Idealize.ShloMosaic.Lib.Pipeline.Value

noncomputable section

open scoped BigOperators
open Idealize.ShloMosaic Idealize.ShloMosaic.ValueIdx

/-! # The classifier head, index by index

relu(x W1ᵀ + b1) W2ᵀ + b2 over 200000 rows of 64 features, a hidden layer of 64 units and one output unit:
row i of the result is (Σ_h max((Σ_k x(i,k)·W1(h,k)) + b1(0,h), 0) · W2(0,h)) + b2(0,0). -/

namespace Cert.Spec

/-- One row of the head: the hidden layer's 64 units, each the row's product with a row of W1 plus its bias and
    cut below at zero, weighted by the one row of W2, plus the output bias. -/
def clfRow (xr : Fin 64 → EReal) (W1 : (⟨2, ![64, 64]⟩ : Shape).Idx → EReal) (b1 : (⟨2, ![1, 64]⟩ : Shape).Idx → EReal)
    (W2 : (⟨2, ![1, 64]⟩ : Shape).Idx → EReal) (b2 : (⟨2, ![1, 1]⟩ : Shape).Idx → EReal) : EReal :=
  (∑ h : Fin 64, max ((∑ k : Fin 64, xr k * W1 (ix2 h k)) + b1 (ix2 (0 : Fin 1) h)) 0 * W2 (ix2 (0 : Fin 1) h))
    + b2 (ix2 (0 : Fin 1) (0 : Fin 1))

/-- The head on every row. -/
def clf (x : (⟨2, ![200000, 64]⟩ : Shape).Idx → EReal) (W1 : (⟨2, ![64, 64]⟩ : Shape).Idx → EReal)
    (b1 : (⟨2, ![1, 64]⟩ : Shape).Idx → EReal) (W2 : (⟨2, ![1, 64]⟩ : Shape).Idx → EReal)
    (b2 : (⟨2, ![1, 1]⟩ : Shape).Idx → EReal) : (⟨2, ![200000, 1]⟩ : Shape).Idx → EReal :=
  fun i => clfRow (fun k => x (ix2 (i 0) k)) W1 b1 W2 b2

/-- The head at an index, written out. -/
theorem clf_apply (x : (⟨2, ![200000, 64]⟩ : Shape).Idx → EReal) (W1 : (⟨2, ![64, 64]⟩ : Shape).Idx → EReal)
    (b1 : (⟨2, ![1, 64]⟩ : Shape).Idx → EReal) (W2 : (⟨2, ![1, 64]⟩ : Shape).Idx → EReal)
    (b2 : (⟨2, ![1, 1]⟩ : Shape).Idx → EReal) (i : (⟨2, ![200000, 1]⟩ : Shape).Idx) :
    clf x W1 b1 W2 b2 i
      = (∑ h : Fin 64, max ((∑ k : Fin 64, x (ix2 (i 0) k) * W1 (ix2 h k)) + b1 (ix2 (0 : Fin 1) h)) 0
          * W2 (ix2 (0 : Fin 1) h)) + b2 (ix2 (0 : Fin 1) (0 : Fin 1)) := rfl

end Cert.Spec

/-! # The operations of the head read at an index -/

namespace Cert.ClfIdx

variable {m k n : Nat} {φ₁ φ₂ : FTy}

/-- A host product of an m×k by a k×n matrix, whatever proof its dimension numbers carry, read at an index: the sum
    over the contracted coordinate of the products of the entries. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) :=
  StackMember.dotGeneral_plain_apply prec A B a b

/-- A matrix unit's product accumulated into the zero splat, read at an index: the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [matmul_zero_eq_dotGeneral]
  exact dotGeneral_apply w prec A B a b

/-- A vector laid as the one row of a matrix, read at an index. -/
theorem bcast_row_apply {a : ℕ} {α : Type} (v : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h v (ix2 u i) = v (ix1 i) := by
  refine broadcastInDim_apply ![1] h v (ix2 u i) (ix1 i) fun ax => ?_
  match ax with
  | ⟨0, _⟩ =>
    show i.val = if a = 1 then 0 else i.val
    split
    · have := i.isLt; omega
    · rfl

/-- The head as a host program computes it, over any proofs of its shape facts: products with the transposed weights,
    each bias vector laid as a one-row matrix along every row, the cut at zero by the maximum with a zero splat. -/
theorem head_ref
    (wf1 : DotDims.WF ⟨2, ![200000, 64]⟩ ⟨2, ![64, 64]⟩ ⟨2, ![200000, 64]⟩ [1] [0] [0] [1] [] [])
    (wf2 : DotDims.WF ⟨2, ![200000, 64]⟩ ⟨2, ![64, 1]⟩ ⟨2, ![200000, 1]⟩ [1] [0] [0] [1] [] [])
    (ht1 : (⟨2, ![64, 64]⟩ : Shape).Transposes [1, 0] ⟨2, ![64, 64]⟩)
    (ht2 : (⟨2, ![1, 64]⟩ : Shape).Transposes [1, 0] ⟨2, ![64, 1]⟩)
    (hb1 : (⟨1, ![64]⟩ : Shape).BroadcastsInDim ⟨2, ![1, 64]⟩ ![1])
    (hr1 : (⟨2, ![1, 64]⟩ : Shape).BroadcastsInDim ⟨2, ![200000, 64]⟩ ![0, 1])
    (hz : (⟨0, ![]⟩ : Shape).BroadcastsInDim ⟨2, ![200000, 64]⟩ ![])
    (hb2 : (⟨1, ![1]⟩ : Shape).BroadcastsInDim ⟨2, ![1, 1]⟩ ![1])
    (hr2 : (⟨2, ![1, 1]⟩ : Shape).BroadcastsInDim ⟨2, ![200000, 1]⟩ ![0, 1])
    (hc1 : (⟨1, ![64]⟩ : Shape).ShapeCasts ⟨2, ![1, 64]⟩) (hc2 : (⟨1, ![1]⟩ : Shape).ShapeCasts ⟨2, ![1, 1]⟩)
    (x : FVec Ideal ⟨2, ![200000, 64]⟩ .f32) (W1 : FVec Ideal ⟨2, ![64, 64]⟩ .f32) (b1 : FVec Ideal ⟨1, ![64]⟩ .f32)
    (W2 : FVec Ideal ⟨2, ![1, 64]⟩ .f32) (b2 : FVec Ideal ⟨1, ![1]⟩ .f32) :
    addf (Host.dotGeneral (⟨[1], [0], [0], [1], [], [], wf2⟩ : DotDims ⟨2, ![200000, 64]⟩ ⟨2, ![64, 1]⟩ ⟨2, ![200000, 1]⟩) none
        (maximumf
          (addf (Host.dotGeneral (⟨[1], [0], [0], [1], [], [], wf1⟩ : DotDims ⟨2, ![200000, 64]⟩ ⟨2, ![64, 64]⟩ ⟨2, ![200000, 64]⟩) none x
              (transpose ⟨2, ![64, 64]⟩ [1, 0] W1 ht1))
            (broadcastInDim ⟨2, ![200000, 64]⟩ ![0, 1] hr1 (broadcastInDim ⟨2, ![1, 64]⟩ ![1] hb1 b1)))
          (broadcastInDim ⟨2, ![200000, 64]⟩ ![] hz (constant (F := Ideal) ⟨0, ![]⟩ .f32 0x00000000#32)))
        (transpose ⟨2, ![64, 1]⟩ [1, 0] W2 ht2))
      (broadcastInDim ⟨2, ![200000, 1]⟩ ![0, 1] hr2 (broadcastInDim ⟨2, ![1, 1]⟩ ![1] hb2 b2))
    = Cert.Spec.clf x W1 (shapeCast ⟨2, ![1, 64]⟩ b1 hc1) W2 (shapeCast ⟨2, ![1, 1]⟩ b2 hc2) := by
  funext i
  obtain ⟨r, q, rfl⟩ : ∃ (r : Fin 200000) (q : Fin 1), i = ix2 r q := ⟨i 0, i 1, eq_ix2 i⟩
  obtain rfl : q = 0 := Subsingleton.elim _ _
  unfold Cert.Spec.clf Cert.Spec.clfRow
  refine (addf_apply _ _ _).trans ?_
  refine congrArg₂ (· + ·) ?_ ?_
  · refine (dotGeneral_apply wf2 none _ _ r 0).trans ?_
    refine Finset.sum_congr rfl fun h _ => ?_
    refine congrArg₂ (· * ·) ?_ ?_
    · refine (maximumf_apply _ _ _).trans ?_
      refine congrArg₂ max ?_ ?_
      · refine (addf_apply _ _ _).trans ?_
        refine congrArg₂ (· + ·) ?_ ?_
        · refine (dotGeneral_apply wf1 none _ _ r h).trans ?_
          refine Finset.sum_congr rfl fun k _ => ?_
          refine congrArg₂ (· * ·) rfl ?_
          exact transpose_ix2_apply _ _ k h
        · refine (broadcastInDim_oneRow_apply hr1 _ r h).trans ?_
          refine (bcast_row_apply _ hb1 0 h).trans ?_
          exact (shapeCast_a_1a_apply b1 hc1 0 h).symm
      · exact Ideal.ofBits_zero_f32
    · exact transpose_ix2_apply _ _ h 0
  · refine (broadcastInDim_oneRow_apply hr2 _ r 0).trans ?_
    refine (bcast_row_apply _ hb2 0 0).trans ?_
    exact (shapeCast_a_1a_apply b2 hc2 0 0).symm

end Cert.ClfIdx

end
-- ==== Proof.ClfK.lean ====
import proofs.«143223_j29772713296000_1_alg».proof.Proof.Gen.KernelIdeal.Frame
import proofs.«143223_j29772713296000_1_alg».proof.Proof.SpecClf
import Idealize.ShloMosaic.Lib.Pipeline.Value
import Idealize.ShloMosaic.Lib.ValueLayout
import Idealize.ShloMosaic.Lib.Tactic

set_option maxRecDepth 16384

noncomputable section

namespace Cert.KernelIdeal.Gen

open scoped BigOperators
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The classifier kernel's value

The body, on a block of 5000 rows, computes relu(x W1ᵀ + b1) W2ᵀ + b2 with both products accumulated into zero; read at
the ideal values, row p of its result is the head's row function of row p of the block. The grid's 40 points tile the
200000 rows, the weights and biases are whole at every point, so the result array is the head of the whole input. -/

/-! ## The body's payload at an index -/

/-- Entry (p, q) of the payload: the format changes are the identity, each product into the zero splat is the sum over
    the contracted coordinate, each transposed weight is read with its coordinates swapped, each bias row is laid along
    every row, and the cut at zero is the maximum with zero. -/
theorem k17_pay1_apply (x : Vec Ideal S5000x64 .f32) (W1 : Vec Ideal S64x64 .f32) (b1 : Vec Ideal S1x64 .f32)
    (W2 : Vec Ideal S1x64 .f32) (b2 : Vec Ideal S1x1 .f32) (p : Fin 5000) (q : Fin 1) :
    k17_pay1 (F := Ideal) x W1 b1 W2 b2 (ix2 p q) = Cert.Spec.clfRow (fun k => x (ix2 p k)) W1 b1 W2 b2 := by
  obtain rfl : q = 0 := Subsingleton.elim _ _
  unfold k17_pay1 Cert.Spec.clfRow
  refine (addf_apply _ _ _).trans ?_
  refine congrArg₂ (· + ·) ?_ ?_
  · refine (Cert.ClfIdx.matmul_zero_apply _ none _ _ p 0).trans ?_
    refine Finset.sum_congr rfl fun h _ => ?_
    refine congrArg₂ (· * ·) ?_ ?_
    · refine (truncf_apply (φ := .f32) (ψ := .bf16) _ _ _).trans ?_
      refine (maximumf_apply _ _ _).trans ?_
      refine congrArg₂ max ?_ ?_
      · refine (addf_apply _ _ _).trans ?_
        refine congrArg₂ (· + ·) ?_ ?_
        · refine (Cert.ClfIdx.matmul_zero_apply _ none _ _ p h).trans ?_
          refine Finset.sum_congr rfl fun k _ => ?_
          refine congrArg₂ (· * ·) ?_ ?_
          · refine (truncf_apply (φ := .f32) (ψ := .bf16) _ _ _).trans ?_
            exact congrFun (shapeCast_self x _) _
          · exact transpose_ix2_apply _ _ k h
        · refine (broadcastTo_1b_ab_apply _ _ p h).trans ?_
          exact congrFun (shapeCast_self b1 _) _
      · exact Ideal.ofBits_zero_f32
    · exact transpose_ix2_apply _ _ h 0
  · refine (broadcastTo_1b_ab_apply _ _ p 0).trans ?_
    exact congrFun (shapeCast_self b2 _) _

theorem hz17 : (![0, 0] : Fin 2 → Nat) = fun _ => 0 := funext fun a => by fin_cases a <;> rfl

/-- What the body leaves in the output's staging buffer, at an index: the body loads its whole staging buffers and
    stores once through the whole output buffer, so it is the payload of the blocks. -/
theorem out17_5_apply (x0 : Vec Ideal S5000x64 .f32) (x1 : Vec Ideal S64x64 .f32) (x2 x3 : Vec Ideal S1x64 .f32)
    (x4 : Vec Ideal S1x1 .f32) (j : S5000x1.Idx) :
    out17_5 x0 x1 x2 x3 x4 j = Cert.Spec.clfRow (fun k => x0 (ix2 (j 0) k)) x1 x2 x3 x4 := by
  obtain ⟨p, q, rfl⟩ : ∃ (p : Fin 5000) (q : Fin 1), j = ix2 p q := ⟨j 0, j 1, eq_ix2 j⟩
  unfold out17_5
  rw [View.canon_unit_zero hz17]
  simp only [View.ld_unit_zero (S := S5000x64) hz17, View.ld_unit_zero (S := S64x64) hz17,
    View.ld_unit_zero (S := S1x64) hz17, View.ld_unit_zero (S := S1x1) hz17]
  exact k17_pay1_apply x0 x1 x2 x3 x4 p q

/-! ## The blocks the points read and write -/

/-- The printed index maps over the grid: the input rows' and the output's block index is the point's number on the
    row axis, every other block index is zero. -/
theorem idx_facts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0
    ∧ win17_5.index t (0 : Fin 2) = t.val ∧ win17_5.index t (1 : Fin 2) = 0 :=
  (by decide +kernel : ∀ t : Fin grid17.N, _)

section Blocks

variable (V : (c : Dev nD) → (b : Ref sig .tc) → Buf (Elt Ideal) ((c : Thread nD τ).loc b))

/-- The input's block at point t is rows 5000 t … 5000 t + 4999 of the input array. -/
theorem iblk17_0_apply (c : Dev nD) (t : Fin cfg17.N) (y : S5000x64.Idx) (i : S200000x64.Idx)
    (h0 : (i 0).val = t.val * 5000 + (y 0).val) (h1 : (i 1).val = (y 1).val) :
    (iblk17 V c 0 t : Vec Ideal S5000x64 .f32) y = (V c main_v372 : S200000x64.Idx → Elt Ideal .f32) i := by
  obtain ⟨e0, e1, -⟩ := idx_facts17 t
  unfold iblk17
  rw [View.read_apply]
  show V c main_v372 _ = V c main_v372 _
  congr 1
  funext a
  apply Fin.ext
  match a with
  | ⟨0, _⟩ => show win17_0.index t (0 : Fin 2) * 5000 + 1 * (y 0).val = (i 0).val; rw [e0, h0]; omega
  | ⟨1, _⟩ => show win17_0.index t (1 : Fin 2) * 64 + 1 * (y 1).val = (i 1).val; rw [e1, h1]; omega

/-- The first weight's block is the whole weight at every point. -/
theorem iblk17_1_eq (c : Dev nD) (t : Fin cfg17.N) :
    (iblk17 V c 1 t : Vec Ideal S64x64 .f32) = (V c main_arg24 : S64x64.Idx → Elt Ideal .f32) := by
  obtain ⟨-, -, e0, e1, -⟩ := idx_facts17 t
  funext y
  unfold iblk17
  rw [View.read_apply]
  show V c main_arg24 _ = V c main_arg24 y
  congr 1
  funext a
  apply Fin.ext
  match a with
  | ⟨0, _⟩ => show win17_1.index t (0 : Fin 2) * 64 + 1 * (y 0).val = (y 0).val; rw [e0]; omega
  | ⟨1, _⟩ => show win17_1.index t (1 : Fin 2) * 64 + 1 * (y 1).val = (y 1).val; rw [e1]; omega

/-- The first bias row's block is the whole row. -/
theorem iblk17_2_eq (c : Dev nD) (t : Fin cfg17.N) :
    (iblk17 V c 2 t : Vec Ideal S1x64 .f32) = (V c main_v382 : S1x64.Idx → Elt Ideal .f32) := by
  obtain ⟨-, -, -, -, e0, e1, -⟩ := idx_facts17 t
  funext y
  unfold iblk17
  rw [View.read_apply]
  show V c main_v382 _ = V c main_v382 y
  congr 1
  funext a
  apply Fin.ext
  match a with
  | ⟨0, _⟩ => show win17_2.index t (0 : Fin 2) * 1 + 1 * (y 0).val = (y 0).val; rw [e0]; omega
  | ⟨1, _⟩ => show win17_2.index t (1 : Fin 2) * 64 + 1 * (y 1).val = (y 1).val; rw [e1]; omega

/-- The second weight's block is the whole weight row. -/
theorem iblk17_3_eq (c : Dev nD) (t : Fin cfg17.N) :
    (iblk17 V c 3 t : Vec Ideal S1x64 .f32) = (V c main_arg26 : S1x64.Idx → Elt Ideal .f32) := by
  obtain ⟨-, -, -, -, -, -, e0, e1, -⟩ := idx_facts17 t
  funext y
  unfold iblk17
  rw [View.read_apply]
  show V c main_arg26 _ = V c main_arg26 y
  congr 1
  funext a
  apply Fin.ext
  match a with
  | ⟨0, _⟩ => show win17_3.index t (0 : Fin 2) * 1 + 1 * (y 0).val = (y 0).val; rw [e0]; omega
  | ⟨1, _⟩ => show win17_3.index t (1 : Fin 2) * 64 + 1 * (y 1).val = (y 1).val; rw [e1]; omega

/-- The output bias's block is the whole one-entry array. -/
theorem iblk17_4_eq (c : Dev nD) (t : Fin cfg17.N) :
    (iblk17 V c 4 t : Vec Ideal S1x1 .f32) = (V c main_v383 : S1x1.Idx → Elt Ideal .f32) := by
  obtain ⟨-, -, -, -, -, -, -, -, e0, e1, -⟩ := idx_facts17 t
  funext y
  unfold iblk17
  rw [View.read_apply]
  show V c main_v383 _ = V c main_v383 y
  congr 1
  funext a
  apply Fin.ext
  match a with
  | ⟨0, _⟩ => show win17_4.index t (0 : Fin 2) * 1 + 1 * (y 0).val = (y 0).val; rw [e0]; omega
  | ⟨1, _⟩ => show win17_4.index t (1 : Fin 2) * 1 + 1 * (y 1).val = (y 1).val; rw [e1]; omega

/-- The head of the arrays the region finds. -/
abbrev clfOf (c : Dev nD) : S200000x1.Idx → Elt Ideal .f32 :=
  Cert.Spec.clf (V c main_v372) (V c main_arg24) (V c main_v382) (V c main_arg26) (V c main_v383)

/-- What point t writes back is block t of the head of the arrays: row p of the block is the head's row function of
    row p of the input's block, which is row 5000 t + p of the input. -/
theorem flushed17_5_eq (c : Dev nD) (t : Fin cfg17.N) :
    (dat17 V c).flushed 5 t = ((cfg17.win 5).blk t).view.read (Elt Ideal) (clfOf V c) := by
  show (cfg17.win 5).cut (grid17.coords t) ((dat17 V c).after 5 t) = _
  rw [after17_5, iblk17_1_eq, iblk17_2_eq, iblk17_3_eq, iblk17_4_eq]
  obtain ⟨-, -, -, -, -, -, -, -, -, -, e0, e1⟩ := idx_facts17 t
  funext j
  show out17_5 (iblk17 V c 0 t) (V c main_arg24) (V c main_v382) (V c main_arg26) (V c main_v383) j
      = clfOf V c (((cfg17.win 5).blk t).view.emb j)
  refine (out17_5_apply (iblk17 V c 0 t) (V c main_arg24) (V c main_v382) (V c main_arg26) (V c main_v383) j).trans ?_
  show Cert.Spec.clfRow _ _ _ _ _ = Cert.Spec.clfRow _ _ _ _ _
  refine congrArg (fun xr => Cert.Spec.clfRow xr (V c main_arg24) (V c main_v382) (V c main_arg26) (V c main_v383)) ?_
  funext k
  refine iblk17_0_apply V c t (ix2 (j 0) k) (ix2 ((((cfg17.win 5).blk t).view.emb j) 0) k) ?_ rfl
  show win17_5.index t (0 : Fin 2) * 5000 + 1 * (j 0).val = t.val * 5000 + (j 0).val
  rw [e0]; omega

/-- An index of the result array is in point t's block iff each coordinate is in the block's range on its axis. -/
theorem mem_blk17_5 (t : Fin cfg17.N) (i : S200000x1.Idx) :
    i ∈ ((cfg17.win 5).blk t).view.set ↔ ∀ a : Fin 2, win17_5.index t a * S5000x1.size a ≤ (i a).val
      ∧ (i a).val < win17_5.index t a * S5000x1.size a + S5000x1.size a := by
  show i ∈ ((View.whole main_v384).slice (win17_5.rect t)).set ↔ _
  rw [View.set_slice_whole, Rect.mem_set_unit]
  exact Iff.rfl

/-- Every row of the result is in some point's block: row r is in the block of point r / 5000. -/
theorem blocks_cover17 (i : S200000x1.Idx) :
    ∃ t : Fin cfg17.N, (cfg17.win 5).flush t = true ∧ i ∈ ((cfg17.win 5).blk t).view.set := by
  have hi0 : (i 0).val < 200000 := (i 0).isLt
  have hi1 : (i 1).val < 1 := (i 1).isLt
  have hN : cfg17.N = 40 := N_17
  obtain ⟨t, ht⟩ : ∃ t : Fin cfg17.N, t.val = (i 0).val / 5000 := ⟨⟨(i 0).val / 5000, by rw [hN]; omega⟩, rfl⟩
  obtain ⟨-, -, -, -, -, -, -, -, -, -, e0, e1⟩ := idx_facts17 t
  refine ⟨t, flush17_5 t, ?_⟩
  rw [mem_blk17_5]
  intro a
  match a with
  | ⟨0, _⟩ =>
    show win17_5.index t (0 : Fin 2) * 5000 ≤ (i 0).val ∧ (i 0).val < win17_5.index t (0 : Fin 2) * 5000 + 5000
    rw [e0, ht]; omega
  | ⟨1, _⟩ =>
    show win17_5.index t (1 : Fin 2) * 1 ≤ (i 1).val ∧ (i 1).val < win17_5.index t (1 : Fin 2) * 1 + 1
    rw [e1]; omega

end Blocks

/-! ## The region's value -/

/-- The result array after the region is the head of the arrays the region finds. -/
theorem reg17_val (V : (c : Dev nD) → (b : Ref sig .tc) → Buf (Elt Ideal) ((c : Thread nD τ).loc b)) (c : Dev nD) :
    (dat17 (F := Ideal) V c).arrAt 5 cfg17.N
      = Cert.Spec.clf (V c main_v372) (V c main_arg24) (V c main_v382) (V c main_arg26) (V c main_v383) :=
  (dat17 V c).arrAt_eq_of_cover 5 (clfOf V c) (fun t _ => flushed17_5_eq V c t) blocks_cover17

end Cert.KernelIdeal.Gen

end
-- ==== Proof.JoinClfCore.lean ====
import proofs.«143223_j29772713296000_1_alg».proof.Proof.ClfK
import proofs.«143223_j29772713296000_1_alg».proof.Proof.RefOps
import Idealize.ShloMosaic.Lib.StableHlo.Run

set_option maxRecDepth 16384

noncomputable section

/-! # The result array: the classifier head on both sides

The kernel program reshapes the two bias vectors to one-row matrices on the host and runs the classifier region on
the last normalized features; the reference computes the head by host operations on its own last normalized features.
Both are the classifier function of features, weights and one-row biases, so equal features and equal arguments give
equal results. -/

namespace Cert.KernelIdeal.Gen

open Idealize.ShloMosaic Idealize.ShloMosaic.TcCoe Idealize.SL.Sem Idealize.ShloMosaic.StableHlo

/-- The host stretch before the classifier region leaves the first bias as a one-row matrix … -/
theorem hostOps17_v382 (V : Valuation τ sig (Elt Ideal)) (h : S64.ShapeCasts S1x64) :
    StableHlo.after (hostOps17 (F := Ideal)) V (Proc.devRef .tc main_v382)
      = shapeCast S1x64 (V (Proc.devRef .tc main_arg25)) h := by
  after_results_simp
  rfl

/-- … and the output bias as a one-entry matrix. -/
theorem hostOps17_v383 (V : Valuation τ sig (Elt Ideal)) (h : S1.ShapeCasts S1x1) :
    StableHlo.after (hostOps17 (F := Ideal)) V (Proc.devRef .tc main_v383)
      = shapeCast S1x1 (V (Proc.devRef .tc main_arg27)) h := by
  after_results_simp
  rfl

end Cert.KernelIdeal.Gen

namespace Cert.ReferenceIdeal.Run

open Cert.ReferenceIdeal Cert.ReferenceIdeal.Gen Idealize.ShloMosaic Idealize.ShloMosaic.TcCoe Idealize.SL.Sem Idealize.ShloMosaic.StableHlo

/-- The reference's last stage leaves at its result the classifier function of the features, the weights and the two
    biases cast to one-row matrices. -/
theorem seg36_v561 (V : Valuation τ sig (Elt Ideal)) (h1 : S64.ShapeCasts S1x64) (h2 : S1.ShapeCasts S1x1) :
    StableHlo.after (seg36 (F := Ideal)) V (Proc.devRef .tc main_v561)
      = Cert.Spec.clf (V (Proc.devRef .tc main_v527)) (V (Proc.devRef .tc main_arg24))
          (shapeCast S1x64 (V (Proc.devRef .tc main_arg25)) h1) (V (Proc.devRef .tc main_arg26))
          (shapeCast S1x1 (V (Proc.devRef .tc main_arg27)) h2) := by
  after_results_simp
  exact Cert.ClfIdx.head_ref dot_S200000x64_S64x64_S200000x64_1_0_0_1_n_n_wf dot_S200000x64_S64x1_S200000x1_1_0_0_1_n_n_wf
    transposes_S64x64_S64x64_1_0 transposes_S1x64_S64x1_1_0 bcast_S64_S1x64_1 bcast_S1x64_S200000x64_0_1
    bcast_S_S200000x64 bcast_S1_S1x1_1 bcast_S1x1_S200000x1_0_1 h1 h2 (V (Proc.devRef .tc main_v527))
    (V (Proc.devRef .tc main_arg24)) (V (Proc.devRef .tc main_arg25)) (V (Proc.devRef .tc main_arg26))
    (V (Proc.devRef .tc main_arg27))

end Cert.ReferenceIdeal.Run

namespace Cert.Join

open Idealize.ShloMosaic Idealize.ShloMosaic.TcCoe Idealize.SL.Sem Idealize.ShloMosaic.StableHlo

/-- The kernel program's result array is the reference's: both are the classifier function, of the last normalized
    features (equal by the earlier joining equality) and of the four head arguments (equal by agreement); the buffers the
    host operations in between do not write are carried by hypothesis. -/
theorem j_v384_core
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha24 : m' ((c.tc : Thread Cert.ReferenceIdeal.nD Cert.ReferenceIdeal.τ).loc Cert.ReferenceIdeal.main_arg24)
      = m ((c.tc : Thread Cert.KernelIdeal.nD Cert.KernelIdeal.τ).loc Cert.KernelIdeal.main_arg24))
    (ha25 : m' ((c.tc : Thread Cert.ReferenceIdeal.nD Cert.ReferenceIdeal.τ).loc Cert.ReferenceIdeal.main_arg25)
      = m ((c.tc : Thread Cert.KernelIdeal.nD Cert.KernelIdeal.τ).loc Cert.KernelIdeal.main_arg25))
    (ha26 : m' ((c.tc : Thread Cert.ReferenceIdeal.nD Cert.ReferenceIdeal.τ).loc Cert.ReferenceIdeal.main_arg26)
      = m ((c.tc : Thread Cert.KernelIdeal.nD Cert.KernelIdeal.τ).loc Cert.KernelIdeal.main_arg26))
    (ha27 : m' ((c.tc : Thread Cert.ReferenceIdeal.nD Cert.ReferenceIdeal.τ).loc Cert.ReferenceIdeal.main_arg27)
      = m ((c.tc : Thread Cert.KernelIdeal.nD Cert.KernelIdeal.τ).loc Cert.KernelIdeal.main_arg27))
    (j372 : Cert.KernelIdeal.Gen.W44 m ρ c (Proc.devRef .tc Cert.KernelIdeal.main_v372)
      = Cert.ReferenceIdeal.Run.R34 (launchContents m' c) (Proc.devRef .tc Cert.ReferenceIdeal.main_v527))
    (kc372 : Cert.KernelIdeal.Gen.W47 m ρ c (Proc.devRef .tc Cert.KernelIdeal.main_v372)
      = Cert.KernelIdeal.Gen.W44 m ρ c (Proc.devRef .tc Cert.KernelIdeal.main_v372))
    (kc24 : Cert.KernelIdeal.Gen.W47 m ρ c (Proc.devRef .tc Cert.KernelIdeal.main_arg24)
      = Cert.KernelIdeal.Gen.W0 m ρ c (Proc.devRef .tc Cert.KernelIdeal.main_arg24))
    (kc26 : Cert.KernelIdeal.Gen.W47 m ρ c (Proc.devRef .tc Cert.KernelIdeal.main_arg26)
      = Cert.KernelIdeal.Gen.W0 m ρ c (Proc.devRef .tc Cert.KernelIdeal.main_arg26))
    (kc25 : Cert.KernelIdeal.Gen.W46 m ρ c (Proc.devRef .tc Cert.KernelIdeal.main_arg25)
      = Cert.KernelIdeal.Gen.W0 m ρ c (Proc.devRef .tc Cert.KernelIdeal.main_arg25))
    (kc27 : Cert.KernelIdeal.Gen.W46 m ρ c (Proc.devRef .tc Cert.KernelIdeal.main_arg27)
      = Cert.KernelIdeal.Gen.W0 m ρ c (Proc.devRef .tc Cert.KernelIdeal.main_arg27))
    (rc527 : Cert.ReferenceIdeal.Run.R36 (launchContents m' c) (Proc.devRef .tc Cert.ReferenceIdeal.main_v527)
      = Cert.ReferenceIdeal.Run.R34 (launchContents m' c) (Proc.devRef .tc Cert.ReferenceIdeal.main_v527))
    (rc24 : Cert.ReferenceIdeal.Run.R36 (launchContents m' c) (Proc.devRef .tc Cert.ReferenceIdeal.main_arg24)
      = Cert.ReferenceIdeal.Run.R0 (launchContents m' c) (Proc.devRef .tc Cert.ReferenceIdeal.main_arg24))
    (rc25 : Cert.ReferenceIdeal.Run.R36 (launchContents m' c) (Proc.devRef .tc Cert.ReferenceIdeal.main_arg25)
      = Cert.ReferenceIdeal.Run.R0 (launchContents m' c) (Proc.devRef .tc Cert.ReferenceIdeal.main_arg25))
    (rc26 : Cert.ReferenceIdeal.Run.R36 (launchContents m' c) (Proc.devRef .tc Cert.ReferenceIdeal.main_arg26)
      = Cert.ReferenceIdeal.Run.R0 (launchContents m' c) (Proc.devRef .tc Cert.ReferenceIdeal.main_arg26))
    (rc27 : Cert.ReferenceIdeal.Run.R36 (launchContents m' c) (Proc.devRef .tc Cert.ReferenceIdeal.main_arg27)
      = Cert.ReferenceIdeal.Run.R0 (launchContents m' c) (Proc.devRef .tc Cert.ReferenceIdeal.main_arg27)) :
    Cert.KernelIdeal.Gen.W48 m ρ c (Proc.devRef .tc Cert.KernelIdeal.main_v384)
      = Cert.ReferenceIdeal.Run.R37 (launchContents m' c) (Proc.devRef .tc Cert.ReferenceIdeal.main_v561) := by
  have hk1 : Cert.KernelIdeal.S64.ShapeCasts Cert.KernelIdeal.S1x64 := by decide
  have hk2 : Cert.KernelIdeal.S1.ShapeCasts Cert.KernelIdeal.S1x1 := by decide
  have hr1 : Cert.ReferenceIdeal.S64.ShapeCasts Cert.ReferenceIdeal.S1x64 := by decide
  have hr2 : Cert.ReferenceIdeal.S1.ShapeCasts Cert.ReferenceIdeal.S1x1 := by decide
  -- the kernel side: the region's value at the contents it finds, read back to the launch memory
  have hk : Cert.KernelIdeal.Gen.W48 m ρ c (Proc.devRef .tc Cert.KernelIdeal.main_v384)
      = Cert.Spec.clf (Cert.KernelIdeal.Gen.W44 m ρ c (Proc.devRef .tc Cert.KernelIdeal.main_v372))
          (m ((c.tc : Thread Cert.KernelIdeal.nD Cert.KernelIdeal.τ).loc Cert.KernelIdeal.main_arg24))
          (shapeCast Cert.KernelIdeal.S1x64 (m ((c.tc : Thread Cert.KernelIdeal.nD Cert.KernelIdeal.τ).loc Cert.KernelIdeal.main_arg25)) hk1)
          (m ((c.tc : Thread Cert.KernelIdeal.nD Cert.KernelIdeal.τ).loc Cert.KernelIdeal.main_arg26))
          (shapeCast Cert.KernelIdeal.S1x1 (m ((c.tc : Thread Cert.KernelIdeal.nD Cert.KernelIdeal.τ).loc Cert.KernelIdeal.main_arg27)) hk2) := by
    refine ((Cert.KernelIdeal.Gen.W48_arr m ρ c 5).trans (Cert.KernelIdeal.Gen.reg17_val (Cert.KernelIdeal.Gen.V47 m ρ) c)).trans ?_
    show Cert.Spec.clf (Cert.KernelIdeal.Gen.W47 m ρ c (Proc.devRef .tc Cert.KernelIdeal.main_v372))
        (Cert.KernelIdeal.Gen.W47 m ρ c (Proc.devRef .tc Cert.KernelIdeal.main_arg24))
        (Cert.KernelIdeal.Gen.W47 m ρ c (Proc.devRef .tc Cert.KernelIdeal.main_v382))
        (Cert.KernelIdeal.Gen.W47 m ρ c (Proc.devRef .tc Cert.KernelIdeal.main_arg26))
        (Cert.KernelIdeal.Gen.W47 m ρ c (Proc.devRef .tc Cert.KernelIdeal.main_v383)) = _
    rw [kc372, kc24, kc26,
      show Cert.KernelIdeal.Gen.W47 m ρ c (Proc.devRef .tc Cert.KernelIdeal.main_v382) = _ from
        Cert.KernelIdeal.Gen.hostOps17_v382 (Cert.KernelIdeal.Gen.W46 m ρ c) hk1,
      show Cert.KernelIdeal.Gen.W47 m ρ c (Proc.devRef .tc Cert.KernelIdeal.main_v383) = _ from
        Cert.KernelIdeal.Gen.hostOps17_v383 (Cert.KernelIdeal.Gen.W46 m ρ c) hk2,
      kc25, kc27]
  -- the reference side: the last stage's value at the contents before it, read back to the launch contents
  have hr : Cert.ReferenceIdeal.Run.R37 (launchContents m' c) (Proc.devRef .tc Cert.ReferenceIdeal.main_v561)
      = Cert.Spec.clf (Cert.ReferenceIdeal.Run.R34 (launchContents m' c) (Proc.devRef .tc Cert.ReferenceIdeal.main_v527))
          (m' ((c.tc : Thread Cert.ReferenceIdeal.nD Cert.ReferenceIdeal.τ).loc Cert.ReferenceIdeal.main_arg24))
          (shapeCast Cert.ReferenceIdeal.S1x64 (m' ((c.tc : Thread Cert.ReferenceIdeal.nD Cert.ReferenceIdeal.τ).loc Cert.ReferenceIdeal.main_arg25)) hr1)
          (m' ((c.tc : Thread Cert.ReferenceIdeal.nD Cert.ReferenceIdeal.τ).loc Cert.ReferenceIdeal.main_arg26))
          (shapeCast Cert.ReferenceIdeal.S1x1 (m' ((c.tc : Thread Cert.ReferenceIdeal.nD Cert.ReferenceIdeal.τ).loc Cert.ReferenceIdeal.main_arg27)) hr2) := by
    refine (Cert.ReferenceIdeal.Run.seg36_v561 (Cert.ReferenceIdeal.Run.R36 (launchContents m' c)) hr1 hr2).trans ?_
    rw [rc527, rc24, rc25, rc26, rc27]
  rw [hk, hr, j372, ha24, ha25, ha26, ha27]

end Cert.Join

end
-- ==== Proof.JoinClf.lean ====
import proofs.«143223_j29772713296000_1_alg».proof.Proof.JoinClfCore
import proofs.«143223_j29772713296000_1_alg».proof.Proof.KCarry
import proofs.«143223_j29772713296000_1_alg».proof.Proof.RCarry

set_option maxRecDepth 16384

noncomputable section

namespace Cert.Join

open Idealize.ShloMosaic Idealize.ShloMosaic.TcCoe Idealize.SL.Sem Idealize.ShloMosaic.StableHlo

/-- The kernel program's result array is the reference's: both are the classifier function, of the last normalized
    features (equal by the earlier joining equality) and of the four head arguments (equal by agreement), none of which
    the host operations in between write. -/
theorem j_v384
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (ha24 : m' ((c.tc : Thread Cert.ReferenceIdeal.nD Cert.ReferenceIdeal.τ).loc Cert.ReferenceIdeal.main_arg24)
      = m ((c.tc : Thread Cert.KernelIdeal.nD Cert.KernelIdeal.τ).loc Cert.KernelIdeal.main_arg24))
    (ha25 : m' ((c.tc : Thread Cert.ReferenceIdeal.nD Cert.ReferenceIdeal.τ).loc Cert.ReferenceIdeal.main_arg25)
      = m ((c.tc : Thread Cert.KernelIdeal.nD Cert.KernelIdeal.τ).loc Cert.KernelIdeal.main_arg25))
    (ha26 : m' ((c.tc : Thread Cert.ReferenceIdeal.nD Cert.ReferenceIdeal.τ).loc Cert.ReferenceIdeal.main_arg26)
      = m ((c.tc : Thread Cert.KernelIdeal.nD Cert.KernelIdeal.τ).loc Cert.KernelIdeal.main_arg26))
    (ha27 : m' ((c.tc : Thread Cert.ReferenceIdeal.nD Cert.ReferenceIdeal.τ).loc Cert.ReferenceIdeal.main_arg27)
      = m ((c.tc : Thread Cert.KernelIdeal.nD Cert.KernelIdeal.τ).loc Cert.KernelIdeal.main_arg27))
    (j372 : Cert.KernelIdeal.Gen.W44 m ρ c (Proc.devRef .tc Cert.KernelIdeal.main_v372)
      = Cert.ReferenceIdeal.Run.R34 (launchContents m' c) (Proc.devRef .tc Cert.ReferenceIdeal.main_v527)) :
    Cert.KernelIdeal.Gen.W48 m ρ c (Proc.devRef .tc Cert.KernelIdeal.main_v384)
      = Cert.ReferenceIdeal.Run.R37 (launchContents m' c) (Proc.devRef .tc Cert.ReferenceIdeal.main_v561) :=
  j_v384_core m ρ m' c ha24 ha25 ha26 ha27 j372
    (Cert.KernelIdeal.Carry.c_v372_44_47 m ρ c) (Cert.KernelIdeal.Carry.c_arg24_0_47 m ρ c)
    (Cert.KernelIdeal.Carry.c_arg26_0_47 m ρ c) (Cert.KernelIdeal.Carry.c_arg25_0_46 m ρ c)
    (Cert.KernelIdeal.Carry.c_arg27_0_46 m ρ c)
    (Cert.ReferenceIdeal.Run.rc_v527_34_36 (launchContents m' c)) (Cert.ReferenceIdeal.Run.rc_arg24_0_36 (launchContents m' c))
    (Cert.ReferenceIdeal.Run.rc_arg25_0_36 (launchContents m' c)) (Cert.ReferenceIdeal.Run.rc_arg26_0_36 (launchContents m' c))
    (Cert.ReferenceIdeal.Run.rc_arg27_0_36 (launchContents m' c))

end Cert.Join

end
-- ==== Proof.Join.lean ====
import proofs.«143223_j29772713296000_1_alg».proof.Proof.JoinLinear
import proofs.«143223_j29772713296000_1_alg».proof.Proof.JoinSage0
import proofs.«143223_j29772713296000_1_alg».proof.Proof.JoinSage1
import proofs.«143223_j29772713296000_1_alg».proof.Proof.JoinBn0
import proofs.«143223_j29772713296000_1_alg».proof.Proof.JoinBn1
import proofs.«143223_j29772713296000_1_alg».proof.Proof.JoinBn2
import proofs.«143223_j29772713296000_1_alg».proof.Proof.JoinV321
import proofs.«143223_j29772713296000_1_alg».proof.Proof.JoinV354
import proofs.«143223_j29772713296000_1_alg».proof.Proof.JoinClf

set_option maxRecDepth 16384

noncomputable section

/-! # The two runs end with the same result array

Along the network each array the kernel's regions write is the array the reference's stages compute at the same
place: the two projected feature arrays, per layer the three normalised neighbourhood sums and the two batch-normalised
feature arrays, and last the classifier's output. Each equality follows from the earlier ones and from the agreement of
the two launch memories on the arguments; chained in the network's order they give the result. -/

namespace Cert.Join

open Idealize.ShloMosaic Idealize.ShloMosaic.TcCoe Idealize.SL.Sem Idealize.ShloMosaic.StableHlo

theorem result_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    Cert.KernelIdeal.Gen.W48 m ρ c (Proc.devRef .tc Cert.KernelIdeal.main_v384)
      = Cert.ReferenceIdeal.Run.R37 (launchContents m' c) (Proc.devRef .tc Cert.ReferenceIdeal.main_v561) := by
  obtain ⟨ha0, ha1, ha2, ha3, ha4, ha5, ha6, ha7, ha8, ha9, ha10, ha11, ha12, ha13, ha14, ha15, ha16, ha17, ha18, ha19, ha20, ha21, ha22, ha23, ha24, ha25, ha26, ha27⟩ := hagree
  have j1 : Cert.KernelIdeal.Gen.W2 m ρ c (Proc.devRef .tc Cert.KernelIdeal.main_v1)
      = Cert.ReferenceIdeal.Run.R1 (launchContents m' c) (Proc.devRef .tc Cert.ReferenceIdeal.main_v4) := by
    apply j_v1 <;> assumption
  have j3 : Cert.KernelIdeal.Gen.W4 m ρ c (Proc.devRef .tc Cert.KernelIdeal.main_v3)
      = Cert.ReferenceIdeal.Run.R2 (launchContents m' c) (Proc.devRef .tc Cert.ReferenceIdeal.main_v9) := by
    apply j_v3 <;> assumption
  have j36 : Cert.KernelIdeal.Gen.W6 m ρ c (Proc.devRef .tc Cert.KernelIdeal.main_v36)
      = Cert.ReferenceIdeal.Run.R4 (launchContents m' c) (Proc.devRef .tc Cert.ReferenceIdeal.main_v53) := by
    apply j_v36 <;> assumption
  have j69 : Cert.KernelIdeal.Gen.W8 m ρ c (Proc.devRef .tc Cert.KernelIdeal.main_v69)
      = Cert.ReferenceIdeal.Run.R6 (launchContents m' c) (Proc.devRef .tc Cert.ReferenceIdeal.main_v97) := by
    apply j_v69 <;> assumption
  have j102 : Cert.KernelIdeal.Gen.W10 m ρ c (Proc.devRef .tc Cert.KernelIdeal.main_v102)
      = Cert.ReferenceIdeal.Run.R8 (launchContents m' c) (Proc.devRef .tc Cert.ReferenceIdeal.main_v141) := by
    apply j_v102 <;> assumption
  have j120 : Cert.KernelIdeal.Gen.W16 m ρ c (Proc.devRef .tc Cert.KernelIdeal.main_v120)
      = Cert.ReferenceIdeal.Run.R13 (launchContents m' c) (Proc.devRef .tc Cert.ReferenceIdeal.main_v189) := by
    apply j_v120 <;> assumption
  have j129 : Cert.KernelIdeal.Gen.W18 m ρ c (Proc.devRef .tc Cert.KernelIdeal.main_v129)
      = Cert.ReferenceIdeal.Run.R14 (launchContents m' c) (Proc.devRef .tc Cert.ReferenceIdeal.main_v190) := by
    apply j_v129 <;> assumption
  have j162 : Cert.KernelIdeal.Gen.W20 m ρ c (Proc.devRef .tc Cert.KernelIdeal.main_v162)
      = Cert.ReferenceIdeal.Run.R16 (launchContents m' c) (Proc.devRef .tc Cert.ReferenceIdeal.main_v234) := by
    apply j_v162 <;> assumption
  have j195 : Cert.KernelIdeal.Gen.W22 m ρ c (Proc.devRef .tc Cert.KernelIdeal.main_v195)
      = Cert.ReferenceIdeal.Run.R18 (launchContents m' c) (Proc.devRef .tc Cert.ReferenceIdeal.main_v278) := by
    apply j_v195 <;> assumption
  have j228 : Cert.KernelIdeal.Gen.W24 m ρ c (Proc.devRef .tc Cert.KernelIdeal.main_v228)
      = Cert.ReferenceIdeal.Run.R20 (launchContents m' c) (Proc.devRef .tc Cert.ReferenceIdeal.main_v322) := by
    apply j_v228 <;> assumption
  have j246 : Cert.KernelIdeal.Gen.W30 m ρ c (Proc.devRef .tc Cert.KernelIdeal.main_v246)
      = Cert.ReferenceIdeal.Run.R25 (launchContents m' c) (Proc.devRef .tc Cert.ReferenceIdeal.main_v370) := by
    apply j_v246 <;> assumption
  have j255 : Cert.KernelIdeal.Gen.W32 m ρ c (Proc.devRef .tc Cert.KernelIdeal.main_v255)
      = Cert.ReferenceIdeal.Run.R26 (launchContents m' c) (Proc.devRef .tc Cert.ReferenceIdeal.main_v371) := by
    apply j_v255 <;> assumption
  have j321 : Cert.KernelIdeal.Gen.W36 m ρ c (Proc.devRef .tc Cert.KernelIdeal.main_v321)
      = Cert.ReferenceIdeal.Run.R30 (launchContents m' c) (Proc.devRef .tc Cert.ReferenceIdeal.main_v459) := by
    apply j_v321 <;> assumption
  have j354 : Cert.KernelIdeal.Gen.W38 m ρ c (Proc.devRef .tc Cert.KernelIdeal.main_v354)
      = Cert.ReferenceIdeal.Run.R32 (launchContents m' c) (Proc.devRef .tc Cert.ReferenceIdeal.main_v503) := by
    apply j_v354 <;> assumption
  have j372 : Cert.KernelIdeal.Gen.W44 m ρ c (Proc.devRef .tc Cert.KernelIdeal.main_v372)
      = Cert.ReferenceIdeal.Run.R34 (launchContents m' c) (Proc.devRef .tc Cert.ReferenceIdeal.main_v527) := by
    apply j_v372 <;> assumption
  apply j_v384 <;> assumption

end Cert.Join

end
-- ==== Proof.lean ====
/- The certificate of the heterogeneous GraphSAGE detector against its jnp reference, at the extended reals.

   Both programs compute the same network: two input projections x Wᵀ + b, then three layers in which every node
   type receives, per edge type, the row-normalised sum  mean Wlᵀ + xdst Wrᵀ + bl  of the mean of its neighbours'
   features and its own, the per-type sums batch-normalised with the batch's own column mean and variance (and
   rectified in the first two layers), and last a two-layer head on the account nodes. The gather, the segment sums,
   the edge counts, the column means and variances are the same host operations in both programs and are never opened.
   The programs differ in the dense parts only: the kernel adds the two products before the bias where the reference
   adds the bias between them (addition on the extended reals is commutative and associative), and the kernel scales
   by rsqrt(v + eps) where the reference divides by sqrt(v + eps), which agree because v + eps > 0: a column variance
   is a sum of squares over a positive count. No finiteness of the inputs is used. -/
import proofs.«143223_j29772713296000_1_alg».proof.Defs
import proofs.«143223_j29772713296000_1_alg».proof.Proof.Gen.Kernel
import proofs.«143223_j29772713296000_1_alg».proof.Proof.Gen.Kernel.Skeleton
import proofs.«143223_j29772713296000_1_alg».proof.Proof.Gen.Kernel.Launch
import proofs.«143223_j29772713296000_1_alg».proof.Proof.Gen.Kernel.Points
import proofs.«143223_j29772713296000_1_alg».proof.Proof.Gen.Kernel.Frame
import proofs.«143223_j29772713296000_1_alg».proof.Proof.Gen.KernelIdeal
import proofs.«143223_j29772713296000_1_alg».proof.Proof.Gen.KernelIdeal.Skeleton
import proofs.«143223_j29772713296000_1_alg».proof.Proof.Gen.KernelIdeal.Launch
import proofs.«143223_j29772713296000_1_alg».proof.Proof.Gen.KernelIdeal.Points
import proofs.«143223_j29772713296000_1_alg».proof.Proof.Gen.KernelIdeal.Frame
import proofs.«143223_j29772713296000_1_alg».proof.Proof.Gen.ReferenceIdeal
import proofs.«143223_j29772713296000_1_alg».proof.Proof.Gen.Pre_finite_inputs
import proofs.«143223_j29772713296000_1_alg».proof.Proof.KRun
import proofs.«143223_j29772713296000_1_alg».proof.Proof.RefRun
import proofs.«143223_j29772713296000_1_alg».proof.Proof.RCarry
import proofs.«143223_j29772713296000_1_alg».proof.Proof.Join
import Idealize.ShloMosaic.Adequacy
import Idealize.ShloMosaic.Init

noncomputable section

namespace Cert.Proof

open Idealize.ShloMosaic Idealize.SL.Sem

/-- The reference terminates without a fault and leaves every argument array as launched: its run, with each
    argument read back through the stages, none of which writes it. -/
theorem frame_ref : Cert.frame_ReferenceIdeal := fun m ρ _ =>
  (θ_run Cert.ReferenceIdeal.defs _ _).mono (fun _ h c =>
    ⟨(h c Cert.ReferenceIdeal.main_arg0).trans (Cert.ReferenceIdeal.Run.rc_arg0_0_37 _),
      (h c Cert.ReferenceIdeal.main_arg1).trans (Cert.ReferenceIdeal.Run.rc_arg1_0_37 _),
      (h c Cert.ReferenceIdeal.main_arg2).trans (Cert.ReferenceIdeal.Run.rc_arg2_0_37 _),
      (h c Cert.ReferenceIdeal.main_arg3).trans (Cert.ReferenceIdeal.Run.rc_arg3_0_37 _),
      (h c Cert.ReferenceIdeal.main_arg4).trans (Cert.ReferenceIdeal.Run.rc_arg4_0_37 _),
      (h c Cert.ReferenceIdeal.main_arg5).trans (Cert.ReferenceIdeal.Run.rc_arg5_0_37 _),
      (h c Cert.ReferenceIdeal.main_arg6).trans (Cert.ReferenceIdeal.Run.rc_arg6_0_37 _),
      (h c Cert.ReferenceIdeal.main_arg7).trans (Cert.ReferenceIdeal.Run.rc_arg7_0_37 _),
      (h c Cert.ReferenceIdeal.main_arg8).trans (Cert.ReferenceIdeal.Run.rc_arg8_0_37 _),
      (h c Cert.ReferenceIdeal.main_arg9).trans (Cert.ReferenceIdeal.Run.rc_arg9_0_37 _),
      (h c Cert.ReferenceIdeal.main_arg10).trans (Cert.ReferenceIdeal.Run.rc_arg10_0_37 _),
      (h c Cert.ReferenceIdeal.main_arg11).trans (Cert.ReferenceIdeal.Run.rc_arg11_0_37 _),
      (h c Cert.ReferenceIdeal.main_arg12).trans (Cert.ReferenceIdeal.Run.rc_arg12_0_37 _),
      (h c Cert.ReferenceIdeal.main_arg13).trans (Cert.ReferenceIdeal.Run.rc_arg13_0_37 _),
      (h c Cert.ReferenceIdeal.main_arg14).trans (Cert.ReferenceIdeal.Run.rc_arg14_0_37 _),
      (h c Cert.ReferenceIdeal.main_arg15).trans (Cert.ReferenceIdeal.Run.rc_arg15_0_37 _),
      (h c Cert.ReferenceIdeal.main_arg16).trans (Cert.ReferenceIdeal.Run.rc_arg16_0_37 _),
      (h c Cert.ReferenceIdeal.main_arg17).trans (Cert.ReferenceIdeal.Run.rc_arg17_0_37 _),
      (h c Cert.ReferenceIdeal.main_arg18).trans (Cert.ReferenceIdeal.Run.rc_arg18_0_37 _),
      (h c Cert.ReferenceIdeal.main_arg19).trans (Cert.ReferenceIdeal.Run.rc_arg19_0_37 _),
      (h c Cert.ReferenceIdeal.main_arg20).trans (Cert.ReferenceIdeal.Run.rc_arg20_0_37 _),
      (h c Cert.ReferenceIdeal.main_arg21).trans (Cert.ReferenceIdeal.Run.rc_arg21_0_37 _),
      (h c Cert.ReferenceIdeal.main_arg22).trans (Cert.ReferenceIdeal.Run.rc_arg22_0_37 _),
      (h c Cert.ReferenceIdeal.main_arg23).trans (Cert.ReferenceIdeal.Run.rc_arg23_0_37 _),
      (h c Cert.ReferenceIdeal.main_arg24).trans (Cert.ReferenceIdeal.Run.rc_arg24_0_37 _),
      (h c Cert.ReferenceIdeal.main_arg25).trans (Cert.ReferenceIdeal.Run.rc_arg25_0_37 _),
      (h c Cert.ReferenceIdeal.main_arg26).trans (Cert.ReferenceIdeal.Run.rc_arg26_0_37 _),
      (h c Cert.ReferenceIdeal.main_arg27).trans (Cert.ReferenceIdeal.Run.rc_arg27_0_37 _)⟩)
    (Cert.ReferenceIdeal.Run.run (F := Ideal) m ρ)

/-- Run from memories that agree on the arguments, both programs end with the same result array: the kernel's is the
    last boundary's contents at its result buffer, the reference's the last stage's, and the two are equal array by
    array along the network (`Cert.Join.result_eq`). -/
theorem algebraic : Cert.algebraic_KernelIdeal_ReferenceIdeal := by
  intro m ρ m' ρ' _ hagree
  refine ⟨fun c => Cert.KernelIdeal.Gen.W48 m ρ c (Proc.devRef .tc Cert.KernelIdeal.main_v384),
    Cert.KernelIdeal.RunVal.run_val (F := Ideal) m ρ, ?_⟩
  refine (θ_run Cert.ReferenceIdeal.defs _ _).mono (fun _ h c =>
    ⟨(h c Cert.ReferenceIdeal.main_v561).trans (Cert.Join.result_eq m ρ m' c (hagree c)).symm,
      (h c Cert.ReferenceIdeal.main_arg0).trans (Cert.ReferenceIdeal.Run.rc_arg0_0_37 _),
      (h c Cert.ReferenceIdeal.main_arg1).trans (Cert.ReferenceIdeal.Run.rc_arg1_0_37 _),
      (h c Cert.ReferenceIdeal.main_arg2).trans (Cert.ReferenceIdeal.Run.rc_arg2_0_37 _),
      (h c Cert.ReferenceIdeal.main_arg3).trans (Cert.ReferenceIdeal.Run.rc_arg3_0_37 _),
      (h c Cert.ReferenceIdeal.main_arg4).trans (Cert.ReferenceIdeal.Run.rc_arg4_0_37 _),
      (h c Cert.ReferenceIdeal.main_arg5).trans (Cert.ReferenceIdeal.Run.rc_arg5_0_37 _),
      (h c Cert.ReferenceIdeal.main_arg6).trans (Cert.ReferenceIdeal.Run.rc_arg6_0_37 _),
      (h c Cert.ReferenceIdeal.main_arg7).trans (Cert.ReferenceIdeal.Run.rc_arg7_0_37 _),
      (h c Cert.ReferenceIdeal.main_arg8).trans (Cert.ReferenceIdeal.Run.rc_arg8_0_37 _),
      (h c Cert.ReferenceIdeal.main_arg9).trans (Cert.ReferenceIdeal.Run.rc_arg9_0_37 _),
      (h c Cert.ReferenceIdeal.main_arg10).trans (Cert.ReferenceIdeal.Run.rc_arg10_0_37 _),
      (h c Cert.ReferenceIdeal.main_arg11).trans (Cert.ReferenceIdeal.Run.rc_arg11_0_37 _),
      (h c Cert.ReferenceIdeal.main_arg12).trans (Cert.ReferenceIdeal.Run.rc_arg12_0_37 _),
      (h c Cert.ReferenceIdeal.main_arg13).trans (Cert.ReferenceIdeal.Run.rc_arg13_0_37 _),
      (h c Cert.ReferenceIdeal.main_arg14).trans (Cert.ReferenceIdeal.Run.rc_arg14_0_37 _),
      (h c Cert.ReferenceIdeal.main_arg15).trans (Cert.ReferenceIdeal.Run.rc_arg15_0_37 _),
      (h c Cert.ReferenceIdeal.main_arg16).trans (Cert.ReferenceIdeal.Run.rc_arg16_0_37 _),
      (h c Cert.ReferenceIdeal.main_arg17).trans (Cert.ReferenceIdeal.Run.rc_arg17_0_37 _),
      (h c Cert.ReferenceIdeal.main_arg18).trans (Cert.ReferenceIdeal.Run.rc_arg18_0_37 _),
      (h c Cert.ReferenceIdeal.main_arg19).trans (Cert.ReferenceIdeal.Run.rc_arg19_0_37 _),
      (h c Cert.ReferenceIdeal.main_arg20).trans (Cert.ReferenceIdeal.Run.rc_arg20_0_37 _),
      (h c Cert.ReferenceIdeal.main_arg21).trans (Cert.ReferenceIdeal.Run.rc_arg21_0_37 _),
      (h c Cert.ReferenceIdeal.main_arg22).trans (Cert.ReferenceIdeal.Run.rc_arg22_0_37 _),
      (h c Cert.ReferenceIdeal.main_arg23).trans (Cert.ReferenceIdeal.Run.rc_arg23_0_37 _),
      (h c Cert.ReferenceIdeal.main_arg24).trans (Cert.ReferenceIdeal.Run.rc_arg24_0_37 _),
      (h c Cert.ReferenceIdeal.main_arg25).trans (Cert.ReferenceIdeal.Run.rc_arg25_0_37 _),
      (h c Cert.ReferenceIdeal.main_arg26).trans (Cert.ReferenceIdeal.Run.rc_arg26_0_37 _),
      (h c Cert.ReferenceIdeal.main_arg27).trans (Cert.ReferenceIdeal.Run.rc_arg27_0_37 _)⟩)
    (Cert.ReferenceIdeal.Run.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
